-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v105)) (v1 : (c : Dev Cert.KernelIdeal.nD) → Buf (Elt Ideal) ((c.tc : Thread Cert.KernelIdeal.nD Cert.KernelIdeal.τ).loc Cert.KernelIdeal.main_v107)) (v2 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_v107) = v1 c
          ∧ r.2.mem ((c.tc : Thread Cert.KernelIdeal.nD Cert.KernelIdeal.τ).loc Cert.KernelIdeal.main_v85) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v397) = v0 c
          ∧ r.2.mem ((c.tc : Thread Cert.ReferenceIdeal.nD Cert.ReferenceIdeal.τ).loc Cert.ReferenceIdeal.main_v451) = v1 c
          ∧ r.2.mem ((c.tc : Thread Cert.ReferenceIdeal.nD Cert.ReferenceIdeal.τ).loc Cert.ReferenceIdeal.main_v334) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S262144 : Shape := ⟨1, ![262144]⟩
abbrev S64x64 : Shape := ⟨2, ![64, 64]⟩
abbrev S64 : Shape := ⟨1, ![64]⟩
abbrev S192x192 : Shape := ⟨2, ![192, 192]⟩
abbrev S192 : Shape := ⟨1, ![192]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S192x192 : S_.BroadcastsInDim S192x192 (![] : Fin 0 → Fin S192x192.rank)
  reducesTo_S192x192_S_d0_1 : S192x192.ReducesTo [0, 1] S_
  bcast_S_S192 : S_.BroadcastsInDim S192 (![] : Fin 0 → Fin S192.rank)
  reducesTo_S192_S_d0 : S192.ReducesTo [0] S_
  bcast_S_S262144 : S_.BroadcastsInDim S262144 (![] : Fin 0 → Fin S262144.rank)
  reducesTo_S262144_S_d0 : S262144.ReducesTo [0] S_

variable [Facts]

def fn_part5 {F : FTy → Type} [FloatOps F] (main_arg1 : IVec S262144 32) (main_arg20 : FVec F S64 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_c_36 : IVec S_ 32 := constantI S_ 32 0#32
  let main_v94 : IVec S262144 32 := broadcastInDim S262144 ![] bcast_S_S262144 main_c_36
  let main_v95 : IVec S262144 1 := cmpi .sge main_arg1 main_v94
  let main_c_37 : IVec S_ 32 := constantI S_ 32 8192#32
  let main_v96 : IVec S262144 32 := broadcastInDim S262144 ![] bcast_S_S262144 main_c_37
  let main_v97 : IVec S262144 1 := cmpi .slt main_arg1 main_v96
  let main_v98 : IVec S262144 1 := andi main_v95 main_v97
  let main_c_38 : IVec S_ 1 := constantI S_ 1 1#1
  let main_v99 : IVec S_ 1 := (fun x v => Host.reduce IntOp.andi x v reducesTo_S262144_S_d0 h_S_) main_v98 main_c_38
  let main_v100 : IVec S_ 1 := andi main_v93 main_v99
  main_v100

def fn_part4 {F : FTy → Type} [FloatOps F] (main_arg1 : IVec S262144 32) (main_arg16 : FVec F S192 .f32) (main_arg17 : FVec F S64x64 .f32) (main_arg18 : FVec F S64 .f32) (main_arg19 : FVec F S64x64 .f32) (main_arg20 : FVec F S64 .f32) (main_v63 : IVec S_ 1) (main_v67 : IVec S_ 1) : IVec S_ 1 :=
  let main_v68 : IVec S_ 1 := andi main_v63 main_v67
  let main_v69 : FVec F S192 .f32 := Host.absf main_arg16
  let main_cst_26 : FVec F S_ .f32 := constant S_ .f32 0x7F800000#32
  let main_v70 : FVec F S192 .f32 := broadcastInDim S192 ![] bcast_S_S192 main_cst_26
  let main_v71 : IVec S192 1 := cmpf .olt main_v69 main_v70
  let main_c_27 : IVec S_ 1 := constantI S_ 1 1#1
  let main_v72 : IVec S_ 1 := (fun x v => Host.reduce IntOp.andi x v reducesTo_S192_S_d0 h_S_) main_v71 main_c_27
  let main_v73 : IVec S_ 1 := andi main_v68 main_v72
  let main_v74 : FVec F S64x64 .f32 := Host.absf main_arg17
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg19
  let main_cst_32 : FVec F S_ .f32 := constant S_ .f32 0x7F800000#32
  fn_part5 (F := F) main_arg1 main_arg20 main_v83 main_v84 main_cst_32

def fn_part3 {F : FTy → Type} [FloatOps F] (main_arg1 : IVec S262144 32) (main_arg13 : FVec F S64x64 .f32) (main_arg14 : FVec F S64 .f32) (main_arg15 : FVec F S192x192 .f32) (main_arg16 : FVec F S192 .f32) (main_arg17 : FVec F S64x64 .f32) (main_arg18 : FVec F S64 .f32) (main_arg19 : FVec F S64x64 .f32) (main_arg20 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S192x192 .f32 := Host.absf main_arg15
  let main_cst_24 : FVec F S_ .f32 := constant S_ .f32 0x7F800000#32
  let main_v65 : FVec F S192x192 .f32 := broadcastInDim S192x192 ![] bcast_S_S192x192 main_cst_24
  let main_v66 : IVec S192x192 1 := cmpf .olt main_v64 main_v65
  let main_c_25 : IVec S_ 1 := constantI S_ 1 1#1
  let main_v67 : IVec S_ 1 := (fun x v => Host.reduce IntOp.andi x v reducesTo_S192x192_S_d0_1 h_S_) main_v66 main_c_25
  fn_part4 (F := F) main_arg1 main_arg16 main_arg17 main_arg18 main_arg19 main_arg20 main_v63 main_v67

def fn_part2 {F : FTy → Type} [FloatOps F] (main_arg1 : IVec S262144 32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S192x192 .f32) (main_arg16 : FVec F S192 .f32) (main_arg17 : FVec F S64x64 .f32) (main_arg18 : FVec F S64 .f32) (main_arg19 : FVec F S64x64 .f32) (main_arg20 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg1 main_arg13 main_arg14 main_arg15 main_arg16 main_arg17 main_arg18 main_arg19 main_arg20 main_v48 main_v49 main_v50

def fn_part1 {F : FTy → Type} [FloatOps F] (main_arg1 : IVec S262144 32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S192x192 .f32) (main_arg16 : FVec F S192 .f32) (main_arg17 : FVec F S64x64 .f32) (main_arg18 : FVec F S64 .f32) (main_arg19 : FVec F S64x64 .f32) (main_arg20 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_arg19 main_arg20 main_v33

def fn {F : FTy → Type} [FloatOps F] (main_arg0 : FVec F S8192x64 .f32) (main_arg1 : IVec S262144 32) (main_arg2 : IVec S262144 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S192x192 .f32) (main_arg16 : FVec F S192 .f32) (main_arg17 : FVec F S64x64 .f32) (main_arg18 : FVec F S64 .f32) (main_arg19 : FVec F S64x64 .f32) (main_arg20 : FVec F S64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg6 main_arg7 main_arg8 main_arg9 main_arg10 main_arg11 main_arg12 main_arg13 main_arg14 main_arg15 main_arg16 main_arg17 main_arg18 main_arg19 main_arg20 main_v13 main_v16
-- ==== Kernel.lean ====
abbrev S8192x64 : Shape := ⟨2, ![8192, 64]⟩
abbrev S262144 : Shape := ⟨1, ![262144]⟩
abbrev S64x64 : Shape := ⟨2, ![64, 64]⟩
abbrev S64 : Shape := ⟨1, ![64]⟩
abbrev S192x192 : Shape := ⟨2, ![192, 192]⟩
abbrev S192 : Shape := ⟨1, ![192]⟩
abbrev S_ : Shape := ⟨0, ![]⟩
abbrev S8192 : Shape := ⟨1, ![8192]⟩
abbrev S262144x1 : Shape := ⟨2, ![262144, 1]⟩
abbrev S270336 : Shape := ⟨1, ![270336]⟩
abbrev S8192x8192 : Shape := ⟨2, ![8192, 8192]⟩
abbrev S270336x1 : Shape := ⟨2, ![270336, 1]⟩
abbrev S270336x2 : Shape := ⟨2, ![270336, 2]⟩
abbrev S64x192 : Shape := ⟨2, ![64, 192]⟩
abbrev S64x256 : Shape := ⟨2, ![64, 256]⟩
abbrev S256 : Shape := ⟨1, ![256]⟩
abbrev S1x256 : Shape := ⟨2, ![1, 256]⟩
abbrev S8192x256 : Shape := ⟨2, ![8192, 256]⟩
abbrev S2048x2048 : Shape := ⟨2, ![2048, 2048]⟩
abbrev S2048x256 : Shape := ⟨2, ![2048, 256]⟩
abbrev S2048x64 : Shape := ⟨2, ![2048, 64]⟩
abbrev S256x256 : Shape := ⟨2, ![256, 256]⟩
abbrev S8192x192 : Shape := ⟨2, ![8192, 192]⟩
abbrev S1x192 : Shape := ⟨2, ![1, 192]⟩
abbrev S8192x64x3 : Shape := ⟨3, ![8192, 64, 3]⟩
abbrev S8192x64x1 : Shape := ⟨3, ![8192, 64, 1]⟩
abbrev S64x128 : Shape := ⟨2, ![64, 128]⟩
abbrev S128 : Shape := ⟨1, ![128]⟩
abbrev S1x128 : Shape := ⟨2, ![1, 128]⟩
abbrev S8192x128 : Shape := ⟨2, ![8192, 128]⟩
abbrev S2048x128 : Shape := ⟨2, ![2048, 128]⟩
abbrev S512x64 : Shape := ⟨2, ![512, 64]⟩
abbrev S2048x512 : Shape := ⟨2, ![2048, 512]⟩

abbrev nBuf : Space → Nat
  | .hbm => 158
  | .vmem => 30
  | .smem => 0
  | _ => 0

abbrev hbmTy0_0 (i : Nat) : BufTy := match i % 128 with
  | 0 => ⟨S8192x64, .f32⟩
  | 1 => ⟨S262144, .i32⟩
  | 2 => ⟨S262144, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S192x192, .f32⟩
  | 16 => ⟨S192, .f32⟩
  | 17 => ⟨S64x64, .f32⟩
  | 18 => ⟨S64, .f32⟩
  | 19 => ⟨S64x64, .f32⟩
  | 20 => ⟨S64, .f32⟩
  | 21 => ⟨S_, .f32⟩
  | 22 => ⟨S8192, .f32⟩
  | 23 => ⟨S_, .i32⟩
  | 24 => ⟨S262144, .i32⟩
  | 25 => ⟨S262144, .i1⟩
  | 26 => ⟨S_, .i32⟩
  | 27 => ⟨S262144, .i32⟩
  | 28 => ⟨S262144, .i32⟩
  | 29 => ⟨S262144, .i32⟩
  | 30 => ⟨S262144x1, .i32⟩
  | 31 => ⟨S_, .f32⟩
  | 32 => ⟨S262144, .f32⟩
  | 33 => ⟨S8192, .f32⟩
  | 34 => ⟨S8192, .f32⟩
  | 35 => ⟨S_, .i32⟩
  | 36 => ⟨S262144, .i32⟩
  | 37 => ⟨S262144, .i1⟩
  | 38 => ⟨S_, .i32⟩
  | 39 => ⟨S262144, .i32⟩
  | 40 => ⟨S262144, .i32⟩
  | 41 => ⟨S262144, .i32⟩
  | 42 => ⟨S262144x1, .i32⟩
  | 43 => ⟨S262144, .f32⟩
  | 44 => ⟨S_, .i32⟩
  | 45 => ⟨S262144, .i32⟩
  | 46 => ⟨S262144, .i1⟩
  | 47 => ⟨S_, .i32⟩
  | 48 => ⟨S262144, .i32⟩
  | 49 => ⟨S262144, .i32⟩
  | 50 => ⟨S262144, .i32⟩
  | 51 => ⟨S262144x1, .i32⟩
  | 52 => ⟨S262144, .f32⟩
  | 53 => ⟨S262144, .f32⟩
  | 54 => ⟨S8192, .i32⟩
  | 55 => ⟨S8192, .f32⟩
  | 56 => ⟨S270336, .i32⟩
  | 57 => ⟨S270336, .i32⟩
  | 58 => ⟨S270336, .f32⟩
  | 59 => ⟨S_, .f32⟩
  | 60 => ⟨S8192x8192, .f32⟩
  | 61 => ⟨S_, .i32⟩
  | 62 => ⟨S270336, .i32⟩
  | 63 => ⟨S270336, .i1⟩
  | 64 => ⟨S_, .i32⟩
  | 65 => ⟨S270336, .i32⟩
  | 66 => ⟨S270336, .i32⟩
  | 67 => ⟨S270336, .i32⟩
  | 68 => ⟨S_, .i32⟩
  | 69 => ⟨S270336, .i32⟩
  | 70 => ⟨S270336, .i1⟩
  | 71 => ⟨S_, .i32⟩
  | 72 => ⟨S270336, .i32⟩
  | 73 => ⟨S270336, .i32⟩
  | 74 => ⟨S270336, .i32⟩
  | 75 => ⟨S270336x1, .i32⟩
  | 76 => ⟨S270336x1, .i32⟩
  | 77 => ⟨S270336x2, .i32⟩
  | 78 => ⟨S8192x8192, .f32⟩
  | 79 => ⟨S8192x8192, .bf16⟩
  | 80 => ⟨S64x192, .f32⟩
  | 81 => ⟨S_, .i32⟩
  | 82 => ⟨S_, .f32⟩
  | 83 => ⟨S64x256, .f32⟩
  | 84 => ⟨S192, .f32⟩
  | 85 => ⟨S_, .i32⟩
  | 86 => ⟨S_, .f32⟩
  | 87 => ⟨S256, .f32⟩
  | 88 => ⟨S8192x64, .bf16⟩
  | 89 => ⟨S64x256, .bf16⟩
  | 90 => ⟨S1x256, .f32⟩
  | 91 => ⟨S8192x256, .f32⟩
  | 92 => ⟨S_, .f32⟩
  | 93 => ⟨S64x64, .f32⟩
  | 94 => ⟨S64x192, .f32⟩
  | 95 => ⟨S64x192, .f32⟩
  | 96 => ⟨S64x192, .f32⟩
  | 97 => ⟨S192x192, .f32⟩
  | 98 => ⟨S_, .i32⟩
  | 99 => ⟨S_, .f32⟩
  | 100 => ⟨S256x256, .f32⟩
  | 101 => ⟨S192, .f32⟩
  | 102 => ⟨S_, .i32⟩
  | 103 => ⟨S_, .f32⟩
  | 104 => ⟨S256, .f32⟩
  | 105 => ⟨S8192x256, .bf16⟩
  | 106 => ⟨S256x256, .bf16⟩
  | 107 => ⟨S1x256, .f32⟩
  | 108 => ⟨S8192x256, .f32⟩
  | 109 => ⟨S8192x192, .f32⟩
  | 110 => ⟨S8192x64, .f32⟩
  | 111 => ⟨S8192x64, .f32⟩
  | 112 => ⟨S8192x64, .f32⟩
  | 113 => ⟨S8192x192, .f32⟩
  | 114 => ⟨S1x192, .f32⟩
  | 115 => ⟨S8192x192, .f32⟩
  | 116 => ⟨S8192x192, .f32⟩
  | 117 => ⟨S8192x64x3, .f32⟩
  | 118 => ⟨S_, .f32⟩
  | 119 => ⟨S8192x64, .f32⟩
  | 120 => ⟨S_, .f32⟩
  | 121 => ⟨S8192x64, .f32⟩
  | 122 => ⟨S8192x64, .f32⟩
  | 123 => ⟨S8192x64x1, .f32⟩
  | 124 => ⟨S8192x64x3, .f32⟩
  | 125 => ⟨S8192x64x3, .f32⟩
  | 126 => ⟨S8192x64x3, .f32⟩
  | 127 => ⟨S_, .f32⟩
  | _ => ⟨S8192x64, .f32⟩

abbrev hbmTy0_1 (i : Nat) : BufTy := match i % 128 with
  | 0 => ⟨S8192x64, .f32⟩
  | 1 => ⟨S8192x64x1, .f32⟩
  | 2 => ⟨S8192x64x3, .f32⟩
  | 3 => ⟨S8192x64x3, .f32⟩
  | 4 => ⟨S8192x64x1, .f32⟩
  | 5 => ⟨S8192x64, .f32⟩
  | 6 => ⟨S8192x64, .f32⟩
  | 7 => ⟨S8192x64x1, .f32⟩
  | 8 => ⟨S8192x64, .f32⟩
  | 9 => ⟨S8192x64, .f32⟩
  | 10 => ⟨S8192x64, .f32⟩
  | 11 => ⟨S8192x64x1, .f32⟩
  | 12 => ⟨S8192x64, .f32⟩
  | 13 => ⟨S8192x64, .f32⟩
  | 14 => ⟨S8192x64, .f32⟩
  | 15 => ⟨S64x128, .f32⟩
  | 16 => ⟨S_, .i32⟩
  | 17 => ⟨S_, .f32⟩
  | 18 => ⟨S64x128, .f32⟩
  | 19 => ⟨S128, .f32⟩
  | 20 => ⟨S_, .i32⟩
  | 21 => ⟨S_, .f32⟩
  | 22 => ⟨S128, .f32⟩
  | 23 => ⟨S8192x64, .bf16⟩
  | 24 => ⟨S64x128, .bf16⟩
  | 25 => ⟨S1x128, .f32⟩
  | 26 => ⟨S8192x128, .f32⟩
  | 27 => ⟨S8192x64, .f32⟩
  | 28 => ⟨S8192x64, .f32⟩
  | 29 => ⟨S8192x8192, .f32⟩
  | _ => ⟨S8192x64, .f32⟩

abbrev hbmTy (i : Nat) : BufTy := match i / 128 with
  | 0 => hbmTy0_0 i
  | 1 => hbmTy0_1 i
  | _ => ⟨S8192x64, .f32⟩

abbrev bufTy : (tb : Table) → Fin (tcTables nBuf tb) → BufTy
  | .hbm, ⟨i, _⟩ => hbmTy i
  | .local _ .vmem, ⟨0, _⟩ => ⟨S2048x2048, .bf16⟩
  | .local _ .vmem, ⟨1, _⟩ => ⟨S2048x2048, .bf16⟩
  | .local _ .vmem, ⟨2, _⟩ => ⟨S8192x64, .bf16⟩
  | .local _ .vmem, ⟨3, _⟩ => ⟨S64x256, .bf16⟩
  | .local _ .vmem, ⟨4, _⟩ => ⟨S1x256, .f32⟩
  | .local _ .vmem, ⟨5, _⟩ => ⟨S2048x256, .f32⟩
  | .local _ .vmem, ⟨6, _⟩ => ⟨S2048x256, .f32⟩
  | .local _ .vmem, ⟨7, _⟩ => ⟨S2048x64, .f32⟩
  | .local _ .vmem, ⟨8, _⟩ => ⟨S2048x2048, .bf16⟩
  | .local _ .vmem, ⟨9, _⟩ => ⟨S2048x2048, .bf16⟩
  | .local _ .vmem, ⟨10, _⟩ => ⟨S8192x256, .bf16⟩
  | .local _ .vmem, ⟨11, _⟩ => ⟨S256x256, .bf16⟩
  | .local _ .vmem, ⟨12, _⟩ => ⟨S1x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x2048, .bf16⟩
  | .local _ .vmem, ⟨17, _⟩ => ⟨S2048x2048, .bf16⟩
  | .local _ .vmem, ⟨18, _⟩ => ⟨S8192x64, .bf16⟩
  | .local _ .vmem, ⟨19, _⟩ => ⟨S64x128, .bf16⟩
  | .local _ .vmem, ⟨20, _⟩ => ⟨S1x128, .f32⟩
  | .local _ .vmem, ⟨21, _⟩ => ⟨S2048x128, .f32⟩
  | .local _ .vmem, ⟨22, _⟩ => ⟨S2048x128, .f32⟩
  | .local _ .vmem, ⟨23, _⟩ => ⟨S2048x64, .f32⟩
  | .local _ .vmem, ⟨24, _⟩ => ⟨S2048x64, .f32⟩
  | .local _ .vmem, ⟨25, _⟩ => ⟨S2048x64, .f32⟩
  | .local _ .vmem, ⟨26, _⟩ => ⟨S512x64, .f32⟩
  | .local _ .vmem, ⟨27, _⟩ => ⟨S512x64, .f32⟩
  | .local _ .vmem, ⟨28, _⟩ => ⟨S2048x512, .f32⟩
  | .local _ .vmem, ⟨29, _⟩ => ⟨S2048x512, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_c : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst_1 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_c_2 : Ref sig .tc := ⟨.hbm, 35, rfl⟩
abbrev main_v10 : Ref sig .tc := ⟨.hbm, 36, rfl⟩
abbrev main_v11 : Ref sig .tc := ⟨.hbm, 37, rfl⟩
abbrev main_c_3 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_4 : Ref sig .tc := ⟨.hbm, 44, rfl⟩
abbrev main_v17 : Ref sig .tc := ⟨.hbm, 45, rfl⟩
abbrev main_v18 : Ref sig .tc := ⟨.hbm, 46, rfl⟩
abbrev main_c_5 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_6 : Ref sig .tc := ⟨.hbm, 59, rfl⟩
abbrev main_v30 : Ref sig .tc := ⟨.hbm, 60, rfl⟩
abbrev main_c_7 : Ref sig .tc := ⟨.hbm, 61, rfl⟩
abbrev main_v31 : Ref sig .tc := ⟨.hbm, 62, rfl⟩
abbrev main_v32 : Ref sig .tc := ⟨.hbm, 63, rfl⟩
abbrev main_c_8 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_c_9 : Ref sig .tc := ⟨.hbm, 68, rfl⟩
abbrev main_v36 : Ref sig .tc := ⟨.hbm, 69, rfl⟩
abbrev main_v37 : Ref sig .tc := ⟨.hbm, 70, rfl⟩
abbrev main_c_10 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_c_11 : Ref sig .tc := ⟨.hbm, 81, rfl⟩
abbrev main_call0_v0 : Ref sig .tc := ⟨.hbm, 82, rfl⟩
abbrev main_v47 : Ref sig .tc := ⟨.hbm, 83, rfl⟩
abbrev main_v48 : Ref sig .tc := ⟨.hbm, 84, rfl⟩
abbrev main_c_12 : Ref sig .tc := ⟨.hbm, 85, rfl⟩
abbrev main_call1_v0 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_13 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_c_14 : Ref sig .tc := ⟨.hbm, 98, rfl⟩
abbrev main_call2_v0 : Ref sig .tc := ⟨.hbm, 99, rfl⟩
abbrev main_v59 : Ref sig .tc := ⟨.hbm, 100, rfl⟩
abbrev main_v60 : Ref sig .tc := ⟨.hbm, 101, rfl⟩
abbrev main_c_15 : Ref sig .tc := ⟨.hbm, 102, rfl⟩
abbrev main_call3_v0 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_cst_16 : Ref sig .tc := ⟨.hbm, 118, rfl⟩
abbrev main_v75 : Ref sig .tc := ⟨.hbm, 119, rfl⟩
abbrev main_cst_17 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_18 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_c_19 : Ref sig .tc := ⟨.hbm, 144, rfl⟩
abbrev main_call4_v0 : Ref sig .tc := ⟨.hbm, 145, rfl⟩
abbrev main_v98 : Ref sig .tc := ⟨.hbm, 146, rfl⟩
abbrev main_v99 : Ref sig .tc := ⟨.hbm, 147, rfl⟩
abbrev main_c_20 : Ref sig .tc := ⟨.hbm, 148, rfl⟩
abbrev main_call5_v0 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 4], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![4, 4], ![false, false]⟩

def k2_mult1 (i : grid2.Coords) : BitVec 32 :=
  let arg1 : BitVec 32 := BitVec.ofNat 32 (i 1).val
  let c2048_i32 : BitVec 32 := 2048#32
  let v3 : BitVec 32 := Scalar.muli arg1 c2048_i32
  v3
def k2_off1 (i : grid2.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k2_cond2 (i : grid2.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8192x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S64x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S2048x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![4, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2048x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  bcast_S_S8192 : S_.BroadcastsInDim S8192 (![] : Fin 0 → Fin S8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144_S8192_S270336_d0 : Shape.Concatenates [S262144, S8192] S270336 0
  bcast_S_S8192x8192 : S_.BroadcastsInDim S8192x8192 (![] : Fin 0 → Fin S8192x8192.rank)
  bcast_S_S270336 : S_.BroadcastsInDim S270336 (![] : Fin 0 → Fin S270336.rank)
  bcast_S270336_S270336x1_0 : S270336.BroadcastsInDim S270336x1 (![0] : Fin 1 → Fin S270336x1.rank)
  concatenates_S270336x1_S270336x1_S270336x2_d1 : Shape.Concatenates [S270336x1, S270336x1] S270336x2 1
  bitsLt_bf16_f32 : FTy.bits .bf16 < FTy.bits .f32
  concatenates_S64x64_S64x64_S64x64_S64x192_d1 : Shape.Concatenates [S64x64, S64x64, S64x64] S64x192 1
  pads_S64x192_S64x256_000_0640 : S64x192.Pads (![0, 0] : Fin 2 → Nat) ![0, 64] ![0, 0] S64x256
  h_S_ : 0 < S_.numel
  concatenates_S64_S64_S64_S192_d0 : Shape.Concatenates [S64, S64, S64] S192 0
  pads_S192_S256_0640 : S192.Pads (![0] : Fin 1 → Nat) ![64] ![0] S256
  shapeCasts_S256_S1x256 : S256.ShapeCasts S1x256
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  bcast_S_S64x64 : S_.BroadcastsInDim S64x64 (![] : Fin 0 → Fin S64x64.rank)
  concatenates_S64x192_S64x192_S64x192_S192x192_d0 : Shape.Concatenates [S64x192, S64x192, S64x192] S192x192 0
  pads_S192x192_S256x256_0640_0640 : S192x192.Pads (![0, 0] : Fin 2 → Nat) ![64, 64] ![0, 0] S256x256
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S8192x256_S8192x192_0_0 : S8192x256.Slices ![0, 0] S8192x192
  slices_S8192x192_S8192x64_0_0 : S8192x192.Slices ![0, 0] S8192x64
  slices_S8192x192_S8192x64_0_64 : S8192x192.Slices ![0, 64] S8192x64
  slices_S8192x192_S8192x64_0_128 : S8192x192.Slices ![0, 128] S8192x64
  bcast_S192_S1x192_1 : S192.BroadcastsInDim S1x192 (![1] : Fin 1 → Fin S1x192.rank)
  bcast_S1x192_S8192x192_0_1 : S1x192.BroadcastsInDim S8192x192 (![0, 1] : Fin 2 → Fin S8192x192.rank)
  shapeCasts_S8192x192_S8192x64x3 : S8192x192.ShapeCasts S8192x64x3
  reducesTo_S8192x64x3_S8192x64_d2 : S8192x64x3.ReducesTo [2] S8192x64
  bcast_S_S8192x64 : S_.BroadcastsInDim S8192x64 (![] : Fin 0 → Fin S8192x64.rank)
  bcast_S8192x64_S8192x64x1_0_1 : S8192x64.BroadcastsInDim S8192x64x1 (![0, 1] : Fin 2 → Fin S8192x64x1.rank)
  bcast_S8192x64x1_S8192x64x3_0_1_2 : S8192x64x1.BroadcastsInDim S8192x64x3 (![0, 1, 2] : Fin 3 → Fin S8192x64x3.rank)
  slices_S8192x64x3_S8192x64x1_0_0_0 : S8192x64x3.Slices ![0, 0, 0] S8192x64x1
  shapeCasts_S8192x64x1_S8192x64 : S8192x64x1.ShapeCasts S8192x64
  slices_S8192x64x3_S8192x64x1_0_0_1 : S8192x64x3.Slices ![0, 0, 1] S8192x64x1
  slices_S8192x64x3_S8192x64x1_0_0_2 : S8192x64x3.Slices ![0, 0, 2] S8192x64x1
  concatenates_S64x64_S64x64_S64x128_d1 : Shape.Concatenates [S64x64, S64x64] S64x128 1
  pads_S64x128_S64x128_000_000 : S64x128.Pads (![0, 0] : Fin 2 → Nat) ![0, 0] ![0, 0] S64x128
  concatenates_S64_S64_S128_d0 : Shape.Concatenates [S64, S64] S128 0
  pads_S128_S128_000 : S128.Pads (![0] : Fin 1 → Nat) ![0] ![0] S128
  shapeCasts_S128_S1x128 : S128.ShapeCasts S1x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  slices_S8192x128_S8192x64_0_0 : S8192x128.Slices ![0, 0] S8192x64
  slices_S8192x128_S8192x64_0_64 : S8192x128.Slices ![0, 64] S8192x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S2048x512_S2048x512_0_0 : ∀ a, (![0, 0] : Fin 2 → Nat) a + S2048x512.size a ≤ S2048x512.size a
  h_S2048x512 : 0 < S2048x512.numel
  scatter_S8192_S262144x1_S262144_n_0_0_1_wf : ScatterDims.WF S8192 S262144x1 S262144 [] [0] [0] 1
  gather_S8192_S262144x1_S262144_n_0_n_n_0_1_1_wf : GatherDims.WF S8192 S262144x1 S262144 [] [0] [] [0] [] 1 ![1]
  scatter_S8192x8192_S270336x2_S270336_n_01_01_1_wf : ScatterDims.WF S8192x8192 S270336x2 S270336 [] [0, 1] [0, 1] 1
  dot_S2048x2048_S2048x64_S2048x64_1_0_0_1_n_n_wf : DotDims.WF S2048x2048 S2048x64 S2048x64 [1] [0] [0] [1] [] []
  dot_S2048x64_S64x256_S2048x256_1_0_0_1_n_n_wf : DotDims.WF S2048x64 S64x256 S2048x256 [1] [0] [0] [1] [] []
  dot_S2048x2048_S2048x256_S2048x256_1_0_0_1_n_n_wf : DotDims.WF S2048x2048 S2048x256 S2048x256 [1] [0] [0] [1] [] []
  dot_S2048x256_S256x256_S2048x256_1_0_0_1_n_n_wf : DotDims.WF S2048x256 S256x256 S2048x256 [1] [0] [0] [1] [] []
  dot_S8192x192_S192x192_S8192x192_1_0_0_1_n_n_wf : DotDims.WF S8192x192 S192x192 S8192x192 [1] [0] [0] [1] [] []
  dot_S2048x64_S64x128_S2048x128_1_0_0_1_n_n_wf : DotDims.WF S2048x64 S64x128 S2048x128 [1] [0] [0] [1] [] []
  dot_S2048x64_S512x64_S2048x512_1_1_0_0_n_n_wf : DotDims.WF S2048x64 S512x64 S2048x512 [1] [1] [0] [0] [] []
  hrank0 : 0 < grid0.rank
  k0_mult1_dvd : ∀ i : grid0.Coords, 2048 ∣ (k0_mult1 i).toNat
  k0_off1_inb : ∀ i : grid0.Coords, ∀ a, (k0_off1 i) a + S2048x64.size a ≤ S8192x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x8192.size a
  hwx0_0 : ∀ i : grid0.Coords, EltTy.bits .bf16 = 32 ∨ (Rect.block (s := S8192x8192) S2048x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S8192x64.size a
  hwx0_1 : ∀ i : grid0.Coords, EltTy.bits .bf16 = 32 ∨ (Rect.block (s := S8192x64) S8192x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .bf16 = 32 ∨ (Rect.block (s := S64x256) S64x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S8192x256.size a
  hwx0_4 : ∀ i : grid0.Coords, EltTy.bits .f32 = 32 ∨ (Rect.block (s := S8192x256) S2048x256.size (cc0_transform_4 i) (hinb0_4 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S8192x8192.size a
  hwx1_0 : ∀ i : grid1.Coords, EltTy.bits .bf16 = 32 ∨ (Rect.block (s := S8192x8192) S2048x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x256.size a ≤ S8192x256.size a
  hwx1_4 : ∀ i : grid1.Coords, EltTy.bits .f32 = 32 ∨ (Rect.block (s := S8192x256) S2048x256.size (cc1_transform_4 i) (hinb1_4 i)).WholeWords (EltTy.packing .f32)
  hrank2 : 0 < grid2.rank
  k2_mult1_dvd : ∀ i : grid2.Coords, 2048 ∣ (k2_mult1 i).toNat
  k2_off1_inb : ∀ i : grid2.Coords, ∀ a, (k2_off1 i) a + S2048x64.size a ≤ S8192x64.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S8192x8192.size a
  hwx2_0 : ∀ i : grid2.Coords, EltTy.bits .bf16 = 32 ∨ (Rect.block (s := S8192x8192) S2048x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S8192x64.size a
  hwx2_1 : ∀ i : grid2.Coords, EltTy.bits .bf16 = 32 ∨ (Rect.block (s := S8192x64) S8192x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .bf16 = 32 ∨ (Rect.block (s := S64x128) S64x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x128.size a ≤ S8192x128.size a
  hwx2_4 : ∀ i : grid2.Coords, EltTy.bits .f32 = 32 ∨ (Rect.block (s := S8192x128) S2048x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x64.size a ≤ S8192x64.size a
  hwx3_0 : ∀ i : grid3.Coords, EltTy.bits .f32 = 32 ∨ (Rect.block (s := S8192x64) S2048x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x64.size a ≤ S8192x64.size a
  hwx3_1 : ∀ i : grid3.Coords, EltTy.bits .f32 = 32 ∨ (Rect.block (s := S8192x64) S512x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x512.size a ≤ S8192x8192.size a
  hwx3_2 : ∀ i : grid3.Coords, EltTy.bits .f32 = 32 ∨ (Rect.block (s := S8192x8192) S2048x512.size (cc3_transform_2 i) (hinb3_2 i)).WholeWords (EltTy.packing .f32)

variable [Facts₀]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def gather_S8192_S262144x1_S262144_n_0_n_n_0_1_1 : GatherDims S8192 S262144x1 S262144 where
  offsetDims := []
  collapsedSliceDims := [0]
  operandBatchingDims := []
  startIndicesBatchingDims := []
  startIndexMap := [0]
  indexVectorDim := 1
  sliceSizes := ![1]
  wf := gather_S8192_S262144x1_S262144_n_0_n_n_0_1_1_wf
def scatter_S8192x8192_S270336x2_S270336_n_01_01_1 : ScatterDims S8192x8192 S270336x2 S270336 where
  updateWindowDims := []
  insertedWindowDims := [0, 1]
  scatterDimsToOperandDims := [0, 1]
  indexVectorDim := 1
  wf := scatter_S8192x8192_S270336x2_S270336_n_01_01_1_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S8192x192_S192x192_S8192x192_1_0_0_1_n_n : DotDims S8192x192 S192x192 S8192x192 where
  lhsContracting := [1]
  rhsContracting := [0]
  lhsNonContracting := [0]
  rhsNonContracting := [1]
  lhsBatch := []
  rhsBatch := []
  wf := dot_S8192x192_S192x192_S8192x192_1_0_0_1_n_n_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x64_S512x64_S2048x512_1_1_0_0_n_n : DotDims S2048x64 S512x64 S2048x512 where
  lhsContracting := [1]
  rhsContracting := [1]
  lhsNonContracting := [0]
  rhsNonContracting := [0]
  lhsBatch := []
  rhsBatch := []
  wf := dot_S2048x64_S512x64_S2048x512_1_1_0_0_n_n_wf

abbrev win0_0 : Pipeline.Window sig grid0 :=
  Pipeline.Window.ofSpec (Memref.whole main_v45) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S8192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v51) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v52) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v53) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v45) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v62) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v63) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v64) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v65) S2048x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v45) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v101) S8192x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v102) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v103) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v104) S2048x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v106) S2048x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v106) S512x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v107) S2048x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S8192x64 : Shape := ⟨2, ![8192, 64]⟩
abbrev S262144 : Shape := ⟨1, ![262144]⟩
abbrev S64x64 : Shape := ⟨2, ![64, 64]⟩
abbrev S64 : Shape := ⟨1, ![64]⟩
abbrev S192x192 : Shape := ⟨2, ![192, 192]⟩
abbrev S192 : Shape := ⟨1, ![192]⟩
abbrev S_ : Shape := ⟨0, ![]⟩
abbrev S8192 : Shape := ⟨1, ![8192]⟩
abbrev S262144x1 : Shape := ⟨2, ![262144, 1]⟩
abbrev S262144x64 : Shape := ⟨2, ![262144, 64]⟩
abbrev S8192x1 : Shape := ⟨2, ![8192, 1]⟩
abbrev S1x64 : Shape := ⟨2, ![1, 64]⟩
abbrev S8192x192 : Shape := ⟨2, ![8192, 192]⟩
abbrev S1x192 : Shape := ⟨2, ![1, 192]⟩
abbrev S8192x64x3 : Shape := ⟨3, ![8192, 64, 3]⟩
abbrev S8192x64x1 : Shape := ⟨3, ![8192, 64, 1]⟩
abbrev S64x8192 : Shape := ⟨2, ![64, 8192]⟩
abbrev S8192x8192 : Shape := ⟨2, ![8192, 8192]⟩

abbrev nBuf : Space → Nat
  | .hbm => 592
  | .vmem => 0
  | .smem => 0
  | _ => 0

abbrev hbmTy0_0 (i : Nat) : BufTy := match i % 128 with
  | 0 => ⟨S8192x64, .f32⟩
  | 1 => ⟨S262144, .i32⟩
  | 2 => ⟨S262144, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S192x192, .f32⟩
  | 16 => ⟨S192, .f32⟩
  | 17 => ⟨S64x64, .f32⟩
  | 18 => ⟨S64, .f32⟩
  | 19 => ⟨S64x64, .f32⟩
  | 20 => ⟨S64, .f32⟩
  | 21 => ⟨S8192x64, .f32⟩
  | 22 => ⟨S_, .f32⟩
  | 23 => ⟨S8192, .f32⟩
  | 24 => ⟨S_, .i32⟩
  | 25 => ⟨S262144, .i32⟩
  | 26 => ⟨S262144, .i1⟩
  | 27 => ⟨S_, .i32⟩
  | 28 => ⟨S262144, .i32⟩
  | 29 => ⟨S262144, .i32⟩
  | 30 => ⟨S262144, .i32⟩
  | 31 => ⟨S262144x1, .i32⟩
  | 32 => ⟨S_, .f32⟩
  | 33 => ⟨S262144, .f32⟩
  | 34 => ⟨S8192, .f32⟩
  | 35 => ⟨S8192, .f32⟩
  | 36 => ⟨S_, .i32⟩
  | 37 => ⟨S262144, .i32⟩
  | 38 => ⟨S262144, .i1⟩
  | 39 => ⟨S_, .i32⟩
  | 40 => ⟨S262144, .i32⟩
  | 41 => ⟨S262144, .i32⟩
  | 42 => ⟨S262144, .i32⟩
  | 43 => ⟨S262144x1, .i32⟩
  | 44 => ⟨S262144, .f32⟩
  | 45 => ⟨S_, .i32⟩
  | 46 => ⟨S262144, .i32⟩
  | 47 => ⟨S262144, .i1⟩
  | 48 => ⟨S_, .i32⟩
  | 49 => ⟨S262144, .i32⟩
  | 50 => ⟨S262144, .i32⟩
  | 51 => ⟨S262144, .i32⟩
  | 52 => ⟨S262144x1, .i32⟩
  | 53 => ⟨S262144, .f32⟩
  | 54 => ⟨S262144, .f32⟩
  | 55 => ⟨S_, .f32⟩
  | 56 => ⟨S8192x64, .f32⟩
  | 57 => ⟨S_, .i32⟩
  | 58 => ⟨S262144, .i32⟩
  | 59 => ⟨S262144, .i1⟩
  | 60 => ⟨S_, .i32⟩
  | 61 => ⟨S262144, .i32⟩
  | 62 => ⟨S262144, .i32⟩
  | 63 => ⟨S262144, .i32⟩
  | 64 => ⟨S262144x1, .i32⟩
  | 65 => ⟨S262144x64, .f32⟩
  | 66 => ⟨S262144x1, .f32⟩
  | 67 => ⟨S262144x64, .f32⟩
  | 68 => ⟨S262144x64, .f32⟩
  | 69 => ⟨S_, .i32⟩
  | 70 => ⟨S262144, .i32⟩
  | 71 => ⟨S262144, .i1⟩
  | 72 => ⟨S_, .i32⟩
  | 73 => ⟨S262144, .i32⟩
  | 74 => ⟨S262144, .i32⟩
  | 75 => ⟨S262144, .i32⟩
  | 76 => ⟨S262144x1, .i32⟩
  | 77 => ⟨S8192x64, .f32⟩
  | 78 => ⟨S8192, .f32⟩
  | 79 => ⟨S8192x1, .f32⟩
  | 80 => ⟨S8192x64, .f32⟩
  | 81 => ⟨S8192x64, .f32⟩
  | 82 => ⟨S8192x64, .f32⟩
  | 83 => ⟨S1x64, .f32⟩
  | 84 => ⟨S8192x64, .f32⟩
  | 85 => ⟨S8192x64, .f32⟩
  | 86 => ⟨S_, .f32⟩
  | 87 => ⟨S8192x64, .f32⟩
  | 88 => ⟨S8192x64, .f32⟩
  | 89 => ⟨S8192x64, .f32⟩
  | 90 => ⟨S_, .f32⟩
  | 91 => ⟨S8192, .f32⟩
  | 92 => ⟨S_, .i32⟩
  | 93 => ⟨S262144, .i32⟩
  | 94 => ⟨S262144, .i1⟩
  | 95 => ⟨S_, .i32⟩
  | 96 => ⟨S262144, .i32⟩
  | 97 => ⟨S262144, .i32⟩
  | 98 => ⟨S262144, .i32⟩
  | 99 => ⟨S262144x1, .i32⟩
  | 100 => ⟨S_, .f32⟩
  | 101 => ⟨S262144, .f32⟩
  | 102 => ⟨S8192, .f32⟩
  | 103 => ⟨S8192, .f32⟩
  | 104 => ⟨S_, .i32⟩
  | 105 => ⟨S262144, .i32⟩
  | 106 => ⟨S262144, .i1⟩
  | 107 => ⟨S_, .i32⟩
  | 108 => ⟨S262144, .i32⟩
  | 109 => ⟨S262144, .i32⟩
  | 110 => ⟨S262144, .i32⟩
  | 111 => ⟨S262144x1, .i32⟩
  | 112 => ⟨S262144, .f32⟩
  | 113 => ⟨S_, .i32⟩
  | 114 => ⟨S262144, .i32⟩
  | 115 => ⟨S262144, .i1⟩
  | 116 => ⟨S_, .i32⟩
  | 117 => ⟨S262144, .i32⟩
  | 118 => ⟨S262144, .i32⟩
  | 119 => ⟨S262144, .i32⟩
  | 120 => ⟨S262144x1, .i32⟩
  | 121 => ⟨S262144, .f32⟩
  | 122 => ⟨S262144, .f32⟩
  | 123 => ⟨S_, .f32⟩
  | 124 => ⟨S8192x64, .f32⟩
  | 125 => ⟨S_, .i32⟩
  | 126 => ⟨S262144, .i32⟩
  | 127 => ⟨S262144, .i1⟩
  | _ => ⟨S8192x64, .f32⟩

abbrev hbmTy0_1 (i : Nat) : BufTy := match i % 128 with
  | 0 => ⟨S_, .i32⟩
  | 1 => ⟨S262144, .i32⟩
  | 2 => ⟨S262144, .i32⟩
  | 3 => ⟨S262144, .i32⟩
  | 4 => ⟨S262144x1, .i32⟩
  | 5 => ⟨S262144x64, .f32⟩
  | 6 => ⟨S262144x1, .f32⟩
  | 7 => ⟨S262144x64, .f32⟩
  | 8 => ⟨S262144x64, .f32⟩
  | 9 => ⟨S_, .i32⟩
  | 10 => ⟨S262144, .i32⟩
  | 11 => ⟨S262144, .i1⟩
  | 12 => ⟨S_, .i32⟩
  | 13 => ⟨S262144, .i32⟩
  | 14 => ⟨S262144, .i32⟩
  | 15 => ⟨S262144, .i32⟩
  | 16 => ⟨S262144x1, .i32⟩
  | 17 => ⟨S8192x64, .f32⟩
  | 18 => ⟨S8192, .f32⟩
  | 19 => ⟨S8192x1, .f32⟩
  | 20 => ⟨S8192x64, .f32⟩
  | 21 => ⟨S8192x64, .f32⟩
  | 22 => ⟨S8192x64, .f32⟩
  | 23 => ⟨S1x64, .f32⟩
  | 24 => ⟨S8192x64, .f32⟩
  | 25 => ⟨S8192x64, .f32⟩
  | 26 => ⟨S_, .f32⟩
  | 27 => ⟨S8192x64, .f32⟩
  | 28 => ⟨S8192x64, .f32⟩
  | 29 => ⟨S8192x64, .f32⟩
  | 30 => ⟨S_, .f32⟩
  | 31 => ⟨S8192, .f32⟩
  | 32 => ⟨S_, .i32⟩
  | 33 => ⟨S262144, .i32⟩
  | 34 => ⟨S262144, .i1⟩
  | 35 => ⟨S_, .i32⟩
  | 36 => ⟨S262144, .i32⟩
  | 37 => ⟨S262144, .i32⟩
  | 38 => ⟨S262144, .i32⟩
  | 39 => ⟨S262144x1, .i32⟩
  | 40 => ⟨S_, .f32⟩
  | 41 => ⟨S262144, .f32⟩
  | 42 => ⟨S8192, .f32⟩
  | 43 => ⟨S8192, .f32⟩
  | 44 => ⟨S_, .i32⟩
  | 45 => ⟨S262144, .i32⟩
  | 46 => ⟨S262144, .i1⟩
  | 47 => ⟨S_, .i32⟩
  | 48 => ⟨S262144, .i32⟩
  | 49 => ⟨S262144, .i32⟩
  | 50 => ⟨S262144, .i32⟩
  | 51 => ⟨S262144x1, .i32⟩
  | 52 => ⟨S262144, .f32⟩
  | 53 => ⟨S_, .i32⟩
  | 54 => ⟨S262144, .i32⟩
  | 55 => ⟨S262144, .i1⟩
  | 56 => ⟨S_, .i32⟩
  | 57 => ⟨S262144, .i32⟩
  | 58 => ⟨S262144, .i32⟩
  | 59 => ⟨S262144, .i32⟩
  | 60 => ⟨S262144x1, .i32⟩
  | 61 => ⟨S262144, .f32⟩
  | 62 => ⟨S262144, .f32⟩
  | 63 => ⟨S_, .f32⟩
  | 64 => ⟨S8192x64, .f32⟩
  | 65 => ⟨S_, .i32⟩
  | 66 => ⟨S262144, .i32⟩
  | 67 => ⟨S262144, .i1⟩
  | 68 => ⟨S_, .i32⟩
  | 69 => ⟨S262144, .i32⟩
  | 70 => ⟨S262144, .i32⟩
  | 71 => ⟨S262144, .i32⟩
  | 72 => ⟨S262144x1, .i32⟩
  | 73 => ⟨S262144x64, .f32⟩
  | 74 => ⟨S262144x1, .f32⟩
  | 75 => ⟨S262144x64, .f32⟩
  | 76 => ⟨S262144x64, .f32⟩
  | 77 => ⟨S_, .i32⟩
  | 78 => ⟨S262144, .i32⟩
  | 79 => ⟨S262144, .i1⟩
  | 80 => ⟨S_, .i32⟩
  | 81 => ⟨S262144, .i32⟩
  | 82 => ⟨S262144, .i32⟩
  | 83 => ⟨S262144, .i32⟩
  | 84 => ⟨S262144x1, .i32⟩
  | 85 => ⟨S8192x64, .f32⟩
  | 86 => ⟨S8192, .f32⟩
  | 87 => ⟨S8192x1, .f32⟩
  | 88 => ⟨S8192x64, .f32⟩
  | 89 => ⟨S8192x64, .f32⟩
  | 90 => ⟨S8192x64, .f32⟩
  | 91 => ⟨S1x64, .f32⟩
  | 92 => ⟨S8192x64, .f32⟩
  | 93 => ⟨S8192x64, .f32⟩
  | 94 => ⟨S_, .f32⟩
  | 95 => ⟨S8192x64, .f32⟩
  | 96 => ⟨S8192x64, .f32⟩
  | 97 => ⟨S8192x64, .f32⟩
  | 98 => ⟨S_, .f32⟩
  | 99 => ⟨S8192, .f32⟩
  | 100 => ⟨S_, .i32⟩
  | 101 => ⟨S262144, .i32⟩
  | 102 => ⟨S262144, .i1⟩
  | 103 => ⟨S_, .i32⟩
  | 104 => ⟨S262144, .i32⟩
  | 105 => ⟨S262144, .i32⟩
  | 106 => ⟨S262144, .i32⟩
  | 107 => ⟨S262144x1, .i32⟩
  | 108 => ⟨S_, .f32⟩
  | 109 => ⟨S262144, .f32⟩
  | 110 => ⟨S8192, .f32⟩
  | 111 => ⟨S8192, .f32⟩
  | 112 => ⟨S_, .i32⟩
  | 113 => ⟨S262144, .i32⟩
  | 114 => ⟨S262144, .i1⟩
  | 115 => ⟨S_, .i32⟩
  | 116 => ⟨S262144, .i32⟩
  | 117 => ⟨S262144, .i32⟩
  | 118 => ⟨S262144, .i32⟩
  | 119 => ⟨S262144x1, .i32⟩
  | 120 => ⟨S262144, .f32⟩
  | 121 => ⟨S_, .i32⟩
  | 122 => ⟨S262144, .i32⟩
  | 123 => ⟨S262144, .i1⟩
  | 124 => ⟨S_, .i32⟩
  | 125 => ⟨S262144, .i32⟩
  | 126 => ⟨S262144, .i32⟩
  | 127 => ⟨S262144, .i32⟩
  | _ => ⟨S8192x64, .f32⟩

abbrev hbmTy0_2 (i : Nat) : BufTy := match i % 128 with
  | 0 => ⟨S262144x1, .i32⟩
  | 1 => ⟨S262144, .f32⟩
  | 2 => ⟨S262144, .f32⟩
  | 3 => ⟨S_, .f32⟩
  | 4 => ⟨S8192x64, .f32⟩
  | 5 => ⟨S_, .i32⟩
  | 6 => ⟨S262144, .i32⟩
  | 7 => ⟨S262144, .i1⟩
  | 8 => ⟨S_, .i32⟩
  | 9 => ⟨S262144, .i32⟩
  | 10 => ⟨S262144, .i32⟩
  | 11 => ⟨S262144, .i32⟩
  | 12 => ⟨S262144x1, .i32⟩
  | 13 => ⟨S262144x64, .f32⟩
  | 14 => ⟨S262144x1, .f32⟩
  | 15 => ⟨S262144x64, .f32⟩
  | 16 => ⟨S262144x64, .f32⟩
  | 17 => ⟨S_, .i32⟩
  | 18 => ⟨S262144, .i32⟩
  | 19 => ⟨S262144, .i1⟩
  | 20 => ⟨S_, .i32⟩
  | 21 => ⟨S262144, .i32⟩
  | 22 => ⟨S262144, .i32⟩
  | 23 => ⟨S262144, .i32⟩
  | 24 => ⟨S262144x1, .i32⟩
  | 25 => ⟨S8192x64, .f32⟩
  | 26 => ⟨S8192, .f32⟩
  | 27 => ⟨S8192x1, .f32⟩
  | 28 => ⟨S8192x64, .f32⟩
  | 29 => ⟨S8192x64, .f32⟩
  | 30 => ⟨S8192x64, .f32⟩
  | 31 => ⟨S1x64, .f32⟩
  | 32 => ⟨S8192x64, .f32⟩
  | 33 => ⟨S8192x64, .f32⟩
  | 34 => ⟨S_, .f32⟩
  | 35 => ⟨S8192x64, .f32⟩
  | 36 => ⟨S8192x64, .f32⟩
  | 37 => ⟨S8192x64, .f32⟩
  | 38 => ⟨S_, .f32⟩
  | 39 => ⟨S8192, .f32⟩
  | 40 => ⟨S_, .i32⟩
  | 41 => ⟨S262144, .i32⟩
  | 42 => ⟨S262144, .i1⟩
  | 43 => ⟨S_, .i32⟩
  | 44 => ⟨S262144, .i32⟩
  | 45 => ⟨S262144, .i32⟩
  | 46 => ⟨S262144, .i32⟩
  | 47 => ⟨S262144x1, .i32⟩
  | 48 => ⟨S_, .f32⟩
  | 49 => ⟨S262144, .f32⟩
  | 50 => ⟨S8192, .f32⟩
  | 51 => ⟨S8192, .f32⟩
  | 52 => ⟨S_, .i32⟩
  | 53 => ⟨S262144, .i32⟩
  | 54 => ⟨S262144, .i1⟩
  | 55 => ⟨S_, .i32⟩
  | 56 => ⟨S262144, .i32⟩
  | 57 => ⟨S262144, .i32⟩
  | 58 => ⟨S262144, .i32⟩
  | 59 => ⟨S262144x1, .i32⟩
  | 60 => ⟨S262144, .f32⟩
  | 61 => ⟨S_, .i32⟩
  | 62 => ⟨S262144, .i32⟩
  | 63 => ⟨S262144, .i1⟩
  | 64 => ⟨S_, .i32⟩
  | 65 => ⟨S262144, .i32⟩
  | 66 => ⟨S262144, .i32⟩
  | 67 => ⟨S262144, .i32⟩
  | 68 => ⟨S262144x1, .i32⟩
  | 69 => ⟨S262144, .f32⟩
  | 70 => ⟨S262144, .f32⟩
  | 71 => ⟨S_, .f32⟩
  | 72 => ⟨S8192x64, .f32⟩
  | 73 => ⟨S_, .i32⟩
  | 74 => ⟨S262144, .i32⟩
  | 75 => ⟨S262144, .i1⟩
  | 76 => ⟨S_, .i32⟩
  | 77 => ⟨S262144, .i32⟩
  | 78 => ⟨S262144, .i32⟩
  | 79 => ⟨S262144, .i32⟩
  | 80 => ⟨S262144x1, .i32⟩
  | 81 => ⟨S262144x64, .f32⟩
  | 82 => ⟨S262144x1, .f32⟩
  | 83 => ⟨S262144x64, .f32⟩
  | 84 => ⟨S262144x64, .f32⟩
  | 85 => ⟨S_, .i32⟩
  | 86 => ⟨S262144, .i32⟩
  | 87 => ⟨S262144, .i1⟩
  | 88 => ⟨S_, .i32⟩
  | 89 => ⟨S262144, .i32⟩
  | 90 => ⟨S262144, .i32⟩
  | 91 => ⟨S262144, .i32⟩
  | 92 => ⟨S262144x1, .i32⟩
  | 93 => ⟨S8192x64, .f32⟩
  | 94 => ⟨S8192, .f32⟩
  | 95 => ⟨S8192x1, .f32⟩
  | 96 => ⟨S8192x64, .f32⟩
  | 97 => ⟨S8192x64, .f32⟩
  | 98 => ⟨S8192x64, .f32⟩
  | 99 => ⟨S1x64, .f32⟩
  | 100 => ⟨S8192x64, .f32⟩
  | 101 => ⟨S8192x64, .f32⟩
  | 102 => ⟨S_, .f32⟩
  | 103 => ⟨S8192x64, .f32⟩
  | 104 => ⟨S8192x64, .f32⟩
  | 105 => ⟨S8192x64, .f32⟩
  | 106 => ⟨S_, .f32⟩
  | 107 => ⟨S8192, .f32⟩
  | 108 => ⟨S_, .i32⟩
  | 109 => ⟨S262144, .i32⟩
  | 110 => ⟨S262144, .i1⟩
  | 111 => ⟨S_, .i32⟩
  | 112 => ⟨S262144, .i32⟩
  | 113 => ⟨S262144, .i32⟩
  | 114 => ⟨S262144, .i32⟩
  | 115 => ⟨S262144x1, .i32⟩
  | 116 => ⟨S_, .f32⟩
  | 117 => ⟨S262144, .f32⟩
  | 118 => ⟨S8192, .f32⟩
  | 119 => ⟨S8192, .f32⟩
  | 120 => ⟨S_, .i32⟩
  | 121 => ⟨S262144, .i32⟩
  | 122 => ⟨S262144, .i1⟩
  | 123 => ⟨S_, .i32⟩
  | 124 => ⟨S262144, .i32⟩
  | 125 => ⟨S262144, .i32⟩
  | 126 => ⟨S262144, .i32⟩
  | 127 => ⟨S262144x1, .i32⟩
  | _ => ⟨S8192x64, .f32⟩

abbrev hbmTy0_3 (i : Nat) : BufTy := match i % 128 with
  | 0 => ⟨S262144, .f32⟩
  | 1 => ⟨S_, .i32⟩
  | 2 => ⟨S262144, .i32⟩
  | 3 => ⟨S262144, .i1⟩
  | 4 => ⟨S_, .i32⟩
  | 5 => ⟨S262144, .i32⟩
  | 6 => ⟨S262144, .i32⟩
  | 7 => ⟨S262144, .i32⟩
  | 8 => ⟨S262144x1, .i32⟩
  | 9 => ⟨S262144, .f32⟩
  | 10 => ⟨S262144, .f32⟩
  | 11 => ⟨S_, .f32⟩
  | 12 => ⟨S8192x64, .f32⟩
  | 13 => ⟨S_, .i32⟩
  | 14 => ⟨S262144, .i32⟩
  | 15 => ⟨S262144, .i1⟩
  | 16 => ⟨S_, .i32⟩
  | 17 => ⟨S262144, .i32⟩
  | 18 => ⟨S262144, .i32⟩
  | 19 => ⟨S262144, .i32⟩
  | 20 => ⟨S262144x1, .i32⟩
  | 21 => ⟨S262144x64, .f32⟩
  | 22 => ⟨S262144x1, .f32⟩
  | 23 => ⟨S262144x64, .f32⟩
  | 24 => ⟨S262144x64, .f32⟩
  | 25 => ⟨S_, .i32⟩
  | 26 => ⟨S262144, .i32⟩
  | 27 => ⟨S262144, .i1⟩
  | 28 => ⟨S_, .i32⟩
  | 29 => ⟨S262144, .i32⟩
  | 30 => ⟨S262144, .i32⟩
  | 31 => ⟨S262144, .i32⟩
  | 32 => ⟨S262144x1, .i32⟩
  | 33 => ⟨S8192x64, .f32⟩
  | 34 => ⟨S8192, .f32⟩
  | 35 => ⟨S8192x1, .f32⟩
  | 36 => ⟨S8192x64, .f32⟩
  | 37 => ⟨S8192x64, .f32⟩
  | 38 => ⟨S8192x64, .f32⟩
  | 39 => ⟨S1x64, .f32⟩
  | 40 => ⟨S8192x64, .f32⟩
  | 41 => ⟨S8192x64, .f32⟩
  | 42 => ⟨S_, .f32⟩
  | 43 => ⟨S8192x64, .f32⟩
  | 44 => ⟨S8192x64, .f32⟩
  | 45 => ⟨S8192x192, .f32⟩
  | 46 => ⟨S8192x192, .f32⟩
  | 47 => ⟨S1x192, .f32⟩
  | 48 => ⟨S8192x192, .f32⟩
  | 49 => ⟨S8192x192, .f32⟩
  | 50 => ⟨S8192x64x3, .f32⟩
  | 51 => ⟨S_, .f32⟩
  | 52 => ⟨S8192x64, .f32⟩
  | 53 => ⟨S_, .f32⟩
  | 54 => ⟨S8192x64, .f32⟩
  | 55 => ⟨S8192x64, .f32⟩
  | 56 => ⟨S8192x64x1, .f32⟩
  | 57 => ⟨S8192x64x3, .f32⟩
  | 58 => ⟨S8192x64x3, .f32⟩
  | 59 => ⟨S8192x64x3, .f32⟩
  | 60 => ⟨S_, .f32⟩
  | 61 => ⟨S8192x64, .f32⟩
  | 62 => ⟨S8192x64x1, .f32⟩
  | 63 => ⟨S8192x64x3, .f32⟩
  | 64 => ⟨S8192x64x3, .f32⟩
  | 65 => ⟨S8192x64x1, .f32⟩
  | 66 => ⟨S8192x64, .f32⟩
  | 67 => ⟨S8192x64, .f32⟩
  | 68 => ⟨S8192x64x1, .f32⟩
  | 69 => ⟨S8192x64, .f32⟩
  | 70 => ⟨S8192x64, .f32⟩
  | 71 => ⟨S8192x64, .f32⟩
  | 72 => ⟨S8192x64x1, .f32⟩
  | 73 => ⟨S8192x64, .f32⟩
  | 74 => ⟨S8192x64, .f32⟩
  | 75 => ⟨S8192x64, .f32⟩
  | 76 => ⟨S8192x64, .f32⟩
  | 77 => ⟨S_, .f32⟩
  | 78 => ⟨S8192, .f32⟩
  | 79 => ⟨S_, .i32⟩
  | 80 => ⟨S262144, .i32⟩
  | 81 => ⟨S262144, .i1⟩
  | 82 => ⟨S_, .i32⟩
  | 83 => ⟨S262144, .i32⟩
  | 84 => ⟨S262144, .i32⟩
  | 85 => ⟨S262144, .i32⟩
  | 86 => ⟨S262144x1, .i32⟩
  | 87 => ⟨S_, .f32⟩
  | 88 => ⟨S262144, .f32⟩
  | 89 => ⟨S8192, .f32⟩
  | 90 => ⟨S8192, .f32⟩
  | 91 => ⟨S_, .i32⟩
  | 92 => ⟨S262144, .i32⟩
  | 93 => ⟨S262144, .i1⟩
  | 94 => ⟨S_, .i32⟩
  | 95 => ⟨S262144, .i32⟩
  | 96 => ⟨S262144, .i32⟩
  | 97 => ⟨S262144, .i32⟩
  | 98 => ⟨S262144x1, .i32⟩
  | 99 => ⟨S262144, .f32⟩
  | 100 => ⟨S_, .i32⟩
  | 101 => ⟨S262144, .i32⟩
  | 102 => ⟨S262144, .i1⟩
  | 103 => ⟨S_, .i32⟩
  | 104 => ⟨S262144, .i32⟩
  | 105 => ⟨S262144, .i32⟩
  | 106 => ⟨S262144, .i32⟩
  | 107 => ⟨S262144x1, .i32⟩
  | 108 => ⟨S262144, .f32⟩
  | 109 => ⟨S262144, .f32⟩
  | 110 => ⟨S_, .f32⟩
  | 111 => ⟨S8192x64, .f32⟩
  | 112 => ⟨S_, .i32⟩
  | 113 => ⟨S262144, .i32⟩
  | 114 => ⟨S262144, .i1⟩
  | 115 => ⟨S_, .i32⟩
  | 116 => ⟨S262144, .i32⟩
  | 117 => ⟨S262144, .i32⟩
  | 118 => ⟨S262144, .i32⟩
  | 119 => ⟨S262144x1, .i32⟩
  | 120 => ⟨S262144x64, .f32⟩
  | 121 => ⟨S262144x1, .f32⟩
  | 122 => ⟨S262144x64, .f32⟩
  | 123 => ⟨S262144x64, .f32⟩
  | 124 => ⟨S_, .i32⟩
  | 125 => ⟨S262144, .i32⟩
  | 126 => ⟨S262144, .i1⟩
  | 127 => ⟨S_, .i32⟩
  | _ => ⟨S8192x64, .f32⟩

abbrev hbmTy0_4 (i : Nat) : BufTy := match i % 128 with
  | 0 => ⟨S262144, .i32⟩
  | 1 => ⟨S262144, .i32⟩
  | 2 => ⟨S262144, .i32⟩
  | 3 => ⟨S262144x1, .i32⟩
  | 4 => ⟨S8192x64, .f32⟩
  | 5 => ⟨S8192, .f32⟩
  | 6 => ⟨S8192x1, .f32⟩
  | 7 => ⟨S8192x64, .f32⟩
  | 8 => ⟨S8192x64, .f32⟩
  | 9 => ⟨S8192x64, .f32⟩
  | 10 => ⟨S1x64, .f32⟩
  | 11 => ⟨S8192x64, .f32⟩
  | 12 => ⟨S8192x64, .f32⟩
  | 13 => ⟨S8192x64, .f32⟩
  | 14 => ⟨S_, .f32⟩
  | 15 => ⟨S8192, .f32⟩
  | 16 => ⟨S_, .i32⟩
  | 17 => ⟨S262144, .i32⟩
  | 18 => ⟨S262144, .i1⟩
  | 19 => ⟨S_, .i32⟩
  | 20 => ⟨S262144, .i32⟩
  | 21 => ⟨S262144, .i32⟩
  | 22 => ⟨S262144, .i32⟩
  | 23 => ⟨S262144x1, .i32⟩
  | 24 => ⟨S_, .f32⟩
  | 25 => ⟨S262144, .f32⟩
  | 26 => ⟨S8192, .f32⟩
  | 27 => ⟨S8192, .f32⟩
  | 28 => ⟨S_, .i32⟩
  | 29 => ⟨S262144, .i32⟩
  | 30 => ⟨S262144, .i1⟩
  | 31 => ⟨S_, .i32⟩
  | 32 => ⟨S262144, .i32⟩
  | 33 => ⟨S262144, .i32⟩
  | 34 => ⟨S262144, .i32⟩
  | 35 => ⟨S262144x1, .i32⟩
  | 36 => ⟨S262144, .f32⟩
  | 37 => ⟨S_, .i32⟩
  | 38 => ⟨S262144, .i32⟩
  | 39 => ⟨S262144, .i1⟩
  | 40 => ⟨S_, .i32⟩
  | 41 => ⟨S262144, .i32⟩
  | 42 => ⟨S262144, .i32⟩
  | 43 => ⟨S262144, .i32⟩
  | 44 => ⟨S262144x1, .i32⟩
  | 45 => ⟨S262144, .f32⟩
  | 46 => ⟨S262144, .f32⟩
  | 47 => ⟨S_, .f32⟩
  | 48 => ⟨S8192x64, .f32⟩
  | 49 => ⟨S_, .i32⟩
  | 50 => ⟨S262144, .i32⟩
  | 51 => ⟨S262144, .i1⟩
  | 52 => ⟨S_, .i32⟩
  | 53 => ⟨S262144, .i32⟩
  | 54 => ⟨S262144, .i32⟩
  | 55 => ⟨S262144, .i32⟩
  | 56 => ⟨S262144x1, .i32⟩
  | 57 => ⟨S262144x64, .f32⟩
  | 58 => ⟨S262144x1, .f32⟩
  | 59 => ⟨S262144x64, .f32⟩
  | 60 => ⟨S262144x64, .f32⟩
  | 61 => ⟨S_, .i32⟩
  | 62 => ⟨S262144, .i32⟩
  | 63 => ⟨S262144, .i1⟩
  | 64 => ⟨S_, .i32⟩
  | 65 => ⟨S262144, .i32⟩
  | 66 => ⟨S262144, .i32⟩
  | 67 => ⟨S262144, .i32⟩
  | 68 => ⟨S262144x1, .i32⟩
  | 69 => ⟨S8192x64, .f32⟩
  | 70 => ⟨S8192, .f32⟩
  | 71 => ⟨S8192x1, .f32⟩
  | 72 => ⟨S8192x64, .f32⟩
  | 73 => ⟨S8192x64, .f32⟩
  | 74 => ⟨S8192x64, .f32⟩
  | 75 => ⟨S1x64, .f32⟩
  | 76 => ⟨S8192x64, .f32⟩
  | 77 => ⟨S8192x64, .f32⟩
  | 78 => ⟨S64x8192, .f32⟩
  | 79 => ⟨S8192x8192, .f32⟩
  | _ => ⟨S8192x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x64, .f32⟩

abbrev bufTy : (tb : Table) → Fin (tcTables nBuf tb) → BufTy
  | .hbm, ⟨i, _⟩ => hbmTy i
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_cst : Ref sig .tc := ⟨.hbm, 22, rfl⟩
abbrev main_v1 : Ref sig .tc := ⟨.hbm, 23, rfl⟩
abbrev main_c : Ref sig .tc := ⟨.hbm, 24, rfl⟩
abbrev main_v2 : Ref sig .tc := ⟨.hbm, 25, rfl⟩
abbrev main_v3 : Ref sig .tc := ⟨.hbm, 26, rfl⟩
abbrev main_c_0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_2 : Ref sig .tc := ⟨.hbm, 36, rfl⟩
abbrev main_v11 : Ref sig .tc := ⟨.hbm, 37, rfl⟩
abbrev main_v12 : Ref sig .tc := ⟨.hbm, 38, rfl⟩
abbrev main_c_3 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_4 : Ref sig .tc := ⟨.hbm, 45, rfl⟩
abbrev main_v18 : Ref sig .tc := ⟨.hbm, 46, rfl⟩
abbrev main_v19 : Ref sig .tc := ⟨.hbm, 47, rfl⟩
abbrev main_c_5 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_6 : Ref sig .tc := ⟨.hbm, 55, rfl⟩
abbrev main_v26 : Ref sig .tc := ⟨.hbm, 56, rfl⟩
abbrev main_c_7 : Ref sig .tc := ⟨.hbm, 57, rfl⟩
abbrev main_v27 : Ref sig .tc := ⟨.hbm, 58, rfl⟩
abbrev main_v28 : Ref sig .tc := ⟨.hbm, 59, rfl⟩
abbrev main_c_8 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_c_9 : Ref sig .tc := ⟨.hbm, 69, rfl⟩
abbrev main_v37 : Ref sig .tc := ⟨.hbm, 70, rfl⟩
abbrev main_v38 : Ref sig .tc := ⟨.hbm, 71, rfl⟩
abbrev main_c_10 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_call0_cst : Ref sig .tc := ⟨.hbm, 86, rfl⟩
abbrev main_call0_v0 : Ref sig .tc := ⟨.hbm, 87, rfl⟩
abbrev main_v52 : Ref sig .tc := ⟨.hbm, 88, rfl⟩
abbrev main_v53 : Ref sig .tc := ⟨.hbm, 89, rfl⟩
abbrev main_cst_11 : Ref sig .tc := ⟨.hbm, 90, rfl⟩
abbrev main_v54 : Ref sig .tc := ⟨.hbm, 91, rfl⟩
abbrev main_c_12 : Ref sig .tc := ⟨.hbm, 92, rfl⟩
abbrev main_v55 : Ref sig .tc := ⟨.hbm, 93, rfl⟩
abbrev main_v56 : Ref sig .tc := ⟨.hbm, 94, rfl⟩
abbrev main_c_13 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_14 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_c_15 : Ref sig .tc := ⟨.hbm, 104, rfl⟩
abbrev main_v64 : Ref sig .tc := ⟨.hbm, 105, rfl⟩
abbrev main_v65 : Ref sig .tc := ⟨.hbm, 106, rfl⟩
abbrev main_c_16 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_c_17 : Ref sig .tc := ⟨.hbm, 113, rfl⟩
abbrev main_v71 : Ref sig .tc := ⟨.hbm, 114, rfl⟩
abbrev main_v72 : Ref sig .tc := ⟨.hbm, 115, rfl⟩
abbrev main_c_18 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_19 : Ref sig .tc := ⟨.hbm, 123, rfl⟩
abbrev main_v79 : Ref sig .tc := ⟨.hbm, 124, rfl⟩
abbrev main_c_20 : Ref sig .tc := ⟨.hbm, 125, rfl⟩
abbrev main_v80 : Ref sig .tc := ⟨.hbm, 126, rfl⟩
abbrev main_v81 : Ref sig .tc := ⟨.hbm, 127, rfl⟩
abbrev main_c_21 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_c_22 : Ref sig .tc := ⟨.hbm, 137, rfl⟩
abbrev main_v90 : Ref sig .tc := ⟨.hbm, 138, rfl⟩
abbrev main_v91 : Ref sig .tc := ⟨.hbm, 139, rfl⟩
abbrev main_c_23 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_call1_cst : Ref sig .tc := ⟨.hbm, 154, rfl⟩
abbrev main_call1_v0 : Ref sig .tc := ⟨.hbm, 155, rfl⟩
abbrev main_v105 : Ref sig .tc := ⟨.hbm, 156, rfl⟩
abbrev main_v106 : Ref sig .tc := ⟨.hbm, 157, rfl⟩
abbrev main_cst_24 : Ref sig .tc := ⟨.hbm, 158, rfl⟩
abbrev main_v107 : Ref sig .tc := ⟨.hbm, 159, rfl⟩
abbrev main_c_25 : Ref sig .tc := ⟨.hbm, 160, rfl⟩
abbrev main_v108 : Ref sig .tc := ⟨.hbm, 161, rfl⟩
abbrev main_v109 : Ref sig .tc := ⟨.hbm, 162, rfl⟩
abbrev main_c_26 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_cst_27 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_c_28 : Ref sig .tc := ⟨.hbm, 172, rfl⟩
abbrev main_v117 : Ref sig .tc := ⟨.hbm, 173, rfl⟩
abbrev main_v118 : Ref sig .tc := ⟨.hbm, 174, rfl⟩
abbrev main_c_29 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_c_30 : Ref sig .tc := ⟨.hbm, 181, rfl⟩
abbrev main_v124 : Ref sig .tc := ⟨.hbm, 182, rfl⟩
abbrev main_v125 : Ref sig .tc := ⟨.hbm, 183, rfl⟩
abbrev main_c_31 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_cst_32 : Ref sig .tc := ⟨.hbm, 191, rfl⟩
abbrev main_v132 : Ref sig .tc := ⟨.hbm, 192, rfl⟩
abbrev main_c_33 : Ref sig .tc := ⟨.hbm, 193, rfl⟩
abbrev main_v133 : Ref sig .tc := ⟨.hbm, 194, rfl⟩
abbrev main_v134 : Ref sig .tc := ⟨.hbm, 195, rfl⟩
abbrev main_c_34 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_c_35 : Ref sig .tc := ⟨.hbm, 205, rfl⟩
abbrev main_v143 : Ref sig .tc := ⟨.hbm, 206, rfl⟩
abbrev main_v144 : Ref sig .tc := ⟨.hbm, 207, rfl⟩
abbrev main_c_36 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_call2_cst : Ref sig .tc := ⟨.hbm, 222, rfl⟩
abbrev main_call2_v0 : Ref sig .tc := ⟨.hbm, 223, rfl⟩
abbrev main_v158 : Ref sig .tc := ⟨.hbm, 224, rfl⟩
abbrev main_v159 : Ref sig .tc := ⟨.hbm, 225, rfl⟩
abbrev main_cst_37 : Ref sig .tc := ⟨.hbm, 226, rfl⟩
abbrev main_v160 : Ref sig .tc := ⟨.hbm, 227, rfl⟩
abbrev main_c_38 : Ref sig .tc := ⟨.hbm, 228, rfl⟩
abbrev main_v161 : Ref sig .tc := ⟨.hbm, 229, rfl⟩
abbrev main_v162 : Ref sig .tc := ⟨.hbm, 230, rfl⟩
abbrev main_c_39 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_cst_40 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_c_41 : Ref sig .tc := ⟨.hbm, 240, rfl⟩
abbrev main_v170 : Ref sig .tc := ⟨.hbm, 241, rfl⟩
abbrev main_v171 : Ref sig .tc := ⟨.hbm, 242, rfl⟩
abbrev main_c_42 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_c_43 : Ref sig .tc := ⟨.hbm, 249, rfl⟩
abbrev main_v177 : Ref sig .tc := ⟨.hbm, 250, rfl⟩
abbrev main_v178 : Ref sig .tc := ⟨.hbm, 251, rfl⟩
abbrev main_c_44 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_cst_45 : Ref sig .tc := ⟨.hbm, 259, rfl⟩
abbrev main_v185 : Ref sig .tc := ⟨.hbm, 260, rfl⟩
abbrev main_c_46 : Ref sig .tc := ⟨.hbm, 261, rfl⟩
abbrev main_v186 : Ref sig .tc := ⟨.hbm, 262, rfl⟩
abbrev main_v187 : Ref sig .tc := ⟨.hbm, 263, rfl⟩
abbrev main_c_47 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_c_48 : Ref sig .tc := ⟨.hbm, 273, rfl⟩
abbrev main_v196 : Ref sig .tc := ⟨.hbm, 274, rfl⟩
abbrev main_v197 : Ref sig .tc := ⟨.hbm, 275, rfl⟩
abbrev main_c_49 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_v203 : Ref sig .tc := ⟨.hbm, 282, rfl⟩
abbrev main_v204 : Ref sig .tc := ⟨.hbm, 283, rfl⟩
abbrev main_v205 : Ref sig .tc := ⟨.hbm, 284, rfl⟩
abbrev main_v206 : Ref sig .tc := ⟨.hbm, 285, rfl⟩
abbrev main_v207 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_call3_cst : Ref sig .tc := ⟨.hbm, 290, rfl⟩
abbrev main_call3_v0 : Ref sig .tc := ⟨.hbm, 291, rfl⟩
abbrev main_v211 : Ref sig .tc := ⟨.hbm, 292, rfl⟩
abbrev main_v212 : Ref sig .tc := ⟨.hbm, 293, rfl⟩
abbrev main_cst_50 : Ref sig .tc := ⟨.hbm, 294, rfl⟩
abbrev main_v213 : Ref sig .tc := ⟨.hbm, 295, rfl⟩
abbrev main_c_51 : Ref sig .tc := ⟨.hbm, 296, rfl⟩
abbrev main_v214 : Ref sig .tc := ⟨.hbm, 297, rfl⟩
abbrev main_v215 : Ref sig .tc := ⟨.hbm, 298, rfl⟩
abbrev main_c_52 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_cst_53 : Ref sig .tc := ⟨.hbm, 304, rfl⟩
abbrev main_v220 : Ref sig .tc := ⟨.hbm, 305, rfl⟩
abbrev main_v221 : Ref sig .tc := ⟨.hbm, 306, rfl⟩
abbrev main_v222 : Ref sig .tc := ⟨.hbm, 307, rfl⟩
abbrev main_c_54 : Ref sig .tc := ⟨.hbm, 308, rfl⟩
abbrev main_v223 : Ref sig .tc := ⟨.hbm, 309, rfl⟩
abbrev main_v224 : Ref sig .tc := ⟨.hbm, 310, rfl⟩
abbrev main_c_55 : Ref sig .tc := ⟨.hbm, 311, rfl⟩
abbrev main_v225 : Ref sig .tc := ⟨.hbm, 312, rfl⟩
abbrev main_v226 : Ref sig .tc := ⟨.hbm, 313, rfl⟩
abbrev main_v227 : Ref sig .tc := ⟨.hbm, 314, rfl⟩
abbrev main_v228 : Ref sig .tc := ⟨.hbm, 315, rfl⟩
abbrev main_v229 : Ref sig .tc := ⟨.hbm, 316, rfl⟩
abbrev main_c_56 : Ref sig .tc := ⟨.hbm, 317, rfl⟩
abbrev main_v230 : Ref sig .tc := ⟨.hbm, 318, rfl⟩
abbrev main_v231 : Ref sig .tc := ⟨.hbm, 319, rfl⟩
abbrev main_c_57 : Ref sig .tc := ⟨.hbm, 320, rfl⟩
abbrev main_v232 : Ref sig .tc := ⟨.hbm, 321, rfl⟩
abbrev main_v233 : Ref sig .tc := ⟨.hbm, 322, rfl⟩
abbrev main_v234 : Ref sig .tc := ⟨.hbm, 323, rfl⟩
abbrev main_v235 : Ref sig .tc := ⟨.hbm, 324, rfl⟩
abbrev main_v236 : Ref sig .tc := ⟨.hbm, 325, rfl⟩
abbrev main_v237 : Ref sig .tc := ⟨.hbm, 326, rfl⟩
abbrev main_cst_58 : Ref sig .tc := ⟨.hbm, 327, rfl⟩
abbrev main_v238 : Ref sig .tc := ⟨.hbm, 328, rfl⟩
abbrev main_c_59 : Ref sig .tc := ⟨.hbm, 329, rfl⟩
abbrev main_v239 : Ref sig .tc := ⟨.hbm, 330, rfl⟩
abbrev main_v240 : Ref sig .tc := ⟨.hbm, 331, rfl⟩
abbrev main_c_60 : Ref sig .tc := ⟨.hbm, 332, rfl⟩
abbrev main_v241 : Ref sig .tc := ⟨.hbm, 333, rfl⟩
abbrev main_v242 : Ref sig .tc := ⟨.hbm, 334, rfl⟩
abbrev main_v243 : Ref sig .tc := ⟨.hbm, 335, rfl⟩
abbrev main_v244 : Ref sig .tc := ⟨.hbm, 336, rfl⟩
abbrev main_v245 : Ref sig .tc := ⟨.hbm, 337, rfl⟩
abbrev main_v246 : Ref sig .tc := ⟨.hbm, 338, rfl⟩
abbrev main_v247 : Ref sig .tc := ⟨.hbm, 339, rfl⟩
abbrev main_v248 : Ref sig .tc := ⟨.hbm, 340, rfl⟩
abbrev main_c_61 : Ref sig .tc := ⟨.hbm, 341, rfl⟩
abbrev main_v249 : Ref sig .tc := ⟨.hbm, 342, rfl⟩
abbrev main_v250 : Ref sig .tc := ⟨.hbm, 343, rfl⟩
abbrev main_c_62 : Ref sig .tc := ⟨.hbm, 344, rfl⟩
abbrev main_v251 : Ref sig .tc := ⟨.hbm, 345, rfl⟩
abbrev main_v252 : Ref sig .tc := ⟨.hbm, 346, rfl⟩
abbrev main_v253 : Ref sig .tc := ⟨.hbm, 347, rfl⟩
abbrev main_v254 : Ref sig .tc := ⟨.hbm, 348, rfl⟩
abbrev main_v255 : Ref sig .tc := ⟨.hbm, 349, rfl⟩
abbrev main_v256 : Ref sig .tc := ⟨.hbm, 350, rfl⟩
abbrev main_v257 : Ref sig .tc := ⟨.hbm, 351, rfl⟩
abbrev main_v258 : Ref sig .tc := ⟨.hbm, 352, rfl⟩
abbrev main_v259 : Ref sig .tc := ⟨.hbm, 353, rfl⟩
abbrev main_v260 : Ref sig .tc := ⟨.hbm, 354, rfl⟩
abbrev main_v261 : Ref sig .tc := ⟨.hbm, 355, rfl⟩
abbrev main_v262 : Ref sig .tc := ⟨.hbm, 356, rfl⟩
abbrev main_v263 : Ref sig .tc := ⟨.hbm, 357, rfl⟩
abbrev main_call4_cst : Ref sig .tc := ⟨.hbm, 358, rfl⟩
abbrev main_call4_v0 : Ref sig .tc := ⟨.hbm, 359, rfl⟩
abbrev main_v264 : Ref sig .tc := ⟨.hbm, 360, rfl⟩
abbrev main_v265 : Ref sig .tc := ⟨.hbm, 361, rfl⟩
abbrev main_cst_63 : Ref sig .tc := ⟨.hbm, 362, rfl⟩
abbrev main_v266 : Ref sig .tc := ⟨.hbm, 363, rfl⟩
abbrev main_c_64 : Ref sig .tc := ⟨.hbm, 364, rfl⟩
abbrev main_v267 : Ref sig .tc := ⟨.hbm, 365, rfl⟩
abbrev main_v268 : Ref sig .tc := ⟨.hbm, 366, rfl⟩
abbrev main_c_65 : Ref sig .tc := ⟨.hbm, 367, rfl⟩
abbrev main_v269 : Ref sig .tc := ⟨.hbm, 368, rfl⟩
abbrev main_v270 : Ref sig .tc := ⟨.hbm, 369, rfl⟩
abbrev main_v271 : Ref sig .tc := ⟨.hbm, 370, rfl⟩
abbrev main_v272 : Ref sig .tc := ⟨.hbm, 371, rfl⟩
abbrev main_cst_66 : Ref sig .tc := ⟨.hbm, 372, rfl⟩
abbrev main_v273 : Ref sig .tc := ⟨.hbm, 373, rfl⟩
abbrev main_v274 : Ref sig .tc := ⟨.hbm, 374, rfl⟩
abbrev main_v275 : Ref sig .tc := ⟨.hbm, 375, rfl⟩
abbrev main_c_67 : Ref sig .tc := ⟨.hbm, 376, rfl⟩
abbrev main_v276 : Ref sig .tc := ⟨.hbm, 377, rfl⟩
abbrev main_v277 : Ref sig .tc := ⟨.hbm, 378, rfl⟩
abbrev main_c_68 : Ref sig .tc := ⟨.hbm, 379, rfl⟩
abbrev main_v278 : Ref sig .tc := ⟨.hbm, 380, rfl⟩
abbrev main_v279 : Ref sig .tc := ⟨.hbm, 381, rfl⟩
abbrev main_v280 : Ref sig .tc := ⟨.hbm, 382, rfl⟩
abbrev main_v281 : Ref sig .tc := ⟨.hbm, 383, rfl⟩
abbrev main_v282 : Ref sig .tc := ⟨.hbm, 384, rfl⟩
abbrev main_c_69 : Ref sig .tc := ⟨.hbm, 385, rfl⟩
abbrev main_v283 : Ref sig .tc := ⟨.hbm, 386, rfl⟩
abbrev main_v284 : Ref sig .tc := ⟨.hbm, 387, rfl⟩
abbrev main_c_70 : Ref sig .tc := ⟨.hbm, 388, rfl⟩
abbrev main_v285 : Ref sig .tc := ⟨.hbm, 389, rfl⟩
abbrev main_v286 : Ref sig .tc := ⟨.hbm, 390, rfl⟩
abbrev main_v287 : Ref sig .tc := ⟨.hbm, 391, rfl⟩
abbrev main_v288 : Ref sig .tc := ⟨.hbm, 392, rfl⟩
abbrev main_v289 : Ref sig .tc := ⟨.hbm, 393, rfl⟩
abbrev main_v290 : Ref sig .tc := ⟨.hbm, 394, rfl⟩
abbrev main_cst_71 : Ref sig .tc := ⟨.hbm, 395, rfl⟩
abbrev main_v291 : Ref sig .tc := ⟨.hbm, 396, rfl⟩
abbrev main_c_72 : Ref sig .tc := ⟨.hbm, 397, rfl⟩
abbrev main_v292 : Ref sig .tc := ⟨.hbm, 398, rfl⟩
abbrev main_v293 : Ref sig .tc := ⟨.hbm, 399, rfl⟩
abbrev main_c_73 : Ref sig .tc := ⟨.hbm, 400, rfl⟩
abbrev main_v294 : Ref sig .tc := ⟨.hbm, 401, rfl⟩
abbrev main_v295 : Ref sig .tc := ⟨.hbm, 402, rfl⟩
abbrev main_v296 : Ref sig .tc := ⟨.hbm, 403, rfl⟩
abbrev main_v297 : Ref sig .tc := ⟨.hbm, 404, rfl⟩
abbrev main_v298 : Ref sig .tc := ⟨.hbm, 405, rfl⟩
abbrev main_v299 : Ref sig .tc := ⟨.hbm, 406, rfl⟩
abbrev main_v300 : Ref sig .tc := ⟨.hbm, 407, rfl⟩
abbrev main_v301 : Ref sig .tc := ⟨.hbm, 408, rfl⟩
abbrev main_c_74 : Ref sig .tc := ⟨.hbm, 409, rfl⟩
abbrev main_v302 : Ref sig .tc := ⟨.hbm, 410, rfl⟩
abbrev main_v303 : Ref sig .tc := ⟨.hbm, 411, rfl⟩
abbrev main_c_75 : Ref sig .tc := ⟨.hbm, 412, rfl⟩
abbrev main_v304 : Ref sig .tc := ⟨.hbm, 413, rfl⟩
abbrev main_v305 : Ref sig .tc := ⟨.hbm, 414, rfl⟩
abbrev main_v306 : Ref sig .tc := ⟨.hbm, 415, rfl⟩
abbrev main_v307 : Ref sig .tc := ⟨.hbm, 416, rfl⟩
abbrev main_v308 : Ref sig .tc := ⟨.hbm, 417, rfl⟩
abbrev main_v309 : Ref sig .tc := ⟨.hbm, 418, rfl⟩
abbrev main_v310 : Ref sig .tc := ⟨.hbm, 419, rfl⟩
abbrev main_v311 : Ref sig .tc := ⟨.hbm, 420, rfl⟩
abbrev main_v312 : Ref sig .tc := ⟨.hbm, 421, rfl⟩
abbrev main_v313 : Ref sig .tc := ⟨.hbm, 422, rfl⟩
abbrev main_v314 : Ref sig .tc := ⟨.hbm, 423, rfl⟩
abbrev main_v315 : Ref sig .tc := ⟨.hbm, 424, rfl⟩
abbrev main_v316 : Ref sig .tc := ⟨.hbm, 425, rfl⟩
abbrev main_call5_cst : Ref sig .tc := ⟨.hbm, 426, rfl⟩
abbrev main_call5_v0 : Ref sig .tc := ⟨.hbm, 427, rfl⟩
abbrev main_v317 : Ref sig .tc := ⟨.hbm, 428, rfl⟩
abbrev main_v318 : Ref sig .tc := ⟨.hbm, 429, rfl⟩
abbrev main_v319 : Ref sig .tc := ⟨.hbm, 430, rfl⟩
abbrev main_v320 : Ref sig .tc := ⟨.hbm, 431, rfl⟩
abbrev main_v321 : Ref sig .tc := ⟨.hbm, 432, rfl⟩
abbrev main_v322 : Ref sig .tc := ⟨.hbm, 433, rfl⟩
abbrev main_v323 : Ref sig .tc := ⟨.hbm, 434, rfl⟩
abbrev main_cst_76 : Ref sig .tc := ⟨.hbm, 435, rfl⟩
abbrev main_v324 : Ref sig .tc := ⟨.hbm, 436, rfl⟩
abbrev main_cst_77 : Ref sig .tc := ⟨.hbm, 437, rfl⟩
abbrev main_v325 : Ref sig .tc := ⟨.hbm, 438, rfl⟩
abbrev main_v326 : Ref sig .tc := ⟨.hbm, 439, rfl⟩
abbrev main_v327 : Ref sig .tc := ⟨.hbm, 440, rfl⟩
abbrev main_v328 : Ref sig .tc := ⟨.hbm, 441, rfl⟩
abbrev main_v329 : Ref sig .tc := ⟨.hbm, 442, rfl⟩
abbrev main_v330 : Ref sig .tc := ⟨.hbm, 443, rfl⟩
abbrev main_cst_78 : Ref sig .tc := ⟨.hbm, 444, rfl⟩
abbrev main_v331 : Ref sig .tc := ⟨.hbm, 445, rfl⟩
abbrev main_v332 : Ref sig .tc := ⟨.hbm, 446, rfl⟩
abbrev main_v333 : Ref sig .tc := ⟨.hbm, 447, rfl⟩
abbrev main_v334 : Ref sig .tc := ⟨.hbm, 448, rfl⟩
abbrev main_v335 : Ref sig .tc := ⟨.hbm, 449, rfl⟩
abbrev main_v336 : Ref sig .tc := ⟨.hbm, 450, rfl⟩
abbrev main_v337 : Ref sig .tc := ⟨.hbm, 451, rfl⟩
abbrev main_v338 : Ref sig .tc := ⟨.hbm, 452, rfl⟩
abbrev main_v339 : Ref sig .tc := ⟨.hbm, 453, rfl⟩
abbrev main_v340 : Ref sig .tc := ⟨.hbm, 454, rfl⟩
abbrev main_v341 : Ref sig .tc := ⟨.hbm, 455, rfl⟩
abbrev main_v342 : Ref sig .tc := ⟨.hbm, 456, rfl⟩
abbrev main_v343 : Ref sig .tc := ⟨.hbm, 457, rfl⟩
abbrev main_v344 : Ref sig .tc := ⟨.hbm, 458, rfl⟩
abbrev main_v345 : Ref sig .tc := ⟨.hbm, 459, rfl⟩
abbrev main_v346 : Ref sig .tc := ⟨.hbm, 460, rfl⟩
abbrev main_cst_79 : Ref sig .tc := ⟨.hbm, 461, rfl⟩
abbrev main_v347 : Ref sig .tc := ⟨.hbm, 462, rfl⟩
abbrev main_c_80 : Ref sig .tc := ⟨.hbm, 463, rfl⟩
abbrev main_v348 : Ref sig .tc := ⟨.hbm, 464, rfl⟩
abbrev main_v349 : Ref sig .tc := ⟨.hbm, 465, rfl⟩
abbrev main_c_81 : Ref sig .tc := ⟨.hbm, 466, rfl⟩
abbrev main_v350 : Ref sig .tc := ⟨.hbm, 467, rfl⟩
abbrev main_v351 : Ref sig .tc := ⟨.hbm, 468, rfl⟩
abbrev main_v352 : Ref sig .tc := ⟨.hbm, 469, rfl⟩
abbrev main_v353 : Ref sig .tc := ⟨.hbm, 470, rfl⟩
abbrev main_cst_82 : Ref sig .tc := ⟨.hbm, 471, rfl⟩
abbrev main_v354 : Ref sig .tc := ⟨.hbm, 472, rfl⟩
abbrev main_v355 : Ref sig .tc := ⟨.hbm, 473, rfl⟩
abbrev main_v356 : Ref sig .tc := ⟨.hbm, 474, rfl⟩
abbrev main_c_83 : Ref sig .tc := ⟨.hbm, 475, rfl⟩
abbrev main_v357 : Ref sig .tc := ⟨.hbm, 476, rfl⟩
abbrev main_v358 : Ref sig .tc := ⟨.hbm, 477, rfl⟩
abbrev main_c_84 : Ref sig .tc := ⟨.hbm, 478, rfl⟩
abbrev main_v359 : Ref sig .tc := ⟨.hbm, 479, rfl⟩
abbrev main_v360 : Ref sig .tc := ⟨.hbm, 480, rfl⟩
abbrev main_v361 : Ref sig .tc := ⟨.hbm, 481, rfl⟩
abbrev main_v362 : Ref sig .tc := ⟨.hbm, 482, rfl⟩
abbrev main_v363 : Ref sig .tc := ⟨.hbm, 483, rfl⟩
abbrev main_c_85 : Ref sig .tc := ⟨.hbm, 484, rfl⟩
abbrev main_v364 : Ref sig .tc := ⟨.hbm, 485, rfl⟩
abbrev main_v365 : Ref sig .tc := ⟨.hbm, 486, rfl⟩
abbrev main_c_86 : Ref sig .tc := ⟨.hbm, 487, rfl⟩
abbrev main_v366 : Ref sig .tc := ⟨.hbm, 488, rfl⟩
abbrev main_v367 : Ref sig .tc := ⟨.hbm, 489, rfl⟩
abbrev main_v368 : Ref sig .tc := ⟨.hbm, 490, rfl⟩
abbrev main_v369 : Ref sig .tc := ⟨.hbm, 491, rfl⟩
abbrev main_v370 : Ref sig .tc := ⟨.hbm, 492, rfl⟩
abbrev main_v371 : Ref sig .tc := ⟨.hbm, 493, rfl⟩
abbrev main_cst_87 : Ref sig .tc := ⟨.hbm, 494, rfl⟩
abbrev main_v372 : Ref sig .tc := ⟨.hbm, 495, rfl⟩
abbrev main_c_88 : Ref sig .tc := ⟨.hbm, 496, rfl⟩
abbrev main_v373 : Ref sig .tc := ⟨.hbm, 497, rfl⟩
abbrev main_v374 : Ref sig .tc := ⟨.hbm, 498, rfl⟩
abbrev main_c_89 : Ref sig .tc := ⟨.hbm, 499, rfl⟩
abbrev main_v375 : Ref sig .tc := ⟨.hbm, 500, rfl⟩
abbrev main_v376 : Ref sig .tc := ⟨.hbm, 501, rfl⟩
abbrev main_v377 : Ref sig .tc := ⟨.hbm, 502, rfl⟩
abbrev main_v378 : Ref sig .tc := ⟨.hbm, 503, rfl⟩
abbrev main_v379 : Ref sig .tc := ⟨.hbm, 504, rfl⟩
abbrev main_v380 : Ref sig .tc := ⟨.hbm, 505, rfl⟩
abbrev main_v381 : Ref sig .tc := ⟨.hbm, 506, rfl⟩
abbrev main_v382 : Ref sig .tc := ⟨.hbm, 507, rfl⟩
abbrev main_c_90 : Ref sig .tc := ⟨.hbm, 508, rfl⟩
abbrev main_v383 : Ref sig .tc := ⟨.hbm, 509, rfl⟩
abbrev main_v384 : Ref sig .tc := ⟨.hbm, 510, rfl⟩
abbrev main_c_91 : Ref sig .tc := ⟨.hbm, 511, rfl⟩
abbrev main_v385 : Ref sig .tc := ⟨.hbm, 512, rfl⟩
abbrev main_v386 : Ref sig .tc := ⟨.hbm, 513, rfl⟩
abbrev main_v387 : Ref sig .tc := ⟨.hbm, 514, rfl⟩
abbrev main_v388 : Ref sig .tc := ⟨.hbm, 515, rfl⟩
abbrev main_v389 : Ref sig .tc := ⟨.hbm, 516, rfl⟩
abbrev main_v390 : Ref sig .tc := ⟨.hbm, 517, rfl⟩
abbrev main_v391 : Ref sig .tc := ⟨.hbm, 518, rfl⟩
abbrev main_v392 : Ref sig .tc := ⟨.hbm, 519, rfl⟩
abbrev main_v393 : Ref sig .tc := ⟨.hbm, 520, rfl⟩
abbrev main_v394 : Ref sig .tc := ⟨.hbm, 521, rfl⟩
abbrev main_v395 : Ref sig .tc := ⟨.hbm, 522, rfl⟩
abbrev main_v396 : Ref sig .tc := ⟨.hbm, 523, rfl⟩
abbrev main_v397 : Ref sig .tc := ⟨.hbm, 524, rfl⟩
abbrev main_v398 : Ref sig .tc := ⟨.hbm, 525, rfl⟩
abbrev main_cst_92 : Ref sig .tc := ⟨.hbm, 526, rfl⟩
abbrev main_v399 : Ref sig .tc := ⟨.hbm, 527, rfl⟩
abbrev main_c_93 : Ref sig .tc := ⟨.hbm, 528, rfl⟩
abbrev main_v400 : Ref sig .tc := ⟨.hbm, 529, rfl⟩
abbrev main_v401 : Ref sig .tc := ⟨.hbm, 530, rfl⟩
abbrev main_c_94 : Ref sig .tc := ⟨.hbm, 531, rfl⟩
abbrev main_v402 : Ref sig .tc := ⟨.hbm, 532, rfl⟩
abbrev main_v403 : Ref sig .tc := ⟨.hbm, 533, rfl⟩
abbrev main_v404 : Ref sig .tc := ⟨.hbm, 534, rfl⟩
abbrev main_v405 : Ref sig .tc := ⟨.hbm, 535, rfl⟩
abbrev main_cst_95 : Ref sig .tc := ⟨.hbm, 536, rfl⟩
abbrev main_v406 : Ref sig .tc := ⟨.hbm, 537, rfl⟩
abbrev main_v407 : Ref sig .tc := ⟨.hbm, 538, rfl⟩
abbrev main_v408 : Ref sig .tc := ⟨.hbm, 539, rfl⟩
abbrev main_c_96 : Ref sig .tc := ⟨.hbm, 540, rfl⟩
abbrev main_v409 : Ref sig .tc := ⟨.hbm, 541, rfl⟩
abbrev main_v410 : Ref sig .tc := ⟨.hbm, 542, rfl⟩
abbrev main_c_97 : Ref sig .tc := ⟨.hbm, 543, rfl⟩
abbrev main_v411 : Ref sig .tc := ⟨.hbm, 544, rfl⟩
abbrev main_v412 : Ref sig .tc := ⟨.hbm, 545, rfl⟩
abbrev main_v413 : Ref sig .tc := ⟨.hbm, 546, rfl⟩
abbrev main_v414 : Ref sig .tc := ⟨.hbm, 547, rfl⟩
abbrev main_v415 : Ref sig .tc := ⟨.hbm, 548, rfl⟩
abbrev main_c_98 : Ref sig .tc := ⟨.hbm, 549, rfl⟩
abbrev main_v416 : Ref sig .tc := ⟨.hbm, 550, rfl⟩
abbrev main_v417 : Ref sig .tc := ⟨.hbm, 551, rfl⟩
abbrev main_c_99 : Ref sig .tc := ⟨.hbm, 552, rfl⟩
abbrev main_v418 : Ref sig .tc := ⟨.hbm, 553, rfl⟩
abbrev main_v419 : Ref sig .tc := ⟨.hbm, 554, rfl⟩
abbrev main_v420 : Ref sig .tc := ⟨.hbm, 555, rfl⟩
abbrev main_v421 : Ref sig .tc := ⟨.hbm, 556, rfl⟩
abbrev main_v422 : Ref sig .tc := ⟨.hbm, 557, rfl⟩
abbrev main_v423 : Ref sig .tc := ⟨.hbm, 558, rfl⟩
abbrev main_cst_100 : Ref sig .tc := ⟨.hbm, 559, rfl⟩
abbrev main_v424 : Ref sig .tc := ⟨.hbm, 560, rfl⟩
abbrev main_c_101 : Ref sig .tc := ⟨.hbm, 561, rfl⟩
abbrev main_v425 : Ref sig .tc := ⟨.hbm, 562, rfl⟩
abbrev main_v426 : Ref sig .tc := ⟨.hbm, 563, rfl⟩
abbrev main_c_102 : Ref sig .tc := ⟨.hbm, 564, rfl⟩
abbrev main_v427 : Ref sig .tc := ⟨.hbm, 565, rfl⟩
abbrev main_v428 : Ref sig .tc := ⟨.hbm, 566, rfl⟩
abbrev main_v429 : Ref sig .tc := ⟨.hbm, 567, rfl⟩
abbrev main_v430 : Ref sig .tc := ⟨.hbm, 568, rfl⟩
abbrev main_v431 : Ref sig .tc := ⟨.hbm, 569, rfl⟩
abbrev main_v432 : Ref sig .tc := ⟨.hbm, 570, rfl⟩
abbrev main_v433 : Ref sig .tc := ⟨.hbm, 571, rfl⟩
abbrev main_v434 : Ref sig .tc := ⟨.hbm, 572, rfl⟩
abbrev main_c_103 : Ref sig .tc := ⟨.hbm, 573, rfl⟩
abbrev main_v435 : Ref sig .tc := ⟨.hbm, 574, rfl⟩
abbrev main_v436 : Ref sig .tc := ⟨.hbm, 575, rfl⟩
abbrev main_c_104 : Ref sig .tc := ⟨.hbm, 576, rfl⟩
abbrev main_v437 : Ref sig .tc := ⟨.hbm, 577, rfl⟩
abbrev main_v438 : Ref sig .tc := ⟨.hbm, 578, rfl⟩
abbrev main_v439 : Ref sig .tc := ⟨.hbm, 579, rfl⟩
abbrev main_v440 : Ref sig .tc := ⟨.hbm, 580, rfl⟩
abbrev main_v441 : Ref sig .tc := ⟨.hbm, 581, rfl⟩
abbrev main_v442 : Ref sig .tc := ⟨.hbm, 582, rfl⟩
abbrev main_v443 : Ref sig .tc := ⟨.hbm, 583, rfl⟩
abbrev main_v444 : Ref sig .tc := ⟨.hbm, 584, rfl⟩
abbrev main_v445 : Ref sig .tc := ⟨.hbm, 585, rfl⟩
abbrev main_v446 : Ref sig .tc := ⟨.hbm, 586, rfl⟩
abbrev main_v447 : Ref sig .tc := ⟨.hbm, 587, rfl⟩
abbrev main_v448 : Ref sig .tc := ⟨.hbm, 588, rfl⟩
abbrev main_v449 : Ref sig .tc := ⟨.hbm, 589, rfl⟩
abbrev main_v450 : Ref sig .tc := ⟨.hbm, 590, rfl⟩
abbrev main_v451 : Ref sig .tc := ⟨.hbm, 591, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S_S262144 : S_.BroadcastsInDim S262144 (![] : Fin 0 → Fin S262144.rank)
  bcast_S262144_S262144x1_0 : S262144.BroadcastsInDim S262144x1 (![0] : Fin 1 → Fin S262144x1.rank)
  bcast_S_S8192x64 : S_.BroadcastsInDim S8192x64 (![] : Fin 0 → Fin S8192x64.rank)
  bcast_S262144x1_S262144x64_0_1 : S262144x1.BroadcastsInDim S262144x64 (![0, 1] : Fin 2 → Fin S262144x64.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  concatenates_S8192x64_S8192x64_S8192x64_S8192x192_d1 : Shape.Concatenates [S8192x64, S8192x64, S8192x64] S8192x192 1
  bcast_S192_S1x192_1 : S192.BroadcastsInDim S1x192 (![1] : Fin 1 → Fin S1x192.rank)
  bcast_S1x192_S8192x192_0_1 : S1x192.BroadcastsInDim S8192x192 (![0, 1] : Fin 2 → Fin S8192x192.rank)
  shapeCasts_S8192x192_S8192x64x3 : S8192x192.ShapeCasts S8192x64x3
  reducesTo_S8192x64x3_S8192x64_d2 : S8192x64x3.ReducesTo [2] S8192x64
  h_S_ : 0 < S_.numel
  bcast_S8192x64_S8192x64x1_0_1 : S8192x64.BroadcastsInDim S8192x64x1 (![0, 1] : Fin 2 → Fin S8192x64x1.rank)
  bcast_S8192x64x1_S8192x64x3_0_1_2 : S8192x64x1.BroadcastsInDim S8192x64x3 (![0, 1, 2] : Fin 3 → Fin S8192x64x3.rank)
  slices_S8192x64x3_S8192x64x1_0_0_0 : S8192x64x3.Slices ![0, 0, 0] S8192x64x1
  shapeCasts_S8192x64x1_S8192x64 : S8192x64x1.ShapeCasts S8192x64
  slices_S8192x64x3_S8192x64x1_0_0_1 : S8192x64x3.Slices ![0, 0, 1] S8192x64x1
  slices_S8192x64x3_S8192x64x1_0_0_2 : S8192x64x3.Slices ![0, 0, 2] S8192x64x1
  transposes_S8192x64_S64x8192_1_0 : S8192x64.Transposes [1, 0] S64x8192
  dot_S8192x64_S64x64_S8192x64_1_0_0_1_n_n_wf : DotDims.WF S8192x64 S64x64 S8192x64 [1] [0] [0] [1] [] []
  scatter_S8192_S262144x1_S262144_n_0_0_1_wf : ScatterDims.WF S8192 S262144x1 S262144 [] [0] [0] 1
  gather_S8192_S262144x1_S262144_n_0_n_n_0_1_1_wf : GatherDims.WF S8192 S262144x1 S262144 [] [0] [] [0] [] 1 ![1]
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1
  dot_S8192x192_S192x192_S8192x192_1_0_0_1_n_n_wf : DotDims.WF S8192x192 S192x192 S8192x192 [1] [0] [0] [1] [] []
  dot_S8192x64_S64x8192_S8192x8192_1_0_0_1_n_n_wf : DotDims.WF S8192x64 S64x8192 S8192x8192 [1] [0] [0] [1] [] []

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def gather_S8192_S262144x1_S262144_n_0_n_n_0_1_1 : GatherDims S8192 S262144x1 S262144 where
  offsetDims := []
  collapsedSliceDims := [0]
  operandBatchingDims := []
  startIndicesBatchingDims := []
  startIndexMap := [0]
  indexVectorDim := 1
  sliceSizes := ![1]
  wf := gather_S8192_S262144x1_S262144_n_0_n_n_0_1_1_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf
def dot_S8192x192_S192x192_S8192x192_1_0_0_1_n_n : DotDims S8192x192 S192x192 S8192x192 where
  lhsContracting := [1]
  rhsContracting := [0]
  lhsNonContracting := [0]
  rhsNonContracting := [1]
  lhsBatch := []
  rhsBatch := []
  wf := dot_S8192x192_S192x192_S8192x192_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.KSpmm0.lean ====
import proofs.«414230_j6141803233547_3_alg».proof.Proof.Gen.Kernel.Launch
import proofs.«414230_j6141803233547_3_alg».proof.Proof.Gen.Kernel.Skeleton
import proofs.«414230_j6141803233547_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! # Region 0: the sparse-times-dense product with a dense layer, one row block at a time -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The same blocks at their literal vector types: the adjacency block, the dense operand whole, the layer's
    matrix and its bias. -/
abbrev ablk0 (c : Dev nD) (t : Fin cfg0.N) : Vec F S2048x2048 .bf16 := iblk0 V c 0 t
abbrev xarr0 (c : Dev nD) (t : Fin cfg0.N) : Vec F S8192x64 .bf16 := iblk0 V c 1 t
abbrev wmat0 (c : Dev nD) (t : Fin cfg0.N) : Vec F S64x256 .bf16 := iblk0 V c 2 t
abbrev bias0 (c : Dev nD) (t : Fin cfg0.N) : Vec F S1x256 .f32 := iblk0 V c 3 t

/-- The rows of the dense operand the body loads at point `t`: the rectangle at the printed offsets. -/
def xsl0 (c : Dev nD) (t : Fin cfg0.N) : Vec F S2048x64 .bf16 :=
  View.ld (xarr0 V c t) (Rect.unit (s := S8192x64) (k0_off1 (grid0.coords t)) S2048x64.size (k0_off1_inb (grid0.coords t)))

/-! ## What the body leaves, point by point -/

/-- THE ACCUMULATION: the partial sum after the body at position `n`. At the first column block of a row
    block (`n % 4 = 0`) the sum restarts from the zero block; elsewhere it adds this column block's product to
    what the point before left. -/
def acc0 (c : Dev nD) : (n : ℕ) → n < cfg0.N → Vec F S2048x64 .f32
  | 0, h => k0_pay2 (xsl0 V c ⟨0, h⟩) k0_pay1 (ablk0 V c ⟨0, h⟩)
  | n + 1, h => if (n + 1) % 4 = 0 then k0_pay2 (xsl0 V c ⟨n + 1, h⟩) k0_pay1 (ablk0 V c ⟨n + 1, h⟩)
                else k0_pay2 (xsl0 V c ⟨n + 1, h⟩) (acc0 c n (Nat.lt_of_succ_lt h)) (ablk0 V c ⟨n + 1, h⟩)

/-- At a first column block the sum restarts. -/
theorem acc0_reset (c : Dev nD) (t : Fin cfg0.N) (h : t.val % 4 = 0) :
    acc0 V c t.val t.isLt = k0_pay2 (xsl0 V c t) k0_pay1 (ablk0 V c t) := by
  obtain ⟨n, hn⟩ := t
  cases n with
  | zero => rfl
  | succ n => exact if_pos h

/-- Elsewhere it continues from the point before. -/
theorem acc0_step (c : Dev nD) (t : Fin cfg0.N) (h : t.val % 4 ≠ 0) :
    acc0 V c t.val t.isLt = k0_pay2 (xsl0 V c t) (acc0 V c (t.val - 1) (Nat.lt_of_le_of_lt (Nat.sub_le _ _) t.isLt)) (ablk0 V c t) := by
  obtain ⟨n, hn⟩ := t
  cases n with
  | zero => exact absurd (Nat.zero_mod _) h
  | succ n => exact if_neg h

/-- What the epilogue stores into the output block: the dense layer applied to the finished sum (meaningful at
    the last column block of a row block; elsewhere the window is idle and nothing consults it). -/
def out0 (c : Dev nD) (t : Fin cfg0.N) : Vec F S2048x256 .f32 := k0_pay3 (acc0 V c t.val t.isLt) (wmat0 V c t) (bias0 V c t)

/-! ## The invariant: the carried partial sum -/

/-- The partial-sum buffer, whole. -/
abbrev scM0 : Memref sig .tc .vmem S2048x64 .f32 := Memref.whole cc0_scratch0

/-- The core's scoped buffers other than the staging buffers and the partial-sum buffer, at some contents each. -/
abbrev restS0 (c : Dev nD) : sProp 𝕄 :=
  Pipeline.scopedRestBut (Ix := Unit) (Name := ℕ) (U := UR sig nD τ) (Lvl := ℕ) (Val := Elt F) spec0 c [cc0_scratch0]

/-- The region invariant before position `n`: before the first point every scoped buffer at anything; afterwards
    the partial-sum buffer at what the point before left, the other scoped buffers at anything; the generator
    register at some state throughout. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ restS0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ restS0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ restS0 c) ∗ (∃ r, prngReg c r)) := by
  cases n with
  | zero => exact absurd rfl hz
  | succ n => rfl

/-! ## The pipeline's proof data -/

/-- The proof data of pipeline 0 on core `c`: the arrays as the region finds them; after the body each input's
    buffer at its block and the output's at the epilogue's value; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_in (c : Dev nD) (t : Fin cfg0.N) :
    (dat0 V c).after 0 t = iblk0 V c 0 t ∧ (dat0 V c).after 1 t = iblk0 V c 1 t
      ∧ (dat0 V c).after 2 t = iblk0 V c 2 t ∧ (dat0 V c).after 3 t = iblk0 V c 3 t := by
  refine ⟨?_, ?_, ?_, ?_⟩ <;> dsimp only [dat0]

theorem after0_4 (c : Dev nD) (t : Fin cfg0.N) : (dat0 V c).after 4 t = out0 V c t := by dsimp only [dat0]

theorem owed0 (c : Dev nD) (t) : (dat0 V c).owed t = 0 := rfl
theorem q0 (c : Dev nD) (w) : (dat0 V c).q w = fullShare := rfl

/-! ## The body's branch conditions -/

/-- The first condition of the body (the column-block coordinate is zero), from the grid coordinates. -/
abbrev condA0 (i : grid0.Coords) : Prop :=
  (Scalar.cmpi .ne (Scalar.extui (Scalar.cmpi .eq (BitVec.ofNat 32 (i 1).val) 0#32)) 0#32) = 1#1
/-- The second condition of the body (the column-block coordinate is the last). -/
abbrev condB0 (i : grid0.Coords) : Prop := k0_cond2 i = 1#1

/-- The zero offsets, however spelt. -/
theorem hz2 : (![0, 0] : Fin 2 → ℕ) = fun _ => 0 := by funext a; fin_cases a <;> rfl

/-- The rows of the dense operand the body loads at coordinates `i`. -/
abbrev rX0 (i : grid0.Coords) : Rect S8192x64 := Rect.unit (s := S8192x64) (k0_off1 i) S2048x64.size (k0_off1_inb i)

set_option maxHeartbeats 1000000 in
/-- The body at a middle column block (neither condition holds), on whole memrefs: the adjacency block at `a`,
    the dense operand at `x`, the partial sum at `s`. It leaves the partial sum at `s` plus this block's product
    and the inputs as they were; the other operands are not touched. -/
theorem sound_kernelB0 (c : Dev nD) (E : Set ℕ) (i : grid0.Coords) (hA : ¬ condA0 i) (hB : ¬ condB0 i)
    (arg2 : Memref sig .tc .vmem S2048x2048 .bf16) (harg2 : arg2.IsWhole) (arg3 : Memref sig .tc .vmem S8192x64 .bf16) (harg3 : arg3.IsWhole)
    (arg4 : Memref sig .tc .vmem S64x256 .bf16) (harg4 : arg4.IsWhole) (arg5 : Memref sig .tc .vmem S1x256 .f32) (harg5 : arg5.IsWhole)
    (arg6 : Memref sig .tc .vmem S2048x256 .f32) (harg6 : arg6.IsWhole) (arg7 : Memref sig .tc .vmem S2048x64 .f32) (harg7 : arg7.IsWhole)
    (a : Vec F S2048x2048 .bf16) (x : Vec F S8192x64 .bf16) (s : Vec F S2048x64 .f32) (K : PUnit → sProp 𝕄) :
    iprop(owns (c : Thread nD τ) arg2 fullShare a ∗ owns (c : Thread nD τ) arg3 fullShare x ∗ owns (c : Thread nD τ) arg7 fullShare s
        ∗ (iprop(owns (c : Thread nD τ) arg2 fullShare a ∗ owns (c : Thread nD τ) arg3 fullShare x
            ∗ owns (c : Thread nD τ) arg7 fullShare (k0_pay2 (View.ld x (rX0 i)) s a)) -∗ K ⟨⟩))
      ⊢ wp frame (wpE (defs₀ (F := F)) Variants.none c none) E (cc0__spmm_w_kernel i arg2 harg2 arg3 harg3 arg4 harg4 arg5 harg5 arg6 harg6 arg7 harg7) K := by
  simp only [cc0__spmm_w_kernel_eq_skeleton]; unfold cc0__spmm_w_kernel_skel
  unfold owns
  iintro ⟨⟨%fa, %hfa, Ha⟩, ⟨%fx, %hfx, Hx⟩, ⟨%fs, %hfs, Hs⟩, Hk⟩
  subst hfa; subst hfx; subst hfs
  sl_exec (disch := first | exact hA | exact hB)
  sl_step
  iapply Hk
  isplitl [Ha]
  · iexists fa; isplitr; · ipureintro; rfl
    iexact Ha
  isplitl [Hx]
  · iexists fx; isplitr; · ipureintro; rfl
    iexact Hx
  iexists _; isplitr
  swap; · iexact Hs
  ipureintro
  -- one store through the whole rectangle leaves its payload; the loads through whole rectangles read the contents
  rw [View.read_writes_eq_canon _ _ _ (fun y => ⟨_, List.mem_singleton_self _, View.mem_set_unit_zero hz2 inb_S2048x64_S2048x64_0_0 y⟩),
    View.canon_unit_zero hz2]
  simp only [View.readAt_eq_ld, View.ld_unit_zero (S := S2048x64) hz2, View.ld_unit_zero (S := S2048x2048) hz2]
  try rfl

set_option maxHeartbeats 1000000 in
/-- The body at a first column block (the first condition holds, the second does not): the partial sum, at anything,
    is reset to the zero block and then takes this block's product; the inputs stay as they were. -/
theorem sound_kernelA0 (c : Dev nD) (E : Set ℕ) (i : grid0.Coords) (hA : condA0 i) (hB : ¬ condB0 i)
    (arg2 : Memref sig .tc .vmem S2048x2048 .bf16) (harg2 : arg2.IsWhole) (arg3 : Memref sig .tc .vmem S8192x64 .bf16) (harg3 : arg3.IsWhole)
    (arg4 : Memref sig .tc .vmem S64x256 .bf16) (harg4 : arg4.IsWhole) (arg5 : Memref sig .tc .vmem S1x256 .f32) (harg5 : arg5.IsWhole)
    (arg6 : Memref sig .tc .vmem S2048x256 .f32) (harg6 : arg6.IsWhole) (arg7 : Memref sig .tc .vmem S2048x64 .f32) (harg7 : arg7.IsWhole)
    (a : Vec F S2048x2048 .bf16) (x : Vec F S8192x64 .bf16) (K : PUnit → sProp 𝕄) :
    iprop(owns (c : Thread nD τ) arg2 fullShare a ∗ owns (c : Thread nD τ) arg3 fullShare x ∗ (∃ s, owns (c : Thread nD τ) arg7 fullShare s)
        ∗ (iprop(owns (c : Thread nD τ) arg2 fullShare a ∗ owns (c : Thread nD τ) arg3 fullShare x
            ∗ owns (c : Thread nD τ) arg7 fullShare (k0_pay2 (View.ld x (rX0 i)) k0_pay1 a)) -∗ K ⟨⟩))
      ⊢ wp frame (wpE (defs₀ (F := F)) Variants.none c none) E (cc0__spmm_w_kernel i arg2 harg2 arg3 harg3 arg4 harg4 arg5 harg5 arg6 harg6 arg7 harg7) K := by
  simp only [cc0__spmm_w_kernel_eq_skeleton]; unfold cc0__spmm_w_kernel_skel
  unfold owns
  iintro ⟨⟨%fa, %hfa, Ha⟩, ⟨%fx, %hfx, Hx⟩, ⟨%s, %fs, -, Hs⟩, Hk⟩
  subst hfa; subst hfx
  sl_exec (disch := first | exact hA | exact hB)
  sl_step
  iapply Hk
  isplitl [Ha]
  · iexists fa; isplitr; · ipureintro; rfl
    iexact Ha
  isplitl [Hx]
  · iexists fx; isplitr; · ipureintro; rfl
    iexact Hx
  iexists _; isplitr
  swap; · iexact Hs
  ipureintro
  -- the later store covers; the load between the two stores reads the zero block the first one left
  sl_unfold_words
  rw [View.read_writes_eq_canon _ _ _ (fun y => ⟨_, List.mem_cons_self, View.mem_set_unit_zero hz2 inb_S2048x64_S2048x64_0_0 y⟩),
    View.canon_cons_unit_zero (S := S2048x64) hz2]
  simp only [View.readAt_eq_ld, View.readCov_unit_zero (S := S2048x64) _ hz2, View.ld_unit_zero (S := S2048x64) hz2,
    View.ld_unit_zero (S := S2048x2048) hz2]
  try rfl

set_option maxHeartbeats 1000000 in
/-- The body at a last column block (the second condition holds, the first does not): the partial sum at `s` takes
    this block's product, and the epilogue stores the dense layer of the finished sum over the whole output block
    (found at anything); the inputs stay as they were. -/
theorem sound_kernelC0 (c : Dev nD) (E : Set ℕ) (i : grid0.Coords) (hA : ¬ condA0 i) (hB : condB0 i)
    (arg2 : Memref sig .tc .vmem S2048x2048 .bf16) (harg2 : arg2.IsWhole) (arg3 : Memref sig .tc .vmem S8192x64 .bf16) (harg3 : arg3.IsWhole)
    (arg4 : Memref sig .tc .vmem S64x256 .bf16) (harg4 : arg4.IsWhole) (arg5 : Memref sig .tc .vmem S1x256 .f32) (harg5 : arg5.IsWhole)
    (arg6 : Memref sig .tc .vmem S2048x256 .f32) (harg6 : arg6.IsWhole) (arg7 : Memref sig .tc .vmem S2048x64 .f32) (harg7 : arg7.IsWhole)
    (a : Vec F S2048x2048 .bf16) (x : Vec F S8192x64 .bf16) (w : Vec F S64x256 .bf16) (b : Vec F S1x256 .f32) (s : Vec F S2048x64 .f32) (K : PUnit → sProp 𝕄) :
    iprop(owns (c : Thread nD τ) arg2 fullShare a ∗ owns (c : Thread nD τ) arg3 fullShare x ∗ owns (c : Thread nD τ) arg4 fullShare w
        ∗ owns (c : Thread nD τ) arg5 fullShare b ∗ (∃ d, owns (c : Thread nD τ) arg6 fullShare d) ∗ owns (c : Thread nD τ) arg7 fullShare s
        ∗ (iprop(owns (c : Thread nD τ) arg2 fullShare a ∗ owns (c : Thread nD τ) arg3 fullShare x ∗ owns (c : Thread nD τ) arg4 fullShare w
            ∗ owns (c : Thread nD τ) arg5 fullShare b
            ∗ owns (c : Thread nD τ) arg6 fullShare (k0_pay3 (k0_pay2 (View.ld x (rX0 i)) s a) w b)
            ∗ owns (c : Thread nD τ) arg7 fullShare (k0_pay2 (View.ld x (rX0 i)) s a)) -∗ K ⟨⟩))
      ⊢ wp frame (wpE (defs₀ (F := F)) Variants.none c none) E (cc0__spmm_w_kernel i arg2 harg2 arg3 harg3 arg4 harg4 arg5 harg5 arg6 harg6 arg7 harg7) K := by
  simp only [cc0__spmm_w_kernel_eq_skeleton]; unfold cc0__spmm_w_kernel_skel
  unfold owns
  iintro ⟨⟨%fa, %hfa, Ha⟩, ⟨%fx, %hfx, Hx⟩, ⟨%fw, %hfw, Hw⟩, ⟨%fb, %hfb, Hb⟩, ⟨%d, %fd, -, Hd⟩, ⟨%fs, %hfs, Hs⟩, Hk⟩
  subst hfa; subst hfx; subst hfw; subst hfb; subst hfs
  sl_exec (disch := first | exact hA | exact hB)
  sl_step
  iapply Hk
  isplitl [Ha]
  · iexists fa; isplitr; · ipureintro; rfl
    iexact Ha
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  isplitl [Hd]
  · iexists _; isplitr
    swap; · iexact Hd
    ipureintro
    -- the epilogue's one store covers the output block; its load of the partial sum reads what the store before left
    sl_unfold_words
    rw [View.read_writes_eq_canon _ _ _ (fun y => ⟨_, List.mem_singleton_self _, View.mem_set_unit_zero hz2 inb_S2048x256_S2048x256_0_0 y⟩),
      View.canon_unit_zero hz2]
    simp only [View.readAt_eq_ld, View.readCov_unit_zero (S := S2048x64) _ hz2, View.ld_unit_zero (S := S2048x64) hz2,
      View.ld_unit_zero (S := S2048x2048) hz2, View.ld_unit_zero (S := S64x256) hz2, View.ld_unit_zero (S := S1x256) hz2]
    try rfl
  iexists _; isplitr
  swap; · iexact Hs
  ipureintro
  sl_unfold_words
  rw [View.read_writes_eq_canon _ _ _ (fun y => ⟨_, List.mem_singleton_self _, View.mem_set_unit_zero hz2 inb_S2048x64_S2048x64_0_0 y⟩),
    View.canon_unit_zero hz2]
  simp only [View.readAt_eq_ld, View.ld_unit_zero (S := S2048x64) hz2, View.ld_unit_zero (S := S2048x2048) hz2]
  try rfl

/-! ## The conditions in closed form over the sixteen points -/

/-- The first condition holds at the first column block of each row block — decided over the grid. -/
theorem hcondA0 : ∀ t : Fin cfg0.N, condA0 (grid0.coords t) ↔ t.val % 4 = 0 :=
  (by decide +kernel : ∀ t : Fin grid0.N, condA0 (grid0.coords t) ↔ t.val % 4 = 0)
/-- The second condition holds at the last column block of each row block — decided over the grid. -/
theorem hcondB0 : ∀ t : Fin cfg0.N, condB0 (grid0.coords t) ↔ t.val % 4 = 3 :=
  (by decide +kernel : ∀ t : Fin grid0.N, condB0 (grid0.coords t) ↔ t.val % 4 = 3)

/-! ## Where the windows are idle -/

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the second condition fails the output window is idle, and the pipeline does not write its block back; -/
theorem idleAt0_4 : ∀ t : Fin cfg0.N, ¬condB0 (grid0.coords t) → cfg0.idle 4 (grid0.coords t) = true := by decide +kernel
theorem noFlush0_4 : ∀ t : Fin cfg0.N, ¬condB0 (grid0.coords t) → (cfg0.win 4).flush t = false := by decide +kernel
/-- where it holds the window is live. -/
theorem liveAt0_4 : ∀ t : Fin cfg0.N, condB0 (grid0.coords t) → cfg0.idle 4 (grid0.coords t) = false := by decide +kernel

/-! ## The class's invariant with the partial-sum buffer set apart -/

/-- The scoped buffers that are no staging buffer are the partial-sum buffer and the rest. -/
theorem PhiA0_eq (c : Dev nD) :
    (Pipeline.ΦA spec0 c : sProp 𝕄)
      = iprop(iprop((∃ d, owns (c : Thread nD τ) scM0 fullShare d) ∗ restS0 c) ∗ (∃ r, prngReg c r)) := by
  unfold Pipeline.ΦA
  rw [Pipeline.scopedRest_split_of_list spec0 c [cc0_scratch0] (by decide) (by decide)]
  simp only [scM0, owns_whole, bigSepL_singleton]; try rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-! ## What the body finds in the input windows -/

/-- An input window's current staging buffer holds its block at every point, fetched there or not: unfetched, the
    block index has not moved and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (fun t => (after0_in V c t).1) t d
theorem before0_1 (c : Dev nD) (t : Fin cfg0.N) (d) : (dat0 V c).before 1 t d = iblk0 V c 1 t :=
  before0_1_of V (dat0 V c) (A_eq0 V c 1) (fun t => (after0_in V c t).2.1) t d
theorem before0_2 (c : Dev nD) (t : Fin cfg0.N) (d) : (dat0 V c).before 2 t d = iblk0 V c 2 t :=
  before0_2_of V (dat0 V c) (A_eq0 V c 2) (fun t => (after0_in V c t).2.2.1) t d
theorem before0_3 (c : Dev nD) (t : Fin cfg0.N) (d) : (dat0 V c).before 3 t d = iblk0 V c 3 t :=
  before0_3_of V (dat0 V c) (A_eq0 V c 3) (fun t => (after0_in V c t).2.2.2) t d

/-- The input windows are left at their blocks. -/
theorem leaves0_0 (c : Dev nD) (t : Fin cfg0.N) :
    (dat0 V c).leavesExact 0 t = owns (c : Thread nD τ) (st0_0 t) fullShare (iblk0 V c 0 t) := by
  unfold Dat.leavesExact; rw [liveAt0_0 t, (after0_in V c t).1]
theorem leaves0_1 (c : Dev nD) (t : Fin cfg0.N) :
    (dat0 V c).leavesExact 1 t = owns (c : Thread nD τ) (st0_1 t) fullShare (iblk0 V c 1 t) := by
  unfold Dat.leavesExact; rw [liveAt0_1 t, (after0_in V c t).2.1]
theorem leaves0_2 (c : Dev nD) (t : Fin cfg0.N) :
    (dat0 V c).leavesExact 2 t = owns (c : Thread nD τ) (st0_2 t) fullShare (iblk0 V c 2 t) := by
  unfold Dat.leavesExact; rw [liveAt0_2 t, (after0_in V c t).2.2.1]
theorem leaves0_3 (c : Dev nD) (t : Fin cfg0.N) :
    (dat0 V c).leavesExact 3 t = owns (c : Thread nD τ) (st0_3 t) fullShare (iblk0 V c 3 t) := by
  unfold Dat.leavesExact; rw [liveAt0_3 t, (after0_in V c t).2.2.2]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The input windows hold their blocks; the position within the row block says which of the
    three cases the point is in. The invariant hands the body the partial-sum buffer — at anything before the first
    point, afterwards at what the point before left — and takes it back at this point's sum; an idle output window
    is handed back as found, a live one at the epilogue's value; the other scoped buffers, the generator register
    and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  by_cases hr : t.val % 4 = 0
  · -- a first column block: the sum restarts
    have hcA : condA0 (grid0.coords t) := (hcondA0 t).mpr hr
    have hcB : ¬condB0 (grid0.coords t) := fun h => by have := (hcondB0 t).mp h; omega
    rw [Dat.leavesExact_idle (dat0 V c) 4 t (idleAt0_4 t hcB) (noFlush0_4 t hcB)]
    rw [acc0_reset V c t hr]; unfold xsl0
    by_cases hz : t.val = 0
    · rw [PhiS0_castSucc V c t, PhiS0_zero V c _ _ hz, PhiA0_eq]
      iintro ⟨⟨⟨Hs, Hrest⟩, Hg⟩, Ho, ⟨%da, Ha⟩, ⟨%dx, Hx⟩, ⟨%dw, Hw⟩, ⟨%db, Hb⟩, Hd⟩
      iapply (sound_kernelA0 c Set.univ (grid0.coords t) hcA hcB _ _ _ _ _ _ _ _ _ _ _ _ (iblk0 V c 0 t) (iblk0 V c 1 t) _)
      isplitl [Ha]; · iexact Ha
      isplitl [Hx]; · iexact Hx
      isplitl [Hs]; · iexact Hs
      iintro ⟨Ha, Hx, Hs⟩
      isplitl [Hs Hrest Hg]
      · isplitl [Hs Hrest]
        · isplitl [Hs]; · iexact Hs
          iexact Hrest
        iexact Hg
      isplitl [Ho]; · iexact Ho
      isplitl [Ha]; · iexact Ha
      isplitl [Hx]; · iexact Hx
      isplitl [Hw]; · iexact Hw
      isplitl [Hb]; · iexact Hb
      iexact Hd
    · rw [PhiS0_castSucc V c t, PhiS0_pos V c _ _ hz]
      iintro ⟨⟨⟨Hs, Hrest⟩, Hg⟩, Ho, ⟨%da, Ha⟩, ⟨%dx, Hx⟩, ⟨%dw, Hw⟩, ⟨%db, Hb⟩, Hd⟩
      iapply (sound_kernelA0 c Set.univ (grid0.coords t) hcA hcB _ _ _ _ _ _ _ _ _ _ _ _ (iblk0 V c 0 t) (iblk0 V c 1 t) _)
      isplitl [Ha]; · iexact Ha
      isplitl [Hx]; · iexact Hx
      isplitl [Hs]; · iexists _; iexact Hs
      iintro ⟨Ha, Hx, Hs⟩
      isplitl [Hs Hrest Hg]
      · isplitl [Hs Hrest]
        · isplitl [Hs]; · iexact Hs
          iexact Hrest
        iexact Hg
      isplitl [Ho]; · iexact Ho
      isplitl [Ha]; · iexact Ha
      isplitl [Hx]; · iexact Hx
      isplitl [Hw]; · iexact Hw
      isplitl [Hb]; · iexact Hb
      iexact Hd
  · have hz : t.val ≠ 0 := fun h => hr (by rw [h])
    have hcA : ¬condA0 (grid0.coords t) := fun h => hr ((hcondA0 t).mp h)
    rw [PhiS0_castSucc V c t, PhiS0_pos V c _ _ hz]
    rw [acc0_step V c t hr]; unfold xsl0
    by_cases hl : t.val % 4 = 3
    · -- a last column block: the sum is finished and the epilogue stores the output block
      have hcB : condB0 (grid0.coords t) := (hcondB0 t).mpr hl
      rw [show (dat0 V c).leavesExact 4 t = owns (c : Thread nD τ) (st0_4 t) fullShare (out0 V c t) from by
        unfold Dat.leavesExact; rw [liveAt0_4 t hcB, after0_4]]
      unfold out0; rw [acc0_step V c t hr]; unfold xsl0
      iintro ⟨⟨⟨Hs, Hrest⟩, Hg⟩, Ho, ⟨%da, Ha⟩, ⟨%dx, Hx⟩, ⟨%dw, Hw⟩, ⟨%db, Hb⟩, ⟨%dd, Hd⟩⟩
      iapply (sound_kernelC0 c Set.univ (grid0.coords t) hcA hcB _ _ _ _ _ _ _ _ _ _ _ _ (iblk0 V c 0 t) (iblk0 V c 1 t) (iblk0 V c 2 t) (iblk0 V c 3 t) _ _)
      isplitl [Ha]; · iexact Ha
      isplitl [Hx]; · iexact Hx
      isplitl [Hw]; · iexact Hw
      isplitl [Hb]; · iexact Hb
      isplitl [Hd]; · iexists _; iexact Hd
      isplitl [Hs]; · iexact Hs
      iintro ⟨Ha, Hx, Hw, Hb, Hd, Hs⟩
      isplitl [Hs Hrest Hg]
      · isplitl [Hs Hrest]
        · isplitl [Hs]; · iexact Hs
          iexact Hrest
        iexact Hg
      isplitl [Ho]; · iexact Ho
      isplitl [Ha]; · iexact Ha
      isplitl [Hx]; · iexact Hx
      isplitl [Hw]; · iexact Hw
      isplitl [Hb]; · iexact Hb
      iexact Hd
    · -- a middle column block: the sum continues
      have hcB : ¬condB0 (grid0.coords t) := fun h => hl ((hcondB0 t).mp h)
      rw [Dat.leavesExact_idle (dat0 V c) 4 t (idleAt0_4 t hcB) (noFlush0_4 t hcB)]
      iintro ⟨⟨⟨Hs, Hrest⟩, Hg⟩, Ho, ⟨%da, Ha⟩, ⟨%dx, Hx⟩, ⟨%dw, Hw⟩, ⟨%db, Hb⟩, Hd⟩
      iapply (sound_kernelB0 c Set.univ (grid0.coords t) hcA hcB _ _ _ _ _ _ _ _ _ _ _ _ (iblk0 V c 0 t) (iblk0 V c 1 t) _ _)
      isplitl [Ha]; · iexact Ha
      isplitl [Hx]; · iexact Hx
      isplitl [Hs]; · iexact Hs
      iintro ⟨Ha, Hx, Hs⟩
      isplitl [Hs Hrest Hg]
      · isplitl [Hs Hrest]
        · isplitl [Hs]; · iexact Hs
          iexact Hrest
        iexact Hg
      isplitl [Ho]; · iexact Ho
      isplitl [Ha]; · iexact Ha
      isplitl [Hx]; · iexact Hx
      isplitl [Hw]; · iexact Hw
      isplitl [Hb]; · iexact Hb
      iexact Hd

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the partial sum's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨Hs, Hrest⟩, Hg⟩
  isplitl [Hs Hrest]
  · isplitl [Hs]; · iexists _; iexact Hs
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Cert.Kernel.Hand

end
-- ==== Proof.KSpmm1.lean ====
import proofs.«414230_j6141803233547_3_alg».proof.Proof.Gen.Kernel.Launch
import proofs.«414230_j6141803233547_3_alg».proof.Proof.Gen.Kernel.Skeleton
import proofs.«414230_j6141803233547_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! # Region 1: the sparse-times-dense product with a dense layer, one row block at a time -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The same blocks at their literal vector types: the adjacency block, the dense operand whole, the layer's
    matrix and its bias. -/
abbrev ablk1 (c : Dev nD) (t : Fin cfg1.N) : Vec F S2048x2048 .bf16 := iblk1 V c 0 t
abbrev xarr1 (c : Dev nD) (t : Fin cfg1.N) : Vec F S8192x256 .bf16 := iblk1 V c 1 t
abbrev wmat1 (c : Dev nD) (t : Fin cfg1.N) : Vec F S256x256 .bf16 := iblk1 V c 2 t
abbrev bias1 (c : Dev nD) (t : Fin cfg1.N) : Vec F S1x256 .f32 := iblk1 V c 3 t

/-- The rows of the dense operand the body loads at point `t`: the rectangle at the printed offsets. -/
def xsl1 (c : Dev nD) (t : Fin cfg1.N) : Vec F S2048x256 .bf16 :=
  View.ld (xarr1 V c t) (Rect.unit (s := S8192x256) (k1_off1 (grid1.coords t)) S2048x256.size (k1_off1_inb (grid1.coords t)))

/-! ## What the body leaves, point by point -/

/-- THE ACCUMULATION: the partial sum after the body at position `n`. At the first column block of a row
    block (`n % 4 = 0`) the sum restarts from the zero block; elsewhere it adds this column block's product to
    what the point before left. -/
def acc1 (c : Dev nD) : (n : ℕ) → n < cfg1.N → Vec F S2048x256 .f32
  | 0, h => k1_pay2 (xsl1 V c ⟨0, h⟩) k1_pay1 (ablk1 V c ⟨0, h⟩)
  | n + 1, h => if (n + 1) % 4 = 0 then k1_pay2 (xsl1 V c ⟨n + 1, h⟩) k1_pay1 (ablk1 V c ⟨n + 1, h⟩)
                else k1_pay2 (xsl1 V c ⟨n + 1, h⟩) (acc1 c n (Nat.lt_of_succ_lt h)) (ablk1 V c ⟨n + 1, h⟩)

/-- At a first column block the sum restarts. -/
theorem acc1_reset (c : Dev nD) (t : Fin cfg1.N) (h : t.val % 4 = 0) :
    acc1 V c t.val t.isLt = k1_pay2 (xsl1 V c t) k1_pay1 (ablk1 V c t) := by
  obtain ⟨n, hn⟩ := t
  cases n with
  | zero => rfl
  | succ n => exact if_pos h

/-- Elsewhere it continues from the point before. -/
theorem acc1_step (c : Dev nD) (t : Fin cfg1.N) (h : t.val % 4 ≠ 0) :
    acc1 V c t.val t.isLt = k1_pay2 (xsl1 V c t) (acc1 V c (t.val - 1) (Nat.lt_of_le_of_lt (Nat.sub_le _ _) t.isLt)) (ablk1 V c t) := by
  obtain ⟨n, hn⟩ := t
  cases n with
  | zero => exact absurd (Nat.zero_mod _) h
  | succ n => exact if_neg h

/-- What the epilogue stores into the output block: the dense layer applied to the finished sum (meaningful at
    the last column block of a row block; elsewhere the window is idle and nothing consults it). -/
def out1 (c : Dev nD) (t : Fin cfg1.N) : Vec F S2048x256 .f32 := k1_pay3 (acc1 V c t.val t.isLt) (wmat1 V c t) (bias1 V c t)

/-! ## The invariant: the carried partial sum -/

/-- The partial-sum buffer, whole. -/
abbrev scM1 : Memref sig .tc .vmem S2048x256 .f32 := Memref.whole cc1_scratch0

/-- The core's scoped buffers other than the staging buffers and the partial-sum buffer, at some contents each. -/
abbrev restS1 (c : Dev nD) : sProp 𝕄 :=
  Pipeline.scopedRestBut (Ix := Unit) (Name := ℕ) (U := UR sig nD τ) (Lvl := ℕ) (Val := Elt F) spec1 c [cc1_scratch0]

/-- The region invariant before position `n`: before the first point every scoped buffer at anything; afterwards
    the partial-sum buffer at what the point before left, the other scoped buffers at anything; the generator
    register at some state throughout. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ restS1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ restS1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ restS1 c) ∗ (∃ r, prngReg c r)) := by
  cases n with
  | zero => exact absurd rfl hz
  | succ n => rfl

/-! ## The pipeline's proof data -/

/-- The proof data of pipeline 1 on core `c`: the arrays as the region finds them; after the body each input's
    buffer at its block and the output's at the epilogue's value; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_in (c : Dev nD) (t : Fin cfg1.N) :
    (dat1 V c).after 0 t = iblk1 V c 0 t ∧ (dat1 V c).after 1 t = iblk1 V c 1 t
      ∧ (dat1 V c).after 2 t = iblk1 V c 2 t ∧ (dat1 V c).after 3 t = iblk1 V c 3 t := by
  refine ⟨?_, ?_, ?_, ?_⟩ <;> dsimp only [dat1]

theorem after1_4 (c : Dev nD) (t : Fin cfg1.N) : (dat1 V c).after 4 t = out1 V c t := by dsimp only [dat1]

theorem owed1 (c : Dev nD) (t) : (dat1 V c).owed t = 0 := rfl
theorem q1 (c : Dev nD) (w) : (dat1 V c).q w = fullShare := rfl

/-! ## The body's branch conditions -/

/-- The first condition of the body (the column-block coordinate is zero), from the grid coordinates. -/
abbrev condA1 (i : grid1.Coords) : Prop :=
  (Scalar.cmpi .ne (Scalar.extui (Scalar.cmpi .eq (BitVec.ofNat 32 (i 1).val) 0#32)) 0#32) = 1#1
/-- The second condition of the body (the column-block coordinate is the last). -/
abbrev condB1 (i : grid1.Coords) : Prop := k1_cond2 i = 1#1

/-- The zero offsets, however spelt. -/
theorem hz2 : (![0, 0] : Fin 2 → ℕ) = fun _ => 0 := by funext a; fin_cases a <;> rfl

/-- The rows of the dense operand the body loads at coordinates `i`. -/
abbrev rX1 (i : grid1.Coords) : Rect S8192x256 := Rect.unit (s := S8192x256) (k1_off1 i) S2048x256.size (k1_off1_inb i)

set_option maxHeartbeats 1000000 in
/-- The body at a middle column block (neither condition holds), on whole memrefs: the adjacency block at `a`,
    the dense operand at `x`, the partial sum at `s`. It leaves the partial sum at `s` plus this block's product
    and the inputs as they were; the other operands are not touched. -/
theorem sound_kernelB1 (c : Dev nD) (E : Set ℕ) (i : grid1.Coords) (hA : ¬ condA1 i) (hB : ¬ condB1 i)
    (arg2 : Memref sig .tc .vmem S2048x2048 .bf16) (harg2 : arg2.IsWhole) (arg3 : Memref sig .tc .vmem S8192x256 .bf16) (harg3 : arg3.IsWhole)
    (arg4 : Memref sig .tc .vmem S256x256 .bf16) (harg4 : arg4.IsWhole) (arg5 : Memref sig .tc .vmem S1x256 .f32) (harg5 : arg5.IsWhole)
    (arg6 : Memref sig .tc .vmem S2048x256 .f32) (harg6 : arg6.IsWhole) (arg7 : Memref sig .tc .vmem S2048x256 .f32) (harg7 : arg7.IsWhole)
    (a : Vec F S2048x2048 .bf16) (x : Vec F S8192x256 .bf16) (s : Vec F S2048x256 .f32) (K : PUnit → sProp 𝕄) :
    iprop(owns (c : Thread nD τ) arg2 fullShare a ∗ owns (c : Thread nD τ) arg3 fullShare x ∗ owns (c : Thread nD τ) arg7 fullShare s
        ∗ (iprop(owns (c : Thread nD τ) arg2 fullShare a ∗ owns (c : Thread nD τ) arg3 fullShare x
            ∗ owns (c : Thread nD τ) arg7 fullShare (k1_pay2 (View.ld x (rX1 i)) s a)) -∗ K ⟨⟩))
      ⊢ wp frame (wpE (defs₀ (F := F)) Variants.none c none) E (cc1__spmm_w_kernel i arg2 harg2 arg3 harg3 arg4 harg4 arg5 harg5 arg6 harg6 arg7 harg7) K := by
  simp only [cc1__spmm_w_kernel_eq_skeleton]; unfold cc1__spmm_w_kernel_skel
  unfold owns
  iintro ⟨⟨%fa, %hfa, Ha⟩, ⟨%fx, %hfx, Hx⟩, ⟨%fs, %hfs, Hs⟩, Hk⟩
  subst hfa; subst hfx; subst hfs
  sl_exec (disch := first | exact hA | exact hB)
  sl_step
  iapply Hk
  isplitl [Ha]
  · iexists fa; isplitr; · ipureintro; rfl
    iexact Ha
  isplitl [Hx]
  · iexists fx; isplitr; · ipureintro; rfl
    iexact Hx
  iexists _; isplitr
  swap; · iexact Hs
  ipureintro
  -- one store through the whole rectangle leaves its payload; the loads through whole rectangles read the contents
  rw [View.read_writes_eq_canon _ _ _ (fun y => ⟨_, List.mem_singleton_self _, View.mem_set_unit_zero hz2 inb_S2048x256_S2048x256_0_0 y⟩),
    View.canon_unit_zero hz2]
  simp only [View.readAt_eq_ld, View.ld_unit_zero (S := S2048x256) hz2, View.ld_unit_zero (S := S2048x2048) hz2]
  try rfl

set_option maxHeartbeats 1000000 in
/-- The body at a first column block (the first condition holds, the second does not): the partial sum, at anything,
    is reset to the zero block and then takes this block's product; the inputs stay as they were. -/
theorem sound_kernelA1 (c : Dev nD) (E : Set ℕ) (i : grid1.Coords) (hA : condA1 i) (hB : ¬ condB1 i)
    (arg2 : Memref sig .tc .vmem S2048x2048 .bf16) (harg2 : arg2.IsWhole) (arg3 : Memref sig .tc .vmem S8192x256 .bf16) (harg3 : arg3.IsWhole)
    (arg4 : Memref sig .tc .vmem S256x256 .bf16) (harg4 : arg4.IsWhole) (arg5 : Memref sig .tc .vmem S1x256 .f32) (harg5 : arg5.IsWhole)
    (arg6 : Memref sig .tc .vmem S2048x256 .f32) (harg6 : arg6.IsWhole) (arg7 : Memref sig .tc .vmem S2048x256 .f32) (harg7 : arg7.IsWhole)
    (a : Vec F S2048x2048 .bf16) (x : Vec F S8192x256 .bf16) (K : PUnit → sProp 𝕄) :
    iprop(owns (c : Thread nD τ) arg2 fullShare a ∗ owns (c : Thread nD τ) arg3 fullShare x ∗ (∃ s, owns (c : Thread nD τ) arg7 fullShare s)
        ∗ (iprop(owns (c : Thread nD τ) arg2 fullShare a ∗ owns (c : Thread nD τ) arg3 fullShare x
            ∗ owns (c : Thread nD τ) arg7 fullShare (k1_pay2 (View.ld x (rX1 i)) k1_pay1 a)) -∗ K ⟨⟩))
      ⊢ wp frame (wpE (defs₀ (F := F)) Variants.none c none) E (cc1__spmm_w_kernel i arg2 harg2 arg3 harg3 arg4 harg4 arg5 harg5 arg6 harg6 arg7 harg7) K := by
  simp only [cc1__spmm_w_kernel_eq_skeleton]; unfold cc1__spmm_w_kernel_skel
  unfold owns
  iintro ⟨⟨%fa, %hfa, Ha⟩, ⟨%fx, %hfx, Hx⟩, ⟨%s, %fs, -, Hs⟩, Hk⟩
  subst hfa; subst hfx
  sl_exec (disch := first | exact hA | exact hB)
  sl_step
  iapply Hk
  isplitl [Ha]
  · iexists fa; isplitr; · ipureintro; rfl
    iexact Ha
  isplitl [Hx]
  · iexists fx; isplitr; · ipureintro; rfl
    iexact Hx
  iexists _; isplitr
  swap; · iexact Hs
  ipureintro
  -- the later store covers; the load between the two stores reads the zero block the first one left
  sl_unfold_words
  rw [View.read_writes_eq_canon _ _ _ (fun y => ⟨_, List.mem_cons_self, View.mem_set_unit_zero hz2 inb_S2048x256_S2048x256_0_0 y⟩),
    View.canon_cons_unit_zero (S := S2048x256) hz2]
  simp only [View.readAt_eq_ld, View.readCov_unit_zero (S := S2048x256) _ hz2, View.ld_unit_zero (S := S2048x256) hz2,
    View.ld_unit_zero (S := S2048x2048) hz2]
  try rfl

set_option maxHeartbeats 1000000 in
/-- The body at a last column block (the second condition holds, the first does not): the partial sum at `s` takes
    this block's product, and the epilogue stores the dense layer of the finished sum over the whole output block
    (found at anything); the inputs stay as they were. -/
theorem sound_kernelC1 (c : Dev nD) (E : Set ℕ) (i : grid1.Coords) (hA : ¬ condA1 i) (hB : condB1 i)
    (arg2 : Memref sig .tc .vmem S2048x2048 .bf16) (harg2 : arg2.IsWhole) (arg3 : Memref sig .tc .vmem S8192x256 .bf16) (harg3 : arg3.IsWhole)
    (arg4 : Memref sig .tc .vmem S256x256 .bf16) (harg4 : arg4.IsWhole) (arg5 : Memref sig .tc .vmem S1x256 .f32) (harg5 : arg5.IsWhole)
    (arg6 : Memref sig .tc .vmem S2048x256 .f32) (harg6 : arg6.IsWhole) (arg7 : Memref sig .tc .vmem S2048x256 .f32) (harg7 : arg7.IsWhole)
    (a : Vec F S2048x2048 .bf16) (x : Vec F S8192x256 .bf16) (w : Vec F S256x256 .bf16) (b : Vec F S1x256 .f32) (s : Vec F S2048x256 .f32) (K : PUnit → sProp 𝕄) :
    iprop(owns (c : Thread nD τ) arg2 fullShare a ∗ owns (c : Thread nD τ) arg3 fullShare x ∗ owns (c : Thread nD τ) arg4 fullShare w
        ∗ owns (c : Thread nD τ) arg5 fullShare b ∗ (∃ d, owns (c : Thread nD τ) arg6 fullShare d) ∗ owns (c : Thread nD τ) arg7 fullShare s
        ∗ (iprop(owns (c : Thread nD τ) arg2 fullShare a ∗ owns (c : Thread nD τ) arg3 fullShare x ∗ owns (c : Thread nD τ) arg4 fullShare w
            ∗ owns (c : Thread nD τ) arg5 fullShare b
            ∗ owns (c : Thread nD τ) arg6 fullShare (k1_pay3 (k1_pay2 (View.ld x (rX1 i)) s a) w b)
            ∗ owns (c : Thread nD τ) arg7 fullShare (k1_pay2 (View.ld x (rX1 i)) s a)) -∗ K ⟨⟩))
      ⊢ wp frame (wpE (defs₀ (F := F)) Variants.none c none) E (cc1__spmm_w_kernel i arg2 harg2 arg3 harg3 arg4 harg4 arg5 harg5 arg6 harg6 arg7 harg7) K := by
  simp only [cc1__spmm_w_kernel_eq_skeleton]; unfold cc1__spmm_w_kernel_skel
  unfold owns
  iintro ⟨⟨%fa, %hfa, Ha⟩, ⟨%fx, %hfx, Hx⟩, ⟨%fw, %hfw, Hw⟩, ⟨%fb, %hfb, Hb⟩, ⟨%d, %fd, -, Hd⟩, ⟨%fs, %hfs, Hs⟩, Hk⟩
  subst hfa; subst hfx; subst hfw; subst hfb; subst hfs
  sl_exec (disch := first | exact hA | exact hB)
  sl_step
  iapply Hk
  isplitl [Ha]
  · iexists fa; isplitr; · ipureintro; rfl
    iexact Ha
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  isplitl [Hd]
  · iexists _; isplitr
    swap; · iexact Hd
    ipureintro
    -- the epilogue's one store covers the output block; its load of the partial sum reads what the store before left
    sl_unfold_words
    rw [View.read_writes_eq_canon _ _ _ (fun y => ⟨_, List.mem_singleton_self _, View.mem_set_unit_zero hz2 inb_S2048x256_S2048x256_0_0 y⟩),
      View.canon_unit_zero hz2]
    simp only [View.readAt_eq_ld, View.readCov_unit_zero (S := S2048x256) _ hz2, View.ld_unit_zero (S := S2048x256) hz2,
      View.ld_unit_zero (S := S2048x2048) hz2, View.ld_unit_zero (S := S256x256) hz2, View.ld_unit_zero (S := S1x256) hz2]
    try rfl
  iexists _; isplitr
  swap; · iexact Hs
  ipureintro
  sl_unfold_words
  rw [View.read_writes_eq_canon _ _ _ (fun y => ⟨_, List.mem_singleton_self _, View.mem_set_unit_zero hz2 inb_S2048x256_S2048x256_0_0 y⟩),
    View.canon_unit_zero hz2]
  simp only [View.readAt_eq_ld, View.ld_unit_zero (S := S2048x256) hz2, View.ld_unit_zero (S := S2048x2048) hz2]
  try rfl

/-! ## The conditions in closed form over the sixteen points -/

/-- The first condition holds at the first column block of each row block — decided over the grid. -/
theorem hcondA1 : ∀ t : Fin cfg1.N, condA1 (grid1.coords t) ↔ t.val % 4 = 0 :=
  (by decide +kernel : ∀ t : Fin grid1.N, condA1 (grid1.coords t) ↔ t.val % 4 = 0)
/-- The second condition holds at the last column block of each row block — decided over the grid. -/
theorem hcondB1 : ∀ t : Fin cfg1.N, condB1 (grid1.coords t) ↔ t.val % 4 = 3 :=
  (by decide +kernel : ∀ t : Fin grid1.N, condB1 (grid1.coords t) ↔ t.val % 4 = 3)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where the second condition fails the output window is idle, and the pipeline does not write its block back; -/
theorem idleAt1_4 : ∀ t : Fin cfg1.N, ¬condB1 (grid1.coords t) → cfg1.idle 4 (grid1.coords t) = true := by decide +kernel
theorem noFlush1_4 : ∀ t : Fin cfg1.N, ¬condB1 (grid1.coords t) → (cfg1.win 4).flush t = false := by decide +kernel
/-- where it holds the window is live. -/
theorem liveAt1_4 : ∀ t : Fin cfg1.N, condB1 (grid1.coords t) → cfg1.idle 4 (grid1.coords t) = false := by decide +kernel

/-! ## The class's invariant with the partial-sum buffer set apart -/

/-- The scoped buffers that are no staging buffer are the partial-sum buffer and the rest. -/
theorem PhiA1_eq (c : Dev nD) :
    (Pipeline.ΦA spec1 c : sProp 𝕄)
      = iprop(iprop((∃ d, owns (c : Thread nD τ) scM1 fullShare d) ∗ restS1 c) ∗ (∃ r, prngReg c r)) := by
  unfold Pipeline.ΦA
  rw [Pipeline.scopedRest_split_of_list spec1 c [cc1_scratch0] (by decide) (by decide)]
  simp only [scM1, owns_whole, bigSepL_singleton]; try rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## What the body finds in the input windows -/

/-- An input window's current staging buffer holds its block at every point, fetched there or not: unfetched, the
    block index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (fun t => (after1_in V c t).1) t d
theorem before1_1 (c : Dev nD) (t : Fin cfg1.N) (d) : (dat1 V c).before 1 t d = iblk1 V c 1 t :=
  before1_1_of V (dat1 V c) (A_eq1 V c 1) (fun t => (after1_in V c t).2.1) t d
theorem before1_2 (c : Dev nD) (t : Fin cfg1.N) (d) : (dat1 V c).before 2 t d = iblk1 V c 2 t :=
  before1_2_of V (dat1 V c) (A_eq1 V c 2) (fun t => (after1_in V c t).2.2.1) t d
theorem before1_3 (c : Dev nD) (t : Fin cfg1.N) (d) : (dat1 V c).before 3 t d = iblk1 V c 3 t :=
  before1_3_of V (dat1 V c) (A_eq1 V c 3) (fun t => (after1_in V c t).2.2.2) t d

/-- The input windows are left at their blocks. -/
theorem leaves1_0 (c : Dev nD) (t : Fin cfg1.N) :
    (dat1 V c).leavesExact 0 t = owns (c : Thread nD τ) (st1_0 t) fullShare (iblk1 V c 0 t) := by
  unfold Dat.leavesExact; rw [liveAt1_0 t, (after1_in V c t).1]
theorem leaves1_1 (c : Dev nD) (t : Fin cfg1.N) :
    (dat1 V c).leavesExact 1 t = owns (c : Thread nD τ) (st1_1 t) fullShare (iblk1 V c 1 t) := by
  unfold Dat.leavesExact; rw [liveAt1_1 t, (after1_in V c t).2.1]
theorem leaves1_2 (c : Dev nD) (t : Fin cfg1.N) :
    (dat1 V c).leavesExact 2 t = owns (c : Thread nD τ) (st1_2 t) fullShare (iblk1 V c 2 t) := by
  unfold Dat.leavesExact; rw [liveAt1_2 t, (after1_in V c t).2.2.1]
theorem leaves1_3 (c : Dev nD) (t : Fin cfg1.N) :
    (dat1 V c).leavesExact 3 t = owns (c : Thread nD τ) (st1_3 t) fullShare (iblk1 V c 3 t) := by
  unfold Dat.leavesExact; rw [liveAt1_3 t, (after1_in V c t).2.2.2]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The input windows hold their blocks; the position within the row block says which of the
    three cases the point is in. The invariant hands the body the partial-sum buffer — at anything before the first
    point, afterwards at what the point before left — and takes it back at this point's sum; an idle output window
    is handed back as found, a live one at the epilogue's value; the other scoped buffers, the generator register
    and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  by_cases hr : t.val % 4 = 0
  · -- a first column block: the sum restarts
    have hcA : condA1 (grid1.coords t) := (hcondA1 t).mpr hr
    have hcB : ¬condB1 (grid1.coords t) := fun h => by have := (hcondB1 t).mp h; omega
    rw [Dat.leavesExact_idle (dat1 V c) 4 t (idleAt1_4 t hcB) (noFlush1_4 t hcB)]
    rw [acc1_reset V c t hr]; unfold xsl1
    by_cases hz : t.val = 0
    · rw [PhiS1_castSucc V c t, PhiS1_zero V c _ _ hz, PhiA1_eq]
      iintro ⟨⟨⟨Hs, Hrest⟩, Hg⟩, Ho, ⟨%da, Ha⟩, ⟨%dx, Hx⟩, ⟨%dw, Hw⟩, ⟨%db, Hb⟩, Hd⟩
      iapply (sound_kernelA1 c Set.univ (grid1.coords t) hcA hcB _ _ _ _ _ _ _ _ _ _ _ _ (iblk1 V c 0 t) (iblk1 V c 1 t) _)
      isplitl [Ha]; · iexact Ha
      isplitl [Hx]; · iexact Hx
      isplitl [Hs]; · iexact Hs
      iintro ⟨Ha, Hx, Hs⟩
      isplitl [Hs Hrest Hg]
      · isplitl [Hs Hrest]
        · isplitl [Hs]; · iexact Hs
          iexact Hrest
        iexact Hg
      isplitl [Ho]; · iexact Ho
      isplitl [Ha]; · iexact Ha
      isplitl [Hx]; · iexact Hx
      isplitl [Hw]; · iexact Hw
      isplitl [Hb]; · iexact Hb
      iexact Hd
    · rw [PhiS1_castSucc V c t, PhiS1_pos V c _ _ hz]
      iintro ⟨⟨⟨Hs, Hrest⟩, Hg⟩, Ho, ⟨%da, Ha⟩, ⟨%dx, Hx⟩, ⟨%dw, Hw⟩, ⟨%db, Hb⟩, Hd⟩
      iapply (sound_kernelA1 c Set.univ (grid1.coords t) hcA hcB _ _ _ _ _ _ _ _ _ _ _ _ (iblk1 V c 0 t) (iblk1 V c 1 t) _)
      isplitl [Ha]; · iexact Ha
      isplitl [Hx]; · iexact Hx
      isplitl [Hs]; · iexists _; iexact Hs
      iintro ⟨Ha, Hx, Hs⟩
      isplitl [Hs Hrest Hg]
      · isplitl [Hs Hrest]
        · isplitl [Hs]; · iexact Hs
          iexact Hrest
        iexact Hg
      isplitl [Ho]; · iexact Ho
      isplitl [Ha]; · iexact Ha
      isplitl [Hx]; · iexact Hx
      isplitl [Hw]; · iexact Hw
      isplitl [Hb]; · iexact Hb
      iexact Hd
  · have hz : t.val ≠ 0 := fun h => hr (by rw [h])
    have hcA : ¬condA1 (grid1.coords t) := fun h => hr ((hcondA1 t).mp h)
    rw [PhiS1_castSucc V c t, PhiS1_pos V c _ _ hz]
    rw [acc1_step V c t hr]; unfold xsl1
    by_cases hl : t.val % 4 = 3
    · -- a last column block: the sum is finished and the epilogue stores the output block
      have hcB : condB1 (grid1.coords t) := (hcondB1 t).mpr hl
      rw [show (dat1 V c).leavesExact 4 t = owns (c : Thread nD τ) (st1_4 t) fullShare (out1 V c t) from by
        unfold Dat.leavesExact; rw [liveAt1_4 t hcB, after1_4]]
      unfold out1; rw [acc1_step V c t hr]; unfold xsl1
      iintro ⟨⟨⟨Hs, Hrest⟩, Hg⟩, Ho, ⟨%da, Ha⟩, ⟨%dx, Hx⟩, ⟨%dw, Hw⟩, ⟨%db, Hb⟩, ⟨%dd, Hd⟩⟩
      iapply (sound_kernelC1 c Set.univ (grid1.coords t) hcA hcB _ _ _ _ _ _ _ _ _ _ _ _ (iblk1 V c 0 t) (iblk1 V c 1 t) (iblk1 V c 2 t) (iblk1 V c 3 t) _ _)
      isplitl [Ha]; · iexact Ha
      isplitl [Hx]; · iexact Hx
      isplitl [Hw]; · iexact Hw
      isplitl [Hb]; · iexact Hb
      isplitl [Hd]; · iexists _; iexact Hd
      isplitl [Hs]; · iexact Hs
      iintro ⟨Ha, Hx, Hw, Hb, Hd, Hs⟩
      isplitl [Hs Hrest Hg]
      · isplitl [Hs Hrest]
        · isplitl [Hs]; · iexact Hs
          iexact Hrest
        iexact Hg
      isplitl [Ho]; · iexact Ho
      isplitl [Ha]; · iexact Ha
      isplitl [Hx]; · iexact Hx
      isplitl [Hw]; · iexact Hw
      isplitl [Hb]; · iexact Hb
      iexact Hd
    · -- a middle column block: the sum continues
      have hcB : ¬condB1 (grid1.coords t) := fun h => hl ((hcondB1 t).mp h)
      rw [Dat.leavesExact_idle (dat1 V c) 4 t (idleAt1_4 t hcB) (noFlush1_4 t hcB)]
      iintro ⟨⟨⟨Hs, Hrest⟩, Hg⟩, Ho, ⟨%da, Ha⟩, ⟨%dx, Hx⟩, ⟨%dw, Hw⟩, ⟨%db, Hb⟩, Hd⟩
      iapply (sound_kernelB1 c Set.univ (grid1.coords t) hcA hcB _ _ _ _ _ _ _ _ _ _ _ _ (iblk1 V c 0 t) (iblk1 V c 1 t) _ _)
      isplitl [Ha]; · iexact Ha
      isplitl [Hx]; · iexact Hx
      isplitl [Hs]; · iexact Hs
      iintro ⟨Ha, Hx, Hs⟩
      isplitl [Hs Hrest Hg]
      · isplitl [Hs Hrest]
        · isplitl [Hs]; · iexact Hs
          iexact Hrest
        iexact Hg
      isplitl [Ho]; · iexact Ho
      isplitl [Ha]; · iexact Ha
      isplitl [Hx]; · iexact Hx
      isplitl [Hw]; · iexact Hw
      isplitl [Hb]; · iexact Hb
      iexact Hd

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the partial sum's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hs, Hrest⟩, Hg⟩
  isplitl [Hs Hrest]
  · isplitl [Hs]; · iexists _; iexact Hs
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.Kernel.Hand

end
-- ==== Proof.KSpmm2.lean ====
import proofs.«414230_j6141803233547_3_alg».proof.Proof.Gen.Kernel.Launch
import proofs.«414230_j6141803233547_3_alg».proof.Proof.Gen.Kernel.Skeleton
import proofs.«414230_j6141803233547_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! # Region 2: the sparse-times-dense product with a dense layer, one row block at a time -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The same blocks at their literal vector types: the adjacency block, the dense operand whole, the layer's
    matrix and its bias. -/
abbrev ablk2 (c : Dev nD) (t : Fin cfg2.N) : Vec F S2048x2048 .bf16 := iblk2 V c 0 t
abbrev xarr2 (c : Dev nD) (t : Fin cfg2.N) : Vec F S8192x64 .bf16 := iblk2 V c 1 t
abbrev wmat2 (c : Dev nD) (t : Fin cfg2.N) : Vec F S64x128 .bf16 := iblk2 V c 2 t
abbrev bias2 (c : Dev nD) (t : Fin cfg2.N) : Vec F S1x128 .f32 := iblk2 V c 3 t

/-- The rows of the dense operand the body loads at point `t`: the rectangle at the printed offsets. -/
def xsl2 (c : Dev nD) (t : Fin cfg2.N) : Vec F S2048x64 .bf16 :=
  View.ld (xarr2 V c t) (Rect.unit (s := S8192x64) (k2_off1 (grid2.coords t)) S2048x64.size (k2_off1_inb (grid2.coords t)))

/-! ## What the body leaves, point by point -/

/-- THE ACCUMULATION: the partial sum after the body at position `n`. At the first column block of a row
    block (`n % 4 = 0`) the sum restarts from the zero block; elsewhere it adds this column block's product to
    what the point before left. -/
def acc2 (c : Dev nD) : (n : ℕ) → n < cfg2.N → Vec F S2048x64 .f32
  | 0, h => k2_pay2 (xsl2 V c ⟨0, h⟩) k2_pay1 (ablk2 V c ⟨0, h⟩)
  | n + 1, h => if (n + 1) % 4 = 0 then k2_pay2 (xsl2 V c ⟨n + 1, h⟩) k2_pay1 (ablk2 V c ⟨n + 1, h⟩)
                else k2_pay2 (xsl2 V c ⟨n + 1, h⟩) (acc2 c n (Nat.lt_of_succ_lt h)) (ablk2 V c ⟨n + 1, h⟩)

/-- At a first column block the sum restarts. -/
theorem acc2_reset (c : Dev nD) (t : Fin cfg2.N) (h : t.val % 4 = 0) :
    acc2 V c t.val t.isLt = k2_pay2 (xsl2 V c t) k2_pay1 (ablk2 V c t) := by
  obtain ⟨n, hn⟩ := t
  cases n with
  | zero => rfl
  | succ n => exact if_pos h

/-- Elsewhere it continues from the point before. -/
theorem acc2_step (c : Dev nD) (t : Fin cfg2.N) (h : t.val % 4 ≠ 0) :
    acc2 V c t.val t.isLt = k2_pay2 (xsl2 V c t) (acc2 V c (t.val - 1) (Nat.lt_of_le_of_lt (Nat.sub_le _ _) t.isLt)) (ablk2 V c t) := by
  obtain ⟨n, hn⟩ := t
  cases n with
  | zero => exact absurd (Nat.zero_mod _) h
  | succ n => exact if_neg h

/-- What the epilogue stores into the output block: the dense layer applied to the finished sum (meaningful at
    the last column block of a row block; elsewhere the window is idle and nothing consults it). -/
def out2 (c : Dev nD) (t : Fin cfg2.N) : Vec F S2048x128 .f32 := k2_pay3 (acc2 V c t.val t.isLt) (wmat2 V c t) (bias2 V c t)

/-! ## The invariant: the carried partial sum -/

/-- The partial-sum buffer, whole. -/
abbrev scM2 : Memref sig .tc .vmem S2048x64 .f32 := Memref.whole cc2_scratch0

/-- The core's scoped buffers other than the staging buffers and the partial-sum buffer, at some contents each. -/
abbrev restS2 (c : Dev nD) : sProp 𝕄 :=
  Pipeline.scopedRestBut (Ix := Unit) (Name := ℕ) (U := UR sig nD τ) (Lvl := ℕ) (Val := Elt F) spec2 c [cc2_scratch0]

/-- The region invariant before position `n`: before the first point every scoped buffer at anything; afterwards
    the partial-sum buffer at what the point before left, the other scoped buffers at anything; the generator
    register at some state throughout. -/
def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ restS2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn) ∗ restS2 c) ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega)) ∗ restS2 c) ∗ (∃ r, prngReg c r)) := by
  cases n with
  | zero => exact absurd rfl hz
  | succ n => rfl

/-! ## The pipeline's proof data -/

/-- The proof data of pipeline 2 on core `c`: the arrays as the region finds them; after the body each input's
    buffer at its block and the output's at the epilogue's value; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_in (c : Dev nD) (t : Fin cfg2.N) :
    (dat2 V c).after 0 t = iblk2 V c 0 t ∧ (dat2 V c).after 1 t = iblk2 V c 1 t
      ∧ (dat2 V c).after 2 t = iblk2 V c 2 t ∧ (dat2 V c).after 3 t = iblk2 V c 3 t := by
  refine ⟨?_, ?_, ?_, ?_⟩ <;> dsimp only [dat2]

theorem after2_4 (c : Dev nD) (t : Fin cfg2.N) : (dat2 V c).after 4 t = out2 V c t := by dsimp only [dat2]

theorem owed2 (c : Dev nD) (t) : (dat2 V c).owed t = 0 := rfl
theorem q2 (c : Dev nD) (w) : (dat2 V c).q w = fullShare := rfl

/-! ## The body's branch conditions -/

/-- The first condition of the body (the column-block coordinate is zero), from the grid coordinates. -/
abbrev condA2 (i : grid2.Coords) : Prop :=
  (Scalar.cmpi .ne (Scalar.extui (Scalar.cmpi .eq (BitVec.ofNat 32 (i 1).val) 0#32)) 0#32) = 1#1
/-- The second condition of the body (the column-block coordinate is the last). -/
abbrev condB2 (i : grid2.Coords) : Prop := k2_cond2 i = 1#1

/-- The zero offsets, however spelt. -/
theorem hz2 : (![0, 0] : Fin 2 → ℕ) = fun _ => 0 := by funext a; fin_cases a <;> rfl

/-- The rows of the dense operand the body loads at coordinates `i`. -/
abbrev rX2 (i : grid2.Coords) : Rect S8192x64 := Rect.unit (s := S8192x64) (k2_off1 i) S2048x64.size (k2_off1_inb i)

set_option maxHeartbeats 1000000 in
/-- The body at a middle column block (neither condition holds), on whole memrefs: the adjacency block at `a`,
    the dense operand at `x`, the partial sum at `s`. It leaves the partial sum at `s` plus this block's product
    and the inputs as they were; the other operands are not touched. -/
theorem sound_kernelB2 (c : Dev nD) (E : Set ℕ) (i : grid2.Coords) (hA : ¬ condA2 i) (hB : ¬ condB2 i)
    (arg2 : Memref sig .tc .vmem S2048x2048 .bf16) (harg2 : arg2.IsWhole) (arg3 : Memref sig .tc .vmem S8192x64 .bf16) (harg3 : arg3.IsWhole)
    (arg4 : Memref sig .tc .vmem S64x128 .bf16) (harg4 : arg4.IsWhole) (arg5 : Memref sig .tc .vmem S1x128 .f32) (harg5 : arg5.IsWhole)
    (arg6 : Memref sig .tc .vmem S2048x128 .f32) (harg6 : arg6.IsWhole) (arg7 : Memref sig .tc .vmem S2048x64 .f32) (harg7 : arg7.IsWhole)
    (a : Vec F S2048x2048 .bf16) (x : Vec F S8192x64 .bf16) (s : Vec F S2048x64 .f32) (K : PUnit → sProp 𝕄) :
    iprop(owns (c : Thread nD τ) arg2 fullShare a ∗ owns (c : Thread nD τ) arg3 fullShare x ∗ owns (c : Thread nD τ) arg7 fullShare s
        ∗ (iprop(owns (c : Thread nD τ) arg2 fullShare a ∗ owns (c : Thread nD τ) arg3 fullShare x
            ∗ owns (c : Thread nD τ) arg7 fullShare (k2_pay2 (View.ld x (rX2 i)) s a)) -∗ K ⟨⟩))
      ⊢ wp frame (wpE (defs₀ (F := F)) Variants.none c none) E (cc2__spmm_w_kernel i arg2 harg2 arg3 harg3 arg4 harg4 arg5 harg5 arg6 harg6 arg7 harg7) K := by
  simp only [cc2__spmm_w_kernel_eq_skeleton]; unfold cc2__spmm_w_kernel_skel
  unfold owns
  iintro ⟨⟨%fa, %hfa, Ha⟩, ⟨%fx, %hfx, Hx⟩, ⟨%fs, %hfs, Hs⟩, Hk⟩
  subst hfa; subst hfx; subst hfs
  sl_exec (disch := first | exact hA | exact hB)
  sl_step
  iapply Hk
  isplitl [Ha]
  · iexists fa; isplitr; · ipureintro; rfl
    iexact Ha
  isplitl [Hx]
  · iexists fx; isplitr; · ipureintro; rfl
    iexact Hx
  iexists _; isplitr
  swap; · iexact Hs
  ipureintro
  -- one store through the whole rectangle leaves its payload; the loads through whole rectangles read the contents
  rw [View.read_writes_eq_canon _ _ _ (fun y => ⟨_, List.mem_singleton_self _, View.mem_set_unit_zero hz2 inb_S2048x64_S2048x64_0_0 y⟩),
    View.canon_unit_zero hz2]
  simp only [View.readAt_eq_ld, View.ld_unit_zero (S := S2048x64) hz2, View.ld_unit_zero (S := S2048x2048) hz2]
  try rfl

set_option maxHeartbeats 1000000 in
/-- The body at a first column block (the first condition holds, the second does not): the partial sum, at anything,
    is reset to the zero block and then takes this block's product; the inputs stay as they were. -/
theorem sound_kernelA2 (c : Dev nD) (E : Set ℕ) (i : grid2.Coords) (hA : condA2 i) (hB : ¬ condB2 i)
    (arg2 : Memref sig .tc .vmem S2048x2048 .bf16) (harg2 : arg2.IsWhole) (arg3 : Memref sig .tc .vmem S8192x64 .bf16) (harg3 : arg3.IsWhole)
    (arg4 : Memref sig .tc .vmem S64x128 .bf16) (harg4 : arg4.IsWhole) (arg5 : Memref sig .tc .vmem S1x128 .f32) (harg5 : arg5.IsWhole)
    (arg6 : Memref sig .tc .vmem S2048x128 .f32) (harg6 : arg6.IsWhole) (arg7 : Memref sig .tc .vmem S2048x64 .f32) (harg7 : arg7.IsWhole)
    (a : Vec F S2048x2048 .bf16) (x : Vec F S8192x64 .bf16) (K : PUnit → sProp 𝕄) :
    iprop(owns (c : Thread nD τ) arg2 fullShare a ∗ owns (c : Thread nD τ) arg3 fullShare x ∗ (∃ s, owns (c : Thread nD τ) arg7 fullShare s)
        ∗ (iprop(owns (c : Thread nD τ) arg2 fullShare a ∗ owns (c : Thread nD τ) arg3 fullShare x
            ∗ owns (c : Thread nD τ) arg7 fullShare (k2_pay2 (View.ld x (rX2 i)) k2_pay1 a)) -∗ K ⟨⟩))
      ⊢ wp frame (wpE (defs₀ (F := F)) Variants.none c none) E (cc2__spmm_w_kernel i arg2 harg2 arg3 harg3 arg4 harg4 arg5 harg5 arg6 harg6 arg7 harg7) K := by
  simp only [cc2__spmm_w_kernel_eq_skeleton]; unfold cc2__spmm_w_kernel_skel
  unfold owns
  iintro ⟨⟨%fa, %hfa, Ha⟩, ⟨%fx, %hfx, Hx⟩, ⟨%s, %fs, -, Hs⟩, Hk⟩
  subst hfa; subst hfx
  sl_exec (disch := first | exact hA | exact hB)
  sl_step
  iapply Hk
  isplitl [Ha]
  · iexists fa; isplitr; · ipureintro; rfl
    iexact Ha
  isplitl [Hx]
  · iexists fx; isplitr; · ipureintro; rfl
    iexact Hx
  iexists _; isplitr
  swap; · iexact Hs
  ipureintro
  -- the later store covers; the load between the two stores reads the zero block the first one left
  sl_unfold_words
  rw [View.read_writes_eq_canon _ _ _ (fun y => ⟨_, List.mem_cons_self, View.mem_set_unit_zero hz2 inb_S2048x64_S2048x64_0_0 y⟩),
    View.canon_cons_unit_zero (S := S2048x64) hz2]
  simp only [View.readAt_eq_ld, View.readCov_unit_zero (S := S2048x64) _ hz2, View.ld_unit_zero (S := S2048x64) hz2,
    View.ld_unit_zero (S := S2048x2048) hz2]
  try rfl

set_option maxHeartbeats 1000000 in
/-- The body at a last column block (the second condition holds, the first does not): the partial sum at `s` takes
    this block's product, and the epilogue stores the dense layer of the finished sum over the whole output block
    (found at anything); the inputs stay as they were. -/
theorem sound_kernelC2 (c : Dev nD) (E : Set ℕ) (i : grid2.Coords) (hA : ¬ condA2 i) (hB : condB2 i)
    (arg2 : Memref sig .tc .vmem S2048x2048 .bf16) (harg2 : arg2.IsWhole) (arg3 : Memref sig .tc .vmem S8192x64 .bf16) (harg3 : arg3.IsWhole)
    (arg4 : Memref sig .tc .vmem S64x128 .bf16) (harg4 : arg4.IsWhole) (arg5 : Memref sig .tc .vmem S1x128 .f32) (harg5 : arg5.IsWhole)
    (arg6 : Memref sig .tc .vmem S2048x128 .f32) (harg6 : arg6.IsWhole) (arg7 : Memref sig .tc .vmem S2048x64 .f32) (harg7 : arg7.IsWhole)
    (a : Vec F S2048x2048 .bf16) (x : Vec F S8192x64 .bf16) (w : Vec F S64x128 .bf16) (b : Vec F S1x128 .f32) (s : Vec F S2048x64 .f32) (K : PUnit → sProp 𝕄) :
    iprop(owns (c : Thread nD τ) arg2 fullShare a ∗ owns (c : Thread nD τ) arg3 fullShare x ∗ owns (c : Thread nD τ) arg4 fullShare w
        ∗ owns (c : Thread nD τ) arg5 fullShare b ∗ (∃ d, owns (c : Thread nD τ) arg6 fullShare d) ∗ owns (c : Thread nD τ) arg7 fullShare s
        ∗ (iprop(owns (c : Thread nD τ) arg2 fullShare a ∗ owns (c : Thread nD τ) arg3 fullShare x ∗ owns (c : Thread nD τ) arg4 fullShare w
            ∗ owns (c : Thread nD τ) arg5 fullShare b
            ∗ owns (c : Thread nD τ) arg6 fullShare (k2_pay3 (k2_pay2 (View.ld x (rX2 i)) s a) w b)
            ∗ owns (c : Thread nD τ) arg7 fullShare (k2_pay2 (View.ld x (rX2 i)) s a)) -∗ K ⟨⟩))
      ⊢ wp frame (wpE (defs₀ (F := F)) Variants.none c none) E (cc2__spmm_w_kernel i arg2 harg2 arg3 harg3 arg4 harg4 arg5 harg5 arg6 harg6 arg7 harg7) K := by
  simp only [cc2__spmm_w_kernel_eq_skeleton]; unfold cc2__spmm_w_kernel_skel
  unfold owns
  iintro ⟨⟨%fa, %hfa, Ha⟩, ⟨%fx, %hfx, Hx⟩, ⟨%fw, %hfw, Hw⟩, ⟨%fb, %hfb, Hb⟩, ⟨%d, %fd, -, Hd⟩, ⟨%fs, %hfs, Hs⟩, Hk⟩
  subst hfa; subst hfx; subst hfw; subst hfb; subst hfs
  sl_exec (disch := first | exact hA | exact hB)
  sl_step
  iapply Hk
  isplitl [Ha]
  · iexists fa; isplitr; · ipureintro; rfl
    iexact Ha
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  isplitl [Hd]
  · iexists _; isplitr
    swap; · iexact Hd
    ipureintro
    -- the epilogue's one store covers the output block; its load of the partial sum reads what the store before left
    sl_unfold_words
    rw [View.read_writes_eq_canon _ _ _ (fun y => ⟨_, List.mem_singleton_self _, View.mem_set_unit_zero hz2 inb_S2048x128_S2048x128_0_0 y⟩),
      View.canon_unit_zero hz2]
    simp only [View.readAt_eq_ld, View.readCov_unit_zero (S := S2048x64) _ hz2, View.ld_unit_zero (S := S2048x64) hz2,
      View.ld_unit_zero (S := S2048x2048) hz2, View.ld_unit_zero (S := S64x128) hz2, View.ld_unit_zero (S := S1x128) hz2]
    try rfl
  iexists _; isplitr
  swap; · iexact Hs
  ipureintro
  sl_unfold_words
  rw [View.read_writes_eq_canon _ _ _ (fun y => ⟨_, List.mem_singleton_self _, View.mem_set_unit_zero hz2 inb_S2048x64_S2048x64_0_0 y⟩),
    View.canon_unit_zero hz2]
  simp only [View.readAt_eq_ld, View.ld_unit_zero (S := S2048x64) hz2, View.ld_unit_zero (S := S2048x2048) hz2]
  try rfl

/-! ## The conditions in closed form over the sixteen points -/

/-- The first condition holds at the first column block of each row block — decided over the grid. -/
theorem hcondA2 : ∀ t : Fin cfg2.N, condA2 (grid2.coords t) ↔ t.val % 4 = 0 :=
  (by decide +kernel : ∀ t : Fin grid2.N, condA2 (grid2.coords t) ↔ t.val % 4 = 0)
/-- The second condition holds at the last column block of each row block — decided over the grid. -/
theorem hcondB2 : ∀ t : Fin cfg2.N, condB2 (grid2.coords t) ↔ t.val % 4 = 3 :=
  (by decide +kernel : ∀ t : Fin grid2.N, condB2 (grid2.coords t) ↔ t.val % 4 = 3)

/-! ## Where the windows are idle -/

/-- The input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Where the second condition fails the output window is idle, and the pipeline does not write its block back; -/
theorem idleAt2_4 : ∀ t : Fin cfg2.N, ¬condB2 (grid2.coords t) → cfg2.idle 4 (grid2.coords t) = true := by decide +kernel
theorem noFlush2_4 : ∀ t : Fin cfg2.N, ¬condB2 (grid2.coords t) → (cfg2.win 4).flush t = false := by decide +kernel
/-- where it holds the window is live. -/
theorem liveAt2_4 : ∀ t : Fin cfg2.N, condB2 (grid2.coords t) → cfg2.idle 4 (grid2.coords t) = false := by decide +kernel

/-! ## The class's invariant with the partial-sum buffer set apart -/

/-- The scoped buffers that are no staging buffer are the partial-sum buffer and the rest. -/
theorem PhiA2_eq (c : Dev nD) :
    (Pipeline.ΦA spec2 c : sProp 𝕄)
      = iprop(iprop((∃ d, owns (c : Thread nD τ) scM2 fullShare d) ∗ restS2 c) ∗ (∃ r, prngReg c r)) := by
  unfold Pipeline.ΦA
  rw [Pipeline.scopedRest_split_of_list spec2 c [cc2_scratch0] (by decide) (by decide)]
  simp only [scM2, owns_whole, bigSepL_singleton]; try rfl

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## What the body finds in the input windows -/

/-- An input window's current staging buffer holds its block at every point, fetched there or not: unfetched, the
    block index has not moved and the body left the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (fun t => (after2_in V c t).1) t d
theorem before2_1 (c : Dev nD) (t : Fin cfg2.N) (d) : (dat2 V c).before 1 t d = iblk2 V c 1 t :=
  before2_1_of V (dat2 V c) (A_eq2 V c 1) (fun t => (after2_in V c t).2.1) t d
theorem before2_2 (c : Dev nD) (t : Fin cfg2.N) (d) : (dat2 V c).before 2 t d = iblk2 V c 2 t :=
  before2_2_of V (dat2 V c) (A_eq2 V c 2) (fun t => (after2_in V c t).2.2.1) t d
theorem before2_3 (c : Dev nD) (t : Fin cfg2.N) (d) : (dat2 V c).before 3 t d = iblk2 V c 3 t :=
  before2_3_of V (dat2 V c) (A_eq2 V c 3) (fun t => (after2_in V c t).2.2.2) t d

/-- The input windows are left at their blocks. -/
theorem leaves2_0 (c : Dev nD) (t : Fin cfg2.N) :
    (dat2 V c).leavesExact 0 t = owns (c : Thread nD τ) (st2_0 t) fullShare (iblk2 V c 0 t) := by
  unfold Dat.leavesExact; rw [liveAt2_0 t, (after2_in V c t).1]
theorem leaves2_1 (c : Dev nD) (t : Fin cfg2.N) :
    (dat2 V c).leavesExact 1 t = owns (c : Thread nD τ) (st2_1 t) fullShare (iblk2 V c 1 t) := by
  unfold Dat.leavesExact; rw [liveAt2_1 t, (after2_in V c t).2.1]
theorem leaves2_2 (c : Dev nD) (t : Fin cfg2.N) :
    (dat2 V c).leavesExact 2 t = owns (c : Thread nD τ) (st2_2 t) fullShare (iblk2 V c 2 t) := by
  unfold Dat.leavesExact; rw [liveAt2_2 t, (after2_in V c t).2.2.1]
theorem leaves2_3 (c : Dev nD) (t : Fin cfg2.N) :
    (dat2 V c).leavesExact 3 t = owns (c : Thread nD τ) (st2_3 t) fullShare (iblk2 V c 3 t) := by
  unfold Dat.leavesExact; rw [liveAt2_3 t, (after2_in V c t).2.2.2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The input windows hold their blocks; the position within the row block says which of the
    three cases the point is in. The invariant hands the body the partial-sum buffer — at anything before the first
    point, afterwards at what the point before left — and takes it back at this point's sum; an idle output window
    is handed back as found, a live one at the epilogue's value; the other scoped buffers, the generator register
    and what the core owes pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3]
  by_cases hr : t.val % 4 = 0
  · -- a first column block: the sum restarts
    have hcA : condA2 (grid2.coords t) := (hcondA2 t).mpr hr
    have hcB : ¬condB2 (grid2.coords t) := fun h => by have := (hcondB2 t).mp h; omega
    rw [Dat.leavesExact_idle (dat2 V c) 4 t (idleAt2_4 t hcB) (noFlush2_4 t hcB)]
    rw [acc2_reset V c t hr]; unfold xsl2
    by_cases hz : t.val = 0
    · rw [PhiS2_castSucc V c t, PhiS2_zero V c _ _ hz, PhiA2_eq]
      iintro ⟨⟨⟨Hs, Hrest⟩, Hg⟩, Ho, ⟨%da, Ha⟩, ⟨%dx, Hx⟩, ⟨%dw, Hw⟩, ⟨%db, Hb⟩, Hd⟩
      iapply (sound_kernelA2 c Set.univ (grid2.coords t) hcA hcB _ _ _ _ _ _ _ _ _ _ _ _ (iblk2 V c 0 t) (iblk2 V c 1 t) _)
      isplitl [Ha]; · iexact Ha
      isplitl [Hx]; · iexact Hx
      isplitl [Hs]; · iexact Hs
      iintro ⟨Ha, Hx, Hs⟩
      isplitl [Hs Hrest Hg]
      · isplitl [Hs Hrest]
        · isplitl [Hs]; · iexact Hs
          iexact Hrest
        iexact Hg
      isplitl [Ho]; · iexact Ho
      isplitl [Ha]; · iexact Ha
      isplitl [Hx]; · iexact Hx
      isplitl [Hw]; · iexact Hw
      isplitl [Hb]; · iexact Hb
      iexact Hd
    · rw [PhiS2_castSucc V c t, PhiS2_pos V c _ _ hz]
      iintro ⟨⟨⟨Hs, Hrest⟩, Hg⟩, Ho, ⟨%da, Ha⟩, ⟨%dx, Hx⟩, ⟨%dw, Hw⟩, ⟨%db, Hb⟩, Hd⟩
      iapply (sound_kernelA2 c Set.univ (grid2.coords t) hcA hcB _ _ _ _ _ _ _ _ _ _ _ _ (iblk2 V c 0 t) (iblk2 V c 1 t) _)
      isplitl [Ha]; · iexact Ha
      isplitl [Hx]; · iexact Hx
      isplitl [Hs]; · iexists _; iexact Hs
      iintro ⟨Ha, Hx, Hs⟩
      isplitl [Hs Hrest Hg]
      · isplitl [Hs Hrest]
        · isplitl [Hs]; · iexact Hs
          iexact Hrest
        iexact Hg
      isplitl [Ho]; · iexact Ho
      isplitl [Ha]; · iexact Ha
      isplitl [Hx]; · iexact Hx
      isplitl [Hw]; · iexact Hw
      isplitl [Hb]; · iexact Hb
      iexact Hd
  · have hz : t.val ≠ 0 := fun h => hr (by rw [h])
    have hcA : ¬condA2 (grid2.coords t) := fun h => hr ((hcondA2 t).mp h)
    rw [PhiS2_castSucc V c t, PhiS2_pos V c _ _ hz]
    rw [acc2_step V c t hr]; unfold xsl2
    by_cases hl : t.val % 4 = 3
    · -- a last column block: the sum is finished and the epilogue stores the output block
      have hcB : condB2 (grid2.coords t) := (hcondB2 t).mpr hl
      rw [show (dat2 V c).leavesExact 4 t = owns (c : Thread nD τ) (st2_4 t) fullShare (out2 V c t) from by
        unfold Dat.leavesExact; rw [liveAt2_4 t hcB, after2_4]]
      unfold out2; rw [acc2_step V c t hr]; unfold xsl2
      iintro ⟨⟨⟨Hs, Hrest⟩, Hg⟩, Ho, ⟨%da, Ha⟩, ⟨%dx, Hx⟩, ⟨%dw, Hw⟩, ⟨%db, Hb⟩, ⟨%dd, Hd⟩⟩
      iapply (sound_kernelC2 c Set.univ (grid2.coords t) hcA hcB _ _ _ _ _ _ _ _ _ _ _ _ (iblk2 V c 0 t) (iblk2 V c 1 t) (iblk2 V c 2 t) (iblk2 V c 3 t) _ _)
      isplitl [Ha]; · iexact Ha
      isplitl [Hx]; · iexact Hx
      isplitl [Hw]; · iexact Hw
      isplitl [Hb]; · iexact Hb
      isplitl [Hd]; · iexists _; iexact Hd
      isplitl [Hs]; · iexact Hs
      iintro ⟨Ha, Hx, Hw, Hb, Hd, Hs⟩
      isplitl [Hs Hrest Hg]
      · isplitl [Hs Hrest]
        · isplitl [Hs]; · iexact Hs
          iexact Hrest
        iexact Hg
      isplitl [Ho]; · iexact Ho
      isplitl [Ha]; · iexact Ha
      isplitl [Hx]; · iexact Hx
      isplitl [Hw]; · iexact Hw
      isplitl [Hb]; · iexact Hb
      iexact Hd
    · -- a middle column block: the sum continues
      have hcB : ¬condB2 (grid2.coords t) := fun h => hl ((hcondB2 t).mp h)
      rw [Dat.leavesExact_idle (dat2 V c) 4 t (idleAt2_4 t hcB) (noFlush2_4 t hcB)]
      iintro ⟨⟨⟨Hs, Hrest⟩, Hg⟩, Ho, ⟨%da, Ha⟩, ⟨%dx, Hx⟩, ⟨%dw, Hw⟩, ⟨%db, Hb⟩, Hd⟩
      iapply (sound_kernelB2 c Set.univ (grid2.coords t) hcA hcB _ _ _ _ _ _ _ _ _ _ _ _ (iblk2 V c 0 t) (iblk2 V c 1 t) _ _)
      isplitl [Ha]; · iexact Ha
      isplitl [Hx]; · iexact Hx
      isplitl [Hs]; · iexact Hs
      iintro ⟨Ha, Hx, Hs⟩
      isplitl [Hs Hrest Hg]
      · isplitl [Hs Hrest]
        · isplitl [Hs]; · iexact Hs
          iexact Hrest
        iexact Hg
      isplitl [Ho]; · iexact Ho
      isplitl [Ha]; · iexact Ha
      isplitl [Hx]; · iexact Hx
      isplitl [Hw]; · iexact Hw
      isplitl [Hb]; · iexact Hb
      iexact Hd

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the partial sum's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨Hs, Hrest⟩, Hg⟩
  isplitl [Hs Hrest]
  · isplitl [Hs]; · iexists _; iexact Hs
    iexact Hrest
  iexact Hg

/-- The same after the last point. -/
theorem hout2 (c : Dev nD) : (dat2 V c).Φ (Fin.last cfg2.N) ⊢ Pipeline.ΦA spec2 c :=
  Phi_out2 V c _ (by rw [Fin.val_last]; have : cfg2.N = 16 := N_2; omega)

end Cert.Kernel.Hand

end
-- ==== Proof.KOuter3.lean ====
import proofs.«414230_j6141803233547_3_alg».proof.Proof.Gen.Kernel.Launch
import proofs.«414230_j6141803233547_3_alg».proof.Proof.Gen.Kernel.Skeleton
import proofs.«414230_j6141803233547_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter of everything below
variable (V : (c : Dev nD) → (b : Ref sig .tc) → Buf (Elt F) ((c : Thread nD τ).loc b))

/-! # Region 3: the outer-product kernel (pipeline 3), at the entry contents `V` -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left factor's block of rows at point `t`. -/
abbrev lblk3 (c : Dev nD) (t : Fin cfg3.N) : Vec F S2048x64 .f32 := iblk3 V c 0 t
/-- The right factor's block of rows at point `t`. -/
abbrev rblk3 (c : Dev nD) (t : Fin cfg3.N) : Vec F S512x64 .f32 := iblk3 V c 1 t

/-- An input window's current staging buffer holds its block at every point, fetched there or not, for any proof
    data whose array is `V`'s and whose body leaves the block in place: an unfetched point has not moved the block
    index, the windows are uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each a whole rectangle -/

abbrev r3_0 : Rect S2048x64 := Rect.unit (s := S2048x64) ![0, 0] S2048x64.size inb_S2048x64_S2048x64_0_0
abbrev r3_1 : Rect S512x64 := Rect.unit (s := S512x64) ![0, 0] S512x64.size inb_S512x64_S512x64_0_0
abbrev r3_2 : Rect S2048x512 := Rect.unit (s := S2048x512) ![0, 0] S2048x512.size inb_S2048x512_S2048x512_0_0

/-- The output block after the body, from the two input blocks: its one whole-block store as a piece. -/
def out3_of (x0 : Vec F S2048x64 .f32) (x1 : Vec F S512x64 .f32) : Vec F S2048x512 .f32 :=
  View.canon [⟨r3_2, k3_pay1 (View.ld x0 r3_0) (View.ld x1 r3_1)⟩]

/-- The zero offsets, however spelt. -/
theorem zeroOffsets3 : (![0, 0] : Fin 2 → Nat) = fun _ => 0 := by
  funext a; match a with | ⟨0, _⟩ => rfl | ⟨1, _⟩ => rfl

/-- A load through the whole rectangle is the vector; one store through it leaves the payload. -/
theorem out3_of_eq (x0 : Vec F S2048x64 .f32) (x1 : Vec F S512x64 .f32) : out3_of x0 x1 = k3_pay1 x0 x1 := by
  unfold out3_of
  rw [View.canon_unit_zero (S := S2048x512) zeroOffsets3, View.ld_unit_zero (S := S2048x64) zeroOffsets3, View.ld_unit_zero (S := S512x64) zeroOffsets3]

/-- The one store covers the block. -/
theorem cover3_2 (p0 : Vec F S2048x512 .f32) (y : S2048x512.Idx) :
    ∃ pc ∈ ([⟨r3_2, p0⟩] : List (View.Piece (Elt F) S2048x512 .f32)), y ∈ pc.1.set :=
  View.cover_of_tiled [⟨r3_2, p0⟩] S2048x512.size (by rfl) y

/-- what the body stores into the output block at point t -/
def out3 (c : Dev nD) (t : Fin cfg3.N) : Vec F S2048x512 .f32 := out3_of (lblk3 V c t) (rblk3 V c t)

theorem out3_eq (c : Dev nD) (t : Fin cfg3.N) : out3 V c t = k3_pay1 (lblk3 V c t) (rblk3 V c t) := by
  unfold out3; exact out3_of_eq _ _

/-! ## The body's triple -/

set_option maxHeartbeats 1000000 in
/-- The body on whole staging memrefs, the inputs' at contents `x0`, `x1` and the output's at anything, runs to the
    continuation holding the inputs' as they were and the output's at `out3_of x0 x1`. -/
theorem sound_kernel3 (c : Dev nD) (E : Set ℕ) (i : grid3.Coords) (arg0 : Memref sig .tc .vmem S2048x64 .f32) (harg0 : arg0.IsWhole)
    (arg1 : Memref sig .tc .vmem S512x64 .f32) (harg1 : arg1.IsWhole) (arg2 : Memref sig .tc .vmem S2048x512 .f32) (harg2 : arg2.IsWhole)
    (x0 : Vec F S2048x64 .f32) (x1 : Vec F S512x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out3_of x0 x1)) -∗ K ⟨⟩))
      ⊢ wp frame (wpE (defs₀ (F := F)) Variants.none c none) E (cc3__outer_kernel i arg0 harg0 arg1 harg1 arg2 harg2) K := by
  simp only [cc3__outer_kernel_eq_skeleton]; unfold cc3__outer_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them; after the body at point `t` each
    input's buffer at its block and the output's at `out3`; the invariant the scoped rest and the generator register,
    untouched; nothing owed; the array the two input windows share held by halves, the left half at window 0 and
    the right half at window 1. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 V c t
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]

theorem after3_in (c : Dev nD) (t : Fin cfg3.N) : (dat3 V c).after 0 t = iblk3 V c 0 t ∧ (dat3 V c).after 1 t = iblk3 V c 1 t :=
  ⟨after3_0 V c t, after3_1 V c t⟩

theorem after3_2 (c : Dev nD) (t : Fin cfg3.N) : (dat3 V c).after 2 t = out3 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem hin3 (c : Dev nD) : Pipeline.ΦA spec3 c ⊢ (dat3 V c).Φ 0 := .rfl

theorem hout3 (c : Dev nD) : (dat3 V c).Φ (Fin.last cfg3.N) ⊢ Pipeline.ΦA spec3 c := .rfl

theorem owed3 (c : Dev nD) (t) : (dat3 V c).owed t = 0 := rfl

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The arrays among the core's unscoped buffers -/

/-- The distinct buffers behind the windows' arrays: the array the two input windows share, and the output's. -/
theorem arrImage3 : Finset.univ.image (Pipeline.arrRef spec3) = [main_v106, main_v107].toFinset := by decide

/-- Those buffers, each whole at the full share, one by one. -/
theorem arrBufs3_eq (c : Dev nD) (V' : (b : Ref sig .tc) → Buf (Elt F) ((c : Thread nD τ).loc b)) :
    (Pipeline.arrBufs spec3 c V' : sProp 𝕄)
      = iprop((((c : Thread nD τ).loc main_v106) ↦{fullShare} V' main_v106) ∗ (((c : Thread nD τ).loc main_v107) ↦{fullShare} V' main_v107)) := by
  unfold Pipeline.arrBufs
  exact bigSep_eq_bigSepL_of_eq [main_v106, main_v107] arrImage3 (by decide) _

theorem share3_0 (c : Dev nD) : (dat3 V c).share 0 = fullShare.left := rfl
theorem share3_1 (c : Dev nD) : (dat3 V c).share 1 = fullShare.right := rfl
theorem share3_2 (c : Dev nD) : (dat3 V c).share 2 = fullShare := rfl

/-- The proof data's arrays, window by window: the shared array's left half, its right half, the output array whole. -/
theorem arrays3_eq (c : Dev nD) (G : (w : Fin cfg3.W) → Buf (Elt F) ((cfg3.win w).arr.view.loc (c.tc : Thread nD τ))) :
    ((dat3 V c).arrays G : sProp 𝕄)
      = iprop((((c : Thread nD τ).loc main_v106) ↦{fullShare.left} G 0) ∗ (((c : Thread nD τ).loc main_v106) ↦{fullShare.right} G 1)
          ∗ (((c : Thread nD τ).loc main_v107) ↦{fullShare} G 2)) := by
  unfold Dat.arrays
  rw [bigSep_W3, share3_0, share3_1, share3_2, (arr_whole3 0).set_eq_univ, (arr_whole3 2).set_eq_univ]

/-- ENTRY: the core's unscoped buffers at `V` are the pipeline's arrays at their entry contents, the shared
    array's full share dealt by halves to its two windows, beside the unscoped rest. -/
theorem entry3 (c : Dev nD) : (unscopedBufs c (V c) : sProp 𝕄) ⊢ iprop((dat3 V c).arrays ((dat3 V c).arrAt · 0) ∗ Pipeline.unscopedRest spec3 c (V c)) := by
  have h : (unscopedBufs c (V c) : sProp 𝕄) = iprop(Pipeline.arrBufs spec3 c (V c) ∗ Pipeline.unscopedRest spec3 c (V c)) :=
    Pipeline.unscopedBufs_split₀ cfgs 3 winFacts₀3.arr_unscoped c (V c)
  rw [h, arrBufs3_eq, arrays3_eq]
  refine sep_mono ?_ .rfl
  exact (sep_mono (pointsTo_share (PosShare.mem_left_op_right fullShare)).1 .rfl).trans sep_assoc.1

/-- EXIT: the arrays at their final contents, the two halves of the shared array joined again, beside the rest are
    the unscoped buffers at any contents that hold the final contents at the arrays and `V` elsewhere. -/
theorem exit3 (c : Dev nD) (V' : (b : Ref sig .tc) → Buf (Elt F) ((c : Thread nD τ).loc b))
    (hF : ∀ w, (dat3 V c).arrAt w cfg3.N = V' (Pipeline.arrRef spec3 w))
    (hrest : ∀ b, b ∉ Finset.univ.image (Pipeline.arrRef spec3) → V' b = V c b) :
    iprop((dat3 V c).arrays ((dat3 V c).arrAt · cfg3.N) ∗ Pipeline.unscopedRest spec3 c (V c)) ⊢ (unscopedBufs c V' : sProp 𝕄) := by
  have h : (unscopedBufs c V' : sProp 𝕄) = iprop(Pipeline.arrBufs spec3 c V' ∗ Pipeline.unscopedRest spec3 c V') :=
    Pipeline.unscopedBufs_split₀ cfgs 3 winFacts₀3.arr_unscoped c V'
  rw [h, arrBufs3_eq, arrays3_eq]
  refine sep_mono ?_ (Entails.of_eq ?_)
  · rw [hF 0, hF 1, hF 2]
    exact sep_assoc.2.trans (sep_mono (pointsTo_share (PosShare.mem_left_op_right fullShare)).2 .rfl)
  · unfold Pipeline.unscopedRest
    exact bigSep_congr fun b hb => by rw [hrest b (Finset.mem_sdiff.mp hb).2]

end Cert.Kernel.Hand

end
-- ==== Proof.KRun.lean ====
import proofs.«414230_j6141803233547_3_alg».proof.Proof.Gen.Kernel.Launch
import proofs.«414230_j6141803233547_3_alg».proof.Proof.Gen.Kernel.Skeleton
import proofs.«414230_j6141803233547_3_alg».proof.Proof.Gen.Kernel.Points
import proofs.«414230_j6141803233547_3_alg».proof.Proof.Gen.Kernel.Regions
import proofs.«414230_j6141803233547_3_alg».proof.Proof.KSpmm0
import proofs.«414230_j6141803233547_3_alg».proof.Proof.KSpmm1
import proofs.«414230_j6141803233547_3_alg».proof.Proof.KSpmm2
import proofs.«414230_j6141803233547_3_alg».proof.Proof.KOuter3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # A kernel region over the thread state of the run, for any program -/

section Generic

variable {nD : Nat} {τ : Topo} {sig : RefSig} {Val : EltTy → Type} {U : Type} [URA U]
variable {Λ₀ : Idealize.SL.Sem.Labels} {P : Type} [Fintype P]

local notation "𝕄g" => MT nD τ sig Unit Val ℕ U ℕ

/-- What rides beside the buffers through every item: the core's generator register at some state and its dues, at
    nothing. -/
abbrev runR (c : Dev nD) : sProp 𝕄g := iprop((∃ r, prngReg c r) ∗ ∃ W, owes (c : Thread nD τ) (0 : CellTallies nD τ sig Unit) W)

/-- A core owing nothing owes what the proof data state before a point where they state nothing owed and do not bound the
    recorded pairs. -/
theorem run_owesAt_of_zero {cfg : Cfg sig Λ₀} {c : Dev nD} (dat : Dat τ Val Unit ℕ U ℕ cfg c) (t : Fin (cfg.N + 1))
    (ho : dat.owed t = 0) (hr : dat.recorded t = Set.univ) :
    (iprop(∃ W, owes (c : Thread nD τ) (0 : CellTallies nD τ sig Unit) W) : sProp 𝕄g) ⊢ dat.owesAt () t := by
  unfold Pipeline.Dat.owesAt Pipeline.owesWithin Pipeline.Dat.bound
  rw [ho, hr]
  iintro ⟨%W, HO⟩; iexists W; isplitr; · ipureintro; exact fun _ _ => Or.inl trivial
  iexact HO

/-- … and conversely, forgetting the bound. -/
theorem run_zero_of_owesAt {cfg : Cfg sig Λ₀} {c : Dev nD} (dat : Dat τ Val Unit ℕ U ℕ cfg c) (t : Fin (cfg.N + 1))
    (ho : dat.owed t = 0) :
    dat.owesAt () t ⊢ (iprop(∃ W, owes (c : Thread nD τ) (0 : CellTallies nD τ sig Unit) W) : sProp 𝕄g) := by
  unfold Pipeline.Dat.owesAt Pipeline.owesWithin
  rw [ho]
  iintro ⟨%W, -, HO⟩; iexists W; iexact HO

/-- A KERNEL REGION over the thread state "every unscoped buffer at a boundary's contents, the generator register at
    some state, nothing owed": entered from the contents `Vin`, left at `Vout`. Its arrays are split out of the
    unscoped buffers (`hsplit`) and put back at the exit contents (`hjoin`); the generator register and the scoped
    buffers no window stages make the invariant before the first point (`hΦin`) and come back from the one after the last
    (`hΦout`); nothing owed; no semaphore of the kernel's own; no prefetched table (`hnopre`). -/
def runRegionOf (pcs : P → Pipeline.PCfg sig Λ₀ Val) (a : (p : P) → (pcs p).Adm)
    (pdats : (p : P) → (c : Dev nD) → Dat τ Val Unit ℕ U ℕ (Pipeline.pin pcs a p) c)
    (defs₀ : Defs nD τ sig Val Λ₀) (L : GSem nD τ sig → Finset Unit) (lv : GSem nD τ sig → Unit → ℕ) (p : P)
    (win : Pipeline.WinFacts₀ (pcs p).spec)
    (block_pos : ∀ w : Fin (Pipeline.pin pcs a p).W, 0 < ((Pipeline.pin pcs a p).spec w).block.numel)
    (stage_whole : ∀ (w : Fin (Pipeline.pin pcs a p).W) (s : Fin ((Pipeline.pin pcs a p).spec w).nbuf), (((Pipeline.pin pcs a p).spec w).stage s).IsWhole)
    (hbody : ∀ c, Pipeline.BodyObligationLoose (pdats p c) defs₀ Variants.none () Set.univ)
    (howed : ∀ c t, (pdats p c).owed t = 0)
    (hrec : ∀ c, (pdats p c).recorded 0 = Set.univ)
    (hnopre : ∀ c, (BI.emp : sProp 𝕄g) ⊢ Pipeline.prefHeld (pcs p).pre c (fun _ => fullShare) (a p).1)
    (Vin Vout : Dev nD → Valuation τ sig Val)
    (hsplit : ∀ c, (unscopedBufs c (fun b => Vin c b) : sProp 𝕄g)
      ⊢ iprop((pdats p c).arrays ((pdats p c).arrAt · 0) ∗ Pipeline.unscopedRest (Pipeline.pin pcs a p).spec c (fun b => Vin c b)))
    (hjoin : ∀ c, iprop((pdats p c).arrays ((pdats p c).arrAt · (Pipeline.pin pcs a p).N) ∗ Pipeline.unscopedRest (Pipeline.pin pcs a p).spec c (fun b => Vin c b))
      ⊢ (unscopedBufs c (fun b => Vout c b) : sProp 𝕄g))
    (hΦin : ∀ c, (Pipeline.ΦA (Pipeline.pin pcs a p).spec c : sProp 𝕄g) ⊢ (pdats p c).Φ 0)
    (hΦout : ∀ c, (pdats p c).Φ (Fin.last (Pipeline.pin pcs a p).N) ⊢ (Pipeline.ΦA (Pipeline.pin pcs a p).spec c : sProp 𝕄g)) :
    Pipeline.RegionSeg pcs a pdats () defs₀ Variants.none L lv p where
  win := win
  block_pos := block_pos
  stage_whole := stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Vin c) ∗ runR c)
  post c := iprop(StableHlo.held (c : Thread nD τ) (Pipeline.ucRefs τ sig) (Vout c) ∗ runR c)
  X c := iprop(∃ r, prngReg c r)
  Y c := iprop(∃ r, prngReg c r)
  Z c := Pipeline.unscopedRest (Ix := Unit) (Name := ℕ) (U := U) (Lvl := ℕ) (Pipeline.pin pcs a p).spec c (fun b => Vin c b)
  hentry c := by
    rw [Pipeline.ownSems0_none]
    have hs := hsplit c
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · iapply (hnopre c); iempintro
    isplitl [HO]; · iapply (run_owesAt_of_zero (pdats p c) 0 (howed c 0) (hrec c)); iexact HO
    isplitl [Hp]; · iexact Hp
    iexact Hrest
  hin c := by
    refine BIBase.Entails.trans ?_ (hΦin c)
    unfold Pipeline.ΦA
    iintro ⟨Hp, -, Hr⟩
    isplitl [Hr]; · iexact Hr
    iexact Hp
  hout c := by
    rw [Pipeline.ownSems0_none]
    refine BIBase.Entails.trans (hΦout c) ?_
    unfold Pipeline.ΦA
    iintro ⟨Hr, Hp⟩
    isplitl [Hp]; · iexact Hp
    isplitr; · iempintro
    iexact Hr
  hexit c := by
    have hj := hjoin c
    rw [Pipeline.unscopedBufs_held] at hj
    iintro ⟨Ha, HO, HY, Hrest⟩
    imodintro
    isplitl [Ha Hrest]
    · iapply hj; isplitl [Ha] <;> iassumption
    isplitl [HY]; · iexact HY
    iapply (run_zero_of_owesAt (pdats p c) (Fin.last _) (howed c _)); iexact HO

/-- The rest state holds the core's dues at nothing. -/
theorem run_hE4g (c : Dev nD) : (runR c : sProp 𝕄g) ⊢ (iprop(∃ W, owes (c : Thread nD τ) (0 : CellTallies nD τ sig Unit) W) : sProp 𝕄g) := by
  iintro ⟨-, HO⟩; iexact HO

/-- What the launch deals a core beside its buffers makes the rest state: the generator register at its launch state,
    the dues at nothing. -/
theorem run_hE0g (L : GSem nD τ sig → Finset Unit) (lv : GSem nD τ sig → Unit → ℕ) (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄g))) ∗ levAts L lv)
      ⊢ (|={Set.univ}=> bigSep Finset.univ (fun c : Dev nD => (runR c : sProp 𝕄g)) : sProp 𝕄g) := by
  refine Pipeline.initEach L lv fun c => ?_
  iintro ⟨⟨-, HO, -, Hp, -⟩, -⟩
  imodintro
  isplitl [Hp]; · iexists _; iexact Hp
  iexists ∅; iexact HO

/-- The launch on every core at once: the unscoped buffers held at the launch memory, the generator register at its launch
    state, the dues at nothing. -/
theorem run_hinitg (L : GSem nD τ sig → Finset Unit) (lv : GSem nD τ sig → Unit → ℕ)
    (m : (ℓ : Loc nD τ sig) → Buf Val ℓ) (ρ : Dev nD → PrngReg) :
    iprop((bigSep Finset.univ fun c : Dev nD => iprop(unscopedBufs c (fun b => m ((c.tc : Thread nD τ).loc b)) ∗ unscopedSems0 c
        ∗ owes (c.tc : Thread nD τ) ((0 : Dev nD → CellTallies nD τ sig Unit) c) ∅
        ∗ Pipeline.launchCred (0 : Dev nD → CellTallies nD τ sig Unit) c ∗ prngReg c (ρ c) ∗ (BI.emp : sProp 𝕄g))) ∗ levAts L lv)
      ⊢ (|={Set.univ}=> bigSep Finset.univ (fun c : Dev nD =>
          iprop(StableHlo.held (c : Thread nD τ) (Pipeline.ucRefs τ sig) (fun b => m (c, b)) ∗ (runR c : sProp 𝕄g))) : sProp 𝕄g) := by
  refine Pipeline.initEach L lv fun c => ?_
  rw [show unscopedBufs c (fun b => m ((c : Thread nD τ).loc b)) = StableHlo.held (c : Thread nD τ) (Pipeline.ucRefs τ sig) (fun b => m (c, b))
    from Pipeline.unscopedBufs_held c (fun b => m (c, b))]
  iintro ⟨⟨Hh, -, HO, -, Hp, -⟩, -⟩
  imodintro
  isplitl [Hh]; · iexact Hh
  isplitl [Hp]; · iexists _; iexact Hp
  iexists ∅; iexact HO

section Launch
variable {P' : Type} [Fintype P'] [DecidableEq P']
local notation "𝕄r" => MT nD τ sig Unit Val ℕ (UR sig nD τ) ℕ
/-- The launch element yields the pipeline library's element; no ghost resource of the certificate's own. -/
theorem run_hu₀g (cfgs : P' → Cfg sig Λ₀) (phinj : Function.Injective (cellOf (nD := nD) (τ := τ) cfgs)) :
    (ownU (initOf (Pipeline.cells cfgs phinj) (Pipeline.launchToks cfgs phinj)) : sProp 𝕄r)
    ⊢ |={Set.univ}=> iprop(BI.own (emb₁ (initOf (Pipeline.cells cfgs phinj) (Pipeline.launchToks cfgs phinj))) ∗ bigSep Finset.univ fun _ : Dev nD => (BI.emp : sProp 𝕄r)) := by
  iintro Hu; imodintro
  isplitl [Hu]
  · iapply (show (ownU (initOf (Pipeline.cells cfgs phinj) (Pipeline.launchToks cfgs phinj)) : sProp 𝕄r)
        ⊢ BI.own (emb₁ (initOf (Pipeline.cells cfgs phinj) (Pipeline.launchToks cfgs phinj))) from .rfl)
    iexact Hu
  iapply (show (BI.emp : sProp 𝕄r) ⊢ bigSep Finset.univ (fun _ : Dev nD => (BI.emp : sProp 𝕄r)) from by rw [BI.bigSep_emp_const])
  iempintro
end Launch

end Generic

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What the four regions leave, in stages

A region's entry contents are the launch memory pushed through the host stretches and the EARLIER regions' outputs, so
the contents a region leaves are defined region by region: each stage knows the outputs of the regions before it. -/

/-- Region 0 is entered from the launch memory after the first five host stretches. -/
abbrev VE0 : (c : Dev nD) → (b : Ref sig .tc) → Buf (Elt F) ((c : Thread nD τ).loc b) := fun c b => Gen.V5 m c b

/-- What region 0 leaves in its output array: its points' write-backs folded over the array as entered. -/
def o53 (c : Dev nD) : Buf (Elt F) ((c : Thread nD τ).loc main_v53) := (dat0 (VE0 m) c).arrAt 4 cfg0.N

/-- Stage 1: region 0's output known, nothing else changed. -/
def outs1 : Gen.Outs (F := F) := fun _ r c => Function.update (Gen.V0 m c) main_v53 (o53 m c) r

/-- What region 1 leaves in its output array, entered from the contents stage 1 gives. -/
def o65 (c : Dev nD) : Buf (Elt F) ((c : Thread nD τ).loc main_v65) :=
  (dat1 (fun c b => Gen.V11 m (outs1 m) c b) c).arrAt 4 cfg1.N

/-- Stage 2: the outputs of regions 0 and 1. -/
def outs2 : Gen.Outs (F := F) := fun J r c =>
  if J = 6 then outs1 m J r c else Function.update (Gen.V0 m c) main_v65 (o65 m c) r

/-- What region 2 leaves in its output array, entered from the contents stage 2 gives. -/
def o104 (c : Dev nD) : Buf (Elt F) ((c : Thread nD τ).loc main_v104) :=
  (dat2 (fun c b => Gen.V17 m (outs2 m) c b) c).arrAt 4 cfg2.N

/-- Stage 3: the outputs of regions 0, 1 and 2. -/
def outs3 : Gen.Outs (F := F) := fun J r c =>
  if J = 6 ∨ J = 12 then outs2 m J r c else Function.update (Gen.V0 m c) main_v104 (o104 m c) r

/-- What region 3 leaves in its output array, entered from the contents stage 3 gives. -/
def o107 (c : Dev nD) : Buf (Elt F) ((c : Thread nD τ).loc main_v107) :=
  (dat3 (fun c b => Gen.V19 m (outs3 m) c b) c).arrAt 2 cfg3.N

/-- The contents the regions leave: after item 5 region 0's output, after item 11 region 1's, after item 17 region 2's,
    after item 19 region 3's. -/
def outs : Gen.Outs (F := F) := fun J r c =>
  if J = 6 ∨ J = 12 ∨ J = 18 then outs3 m J r c else Function.update (Gen.V0 m c) main_v107 (o107 m c) r

/-- The buffers' contents at the return. -/
abbrev Vfin (c : Dev nD) : Valuation τ sig (Elt F) := Gen.V20 m (outs m) c

/-! ## The stages agree where an earlier region's output is read -/

theorem outs_6 (c : Dev nD) : outs m 6 main_v53 c = o53 m c := by
  unfold outs outs3 outs2 outs1
  rw [if_pos (Or.inl rfl), if_pos (Or.inl rfl), if_pos rfl]
  exact Function.update_self _ _ _
theorem outs1_6 (c : Dev nD) : outs1 m 6 main_v53 c = o53 m c := by
  unfold outs1; exact Function.update_self _ _ _
theorem outs2_6 (c : Dev nD) : outs2 m 6 main_v53 c = o53 m c := by
  unfold outs2 outs1; rw [if_pos rfl]; exact Function.update_self _ _ _
theorem outs3_6 (c : Dev nD) : outs3 m 6 main_v53 c = o53 m c := by
  unfold outs3 outs2 outs1; rw [if_pos (Or.inl rfl), if_pos rfl]; exact Function.update_self _ _ _
theorem outs_12 (c : Dev nD) : outs m 12 main_v65 c = o65 m c := by
  unfold outs outs3 outs2
  rw [if_pos (Or.inr (Or.inl rfl)), if_pos (Or.inr rfl), if_neg (by decide)]
  exact Function.update_self _ _ _
theorem outs2_12 (c : Dev nD) : outs2 m 12 main_v65 c = o65 m c := by
  unfold outs2; rw [if_neg (by decide)]; exact Function.update_self _ _ _
theorem outs3_12 (c : Dev nD) : outs3 m 12 main_v65 c = o65 m c := by
  unfold outs3 outs2; rw [if_pos (Or.inr rfl), if_neg (by decide)]; exact Function.update_self _ _ _
theorem outs_18 (c : Dev nD) : outs m 18 main_v104 c = o104 m c := by
  unfold outs outs3
  rw [if_pos (Or.inr (Or.inr rfl)), if_neg (by decide)]
  exact Function.update_self _ _ _
theorem outs3_18 (c : Dev nD) : outs3 m 18 main_v104 c = o104 m c := by
  unfold outs3; rw [if_neg (by decide)]; exact Function.update_self _ _ _
theorem outs_20 (c : Dev nD) : outs m 20 main_v107 c = o107 m c := by
  unfold outs; rw [if_neg (by decide)]; exact Function.update_self _ _ _

/-- The contents before region 1 read of the regions' outputs only region 0's. -/
theorem V11_congr (o o' : Gen.Outs (F := F)) (c : Dev nD) (h6 : o 6 main_v53 c = o' 6 main_v53 c) :
    Gen.V11 m o c = Gen.V11 m o' c := by
  unfold Gen.V11 Gen.V10 Gen.V9 Gen.V8 Gen.V7 Gen.V6; rw [h6]
/-- The contents before region 2 read of the regions' outputs only those of regions 0 and 1. -/
theorem V17_congr (o o' : Gen.Outs (F := F)) (c : Dev nD) (h6 : o 6 main_v53 c = o' 6 main_v53 c)
    (h12 : o 12 main_v65 c = o' 12 main_v65 c) : Gen.V17 m o c = Gen.V17 m o' c := by
  unfold Gen.V17 Gen.V16 Gen.V15 Gen.V14 Gen.V13 Gen.V12; rw [h12, V11_congr m o o' c h6]
/-- The contents before region 3 read of the regions' outputs only those of regions 0, 1 and 2. -/
theorem V19_congr (o o' : Gen.Outs (F := F)) (c : Dev nD) (h6 : o 6 main_v53 c = o' 6 main_v53 c)
    (h12 : o 12 main_v65 c = o' 12 main_v65 c) (h18 : o 18 main_v104 c = o' 18 main_v104 c) :
    Gen.V19 m o c = Gen.V19 m o' c := by
  unfold Gen.V19 Gen.V18; rw [h18, V17_congr m o o' c h6 h12]

/-- Region 1's entry contents are the same over the last stage as over stage 1. -/
theorem VE1_eq : (fun (c : Dev nD) (b : Ref sig .tc) => Gen.V11 m (outs m) c b)
    = fun (c : Dev nD) (b : Ref sig .tc) => Gen.V11 m (outs1 m) c b := by
  funext c b; exact congrFun (V11_congr m (outs m) (outs1 m) c ((outs_6 m c).trans (outs1_6 m c).symm)) _
/-- Region 2's entry contents are the same over the last stage as over stage 2. -/
theorem VE2_eq : (fun (c : Dev nD) (b : Ref sig .tc) => Gen.V17 m (outs m) c b)
    = fun (c : Dev nD) (b : Ref sig .tc) => Gen.V17 m (outs2 m) c b := by
  funext c b
  exact congrFun (V17_congr m (outs m) (outs2 m) c ((outs_6 m c).trans (outs2_6 m c).symm) ((outs_12 m c).trans (outs2_12 m c).symm)) _
/-- Region 3's entry contents are the same over the last stage as over stage 3. -/
theorem VE3_eq : (fun (c : Dev nD) (b : Ref sig .tc) => Gen.V19 m (outs m) c b)
    = fun (c : Dev nD) (b : Ref sig .tc) => Gen.V19 m (outs3 m) c b := by
  funext c b
  exact congrFun (V19_congr m (outs m) (outs3 m) c ((outs_6 m c).trans (outs3_6 m c).symm) ((outs_12 m c).trans (outs3_12 m c).symm)
    ((outs_18 m c).trans (outs3_18 m c).symm)) _

theorem outs_53 (c : Dev nD) : outs m 6 main_v53 c = (dat0 (fun c b => Gen.V5 m c b) c).arrAt 4 cfg0.N := outs_6 m c
theorem outs_65 (c : Dev nD) : outs m 12 main_v65 c = (dat1 (fun c b => Gen.V11 m (outs m) c b) c).arrAt 4 cfg1.N := by
  rw [VE1_eq m]; exact outs_12 m c
theorem outs_104 (c : Dev nD) : outs m 18 main_v104 c = (dat2 (fun c b => Gen.V17 m (outs m) c b) c).arrAt 4 cfg2.N := by
  rw [VE2_eq m]; exact outs_18 m c
theorem outs_107 (c : Dev nD) : outs m 20 main_v107 c = (dat3 (fun c b => Gen.V19 m (outs m) c b) c).arrAt 2 cfg3.N := by
  rw [VE3_eq m]; exact outs_20 m c

/-! # The regions' entry contents and the proof data -/

/-- Region 1 is entered from the contents before item 11. -/
abbrev VE1 : (c : Dev nD) → (b : Ref sig .tc) → Buf (Elt F) ((c : Thread nD τ).loc b) := fun c b => Gen.V11 m (outs m) c b
/-- Region 2 is entered from the contents before item 17. -/
abbrev VE2 : (c : Dev nD) → (b : Ref sig .tc) → Buf (Elt F) ((c : Thread nD τ).loc b) := fun c b => Gen.V17 m (outs m) c b
/-- Region 3 is entered from the contents before item 19. -/
abbrev VE3 : (c : Dev nD) → (b : Ref sig .tc) → Buf (Elt F) ((c : Thread nD τ).loc b) := fun c b => Gen.V19 m (outs m) c b

set_option maxHeartbeats 800000

/-- At region 0's exit each of its arrays holds what its pipeline leaves: an input array what it held at entry (never
    written back), the output array the folded write-backs. -/
theorem hF0 (c : Dev nD) : ∀ w : Fin 5, (dat0 (VE0 m) c).arrAt w cfg0.N = (fun b : Ref sig .tc => Gen.V6 m (outs m) c b) (Pipeline.arrRef spec0 w)
  | 0 => ((dat0 (VE0 m) c).arrAt_in 0 rfl _).trans ((A_eq0 (VE0 m) c 0).trans (Gen.V6_of m (outs m) c main_v45 (by decide)).symm)
  | 1 => ((dat0 (VE0 m) c).arrAt_in 1 rfl _).trans ((A_eq0 (VE0 m) c 1).trans (Gen.V6_of m (outs m) c main_v50 (by decide)).symm)
  | 2 => ((dat0 (VE0 m) c).arrAt_in 2 rfl _).trans ((A_eq0 (VE0 m) c 2).trans (Gen.V6_of m (outs m) c main_v51 (by decide)).symm)
  | 3 => ((dat0 (VE0 m) c).arrAt_in 3 rfl _).trans ((A_eq0 (VE0 m) c 3).trans (Gen.V6_of m (outs m) c main_v52 (by decide)).symm)
  | 4 => ((Function.update_self (Proc.devRef (τ := τ) .tc main_v53) (outs m 6 main_v53 c) (Gen.V5 m c)).trans (outs_53 m c)).symm
  | ⟨_ + 5, h⟩ => absurd h (Nat.not_lt.2 (Nat.le_add_left _ _))
/-- … and every buffer that is none of its arrays what it held at entry. -/
theorem hrest0 (c : Dev nD) (b : Ref sig .tc) (hb : b ∉ Finset.univ.image (Pipeline.arrRef spec0)) :
    (fun b : Ref sig .tc => Gen.V6 m (outs m) c b) b = VE0 m c b :=
  Gen.V6_of m (outs m) c b fun h => hb (Finset.mem_image.mpr ⟨4, Finset.mem_univ _, (List.mem_singleton.mp h).symm⟩)

/-- At region 1's exit each of its arrays holds what its pipeline leaves: an input array what it held at entry (never
    written back), the output array the folded write-backs. -/
theorem hF1 (c : Dev nD) : ∀ w : Fin 5, (dat1 (VE1 m) c).arrAt w cfg1.N = (fun b : Ref sig .tc => Gen.V12 m (outs m) c b) (Pipeline.arrRef spec1 w)
  | 0 => ((dat1 (VE1 m) c).arrAt_in 0 rfl _).trans ((A_eq1 (VE1 m) c 0).trans (Gen.V12_of m (outs m) c main_v45 (by decide)).symm)
  | 1 => ((dat1 (VE1 m) c).arrAt_in 1 rfl _).trans ((A_eq1 (VE1 m) c 1).trans (Gen.V12_of m (outs m) c main_v62 (by decide)).symm)
  | 2 => ((dat1 (VE1 m) c).arrAt_in 2 rfl _).trans ((A_eq1 (VE1 m) c 2).trans (Gen.V12_of m (outs m) c main_v63 (by decide)).symm)
  | 3 => ((dat1 (VE1 m) c).arrAt_in 3 rfl _).trans ((A_eq1 (VE1 m) c 3).trans (Gen.V12_of m (outs m) c main_v64 (by decide)).symm)
  | 4 => ((Function.update_self (Proc.devRef (τ := τ) .tc main_v65) (outs m 12 main_v65 c) (Gen.V11 m (outs m) c)).trans (outs_65 m c)).symm
  | ⟨_ + 5, h⟩ => absurd h (Nat.not_lt.2 (Nat.le_add_left _ _))
/-- … and every buffer that is none of its arrays what it held at entry. -/
theorem hrest1 (c : Dev nD) (b : Ref sig .tc) (hb : b ∉ Finset.univ.image (Pipeline.arrRef spec1)) :
    (fun b : Ref sig .tc => Gen.V12 m (outs m) c b) b = VE1 m c b :=
  Gen.V12_of m (outs m) c b fun h => hb (Finset.mem_image.mpr ⟨4, Finset.mem_univ _, (List.mem_singleton.mp h).symm⟩)

/-- At region 2's exit each of its arrays holds what its pipeline leaves: an input array what it held at entry (never
    written back), the output array the folded write-backs. -/
theorem hF2 (c : Dev nD) : ∀ w : Fin 5, (dat2 (VE2 m) c).arrAt w cfg2.N = (fun b : Ref sig .tc => Gen.V18 m (outs m) c b) (Pipeline.arrRef spec2 w)
  | 0 => ((dat2 (VE2 m) c).arrAt_in 0 rfl _).trans ((A_eq2 (VE2 m) c 0).trans (Gen.V18_of m (outs m) c main_v45 (by decide)).symm)
  | 1 => ((dat2 (VE2 m) c).arrAt_in 1 rfl _).trans ((A_eq2 (VE2 m) c 1).trans (Gen.V18_of m (outs m) c main_v101 (by decide)).symm)
  | 2 => ((dat2 (VE2 m) c).arrAt_in 2 rfl _).trans ((A_eq2 (VE2 m) c 2).trans (Gen.V18_of m (outs m) c main_v102 (by decide)).symm)
  | 3 => ((dat2 (VE2 m) c).arrAt_in 3 rfl _).trans ((A_eq2 (VE2 m) c 3).trans (Gen.V18_of m (outs m) c main_v103 (by decide)).symm)
  | 4 => ((Function.update_self (Proc.devRef (τ := τ) .tc main_v104) (outs m 18 main_v104 c) (Gen.V17 m (outs m) c)).trans (outs_104 m c)).symm
  | ⟨_ + 5, h⟩ => absurd h (Nat.not_lt.2 (Nat.le_add_left _ _))
/-- … and every buffer that is none of its arrays what it held at entry. -/
theorem hrest2 (c : Dev nD) (b : Ref sig .tc) (hb : b ∉ Finset.univ.image (Pipeline.arrRef spec2)) :
    (fun b : Ref sig .tc => Gen.V18 m (outs m) c b) b = VE2 m c b :=
  Gen.V18_of m (outs m) c b fun h => hb (Finset.mem_image.mpr ⟨4, Finset.mem_univ _, (List.mem_singleton.mp h).symm⟩)

/-- At region 3's exit each of its arrays holds what its pipeline leaves: an input array what it held at entry (never
    written back), the output array the folded write-backs. -/
theorem hF3 (c : Dev nD) : ∀ w : Fin 3, (dat3 (VE3 m) c).arrAt w cfg3.N = (fun b : Ref sig .tc => Gen.V20 m (outs m) c b) (Pipeline.arrRef spec3 w)
  | 0 => ((dat3 (VE3 m) c).arrAt_in 0 rfl _).trans ((A_eq3 (VE3 m) c 0).trans (Gen.V20_of m (outs m) c main_v106 (by decide)).symm)
  | 1 => ((dat3 (VE3 m) c).arrAt_in 1 rfl _).trans ((A_eq3 (VE3 m) c 1).trans (Gen.V20_of m (outs m) c main_v106 (by decide)).symm)
  | 2 => ((Function.update_self (Proc.devRef (τ := τ) .tc main_v107) (outs m 20 main_v107 c) (Gen.V19 m (outs m) c)).trans (outs_107 m c)).symm
  | ⟨_ + 3, h⟩ => absurd h (Nat.not_lt.2 (Nat.le_add_left _ _))
/-- … and every buffer that is none of its arrays what it held at entry. -/
theorem hrest3 (c : Dev nD) (b : Ref sig .tc) (hb : b ∉ Finset.univ.image (Pipeline.arrRef spec3)) :
    (fun b : Ref sig .tc => Gen.V20 m (outs m) c b) b = VE3 m c b :=
  Gen.V20_of m (outs m) c b fun h => hb (Finset.mem_image.mpr ⟨2, Finset.mem_univ _, (List.mem_singleton.mp h).symm⟩)

/-- Every pipeline's proof data, each at its region's entry contents — a literal match, so that the family at a numeral
    reduces to the region's own data. -/
def pdats : (p : Fin 4) → (c : Dev nD) → Dat τ (Elt F) Unit ℕ (UR sig nD τ) ℕ (Pipeline.pin (pcfgs (F := F)) Gen.adm p) c
  | ⟨0, _⟩ => fun c => dat0 (VE0 m) c
  | ⟨1, _⟩ => fun c => dat1 (VE1 m) c
  | ⟨2, _⟩ => fun c => dat2 (VE2 m) c
  | ⟨3, _⟩ => fun c => dat3 (VE3 m) c

/-- No core owes another anything: no level is assigned. -/
abbrev runL : GSem nD τ sig → Finset Unit := fun _ => ∅
abbrev runLv : GSem nD τ sig → Unit → ℕ := fun _ _ => 0
/-- The rest state between any two items. -/
abbrev runE : Fin 5 → Dev nD → sProp 𝕄 := fun _ c => runR c

/-- No pipeline has a prefetched table: none is held. -/
theorem run_nopre (p : Fin 4) (c : Dev nD) :
    (BI.emp : sProp 𝕄) ⊢ Pipeline.prefHeld (pcfgs (F := F) p).pre c (fun _ => fullShare) (Gen.adm (F := F) p).1 := by
  unfold Pipeline.prefHeld; rw [show (Finset.univ : Finset (Fin 0)) = ∅ from rfl, BI.bigSep_empty]

set_option backward.isDefEq.respectTransparency.types false in
/-- REGION 0: entered from every unscoped buffer at the contents before it, left at the contents after it — its arrays at
    what its pipeline leaves, every other buffer as entered. -/
def reg0 : Pipeline.RegionSeg (pcfgs (F := F)) Gen.adm (pdats m) () defs₀ Variants.none runL runLv 0 :=
  runRegionOf (pcfgs (F := F)) Gen.adm (pdats m) defs₀ runL runLv 0 Gen.launch0.win.to₀ Gen.launch0.block_pos Gen.launch0.stage_whole
    (fun c => (body_obligation0 (VE0 m) c).loose) (fun c t => owed0 (VE0 m) c t) (fun c => rfl) (run_nopre 0)
    (Gen.V5 m) (Gen.V6 m (outs m))
    (fun c => Pipeline.arrays_of_unscopedBufs (p := 0) (pcfgs (F := F)) Gen.adm (pdats m) Gen.launch0.win Gen.launch0.arr_whole c
      ((pdats m 0 c).share_full (q0 (VE0 m) c)) (VE0 m c) (A_eq0 (VE0 m) c))
    (fun c => Pipeline.unscopedBufs_of_arrays (p := 0) (pcfgs (F := F)) Gen.adm (Ix := Unit) (Name := ℕ) (U := UR sig nD τ) (Lvl := ℕ)
      Gen.launch0.win Gen.launch0.arr_whole c (pdats m) ((pdats m 0 c).share_full (q0 (VE0 m) c))
      (VE0 m c) (fun b : Ref sig .tc => Gen.V6 m (outs m) c b) ((pdats m 0 c).arrAt · cfg0.N) (hF0 m c) (hrest0 m c))
    (fun c => hin0 (VE0 m) c) (fun c => hout0 (VE0 m) c)

set_option backward.isDefEq.respectTransparency.types false in
/-- REGION 1: entered from every unscoped buffer at the contents before it, left at the contents after it — its arrays at
    what its pipeline leaves, every other buffer as entered. -/
def reg1 : Pipeline.RegionSeg (pcfgs (F := F)) Gen.adm (pdats m) () defs₀ Variants.none runL runLv 1 :=
  runRegionOf (pcfgs (F := F)) Gen.adm (pdats m) defs₀ runL runLv 1 Gen.launch1.win.to₀ Gen.launch1.block_pos Gen.launch1.stage_whole
    (fun c => (body_obligation1 (VE1 m) c).loose) (fun c t => owed1 (VE1 m) c t) (fun c => rfl) (run_nopre 1)
    (Gen.V11 m (outs m)) (Gen.V12 m (outs m))
    (fun c => Pipeline.arrays_of_unscopedBufs (p := 1) (pcfgs (F := F)) Gen.adm (pdats m) Gen.launch1.win Gen.launch1.arr_whole c
      ((pdats m 1 c).share_full (q1 (VE1 m) c)) (VE1 m c) (A_eq1 (VE1 m) c))
    (fun c => Pipeline.unscopedBufs_of_arrays (p := 1) (pcfgs (F := F)) Gen.adm (Ix := Unit) (Name := ℕ) (U := UR sig nD τ) (Lvl := ℕ)
      Gen.launch1.win Gen.launch1.arr_whole c (pdats m) ((pdats m 1 c).share_full (q1 (VE1 m) c))
      (VE1 m c) (fun b : Ref sig .tc => Gen.V12 m (outs m) c b) ((pdats m 1 c).arrAt · cfg1.N) (hF1 m c) (hrest1 m c))
    (fun c => hin1 (VE1 m) c) (fun c => hout1 (VE1 m) c)

set_option backward.isDefEq.respectTransparency.types false in
/-- REGION 2: entered from every unscoped buffer at the contents before it, left at the contents after it — its arrays at
    what its pipeline leaves, every other buffer as entered. -/
def reg2 : Pipeline.RegionSeg (pcfgs (F := F)) Gen.adm (pdats m) () defs₀ Variants.none runL runLv 2 :=
  runRegionOf (pcfgs (F := F)) Gen.adm (pdats m) defs₀ runL runLv 2 Gen.launch2.win.to₀ Gen.launch2.block_pos Gen.launch2.stage_whole
    (fun c => (body_obligation2 (VE2 m) c).loose) (fun c t => owed2 (VE2 m) c t) (fun c => rfl) (run_nopre 2)
    (Gen.V17 m (outs m)) (Gen.V18 m (outs m))
    (fun c => Pipeline.arrays_of_unscopedBufs (p := 2) (pcfgs (F := F)) Gen.adm (pdats m) Gen.launch2.win Gen.launch2.arr_whole c
      ((pdats m 2 c).share_full (q2 (VE2 m) c)) (VE2 m c) (A_eq2 (VE2 m) c))
    (fun c => Pipeline.unscopedBufs_of_arrays (p := 2) (pcfgs (F := F)) Gen.adm (Ix := Unit) (Name := ℕ) (U := UR sig nD τ) (Lvl := ℕ)
      Gen.launch2.win Gen.launch2.arr_whole c (pdats m) ((pdats m 2 c).share_full (q2 (VE2 m) c))
      (VE2 m c) (fun b : Ref sig .tc => Gen.V18 m (outs m) c b) ((pdats m 2 c).arrAt · cfg2.N) (hF2 m c) (hrest2 m c))
    (fun c => hin2 (VE2 m) c) (fun c => hout2 (VE2 m) c)

set_option backward.isDefEq.respectTransparency.types false in
/-- REGION 3: entered from every unscoped buffer at the contents before it, left at the contents after it — its arrays at
    what its pipeline leaves, every other buffer as entered. -/
def reg3 : Pipeline.RegionSeg (pcfgs (F := F)) Gen.adm (pdats m) () defs₀ Variants.none runL runLv 3 :=
  runRegionOf (pcfgs (F := F)) Gen.adm (pdats m) defs₀ runL runLv 3 Gen.winFacts₀3 Gen.block_pos3 Gen.stage_whole3
    (fun c => (body_obligation3 (VE3 m) c).loose) (fun c t => owed3 (VE3 m) c t) (fun c => rfl) (run_nopre 3)
    (Gen.V19 m (outs m)) (Gen.V20 m (outs m))
    (fun c => entry3 (VE3 m) c)
    (fun c => exit3 (VE3 m) c (fun b : Ref sig .tc => Gen.V20 m (outs m) c b) (hF3 m c) (hrest3 m c))
    (fun c => hin3 (VE3 m) c) (fun c => hout3 (VE3 m) c)

/-! # The launch -/

/-- The launch element yields the pipeline library's element; no ghost resource of the certificate's own. -/
theorem run_hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) :=
  run_hu₀g cfgs cellOf_inj

/-- What the launch deals a core beside its buffers makes the rest state: the generator register at its launch state,
    the dues at nothing. -/
theorem run_hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts runL runLv)
      ⊢ (|={Set.univ}=> bigSep Finset.univ (runE (F := F) 0) : sProp 𝕄) :=
  run_hE0g runL runLv ρ

/-- The rest state holds the core's dues at nothing. -/
theorem run_hE4 (c : Dev nD) : runE (F := F) 4 c ⊢ (iprop(∃ W, owes (c : Thread nD τ) (0 : CellTallies nD τ sig Unit) W) : sProp 𝕄) :=
  run_hE4g c

set_option backward.isDefEq.respectTransparency.types false in
/-- THE RUN: every weakly fair execution of @main terminates, nothing faulting, and every unscoped buffer ends at the last
    boundary's contents: the several-region kit over @main's items, the last thread state read against the final state. -/
theorem run_all : θ_run defs (onTc (τ := τ) (main (F := F))) ⟨m, fun _ => 0, ρ⟩
    (fun r => ∀ c : Dev nD, ∀ b ∈ Pipeline.ucRefs τ sig, r.2.mem ((c : Thread nD τ).1, b) = Vfin m c b) := by
  refine Pipeline.θ_run_regions_kit_dev (pcfgs (F := F)) Gen.adm (pdats m) () cellOf_inj emb₁ defs₀ Variants.none runL runLv m ρ main
    (Gen.segs m (outs m) Variants.none runL runLv runE () (pdats m) (reg0 m) (reg1 m) (reg2 m) (reg3 m))
    (fun c Q => by
      rewrite [main_chain c, Pipeline.Seg.run_eq_chain,
        show (Gen.segs m (outs m) Variants.none runL runLv runE () (pdats m) (reg0 m) (reg1 m) (reg2 m) (reg3 m) c).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          Prog.lift (.customCall (Pipeline.entry 3) ()) ] from rfl]
      exact .rfl)
    (fun c => by simp only [Gen.segs, Pipeline.Seg.pipes_host, Pipeline.Seg.pipes_region, Pipeline.Seg.pipes_nil]; decide)
    (0 : Dev nD → CellTallies nD τ sig Unit) (fun _ _ => rfl) (fun _ => (BI.emp : sProp 𝕄))
    (initOf (Pipeline.cells cfgs cellOf_inj) (Pipeline.launchToks cfgs cellOf_inj)) run_hu₀
    (T₀ := fun c => iprop(StableHlo.held (c : Thread nD τ) (Pipeline.ucRefs τ sig) (Gen.V0 m c) ∗ runE 0 c))
    (Tₙ := fun c => StableHlo.held (c : Thread nD τ) (Pipeline.ucRefs τ sig) (Vfin m c))
    (hch := fun c => ⟨.rfl, .rfl, .rfl, .rfl, .rfl, .rfl, .rfl, .rfl, .rfl, .rfl, .rfl, .rfl, .rfl, .rfl, .rfl, .rfl, .rfl, .rfl, .rfl, .rfl,
      sep_mono .rfl (run_hE4 c)⟩)
    (hinit := run_hinitg runL runLv m ρ) (QY := fun c s => ∀ b ∈ Pipeline.ucRefs τ sig, s.mem ((c : Thread nD τ).1, b) = Vfin m c b)
    (hfin := fun c s' => ?_) (hQ := fun _ h => h)
  -- the end: every unscoped buffer read off the last thread state
  unfold StableHlo.held
  iintro ⟨Hh, HSI⟩
  imodintro
  iapply (pointsTo_read_all (Pipeline.ucRefs τ sig) (fun b => ((c : Thread nD τ).1, b)) (Vfin m c) s')
  isplitl [Hh] <;> iassumption

/-- THE RUN, read at the results and the arguments: every weakly fair execution of @main terminates, nothing faulting,
    each result array ends at the last boundary's contents and each argument array as launched (no item writes one). -/
theorem run_res : θ_run defs (onTc (τ := τ) (main (F := F))) ⟨m, fun _ => 0, ρ⟩ (fun r => ∀ c : Dev nD,
      r.2.mem ((c.tc : Thread nD τ).loc main_v105) = Vfin m c main_v105
      ∧ r.2.mem ((c.tc : Thread nD τ).loc main_v107) = Vfin m c main_v107
      ∧ r.2.mem ((c.tc : Thread nD τ).loc main_v85) = Vfin m c main_v85
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c =>
    ⟨h c (Proc.devRef .tc main_v105) (Finset.mem_filter.mpr ⟨StableHlo.devRef_mem_tcRefs main_v105, by decide⟩),
      h c (Proc.devRef .tc main_v107) (Finset.mem_filter.mpr ⟨StableHlo.devRef_mem_tcRefs main_v107, by decide⟩),
      h c (Proc.devRef .tc main_v85) (Finset.mem_filter.mpr ⟨StableHlo.devRef_mem_tcRefs main_v85, by decide⟩),
      (h c (Proc.devRef .tc main_arg0) (Finset.mem_filter.mpr ⟨StableHlo.devRef_mem_tcRefs main_arg0, by decide⟩)).trans (Gen.V20_main_arg0 m (outs m) c),
      (h c (Proc.devRef .tc main_arg1) (Finset.mem_filter.mpr ⟨StableHlo.devRef_mem_tcRefs main_arg1, by decide⟩)).trans (Gen.V20_main_arg1 m (outs m) c),
      (h c (Proc.devRef .tc main_arg2) (Finset.mem_filter.mpr ⟨StableHlo.devRef_mem_tcRefs main_arg2, by decide⟩)).trans (Gen.V20_main_arg2 m (outs m) c),
      (h c (Proc.devRef .tc main_arg3) (Finset.mem_filter.mpr ⟨StableHlo.devRef_mem_tcRefs main_arg3, by decide⟩)).trans (Gen.V20_main_arg3 m (outs m) c),
      (h c (Proc.devRef .tc main_arg4) (Finset.mem_filter.mpr ⟨StableHlo.devRef_mem_tcRefs main_arg4, by decide⟩)).trans (Gen.V20_main_arg4 m (outs m) c),
      (h c (Proc.devRef .tc main_arg5) (Finset.mem_filter.mpr ⟨StableHlo.devRef_mem_tcRefs main_arg5, by decide⟩)).trans (Gen.V20_main_arg5 m (outs m) c),
      (h c (Proc.devRef .tc main_arg6) (Finset.mem_filter.mpr ⟨StableHlo.devRef_mem_tcRefs main_arg6, by decide⟩)).trans (Gen.V20_main_arg6 m (outs m) c),
      (h c (Proc.devRef .tc main_arg7) (Finset.mem_filter.mpr ⟨StableHlo.devRef_mem_tcRefs main_arg7, by decide⟩)).trans (Gen.V20_main_arg7 m (outs m) c),
      (h c (Proc.devRef .tc main_arg8) (Finset.mem_filter.mpr ⟨StableHlo.devRef_mem_tcRefs main_arg8, by decide⟩)).trans (Gen.V20_main_arg8 m (outs m) c),
      (h c (Proc.devRef .tc main_arg9) (Finset.mem_filter.mpr ⟨StableHlo.devRef_mem_tcRefs main_arg9, by decide⟩)).trans (Gen.V20_main_arg9 m (outs m) c),
      (h c (Proc.devRef .tc main_arg10) (Finset.mem_filter.mpr ⟨StableHlo.devRef_mem_tcRefs main_arg10, by decide⟩)).trans (Gen.V20_main_arg10 m (outs m) c),
      (h c (Proc.devRef .tc main_arg11) (Finset.mem_filter.mpr ⟨StableHlo.devRef_mem_tcRefs main_arg11, by decide⟩)).trans (Gen.V20_main_arg11 m (outs m) c),
      (h c (Proc.devRef .tc main_arg12) (Finset.mem_filter.mpr ⟨StableHlo.devRef_mem_tcRefs main_arg12, by decide⟩)).trans (Gen.V20_main_arg12 m (outs m) c),
      (h c (Proc.devRef .tc main_arg13) (Finset.mem_filter.mpr ⟨StableHlo.devRef_mem_tcRefs main_arg13, by decide⟩)).trans (Gen.V20_main_arg13 m (outs m) c),
      (h c (Proc.devRef .tc main_arg14) (Finset.mem_filter.mpr ⟨StableHlo.devRef_mem_tcRefs main_arg14, by decide⟩)).trans (Gen.V20_main_arg14 m (outs m) c),
      (h c (Proc.devRef .tc main_arg15) (Finset.mem_filter.mpr ⟨StableHlo.devRef_mem_tcRefs main_arg15, by decide⟩)).trans (Gen.V20_main_arg15 m (outs m) c),
      (h c (Proc.devRef .tc main_arg16) (Finset.mem_filter.mpr ⟨StableHlo.devRef_mem_tcRefs main_arg16, by decide⟩)).trans (Gen.V20_main_arg16 m (outs m) c),
      (h c (Proc.devRef .tc main_arg17) (Finset.mem_filter.mpr ⟨StableHlo.devRef_mem_tcRefs main_arg17, by decide⟩)).trans (Gen.V20_main_arg17 m (outs m) c),
      (h c (Proc.devRef .tc main_arg18) (Finset.mem_filter.mpr ⟨StableHlo.devRef_mem_tcRefs main_arg18, by decide⟩)).trans (Gen.V20_main_arg18 m (outs m) c),
      (h c (Proc.devRef .tc main_arg19) (Finset.mem_filter.mpr ⟨StableHlo.devRef_mem_tcRefs main_arg19, by decide⟩)).trans (Gen.V20_main_arg19 m (outs m) c),
      (h c (Proc.devRef .tc main_arg20) (Finset.mem_filter.mpr ⟨StableHlo.devRef_mem_tcRefs main_arg20, by decide⟩)).trans (Gen.V20_main_arg20 m (outs m) c)⟩) (run_all m ρ)

set_option backward.isDefEq.respectTransparency.types false in
/-- THE FRAME: at the compiled mesh, from any memory with zero counters, every weakly fair execution of @main on the
    TensorCores terminates, nothing faulting, and every final state has the argument arrays as launched: the conditional
    frame at the four regions' records, each entered from and left at the boundary contents by name. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Gen.frame_cond m emb₁ () Variants.none runL runLv (fun _ _ => rfl) ρ (outs m) (pdats m)
    (0 : Dev nD → CellTallies nD τ sig Unit) (fun _ => (BI.emp : sProp 𝕄))
    (initOf (Pipeline.cells cfgs cellOf_inj) (Pipeline.launchToks cfgs cellOf_inj)) run_hu₀
    runE (run_hE0 ρ) run_hE4
    (reg0 m) (fun _ => .rfl) (fun _ => .rfl)
    (reg1 m) (fun _ => .rfl) (fun _ => .rfl)
    (reg2 m) (fun _ => .rfl) (fun _ => .rfl)
    (reg3 m) (fun _ => .rfl) (fun _ => .rfl)

end Cert.Kernel.Hand

end
-- ==== Proof.KISpmm0.lean ====
import proofs.«414230_j6141803233547_3_alg».proof.Proof.Gen.KernelIdeal.Launch
import proofs.«414230_j6141803233547_3_alg».proof.Proof.Gen.KernelIdeal.Skeleton
import proofs.«414230_j6141803233547_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! # Region 0: the sparse-times-dense product with a dense layer, one row block at a time -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The same blocks at their literal vector types: the adjacency block, the dense operand whole, the layer's
    matrix and its bias. -/
abbrev ablk0 (c : Dev nD) (t : Fin cfg0.N) : Vec F S2048x2048 .bf16 := iblk0 V c 0 t
abbrev xarr0 (c : Dev nD) (t : Fin cfg0.N) : Vec F S8192x64 .bf16 := iblk0 V c 1 t
abbrev wmat0 (c : Dev nD) (t : Fin cfg0.N) : Vec F S64x256 .bf16 := iblk0 V c 2 t
abbrev bias0 (c : Dev nD) (t : Fin cfg0.N) : Vec F S1x256 .f32 := iblk0 V c 3 t

/-- The rows of the dense operand the body loads at point `t`: the rectangle at the printed offsets. -/
def xsl0 (c : Dev nD) (t : Fin cfg0.N) : Vec F S2048x64 .bf16 :=
  View.ld (xarr0 V c t) (Rect.unit (s := S8192x64) (k0_off1 (grid0.coords t)) S2048x64.size (k0_off1_inb (grid0.coords t)))

/-! ## What the body leaves, point by point -/

/-- THE ACCUMULATION: the partial sum after the body at position `n`. At the first column block of a row
    block (`n % 4 = 0`) the sum restarts from the zero block; elsewhere it adds this column block's product to
    what the point before left. -/
def acc0 (c : Dev nD) : (n : ℕ) → n < cfg0.N → Vec F S2048x64 .f32
  | 0, h => k0_pay2 (xsl0 V c ⟨0, h⟩) k0_pay1 (ablk0 V c ⟨0, h⟩)
  | n + 1, h => if (n + 1) % 4 = 0 then k0_pay2 (xsl0 V c ⟨n + 1, h⟩) k0_pay1 (ablk0 V c ⟨n + 1, h⟩)
                else k0_pay2 (xsl0 V c ⟨n + 1, h⟩) (acc0 c n (Nat.lt_of_succ_lt h)) (ablk0 V c ⟨n + 1, h⟩)

/-- At a first column block the sum restarts. -/
theorem acc0_reset (c : Dev nD) (t : Fin cfg0.N) (h : t.val % 4 = 0) :
    acc0 V c t.val t.isLt = k0_pay2 (xsl0 V c t) k0_pay1 (ablk0 V c t) := by
  obtain ⟨n, hn⟩ := t
  cases n with
  | zero => rfl
  | succ n => exact if_pos h

/-- Elsewhere it continues from the point before. -/
theorem acc0_step (c : Dev nD) (t : Fin cfg0.N) (h : t.val % 4 ≠ 0) :
    acc0 V c t.val t.isLt = k0_pay2 (xsl0 V c t) (acc0 V c (t.val - 1) (Nat.lt_of_le_of_lt (Nat.sub_le _ _) t.isLt)) (ablk0 V c t) := by
  obtain ⟨n, hn⟩ := t
  cases n with
  | zero => exact absurd (Nat.zero_mod _) h
  | succ n => exact if_neg h

/-- What the epilogue stores into the output block: the dense layer applied to the finished sum (meaningful at
    the last column block of a row block; elsewhere the window is idle and nothing consults it). -/
def out0 (c : Dev nD) (t : Fin cfg0.N) : Vec F S2048x256 .f32 := k0_pay3 (acc0 V c t.val t.isLt) (wmat0 V c t) (bias0 V c t)

/-! ## The invariant: the carried partial sum -/

/-- The partial-sum buffer, whole. -/
abbrev scM0 : Memref sig .tc .vmem S2048x64 .f32 := Memref.whole cc0_scratch0

/-- The core's scoped buffers other than the staging buffers and the partial-sum buffer, at some contents each. -/
abbrev restS0 (c : Dev nD) : sProp 𝕄 :=
  Pipeline.scopedRestBut (Ix := Unit) (Name := ℕ) (U := UR sig nD τ) (Lvl := ℕ) (Val := Elt F) spec0 c [cc0_scratch0]

/-- The region invariant before position `n`: before the first point every scoped buffer at anything; afterwards
    the partial-sum buffer at what the point before left, the other scoped buffers at anything; the generator
    register at some state throughout. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ restS0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ restS0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ restS0 c) ∗ (∃ r, prngReg c r)) := by
  cases n with
  | zero => exact absurd rfl hz
  | succ n => rfl

/-! ## The pipeline's proof data -/

/-- The proof data of pipeline 0 on core `c`: the arrays as the region finds them; after the body each input's
    buffer at its block and the output's at the epilogue's value; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_in (c : Dev nD) (t : Fin cfg0.N) :
    (dat0 V c).after 0 t = iblk0 V c 0 t ∧ (dat0 V c).after 1 t = iblk0 V c 1 t
      ∧ (dat0 V c).after 2 t = iblk0 V c 2 t ∧ (dat0 V c).after 3 t = iblk0 V c 3 t := by
  refine ⟨?_, ?_, ?_, ?_⟩ <;> dsimp only [dat0]

theorem after0_4 (c : Dev nD) (t : Fin cfg0.N) : (dat0 V c).after 4 t = out0 V c t := by dsimp only [dat0]

theorem owed0 (c : Dev nD) (t) : (dat0 V c).owed t = 0 := rfl
theorem q0 (c : Dev nD) (w) : (dat0 V c).q w = fullShare := rfl

/-! ## The body's branch conditions -/

/-- The first condition of the body (the column-block coordinate is zero), from the grid coordinates. -/
abbrev condA0 (i : grid0.Coords) : Prop :=
  (Scalar.cmpi .ne (Scalar.extui (Scalar.cmpi .eq (BitVec.ofNat 32 (i 1).val) 0#32)) 0#32) = 1#1
/-- The second condition of the body (the column-block coordinate is the last). -/
abbrev condB0 (i : grid0.Coords) : Prop := k0_cond2 i = 1#1

/-- The zero offsets, however spelt. -/
theorem hz2 : (![0, 0] : Fin 2 → ℕ) = fun _ => 0 := by funext a; fin_cases a <;> rfl

/-- The rows of the dense operand the body loads at coordinates `i`. -/
abbrev rX0 (i : grid0.Coords) : Rect S8192x64 := Rect.unit (s := S8192x64) (k0_off1 i) S2048x64.size (k0_off1_inb i)

set_option maxHeartbeats 1000000 in
/-- The body at a middle column block (neither condition holds), on whole memrefs: the adjacency block at `a`,
    the dense operand at `x`, the partial sum at `s`. It leaves the partial sum at `s` plus this block's product
    and the inputs as they were; the other operands are not touched. -/
theorem sound_kernelB0 (c : Dev nD) (E : Set ℕ) (i : grid0.Coords) (hA : ¬ condA0 i) (hB : ¬ condB0 i)
    (arg2 : Memref sig .tc .vmem S2048x2048 .bf16) (harg2 : arg2.IsWhole) (arg3 : Memref sig .tc .vmem S8192x64 .bf16) (harg3 : arg3.IsWhole)
    (arg4 : Memref sig .tc .vmem S64x256 .bf16) (harg4 : arg4.IsWhole) (arg5 : Memref sig .tc .vmem S1x256 .f32) (harg5 : arg5.IsWhole)
    (arg6 : Memref sig .tc .vmem S2048x256 .f32) (harg6 : arg6.IsWhole) (arg7 : Memref sig .tc .vmem S2048x64 .f32) (harg7 : arg7.IsWhole)
    (a : Vec F S2048x2048 .bf16) (x : Vec F S8192x64 .bf16) (s : Vec F S2048x64 .f32) (K : PUnit → sProp 𝕄) :
    iprop(owns (c : Thread nD τ) arg2 fullShare a ∗ owns (c : Thread nD τ) arg3 fullShare x ∗ owns (c : Thread nD τ) arg7 fullShare s
        ∗ (iprop(owns (c : Thread nD τ) arg2 fullShare a ∗ owns (c : Thread nD τ) arg3 fullShare x
            ∗ owns (c : Thread nD τ) arg7 fullShare (k0_pay2 (View.ld x (rX0 i)) s a)) -∗ K ⟨⟩))
      ⊢ wp frame (wpE (defs₀ (F := F)) Variants.none c none) E (cc0__spmm_w_kernel i arg2 harg2 arg3 harg3 arg4 harg4 arg5 harg5 arg6 harg6 arg7 harg7) K := by
  simp only [cc0__spmm_w_kernel_eq_skeleton]; unfold cc0__spmm_w_kernel_skel
  unfold owns
  iintro ⟨⟨%fa, %hfa, Ha⟩, ⟨%fx, %hfx, Hx⟩, ⟨%fs, %hfs, Hs⟩, Hk⟩
  subst hfa; subst hfx; subst hfs
  sl_exec (disch := first | exact hA | exact hB)
  sl_step
  iapply Hk
  isplitl [Ha]
  · iexists fa; isplitr; · ipureintro; rfl
    iexact Ha
  isplitl [Hx]
  · iexists fx; isplitr; · ipureintro; rfl
    iexact Hx
  iexists _; isplitr
  swap; · iexact Hs
  ipureintro
  -- one store through the whole rectangle leaves its payload; the loads through whole rectangles read the contents
  rw [View.read_writes_eq_canon _ _ _ (fun y => ⟨_, List.mem_singleton_self _, View.mem_set_unit_zero hz2 inb_S2048x64_S2048x64_0_0 y⟩),
    View.canon_unit_zero hz2]
  simp only [View.readAt_eq_ld, View.ld_unit_zero (S := S2048x64) hz2, View.ld_unit_zero (S := S2048x2048) hz2]
  try rfl

set_option maxHeartbeats 1000000 in
/-- The body at a first column block (the first condition holds, the second does not): the partial sum, at anything,
    is reset to the zero block and then takes this block's product; the inputs stay as they were. -/
theorem sound_kernelA0 (c : Dev nD) (E : Set ℕ) (i : grid0.Coords) (hA : condA0 i) (hB : ¬ condB0 i)
    (arg2 : Memref sig .tc .vmem S2048x2048 .bf16) (harg2 : arg2.IsWhole) (arg3 : Memref sig .tc .vmem S8192x64 .bf16) (harg3 : arg3.IsWhole)
    (arg4 : Memref sig .tc .vmem S64x256 .bf16) (harg4 : arg4.IsWhole) (arg5 : Memref sig .tc .vmem S1x256 .f32) (harg5 : arg5.IsWhole)
    (arg6 : Memref sig .tc .vmem S2048x256 .f32) (harg6 : arg6.IsWhole) (arg7 : Memref sig .tc .vmem S2048x64 .f32) (harg7 : arg7.IsWhole)
    (a : Vec F S2048x2048 .bf16) (x : Vec F S8192x64 .bf16) (K : PUnit → sProp 𝕄) :
    iprop(owns (c : Thread nD τ) arg2 fullShare a ∗ owns (c : Thread nD τ) arg3 fullShare x ∗ (∃ s, owns (c : Thread nD τ) arg7 fullShare s)
        ∗ (iprop(owns (c : Thread nD τ) arg2 fullShare a ∗ owns (c : Thread nD τ) arg3 fullShare x
            ∗ owns (c : Thread nD τ) arg7 fullShare (k0_pay2 (View.ld x (rX0 i)) k0_pay1 a)) -∗ K ⟨⟩))
      ⊢ wp frame (wpE (defs₀ (F := F)) Variants.none c none) E (cc0__spmm_w_kernel i arg2 harg2 arg3 harg3 arg4 harg4 arg5 harg5 arg6 harg6 arg7 harg7) K := by
  simp only [cc0__spmm_w_kernel_eq_skeleton]; unfold cc0__spmm_w_kernel_skel
  unfold owns
  iintro ⟨⟨%fa, %hfa, Ha⟩, ⟨%fx, %hfx, Hx⟩, ⟨%s, %fs, -, Hs⟩, Hk⟩
  subst hfa; subst hfx
  sl_exec (disch := first | exact hA | exact hB)
  sl_step
  iapply Hk
  isplitl [Ha]
  · iexists fa; isplitr; · ipureintro; rfl
    iexact Ha
  isplitl [Hx]
  · iexists fx; isplitr; · ipureintro; rfl
    iexact Hx
  iexists _; isplitr
  swap; · iexact Hs
  ipureintro
  -- the later store covers; the load between the two stores reads the zero block the first one left
  sl_unfold_words
  rw [View.read_writes_eq_canon _ _ _ (fun y => ⟨_, List.mem_cons_self, View.mem_set_unit_zero hz2 inb_S2048x64_S2048x64_0_0 y⟩),
    View.canon_cons_unit_zero (S := S2048x64) hz2]
  simp only [View.readAt_eq_ld, View.readCov_unit_zero (S := S2048x64) _ hz2, View.ld_unit_zero (S := S2048x64) hz2,
    View.ld_unit_zero (S := S2048x2048) hz2]
  try rfl

set_option maxHeartbeats 1000000 in
/-- The body at a last column block (the second condition holds, the first does not): the partial sum at `s` takes
    this block's product, and the epilogue stores the dense layer of the finished sum over the whole output block
    (found at anything); the inputs stay as they were. -/
theorem sound_kernelC0 (c : Dev nD) (E : Set ℕ) (i : grid0.Coords) (hA : ¬ condA0 i) (hB : condB0 i)
    (arg2 : Memref sig .tc .vmem S2048x2048 .bf16) (harg2 : arg2.IsWhole) (arg3 : Memref sig .tc .vmem S8192x64 .bf16) (harg3 : arg3.IsWhole)
    (arg4 : Memref sig .tc .vmem S64x256 .bf16) (harg4 : arg4.IsWhole) (arg5 : Memref sig .tc .vmem S1x256 .f32) (harg5 : arg5.IsWhole)
    (arg6 : Memref sig .tc .vmem S2048x256 .f32) (harg6 : arg6.IsWhole) (arg7 : Memref sig .tc .vmem S2048x64 .f32) (harg7 : arg7.IsWhole)
    (a : Vec F S2048x2048 .bf16) (x : Vec F S8192x64 .bf16) (w : Vec F S64x256 .bf16) (b : Vec F S1x256 .f32) (s : Vec F S2048x64 .f32) (K : PUnit → sProp 𝕄) :
    iprop(owns (c : Thread nD τ) arg2 fullShare a ∗ owns (c : Thread nD τ) arg3 fullShare x ∗ owns (c : Thread nD τ) arg4 fullShare w
        ∗ owns (c : Thread nD τ) arg5 fullShare b ∗ (∃ d, owns (c : Thread nD τ) arg6 fullShare d) ∗ owns (c : Thread nD τ) arg7 fullShare s
        ∗ (iprop(owns (c : Thread nD τ) arg2 fullShare a ∗ owns (c : Thread nD τ) arg3 fullShare x ∗ owns (c : Thread nD τ) arg4 fullShare w
            ∗ owns (c : Thread nD τ) arg5 fullShare b
            ∗ owns (c : Thread nD τ) arg6 fullShare (k0_pay3 (k0_pay2 (View.ld x (rX0 i)) s a) w b)
            ∗ owns (c : Thread nD τ) arg7 fullShare (k0_pay2 (View.ld x (rX0 i)) s a)) -∗ K ⟨⟩))
      ⊢ wp frame (wpE (defs₀ (F := F)) Variants.none c none) E (cc0__spmm_w_kernel i arg2 harg2 arg3 harg3 arg4 harg4 arg5 harg5 arg6 harg6 arg7 harg7) K := by
  simp only [cc0__spmm_w_kernel_eq_skeleton]; unfold cc0__spmm_w_kernel_skel
  unfold owns
  iintro ⟨⟨%fa, %hfa, Ha⟩, ⟨%fx, %hfx, Hx⟩, ⟨%fw, %hfw, Hw⟩, ⟨%fb, %hfb, Hb⟩, ⟨%d, %fd, -, Hd⟩, ⟨%fs, %hfs, Hs⟩, Hk⟩
  subst hfa; subst hfx; subst hfw; subst hfb; subst hfs
  sl_exec (disch := first | exact hA | exact hB)
  sl_step
  iapply Hk
  isplitl [Ha]
  · iexists fa; isplitr; · ipureintro; rfl
    iexact Ha
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  isplitl [Hd]
  · iexists _; isplitr
    swap; · iexact Hd
    ipureintro
    -- the epilogue's one store covers the output block; its load of the partial sum reads what the store before left
    sl_unfold_words
    rw [View.read_writes_eq_canon _ _ _ (fun y => ⟨_, List.mem_singleton_self _, View.mem_set_unit_zero hz2 inb_S2048x256_S2048x256_0_0 y⟩),
      View.canon_unit_zero hz2]
    simp only [View.readAt_eq_ld, View.readCov_unit_zero (S := S2048x64) _ hz2, View.ld_unit_zero (S := S2048x64) hz2,
      View.ld_unit_zero (S := S2048x2048) hz2, View.ld_unit_zero (S := S64x256) hz2, View.ld_unit_zero (S := S1x256) hz2]
    try rfl
  iexists _; isplitr
  swap; · iexact Hs
  ipureintro
  sl_unfold_words
  rw [View.read_writes_eq_canon _ _ _ (fun y => ⟨_, List.mem_singleton_self _, View.mem_set_unit_zero hz2 inb_S2048x64_S2048x64_0_0 y⟩),
    View.canon_unit_zero hz2]
  simp only [View.readAt_eq_ld, View.ld_unit_zero (S := S2048x64) hz2, View.ld_unit_zero (S := S2048x2048) hz2]
  try rfl

/-! ## The conditions in closed form over the sixteen points -/

/-- The first condition holds at the first column block of each row block — decided over the grid. -/
theorem hcondA0 : ∀ t : Fin cfg0.N, condA0 (grid0.coords t) ↔ t.val % 4 = 0 :=
  (by decide +kernel : ∀ t : Fin grid0.N, condA0 (grid0.coords t) ↔ t.val % 4 = 0)
/-- The second condition holds at the last column block of each row block — decided over the grid. -/
theorem hcondB0 : ∀ t : Fin cfg0.N, condB0 (grid0.coords t) ↔ t.val % 4 = 3 :=
  (by decide +kernel : ∀ t : Fin grid0.N, condB0 (grid0.coords t) ↔ t.val % 4 = 3)

/-! ## Where the windows are idle -/

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the second condition fails the output window is idle, and the pipeline does not write its block back; -/
theorem idleAt0_4 : ∀ t : Fin cfg0.N, ¬condB0 (grid0.coords t) → cfg0.idle 4 (grid0.coords t) = true := by decide +kernel
theorem noFlush0_4 : ∀ t : Fin cfg0.N, ¬condB0 (grid0.coords t) → (cfg0.win 4).flush t = false := by decide +kernel
/-- where it holds the window is live. -/
theorem liveAt0_4 : ∀ t : Fin cfg0.N, condB0 (grid0.coords t) → cfg0.idle 4 (grid0.coords t) = false := by decide +kernel

/-! ## The class's invariant with the partial-sum buffer set apart -/

/-- The scoped buffers that are no staging buffer are the partial-sum buffer and the rest. -/
theorem PhiA0_eq (c : Dev nD) :
    (Pipeline.ΦA spec0 c : sProp 𝕄)
      = iprop(iprop((∃ d, owns (c : Thread nD τ) scM0 fullShare d) ∗ restS0 c) ∗ (∃ r, prngReg c r)) := by
  unfold Pipeline.ΦA
  rw [Pipeline.scopedRest_split_of_list spec0 c [cc0_scratch0] (by decide) (by decide)]
  simp only [scM0, owns_whole, bigSepL_singleton]; try rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-! ## What the body finds in the input windows -/

/-- An input window's current staging buffer holds its block at every point, fetched there or not: unfetched, the
    block index has not moved and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (fun t => (after0_in V c t).1) t d
theorem before0_1 (c : Dev nD) (t : Fin cfg0.N) (d) : (dat0 V c).before 1 t d = iblk0 V c 1 t :=
  before0_1_of V (dat0 V c) (A_eq0 V c 1) (fun t => (after0_in V c t).2.1) t d
theorem before0_2 (c : Dev nD) (t : Fin cfg0.N) (d) : (dat0 V c).before 2 t d = iblk0 V c 2 t :=
  before0_2_of V (dat0 V c) (A_eq0 V c 2) (fun t => (after0_in V c t).2.2.1) t d
theorem before0_3 (c : Dev nD) (t : Fin cfg0.N) (d) : (dat0 V c).before 3 t d = iblk0 V c 3 t :=
  before0_3_of V (dat0 V c) (A_eq0 V c 3) (fun t => (after0_in V c t).2.2.2) t d

/-- The input windows are left at their blocks. -/
theorem leaves0_0 (c : Dev nD) (t : Fin cfg0.N) :
    (dat0 V c).leavesExact 0 t = owns (c : Thread nD τ) (st0_0 t) fullShare (iblk0 V c 0 t) := by
  unfold Dat.leavesExact; rw [liveAt0_0 t, (after0_in V c t).1]
theorem leaves0_1 (c : Dev nD) (t : Fin cfg0.N) :
    (dat0 V c).leavesExact 1 t = owns (c : Thread nD τ) (st0_1 t) fullShare (iblk0 V c 1 t) := by
  unfold Dat.leavesExact; rw [liveAt0_1 t, (after0_in V c t).2.1]
theorem leaves0_2 (c : Dev nD) (t : Fin cfg0.N) :
    (dat0 V c).leavesExact 2 t = owns (c : Thread nD τ) (st0_2 t) fullShare (iblk0 V c 2 t) := by
  unfold Dat.leavesExact; rw [liveAt0_2 t, (after0_in V c t).2.2.1]
theorem leaves0_3 (c : Dev nD) (t : Fin cfg0.N) :
    (dat0 V c).leavesExact 3 t = owns (c : Thread nD τ) (st0_3 t) fullShare (iblk0 V c 3 t) := by
  unfold Dat.leavesExact; rw [liveAt0_3 t, (after0_in V c t).2.2.2]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The input windows hold their blocks; the position within the row block says which of the
    three cases the point is in. The invariant hands the body the partial-sum buffer — at anything before the first
    point, afterwards at what the point before left — and takes it back at this point's sum; an idle output window
    is handed back as found, a live one at the epilogue's value; the other scoped buffers, the generator register
    and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  by_cases hr : t.val % 4 = 0
  · -- a first column block: the sum restarts
    have hcA : condA0 (grid0.coords t) := (hcondA0 t).mpr hr
    have hcB : ¬condB0 (grid0.coords t) := fun h => by have := (hcondB0 t).mp h; omega
    rw [Dat.leavesExact_idle (dat0 V c) 4 t (idleAt0_4 t hcB) (noFlush0_4 t hcB)]
    rw [acc0_reset V c t hr]; unfold xsl0
    by_cases hz : t.val = 0
    · rw [PhiS0_castSucc V c t, PhiS0_zero V c _ _ hz, PhiA0_eq]
      iintro ⟨⟨⟨Hs, Hrest⟩, Hg⟩, Ho, ⟨%da, Ha⟩, ⟨%dx, Hx⟩, ⟨%dw, Hw⟩, ⟨%db, Hb⟩, Hd⟩
      iapply (sound_kernelA0 c Set.univ (grid0.coords t) hcA hcB _ _ _ _ _ _ _ _ _ _ _ _ (iblk0 V c 0 t) (iblk0 V c 1 t) _)
      isplitl [Ha]; · iexact Ha
      isplitl [Hx]; · iexact Hx
      isplitl [Hs]; · iexact Hs
      iintro ⟨Ha, Hx, Hs⟩
      isplitl [Hs Hrest Hg]
      · isplitl [Hs Hrest]
        · isplitl [Hs]; · iexact Hs
          iexact Hrest
        iexact Hg
      isplitl [Ho]; · iexact Ho
      isplitl [Ha]; · iexact Ha
      isplitl [Hx]; · iexact Hx
      isplitl [Hw]; · iexact Hw
      isplitl [Hb]; · iexact Hb
      iexact Hd
    · rw [PhiS0_castSucc V c t, PhiS0_pos V c _ _ hz]
      iintro ⟨⟨⟨Hs, Hrest⟩, Hg⟩, Ho, ⟨%da, Ha⟩, ⟨%dx, Hx⟩, ⟨%dw, Hw⟩, ⟨%db, Hb⟩, Hd⟩
      iapply (sound_kernelA0 c Set.univ (grid0.coords t) hcA hcB _ _ _ _ _ _ _ _ _ _ _ _ (iblk0 V c 0 t) (iblk0 V c 1 t) _)
      isplitl [Ha]; · iexact Ha
      isplitl [Hx]; · iexact Hx
      isplitl [Hs]; · iexists _; iexact Hs
      iintro ⟨Ha, Hx, Hs⟩
      isplitl [Hs Hrest Hg]
      · isplitl [Hs Hrest]
        · isplitl [Hs]; · iexact Hs
          iexact Hrest
        iexact Hg
      isplitl [Ho]; · iexact Ho
      isplitl [Ha]; · iexact Ha
      isplitl [Hx]; · iexact Hx
      isplitl [Hw]; · iexact Hw
      isplitl [Hb]; · iexact Hb
      iexact Hd
  · have hz : t.val ≠ 0 := fun h => hr (by rw [h])
    have hcA : ¬condA0 (grid0.coords t) := fun h => hr ((hcondA0 t).mp h)
    rw [PhiS0_castSucc V c t, PhiS0_pos V c _ _ hz]
    rw [acc0_step V c t hr]; unfold xsl0
    by_cases hl : t.val % 4 = 3
    · -- a last column block: the sum is finished and the epilogue stores the output block
      have hcB : condB0 (grid0.coords t) := (hcondB0 t).mpr hl
      rw [show (dat0 V c).leavesExact 4 t = owns (c : Thread nD τ) (st0_4 t) fullShare (out0 V c t) from by
        unfold Dat.leavesExact; rw [liveAt0_4 t hcB, after0_4]]
      unfold out0; rw [acc0_step V c t hr]; unfold xsl0
      iintro ⟨⟨⟨Hs, Hrest⟩, Hg⟩, Ho, ⟨%da, Ha⟩, ⟨%dx, Hx⟩, ⟨%dw, Hw⟩, ⟨%db, Hb⟩, ⟨%dd, Hd⟩⟩
      iapply (sound_kernelC0 c Set.univ (grid0.coords t) hcA hcB _ _ _ _ _ _ _ _ _ _ _ _ (iblk0 V c 0 t) (iblk0 V c 1 t) (iblk0 V c 2 t) (iblk0 V c 3 t) _ _)
      isplitl [Ha]; · iexact Ha
      isplitl [Hx]; · iexact Hx
      isplitl [Hw]; · iexact Hw
      isplitl [Hb]; · iexact Hb
      isplitl [Hd]; · iexists _; iexact Hd
      isplitl [Hs]; · iexact Hs
      iintro ⟨Ha, Hx, Hw, Hb, Hd, Hs⟩
      isplitl [Hs Hrest Hg]
      · isplitl [Hs Hrest]
        · isplitl [Hs]; · iexact Hs
          iexact Hrest
        iexact Hg
      isplitl [Ho]; · iexact Ho
      isplitl [Ha]; · iexact Ha
      isplitl [Hx]; · iexact Hx
      isplitl [Hw]; · iexact Hw
      isplitl [Hb]; · iexact Hb
      iexact Hd
    · -- a middle column block: the sum continues
      have hcB : ¬condB0 (grid0.coords t) := fun h => hl ((hcondB0 t).mp h)
      rw [Dat.leavesExact_idle (dat0 V c) 4 t (idleAt0_4 t hcB) (noFlush0_4 t hcB)]
      iintro ⟨⟨⟨Hs, Hrest⟩, Hg⟩, Ho, ⟨%da, Ha⟩, ⟨%dx, Hx⟩, ⟨%dw, Hw⟩, ⟨%db, Hb⟩, Hd⟩
      iapply (sound_kernelB0 c Set.univ (grid0.coords t) hcA hcB _ _ _ _ _ _ _ _ _ _ _ _ (iblk0 V c 0 t) (iblk0 V c 1 t) _ _)
      isplitl [Ha]; · iexact Ha
      isplitl [Hx]; · iexact Hx
      isplitl [Hs]; · iexact Hs
      iintro ⟨Ha, Hx, Hs⟩
      isplitl [Hs Hrest Hg]
      · isplitl [Hs Hrest]
        · isplitl [Hs]; · iexact Hs
          iexact Hrest
        iexact Hg
      isplitl [Ho]; · iexact Ho
      isplitl [Ha]; · iexact Ha
      isplitl [Hx]; · iexact Hx
      isplitl [Hw]; · iexact Hw
      isplitl [Hb]; · iexact Hb
      iexact Hd

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the partial sum's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨Hs, Hrest⟩, Hg⟩
  isplitl [Hs Hrest]
  · isplitl [Hs]; · iexists _; iexact Hs
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Cert.KernelIdeal.Hand

end
-- ==== Proof.KISpmm1.lean ====
import proofs.«414230_j6141803233547_3_alg».proof.Proof.Gen.KernelIdeal.Launch
import proofs.«414230_j6141803233547_3_alg».proof.Proof.Gen.KernelIdeal.Skeleton
import proofs.«414230_j6141803233547_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! # Region 1: the sparse-times-dense product with a dense layer, one row block at a time -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The same blocks at their literal vector types: the adjacency block, the dense operand whole, the layer's
    matrix and its bias. -/
abbrev ablk1 (c : Dev nD) (t : Fin cfg1.N) : Vec F S2048x2048 .bf16 := iblk1 V c 0 t
abbrev xarr1 (c : Dev nD) (t : Fin cfg1.N) : Vec F S8192x256 .bf16 := iblk1 V c 1 t
abbrev wmat1 (c : Dev nD) (t : Fin cfg1.N) : Vec F S256x256 .bf16 := iblk1 V c 2 t
abbrev bias1 (c : Dev nD) (t : Fin cfg1.N) : Vec F S1x256 .f32 := iblk1 V c 3 t

/-- The rows of the dense operand the body loads at point `t`: the rectangle at the printed offsets. -/
def xsl1 (c : Dev nD) (t : Fin cfg1.N) : Vec F S2048x256 .bf16 :=
  View.ld (xarr1 V c t) (Rect.unit (s := S8192x256) (k1_off1 (grid1.coords t)) S2048x256.size (k1_off1_inb (grid1.coords t)))

/-! ## What the body leaves, point by point -/

/-- THE ACCUMULATION: the partial sum after the body at position `n`. At the first column block of a row
    block (`n % 4 = 0`) the sum restarts from the zero block; elsewhere it adds this column block's product to
    what the point before left. -/
def acc1 (c : Dev nD) : (n : ℕ) → n < cfg1.N → Vec F S2048x256 .f32
  | 0, h => k1_pay2 (xsl1 V c ⟨0, h⟩) k1_pay1 (ablk1 V c ⟨0, h⟩)
  | n + 1, h => if (n + 1) % 4 = 0 then k1_pay2 (xsl1 V c ⟨n + 1, h⟩) k1_pay1 (ablk1 V c ⟨n + 1, h⟩)
                else k1_pay2 (xsl1 V c ⟨n + 1, h⟩) (acc1 c n (Nat.lt_of_succ_lt h)) (ablk1 V c ⟨n + 1, h⟩)

/-- At a first column block the sum restarts. -/
theorem acc1_reset (c : Dev nD) (t : Fin cfg1.N) (h : t.val % 4 = 0) :
    acc1 V c t.val t.isLt = k1_pay2 (xsl1 V c t) k1_pay1 (ablk1 V c t) := by
  obtain ⟨n, hn⟩ := t
  cases n with
  | zero => rfl
  | succ n => exact if_pos h

/-- Elsewhere it continues from the point before. -/
theorem acc1_step (c : Dev nD) (t : Fin cfg1.N) (h : t.val % 4 ≠ 0) :
    acc1 V c t.val t.isLt = k1_pay2 (xsl1 V c t) (acc1 V c (t.val - 1) (Nat.lt_of_le_of_lt (Nat.sub_le _ _) t.isLt)) (ablk1 V c t) := by
  obtain ⟨n, hn⟩ := t
  cases n with
  | zero => exact absurd (Nat.zero_mod _) h
  | succ n => exact if_neg h

/-- What the epilogue stores into the output block: the dense layer applied to the finished sum (meaningful at
    the last column block of a row block; elsewhere the window is idle and nothing consults it). -/
def out1 (c : Dev nD) (t : Fin cfg1.N) : Vec F S2048x256 .f32 := k1_pay3 (acc1 V c t.val t.isLt) (wmat1 V c t) (bias1 V c t)

/-! ## The invariant: the carried partial sum -/

/-- The partial-sum buffer, whole. -/
abbrev scM1 : Memref sig .tc .vmem S2048x256 .f32 := Memref.whole cc1_scratch0

/-- The core's scoped buffers other than the staging buffers and the partial-sum buffer, at some contents each. -/
abbrev restS1 (c : Dev nD) : sProp 𝕄 :=
  Pipeline.scopedRestBut (Ix := Unit) (Name := ℕ) (U := UR sig nD τ) (Lvl := ℕ) (Val := Elt F) spec1 c [cc1_scratch0]

/-- The region invariant before position `n`: before the first point every scoped buffer at anything; afterwards
    the partial-sum buffer at what the point before left, the other scoped buffers at anything; the generator
    register at some state throughout. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ restS1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ restS1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ restS1 c) ∗ (∃ r, prngReg c r)) := by
  cases n with
  | zero => exact absurd rfl hz
  | succ n => rfl

/-! ## The pipeline's proof data -/

/-- The proof data of pipeline 1 on core `c`: the arrays as the region finds them; after the body each input's
    buffer at its block and the output's at the epilogue's value; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_in (c : Dev nD) (t : Fin cfg1.N) :
    (dat1 V c).after 0 t = iblk1 V c 0 t ∧ (dat1 V c).after 1 t = iblk1 V c 1 t
      ∧ (dat1 V c).after 2 t = iblk1 V c 2 t ∧ (dat1 V c).after 3 t = iblk1 V c 3 t := by
  refine ⟨?_, ?_, ?_, ?_⟩ <;> dsimp only [dat1]

theorem after1_4 (c : Dev nD) (t : Fin cfg1.N) : (dat1 V c).after 4 t = out1 V c t := by dsimp only [dat1]

theorem owed1 (c : Dev nD) (t) : (dat1 V c).owed t = 0 := rfl
theorem q1 (c : Dev nD) (w) : (dat1 V c).q w = fullShare := rfl

/-! ## The body's branch conditions -/

/-- The first condition of the body (the column-block coordinate is zero), from the grid coordinates. -/
abbrev condA1 (i : grid1.Coords) : Prop :=
  (Scalar.cmpi .ne (Scalar.extui (Scalar.cmpi .eq (BitVec.ofNat 32 (i 1).val) 0#32)) 0#32) = 1#1
/-- The second condition of the body (the column-block coordinate is the last). -/
abbrev condB1 (i : grid1.Coords) : Prop := k1_cond2 i = 1#1

/-- The zero offsets, however spelt. -/
theorem hz2 : (![0, 0] : Fin 2 → ℕ) = fun _ => 0 := by funext a; fin_cases a <;> rfl

/-- The rows of the dense operand the body loads at coordinates `i`. -/
abbrev rX1 (i : grid1.Coords) : Rect S8192x256 := Rect.unit (s := S8192x256) (k1_off1 i) S2048x256.size (k1_off1_inb i)

set_option maxHeartbeats 1000000 in
/-- The body at a middle column block (neither condition holds), on whole memrefs: the adjacency block at `a`,
    the dense operand at `x`, the partial sum at `s`. It leaves the partial sum at `s` plus this block's product
    and the inputs as they were; the other operands are not touched. -/
theorem sound_kernelB1 (c : Dev nD) (E : Set ℕ) (i : grid1.Coords) (hA : ¬ condA1 i) (hB : ¬ condB1 i)
    (arg2 : Memref sig .tc .vmem S2048x2048 .bf16) (harg2 : arg2.IsWhole) (arg3 : Memref sig .tc .vmem S8192x256 .bf16) (harg3 : arg3.IsWhole)
    (arg4 : Memref sig .tc .vmem S256x256 .bf16) (harg4 : arg4.IsWhole) (arg5 : Memref sig .tc .vmem S1x256 .f32) (harg5 : arg5.IsWhole)
    (arg6 : Memref sig .tc .vmem S2048x256 .f32) (harg6 : arg6.IsWhole) (arg7 : Memref sig .tc .vmem S2048x256 .f32) (harg7 : arg7.IsWhole)
    (a : Vec F S2048x2048 .bf16) (x : Vec F S8192x256 .bf16) (s : Vec F S2048x256 .f32) (K : PUnit → sProp 𝕄) :
    iprop(owns (c : Thread nD τ) arg2 fullShare a ∗ owns (c : Thread nD τ) arg3 fullShare x ∗ owns (c : Thread nD τ) arg7 fullShare s
        ∗ (iprop(owns (c : Thread nD τ) arg2 fullShare a ∗ owns (c : Thread nD τ) arg3 fullShare x
            ∗ owns (c : Thread nD τ) arg7 fullShare (k1_pay2 (View.ld x (rX1 i)) s a)) -∗ K ⟨⟩))
      ⊢ wp frame (wpE (defs₀ (F := F)) Variants.none c none) E (cc1__spmm_w_kernel i arg2 harg2 arg3 harg3 arg4 harg4 arg5 harg5 arg6 harg6 arg7 harg7) K := by
  simp only [cc1__spmm_w_kernel_eq_skeleton]; unfold cc1__spmm_w_kernel_skel
  unfold owns
  iintro ⟨⟨%fa, %hfa, Ha⟩, ⟨%fx, %hfx, Hx⟩, ⟨%fs, %hfs, Hs⟩, Hk⟩
  subst hfa; subst hfx; subst hfs
  sl_exec (disch := first | exact hA | exact hB)
  sl_step
  iapply Hk
  isplitl [Ha]
  · iexists fa; isplitr; · ipureintro; rfl
    iexact Ha
  isplitl [Hx]
  · iexists fx; isplitr; · ipureintro; rfl
    iexact Hx
  iexists _; isplitr
  swap; · iexact Hs
  ipureintro
  -- one store through the whole rectangle leaves its payload; the loads through whole rectangles read the contents
  rw [View.read_writes_eq_canon _ _ _ (fun y => ⟨_, List.mem_singleton_self _, View.mem_set_unit_zero hz2 inb_S2048x256_S2048x256_0_0 y⟩),
    View.canon_unit_zero hz2]
  simp only [View.readAt_eq_ld, View.ld_unit_zero (S := S2048x256) hz2, View.ld_unit_zero (S := S2048x2048) hz2]
  try rfl

set_option maxHeartbeats 1000000 in
/-- The body at a first column block (the first condition holds, the second does not): the partial sum, at anything,
    is reset to the zero block and then takes this block's product; the inputs stay as they were. -/
theorem sound_kernelA1 (c : Dev nD) (E : Set ℕ) (i : grid1.Coords) (hA : condA1 i) (hB : ¬ condB1 i)
    (arg2 : Memref sig .tc .vmem S2048x2048 .bf16) (harg2 : arg2.IsWhole) (arg3 : Memref sig .tc .vmem S8192x256 .bf16) (harg3 : arg3.IsWhole)
    (arg4 : Memref sig .tc .vmem S256x256 .bf16) (harg4 : arg4.IsWhole) (arg5 : Memref sig .tc .vmem S1x256 .f32) (harg5 : arg5.IsWhole)
    (arg6 : Memref sig .tc .vmem S2048x256 .f32) (harg6 : arg6.IsWhole) (arg7 : Memref sig .tc .vmem S2048x256 .f32) (harg7 : arg7.IsWhole)
    (a : Vec F S2048x2048 .bf16) (x : Vec F S8192x256 .bf16) (K : PUnit → sProp 𝕄) :
    iprop(owns (c : Thread nD τ) arg2 fullShare a ∗ owns (c : Thread nD τ) arg3 fullShare x ∗ (∃ s, owns (c : Thread nD τ) arg7 fullShare s)
        ∗ (iprop(owns (c : Thread nD τ) arg2 fullShare a ∗ owns (c : Thread nD τ) arg3 fullShare x
            ∗ owns (c : Thread nD τ) arg7 fullShare (k1_pay2 (View.ld x (rX1 i)) k1_pay1 a)) -∗ K ⟨⟩))
      ⊢ wp frame (wpE (defs₀ (F := F)) Variants.none c none) E (cc1__spmm_w_kernel i arg2 harg2 arg3 harg3 arg4 harg4 arg5 harg5 arg6 harg6 arg7 harg7) K := by
  simp only [cc1__spmm_w_kernel_eq_skeleton]; unfold cc1__spmm_w_kernel_skel
  unfold owns
  iintro ⟨⟨%fa, %hfa, Ha⟩, ⟨%fx, %hfx, Hx⟩, ⟨%s, %fs, -, Hs⟩, Hk⟩
  subst hfa; subst hfx
  sl_exec (disch := first | exact hA | exact hB)
  sl_step
  iapply Hk
  isplitl [Ha]
  · iexists fa; isplitr; · ipureintro; rfl
    iexact Ha
  isplitl [Hx]
  · iexists fx; isplitr; · ipureintro; rfl
    iexact Hx
  iexists _; isplitr
  swap; · iexact Hs
  ipureintro
  -- the later store covers; the load between the two stores reads the zero block the first one left
  sl_unfold_words
  rw [View.read_writes_eq_canon _ _ _ (fun y => ⟨_, List.mem_cons_self, View.mem_set_unit_zero hz2 inb_S2048x256_S2048x256_0_0 y⟩),
    View.canon_cons_unit_zero (S := S2048x256) hz2]
  simp only [View.readAt_eq_ld, View.readCov_unit_zero (S := S2048x256) _ hz2, View.ld_unit_zero (S := S2048x256) hz2,
    View.ld_unit_zero (S := S2048x2048) hz2]
  try rfl

set_option maxHeartbeats 1000000 in
/-- The body at a last column block (the second condition holds, the first does not): the partial sum at `s` takes
    this block's product, and the epilogue stores the dense layer of the finished sum over the whole output block
    (found at anything); the inputs stay as they were. -/
theorem sound_kernelC1 (c : Dev nD) (E : Set ℕ) (i : grid1.Coords) (hA : ¬ condA1 i) (hB : condB1 i)
    (arg2 : Memref sig .tc .vmem S2048x2048 .bf16) (harg2 : arg2.IsWhole) (arg3 : Memref sig .tc .vmem S8192x256 .bf16) (harg3 : arg3.IsWhole)
    (arg4 : Memref sig .tc .vmem S256x256 .bf16) (harg4 : arg4.IsWhole) (arg5 : Memref sig .tc .vmem S1x256 .f32) (harg5 : arg5.IsWhole)
    (arg6 : Memref sig .tc .vmem S2048x256 .f32) (harg6 : arg6.IsWhole) (arg7 : Memref sig .tc .vmem S2048x256 .f32) (harg7 : arg7.IsWhole)
    (a : Vec F S2048x2048 .bf16) (x : Vec F S8192x256 .bf16) (w : Vec F S256x256 .bf16) (b : Vec F S1x256 .f32) (s : Vec F S2048x256 .f32) (K : PUnit → sProp 𝕄) :
    iprop(owns (c : Thread nD τ) arg2 fullShare a ∗ owns (c : Thread nD τ) arg3 fullShare x ∗ owns (c : Thread nD τ) arg4 fullShare w
        ∗ owns (c : Thread nD τ) arg5 fullShare b ∗ (∃ d, owns (c : Thread nD τ) arg6 fullShare d) ∗ owns (c : Thread nD τ) arg7 fullShare s
        ∗ (iprop(owns (c : Thread nD τ) arg2 fullShare a ∗ owns (c : Thread nD τ) arg3 fullShare x ∗ owns (c : Thread nD τ) arg4 fullShare w
            ∗ owns (c : Thread nD τ) arg5 fullShare b
            ∗ owns (c : Thread nD τ) arg6 fullShare (k1_pay3 (k1_pay2 (View.ld x (rX1 i)) s a) w b)
            ∗ owns (c : Thread nD τ) arg7 fullShare (k1_pay2 (View.ld x (rX1 i)) s a)) -∗ K ⟨⟩))
      ⊢ wp frame (wpE (defs₀ (F := F)) Variants.none c none) E (cc1__spmm_w_kernel i arg2 harg2 arg3 harg3 arg4 harg4 arg5 harg5 arg6 harg6 arg7 harg7) K := by
  simp only [cc1__spmm_w_kernel_eq_skeleton]; unfold cc1__spmm_w_kernel_skel
  unfold owns
  iintro ⟨⟨%fa, %hfa, Ha⟩, ⟨%fx, %hfx, Hx⟩, ⟨%fw, %hfw, Hw⟩, ⟨%fb, %hfb, Hb⟩, ⟨%d, %fd, -, Hd⟩, ⟨%fs, %hfs, Hs⟩, Hk⟩
  subst hfa; subst hfx; subst hfw; subst hfb; subst hfs
  sl_exec (disch := first | exact hA | exact hB)
  sl_step
  iapply Hk
  isplitl [Ha]
  · iexists fa; isplitr; · ipureintro; rfl
    iexact Ha
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  isplitl [Hd]
  · iexists _; isplitr
    swap; · iexact Hd
    ipureintro
    -- the epilogue's one store covers the output block; its load of the partial sum reads what the store before left
    sl_unfold_words
    rw [View.read_writes_eq_canon _ _ _ (fun y => ⟨_, List.mem_singleton_self _, View.mem_set_unit_zero hz2 inb_S2048x256_S2048x256_0_0 y⟩),
      View.canon_unit_zero hz2]
    simp only [View.readAt_eq_ld, View.readCov_unit_zero (S := S2048x256) _ hz2, View.ld_unit_zero (S := S2048x256) hz2,
      View.ld_unit_zero (S := S2048x2048) hz2, View.ld_unit_zero (S := S256x256) hz2, View.ld_unit_zero (S := S1x256) hz2]
    try rfl
  iexists _; isplitr
  swap; · iexact Hs
  ipureintro
  sl_unfold_words
  rw [View.read_writes_eq_canon _ _ _ (fun y => ⟨_, List.mem_singleton_self _, View.mem_set_unit_zero hz2 inb_S2048x256_S2048x256_0_0 y⟩),
    View.canon_unit_zero hz2]
  simp only [View.readAt_eq_ld, View.ld_unit_zero (S := S2048x256) hz2, View.ld_unit_zero (S := S2048x2048) hz2]
  try rfl

/-! ## The conditions in closed form over the sixteen points -/

/-- The first condition holds at the first column block of each row block — decided over the grid. -/
theorem hcondA1 : ∀ t : Fin cfg1.N, condA1 (grid1.coords t) ↔ t.val % 4 = 0 :=
  (by decide +kernel : ∀ t : Fin grid1.N, condA1 (grid1.coords t) ↔ t.val % 4 = 0)
/-- The second condition holds at the last column block of each row block — decided over the grid. -/
theorem hcondB1 : ∀ t : Fin cfg1.N, condB1 (grid1.coords t) ↔ t.val % 4 = 3 :=
  (by decide +kernel : ∀ t : Fin grid1.N, condB1 (grid1.coords t) ↔ t.val % 4 = 3)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where the second condition fails the output window is idle, and the pipeline does not write its block back; -/
theorem idleAt1_4 : ∀ t : Fin cfg1.N, ¬condB1 (grid1.coords t) → cfg1.idle 4 (grid1.coords t) = true := by decide +kernel
theorem noFlush1_4 : ∀ t : Fin cfg1.N, ¬condB1 (grid1.coords t) → (cfg1.win 4).flush t = false := by decide +kernel
/-- where it holds the window is live. -/
theorem liveAt1_4 : ∀ t : Fin cfg1.N, condB1 (grid1.coords t) → cfg1.idle 4 (grid1.coords t) = false := by decide +kernel

/-! ## The class's invariant with the partial-sum buffer set apart -/

/-- The scoped buffers that are no staging buffer are the partial-sum buffer and the rest. -/
theorem PhiA1_eq (c : Dev nD) :
    (Pipeline.ΦA spec1 c : sProp 𝕄)
      = iprop(iprop((∃ d, owns (c : Thread nD τ) scM1 fullShare d) ∗ restS1 c) ∗ (∃ r, prngReg c r)) := by
  unfold Pipeline.ΦA
  rw [Pipeline.scopedRest_split_of_list spec1 c [cc1_scratch0] (by decide) (by decide)]
  simp only [scM1, owns_whole, bigSepL_singleton]; try rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## What the body finds in the input windows -/

/-- An input window's current staging buffer holds its block at every point, fetched there or not: unfetched, the
    block index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (fun t => (after1_in V c t).1) t d
theorem before1_1 (c : Dev nD) (t : Fin cfg1.N) (d) : (dat1 V c).before 1 t d = iblk1 V c 1 t :=
  before1_1_of V (dat1 V c) (A_eq1 V c 1) (fun t => (after1_in V c t).2.1) t d
theorem before1_2 (c : Dev nD) (t : Fin cfg1.N) (d) : (dat1 V c).before 2 t d = iblk1 V c 2 t :=
  before1_2_of V (dat1 V c) (A_eq1 V c 2) (fun t => (after1_in V c t).2.2.1) t d
theorem before1_3 (c : Dev nD) (t : Fin cfg1.N) (d) : (dat1 V c).before 3 t d = iblk1 V c 3 t :=
  before1_3_of V (dat1 V c) (A_eq1 V c 3) (fun t => (after1_in V c t).2.2.2) t d

/-- The input windows are left at their blocks. -/
theorem leaves1_0 (c : Dev nD) (t : Fin cfg1.N) :
    (dat1 V c).leavesExact 0 t = owns (c : Thread nD τ) (st1_0 t) fullShare (iblk1 V c 0 t) := by
  unfold Dat.leavesExact; rw [liveAt1_0 t, (after1_in V c t).1]
theorem leaves1_1 (c : Dev nD) (t : Fin cfg1.N) :
    (dat1 V c).leavesExact 1 t = owns (c : Thread nD τ) (st1_1 t) fullShare (iblk1 V c 1 t) := by
  unfold Dat.leavesExact; rw [liveAt1_1 t, (after1_in V c t).2.1]
theorem leaves1_2 (c : Dev nD) (t : Fin cfg1.N) :
    (dat1 V c).leavesExact 2 t = owns (c : Thread nD τ) (st1_2 t) fullShare (iblk1 V c 2 t) := by
  unfold Dat.leavesExact; rw [liveAt1_2 t, (after1_in V c t).2.2.1]
theorem leaves1_3 (c : Dev nD) (t : Fin cfg1.N) :
    (dat1 V c).leavesExact 3 t = owns (c : Thread nD τ) (st1_3 t) fullShare (iblk1 V c 3 t) := by
  unfold Dat.leavesExact; rw [liveAt1_3 t, (after1_in V c t).2.2.2]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The input windows hold their blocks; the position within the row block says which of the
    three cases the point is in. The invariant hands the body the partial-sum buffer — at anything before the first
    point, afterwards at what the point before left — and takes it back at this point's sum; an idle output window
    is handed back as found, a live one at the epilogue's value; the other scoped buffers, the generator register
    and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  by_cases hr : t.val % 4 = 0
  · -- a first column block: the sum restarts
    have hcA : condA1 (grid1.coords t) := (hcondA1 t).mpr hr
    have hcB : ¬condB1 (grid1.coords t) := fun h => by have := (hcondB1 t).mp h; omega
    rw [Dat.leavesExact_idle (dat1 V c) 4 t (idleAt1_4 t hcB) (noFlush1_4 t hcB)]
    rw [acc1_reset V c t hr]; unfold xsl1
    by_cases hz : t.val = 0
    · rw [PhiS1_castSucc V c t, PhiS1_zero V c _ _ hz, PhiA1_eq]
      iintro ⟨⟨⟨Hs, Hrest⟩, Hg⟩, Ho, ⟨%da, Ha⟩, ⟨%dx, Hx⟩, ⟨%dw, Hw⟩, ⟨%db, Hb⟩, Hd⟩
      iapply (sound_kernelA1 c Set.univ (grid1.coords t) hcA hcB _ _ _ _ _ _ _ _ _ _ _ _ (iblk1 V c 0 t) (iblk1 V c 1 t) _)
      isplitl [Ha]; · iexact Ha
      isplitl [Hx]; · iexact Hx
      isplitl [Hs]; · iexact Hs
      iintro ⟨Ha, Hx, Hs⟩
      isplitl [Hs Hrest Hg]
      · isplitl [Hs Hrest]
        · isplitl [Hs]; · iexact Hs
          iexact Hrest
        iexact Hg
      isplitl [Ho]; · iexact Ho
      isplitl [Ha]; · iexact Ha
      isplitl [Hx]; · iexact Hx
      isplitl [Hw]; · iexact Hw
      isplitl [Hb]; · iexact Hb
      iexact Hd
    · rw [PhiS1_castSucc V c t, PhiS1_pos V c _ _ hz]
      iintro ⟨⟨⟨Hs, Hrest⟩, Hg⟩, Ho, ⟨%da, Ha⟩, ⟨%dx, Hx⟩, ⟨%dw, Hw⟩, ⟨%db, Hb⟩, Hd⟩
      iapply (sound_kernelA1 c Set.univ (grid1.coords t) hcA hcB _ _ _ _ _ _ _ _ _ _ _ _ (iblk1 V c 0 t) (iblk1 V c 1 t) _)
      isplitl [Ha]; · iexact Ha
      isplitl [Hx]; · iexact Hx
      isplitl [Hs]; · iexists _; iexact Hs
      iintro ⟨Ha, Hx, Hs⟩
      isplitl [Hs Hrest Hg]
      · isplitl [Hs Hrest]
        · isplitl [Hs]; · iexact Hs
          iexact Hrest
        iexact Hg
      isplitl [Ho]; · iexact Ho
      isplitl [Ha]; · iexact Ha
      isplitl [Hx]; · iexact Hx
      isplitl [Hw]; · iexact Hw
      isplitl [Hb]; · iexact Hb
      iexact Hd
  · have hz : t.val ≠ 0 := fun h => hr (by rw [h])
    have hcA : ¬condA1 (grid1.coords t) := fun h => hr ((hcondA1 t).mp h)
    rw [PhiS1_castSucc V c t, PhiS1_pos V c _ _ hz]
    rw [acc1_step V c t hr]; unfold xsl1
    by_cases hl : t.val % 4 = 3
    · -- a last column block: the sum is finished and the epilogue stores the output block
      have hcB : condB1 (grid1.coords t) := (hcondB1 t).mpr hl
      rw [show (dat1 V c).leavesExact 4 t = owns (c : Thread nD τ) (st1_4 t) fullShare (out1 V c t) from by
        unfold Dat.leavesExact; rw [liveAt1_4 t hcB, after1_4]]
      unfold out1; rw [acc1_step V c t hr]; unfold xsl1
      iintro ⟨⟨⟨Hs, Hrest⟩, Hg⟩, Ho, ⟨%da, Ha⟩, ⟨%dx, Hx⟩, ⟨%dw, Hw⟩, ⟨%db, Hb⟩, ⟨%dd, Hd⟩⟩
      iapply (sound_kernelC1 c Set.univ (grid1.coords t) hcA hcB _ _ _ _ _ _ _ _ _ _ _ _ (iblk1 V c 0 t) (iblk1 V c 1 t) (iblk1 V c 2 t) (iblk1 V c 3 t) _ _)
      isplitl [Ha]; · iexact Ha
      isplitl [Hx]; · iexact Hx
      isplitl [Hw]; · iexact Hw
      isplitl [Hb]; · iexact Hb
      isplitl [Hd]; · iexists _; iexact Hd
      isplitl [Hs]; · iexact Hs
      iintro ⟨Ha, Hx, Hw, Hb, Hd, Hs⟩
      isplitl [Hs Hrest Hg]
      · isplitl [Hs Hrest]
        · isplitl [Hs]; · iexact Hs
          iexact Hrest
        iexact Hg
      isplitl [Ho]; · iexact Ho
      isplitl [Ha]; · iexact Ha
      isplitl [Hx]; · iexact Hx
      isplitl [Hw]; · iexact Hw
      isplitl [Hb]; · iexact Hb
      iexact Hd
    · -- a middle column block: the sum continues
      have hcB : ¬condB1 (grid1.coords t) := fun h => hl ((hcondB1 t).mp h)
      rw [Dat.leavesExact_idle (dat1 V c) 4 t (idleAt1_4 t hcB) (noFlush1_4 t hcB)]
      iintro ⟨⟨⟨Hs, Hrest⟩, Hg⟩, Ho, ⟨%da, Ha⟩, ⟨%dx, Hx⟩, ⟨%dw, Hw⟩, ⟨%db, Hb⟩, Hd⟩
      iapply (sound_kernelB1 c Set.univ (grid1.coords t) hcA hcB _ _ _ _ _ _ _ _ _ _ _ _ (iblk1 V c 0 t) (iblk1 V c 1 t) _ _)
      isplitl [Ha]; · iexact Ha
      isplitl [Hx]; · iexact Hx
      isplitl [Hs]; · iexact Hs
      iintro ⟨Ha, Hx, Hs⟩
      isplitl [Hs Hrest Hg]
      · isplitl [Hs Hrest]
        · isplitl [Hs]; · iexact Hs
          iexact Hrest
        iexact Hg
      isplitl [Ho]; · iexact Ho
      isplitl [Ha]; · iexact Ha
      isplitl [Hx]; · iexact Hx
      isplitl [Hw]; · iexact Hw
      isplitl [Hb]; · iexact Hb
      iexact Hd

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the partial sum's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hs, Hrest⟩, Hg⟩
  isplitl [Hs Hrest]
  · isplitl [Hs]; · iexists _; iexact Hs
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.KernelIdeal.Hand

end
-- ==== Proof.KISpmm2.lean ====
import proofs.«414230_j6141803233547_3_alg».proof.Proof.Gen.KernelIdeal.Launch
import proofs.«414230_j6141803233547_3_alg».proof.Proof.Gen.KernelIdeal.Skeleton
import proofs.«414230_j6141803233547_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! # Region 2: the sparse-times-dense product with a dense layer, one row block at a time -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The same blocks at their literal vector types: the adjacency block, the dense operand whole, the layer's
    matrix and its bias. -/
abbrev ablk2 (c : Dev nD) (t : Fin cfg2.N) : Vec F S2048x2048 .bf16 := iblk2 V c 0 t
abbrev xarr2 (c : Dev nD) (t : Fin cfg2.N) : Vec F S8192x64 .bf16 := iblk2 V c 1 t
abbrev wmat2 (c : Dev nD) (t : Fin cfg2.N) : Vec F S64x128 .bf16 := iblk2 V c 2 t
abbrev bias2 (c : Dev nD) (t : Fin cfg2.N) : Vec F S1x128 .f32 := iblk2 V c 3 t

/-- The rows of the dense operand the body loads at point `t`: the rectangle at the printed offsets. -/
def xsl2 (c : Dev nD) (t : Fin cfg2.N) : Vec F S2048x64 .bf16 :=
  View.ld (xarr2 V c t) (Rect.unit (s := S8192x64) (k2_off1 (grid2.coords t)) S2048x64.size (k2_off1_inb (grid2.coords t)))

/-! ## What the body leaves, point by point -/

/-- THE ACCUMULATION: the partial sum after the body at position `n`. At the first column block of a row
    block (`n % 4 = 0`) the sum restarts from the zero block; elsewhere it adds this column block's product to
    what the point before left. -/
def acc2 (c : Dev nD) : (n : ℕ) → n < cfg2.N → Vec F S2048x64 .f32
  | 0, h => k2_pay2 (xsl2 V c ⟨0, h⟩) k2_pay1 (ablk2 V c ⟨0, h⟩)
  | n + 1, h => if (n + 1) % 4 = 0 then k2_pay2 (xsl2 V c ⟨n + 1, h⟩) k2_pay1 (ablk2 V c ⟨n + 1, h⟩)
                else k2_pay2 (xsl2 V c ⟨n + 1, h⟩) (acc2 c n (Nat.lt_of_succ_lt h)) (ablk2 V c ⟨n + 1, h⟩)

/-- At a first column block the sum restarts. -/
theorem acc2_reset (c : Dev nD) (t : Fin cfg2.N) (h : t.val % 4 = 0) :
    acc2 V c t.val t.isLt = k2_pay2 (xsl2 V c t) k2_pay1 (ablk2 V c t) := by
  obtain ⟨n, hn⟩ := t
  cases n with
  | zero => rfl
  | succ n => exact if_pos h

/-- Elsewhere it continues from the point before. -/
theorem acc2_step (c : Dev nD) (t : Fin cfg2.N) (h : t.val % 4 ≠ 0) :
    acc2 V c t.val t.isLt = k2_pay2 (xsl2 V c t) (acc2 V c (t.val - 1) (Nat.lt_of_le_of_lt (Nat.sub_le _ _) t.isLt)) (ablk2 V c t) := by
  obtain ⟨n, hn⟩ := t
  cases n with
  | zero => exact absurd (Nat.zero_mod _) h
  | succ n => exact if_neg h

/-- What the epilogue stores into the output block: the dense layer applied to the finished sum (meaningful at
    the last column block of a row block; elsewhere the window is idle and nothing consults it). -/
def out2 (c : Dev nD) (t : Fin cfg2.N) : Vec F S2048x128 .f32 := k2_pay3 (acc2 V c t.val t.isLt) (wmat2 V c t) (bias2 V c t)

/-! ## The invariant: the carried partial sum -/

/-- The partial-sum buffer, whole. -/
abbrev scM2 : Memref sig .tc .vmem S2048x64 .f32 := Memref.whole cc2_scratch0

/-- The core's scoped buffers other than the staging buffers and the partial-sum buffer, at some contents each. -/
abbrev restS2 (c : Dev nD) : sProp 𝕄 :=
  Pipeline.scopedRestBut (Ix := Unit) (Name := ℕ) (U := UR sig nD τ) (Lvl := ℕ) (Val := Elt F) spec2 c [cc2_scratch0]

/-- The region invariant before position `n`: before the first point every scoped buffer at anything; afterwards
    the partial-sum buffer at what the point before left, the other scoped buffers at anything; the generator
    register at some state throughout. -/
def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ restS2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn) ∗ restS2 c) ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega)) ∗ restS2 c) ∗ (∃ r, prngReg c r)) := by
  cases n with
  | zero => exact absurd rfl hz
  | succ n => rfl

/-! ## The pipeline's proof data -/

/-- The proof data of pipeline 2 on core `c`: the arrays as the region finds them; after the body each input's
    buffer at its block and the output's at the epilogue's value; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_in (c : Dev nD) (t : Fin cfg2.N) :
    (dat2 V c).after 0 t = iblk2 V c 0 t ∧ (dat2 V c).after 1 t = iblk2 V c 1 t
      ∧ (dat2 V c).after 2 t = iblk2 V c 2 t ∧ (dat2 V c).after 3 t = iblk2 V c 3 t := by
  refine ⟨?_, ?_, ?_, ?_⟩ <;> dsimp only [dat2]

theorem after2_4 (c : Dev nD) (t : Fin cfg2.N) : (dat2 V c).after 4 t = out2 V c t := by dsimp only [dat2]

theorem owed2 (c : Dev nD) (t) : (dat2 V c).owed t = 0 := rfl
theorem q2 (c : Dev nD) (w) : (dat2 V c).q w = fullShare := rfl

/-! ## The body's branch conditions -/

/-- The first condition of the body (the column-block coordinate is zero), from the grid coordinates. -/
abbrev condA2 (i : grid2.Coords) : Prop :=
  (Scalar.cmpi .ne (Scalar.extui (Scalar.cmpi .eq (BitVec.ofNat 32 (i 1).val) 0#32)) 0#32) = 1#1
/-- The second condition of the body (the column-block coordinate is the last). -/
abbrev condB2 (i : grid2.Coords) : Prop := k2_cond2 i = 1#1

/-- The zero offsets, however spelt. -/
theorem hz2 : (![0, 0] : Fin 2 → ℕ) = fun _ => 0 := by funext a; fin_cases a <;> rfl

/-- The rows of the dense operand the body loads at coordinates `i`. -/
abbrev rX2 (i : grid2.Coords) : Rect S8192x64 := Rect.unit (s := S8192x64) (k2_off1 i) S2048x64.size (k2_off1_inb i)

set_option maxHeartbeats 1000000 in
/-- The body at a middle column block (neither condition holds), on whole memrefs: the adjacency block at `a`,
    the dense operand at `x`, the partial sum at `s`. It leaves the partial sum at `s` plus this block's product
    and the inputs as they were; the other operands are not touched. -/
theorem sound_kernelB2 (c : Dev nD) (E : Set ℕ) (i : grid2.Coords) (hA : ¬ condA2 i) (hB : ¬ condB2 i)
    (arg2 : Memref sig .tc .vmem S2048x2048 .bf16) (harg2 : arg2.IsWhole) (arg3 : Memref sig .tc .vmem S8192x64 .bf16) (harg3 : arg3.IsWhole)
    (arg4 : Memref sig .tc .vmem S64x128 .bf16) (harg4 : arg4.IsWhole) (arg5 : Memref sig .tc .vmem S1x128 .f32) (harg5 : arg5.IsWhole)
    (arg6 : Memref sig .tc .vmem S2048x128 .f32) (harg6 : arg6.IsWhole) (arg7 : Memref sig .tc .vmem S2048x64 .f32) (harg7 : arg7.IsWhole)
    (a : Vec F S2048x2048 .bf16) (x : Vec F S8192x64 .bf16) (s : Vec F S2048x64 .f32) (K : PUnit → sProp 𝕄) :
    iprop(owns (c : Thread nD τ) arg2 fullShare a ∗ owns (c : Thread nD τ) arg3 fullShare x ∗ owns (c : Thread nD τ) arg7 fullShare s
        ∗ (iprop(owns (c : Thread nD τ) arg2 fullShare a ∗ owns (c : Thread nD τ) arg3 fullShare x
            ∗ owns (c : Thread nD τ) arg7 fullShare (k2_pay2 (View.ld x (rX2 i)) s a)) -∗ K ⟨⟩))
      ⊢ wp frame (wpE (defs₀ (F := F)) Variants.none c none) E (cc2__spmm_w_kernel i arg2 harg2 arg3 harg3 arg4 harg4 arg5 harg5 arg6 harg6 arg7 harg7) K := by
  simp only [cc2__spmm_w_kernel_eq_skeleton]; unfold cc2__spmm_w_kernel_skel
  unfold owns
  iintro ⟨⟨%fa, %hfa, Ha⟩, ⟨%fx, %hfx, Hx⟩, ⟨%fs, %hfs, Hs⟩, Hk⟩
  subst hfa; subst hfx; subst hfs
  sl_exec (disch := first | exact hA | exact hB)
  sl_step
  iapply Hk
  isplitl [Ha]
  · iexists fa; isplitr; · ipureintro; rfl
    iexact Ha
  isplitl [Hx]
  · iexists fx; isplitr; · ipureintro; rfl
    iexact Hx
  iexists _; isplitr
  swap; · iexact Hs
  ipureintro
  -- one store through the whole rectangle leaves its payload; the loads through whole rectangles read the contents
  rw [View.read_writes_eq_canon _ _ _ (fun y => ⟨_, List.mem_singleton_self _, View.mem_set_unit_zero hz2 inb_S2048x64_S2048x64_0_0 y⟩),
    View.canon_unit_zero hz2]
  simp only [View.readAt_eq_ld, View.ld_unit_zero (S := S2048x64) hz2, View.ld_unit_zero (S := S2048x2048) hz2]
  try rfl

set_option maxHeartbeats 1000000 in
/-- The body at a first column block (the first condition holds, the second does not): the partial sum, at anything,
    is reset to the zero block and then takes this block's product; the inputs stay as they were. -/
theorem sound_kernelA2 (c : Dev nD) (E : Set ℕ) (i : grid2.Coords) (hA : condA2 i) (hB : ¬ condB2 i)
    (arg2 : Memref sig .tc .vmem S2048x2048 .bf16) (harg2 : arg2.IsWhole) (arg3 : Memref sig .tc .vmem S8192x64 .bf16) (harg3 : arg3.IsWhole)
    (arg4 : Memref sig .tc .vmem S64x128 .bf16) (harg4 : arg4.IsWhole) (arg5 : Memref sig .tc .vmem S1x128 .f32) (harg5 : arg5.IsWhole)
    (arg6 : Memref sig .tc .vmem S2048x128 .f32) (harg6 : arg6.IsWhole) (arg7 : Memref sig .tc .vmem S2048x64 .f32) (harg7 : arg7.IsWhole)
    (a : Vec F S2048x2048 .bf16) (x : Vec F S8192x64 .bf16) (K : PUnit → sProp 𝕄) :
    iprop(owns (c : Thread nD τ) arg2 fullShare a ∗ owns (c : Thread nD τ) arg3 fullShare x ∗ (∃ s, owns (c : Thread nD τ) arg7 fullShare s)
        ∗ (iprop(owns (c : Thread nD τ) arg2 fullShare a ∗ owns (c : Thread nD τ) arg3 fullShare x
            ∗ owns (c : Thread nD τ) arg7 fullShare (k2_pay2 (View.ld x (rX2 i)) k2_pay1 a)) -∗ K ⟨⟩))
      ⊢ wp frame (wpE (defs₀ (F := F)) Variants.none c none) E (cc2__spmm_w_kernel i arg2 harg2 arg3 harg3 arg4 harg4 arg5 harg5 arg6 harg6 arg7 harg7) K := by
  simp only [cc2__spmm_w_kernel_eq_skeleton]; unfold cc2__spmm_w_kernel_skel
  unfold owns
  iintro ⟨⟨%fa, %hfa, Ha⟩, ⟨%fx, %hfx, Hx⟩, ⟨%s, %fs, -, Hs⟩, Hk⟩
  subst hfa; subst hfx
  sl_exec (disch := first | exact hA | exact hB)
  sl_step
  iapply Hk
  isplitl [Ha]
  · iexists fa; isplitr; · ipureintro; rfl
    iexact Ha
  isplitl [Hx]
  · iexists fx; isplitr; · ipureintro; rfl
    iexact Hx
  iexists _; isplitr
  swap; · iexact Hs
  ipureintro
  -- the later store covers; the load between the two stores reads the zero block the first one left
  sl_unfold_words
  rw [View.read_writes_eq_canon _ _ _ (fun y => ⟨_, List.mem_cons_self, View.mem_set_unit_zero hz2 inb_S2048x64_S2048x64_0_0 y⟩),
    View.canon_cons_unit_zero (S := S2048x64) hz2]
  simp only [View.readAt_eq_ld, View.readCov_unit_zero (S := S2048x64) _ hz2, View.ld_unit_zero (S := S2048x64) hz2,
    View.ld_unit_zero (S := S2048x2048) hz2]
  try rfl

set_option maxHeartbeats 1000000 in
/-- The body at a last column block (the second condition holds, the first does not): the partial sum at `s` takes
    this block's product, and the epilogue stores the dense layer of the finished sum over the whole output block
    (found at anything); the inputs stay as they were. -/
theorem sound_kernelC2 (c : Dev nD) (E : Set ℕ) (i : grid2.Coords) (hA : ¬ condA2 i) (hB : condB2 i)
    (arg2 : Memref sig .tc .vmem S2048x2048 .bf16) (harg2 : arg2.IsWhole) (arg3 : Memref sig .tc .vmem S8192x64 .bf16) (harg3 : arg3.IsWhole)
    (arg4 : Memref sig .tc .vmem S64x128 .bf16) (harg4 : arg4.IsWhole) (arg5 : Memref sig .tc .vmem S1x128 .f32) (harg5 : arg5.IsWhole)
    (arg6 : Memref sig .tc .vmem S2048x128 .f32) (harg6 : arg6.IsWhole) (arg7 : Memref sig .tc .vmem S2048x64 .f32) (harg7 : arg7.IsWhole)
    (a : Vec F S2048x2048 .bf16) (x : Vec F S8192x64 .bf16) (w : Vec F S64x128 .bf16) (b : Vec F S1x128 .f32) (s : Vec F S2048x64 .f32) (K : PUnit → sProp 𝕄) :
    iprop(owns (c : Thread nD τ) arg2 fullShare a ∗ owns (c : Thread nD τ) arg3 fullShare x ∗ owns (c : Thread nD τ) arg4 fullShare w
        ∗ owns (c : Thread nD τ) arg5 fullShare b ∗ (∃ d, owns (c : Thread nD τ) arg6 fullShare d) ∗ owns (c : Thread nD τ) arg7 fullShare s
        ∗ (iprop(owns (c : Thread nD τ) arg2 fullShare a ∗ owns (c : Thread nD τ) arg3 fullShare x ∗ owns (c : Thread nD τ) arg4 fullShare w
            ∗ owns (c : Thread nD τ) arg5 fullShare b
            ∗ owns (c : Thread nD τ) arg6 fullShare (k2_pay3 (k2_pay2 (View.ld x (rX2 i)) s a) w b)
            ∗ owns (c : Thread nD τ) arg7 fullShare (k2_pay2 (View.ld x (rX2 i)) s a)) -∗ K ⟨⟩))
      ⊢ wp frame (wpE (defs₀ (F := F)) Variants.none c none) E (cc2__spmm_w_kernel i arg2 harg2 arg3 harg3 arg4 harg4 arg5 harg5 arg6 harg6 arg7 harg7) K := by
  simp only [cc2__spmm_w_kernel_eq_skeleton]; unfold cc2__spmm_w_kernel_skel
  unfold owns
  iintro ⟨⟨%fa, %hfa, Ha⟩, ⟨%fx, %hfx, Hx⟩, ⟨%fw, %hfw, Hw⟩, ⟨%fb, %hfb, Hb⟩, ⟨%d, %fd, -, Hd⟩, ⟨%fs, %hfs, Hs⟩, Hk⟩
  subst hfa; subst hfx; subst hfw; subst hfb; subst hfs
  sl_exec (disch := first | exact hA | exact hB)
  sl_step
  iapply Hk
  isplitl [Ha]
  · iexists fa; isplitr; · ipureintro; rfl
    iexact Ha
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  isplitl [Hd]
  · iexists _; isplitr
    swap; · iexact Hd
    ipureintro
    -- the epilogue's one store covers the output block; its load of the partial sum reads what the store before left
    sl_unfold_words
    rw [View.read_writes_eq_canon _ _ _ (fun y => ⟨_, List.mem_singleton_self _, View.mem_set_unit_zero hz2 inb_S2048x128_S2048x128_0_0 y⟩),
      View.canon_unit_zero hz2]
    simp only [View.readAt_eq_ld, View.readCov_unit_zero (S := S2048x64) _ hz2, View.ld_unit_zero (S := S2048x64) hz2,
      View.ld_unit_zero (S := S2048x2048) hz2, View.ld_unit_zero (S := S64x128) hz2, View.ld_unit_zero (S := S1x128) hz2]
    try rfl
  iexists _; isplitr
  swap; · iexact Hs
  ipureintro
  sl_unfold_words
  rw [View.read_writes_eq_canon _ _ _ (fun y => ⟨_, List.mem_singleton_self _, View.mem_set_unit_zero hz2 inb_S2048x64_S2048x64_0_0 y⟩),
    View.canon_unit_zero hz2]
  simp only [View.readAt_eq_ld, View.ld_unit_zero (S := S2048x64) hz2, View.ld_unit_zero (S := S2048x2048) hz2]
  try rfl

/-! ## The conditions in closed form over the sixteen points -/

/-- The first condition holds at the first column block of each row block — decided over the grid. -/
theorem hcondA2 : ∀ t : Fin cfg2.N, condA2 (grid2.coords t) ↔ t.val % 4 = 0 :=
  (by decide +kernel : ∀ t : Fin grid2.N, condA2 (grid2.coords t) ↔ t.val % 4 = 0)
/-- The second condition holds at the last column block of each row block — decided over the grid. -/
theorem hcondB2 : ∀ t : Fin cfg2.N, condB2 (grid2.coords t) ↔ t.val % 4 = 3 :=
  (by decide +kernel : ∀ t : Fin grid2.N, condB2 (grid2.coords t) ↔ t.val % 4 = 3)

/-! ## Where the windows are idle -/

/-- The input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Where the second condition fails the output window is idle, and the pipeline does not write its block back; -/
theorem idleAt2_4 : ∀ t : Fin cfg2.N, ¬condB2 (grid2.coords t) → cfg2.idle 4 (grid2.coords t) = true := by decide +kernel
theorem noFlush2_4 : ∀ t : Fin cfg2.N, ¬condB2 (grid2.coords t) → (cfg2.win 4).flush t = false := by decide +kernel
/-- where it holds the window is live. -/
theorem liveAt2_4 : ∀ t : Fin cfg2.N, condB2 (grid2.coords t) → cfg2.idle 4 (grid2.coords t) = false := by decide +kernel

/-! ## The class's invariant with the partial-sum buffer set apart -/

/-- The scoped buffers that are no staging buffer are the partial-sum buffer and the rest. -/
theorem PhiA2_eq (c : Dev nD) :
    (Pipeline.ΦA spec2 c : sProp 𝕄)
      = iprop(iprop((∃ d, owns (c : Thread nD τ) scM2 fullShare d) ∗ restS2 c) ∗ (∃ r, prngReg c r)) := by
  unfold Pipeline.ΦA
  rw [Pipeline.scopedRest_split_of_list spec2 c [cc2_scratch0] (by decide) (by decide)]
  simp only [scM2, owns_whole, bigSepL_singleton]; try rfl

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## What the body finds in the input windows -/

/-- An input window's current staging buffer holds its block at every point, fetched there or not: unfetched, the
    block index has not moved and the body left the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (fun t => (after2_in V c t).1) t d
theorem before2_1 (c : Dev nD) (t : Fin cfg2.N) (d) : (dat2 V c).before 1 t d = iblk2 V c 1 t :=
  before2_1_of V (dat2 V c) (A_eq2 V c 1) (fun t => (after2_in V c t).2.1) t d
theorem before2_2 (c : Dev nD) (t : Fin cfg2.N) (d) : (dat2 V c).before 2 t d = iblk2 V c 2 t :=
  before2_2_of V (dat2 V c) (A_eq2 V c 2) (fun t => (after2_in V c t).2.2.1) t d
theorem before2_3 (c : Dev nD) (t : Fin cfg2.N) (d) : (dat2 V c).before 3 t d = iblk2 V c 3 t :=
  before2_3_of V (dat2 V c) (A_eq2 V c 3) (fun t => (after2_in V c t).2.2.2) t d

/-- The input windows are left at their blocks. -/
theorem leaves2_0 (c : Dev nD) (t : Fin cfg2.N) :
    (dat2 V c).leavesExact 0 t = owns (c : Thread nD τ) (st2_0 t) fullShare (iblk2 V c 0 t) := by
  unfold Dat.leavesExact; rw [liveAt2_0 t, (after2_in V c t).1]
theorem leaves2_1 (c : Dev nD) (t : Fin cfg2.N) :
    (dat2 V c).leavesExact 1 t = owns (c : Thread nD τ) (st2_1 t) fullShare (iblk2 V c 1 t) := by
  unfold Dat.leavesExact; rw [liveAt2_1 t, (after2_in V c t).2.1]
theorem leaves2_2 (c : Dev nD) (t : Fin cfg2.N) :
    (dat2 V c).leavesExact 2 t = owns (c : Thread nD τ) (st2_2 t) fullShare (iblk2 V c 2 t) := by
  unfold Dat.leavesExact; rw [liveAt2_2 t, (after2_in V c t).2.2.1]
theorem leaves2_3 (c : Dev nD) (t : Fin cfg2.N) :
    (dat2 V c).leavesExact 3 t = owns (c : Thread nD τ) (st2_3 t) fullShare (iblk2 V c 3 t) := by
  unfold Dat.leavesExact; rw [liveAt2_3 t, (after2_in V c t).2.2.2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The input windows hold their blocks; the position within the row block says which of the
    three cases the point is in. The invariant hands the body the partial-sum buffer — at anything before the first
    point, afterwards at what the point before left — and takes it back at this point's sum; an idle output window
    is handed back as found, a live one at the epilogue's value; the other scoped buffers, the generator register
    and what the core owes pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3]
  by_cases hr : t.val % 4 = 0
  · -- a first column block: the sum restarts
    have hcA : condA2 (grid2.coords t) := (hcondA2 t).mpr hr
    have hcB : ¬condB2 (grid2.coords t) := fun h => by have := (hcondB2 t).mp h; omega
    rw [Dat.leavesExact_idle (dat2 V c) 4 t (idleAt2_4 t hcB) (noFlush2_4 t hcB)]
    rw [acc2_reset V c t hr]; unfold xsl2
    by_cases hz : t.val = 0
    · rw [PhiS2_castSucc V c t, PhiS2_zero V c _ _ hz, PhiA2_eq]
      iintro ⟨⟨⟨Hs, Hrest⟩, Hg⟩, Ho, ⟨%da, Ha⟩, ⟨%dx, Hx⟩, ⟨%dw, Hw⟩, ⟨%db, Hb⟩, Hd⟩
      iapply (sound_kernelA2 c Set.univ (grid2.coords t) hcA hcB _ _ _ _ _ _ _ _ _ _ _ _ (iblk2 V c 0 t) (iblk2 V c 1 t) _)
      isplitl [Ha]; · iexact Ha
      isplitl [Hx]; · iexact Hx
      isplitl [Hs]; · iexact Hs
      iintro ⟨Ha, Hx, Hs⟩
      isplitl [Hs Hrest Hg]
      · isplitl [Hs Hrest]
        · isplitl [Hs]; · iexact Hs
          iexact Hrest
        iexact Hg
      isplitl [Ho]; · iexact Ho
      isplitl [Ha]; · iexact Ha
      isplitl [Hx]; · iexact Hx
      isplitl [Hw]; · iexact Hw
      isplitl [Hb]; · iexact Hb
      iexact Hd
    · rw [PhiS2_castSucc V c t, PhiS2_pos V c _ _ hz]
      iintro ⟨⟨⟨Hs, Hrest⟩, Hg⟩, Ho, ⟨%da, Ha⟩, ⟨%dx, Hx⟩, ⟨%dw, Hw⟩, ⟨%db, Hb⟩, Hd⟩
      iapply (sound_kernelA2 c Set.univ (grid2.coords t) hcA hcB _ _ _ _ _ _ _ _ _ _ _ _ (iblk2 V c 0 t) (iblk2 V c 1 t) _)
      isplitl [Ha]; · iexact Ha
      isplitl [Hx]; · iexact Hx
      isplitl [Hs]; · iexists _; iexact Hs
      iintro ⟨Ha, Hx, Hs⟩
      isplitl [Hs Hrest Hg]
      · isplitl [Hs Hrest]
        · isplitl [Hs]; · iexact Hs
          iexact Hrest
        iexact Hg
      isplitl [Ho]; · iexact Ho
      isplitl [Ha]; · iexact Ha
      isplitl [Hx]; · iexact Hx
      isplitl [Hw]; · iexact Hw
      isplitl [Hb]; · iexact Hb
      iexact Hd
  · have hz : t.val ≠ 0 := fun h => hr (by rw [h])
    have hcA : ¬condA2 (grid2.coords t) := fun h => hr ((hcondA2 t).mp h)
    rw [PhiS2_castSucc V c t, PhiS2_pos V c _ _ hz]
    rw [acc2_step V c t hr]; unfold xsl2
    by_cases hl : t.val % 4 = 3
    · -- a last column block: the sum is finished and the epilogue stores the output block
      have hcB : condB2 (grid2.coords t) := (hcondB2 t).mpr hl
      rw [show (dat2 V c).leavesExact 4 t = owns (c : Thread nD τ) (st2_4 t) fullShare (out2 V c t) from by
        unfold Dat.leavesExact; rw [liveAt2_4 t hcB, after2_4]]
      unfold out2; rw [acc2_step V c t hr]; unfold xsl2
      iintro ⟨⟨⟨Hs, Hrest⟩, Hg⟩, Ho, ⟨%da, Ha⟩, ⟨%dx, Hx⟩, ⟨%dw, Hw⟩, ⟨%db, Hb⟩, ⟨%dd, Hd⟩⟩
      iapply (sound_kernelC2 c Set.univ (grid2.coords t) hcA hcB _ _ _ _ _ _ _ _ _ _ _ _ (iblk2 V c 0 t) (iblk2 V c 1 t) (iblk2 V c 2 t) (iblk2 V c 3 t) _ _)
      isplitl [Ha]; · iexact Ha
      isplitl [Hx]; · iexact Hx
      isplitl [Hw]; · iexact Hw
      isplitl [Hb]; · iexact Hb
      isplitl [Hd]; · iexists _; iexact Hd
      isplitl [Hs]; · iexact Hs
      iintro ⟨Ha, Hx, Hw, Hb, Hd, Hs⟩
      isplitl [Hs Hrest Hg]
      · isplitl [Hs Hrest]
        · isplitl [Hs]; · iexact Hs
          iexact Hrest
        iexact Hg
      isplitl [Ho]; · iexact Ho
      isplitl [Ha]; · iexact Ha
      isplitl [Hx]; · iexact Hx
      isplitl [Hw]; · iexact Hw
      isplitl [Hb]; · iexact Hb
      iexact Hd
    · -- a middle column block: the sum continues
      have hcB : ¬condB2 (grid2.coords t) := fun h => hl ((hcondB2 t).mp h)
      rw [Dat.leavesExact_idle (dat2 V c) 4 t (idleAt2_4 t hcB) (noFlush2_4 t hcB)]
      iintro ⟨⟨⟨Hs, Hrest⟩, Hg⟩, Ho, ⟨%da, Ha⟩, ⟨%dx, Hx⟩, ⟨%dw, Hw⟩, ⟨%db, Hb⟩, Hd⟩
      iapply (sound_kernelB2 c Set.univ (grid2.coords t) hcA hcB _ _ _ _ _ _ _ _ _ _ _ _ (iblk2 V c 0 t) (iblk2 V c 1 t) _ _)
      isplitl [Ha]; · iexact Ha
      isplitl [Hx]; · iexact Hx
      isplitl [Hs]; · iexact Hs
      iintro ⟨Ha, Hx, Hs⟩
      isplitl [Hs Hrest Hg]
      · isplitl [Hs Hrest]
        · isplitl [Hs]; · iexact Hs
          iexact Hrest
        iexact Hg
      isplitl [Ho]; · iexact Ho
      isplitl [Ha]; · iexact Ha
      isplitl [Hx]; · iexact Hx
      isplitl [Hw]; · iexact Hw
      isplitl [Hb]; · iexact Hb
      iexact Hd

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the partial sum's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨Hs, Hrest⟩, Hg⟩
  isplitl [Hs Hrest]
  · isplitl [Hs]; · iexists _; iexact Hs
    iexact Hrest
  iexact Hg

/-- The same after the last point. -/
theorem hout2 (c : Dev nD) : (dat2 V c).Φ (Fin.last cfg2.N) ⊢ Pipeline.ΦA spec2 c :=
  Phi_out2 V c _ (by rw [Fin.val_last]; have : cfg2.N = 16 := N_2; omega)

end Cert.KernelIdeal.Hand

end
-- ==== Proof.KIOuter3.lean ====
import proofs.«414230_j6141803233547_3_alg».proof.Proof.Gen.KernelIdeal.Launch
import proofs.«414230_j6141803233547_3_alg».proof.Proof.Gen.KernelIdeal.Skeleton
import proofs.«414230_j6141803233547_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter of everything below
variable (V : (c : Dev nD) → (b : Ref sig .tc) → Buf (Elt F) ((c : Thread nD τ).loc b))

/-! # Region 3: the outer-product kernel (pipeline 3), at the entry contents `V` -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left factor's block of rows at point `t`. -/
abbrev lblk3 (c : Dev nD) (t : Fin cfg3.N) : Vec F S2048x64 .f32 := iblk3 V c 0 t
/-- The right factor's block of rows at point `t`. -/
abbrev rblk3 (c : Dev nD) (t : Fin cfg3.N) : Vec F S512x64 .f32 := iblk3 V c 1 t

/-- An input window's current staging buffer holds its block at every point, fetched there or not, for any proof
    data whose array is `V`'s and whose body leaves the block in place: an unfetched point has not moved the block
    index, the windows are uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each a whole rectangle -/

abbrev r3_0 : Rect S2048x64 := Rect.unit (s := S2048x64) ![0, 0] S2048x64.size inb_S2048x64_S2048x64_0_0
abbrev r3_1 : Rect S512x64 := Rect.unit (s := S512x64) ![0, 0] S512x64.size inb_S512x64_S512x64_0_0
abbrev r3_2 : Rect S2048x512 := Rect.unit (s := S2048x512) ![0, 0] S2048x512.size inb_S2048x512_S2048x512_0_0

/-- The output block after the body, from the two input blocks: its one whole-block store as a piece. -/
def out3_of (x0 : Vec F S2048x64 .f32) (x1 : Vec F S512x64 .f32) : Vec F S2048x512 .f32 :=
  View.canon [⟨r3_2, k3_pay1 (View.ld x0 r3_0) (View.ld x1 r3_1)⟩]

/-- The zero offsets, however spelt. -/
theorem zeroOffsets3 : (![0, 0] : Fin 2 → Nat) = fun _ => 0 := by
  funext a; match a with | ⟨0, _⟩ => rfl | ⟨1, _⟩ => rfl

/-- A load through the whole rectangle is the vector; one store through it leaves the payload. -/
theorem out3_of_eq (x0 : Vec F S2048x64 .f32) (x1 : Vec F S512x64 .f32) : out3_of x0 x1 = k3_pay1 x0 x1 := by
  unfold out3_of
  rw [View.canon_unit_zero (S := S2048x512) zeroOffsets3, View.ld_unit_zero (S := S2048x64) zeroOffsets3, View.ld_unit_zero (S := S512x64) zeroOffsets3]

/-- The one store covers the block. -/
theorem cover3_2 (p0 : Vec F S2048x512 .f32) (y : S2048x512.Idx) :
    ∃ pc ∈ ([⟨r3_2, p0⟩] : List (View.Piece (Elt F) S2048x512 .f32)), y ∈ pc.1.set :=
  View.cover_of_tiled [⟨r3_2, p0⟩] S2048x512.size (by rfl) y

/-- what the body stores into the output block at point t -/
def out3 (c : Dev nD) (t : Fin cfg3.N) : Vec F S2048x512 .f32 := out3_of (lblk3 V c t) (rblk3 V c t)

theorem out3_eq (c : Dev nD) (t : Fin cfg3.N) : out3 V c t = k3_pay1 (lblk3 V c t) (rblk3 V c t) := by
  unfold out3; exact out3_of_eq _ _

/-! ## The body's triple -/

set_option maxHeartbeats 1000000 in
/-- The body on whole staging memrefs, the inputs' at contents `x0`, `x1` and the output's at anything, runs to the
    continuation holding the inputs' as they were and the output's at `out3_of x0 x1`. -/
theorem sound_kernel3 (c : Dev nD) (E : Set ℕ) (i : grid3.Coords) (arg0 : Memref sig .tc .vmem S2048x64 .f32) (harg0 : arg0.IsWhole)
    (arg1 : Memref sig .tc .vmem S512x64 .f32) (harg1 : arg1.IsWhole) (arg2 : Memref sig .tc .vmem S2048x512 .f32) (harg2 : arg2.IsWhole)
    (x0 : Vec F S2048x64 .f32) (x1 : Vec F S512x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out3_of x0 x1)) -∗ K ⟨⟩))
      ⊢ wp frame (wpE (defs₀ (F := F)) Variants.none c none) E (cc3__outer_kernel i arg0 harg0 arg1 harg1 arg2 harg2) K := by
  simp only [cc3__outer_kernel_eq_skeleton]; unfold cc3__outer_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them; after the body at point `t` each
    input's buffer at its block and the output's at `out3`; the invariant the scoped rest and the generator register,
    untouched; nothing owed; the array the two input windows share held by halves, the left half at window 0 and
    the right half at window 1. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 V c t
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]

theorem after3_in (c : Dev nD) (t : Fin cfg3.N) : (dat3 V c).after 0 t = iblk3 V c 0 t ∧ (dat3 V c).after 1 t = iblk3 V c 1 t :=
  ⟨after3_0 V c t, after3_1 V c t⟩

theorem after3_2 (c : Dev nD) (t : Fin cfg3.N) : (dat3 V c).after 2 t = out3 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem hin3 (c : Dev nD) : Pipeline.ΦA spec3 c ⊢ (dat3 V c).Φ 0 := .rfl

theorem hout3 (c : Dev nD) : (dat3 V c).Φ (Fin.last cfg3.N) ⊢ Pipeline.ΦA spec3 c := .rfl

theorem owed3 (c : Dev nD) (t) : (dat3 V c).owed t = 0 := rfl

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The arrays among the core's unscoped buffers -/

/-- The distinct buffers behind the windows' arrays: the array the two input windows share, and the output's. -/
theorem arrImage3 : Finset.univ.image (Pipeline.arrRef spec3) = [main_v106, main_v107].toFinset := by decide

/-- Those buffers, each whole at the full share, one by one. -/
theorem arrBufs3_eq (c : Dev nD) (V' : (b : Ref sig .tc) → Buf (Elt F) ((c : Thread nD τ).loc b)) :
    (Pipeline.arrBufs spec3 c V' : sProp 𝕄)
      = iprop((((c : Thread nD τ).loc main_v106) ↦{fullShare} V' main_v106) ∗ (((c : Thread nD τ).loc main_v107) ↦{fullShare} V' main_v107)) := by
  unfold Pipeline.arrBufs
  exact bigSep_eq_bigSepL_of_eq [main_v106, main_v107] arrImage3 (by decide) _

theorem share3_0 (c : Dev nD) : (dat3 V c).share 0 = fullShare.left := rfl
theorem share3_1 (c : Dev nD) : (dat3 V c).share 1 = fullShare.right := rfl
theorem share3_2 (c : Dev nD) : (dat3 V c).share 2 = fullShare := rfl

/-- The proof data's arrays, window by window: the shared array's left half, its right half, the output array whole. -/
theorem arrays3_eq (c : Dev nD) (G : (w : Fin cfg3.W) → Buf (Elt F) ((cfg3.win w).arr.view.loc (c.tc : Thread nD τ))) :
    ((dat3 V c).arrays G : sProp 𝕄)
      = iprop((((c : Thread nD τ).loc main_v106) ↦{fullShare.left} G 0) ∗ (((c : Thread nD τ).loc main_v106) ↦{fullShare.right} G 1)
          ∗ (((c : Thread nD τ).loc main_v107) ↦{fullShare} G 2)) := by
  unfold Dat.arrays
  rw [bigSep_W3, share3_0, share3_1, share3_2, (arr_whole3 0).set_eq_univ, (arr_whole3 2).set_eq_univ]

/-- ENTRY: the core's unscoped buffers at `V` are the pipeline's arrays at their entry contents, the shared
    array's full share dealt by halves to its two windows, beside the unscoped rest. -/
theorem entry3 (c : Dev nD) : (unscopedBufs c (V c) : sProp 𝕄) ⊢ iprop((dat3 V c).arrays ((dat3 V c).arrAt · 0) ∗ Pipeline.unscopedRest spec3 c (V c)) := by
  have h : (unscopedBufs c (V c) : sProp 𝕄) = iprop(Pipeline.arrBufs spec3 c (V c) ∗ Pipeline.unscopedRest spec3 c (V c)) :=
    Pipeline.unscopedBufs_split₀ cfgs 3 winFacts₀3.arr_unscoped c (V c)
  rw [h, arrBufs3_eq, arrays3_eq]
  refine sep_mono ?_ .rfl
  exact (sep_mono (pointsTo_share (PosShare.mem_left_op_right fullShare)).1 .rfl).trans sep_assoc.1

/-- EXIT: the arrays at their final contents, the two halves of the shared array joined again, beside the rest are
    the unscoped buffers at any contents that hold the final contents at the arrays and `V` elsewhere. -/
theorem exit3 (c : Dev nD) (V' : (b : Ref sig .tc) → Buf (Elt F) ((c : Thread nD τ).loc b))
    (hF : ∀ w, (dat3 V c).arrAt w cfg3.N = V' (Pipeline.arrRef spec3 w))
    (hrest : ∀ b, b ∉ Finset.univ.image (Pipeline.arrRef spec3) → V' b = V c b) :
    iprop((dat3 V c).arrays ((dat3 V c).arrAt · cfg3.N) ∗ Pipeline.unscopedRest spec3 c (V c)) ⊢ (unscopedBufs c V' : sProp 𝕄) := by
  have h : (unscopedBufs c V' : sProp 𝕄) = iprop(Pipeline.arrBufs spec3 c V' ∗ Pipeline.unscopedRest spec3 c V') :=
    Pipeline.unscopedBufs_split₀ cfgs 3 winFacts₀3.arr_unscoped c V'
  rw [h, arrBufs3_eq, arrays3_eq]
  refine sep_mono ?_ (Entails.of_eq ?_)
  · rw [hF 0, hF 1, hF 2]
    exact sep_assoc.2.trans (sep_mono (pointsTo_share (PosShare.mem_left_op_right fullShare)).2 .rfl)
  · unfold Pipeline.unscopedRest
    exact bigSep_congr fun b hb => by rw [hrest b (Finset.mem_sdiff.mp hb).2]

end Cert.KernelIdeal.Hand

end
-- ==== Proof.KIRun.lean ====
import proofs.«414230_j6141803233547_3_alg».proof.Proof.Gen.KernelIdeal.Launch
import proofs.«414230_j6141803233547_3_alg».proof.Proof.Gen.KernelIdeal.Skeleton
import proofs.«414230_j6141803233547_3_alg».proof.Proof.Gen.KernelIdeal.Points
import proofs.«414230_j6141803233547_3_alg».proof.Proof.Gen.KernelIdeal.Regions
import proofs.«414230_j6141803233547_3_alg».proof.Proof.KISpmm0
import proofs.«414230_j6141803233547_3_alg».proof.Proof.KISpmm1
import proofs.«414230_j6141803233547_3_alg».proof.Proof.KISpmm2
import proofs.«414230_j6141803233547_3_alg».proof.Proof.KIOuter3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # A kernel region over the thread state of the run, for any program -/

section Generic

variable {nD : Nat} {τ : Topo} {sig : RefSig} {Val : EltTy → Type} {U : Type} [URA U]
variable {Λ₀ : Idealize.SL.Sem.Labels} {P : Type} [Fintype P]

local notation "𝕄g" => MT nD τ sig Unit Val ℕ U ℕ

/-- What rides beside the buffers through every item: the core's generator register at some state and its dues, at
    nothing. -/
abbrev runR (c : Dev nD) : sProp 𝕄g := iprop((∃ r, prngReg c r) ∗ ∃ W, owes (c : Thread nD τ) (0 : CellTallies nD τ sig Unit) W)

/-- A core owing nothing owes what the proof data state before a point where they state nothing owed and do not bound the
    recorded pairs. -/
theorem run_owesAt_of_zero {cfg : Cfg sig Λ₀} {c : Dev nD} (dat : Dat τ Val Unit ℕ U ℕ cfg c) (t : Fin (cfg.N + 1))
    (ho : dat.owed t = 0) (hr : dat.recorded t = Set.univ) :
    (iprop(∃ W, owes (c : Thread nD τ) (0 : CellTallies nD τ sig Unit) W) : sProp 𝕄g) ⊢ dat.owesAt () t := by
  unfold Pipeline.Dat.owesAt Pipeline.owesWithin Pipeline.Dat.bound
  rw [ho, hr]
  iintro ⟨%W, HO⟩; iexists W; isplitr; · ipureintro; exact fun _ _ => Or.inl trivial
  iexact HO

/-- … and conversely, forgetting the bound. -/
theorem run_zero_of_owesAt {cfg : Cfg sig Λ₀} {c : Dev nD} (dat : Dat τ Val Unit ℕ U ℕ cfg c) (t : Fin (cfg.N + 1))
    (ho : dat.owed t = 0) :
    dat.owesAt () t ⊢ (iprop(∃ W, owes (c : Thread nD τ) (0 : CellTallies nD τ sig Unit) W) : sProp 𝕄g) := by
  unfold Pipeline.Dat.owesAt Pipeline.owesWithin
  rw [ho]
  iintro ⟨%W, -, HO⟩; iexists W; iexact HO

/-- A KERNEL REGION over the thread state "every unscoped buffer at a boundary's contents, the generator register at
    some state, nothing owed": entered from the contents `Vin`, left at `Vout`. Its arrays are split out of the
    unscoped buffers (`hsplit`) and put back at the exit contents (`hjoin`); the generator register and the scoped
    buffers no window stages make the invariant before the first point (`hΦin`) and come back from the one after the last
    (`hΦout`); nothing owed; no semaphore of the kernel's own; no prefetched table (`hnopre`). -/
def runRegionOf (pcs : P → Pipeline.PCfg sig Λ₀ Val) (a : (p : P) → (pcs p).Adm)
    (pdats : (p : P) → (c : Dev nD) → Dat τ Val Unit ℕ U ℕ (Pipeline.pin pcs a p) c)
    (defs₀ : Defs nD τ sig Val Λ₀) (L : GSem nD τ sig → Finset Unit) (lv : GSem nD τ sig → Unit → ℕ) (p : P)
    (win : Pipeline.WinFacts₀ (pcs p).spec)
    (block_pos : ∀ w : Fin (Pipeline.pin pcs a p).W, 0 < ((Pipeline.pin pcs a p).spec w).block.numel)
    (stage_whole : ∀ (w : Fin (Pipeline.pin pcs a p).W) (s : Fin ((Pipeline.pin pcs a p).spec w).nbuf), (((Pipeline.pin pcs a p).spec w).stage s).IsWhole)
    (hbody : ∀ c, Pipeline.BodyObligationLoose (pdats p c) defs₀ Variants.none () Set.univ)
    (howed : ∀ c t, (pdats p c).owed t = 0)
    (hrec : ∀ c, (pdats p c).recorded 0 = Set.univ)
    (hnopre : ∀ c, (BI.emp : sProp 𝕄g) ⊢ Pipeline.prefHeld (pcs p).pre c (fun _ => fullShare) (a p).1)
    (Vin Vout : Dev nD → Valuation τ sig Val)
    (hsplit : ∀ c, (unscopedBufs c (fun b => Vin c b) : sProp 𝕄g)
      ⊢ iprop((pdats p c).arrays ((pdats p c).arrAt · 0) ∗ Pipeline.unscopedRest (Pipeline.pin pcs a p).spec c (fun b => Vin c b)))
    (hjoin : ∀ c, iprop((pdats p c).arrays ((pdats p c).arrAt · (Pipeline.pin pcs a p).N) ∗ Pipeline.unscopedRest (Pipeline.pin pcs a p).spec c (fun b => Vin c b))
      ⊢ (unscopedBufs c (fun b => Vout c b) : sProp 𝕄g))
    (hΦin : ∀ c, (Pipeline.ΦA (Pipeline.pin pcs a p).spec c : sProp 𝕄g) ⊢ (pdats p c).Φ 0)
    (hΦout : ∀ c, (pdats p c).Φ (Fin.last (Pipeline.pin pcs a p).N) ⊢ (Pipeline.ΦA (Pipeline.pin pcs a p).spec c : sProp 𝕄g)) :
    Pipeline.RegionSeg pcs a pdats () defs₀ Variants.none L lv p where
  win := win
  block_pos := block_pos
  stage_whole := stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Vin c) ∗ runR c)
  post c := iprop(StableHlo.held (c : Thread nD τ) (Pipeline.ucRefs τ sig) (Vout c) ∗ runR c)
  X c := iprop(∃ r, prngReg c r)
  Y c := iprop(∃ r, prngReg c r)
  Z c := Pipeline.unscopedRest (Ix := Unit) (Name := ℕ) (U := U) (Lvl := ℕ) (Pipeline.pin pcs a p).spec c (fun b => Vin c b)
  hentry c := by
    rw [Pipeline.ownSems0_none]
    have hs := hsplit c
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · iapply (hnopre c); iempintro
    isplitl [HO]; · iapply (run_owesAt_of_zero (pdats p c) 0 (howed c 0) (hrec c)); iexact HO
    isplitl [Hp]; · iexact Hp
    iexact Hrest
  hin c := by
    refine BIBase.Entails.trans ?_ (hΦin c)
    unfold Pipeline.ΦA
    iintro ⟨Hp, -, Hr⟩
    isplitl [Hr]; · iexact Hr
    iexact Hp
  hout c := by
    rw [Pipeline.ownSems0_none]
    refine BIBase.Entails.trans (hΦout c) ?_
    unfold Pipeline.ΦA
    iintro ⟨Hr, Hp⟩
    isplitl [Hp]; · iexact Hp
    isplitr; · iempintro
    iexact Hr
  hexit c := by
    have hj := hjoin c
    rw [Pipeline.unscopedBufs_held] at hj
    iintro ⟨Ha, HO, HY, Hrest⟩
    imodintro
    isplitl [Ha Hrest]
    · iapply hj; isplitl [Ha] <;> iassumption
    isplitl [HY]; · iexact HY
    iapply (run_zero_of_owesAt (pdats p c) (Fin.last _) (howed c _)); iexact HO

/-- The rest state holds the core's dues at nothing. -/
theorem run_hE4g (c : Dev nD) : (runR c : sProp 𝕄g) ⊢ (iprop(∃ W, owes (c : Thread nD τ) (0 : CellTallies nD τ sig Unit) W) : sProp 𝕄g) := by
  iintro ⟨-, HO⟩; iexact HO

/-- What the launch deals a core beside its buffers makes the rest state: the generator register at its launch state,
    the dues at nothing. -/
theorem run_hE0g (L : GSem nD τ sig → Finset Unit) (lv : GSem nD τ sig → Unit → ℕ) (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄g))) ∗ levAts L lv)
      ⊢ (|={Set.univ}=> bigSep Finset.univ (fun c : Dev nD => (runR c : sProp 𝕄g)) : sProp 𝕄g) := by
  refine Pipeline.initEach L lv fun c => ?_
  iintro ⟨⟨-, HO, -, Hp, -⟩, -⟩
  imodintro
  isplitl [Hp]; · iexists _; iexact Hp
  iexists ∅; iexact HO

/-- The launch on every core at once: the unscoped buffers held at the launch memory, the generator register at its launch
    state, the dues at nothing. -/
theorem run_hinitg (L : GSem nD τ sig → Finset Unit) (lv : GSem nD τ sig → Unit → ℕ)
    (m : (ℓ : Loc nD τ sig) → Buf Val ℓ) (ρ : Dev nD → PrngReg) :
    iprop((bigSep Finset.univ fun c : Dev nD => iprop(unscopedBufs c (fun b => m ((c.tc : Thread nD τ).loc b)) ∗ unscopedSems0 c
        ∗ owes (c.tc : Thread nD τ) ((0 : Dev nD → CellTallies nD τ sig Unit) c) ∅
        ∗ Pipeline.launchCred (0 : Dev nD → CellTallies nD τ sig Unit) c ∗ prngReg c (ρ c) ∗ (BI.emp : sProp 𝕄g))) ∗ levAts L lv)
      ⊢ (|={Set.univ}=> bigSep Finset.univ (fun c : Dev nD =>
          iprop(StableHlo.held (c : Thread nD τ) (Pipeline.ucRefs τ sig) (fun b => m (c, b)) ∗ (runR c : sProp 𝕄g))) : sProp 𝕄g) := by
  refine Pipeline.initEach L lv fun c => ?_
  rw [show unscopedBufs c (fun b => m ((c : Thread nD τ).loc b)) = StableHlo.held (c : Thread nD τ) (Pipeline.ucRefs τ sig) (fun b => m (c, b))
    from Pipeline.unscopedBufs_held c (fun b => m (c, b))]
  iintro ⟨⟨Hh, -, HO, -, Hp, -⟩, -⟩
  imodintro
  isplitl [Hh]; · iexact Hh
  isplitl [Hp]; · iexists _; iexact Hp
  iexists ∅; iexact HO

section Launch
variable {P' : Type} [Fintype P'] [DecidableEq P']
local notation "𝕄r" => MT nD τ sig Unit Val ℕ (UR sig nD τ) ℕ
/-- The launch element yields the pipeline library's element; no ghost resource of the certificate's own. -/
theorem run_hu₀g (cfgs : P' → Cfg sig Λ₀) (phinj : Function.Injective (cellOf (nD := nD) (τ := τ) cfgs)) :
    (ownU (initOf (Pipeline.cells cfgs phinj) (Pipeline.launchToks cfgs phinj)) : sProp 𝕄r)
    ⊢ |={Set.univ}=> iprop(BI.own (emb₁ (initOf (Pipeline.cells cfgs phinj) (Pipeline.launchToks cfgs phinj))) ∗ bigSep Finset.univ fun _ : Dev nD => (BI.emp : sProp 𝕄r)) := by
  iintro Hu; imodintro
  isplitl [Hu]
  · iapply (show (ownU (initOf (Pipeline.cells cfgs phinj) (Pipeline.launchToks cfgs phinj)) : sProp 𝕄r)
        ⊢ BI.own (emb₁ (initOf (Pipeline.cells cfgs phinj) (Pipeline.launchToks cfgs phinj))) from .rfl)
    iexact Hu
  iapply (show (BI.emp : sProp 𝕄r) ⊢ bigSep Finset.univ (fun _ : Dev nD => (BI.emp : sProp 𝕄r)) from by rw [BI.bigSep_emp_const])
  iempintro
end Launch

end Generic

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What the four regions leave, in stages

A region's entry contents are the launch memory pushed through the host stretches and the EARLIER regions' outputs, so
the contents a region leaves are defined region by region: each stage knows the outputs of the regions before it. -/

/-- Region 0 is entered from the launch memory after the first five host stretches. -/
abbrev VE0 : (c : Dev nD) → (b : Ref sig .tc) → Buf (Elt F) ((c : Thread nD τ).loc b) := fun c b => Gen.V5 m c b

/-- What region 0 leaves in its output array: its points' write-backs folded over the array as entered. -/
def o53 (c : Dev nD) : Buf (Elt F) ((c : Thread nD τ).loc main_v53) := (dat0 (VE0 m) c).arrAt 4 cfg0.N

/-- Stage 1: region 0's output known, nothing else changed. -/
def outs1 : Gen.Outs (F := F) := fun _ r c => Function.update (Gen.V0 m c) main_v53 (o53 m c) r

/-- What region 1 leaves in its output array, entered from the contents stage 1 gives. -/
def o65 (c : Dev nD) : Buf (Elt F) ((c : Thread nD τ).loc main_v65) :=
  (dat1 (fun c b => Gen.V11 m (outs1 m) c b) c).arrAt 4 cfg1.N

/-- Stage 2: the outputs of regions 0 and 1. -/
def outs2 : Gen.Outs (F := F) := fun J r c =>
  if J = 6 then outs1 m J r c else Function.update (Gen.V0 m c) main_v65 (o65 m c) r

/-- What region 2 leaves in its output array, entered from the contents stage 2 gives. -/
def o104 (c : Dev nD) : Buf (Elt F) ((c : Thread nD τ).loc main_v104) :=
  (dat2 (fun c b => Gen.V17 m (outs2 m) c b) c).arrAt 4 cfg2.N

/-- Stage 3: the outputs of regions 0, 1 and 2. -/
def outs3 : Gen.Outs (F := F) := fun J r c =>
  if J = 6 ∨ J = 12 then outs2 m J r c else Function.update (Gen.V0 m c) main_v104 (o104 m c) r

/-- What region 3 leaves in its output array, entered from the contents stage 3 gives. -/
def o107 (c : Dev nD) : Buf (Elt F) ((c : Thread nD τ).loc main_v107) :=
  (dat3 (fun c b => Gen.V19 m (outs3 m) c b) c).arrAt 2 cfg3.N

/-- The contents the regions leave: after item 5 region 0's output, after item 11 region 1's, after item 17 region 2's,
    after item 19 region 3's. -/
def outs : Gen.Outs (F := F) := fun J r c =>
  if J = 6 ∨ J = 12 ∨ J = 18 then outs3 m J r c else Function.update (Gen.V0 m c) main_v107 (o107 m c) r

/-- The buffers' contents at the return. -/
abbrev Vfin (c : Dev nD) : Valuation τ sig (Elt F) := Gen.V20 m (outs m) c

/-! ## The stages agree where an earlier region's output is read -/

theorem outs_6 (c : Dev nD) : outs m 6 main_v53 c = o53 m c := by
  unfold outs outs3 outs2 outs1
  rw [if_pos (Or.inl rfl), if_pos (Or.inl rfl), if_pos rfl]
  exact Function.update_self _ _ _
theorem outs1_6 (c : Dev nD) : outs1 m 6 main_v53 c = o53 m c := by
  unfold outs1; exact Function.update_self _ _ _
theorem outs2_6 (c : Dev nD) : outs2 m 6 main_v53 c = o53 m c := by
  unfold outs2 outs1; rw [if_pos rfl]; exact Function.update_self _ _ _
theorem outs3_6 (c : Dev nD) : outs3 m 6 main_v53 c = o53 m c := by
  unfold outs3 outs2 outs1; rw [if_pos (Or.inl rfl), if_pos rfl]; exact Function.update_self _ _ _
theorem outs_12 (c : Dev nD) : outs m 12 main_v65 c = o65 m c := by
  unfold outs outs3 outs2
  rw [if_pos (Or.inr (Or.inl rfl)), if_pos (Or.inr rfl), if_neg (by decide)]
  exact Function.update_self _ _ _
theorem outs2_12 (c : Dev nD) : outs2 m 12 main_v65 c = o65 m c := by
  unfold outs2; rw [if_neg (by decide)]; exact Function.update_self _ _ _
theorem outs3_12 (c : Dev nD) : outs3 m 12 main_v65 c = o65 m c := by
  unfold outs3 outs2; rw [if_pos (Or.inr rfl), if_neg (by decide)]; exact Function.update_self _ _ _
theorem outs_18 (c : Dev nD) : outs m 18 main_v104 c = o104 m c := by
  unfold outs outs3
  rw [if_pos (Or.inr (Or.inr rfl)), if_neg (by decide)]
  exact Function.update_self _ _ _
theorem outs3_18 (c : Dev nD) : outs3 m 18 main_v104 c = o104 m c := by
  unfold outs3; rw [if_neg (by decide)]; exact Function.update_self _ _ _
theorem outs_20 (c : Dev nD) : outs m 20 main_v107 c = o107 m c := by
  unfold outs; rw [if_neg (by decide)]; exact Function.update_self _ _ _

/-- The contents before region 1 read of the regions' outputs only region 0's. -/
theorem V11_congr (o o' : Gen.Outs (F := F)) (c : Dev nD) (h6 : o 6 main_v53 c = o' 6 main_v53 c) :
    Gen.V11 m o c = Gen.V11 m o' c := by
  unfold Gen.V11 Gen.V10 Gen.V9 Gen.V8 Gen.V7 Gen.V6; rw [h6]
/-- The contents before region 2 read of the regions' outputs only those of regions 0 and 1. -/
theorem V17_congr (o o' : Gen.Outs (F := F)) (c : Dev nD) (h6 : o 6 main_v53 c = o' 6 main_v53 c)
    (h12 : o 12 main_v65 c = o' 12 main_v65 c) : Gen.V17 m o c = Gen.V17 m o' c := by
  unfold Gen.V17 Gen.V16 Gen.V15 Gen.V14 Gen.V13 Gen.V12; rw [h12, V11_congr m o o' c h6]
/-- The contents before region 3 read of the regions' outputs only those of regions 0, 1 and 2. -/
theorem V19_congr (o o' : Gen.Outs (F := F)) (c : Dev nD) (h6 : o 6 main_v53 c = o' 6 main_v53 c)
    (h12 : o 12 main_v65 c = o' 12 main_v65 c) (h18 : o 18 main_v104 c = o' 18 main_v104 c) :
    Gen.V19 m o c = Gen.V19 m o' c := by
  unfold Gen.V19 Gen.V18; rw [h18, V17_congr m o o' c h6 h12]

/-- Region 1's entry contents are the same over the last stage as over stage 1. -/
theorem VE1_eq : (fun (c : Dev nD) (b : Ref sig .tc) => Gen.V11 m (outs m) c b)
    = fun (c : Dev nD) (b : Ref sig .tc) => Gen.V11 m (outs1 m) c b := by
  funext c b; exact congrFun (V11_congr m (outs m) (outs1 m) c ((outs_6 m c).trans (outs1_6 m c).symm)) _
/-- Region 2's entry contents are the same over the last stage as over stage 2. -/
theorem VE2_eq : (fun (c : Dev nD) (b : Ref sig .tc) => Gen.V17 m (outs m) c b)
    = fun (c : Dev nD) (b : Ref sig .tc) => Gen.V17 m (outs2 m) c b := by
  funext c b
  exact congrFun (V17_congr m (outs m) (outs2 m) c ((outs_6 m c).trans (outs2_6 m c).symm) ((outs_12 m c).trans (outs2_12 m c).symm)) _
/-- Region 3's entry contents are the same over the last stage as over stage 3. -/
theorem VE3_eq : (fun (c : Dev nD) (b : Ref sig .tc) => Gen.V19 m (outs m) c b)
    = fun (c : Dev nD) (b : Ref sig .tc) => Gen.V19 m (outs3 m) c b := by
  funext c b
  exact congrFun (V19_congr m (outs m) (outs3 m) c ((outs_6 m c).trans (outs3_6 m c).symm) ((outs_12 m c).trans (outs3_12 m c).symm)
    ((outs_18 m c).trans (outs3_18 m c).symm)) _

theorem outs_53 (c : Dev nD) : outs m 6 main_v53 c = (dat0 (fun c b => Gen.V5 m c b) c).arrAt 4 cfg0.N := outs_6 m c
theorem outs_65 (c : Dev nD) : outs m 12 main_v65 c = (dat1 (fun c b => Gen.V11 m (outs m) c b) c).arrAt 4 cfg1.N := by
  rw [VE1_eq m]; exact outs_12 m c
theorem outs_104 (c : Dev nD) : outs m 18 main_v104 c = (dat2 (fun c b => Gen.V17 m (outs m) c b) c).arrAt 4 cfg2.N := by
  rw [VE2_eq m]; exact outs_18 m c
theorem outs_107 (c : Dev nD) : outs m 20 main_v107 c = (dat3 (fun c b => Gen.V19 m (outs m) c b) c).arrAt 2 cfg3.N := by
  rw [VE3_eq m]; exact outs_20 m c

/-! # The regions' entry contents and the proof data -/

/-- Region 1 is entered from the contents before item 11. -/
abbrev VE1 : (c : Dev nD) → (b : Ref sig .tc) → Buf (Elt F) ((c : Thread nD τ).loc b) := fun c b => Gen.V11 m (outs m) c b
/-- Region 2 is entered from the contents before item 17. -/
abbrev VE2 : (c : Dev nD) → (b : Ref sig .tc) → Buf (Elt F) ((c : Thread nD τ).loc b) := fun c b => Gen.V17 m (outs m) c b
/-- Region 3 is entered from the contents before item 19. -/
abbrev VE3 : (c : Dev nD) → (b : Ref sig .tc) → Buf (Elt F) ((c : Thread nD τ).loc b) := fun c b => Gen.V19 m (outs m) c b

set_option maxHeartbeats 800000

/-- At region 0's exit each of its arrays holds what its pipeline leaves: an input array what it held at entry (never
    written back), the output array the folded write-backs. -/
theorem hF0 (c : Dev nD) : ∀ w : Fin 5, (dat0 (VE0 m) c).arrAt w cfg0.N = (fun b : Ref sig .tc => Gen.V6 m (outs m) c b) (Pipeline.arrRef spec0 w)
  | 0 => ((dat0 (VE0 m) c).arrAt_in 0 rfl _).trans ((A_eq0 (VE0 m) c 0).trans (Gen.V6_of m (outs m) c main_v45 (by decide)).symm)
  | 1 => ((dat0 (VE0 m) c).arrAt_in 1 rfl _).trans ((A_eq0 (VE0 m) c 1).trans (Gen.V6_of m (outs m) c main_v50 (by decide)).symm)
  | 2 => ((dat0 (VE0 m) c).arrAt_in 2 rfl _).trans ((A_eq0 (VE0 m) c 2).trans (Gen.V6_of m (outs m) c main_v51 (by decide)).symm)
  | 3 => ((dat0 (VE0 m) c).arrAt_in 3 rfl _).trans ((A_eq0 (VE0 m) c 3).trans (Gen.V6_of m (outs m) c main_v52 (by decide)).symm)
  | 4 => ((Function.update_self (Proc.devRef (τ := τ) .tc main_v53) (outs m 6 main_v53 c) (Gen.V5 m c)).trans (outs_53 m c)).symm
  | ⟨_ + 5, h⟩ => absurd h (Nat.not_lt.2 (Nat.le_add_left _ _))
/-- … and every buffer that is none of its arrays what it held at entry. -/
theorem hrest0 (c : Dev nD) (b : Ref sig .tc) (hb : b ∉ Finset.univ.image (Pipeline.arrRef spec0)) :
    (fun b : Ref sig .tc => Gen.V6 m (outs m) c b) b = VE0 m c b :=
  Gen.V6_of m (outs m) c b fun h => hb (Finset.mem_image.mpr ⟨4, Finset.mem_univ _, (List.mem_singleton.mp h).symm⟩)

/-- At region 1's exit each of its arrays holds what its pipeline leaves: an input array what it held at entry (never
    written back), the output array the folded write-backs. -/
theorem hF1 (c : Dev nD) : ∀ w : Fin 5, (dat1 (VE1 m) c).arrAt w cfg1.N = (fun b : Ref sig .tc => Gen.V12 m (outs m) c b) (Pipeline.arrRef spec1 w)
  | 0 => ((dat1 (VE1 m) c).arrAt_in 0 rfl _).trans ((A_eq1 (VE1 m) c 0).trans (Gen.V12_of m (outs m) c main_v45 (by decide)).symm)
  | 1 => ((dat1 (VE1 m) c).arrAt_in 1 rfl _).trans ((A_eq1 (VE1 m) c 1).trans (Gen.V12_of m (outs m) c main_v62 (by decide)).symm)
  | 2 => ((dat1 (VE1 m) c).arrAt_in 2 rfl _).trans ((A_eq1 (VE1 m) c 2).trans (Gen.V12_of m (outs m) c main_v63 (by decide)).symm)
  | 3 => ((dat1 (VE1 m) c).arrAt_in 3 rfl _).trans ((A_eq1 (VE1 m) c 3).trans (Gen.V12_of m (outs m) c main_v64 (by decide)).symm)
  | 4 => ((Function.update_self (Proc.devRef (τ := τ) .tc main_v65) (outs m 12 main_v65 c) (Gen.V11 m (outs m) c)).trans (outs_65 m c)).symm
  | ⟨_ + 5, h⟩ => absurd h (Nat.not_lt.2 (Nat.le_add_left _ _))
/-- … and every buffer that is none of its arrays what it held at entry. -/
theorem hrest1 (c : Dev nD) (b : Ref sig .tc) (hb : b ∉ Finset.univ.image (Pipeline.arrRef spec1)) :
    (fun b : Ref sig .tc => Gen.V12 m (outs m) c b) b = VE1 m c b :=
  Gen.V12_of m (outs m) c b fun h => hb (Finset.mem_image.mpr ⟨4, Finset.mem_univ _, (List.mem_singleton.mp h).symm⟩)

/-- At region 2's exit each of its arrays holds what its pipeline leaves: an input array what it held at entry (never
    written back), the output array the folded write-backs. -/
theorem hF2 (c : Dev nD) : ∀ w : Fin 5, (dat2 (VE2 m) c).arrAt w cfg2.N = (fun b : Ref sig .tc => Gen.V18 m (outs m) c b) (Pipeline.arrRef spec2 w)
  | 0 => ((dat2 (VE2 m) c).arrAt_in 0 rfl _).trans ((A_eq2 (VE2 m) c 0).trans (Gen.V18_of m (outs m) c main_v45 (by decide)).symm)
  | 1 => ((dat2 (VE2 m) c).arrAt_in 1 rfl _).trans ((A_eq2 (VE2 m) c 1).trans (Gen.V18_of m (outs m) c main_v101 (by decide)).symm)
  | 2 => ((dat2 (VE2 m) c).arrAt_in 2 rfl _).trans ((A_eq2 (VE2 m) c 2).trans (Gen.V18_of m (outs m) c main_v102 (by decide)).symm)
  | 3 => ((dat2 (VE2 m) c).arrAt_in 3 rfl _).trans ((A_eq2 (VE2 m) c 3).trans (Gen.V18_of m (outs m) c main_v103 (by decide)).symm)
  | 4 => ((Function.update_self (Proc.devRef (τ := τ) .tc main_v104) (outs m 18 main_v104 c) (Gen.V17 m (outs m) c)).trans (outs_104 m c)).symm
  | ⟨_ + 5, h⟩ => absurd h (Nat.not_lt.2 (Nat.le_add_left _ _))
/-- … and every buffer that is none of its arrays what it held at entry. -/
theorem hrest2 (c : Dev nD) (b : Ref sig .tc) (hb : b ∉ Finset.univ.image (Pipeline.arrRef spec2)) :
    (fun b : Ref sig .tc => Gen.V18 m (outs m) c b) b = VE2 m c b :=
  Gen.V18_of m (outs m) c b fun h => hb (Finset.mem_image.mpr ⟨4, Finset.mem_univ _, (List.mem_singleton.mp h).symm⟩)

/-- At region 3's exit each of its arrays holds what its pipeline leaves: an input array what it held at entry (never
    written back), the output array the folded write-backs. -/
theorem hF3 (c : Dev nD) : ∀ w : Fin 3, (dat3 (VE3 m) c).arrAt w cfg3.N = (fun b : Ref sig .tc => Gen.V20 m (outs m) c b) (Pipeline.arrRef spec3 w)
  | 0 => ((dat3 (VE3 m) c).arrAt_in 0 rfl _).trans ((A_eq3 (VE3 m) c 0).trans (Gen.V20_of m (outs m) c main_v106 (by decide)).symm)
  | 1 => ((dat3 (VE3 m) c).arrAt_in 1 rfl _).trans ((A_eq3 (VE3 m) c 1).trans (Gen.V20_of m (outs m) c main_v106 (by decide)).symm)
  | 2 => ((Function.update_self (Proc.devRef (τ := τ) .tc main_v107) (outs m 20 main_v107 c) (Gen.V19 m (outs m) c)).trans (outs_107 m c)).symm
  | ⟨_ + 3, h⟩ => absurd h (Nat.not_lt.2 (Nat.le_add_left _ _))
/-- … and every buffer that is none of its arrays what it held at entry. -/
theorem hrest3 (c : Dev nD) (b : Ref sig .tc) (hb : b ∉ Finset.univ.image (Pipeline.arrRef spec3)) :
    (fun b : Ref sig .tc => Gen.V20 m (outs m) c b) b = VE3 m c b :=
  Gen.V20_of m (outs m) c b fun h => hb (Finset.mem_image.mpr ⟨2, Finset.mem_univ _, (List.mem_singleton.mp h).symm⟩)

/-- Every pipeline's proof data, each at its region's entry contents — a literal match, so that the family at a numeral
    reduces to the region's own data. -/
def pdats : (p : Fin 4) → (c : Dev nD) → Dat τ (Elt F) Unit ℕ (UR sig nD τ) ℕ (Pipeline.pin (pcfgs (F := F)) Gen.adm p) c
  | ⟨0, _⟩ => fun c => dat0 (VE0 m) c
  | ⟨1, _⟩ => fun c => dat1 (VE1 m) c
  | ⟨2, _⟩ => fun c => dat2 (VE2 m) c
  | ⟨3, _⟩ => fun c => dat3 (VE3 m) c

/-- No core owes another anything: no level is assigned. -/
abbrev runL : GSem nD τ sig → Finset Unit := fun _ => ∅
abbrev runLv : GSem nD τ sig → Unit → ℕ := fun _ _ => 0
/-- The rest state between any two items. -/
abbrev runE : Fin 5 → Dev nD → sProp 𝕄 := fun _ c => runR c

/-- No pipeline has a prefetched table: none is held. -/
theorem run_nopre (p : Fin 4) (c : Dev nD) :
    (BI.emp : sProp 𝕄) ⊢ Pipeline.prefHeld (pcfgs (F := F) p).pre c (fun _ => fullShare) (Gen.adm (F := F) p).1 := by
  unfold Pipeline.prefHeld; rw [show (Finset.univ : Finset (Fin 0)) = ∅ from rfl, BI.bigSep_empty]

set_option backward.isDefEq.respectTransparency.types false in
/-- REGION 0: entered from every unscoped buffer at the contents before it, left at the contents after it — its arrays at
    what its pipeline leaves, every other buffer as entered. -/
def reg0 : Pipeline.RegionSeg (pcfgs (F := F)) Gen.adm (pdats m) () defs₀ Variants.none runL runLv 0 :=
  runRegionOf (pcfgs (F := F)) Gen.adm (pdats m) defs₀ runL runLv 0 Gen.launch0.win.to₀ Gen.launch0.block_pos Gen.launch0.stage_whole
    (fun c => (body_obligation0 (VE0 m) c).loose) (fun c t => owed0 (VE0 m) c t) (fun c => rfl) (run_nopre 0)
    (Gen.V5 m) (Gen.V6 m (outs m))
    (fun c => Pipeline.arrays_of_unscopedBufs (p := 0) (pcfgs (F := F)) Gen.adm (pdats m) Gen.launch0.win Gen.launch0.arr_whole c
      ((pdats m 0 c).share_full (q0 (VE0 m) c)) (VE0 m c) (A_eq0 (VE0 m) c))
    (fun c => Pipeline.unscopedBufs_of_arrays (p := 0) (pcfgs (F := F)) Gen.adm (Ix := Unit) (Name := ℕ) (U := UR sig nD τ) (Lvl := ℕ)
      Gen.launch0.win Gen.launch0.arr_whole c (pdats m) ((pdats m 0 c).share_full (q0 (VE0 m) c))
      (VE0 m c) (fun b : Ref sig .tc => Gen.V6 m (outs m) c b) ((pdats m 0 c).arrAt · cfg0.N) (hF0 m c) (hrest0 m c))
    (fun c => hin0 (VE0 m) c) (fun c => hout0 (VE0 m) c)

set_option backward.isDefEq.respectTransparency.types false in
/-- REGION 1: entered from every unscoped buffer at the contents before it, left at the contents after it — its arrays at
    what its pipeline leaves, every other buffer as entered. -/
def reg1 : Pipeline.RegionSeg (pcfgs (F := F)) Gen.adm (pdats m) () defs₀ Variants.none runL runLv 1 :=
  runRegionOf (pcfgs (F := F)) Gen.adm (pdats m) defs₀ runL runLv 1 Gen.launch1.win.to₀ Gen.launch1.block_pos Gen.launch1.stage_whole
    (fun c => (body_obligation1 (VE1 m) c).loose) (fun c t => owed1 (VE1 m) c t) (fun c => rfl) (run_nopre 1)
    (Gen.V11 m (outs m)) (Gen.V12 m (outs m))
    (fun c => Pipeline.arrays_of_unscopedBufs (p := 1) (pcfgs (F := F)) Gen.adm (pdats m) Gen.launch1.win Gen.launch1.arr_whole c
      ((pdats m 1 c).share_full (q1 (VE1 m) c)) (VE1 m c) (A_eq1 (VE1 m) c))
    (fun c => Pipeline.unscopedBufs_of_arrays (p := 1) (pcfgs (F := F)) Gen.adm (Ix := Unit) (Name := ℕ) (U := UR sig nD τ) (Lvl := ℕ)
      Gen.launch1.win Gen.launch1.arr_whole c (pdats m) ((pdats m 1 c).share_full (q1 (VE1 m) c))
      (VE1 m c) (fun b : Ref sig .tc => Gen.V12 m (outs m) c b) ((pdats m 1 c).arrAt · cfg1.N) (hF1 m c) (hrest1 m c))
    (fun c => hin1 (VE1 m) c) (fun c => hout1 (VE1 m) c)

set_option backward.isDefEq.respectTransparency.types false in
/-- REGION 2: entered from every unscoped buffer at the contents before it, left at the contents after it — its arrays at
    what its pipeline leaves, every other buffer as entered. -/
def reg2 : Pipeline.RegionSeg (pcfgs (F := F)) Gen.adm (pdats m) () defs₀ Variants.none runL runLv 2 :=
  runRegionOf (pcfgs (F := F)) Gen.adm (pdats m) defs₀ runL runLv 2 Gen.launch2.win.to₀ Gen.launch2.block_pos Gen.launch2.stage_whole
    (fun c => (body_obligation2 (VE2 m) c).loose) (fun c t => owed2 (VE2 m) c t) (fun c => rfl) (run_nopre 2)
    (Gen.V17 m (outs m)) (Gen.V18 m (outs m))
    (fun c => Pipeline.arrays_of_unscopedBufs (p := 2) (pcfgs (F := F)) Gen.adm (pdats m) Gen.launch2.win Gen.launch2.arr_whole c
      ((pdats m 2 c).share_full (q2 (VE2 m) c)) (VE2 m c) (A_eq2 (VE2 m) c))
    (fun c => Pipeline.unscopedBufs_of_arrays (p := 2) (pcfgs (F := F)) Gen.adm (Ix := Unit) (Name := ℕ) (U := UR sig nD τ) (Lvl := ℕ)
      Gen.launch2.win Gen.launch2.arr_whole c (pdats m) ((pdats m 2 c).share_full (q2 (VE2 m) c))
      (VE2 m c) (fun b : Ref sig .tc => Gen.V18 m (outs m) c b) ((pdats m 2 c).arrAt · cfg2.N) (hF2 m c) (hrest2 m c))
    (fun c => hin2 (VE2 m) c) (fun c => hout2 (VE2 m) c)

set_option backward.isDefEq.respectTransparency.types false in
/-- REGION 3: entered from every unscoped buffer at the contents before it, left at the contents after it — its arrays at
    what its pipeline leaves, every other buffer as entered. -/
def reg3 : Pipeline.RegionSeg (pcfgs (F := F)) Gen.adm (pdats m) () defs₀ Variants.none runL runLv 3 :=
  runRegionOf (pcfgs (F := F)) Gen.adm (pdats m) defs₀ runL runLv 3 Gen.winFacts₀3 Gen.block_pos3 Gen.stage_whole3
    (fun c => (body_obligation3 (VE3 m) c).loose) (fun c t => owed3 (VE3 m) c t) (fun c => rfl) (run_nopre 3)
    (Gen.V19 m (outs m)) (Gen.V20 m (outs m))
    (fun c => entry3 (VE3 m) c)
    (fun c => exit3 (VE3 m) c (fun b : Ref sig .tc => Gen.V20 m (outs m) c b) (hF3 m c) (hrest3 m c))
    (fun c => hin3 (VE3 m) c) (fun c => hout3 (VE3 m) c)

/-! # The launch -/

/-- The launch element yields the pipeline library's element; no ghost resource of the certificate's own. -/
theorem run_hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) :=
  run_hu₀g cfgs cellOf_inj

/-- What the launch deals a core beside its buffers makes the rest state: the generator register at its launch state,
    the dues at nothing. -/
theorem run_hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts runL runLv)
      ⊢ (|={Set.univ}=> bigSep Finset.univ (runE (F := F) 0) : sProp 𝕄) :=
  run_hE0g runL runLv ρ

/-- The rest state holds the core's dues at nothing. -/
theorem run_hE4 (c : Dev nD) : runE (F := F) 4 c ⊢ (iprop(∃ W, owes (c : Thread nD τ) (0 : CellTallies nD τ sig Unit) W) : sProp 𝕄) :=
  run_hE4g c

set_option backward.isDefEq.respectTransparency.types false in
/-- THE RUN: every weakly fair execution of @main terminates, nothing faulting, and every unscoped buffer ends at the last
    boundary's contents: the several-region kit over @main's items, the last thread state read against the final state. -/
theorem run_all : θ_run defs (onTc (τ := τ) (main (F := F))) ⟨m, fun _ => 0, ρ⟩
    (fun r => ∀ c : Dev nD, ∀ b ∈ Pipeline.ucRefs τ sig, r.2.mem ((c : Thread nD τ).1, b) = Vfin m c b) := by
  refine Pipeline.θ_run_regions_kit_dev (pcfgs (F := F)) Gen.adm (pdats m) () cellOf_inj emb₁ defs₀ Variants.none runL runLv m ρ main
    (Gen.segs m (outs m) Variants.none runL runLv runE () (pdats m) (reg0 m) (reg1 m) (reg2 m) (reg3 m))
    (fun c Q => by
      rewrite [main_chain c, Pipeline.Seg.run_eq_chain,
        show (Gen.segs m (outs m) Variants.none runL runLv runE () (pdats m) (reg0 m) (reg1 m) (reg2 m) (reg3 m) c).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          Prog.lift (.customCall (Pipeline.entry 3) ()) ] from rfl]
      exact .rfl)
    (fun c => by simp only [Gen.segs, Pipeline.Seg.pipes_host, Pipeline.Seg.pipes_region, Pipeline.Seg.pipes_nil]; decide)
    (0 : Dev nD → CellTallies nD τ sig Unit) (fun _ _ => rfl) (fun _ => (BI.emp : sProp 𝕄))
    (initOf (Pipeline.cells cfgs cellOf_inj) (Pipeline.launchToks cfgs cellOf_inj)) run_hu₀
    (T₀ := fun c => iprop(StableHlo.held (c : Thread nD τ) (Pipeline.ucRefs τ sig) (Gen.V0 m c) ∗ runE 0 c))
    (Tₙ := fun c => StableHlo.held (c : Thread nD τ) (Pipeline.ucRefs τ sig) (Vfin m c))
    (hch := fun c => ⟨.rfl, .rfl, .rfl, .rfl, .rfl, .rfl, .rfl, .rfl, .rfl, .rfl, .rfl, .rfl, .rfl, .rfl, .rfl, .rfl, .rfl, .rfl, .rfl, .rfl,
      sep_mono .rfl (run_hE4 c)⟩)
    (hinit := run_hinitg runL runLv m ρ) (QY := fun c s => ∀ b ∈ Pipeline.ucRefs τ sig, s.mem ((c : Thread nD τ).1, b) = Vfin m c b)
    (hfin := fun c s' => ?_) (hQ := fun _ h => h)
  -- the end: every unscoped buffer read off the last thread state
  unfold StableHlo.held
  iintro ⟨Hh, HSI⟩
  imodintro
  iapply (pointsTo_read_all (Pipeline.ucRefs τ sig) (fun b => ((c : Thread nD τ).1, b)) (Vfin m c) s')
  isplitl [Hh] <;> iassumption

/-- THE RUN, read at the results and the arguments: every weakly fair execution of @main terminates, nothing faulting,
    each result array ends at the last boundary's contents and each argument array as launched (no item writes one). -/
theorem run_res : θ_run defs (onTc (τ := τ) (main (F := F))) ⟨m, fun _ => 0, ρ⟩ (fun r => ∀ c : Dev nD,
      r.2.mem ((c.tc : Thread nD τ).loc main_v105) = Vfin m c main_v105
      ∧ r.2.mem ((c.tc : Thread nD τ).loc main_v107) = Vfin m c main_v107
      ∧ r.2.mem ((c.tc : Thread nD τ).loc main_v85) = Vfin m c main_v85
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c =>
    ⟨h c (Proc.devRef .tc main_v105) (Finset.mem_filter.mpr ⟨StableHlo.devRef_mem_tcRefs main_v105, by decide⟩),
      h c (Proc.devRef .tc main_v107) (Finset.mem_filter.mpr ⟨StableHlo.devRef_mem_tcRefs main_v107, by decide⟩),
      h c (Proc.devRef .tc main_v85) (Finset.mem_filter.mpr ⟨StableHlo.devRef_mem_tcRefs main_v85, by decide⟩),
      (h c (Proc.devRef .tc main_arg0) (Finset.mem_filter.mpr ⟨StableHlo.devRef_mem_tcRefs main_arg0, by decide⟩)).trans (Gen.V20_main_arg0 m (outs m) c),
      (h c (Proc.devRef .tc main_arg1) (Finset.mem_filter.mpr ⟨StableHlo.devRef_mem_tcRefs main_arg1, by decide⟩)).trans (Gen.V20_main_arg1 m (outs m) c),
      (h c (Proc.devRef .tc main_arg2) (Finset.mem_filter.mpr ⟨StableHlo.devRef_mem_tcRefs main_arg2, by decide⟩)).trans (Gen.V20_main_arg2 m (outs m) c),
      (h c (Proc.devRef .tc main_arg3) (Finset.mem_filter.mpr ⟨StableHlo.devRef_mem_tcRefs main_arg3, by decide⟩)).trans (Gen.V20_main_arg3 m (outs m) c),
      (h c (Proc.devRef .tc main_arg4) (Finset.mem_filter.mpr ⟨StableHlo.devRef_mem_tcRefs main_arg4, by decide⟩)).trans (Gen.V20_main_arg4 m (outs m) c),
      (h c (Proc.devRef .tc main_arg5) (Finset.mem_filter.mpr ⟨StableHlo.devRef_mem_tcRefs main_arg5, by decide⟩)).trans (Gen.V20_main_arg5 m (outs m) c),
      (h c (Proc.devRef .tc main_arg6) (Finset.mem_filter.mpr ⟨StableHlo.devRef_mem_tcRefs main_arg6, by decide⟩)).trans (Gen.V20_main_arg6 m (outs m) c),
      (h c (Proc.devRef .tc main_arg7) (Finset.mem_filter.mpr ⟨StableHlo.devRef_mem_tcRefs main_arg7, by decide⟩)).trans (Gen.V20_main_arg7 m (outs m) c),
      (h c (Proc.devRef .tc main_arg8) (Finset.mem_filter.mpr ⟨StableHlo.devRef_mem_tcRefs main_arg8, by decide⟩)).trans (Gen.V20_main_arg8 m (outs m) c),
      (h c (Proc.devRef .tc main_arg9) (Finset.mem_filter.mpr ⟨StableHlo.devRef_mem_tcRefs main_arg9, by decide⟩)).trans (Gen.V20_main_arg9 m (outs m) c),
      (h c (Proc.devRef .tc main_arg10) (Finset.mem_filter.mpr ⟨StableHlo.devRef_mem_tcRefs main_arg10, by decide⟩)).trans (Gen.V20_main_arg10 m (outs m) c),
      (h c (Proc.devRef .tc main_arg11) (Finset.mem_filter.mpr ⟨StableHlo.devRef_mem_tcRefs main_arg11, by decide⟩)).trans (Gen.V20_main_arg11 m (outs m) c),
      (h c (Proc.devRef .tc main_arg12) (Finset.mem_filter.mpr ⟨StableHlo.devRef_mem_tcRefs main_arg12, by decide⟩)).trans (Gen.V20_main_arg12 m (outs m) c),
      (h c (Proc.devRef .tc main_arg13) (Finset.mem_filter.mpr ⟨StableHlo.devRef_mem_tcRefs main_arg13, by decide⟩)).trans (Gen.V20_main_arg13 m (outs m) c),
      (h c (Proc.devRef .tc main_arg14) (Finset.mem_filter.mpr ⟨StableHlo.devRef_mem_tcRefs main_arg14, by decide⟩)).trans (Gen.V20_main_arg14 m (outs m) c),
      (h c (Proc.devRef .tc main_arg15) (Finset.mem_filter.mpr ⟨StableHlo.devRef_mem_tcRefs main_arg15, by decide⟩)).trans (Gen.V20_main_arg15 m (outs m) c),
      (h c (Proc.devRef .tc main_arg16) (Finset.mem_filter.mpr ⟨StableHlo.devRef_mem_tcRefs main_arg16, by decide⟩)).trans (Gen.V20_main_arg16 m (outs m) c),
      (h c (Proc.devRef .tc main_arg17) (Finset.mem_filter.mpr ⟨StableHlo.devRef_mem_tcRefs main_arg17, by decide⟩)).trans (Gen.V20_main_arg17 m (outs m) c),
      (h c (Proc.devRef .tc main_arg18) (Finset.mem_filter.mpr ⟨StableHlo.devRef_mem_tcRefs main_arg18, by decide⟩)).trans (Gen.V20_main_arg18 m (outs m) c),
      (h c (Proc.devRef .tc main_arg19) (Finset.mem_filter.mpr ⟨StableHlo.devRef_mem_tcRefs main_arg19, by decide⟩)).trans (Gen.V20_main_arg19 m (outs m) c),
      (h c (Proc.devRef .tc main_arg20) (Finset.mem_filter.mpr ⟨StableHlo.devRef_mem_tcRefs main_arg20, by decide⟩)).trans (Gen.V20_main_arg20 m (outs m) c)⟩) (run_all m ρ)

set_option backward.isDefEq.respectTransparency.types false in
/-- THE FRAME: at the compiled mesh, from any memory with zero counters, every weakly fair execution of @main on the
    TensorCores terminates, nothing faulting, and every final state has the argument arrays as launched: the conditional
    frame at the four regions' records, each entered from and left at the boundary contents by name. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Gen.frame_cond m emb₁ () Variants.none runL runLv (fun _ _ => rfl) ρ (outs m) (pdats m)
    (0 : Dev nD → CellTallies nD τ sig Unit) (fun _ => (BI.emp : sProp 𝕄))
    (initOf (Pipeline.cells cfgs cellOf_inj) (Pipeline.launchToks cfgs cellOf_inj)) run_hu₀
    runE (run_hE0 ρ) run_hE4
    (reg0 m) (fun _ => .rfl) (fun _ => .rfl)
    (reg1 m) (fun _ => .rfl) (fun _ => .rfl)
    (reg2 m) (fun _ => .rfl) (fun _ => .rfl)
    (reg3 m) (fun _ => .rfl) (fun _ => .rfl)

end Cert.KernelIdeal.Hand

end
-- ==== Proof.RefOps.lean ====
import proofs.«414230_j6141803233547_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1 to 68 of @main: the first encoder's first convolution and its rectifier. -/
abbrev ops0 : List (HloOp τ sig (Elt F)) :=
  [ binary main_arg0 main_arg3 main_v0 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    nullary main_cst (constant S_ .f32 0x3F800000#32),
    unary main_cst main_v1 (broadcastInDim S8192 ![] bcast_S_S8192 : (⟨S_, .f32⟩ : BufTy).Contents (Elt F) → (⟨S8192, .f32⟩ : BufTy).Contents (Elt F)),
    nullary main_c (constantI S_ 32 0#32),
    unary main_c main_v2 (broadcastInDim S262144 ![] bcast_S_S262144 : (⟨S_, .i32⟩ : BufTy).Contents (Elt F) → (⟨S262144, .i32⟩ : BufTy).Contents (Elt F)),
    binary main_arg2 main_v2 main_v3 (cmpi .slt : (⟨S262144, .i32⟩ : BufTy).Contents (Elt F) → (⟨S262144, .i32⟩ : BufTy).Contents (Elt F) → (⟨S262144, .i1⟩ : BufTy).Contents (Elt F)),
    nullary main_c_0 (constantI S_ 32 8192#32),
    unary main_c_0 main_v4 (broadcastInDim S262144 ![] bcast_S_S262144 : (⟨S_, .i32⟩ : BufTy).Contents (Elt F) → (⟨S262144, .i32⟩ : BufTy).Contents (Elt F)),
    binary main_arg2 main_v4 main_v5 (addi : (⟨S262144, .i32⟩ : BufTy).Contents (Elt F) → (⟨S262144, .i32⟩ : BufTy).Contents (Elt F) → (⟨S262144, .i32⟩ : BufTy).Contents (Elt F)),
    ternary main_v3 main_v5 main_arg2 main_v6 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v6 main_v7 (broadcastInDim S262144x1 ![0] bcast_S262144_S262144x1_0 : (⟨S262144, .i32⟩ : BufTy).Contents (Elt F) → (⟨S262144x1, .i32⟩ : BufTy).Contents (Elt F)),
    nullary main_cst_1 (constant S_ .f32 0x3F800000#32),
    unary main_cst_1 main_v8 (broadcastInDim S262144 ![] bcast_S_S262144 : (⟨S_, .f32⟩ : BufTy).Contents (Elt F) → (⟨S262144, .f32⟩ : BufTy).Contents (Elt F)),
    ternary main_v1 main_v7 main_v8 main_v9 ((fun x i u => Host.scatterAdd scatter_S8192_S262144x1_S262144_n_0_0_1 x i u) : (⟨S8192, .f32⟩ : BufTy).Contents (Elt F) → (⟨S262144x1, .i32⟩ : BufTy).Contents (Elt F) → (⟨S262144, .f32⟩ : BufTy).Contents (Elt F) → (⟨S8192, .f32⟩ : BufTy).Contents (Elt F)),
    unary main_v9 main_v10 (Host.rsqrt : (⟨S8192, .f32⟩ : BufTy).Contents (Elt F) → (⟨S8192, .f32⟩ : BufTy).Contents (Elt F)),
    nullary main_c_2 (constantI S_ 32 0#32),
    unary main_c_2 main_v11 (broadcastInDim S262144 ![] bcast_S_S262144 : (⟨S_, .i32⟩ : BufTy).Contents (Elt F) → (⟨S262144, .i32⟩ : BufTy).Contents (Elt F)),
    binary main_arg1 main_v11 main_v12 (cmpi .slt : (⟨S262144, .i32⟩ : BufTy).Contents (Elt F) → (⟨S262144, .i32⟩ : BufTy).Contents (Elt F) → (⟨S262144, .i1⟩ : BufTy).Contents (Elt F)),
    nullary main_c_3 (constantI S_ 32 8192#32),
    unary main_c_3 main_v13 (broadcastInDim S262144 ![] bcast_S_S262144 : (⟨S_, .i32⟩ : BufTy).Contents (Elt F) → (⟨S262144, .i32⟩ : BufTy).Contents (Elt F)),
    binary main_arg1 main_v13 main_v14 (addi : (⟨S262144, .i32⟩ : BufTy).Contents (Elt F) → (⟨S262144, .i32⟩ : BufTy).Contents (Elt F) → (⟨S262144, .i32⟩ : BufTy).Contents (Elt F)),
    ternary main_v12 main_v14 main_arg1 main_v15 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v15 main_v16 (broadcastInDim S262144x1 ![0] bcast_S262144_S262144x1_0 : (⟨S262144, .i32⟩ : BufTy).Contents (Elt F) → (⟨S262144x1, .i32⟩ : BufTy).Contents (Elt F)),
    binary main_v10 main_v16 main_v17 ((fun x i => Host.gather gather_S8192_S262144x1_S262144_n_0_n_n_0_1_1 x i) : (⟨S8192, .f32⟩ : BufTy).Contents (Elt F) → (⟨S262144x1, .i32⟩ : BufTy).Contents (Elt F) → (⟨S262144, .f32⟩ : BufTy).Contents (Elt F)),
    nullary main_c_4 (constantI S_ 32 0#32),
    unary main_c_4 main_v18 (broadcastInDim S262144 ![] bcast_S_S262144 : (⟨S_, .i32⟩ : BufTy).Contents (Elt F) → (⟨S262144, .i32⟩ : BufTy).Contents (Elt F)),
    binary main_arg2 main_v18 main_v19 (cmpi .slt : (⟨S262144, .i32⟩ : BufTy).Contents (Elt F) → (⟨S262144, .i32⟩ : BufTy).Contents (Elt F) → (⟨S262144, .i1⟩ : BufTy).Contents (Elt F)),
    nullary main_c_5 (constantI S_ 32 8192#32),
    unary main_c_5 main_v20 (broadcastInDim S262144 ![] bcast_S_S262144 : (⟨S_, .i32⟩ : BufTy).Contents (Elt F) → (⟨S262144, .i32⟩ : BufTy).Contents (Elt F)),
    binary main_arg2 main_v20 main_v21 (addi : (⟨S262144, .i32⟩ : BufTy).Contents (Elt F) → (⟨S262144, .i32⟩ : BufTy).Contents (Elt F) → (⟨S262144, .i32⟩ : BufTy).Contents (Elt F)),
    ternary main_v19 main_v21 main_arg2 main_v22 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v22 main_v23 (broadcastInDim S262144x1 ![0] bcast_S262144_S262144x1_0 : (⟨S262144, .i32⟩ : BufTy).Contents (Elt F) → (⟨S262144x1, .i32⟩ : BufTy).Contents (Elt F)),
    binary main_v10 main_v23 main_v24 ((fun x i => Host.gather gather_S8192_S262144x1_S262144_n_0_n_n_0_1_1 x i) : (⟨S8192, .f32⟩ : BufTy).Contents (Elt F) → (⟨S262144x1, .i32⟩ : BufTy).Contents (Elt F) → (⟨S262144, .f32⟩ : BufTy).Contents (Elt F)),
    binary main_v17 main_v24 main_v25 (mulf : (⟨S262144, .f32⟩ : BufTy).Contents (Elt F) → (⟨S262144, .f32⟩ : BufTy).Contents (Elt F) → (⟨S262144, .f32⟩ : BufTy).Contents (Elt F)),
    nullary main_cst_6 (constant S_ .f32 0x00000000#32),
    unary main_cst_6 main_v26 (broadcastInDim S8192x64 ![] bcast_S_S8192x64 : (⟨S_, .f32⟩ : BufTy).Contents (Elt F) → (⟨S8192x64, .f32⟩ : BufTy).Contents (Elt F)),
    nullary main_c_7 (constantI S_ 32 0#32),
    unary main_c_7 main_v27 (broadcastInDim S262144 ![] bcast_S_S262144 : (⟨S_, .i32⟩ : BufTy).Contents (Elt F) → (⟨S262144, .i32⟩ : BufTy).Contents (Elt F)),
    binary main_arg1 main_v27 main_v28 (cmpi .slt : (⟨S262144, .i32⟩ : BufTy).Contents (Elt F) → (⟨S262144, .i32⟩ : BufTy).Contents (Elt F) → (⟨S262144, .i1⟩ : BufTy).Contents (Elt F)),
    nullary main_c_8 (constantI S_ 32 8192#32),
    unary main_c_8 main_v29 (broadcastInDim S262144 ![] bcast_S_S262144 : (⟨S_, .i32⟩ : BufTy).Contents (Elt F) → (⟨S262144, .i32⟩ : BufTy).Contents (Elt F)),
    binary main_arg1 main_v29 main_v30 (addi : (⟨S262144, .i32⟩ : BufTy).Contents (Elt F) → (⟨S262144, .i32⟩ : BufTy).Contents (Elt F) → (⟨S262144, .i32⟩ : BufTy).Contents (Elt F)),
    ternary main_v28 main_v30 main_arg1 main_v31 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v31 main_v32 (broadcastInDim S262144x1 ![0] bcast_S262144_S262144x1_0 : (⟨S262144, .i32⟩ : BufTy).Contents (Elt F) → (⟨S262144x1, .i32⟩ : BufTy).Contents (Elt F)),
    binary main_v0 main_v32 main_v33 ((fun x i => Host.gather gather_S8192x64_S262144x1_S262144x64_1_0_n_n_0_1_164 x i) : (⟨S8192x64, .f32⟩ : BufTy).Contents (Elt F) → (⟨S262144x1, .i32⟩ : BufTy).Contents (Elt F) → (⟨S262144x64, .f32⟩ : BufTy).Contents (Elt F)),
    unary main_v25 main_v34 (broadcastInDim S262144x1 ![0] bcast_S262144_S262144x1_0 : (⟨S262144, .f32⟩ : BufTy).Contents (Elt F) → (⟨S262144x1, .f32⟩ : BufTy).Contents (Elt F)),
    unary main_v34 main_v35 (broadcastInDim S262144x64 ![0, 1] bcast_S262144x1_S262144x64_0_1 : (⟨S262144x1, .f32⟩ : BufTy).Contents (Elt F) → (⟨S262144x64, .f32⟩ : BufTy).Contents (Elt F)),
    binary main_v33 main_v35 main_v36 (mulf : (⟨S262144x64, .f32⟩ : BufTy).Contents (Elt F) → (⟨S262144x64, .f32⟩ : BufTy).Contents (Elt F) → (⟨S262144x64, .f32⟩ : BufTy).Contents (Elt F)),
    nullary main_c_9 (constantI S_ 32 0#32),
    unary main_c_9 main_v37 (broadcastInDim S262144 ![] bcast_S_S262144 : (⟨S_, .i32⟩ : BufTy).Contents (Elt F) → (⟨S262144, .i32⟩ : BufTy).Contents (Elt F)),
    binary main_arg2 main_v37 main_v38 (cmpi .slt : (⟨S262144, .i32⟩ : BufTy).Contents (Elt F) → (⟨S262144, .i32⟩ : BufTy).Contents (Elt F) → (⟨S262144, .i1⟩ : BufTy).Contents (Elt F)),
    nullary main_c_10 (constantI S_ 32 8192#32),
    unary main_c_10 main_v39 (broadcastInDim S262144 ![] bcast_S_S262144 : (⟨S_, .i32⟩ : BufTy).Contents (Elt F) → (⟨S262144, .i32⟩ : BufTy).Contents (Elt F)),
    binary main_arg2 main_v39 main_v40 (addi : (⟨S262144, .i32⟩ : BufTy).Contents (Elt F) → (⟨S262144, .i32⟩ : BufTy).Contents (Elt F) → (⟨S262144, .i32⟩ : BufTy).Contents (Elt F)),
    ternary main_v38 main_v40 main_arg2 main_v41 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v41 main_v42 (broadcastInDim S262144x1 ![0] bcast_S262144_S262144x1_0 : (⟨S262144, .i32⟩ : BufTy).Contents (Elt F) → (⟨S262144x1, .i32⟩ : BufTy).Contents (Elt F)),
    ternary main_v26 main_v42 main_v36 main_v43 ((fun x i u => Host.scatterAdd scatter_S8192x64_S262144x1_S262144x64_1_0_0_1 x i u) : (⟨S8192x64, .f32⟩ : BufTy).Contents (Elt F) → (⟨S262144x1, .i32⟩ : BufTy).Contents (Elt F) → (⟨S262144x64, .f32⟩ : BufTy).Contents (Elt F) → (⟨S8192x64, .f32⟩ : BufTy).Contents (Elt F)),
    binary main_v10 main_v10 main_v44 (mulf : (⟨S8192, .f32⟩ : BufTy).Contents (Elt F) → (⟨S8192, .f32⟩ : BufTy).Contents (Elt F) → (⟨S8192, .f32⟩ : BufTy).Contents (Elt F)),
    unary main_v44 main_v45 (broadcastInDim S8192x1 ![0] bcast_S8192_S8192x1_0 : (⟨S8192, .f32⟩ : BufTy).Contents (Elt F) → (⟨S8192x1, .f32⟩ : BufTy).Contents (Elt F)),
    unary main_v45 main_v46 (broadcastInDim S8192x64 ![0, 1] bcast_S8192x1_S8192x64_0_1 : (⟨S8192x1, .f32⟩ : BufTy).Contents (Elt F) → (⟨S8192x64, .f32⟩ : BufTy).Contents (Elt F)),
    binary main_v0 main_v46 main_v47 (mulf : (⟨S8192x64, .f32⟩ : BufTy).Contents (Elt F) → (⟨S8192x64, .f32⟩ : BufTy).Contents (Elt F) → (⟨S8192x64, .f32⟩ : BufTy).Contents (Elt F)),
    binary main_v43 main_v47 main_v48 (addf : (⟨S8192x64, .f32⟩ : BufTy).Contents (Elt F) → (⟨S8192x64, .f32⟩ : BufTy).Contents (Elt F) → (⟨S8192x64, .f32⟩ : BufTy).Contents (Elt F)),
    unary main_arg4 main_v49 (broadcastInDim S1x64 ![1] bcast_S64_S1x64_1 : (⟨S64, .f32⟩ : BufTy).Contents (Elt F) → (⟨S1x64, .f32⟩ : BufTy).Contents (Elt F)),
    unary main_v49 main_v50 (broadcastInDim S8192x64 ![0, 1] bcast_S1x64_S8192x64_0_1 : (⟨S1x64, .f32⟩ : BufTy).Contents (Elt F) → (⟨S8192x64, .f32⟩ : BufTy).Contents (Elt F)),
    binary main_v48 main_v50 main_v51 (addf : (⟨S8192x64, .f32⟩ : BufTy).Contents (Elt F) → (⟨S8192x64, .f32⟩ : BufTy).Contents (Elt F) → (⟨S8192x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8192x64, .f32⟩) main_call0_v0) (broadcastInDim S8192x64 ![] bcast_S_S8192x64),
    TRef.binary (TRef.of (T := ⟨S8192x64, .f32⟩) main_v51) (TRef.of (T := ⟨S8192x64, .f32⟩) main_call0_v0) (TRef.of (T := ⟨S8192x64, .f32⟩) main_v52) maximumf ]

set_option maxRecDepth 8192 in
/-- Each touches TensorCore references only. -/
theorem ops0_sub : (ops0 : List (HloOp τ sig (Elt F))).Forall fun op => op.bufs ⊆ tcRefs τ sig :=
  ⟨binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩

set_option maxRecDepth 8192 in
/-- None allocates a buffer. -/
theorem ops0_fresh : ∀ op ∈ (ops0 : List (HloOp τ sig (Elt F))), op.fresh = ∅ := by
  intro _ h; (repeat (cases h with | head => rfl | tail _ h => ?_)); exact nomatch h

/-- Operations 69 to 136 of @main: the first encoder's second convolution and its rectifier. -/
abbrev ops1 : List (HloOp τ sig (Elt F)) :=
  [ binary main_v52 main_arg5 main_v53 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    nullary main_cst_11 (constant S_ .f32 0x3F800000#32),
    unary main_cst_11 main_v54 (broadcastInDim S8192 ![] bcast_S_S8192 : (⟨S_, .f32⟩ : BufTy).Contents (Elt F) → (⟨S8192, .f32⟩ : BufTy).Contents (Elt F)),
    nullary main_c_12 (constantI S_ 32 0#32),
    unary main_c_12 main_v55 (broadcastInDim S262144 ![] bcast_S_S262144 : (⟨S_, .i32⟩ : BufTy).Contents (Elt F) → (⟨S262144, .i32⟩ : BufTy).Contents (Elt F)),
    binary main_arg2 main_v55 main_v56 (cmpi .slt : (⟨S262144, .i32⟩ : BufTy).Contents (Elt F) → (⟨S262144, .i32⟩ : BufTy).Contents (Elt F) → (⟨S262144, .i1⟩ : BufTy).Contents (Elt F)),
    nullary main_c_13 (constantI S_ 32 8192#32),
    unary main_c_13 main_v57 (broadcastInDim S262144 ![] bcast_S_S262144 : (⟨S_, .i32⟩ : BufTy).Contents (Elt F) → (⟨S262144, .i32⟩ : BufTy).Contents (Elt F)),
    binary main_arg2 main_v57 main_v58 (addi : (⟨S262144, .i32⟩ : BufTy).Contents (Elt F) → (⟨S262144, .i32⟩ : BufTy).Contents (Elt F) → (⟨S262144, .i32⟩ : BufTy).Contents (Elt F)),
    ternary main_v56 main_v58 main_arg2 main_v59 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v59 main_v60 (broadcastInDim S262144x1 ![0] bcast_S262144_S262144x1_0 : (⟨S262144, .i32⟩ : BufTy).Contents (Elt F) → (⟨S262144x1, .i32⟩ : BufTy).Contents (Elt F)),
    nullary main_cst_14 (constant S_ .f32 0x3F800000#32),
    unary main_cst_14 main_v61 (broadcastInDim S262144 ![] bcast_S_S262144 : (⟨S_, .f32⟩ : BufTy).Contents (Elt F) → (⟨S262144, .f32⟩ : BufTy).Contents (Elt F)),
    ternary main_v54 main_v60 main_v61 main_v62 ((fun x i u => Host.scatterAdd scatter_S8192_S262144x1_S262144_n_0_0_1 x i u) : (⟨S8192, .f32⟩ : BufTy).Contents (Elt F) → (⟨S262144x1, .i32⟩ : BufTy).Contents (Elt F) → (⟨S262144, .f32⟩ : BufTy).Contents (Elt F) → (⟨S8192, .f32⟩ : BufTy).Contents (Elt F)),
    unary main_v62 main_v63 (Host.rsqrt : (⟨S8192, .f32⟩ : BufTy).Contents (Elt F) → (⟨S8192, .f32⟩ : BufTy).Contents (Elt F)),
    nullary main_c_15 (constantI S_ 32 0#32),
    unary main_c_15 main_v64 (broadcastInDim S262144 ![] bcast_S_S262144 : (⟨S_, .i32⟩ : BufTy).Contents (Elt F) → (⟨S262144, .i32⟩ : BufTy).Contents (Elt F)),
    binary main_arg1 main_v64 main_v65 (cmpi .slt : (⟨S262144, .i32⟩ : BufTy).Contents (Elt F) → (⟨S262144, .i32⟩ : BufTy).Contents (Elt F) → (⟨S262144, .i1⟩ : BufTy).Contents (Elt F)),
    nullary main_c_16 (constantI S_ 32 8192#32),
    unary main_c_16 main_v66 (broadcastInDim S262144 ![] bcast_S_S262144 : (⟨S_, .i32⟩ : BufTy).Contents (Elt F) → (⟨S262144, .i32⟩ : BufTy).Contents (Elt F)),
    binary main_arg1 main_v66 main_v67 (addi : (⟨S262144, .i32⟩ : BufTy).Contents (Elt F) → (⟨S262144, .i32⟩ : BufTy).Contents (Elt F) → (⟨S262144, .i32⟩ : BufTy).Contents (Elt F)),
    ternary main_v65 main_v67 main_arg1 main_v68 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v68 main_v69 (broadcastInDim S262144x1 ![0] bcast_S262144_S262144x1_0 : (⟨S262144, .i32⟩ : BufTy).Contents (Elt F) → (⟨S262144x1, .i32⟩ : BufTy).Contents (Elt F)),
    binary main_v63 main_v69 main_v70 ((fun x i => Host.gather gather_S8192_S262144x1_S262144_n_0_n_n_0_1_1 x i) : (⟨S8192, .f32⟩ : BufTy).Contents (Elt F) → (⟨S262144x1, .i32⟩ : BufTy).Contents (Elt F) → (⟨S262144, .f32⟩ : BufTy).Contents (Elt F)),
    nullary main_c_17 (constantI S_ 32 0#32),
    unary main_c_17 main_v71 (broadcastInDim S262144 ![] bcast_S_S262144 : (⟨S_, .i32⟩ : BufTy).Contents (Elt F) → (⟨S262144, .i32⟩ : BufTy).Contents (Elt F)),
    binary main_arg2 main_v71 main_v72 (cmpi .slt : (⟨S262144, .i32⟩ : BufTy).Contents (Elt F) → (⟨S262144, .i32⟩ : BufTy).Contents (Elt F) → (⟨S262144, .i1⟩ : BufTy).Contents (Elt F)),
    nullary main_c_18 (constantI S_ 32 8192#32),
    unary main_c_18 main_v73 (broadcastInDim S262144 ![] bcast_S_S262144 : (⟨S_, .i32⟩ : BufTy).Contents (Elt F) → (⟨S262144, .i32⟩ : BufTy).Contents (Elt F)),
    binary main_arg2 main_v73 main_v74 (addi : (⟨S262144, .i32⟩ : BufTy).Contents (Elt F) → (⟨S262144, .i32⟩ : BufTy).Contents (Elt F) → (⟨S262144, .i32⟩ : BufTy).Contents (Elt F)),
    ternary main_v72 main_v74 main_arg2 main_v75 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v75 main_v76 (broadcastInDim S262144x1 ![0] bcast_S262144_S262144x1_0 : (⟨S262144, .i32⟩ : BufTy).Contents (Elt F) → (⟨S262144x1, .i32⟩ : BufTy).Contents (Elt F)),
    binary main_v63 main_v76 main_v77 ((fun x i => Host.gather gather_S8192_S262144x1_S262144_n_0_n_n_0_1_1 x i) : (⟨S8192, .f32⟩ : BufTy).Contents (Elt F) → (⟨S262144x1, .i32⟩ : BufTy).Contents (Elt F) → (⟨S262144, .f32⟩ : BufTy).Contents (Elt F)),
    binary main_v70 main_v77 main_v78 (mulf : (⟨S262144, .f32⟩ : BufTy).Contents (Elt F) → (⟨S262144, .f32⟩ : BufTy).Contents (Elt F) → (⟨S262144, .f32⟩ : BufTy).Contents (Elt F)),
    nullary main_cst_19 (constant S_ .f32 0x00000000#32),
    unary main_cst_19 main_v79 (broadcastInDim S8192x64 ![] bcast_S_S8192x64 : (⟨S_, .f32⟩ : BufTy).Contents (Elt F) → (⟨S8192x64, .f32⟩ : BufTy).Contents (Elt F)),
    nullary main_c_20 (constantI S_ 32 0#32),
    unary main_c_20 main_v80 (broadcastInDim S262144 ![] bcast_S_S262144 : (⟨S_, .i32⟩ : BufTy).Contents (Elt F) → (⟨S262144, .i32⟩ : BufTy).Contents (Elt F)),
    binary main_arg1 main_v80 main_v81 (cmpi .slt : (⟨S262144, .i32⟩ : BufTy).Contents (Elt F) → (⟨S262144, .i32⟩ : BufTy).Contents (Elt F) → (⟨S262144, .i1⟩ : BufTy).Contents (Elt F)),
    nullary main_c_21 (constantI S_ 32 8192#32),
    unary main_c_21 main_v82 (broadcastInDim S262144 ![] bcast_S_S262144 : (⟨S_, .i32⟩ : BufTy).Contents (Elt F) → (⟨S262144, .i32⟩ : BufTy).Contents (Elt F)),
    binary main_arg1 main_v82 main_v83 (addi : (⟨S262144, .i32⟩ : BufTy).Contents (Elt F) → (⟨S262144, .i32⟩ : BufTy).Contents (Elt F) → (⟨S262144, .i32⟩ : BufTy).Contents (Elt F)),
    ternary main_v81 main_v83 main_arg1 main_v84 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v84 main_v85 (broadcastInDim S262144x1 ![0] bcast_S262144_S262144x1_0 : (⟨S262144, .i32⟩ : BufTy).Contents (Elt F) → (⟨S262144x1, .i32⟩ : BufTy).Contents (Elt F)),
    binary main_v53 main_v85 main_v86 ((fun x i => Host.gather gather_S8192x64_S262144x1_S262144x64_1_0_n_n_0_1_164 x i) : (⟨S8192x64, .f32⟩ : BufTy).Contents (Elt F) → (⟨S262144x1, .i32⟩ : BufTy).Contents (Elt F) → (⟨S262144x64, .f32⟩ : BufTy).Contents (Elt F)),
    unary main_v78 main_v87 (broadcastInDim S262144x1 ![0] bcast_S262144_S262144x1_0 : (⟨S262144, .f32⟩ : BufTy).Contents (Elt F) → (⟨S262144x1, .f32⟩ : BufTy).Contents (Elt F)),
    unary main_v87 main_v88 (broadcastInDim S262144x64 ![0, 1] bcast_S262144x1_S262144x64_0_1 : (⟨S262144x1, .f32⟩ : BufTy).Contents (Elt F) → (⟨S262144x64, .f32⟩ : BufTy).Contents (Elt F)),
    binary main_v86 main_v88 main_v89 (mulf : (⟨S262144x64, .f32⟩ : BufTy).Contents (Elt F) → (⟨S262144x64, .f32⟩ : BufTy).Contents (Elt F) → (⟨S262144x64, .f32⟩ : BufTy).Contents (Elt F)),
    nullary main_c_22 (constantI S_ 32 0#32),
    unary main_c_22 main_v90 (broadcastInDim S262144 ![] bcast_S_S262144 : (⟨S_, .i32⟩ : BufTy).Contents (Elt F) → (⟨S262144, .i32⟩ : BufTy).Contents (Elt F)),
    binary main_arg2 main_v90 main_v91 (cmpi .slt : (⟨S262144, .i32⟩ : BufTy).Contents (Elt F) → (⟨S262144, .i32⟩ : BufTy).Contents (Elt F) → (⟨S262144, .i1⟩ : BufTy).Contents (Elt F)),
    nullary main_c_23 (constantI S_ 32 8192#32),
    unary main_c_23 main_v92 (broadcastInDim S262144 ![] bcast_S_S262144 : (⟨S_, .i32⟩ : BufTy).Contents (Elt F) → (⟨S262144, .i32⟩ : BufTy).Contents (Elt F)),
    binary main_arg2 main_v92 main_v93 (addi : (⟨S262144, .i32⟩ : BufTy).Contents (Elt F) → (⟨S262144, .i32⟩ : BufTy).Contents (Elt F) → (⟨S262144, .i32⟩ : BufTy).Contents (Elt F)),
    ternary main_v91 main_v93 main_arg2 main_v94 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v94 main_v95 (broadcastInDim S262144x1 ![0] bcast_S262144_S262144x1_0 : (⟨S262144, .i32⟩ : BufTy).Contents (Elt F) → (⟨S262144x1, .i32⟩ : BufTy).Contents (Elt F)),
    ternary main_v79 main_v95 main_v89 main_v96 ((fun x i u => Host.scatterAdd scatter_S8192x64_S262144x1_S262144x64_1_0_0_1 x i u) : (⟨S8192x64, .f32⟩ : BufTy).Contents (Elt F) → (⟨S262144x1, .i32⟩ : BufTy).Contents (Elt F) → (⟨S262144x64, .f32⟩ : BufTy).Contents (Elt F) → (⟨S8192x64, .f32⟩ : BufTy).Contents (Elt F)),
    binary main_v63 main_v63 main_v97 (mulf : (⟨S8192, .f32⟩ : BufTy).Contents (Elt F) → (⟨S8192, .f32⟩ : BufTy).Contents (Elt F) → (⟨S8192, .f32⟩ : BufTy).Contents (Elt F)),
    unary main_v97 main_v98 (broadcastInDim S8192x1 ![0] bcast_S8192_S8192x1_0 : (⟨S8192, .f32⟩ : BufTy).Contents (Elt F) → (⟨S8192x1, .f32⟩ : BufTy).Contents (Elt F)),
    unary main_v98 main_v99 (broadcastInDim S8192x64 ![0, 1] bcast_S8192x1_S8192x64_0_1 : (⟨S8192x1, .f32⟩ : BufTy).Contents (Elt F) → (⟨S8192x64, .f32⟩ : BufTy).Contents (Elt F)),
    binary main_v53 main_v99 main_v100 (mulf : (⟨S8192x64, .f32⟩ : BufTy).Contents (Elt F) → (⟨S8192x64, .f32⟩ : BufTy).Contents (Elt F) → (⟨S8192x64, .f32⟩ : BufTy).Contents (Elt F)),
    binary main_v96 main_v100 main_v101 (addf : (⟨S8192x64, .f32⟩ : BufTy).Contents (Elt F) → (⟨S8192x64, .f32⟩ : BufTy).Contents (Elt F) → (⟨S8192x64, .f32⟩ : BufTy).Contents (Elt F)),
    unary main_arg6 main_v102 (broadcastInDim S1x64 ![1] bcast_S64_S1x64_1 : (⟨S64, .f32⟩ : BufTy).Contents (Elt F) → (⟨S1x64, .f32⟩ : BufTy).Contents (Elt F)),
    unary main_v102 main_v103 (broadcastInDim S8192x64 ![0, 1] bcast_S1x64_S8192x64_0_1 : (⟨S1x64, .f32⟩ : BufTy).Contents (Elt F) → (⟨S8192x64, .f32⟩ : BufTy).Contents (Elt F)),
    binary main_v101 main_v103 main_v104 (addf : (⟨S8192x64, .f32⟩ : BufTy).Contents (Elt F) → (⟨S8192x64, .f32⟩ : BufTy).Contents (Elt F) → (⟨S8192x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x64, .f32⟩) main_call1_v0) (broadcastInDim S8192x64 ![] bcast_S_S8192x64),
    TRef.binary (TRef.of (T := ⟨S8192x64, .f32⟩) main_v104) (TRef.of (T := ⟨S8192x64, .f32⟩) main_call1_v0) (TRef.of (T := ⟨S8192x64, .f32⟩) main_v105) maximumf ]

set_option maxRecDepth 8192 in
/-- Each touches TensorCore references only. -/
theorem ops1_sub : (ops1 : List (HloOp τ sig (Elt F))).Forall fun op => op.bufs ⊆ tcRefs τ sig :=
  ⟨binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩

set_option maxRecDepth 8192 in
/-- None allocates a buffer. -/
theorem ops1_fresh : ∀ op ∈ (ops1 : List (HloOp τ sig (Elt F))), op.fresh = ∅ := by
  intro _ h; (repeat (cases h with | head => rfl | tail _ h => ?_)); exact nomatch h

/-- Operations 137 to 204 of @main: the second encoder's first convolution and its rectifier. -/
abbrev ops2 : List (HloOp τ sig (Elt F)) :=
  [ binary main_arg0 main_arg7 main_v106 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    nullary main_cst_24 (constant S_ .f32 0x3F800000#32),
    unary main_cst_24 main_v107 (broadcastInDim S8192 ![] bcast_S_S8192 : (⟨S_, .f32⟩ : BufTy).Contents (Elt F) → (⟨S8192, .f32⟩ : BufTy).Contents (Elt F)),
    nullary main_c_25 (constantI S_ 32 0#32),
    unary main_c_25 main_v108 (broadcastInDim S262144 ![] bcast_S_S262144 : (⟨S_, .i32⟩ : BufTy).Contents (Elt F) → (⟨S262144, .i32⟩ : BufTy).Contents (Elt F)),
    binary main_arg2 main_v108 main_v109 (cmpi .slt : (⟨S262144, .i32⟩ : BufTy).Contents (Elt F) → (⟨S262144, .i32⟩ : BufTy).Contents (Elt F) → (⟨S262144, .i1⟩ : BufTy).Contents (Elt F)),
    nullary main_c_26 (constantI S_ 32 8192#32),
    unary main_c_26 main_v110 (broadcastInDim S262144 ![] bcast_S_S262144 : (⟨S_, .i32⟩ : BufTy).Contents (Elt F) → (⟨S262144, .i32⟩ : BufTy).Contents (Elt F)),
    binary main_arg2 main_v110 main_v111 (addi : (⟨S262144, .i32⟩ : BufTy).Contents (Elt F) → (⟨S262144, .i32⟩ : BufTy).Contents (Elt F) → (⟨S262144, .i32⟩ : BufTy).Contents (Elt F)),
    ternary main_v109 main_v111 main_arg2 main_v112 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v112 main_v113 (broadcastInDim S262144x1 ![0] bcast_S262144_S262144x1_0 : (⟨S262144, .i32⟩ : BufTy).Contents (Elt F) → (⟨S262144x1, .i32⟩ : BufTy).Contents (Elt F)),
    nullary main_cst_27 (constant S_ .f32 0x3F800000#32),
    unary main_cst_27 main_v114 (broadcastInDim S262144 ![] bcast_S_S262144 : (⟨S_, .f32⟩ : BufTy).Contents (Elt F) → (⟨S262144, .f32⟩ : BufTy).Contents (Elt F)),
    ternary main_v107 main_v113 main_v114 main_v115 ((fun x i u => Host.scatterAdd scatter_S8192_S262144x1_S262144_n_0_0_1 x i u) : (⟨S8192, .f32⟩ : BufTy).Contents (Elt F) → (⟨S262144x1, .i32⟩ : BufTy).Contents (Elt F) → (⟨S262144, .f32⟩ : BufTy).Contents (Elt F) → (⟨S8192, .f32⟩ : BufTy).Contents (Elt F)),
    unary main_v115 main_v116 (Host.rsqrt : (⟨S8192, .f32⟩ : BufTy).Contents (Elt F) → (⟨S8192, .f32⟩ : BufTy).Contents (Elt F)),
    nullary main_c_28 (constantI S_ 32 0#32),
    unary main_c_28 main_v117 (broadcastInDim S262144 ![] bcast_S_S262144 : (⟨S_, .i32⟩ : BufTy).Contents (Elt F) → (⟨S262144, .i32⟩ : BufTy).Contents (Elt F)),
    binary main_arg1 main_v117 main_v118 (cmpi .slt : (⟨S262144, .i32⟩ : BufTy).Contents (Elt F) → (⟨S262144, .i32⟩ : BufTy).Contents (Elt F) → (⟨S262144, .i1⟩ : BufTy).Contents (Elt F)),
    nullary main_c_29 (constantI S_ 32 8192#32),
    unary main_c_29 main_v119 (broadcastInDim S262144 ![] bcast_S_S262144 : (⟨S_, .i32⟩ : BufTy).Contents (Elt F) → (⟨S262144, .i32⟩ : BufTy).Contents (Elt F)),
    binary main_arg1 main_v119 main_v120 (addi : (⟨S262144, .i32⟩ : BufTy).Contents (Elt F) → (⟨S262144, .i32⟩ : BufTy).Contents (Elt F) → (⟨S262144, .i32⟩ : BufTy).Contents (Elt F)),
    ternary main_v118 main_v120 main_arg1 main_v121 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v121 main_v122 (broadcastInDim S262144x1 ![0] bcast_S262144_S262144x1_0 : (⟨S262144, .i32⟩ : BufTy).Contents (Elt F) → (⟨S262144x1, .i32⟩ : BufTy).Contents (Elt F)),
    binary main_v116 main_v122 main_v123 ((fun x i => Host.gather gather_S8192_S262144x1_S262144_n_0_n_n_0_1_1 x i) : (⟨S8192, .f32⟩ : BufTy).Contents (Elt F) → (⟨S262144x1, .i32⟩ : BufTy).Contents (Elt F) → (⟨S262144, .f32⟩ : BufTy).Contents (Elt F)),
    nullary main_c_30 (constantI S_ 32 0#32),
    unary main_c_30 main_v124 (broadcastInDim S262144 ![] bcast_S_S262144 : (⟨S_, .i32⟩ : BufTy).Contents (Elt F) → (⟨S262144, .i32⟩ : BufTy).Contents (Elt F)),
    binary main_arg2 main_v124 main_v125 (cmpi .slt : (⟨S262144, .i32⟩ : BufTy).Contents (Elt F) → (⟨S262144, .i32⟩ : BufTy).Contents (Elt F) → (⟨S262144, .i1⟩ : BufTy).Contents (Elt F)),
    nullary main_c_31 (constantI S_ 32 8192#32),
    unary main_c_31 main_v126 (broadcastInDim S262144 ![] bcast_S_S262144 : (⟨S_, .i32⟩ : BufTy).Contents (Elt F) → (⟨S262144, .i32⟩ : BufTy).Contents (Elt F)),
    binary main_arg2 main_v126 main_v127 (addi : (⟨S262144, .i32⟩ : BufTy).Contents (Elt F) → (⟨S262144, .i32⟩ : BufTy).Contents (Elt F) → (⟨S262144, .i32⟩ : BufTy).Contents (Elt F)),
    ternary main_v125 main_v127 main_arg2 main_v128 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v128 main_v129 (broadcastInDim S262144x1 ![0] bcast_S262144_S262144x1_0 : (⟨S262144, .i32⟩ : BufTy).Contents (Elt F) → (⟨S262144x1, .i32⟩ : BufTy).Contents (Elt F)),
    binary main_v116 main_v129 main_v130 ((fun x i => Host.gather gather_S8192_S262144x1_S262144_n_0_n_n_0_1_1 x i) : (⟨S8192, .f32⟩ : BufTy).Contents (Elt F) → (⟨S262144x1, .i32⟩ : BufTy).Contents (Elt F) → (⟨S262144, .f32⟩ : BufTy).Contents (Elt F)),
    binary main_v123 main_v130 main_v131 (mulf : (⟨S262144, .f32⟩ : BufTy).Contents (Elt F) → (⟨S262144, .f32⟩ : BufTy).Contents (Elt F) → (⟨S262144, .f32⟩ : BufTy).Contents (Elt F)),
    nullary main_cst_32 (constant S_ .f32 0x00000000#32),
    unary main_cst_32 main_v132 (broadcastInDim S8192x64 ![] bcast_S_S8192x64 : (⟨S_, .f32⟩ : BufTy).Contents (Elt F) → (⟨S8192x64, .f32⟩ : BufTy).Contents (Elt F)),
    nullary main_c_33 (constantI S_ 32 0#32),
    unary main_c_33 main_v133 (broadcastInDim S262144 ![] bcast_S_S262144 : (⟨S_, .i32⟩ : BufTy).Contents (Elt F) → (⟨S262144, .i32⟩ : BufTy).Contents (Elt F)),
    binary main_arg1 main_v133 main_v134 (cmpi .slt : (⟨S262144, .i32⟩ : BufTy).Contents (Elt F) → (⟨S262144, .i32⟩ : BufTy).Contents (Elt F) → (⟨S262144, .i1⟩ : BufTy).Contents (Elt F)),
    nullary main_c_34 (constantI S_ 32 8192#32),
    unary main_c_34 main_v135 (broadcastInDim S262144 ![] bcast_S_S262144 : (⟨S_, .i32⟩ : BufTy).Contents (Elt F) → (⟨S262144, .i32⟩ : BufTy).Contents (Elt F)),
    binary main_arg1 main_v135 main_v136 (addi : (⟨S262144, .i32⟩ : BufTy).Contents (Elt F) → (⟨S262144, .i32⟩ : BufTy).Contents (Elt F) → (⟨S262144, .i32⟩ : BufTy).Contents (Elt F)),
    ternary main_v134 main_v136 main_arg1 main_v137 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v137 main_v138 (broadcastInDim S262144x1 ![0] bcast_S262144_S262144x1_0 : (⟨S262144, .i32⟩ : BufTy).Contents (Elt F) → (⟨S262144x1, .i32⟩ : BufTy).Contents (Elt F)),
    binary main_v106 main_v138 main_v139 ((fun x i => Host.gather gather_S8192x64_S262144x1_S262144x64_1_0_n_n_0_1_164 x i) : (⟨S8192x64, .f32⟩ : BufTy).Contents (Elt F) → (⟨S262144x1, .i32⟩ : BufTy).Contents (Elt F) → (⟨S262144x64, .f32⟩ : BufTy).Contents (Elt F)),
    unary main_v131 main_v140 (broadcastInDim S262144x1 ![0] bcast_S262144_S262144x1_0 : (⟨S262144, .f32⟩ : BufTy).Contents (Elt F) → (⟨S262144x1, .f32⟩ : BufTy).Contents (Elt F)),
    unary main_v140 main_v141 (broadcastInDim S262144x64 ![0, 1] bcast_S262144x1_S262144x64_0_1 : (⟨S262144x1, .f32⟩ : BufTy).Contents (Elt F) → (⟨S262144x64, .f32⟩ : BufTy).Contents (Elt F)),
    binary main_v139 main_v141 main_v142 (mulf : (⟨S262144x64, .f32⟩ : BufTy).Contents (Elt F) → (⟨S262144x64, .f32⟩ : BufTy).Contents (Elt F) → (⟨S262144x64, .f32⟩ : BufTy).Contents (Elt F)),
    nullary main_c_35 (constantI S_ 32 0#32),
    unary main_c_35 main_v143 (broadcastInDim S262144 ![] bcast_S_S262144 : (⟨S_, .i32⟩ : BufTy).Contents (Elt F) → (⟨S262144, .i32⟩ : BufTy).Contents (Elt F)),
    binary main_arg2 main_v143 main_v144 (cmpi .slt : (⟨S262144, .i32⟩ : BufTy).Contents (Elt F) → (⟨S262144, .i32⟩ : BufTy).Contents (Elt F) → (⟨S262144, .i1⟩ : BufTy).Contents (Elt F)),
    nullary main_c_36 (constantI S_ 32 8192#32),
    unary main_c_36 main_v145 (broadcastInDim S262144 ![] bcast_S_S262144 : (⟨S_, .i32⟩ : BufTy).Contents (Elt F) → (⟨S262144, .i32⟩ : BufTy).Contents (Elt F)),
    binary main_arg2 main_v145 main_v146 (addi : (⟨S262144, .i32⟩ : BufTy).Contents (Elt F) → (⟨S262144, .i32⟩ : BufTy).Contents (Elt F) → (⟨S262144, .i32⟩ : BufTy).Contents (Elt F)),
    ternary main_v144 main_v146 main_arg2 main_v147 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v147 main_v148 (broadcastInDim S262144x1 ![0] bcast_S262144_S262144x1_0 : (⟨S262144, .i32⟩ : BufTy).Contents (Elt F) → (⟨S262144x1, .i32⟩ : BufTy).Contents (Elt F)),
    ternary main_v132 main_v148 main_v142 main_v149 ((fun x i u => Host.scatterAdd scatter_S8192x64_S262144x1_S262144x64_1_0_0_1 x i u) : (⟨S8192x64, .f32⟩ : BufTy).Contents (Elt F) → (⟨S262144x1, .i32⟩ : BufTy).Contents (Elt F) → (⟨S262144x64, .f32⟩ : BufTy).Contents (Elt F) → (⟨S8192x64, .f32⟩ : BufTy).Contents (Elt F)),
    binary main_v116 main_v116 main_v150 (mulf : (⟨S8192, .f32⟩ : BufTy).Contents (Elt F) → (⟨S8192, .f32⟩ : BufTy).Contents (Elt F) → (⟨S8192, .f32⟩ : BufTy).Contents (Elt F)),
    unary main_v150 main_v151 (broadcastInDim S8192x1 ![0] bcast_S8192_S8192x1_0 : (⟨S8192, .f32⟩ : BufTy).Contents (Elt F) → (⟨S8192x1, .f32⟩ : BufTy).Contents (Elt F)),
    unary main_v151 main_v152 (broadcastInDim S8192x64 ![0, 1] bcast_S8192x1_S8192x64_0_1 : (⟨S8192x1, .f32⟩ : BufTy).Contents (Elt F) → (⟨S8192x64, .f32⟩ : BufTy).Contents (Elt F)),
    binary main_v106 main_v152 main_v153 (mulf : (⟨S8192x64, .f32⟩ : BufTy).Contents (Elt F) → (⟨S8192x64, .f32⟩ : BufTy).Contents (Elt F) → (⟨S8192x64, .f32⟩ : BufTy).Contents (Elt F)),
    binary main_v149 main_v153 main_v154 (addf : (⟨S8192x64, .f32⟩ : BufTy).Contents (Elt F) → (⟨S8192x64, .f32⟩ : BufTy).Contents (Elt F) → (⟨S8192x64, .f32⟩ : BufTy).Contents (Elt F)),
    unary main_arg8 main_v155 (broadcastInDim S1x64 ![1] bcast_S64_S1x64_1 : (⟨S64, .f32⟩ : BufTy).Contents (Elt F) → (⟨S1x64, .f32⟩ : BufTy).Contents (Elt F)),
    unary main_v155 main_v156 (broadcastInDim S8192x64 ![0, 1] bcast_S1x64_S8192x64_0_1 : (⟨S1x64, .f32⟩ : BufTy).Contents (Elt F) → (⟨S8192x64, .f32⟩ : BufTy).Contents (Elt F)),
    binary main_v154 main_v156 main_v157 (addf : (⟨S8192x64, .f32⟩ : BufTy).Contents (Elt F) → (⟨S8192x64, .f32⟩ : BufTy).Contents (Elt F) → (⟨S8192x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8192x64, .f32⟩) main_call2_v0) (broadcastInDim S8192x64 ![] bcast_S_S8192x64),
    TRef.binary (TRef.of (T := ⟨S8192x64, .f32⟩) main_v157) (TRef.of (T := ⟨S8192x64, .f32⟩) main_call2_v0) (TRef.of (T := ⟨S8192x64, .f32⟩) main_v158) maximumf ]

set_option maxRecDepth 8192 in
/-- Each touches TensorCore references only. -/
theorem ops2_sub : (ops2 : List (HloOp τ sig (Elt F))).Forall fun op => op.bufs ⊆ tcRefs τ sig :=
  ⟨binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩

set_option maxRecDepth 8192 in
/-- None allocates a buffer. -/
theorem ops2_fresh : ∀ op ∈ (ops2 : List (HloOp τ sig (Elt F))), op.fresh = ∅ := by
  intro _ h; (repeat (cases h with | head => rfl | tail _ h => ?_)); exact nomatch h

/-- Operations 205 to 272 of @main: the second encoder's second convolution and its rectifier. -/
abbrev ops3 : List (HloOp τ sig (Elt F)) :=
  [ binary main_v158 main_arg9 main_v159 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    nullary main_cst_37 (constant S_ .f32 0x3F800000#32),
    unary main_cst_37 main_v160 (broadcastInDim S8192 ![] bcast_S_S8192 : (⟨S_, .f32⟩ : BufTy).Contents (Elt F) → (⟨S8192, .f32⟩ : BufTy).Contents (Elt F)),
    nullary main_c_38 (constantI S_ 32 0#32),
    unary main_c_38 main_v161 (broadcastInDim S262144 ![] bcast_S_S262144 : (⟨S_, .i32⟩ : BufTy).Contents (Elt F) → (⟨S262144, .i32⟩ : BufTy).Contents (Elt F)),
    binary main_arg2 main_v161 main_v162 (cmpi .slt : (⟨S262144, .i32⟩ : BufTy).Contents (Elt F) → (⟨S262144, .i32⟩ : BufTy).Contents (Elt F) → (⟨S262144, .i1⟩ : BufTy).Contents (Elt F)),
    nullary main_c_39 (constantI S_ 32 8192#32),
    unary main_c_39 main_v163 (broadcastInDim S262144 ![] bcast_S_S262144 : (⟨S_, .i32⟩ : BufTy).Contents (Elt F) → (⟨S262144, .i32⟩ : BufTy).Contents (Elt F)),
    binary main_arg2 main_v163 main_v164 (addi : (⟨S262144, .i32⟩ : BufTy).Contents (Elt F) → (⟨S262144, .i32⟩ : BufTy).Contents (Elt F) → (⟨S262144, .i32⟩ : BufTy).Contents (Elt F)),
    ternary main_v162 main_v164 main_arg2 main_v165 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v165 main_v166 (broadcastInDim S262144x1 ![0] bcast_S262144_S262144x1_0 : (⟨S262144, .i32⟩ : BufTy).Contents (Elt F) → (⟨S262144x1, .i32⟩ : BufTy).Contents (Elt F)),
    nullary main_cst_40 (constant S_ .f32 0x3F800000#32),
    unary main_cst_40 main_v167 (broadcastInDim S262144 ![] bcast_S_S262144 : (⟨S_, .f32⟩ : BufTy).Contents (Elt F) → (⟨S262144, .f32⟩ : BufTy).Contents (Elt F)),
    ternary main_v160 main_v166 main_v167 main_v168 ((fun x i u => Host.scatterAdd scatter_S8192_S262144x1_S262144_n_0_0_1 x i u) : (⟨S8192, .f32⟩ : BufTy).Contents (Elt F) → (⟨S262144x1, .i32⟩ : BufTy).Contents (Elt F) → (⟨S262144, .f32⟩ : BufTy).Contents (Elt F) → (⟨S8192, .f32⟩ : BufTy).Contents (Elt F)),
    unary main_v168 main_v169 (Host.rsqrt : (⟨S8192, .f32⟩ : BufTy).Contents (Elt F) → (⟨S8192, .f32⟩ : BufTy).Contents (Elt F)),
    nullary main_c_41 (constantI S_ 32 0#32),
    unary main_c_41 main_v170 (broadcastInDim S262144 ![] bcast_S_S262144 : (⟨S_, .i32⟩ : BufTy).Contents (Elt F) → (⟨S262144, .i32⟩ : BufTy).Contents (Elt F)),
    binary main_arg1 main_v170 main_v171 (cmpi .slt : (⟨S262144, .i32⟩ : BufTy).Contents (Elt F) → (⟨S262144, .i32⟩ : BufTy).Contents (Elt F) → (⟨S262144, .i1⟩ : BufTy).Contents (Elt F)),
    nullary main_c_42 (constantI S_ 32 8192#32),
    unary main_c_42 main_v172 (broadcastInDim S262144 ![] bcast_S_S262144 : (⟨S_, .i32⟩ : BufTy).Contents (Elt F) → (⟨S262144, .i32⟩ : BufTy).Contents (Elt F)),
    binary main_arg1 main_v172 main_v173 (addi : (⟨S262144, .i32⟩ : BufTy).Contents (Elt F) → (⟨S262144, .i32⟩ : BufTy).Contents (Elt F) → (⟨S262144, .i32⟩ : BufTy).Contents (Elt F)),
    ternary main_v171 main_v173 main_arg1 main_v174 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v174 main_v175 (broadcastInDim S262144x1 ![0] bcast_S262144_S262144x1_0 : (⟨S262144, .i32⟩ : BufTy).Contents (Elt F) → (⟨S262144x1, .i32⟩ : BufTy).Contents (Elt F)),
    binary main_v169 main_v175 main_v176 ((fun x i => Host.gather gather_S8192_S262144x1_S262144_n_0_n_n_0_1_1 x i) : (⟨S8192, .f32⟩ : BufTy).Contents (Elt F) → (⟨S262144x1, .i32⟩ : BufTy).Contents (Elt F) → (⟨S262144, .f32⟩ : BufTy).Contents (Elt F)),
    nullary main_c_43 (constantI S_ 32 0#32),
    unary main_c_43 main_v177 (broadcastInDim S262144 ![] bcast_S_S262144 : (⟨S_, .i32⟩ : BufTy).Contents (Elt F) → (⟨S262144, .i32⟩ : BufTy).Contents (Elt F)),
    binary main_arg2 main_v177 main_v178 (cmpi .slt : (⟨S262144, .i32⟩ : BufTy).Contents (Elt F) → (⟨S262144, .i32⟩ : BufTy).Contents (Elt F) → (⟨S262144, .i1⟩ : BufTy).Contents (Elt F)),
    nullary main_c_44 (constantI S_ 32 8192#32),
    unary main_c_44 main_v179 (broadcastInDim S262144 ![] bcast_S_S262144 : (⟨S_, .i32⟩ : BufTy).Contents (Elt F) → (⟨S262144, .i32⟩ : BufTy).Contents (Elt F)),
    binary main_arg2 main_v179 main_v180 (addi : (⟨S262144, .i32⟩ : BufTy).Contents (Elt F) → (⟨S262144, .i32⟩ : BufTy).Contents (Elt F) → (⟨S262144, .i32⟩ : BufTy).Contents (Elt F)),
    ternary main_v178 main_v180 main_arg2 main_v181 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v181 main_v182 (broadcastInDim S262144x1 ![0] bcast_S262144_S262144x1_0 : (⟨S262144, .i32⟩ : BufTy).Contents (Elt F) → (⟨S262144x1, .i32⟩ : BufTy).Contents (Elt F)),
    binary main_v169 main_v182 main_v183 ((fun x i => Host.gather gather_S8192_S262144x1_S262144_n_0_n_n_0_1_1 x i) : (⟨S8192, .f32⟩ : BufTy).Contents (Elt F) → (⟨S262144x1, .i32⟩ : BufTy).Contents (Elt F) → (⟨S262144, .f32⟩ : BufTy).Contents (Elt F)),
    binary main_v176 main_v183 main_v184 (mulf : (⟨S262144, .f32⟩ : BufTy).Contents (Elt F) → (⟨S262144, .f32⟩ : BufTy).Contents (Elt F) → (⟨S262144, .f32⟩ : BufTy).Contents (Elt F)),
    nullary main_cst_45 (constant S_ .f32 0x00000000#32),
    unary main_cst_45 main_v185 (broadcastInDim S8192x64 ![] bcast_S_S8192x64 : (⟨S_, .f32⟩ : BufTy).Contents (Elt F) → (⟨S8192x64, .f32⟩ : BufTy).Contents (Elt F)),
    nullary main_c_46 (constantI S_ 32 0#32),
    unary main_c_46 main_v186 (broadcastInDim S262144 ![] bcast_S_S262144 : (⟨S_, .i32⟩ : BufTy).Contents (Elt F) → (⟨S262144, .i32⟩ : BufTy).Contents (Elt F)),
    binary main_arg1 main_v186 main_v187 (cmpi .slt : (⟨S262144, .i32⟩ : BufTy).Contents (Elt F) → (⟨S262144, .i32⟩ : BufTy).Contents (Elt F) → (⟨S262144, .i1⟩ : BufTy).Contents (Elt F)),
    nullary main_c_47 (constantI S_ 32 8192#32),
    unary main_c_47 main_v188 (broadcastInDim S262144 ![] bcast_S_S262144 : (⟨S_, .i32⟩ : BufTy).Contents (Elt F) → (⟨S262144, .i32⟩ : BufTy).Contents (Elt F)),
    binary main_arg1 main_v188 main_v189 (addi : (⟨S262144, .i32⟩ : BufTy).Contents (Elt F) → (⟨S262144, .i32⟩ : BufTy).Contents (Elt F) → (⟨S262144, .i32⟩ : BufTy).Contents (Elt F)),
    ternary main_v187 main_v189 main_arg1 main_v190 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v190 main_v191 (broadcastInDim S262144x1 ![0] bcast_S262144_S262144x1_0 : (⟨S262144, .i32⟩ : BufTy).Contents (Elt F) → (⟨S262144x1, .i32⟩ : BufTy).Contents (Elt F)),
    binary main_v159 main_v191 main_v192 ((fun x i => Host.gather gather_S8192x64_S262144x1_S262144x64_1_0_n_n_0_1_164 x i) : (⟨S8192x64, .f32⟩ : BufTy).Contents (Elt F) → (⟨S262144x1, .i32⟩ : BufTy).Contents (Elt F) → (⟨S262144x64, .f32⟩ : BufTy).Contents (Elt F)),
    unary main_v184 main_v193 (broadcastInDim S262144x1 ![0] bcast_S262144_S262144x1_0 : (⟨S262144, .f32⟩ : BufTy).Contents (Elt F) → (⟨S262144x1, .f32⟩ : BufTy).Contents (Elt F)),
    unary main_v193 main_v194 (broadcastInDim S262144x64 ![0, 1] bcast_S262144x1_S262144x64_0_1 : (⟨S262144x1, .f32⟩ : BufTy).Contents (Elt F) → (⟨S262144x64, .f32⟩ : BufTy).Contents (Elt F)),
    binary main_v192 main_v194 main_v195 (mulf : (⟨S262144x64, .f32⟩ : BufTy).Contents (Elt F) → (⟨S262144x64, .f32⟩ : BufTy).Contents (Elt F) → (⟨S262144x64, .f32⟩ : BufTy).Contents (Elt F)),
    nullary main_c_48 (constantI S_ 32 0#32),
    unary main_c_48 main_v196 (broadcastInDim S262144 ![] bcast_S_S262144 : (⟨S_, .i32⟩ : BufTy).Contents (Elt F) → (⟨S262144, .i32⟩ : BufTy).Contents (Elt F)),
    binary main_arg2 main_v196 main_v197 (cmpi .slt : (⟨S262144, .i32⟩ : BufTy).Contents (Elt F) → (⟨S262144, .i32⟩ : BufTy).Contents (Elt F) → (⟨S262144, .i1⟩ : BufTy).Contents (Elt F)),
    nullary main_c_49 (constantI S_ 32 8192#32),
    unary main_c_49 main_v198 (broadcastInDim S262144 ![] bcast_S_S262144 : (⟨S_, .i32⟩ : BufTy).Contents (Elt F) → (⟨S262144, .i32⟩ : BufTy).Contents (Elt F)),
    binary main_arg2 main_v198 main_v199 (addi : (⟨S262144, .i32⟩ : BufTy).Contents (Elt F) → (⟨S262144, .i32⟩ : BufTy).Contents (Elt F) → (⟨S262144, .i32⟩ : BufTy).Contents (Elt F)),
    ternary main_v197 main_v199 main_arg2 main_v200 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v200 main_v201 (broadcastInDim S262144x1 ![0] bcast_S262144_S262144x1_0 : (⟨S262144, .i32⟩ : BufTy).Contents (Elt F) → (⟨S262144x1, .i32⟩ : BufTy).Contents (Elt F)),
    ternary main_v185 main_v201 main_v195 main_v202 ((fun x i u => Host.scatterAdd scatter_S8192x64_S262144x1_S262144x64_1_0_0_1 x i u) : (⟨S8192x64, .f32⟩ : BufTy).Contents (Elt F) → (⟨S262144x1, .i32⟩ : BufTy).Contents (Elt F) → (⟨S262144x64, .f32⟩ : BufTy).Contents (Elt F) → (⟨S8192x64, .f32⟩ : BufTy).Contents (Elt F)),
    binary main_v169 main_v169 main_v203 (mulf : (⟨S8192, .f32⟩ : BufTy).Contents (Elt F) → (⟨S8192, .f32⟩ : BufTy).Contents (Elt F) → (⟨S8192, .f32⟩ : BufTy).Contents (Elt F)),
    unary main_v203 main_v204 (broadcastInDim S8192x1 ![0] bcast_S8192_S8192x1_0 : (⟨S8192, .f32⟩ : BufTy).Contents (Elt F) → (⟨S8192x1, .f32⟩ : BufTy).Contents (Elt F)),
    unary main_v204 main_v205 (broadcastInDim S8192x64 ![0, 1] bcast_S8192x1_S8192x64_0_1 : (⟨S8192x1, .f32⟩ : BufTy).Contents (Elt F) → (⟨S8192x64, .f32⟩ : BufTy).Contents (Elt F)),
    binary main_v159 main_v205 main_v206 (mulf : (⟨S8192x64, .f32⟩ : BufTy).Contents (Elt F) → (⟨S8192x64, .f32⟩ : BufTy).Contents (Elt F) → (⟨S8192x64, .f32⟩ : BufTy).Contents (Elt F)),
    binary main_v202 main_v206 main_v207 (addf : (⟨S8192x64, .f32⟩ : BufTy).Contents (Elt F) → (⟨S8192x64, .f32⟩ : BufTy).Contents (Elt F) → (⟨S8192x64, .f32⟩ : BufTy).Contents (Elt F)),
    unary main_arg10 main_v208 (broadcastInDim S1x64 ![1] bcast_S64_S1x64_1 : (⟨S64, .f32⟩ : BufTy).Contents (Elt F) → (⟨S1x64, .f32⟩ : BufTy).Contents (Elt F)),
    unary main_v208 main_v209 (broadcastInDim S8192x64 ![0, 1] bcast_S1x64_S8192x64_0_1 : (⟨S1x64, .f32⟩ : BufTy).Contents (Elt F) → (⟨S8192x64, .f32⟩ : BufTy).Contents (Elt F)),
    binary main_v207 main_v209 main_v210 (addf : (⟨S8192x64, .f32⟩ : BufTy).Contents (Elt F) → (⟨S8192x64, .f32⟩ : BufTy).Contents (Elt F) → (⟨S8192x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S8192x64, .f32⟩) main_call3_v0) (broadcastInDim S8192x64 ![] bcast_S_S8192x64),
    TRef.binary (TRef.of (T := ⟨S8192x64, .f32⟩) main_v210) (TRef.of (T := ⟨S8192x64, .f32⟩) main_call3_v0) (TRef.of (T := ⟨S8192x64, .f32⟩) main_v211) maximumf ]

set_option maxRecDepth 8192 in
/-- Each touches TensorCore references only. -/
theorem ops3_sub : (ops3 : List (HloOp τ sig (Elt F))).Forall fun op => op.bufs ⊆ tcRefs τ sig :=
  ⟨binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩

set_option maxRecDepth 8192 in
/-- None allocates a buffer. -/
theorem ops3_fresh : ∀ op ∈ (ops3 : List (HloOp τ sig (Elt F))), op.fresh = ∅ := by
  intro _ h; (repeat (cases h with | head => rfl | tail _ h => ?_)); exact nomatch h

/-- Operations 273 to 340 of @main: the third encoder's first convolution and its rectifier. -/
abbrev ops4 : List (HloOp τ sig (Elt F)) :=
  [ binary main_arg0 main_arg11 main_v212 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    nullary main_cst_50 (constant S_ .f32 0x3F800000#32),
    unary main_cst_50 main_v213 (broadcastInDim S8192 ![] bcast_S_S8192 : (⟨S_, .f32⟩ : BufTy).Contents (Elt F) → (⟨S8192, .f32⟩ : BufTy).Contents (Elt F)),
    nullary main_c_51 (constantI S_ 32 0#32),
    unary main_c_51 main_v214 (broadcastInDim S262144 ![] bcast_S_S262144 : (⟨S_, .i32⟩ : BufTy).Contents (Elt F) → (⟨S262144, .i32⟩ : BufTy).Contents (Elt F)),
    binary main_arg2 main_v214 main_v215 (cmpi .slt : (⟨S262144, .i32⟩ : BufTy).Contents (Elt F) → (⟨S262144, .i32⟩ : BufTy).Contents (Elt F) → (⟨S262144, .i1⟩ : BufTy).Contents (Elt F)),
    nullary main_c_52 (constantI S_ 32 8192#32),
    unary main_c_52 main_v216 (broadcastInDim S262144 ![] bcast_S_S262144 : (⟨S_, .i32⟩ : BufTy).Contents (Elt F) → (⟨S262144, .i32⟩ : BufTy).Contents (Elt F)),
    binary main_arg2 main_v216 main_v217 (addi : (⟨S262144, .i32⟩ : BufTy).Contents (Elt F) → (⟨S262144, .i32⟩ : BufTy).Contents (Elt F) → (⟨S262144, .i32⟩ : BufTy).Contents (Elt F)),
    ternary main_v215 main_v217 main_arg2 main_v218 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v218 main_v219 (broadcastInDim S262144x1 ![0] bcast_S262144_S262144x1_0 : (⟨S262144, .i32⟩ : BufTy).Contents (Elt F) → (⟨S262144x1, .i32⟩ : BufTy).Contents (Elt F)),
    nullary main_cst_53 (constant S_ .f32 0x3F800000#32),
    unary main_cst_53 main_v220 (broadcastInDim S262144 ![] bcast_S_S262144 : (⟨S_, .f32⟩ : BufTy).Contents (Elt F) → (⟨S262144, .f32⟩ : BufTy).Contents (Elt F)),
    ternary main_v213 main_v219 main_v220 main_v221 ((fun x i u => Host.scatterAdd scatter_S8192_S262144x1_S262144_n_0_0_1 x i u) : (⟨S8192, .f32⟩ : BufTy).Contents (Elt F) → (⟨S262144x1, .i32⟩ : BufTy).Contents (Elt F) → (⟨S262144, .f32⟩ : BufTy).Contents (Elt F) → (⟨S8192, .f32⟩ : BufTy).Contents (Elt F)),
    unary main_v221 main_v222 (Host.rsqrt : (⟨S8192, .f32⟩ : BufTy).Contents (Elt F) → (⟨S8192, .f32⟩ : BufTy).Contents (Elt F)),
    nullary main_c_54 (constantI S_ 32 0#32),
    unary main_c_54 main_v223 (broadcastInDim S262144 ![] bcast_S_S262144 : (⟨S_, .i32⟩ : BufTy).Contents (Elt F) → (⟨S262144, .i32⟩ : BufTy).Contents (Elt F)),
    binary main_arg1 main_v223 main_v224 (cmpi .slt : (⟨S262144, .i32⟩ : BufTy).Contents (Elt F) → (⟨S262144, .i32⟩ : BufTy).Contents (Elt F) → (⟨S262144, .i1⟩ : BufTy).Contents (Elt F)),
    nullary main_c_55 (constantI S_ 32 8192#32),
    unary main_c_55 main_v225 (broadcastInDim S262144 ![] bcast_S_S262144 : (⟨S_, .i32⟩ : BufTy).Contents (Elt F) → (⟨S262144, .i32⟩ : BufTy).Contents (Elt F)),
    binary main_arg1 main_v225 main_v226 (addi : (⟨S262144, .i32⟩ : BufTy).Contents (Elt F) → (⟨S262144, .i32⟩ : BufTy).Contents (Elt F) → (⟨S262144, .i32⟩ : BufTy).Contents (Elt F)),
    ternary main_v224 main_v226 main_arg1 main_v227 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v227 main_v228 (broadcastInDim S262144x1 ![0] bcast_S262144_S262144x1_0 : (⟨S262144, .i32⟩ : BufTy).Contents (Elt F) → (⟨S262144x1, .i32⟩ : BufTy).Contents (Elt F)),
    binary main_v222 main_v228 main_v229 ((fun x i => Host.gather gather_S8192_S262144x1_S262144_n_0_n_n_0_1_1 x i) : (⟨S8192, .f32⟩ : BufTy).Contents (Elt F) → (⟨S262144x1, .i32⟩ : BufTy).Contents (Elt F) → (⟨S262144, .f32⟩ : BufTy).Contents (Elt F)),
    nullary main_c_56 (constantI S_ 32 0#32),
    unary main_c_56 main_v230 (broadcastInDim S262144 ![] bcast_S_S262144 : (⟨S_, .i32⟩ : BufTy).Contents (Elt F) → (⟨S262144, .i32⟩ : BufTy).Contents (Elt F)),
    binary main_arg2 main_v230 main_v231 (cmpi .slt : (⟨S262144, .i32⟩ : BufTy).Contents (Elt F) → (⟨S262144, .i32⟩ : BufTy).Contents (Elt F) → (⟨S262144, .i1⟩ : BufTy).Contents (Elt F)),
    nullary main_c_57 (constantI S_ 32 8192#32),
    unary main_c_57 main_v232 (broadcastInDim S262144 ![] bcast_S_S262144 : (⟨S_, .i32⟩ : BufTy).Contents (Elt F) → (⟨S262144, .i32⟩ : BufTy).Contents (Elt F)),
    binary main_arg2 main_v232 main_v233 (addi : (⟨S262144, .i32⟩ : BufTy).Contents (Elt F) → (⟨S262144, .i32⟩ : BufTy).Contents (Elt F) → (⟨S262144, .i32⟩ : BufTy).Contents (Elt F)),
    ternary main_v231 main_v233 main_arg2 main_v234 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v234 main_v235 (broadcastInDim S262144x1 ![0] bcast_S262144_S262144x1_0 : (⟨S262144, .i32⟩ : BufTy).Contents (Elt F) → (⟨S262144x1, .i32⟩ : BufTy).Contents (Elt F)),
    binary main_v222 main_v235 main_v236 ((fun x i => Host.gather gather_S8192_S262144x1_S262144_n_0_n_n_0_1_1 x i) : (⟨S8192, .f32⟩ : BufTy).Contents (Elt F) → (⟨S262144x1, .i32⟩ : BufTy).Contents (Elt F) → (⟨S262144, .f32⟩ : BufTy).Contents (Elt F)),
    binary main_v229 main_v236 main_v237 (mulf : (⟨S262144, .f32⟩ : BufTy).Contents (Elt F) → (⟨S262144, .f32⟩ : BufTy).Contents (Elt F) → (⟨S262144, .f32⟩ : BufTy).Contents (Elt F)),
    nullary main_cst_58 (constant S_ .f32 0x00000000#32),
    unary main_cst_58 main_v238 (broadcastInDim S8192x64 ![] bcast_S_S8192x64 : (⟨S_, .f32⟩ : BufTy).Contents (Elt F) → (⟨S8192x64, .f32⟩ : BufTy).Contents (Elt F)),
    nullary main_c_59 (constantI S_ 32 0#32),
    unary main_c_59 main_v239 (broadcastInDim S262144 ![] bcast_S_S262144 : (⟨S_, .i32⟩ : BufTy).Contents (Elt F) → (⟨S262144, .i32⟩ : BufTy).Contents (Elt F)),
    binary main_arg1 main_v239 main_v240 (cmpi .slt : (⟨S262144, .i32⟩ : BufTy).Contents (Elt F) → (⟨S262144, .i32⟩ : BufTy).Contents (Elt F) → (⟨S262144, .i1⟩ : BufTy).Contents (Elt F)),
    nullary main_c_60 (constantI S_ 32 8192#32),
    unary main_c_60 main_v241 (broadcastInDim S262144 ![] bcast_S_S262144 : (⟨S_, .i32⟩ : BufTy).Contents (Elt F) → (⟨S262144, .i32⟩ : BufTy).Contents (Elt F)),
    binary main_arg1 main_v241 main_v242 (addi : (⟨S262144, .i32⟩ : BufTy).Contents (Elt F) → (⟨S262144, .i32⟩ : BufTy).Contents (Elt F) → (⟨S262144, .i32⟩ : BufTy).Contents (Elt F)),
    ternary main_v240 main_v242 main_arg1 main_v243 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v243 main_v244 (broadcastInDim S262144x1 ![0] bcast_S262144_S262144x1_0 : (⟨S262144, .i32⟩ : BufTy).Contents (Elt F) → (⟨S262144x1, .i32⟩ : BufTy).Contents (Elt F)),
    binary main_v212 main_v244 main_v245 ((fun x i => Host.gather gather_S8192x64_S262144x1_S262144x64_1_0_n_n_0_1_164 x i) : (⟨S8192x64, .f32⟩ : BufTy).Contents (Elt F) → (⟨S262144x1, .i32⟩ : BufTy).Contents (Elt F) → (⟨S262144x64, .f32⟩ : BufTy).Contents (Elt F)),
    unary main_v237 main_v246 (broadcastInDim S262144x1 ![0] bcast_S262144_S262144x1_0 : (⟨S262144, .f32⟩ : BufTy).Contents (Elt F) → (⟨S262144x1, .f32⟩ : BufTy).Contents (Elt F)),
    unary main_v246 main_v247 (broadcastInDim S262144x64 ![0, 1] bcast_S262144x1_S262144x64_0_1 : (⟨S262144x1, .f32⟩ : BufTy).Contents (Elt F) → (⟨S262144x64, .f32⟩ : BufTy).Contents (Elt F)),
    binary main_v245 main_v247 main_v248 (mulf : (⟨S262144x64, .f32⟩ : BufTy).Contents (Elt F) → (⟨S262144x64, .f32⟩ : BufTy).Contents (Elt F) → (⟨S262144x64, .f32⟩ : BufTy).Contents (Elt F)),
    nullary main_c_61 (constantI S_ 32 0#32),
    unary main_c_61 main_v249 (broadcastInDim S262144 ![] bcast_S_S262144 : (⟨S_, .i32⟩ : BufTy).Contents (Elt F) → (⟨S262144, .i32⟩ : BufTy).Contents (Elt F)),
    binary main_arg2 main_v249 main_v250 (cmpi .slt : (⟨S262144, .i32⟩ : BufTy).Contents (Elt F) → (⟨S262144, .i32⟩ : BufTy).Contents (Elt F) → (⟨S262144, .i1⟩ : BufTy).Contents (Elt F)),
    nullary main_c_62 (constantI S_ 32 8192#32),
    unary main_c_62 main_v251 (broadcastInDim S262144 ![] bcast_S_S262144 : (⟨S_, .i32⟩ : BufTy).Contents (Elt F) → (⟨S262144, .i32⟩ : BufTy).Contents (Elt F)),
    binary main_arg2 main_v251 main_v252 (addi : (⟨S262144, .i32⟩ : BufTy).Contents (Elt F) → (⟨S262144, .i32⟩ : BufTy).Contents (Elt F) → (⟨S262144, .i32⟩ : BufTy).Contents (Elt F)),
    ternary main_v250 main_v252 main_arg2 main_v253 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v253 main_v254 (broadcastInDim S262144x1 ![0] bcast_S262144_S262144x1_0 : (⟨S262144, .i32⟩ : BufTy).Contents (Elt F) → (⟨S262144x1, .i32⟩ : BufTy).Contents (Elt F)),
    ternary main_v238 main_v254 main_v248 main_v255 ((fun x i u => Host.scatterAdd scatter_S8192x64_S262144x1_S262144x64_1_0_0_1 x i u) : (⟨S8192x64, .f32⟩ : BufTy).Contents (Elt F) → (⟨S262144x1, .i32⟩ : BufTy).Contents (Elt F) → (⟨S262144x64, .f32⟩ : BufTy).Contents (Elt F) → (⟨S8192x64, .f32⟩ : BufTy).Contents (Elt F)),
    binary main_v222 main_v222 main_v256 (mulf : (⟨S8192, .f32⟩ : BufTy).Contents (Elt F) → (⟨S8192, .f32⟩ : BufTy).Contents (Elt F) → (⟨S8192, .f32⟩ : BufTy).Contents (Elt F)),
    unary main_v256 main_v257 (broadcastInDim S8192x1 ![0] bcast_S8192_S8192x1_0 : (⟨S8192, .f32⟩ : BufTy).Contents (Elt F) → (⟨S8192x1, .f32⟩ : BufTy).Contents (Elt F)),
    unary main_v257 main_v258 (broadcastInDim S8192x64 ![0, 1] bcast_S8192x1_S8192x64_0_1 : (⟨S8192x1, .f32⟩ : BufTy).Contents (Elt F) → (⟨S8192x64, .f32⟩ : BufTy).Contents (Elt F)),
    binary main_v212 main_v258 main_v259 (mulf : (⟨S8192x64, .f32⟩ : BufTy).Contents (Elt F) → (⟨S8192x64, .f32⟩ : BufTy).Contents (Elt F) → (⟨S8192x64, .f32⟩ : BufTy).Contents (Elt F)),
    binary main_v255 main_v259 main_v260 (addf : (⟨S8192x64, .f32⟩ : BufTy).Contents (Elt F) → (⟨S8192x64, .f32⟩ : BufTy).Contents (Elt F) → (⟨S8192x64, .f32⟩ : BufTy).Contents (Elt F)),
    unary main_arg12 main_v261 (broadcastInDim S1x64 ![1] bcast_S64_S1x64_1 : (⟨S64, .f32⟩ : BufTy).Contents (Elt F) → (⟨S1x64, .f32⟩ : BufTy).Contents (Elt F)),
    unary main_v261 main_v262 (broadcastInDim S8192x64 ![0, 1] bcast_S1x64_S8192x64_0_1 : (⟨S1x64, .f32⟩ : BufTy).Contents (Elt F) → (⟨S8192x64, .f32⟩ : BufTy).Contents (Elt F)),
    binary main_v260 main_v262 main_v263 (addf : (⟨S8192x64, .f32⟩ : BufTy).Contents (Elt F) → (⟨S8192x64, .f32⟩ : BufTy).Contents (Elt F) → (⟨S8192x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S8192x64, .f32⟩) main_call4_v0) (broadcastInDim S8192x64 ![] bcast_S_S8192x64),
    TRef.binary (TRef.of (T := ⟨S8192x64, .f32⟩) main_v263) (TRef.of (T := ⟨S8192x64, .f32⟩) main_call4_v0) (TRef.of (T := ⟨S8192x64, .f32⟩) main_v264) maximumf ]

set_option maxRecDepth 8192 in
/-- Each touches TensorCore references only. -/
theorem ops4_sub : (ops4 : List (HloOp τ sig (Elt F))).Forall fun op => op.bufs ⊆ tcRefs τ sig :=
  ⟨binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩

set_option maxRecDepth 8192 in
/-- None allocates a buffer. -/
theorem ops4_fresh : ∀ op ∈ (ops4 : List (HloOp τ sig (Elt F))), op.fresh = ∅ := by
  intro _ h; (repeat (cases h with | head => rfl | tail _ h => ?_)); exact nomatch h

/-- Operations 341 to 408 of @main: the third encoder's second convolution and its rectifier. -/
abbrev ops5 : List (HloOp τ sig (Elt F)) :=
  [ binary main_v264 main_arg13 main_v265 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    nullary main_cst_63 (constant S_ .f32 0x3F800000#32),
    unary main_cst_63 main_v266 (broadcastInDim S8192 ![] bcast_S_S8192 : (⟨S_, .f32⟩ : BufTy).Contents (Elt F) → (⟨S8192, .f32⟩ : BufTy).Contents (Elt F)),
    nullary main_c_64 (constantI S_ 32 0#32),
    unary main_c_64 main_v267 (broadcastInDim S262144 ![] bcast_S_S262144 : (⟨S_, .i32⟩ : BufTy).Contents (Elt F) → (⟨S262144, .i32⟩ : BufTy).Contents (Elt F)),
    binary main_arg2 main_v267 main_v268 (cmpi .slt : (⟨S262144, .i32⟩ : BufTy).Contents (Elt F) → (⟨S262144, .i32⟩ : BufTy).Contents (Elt F) → (⟨S262144, .i1⟩ : BufTy).Contents (Elt F)),
    nullary main_c_65 (constantI S_ 32 8192#32),
    unary main_c_65 main_v269 (broadcastInDim S262144 ![] bcast_S_S262144 : (⟨S_, .i32⟩ : BufTy).Contents (Elt F) → (⟨S262144, .i32⟩ : BufTy).Contents (Elt F)),
    binary main_arg2 main_v269 main_v270 (addi : (⟨S262144, .i32⟩ : BufTy).Contents (Elt F) → (⟨S262144, .i32⟩ : BufTy).Contents (Elt F) → (⟨S262144, .i32⟩ : BufTy).Contents (Elt F)),
    ternary main_v268 main_v270 main_arg2 main_v271 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v271 main_v272 (broadcastInDim S262144x1 ![0] bcast_S262144_S262144x1_0 : (⟨S262144, .i32⟩ : BufTy).Contents (Elt F) → (⟨S262144x1, .i32⟩ : BufTy).Contents (Elt F)),
    nullary main_cst_66 (constant S_ .f32 0x3F800000#32),
    unary main_cst_66 main_v273 (broadcastInDim S262144 ![] bcast_S_S262144 : (⟨S_, .f32⟩ : BufTy).Contents (Elt F) → (⟨S262144, .f32⟩ : BufTy).Contents (Elt F)),
    ternary main_v266 main_v272 main_v273 main_v274 ((fun x i u => Host.scatterAdd scatter_S8192_S262144x1_S262144_n_0_0_1 x i u) : (⟨S8192, .f32⟩ : BufTy).Contents (Elt F) → (⟨S262144x1, .i32⟩ : BufTy).Contents (Elt F) → (⟨S262144, .f32⟩ : BufTy).Contents (Elt F) → (⟨S8192, .f32⟩ : BufTy).Contents (Elt F)),
    unary main_v274 main_v275 (Host.rsqrt : (⟨S8192, .f32⟩ : BufTy).Contents (Elt F) → (⟨S8192, .f32⟩ : BufTy).Contents (Elt F)),
    nullary main_c_67 (constantI S_ 32 0#32),
    unary main_c_67 main_v276 (broadcastInDim S262144 ![] bcast_S_S262144 : (⟨S_, .i32⟩ : BufTy).Contents (Elt F) → (⟨S262144, .i32⟩ : BufTy).Contents (Elt F)),
    binary main_arg1 main_v276 main_v277 (cmpi .slt : (⟨S262144, .i32⟩ : BufTy).Contents (Elt F) → (⟨S262144, .i32⟩ : BufTy).Contents (Elt F) → (⟨S262144, .i1⟩ : BufTy).Contents (Elt F)),
    nullary main_c_68 (constantI S_ 32 8192#32),
    unary main_c_68 main_v278 (broadcastInDim S262144 ![] bcast_S_S262144 : (⟨S_, .i32⟩ : BufTy).Contents (Elt F) → (⟨S262144, .i32⟩ : BufTy).Contents (Elt F)),
    binary main_arg1 main_v278 main_v279 (addi : (⟨S262144, .i32⟩ : BufTy).Contents (Elt F) → (⟨S262144, .i32⟩ : BufTy).Contents (Elt F) → (⟨S262144, .i32⟩ : BufTy).Contents (Elt F)),
    ternary main_v277 main_v279 main_arg1 main_v280 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v280 main_v281 (broadcastInDim S262144x1 ![0] bcast_S262144_S262144x1_0 : (⟨S262144, .i32⟩ : BufTy).Contents (Elt F) → (⟨S262144x1, .i32⟩ : BufTy).Contents (Elt F)),
    binary main_v275 main_v281 main_v282 ((fun x i => Host.gather gather_S8192_S262144x1_S262144_n_0_n_n_0_1_1 x i) : (⟨S8192, .f32⟩ : BufTy).Contents (Elt F) → (⟨S262144x1, .i32⟩ : BufTy).Contents (Elt F) → (⟨S262144, .f32⟩ : BufTy).Contents (Elt F)),
    nullary main_c_69 (constantI S_ 32 0#32),
    unary main_c_69 main_v283 (broadcastInDim S262144 ![] bcast_S_S262144 : (⟨S_, .i32⟩ : BufTy).Contents (Elt F) → (⟨S262144, .i32⟩ : BufTy).Contents (Elt F)),
    binary main_arg2 main_v283 main_v284 (cmpi .slt : (⟨S262144, .i32⟩ : BufTy).Contents (Elt F) → (⟨S262144, .i32⟩ : BufTy).Contents (Elt F) → (⟨S262144, .i1⟩ : BufTy).Contents (Elt F)),
    nullary main_c_70 (constantI S_ 32 8192#32),
    unary main_c_70 main_v285 (broadcastInDim S262144 ![] bcast_S_S262144 : (⟨S_, .i32⟩ : BufTy).Contents (Elt F) → (⟨S262144, .i32⟩ : BufTy).Contents (Elt F)),
    binary main_arg2 main_v285 main_v286 (addi : (⟨S262144, .i32⟩ : BufTy).Contents (Elt F) → (⟨S262144, .i32⟩ : BufTy).Contents (Elt F) → (⟨S262144, .i32⟩ : BufTy).Contents (Elt F)),
    ternary main_v284 main_v286 main_arg2 main_v287 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v287 main_v288 (broadcastInDim S262144x1 ![0] bcast_S262144_S262144x1_0 : (⟨S262144, .i32⟩ : BufTy).Contents (Elt F) → (⟨S262144x1, .i32⟩ : BufTy).Contents (Elt F)),
    binary main_v275 main_v288 main_v289 ((fun x i => Host.gather gather_S8192_S262144x1_S262144_n_0_n_n_0_1_1 x i) : (⟨S8192, .f32⟩ : BufTy).Contents (Elt F) → (⟨S262144x1, .i32⟩ : BufTy).Contents (Elt F) → (⟨S262144, .f32⟩ : BufTy).Contents (Elt F)),
    binary main_v282 main_v289 main_v290 (mulf : (⟨S262144, .f32⟩ : BufTy).Contents (Elt F) → (⟨S262144, .f32⟩ : BufTy).Contents (Elt F) → (⟨S262144, .f32⟩ : BufTy).Contents (Elt F)),
    nullary main_cst_71 (constant S_ .f32 0x00000000#32),
    unary main_cst_71 main_v291 (broadcastInDim S8192x64 ![] bcast_S_S8192x64 : (⟨S_, .f32⟩ : BufTy).Contents (Elt F) → (⟨S8192x64, .f32⟩ : BufTy).Contents (Elt F)),
    nullary main_c_72 (constantI S_ 32 0#32),
    unary main_c_72 main_v292 (broadcastInDim S262144 ![] bcast_S_S262144 : (⟨S_, .i32⟩ : BufTy).Contents (Elt F) → (⟨S262144, .i32⟩ : BufTy).Contents (Elt F)),
    binary main_arg1 main_v292 main_v293 (cmpi .slt : (⟨S262144, .i32⟩ : BufTy).Contents (Elt F) → (⟨S262144, .i32⟩ : BufTy).Contents (Elt F) → (⟨S262144, .i1⟩ : BufTy).Contents (Elt F)),
    nullary main_c_73 (constantI S_ 32 8192#32),
    unary main_c_73 main_v294 (broadcastInDim S262144 ![] bcast_S_S262144 : (⟨S_, .i32⟩ : BufTy).Contents (Elt F) → (⟨S262144, .i32⟩ : BufTy).Contents (Elt F)),
    binary main_arg1 main_v294 main_v295 (addi : (⟨S262144, .i32⟩ : BufTy).Contents (Elt F) → (⟨S262144, .i32⟩ : BufTy).Contents (Elt F) → (⟨S262144, .i32⟩ : BufTy).Contents (Elt F)),
    ternary main_v293 main_v295 main_arg1 main_v296 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v296 main_v297 (broadcastInDim S262144x1 ![0] bcast_S262144_S262144x1_0 : (⟨S262144, .i32⟩ : BufTy).Contents (Elt F) → (⟨S262144x1, .i32⟩ : BufTy).Contents (Elt F)),
    binary main_v265 main_v297 main_v298 ((fun x i => Host.gather gather_S8192x64_S262144x1_S262144x64_1_0_n_n_0_1_164 x i) : (⟨S8192x64, .f32⟩ : BufTy).Contents (Elt F) → (⟨S262144x1, .i32⟩ : BufTy).Contents (Elt F) → (⟨S262144x64, .f32⟩ : BufTy).Contents (Elt F)),
    unary main_v290 main_v299 (broadcastInDim S262144x1 ![0] bcast_S262144_S262144x1_0 : (⟨S262144, .f32⟩ : BufTy).Contents (Elt F) → (⟨S262144x1, .f32⟩ : BufTy).Contents (Elt F)),
    unary main_v299 main_v300 (broadcastInDim S262144x64 ![0, 1] bcast_S262144x1_S262144x64_0_1 : (⟨S262144x1, .f32⟩ : BufTy).Contents (Elt F) → (⟨S262144x64, .f32⟩ : BufTy).Contents (Elt F)),
    binary main_v298 main_v300 main_v301 (mulf : (⟨S262144x64, .f32⟩ : BufTy).Contents (Elt F) → (⟨S262144x64, .f32⟩ : BufTy).Contents (Elt F) → (⟨S262144x64, .f32⟩ : BufTy).Contents (Elt F)),
    nullary main_c_74 (constantI S_ 32 0#32),
    unary main_c_74 main_v302 (broadcastInDim S262144 ![] bcast_S_S262144 : (⟨S_, .i32⟩ : BufTy).Contents (Elt F) → (⟨S262144, .i32⟩ : BufTy).Contents (Elt F)),
    binary main_arg2 main_v302 main_v303 (cmpi .slt : (⟨S262144, .i32⟩ : BufTy).Contents (Elt F) → (⟨S262144, .i32⟩ : BufTy).Contents (Elt F) → (⟨S262144, .i1⟩ : BufTy).Contents (Elt F)),
    nullary main_c_75 (constantI S_ 32 8192#32),
    unary main_c_75 main_v304 (broadcastInDim S262144 ![] bcast_S_S262144 : (⟨S_, .i32⟩ : BufTy).Contents (Elt F) → (⟨S262144, .i32⟩ : BufTy).Contents (Elt F)),
    binary main_arg2 main_v304 main_v305 (addi : (⟨S262144, .i32⟩ : BufTy).Contents (Elt F) → (⟨S262144, .i32⟩ : BufTy).Contents (Elt F) → (⟨S262144, .i32⟩ : BufTy).Contents (Elt F)),
    ternary main_v303 main_v305 main_arg2 main_v306 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v306 main_v307 (broadcastInDim S262144x1 ![0] bcast_S262144_S262144x1_0 : (⟨S262144, .i32⟩ : BufTy).Contents (Elt F) → (⟨S262144x1, .i32⟩ : BufTy).Contents (Elt F)),
    ternary main_v291 main_v307 main_v301 main_v308 ((fun x i u => Host.scatterAdd scatter_S8192x64_S262144x1_S262144x64_1_0_0_1 x i u) : (⟨S8192x64, .f32⟩ : BufTy).Contents (Elt F) → (⟨S262144x1, .i32⟩ : BufTy).Contents (Elt F) → (⟨S262144x64, .f32⟩ : BufTy).Contents (Elt F) → (⟨S8192x64, .f32⟩ : BufTy).Contents (Elt F)),
    binary main_v275 main_v275 main_v309 (mulf : (⟨S8192, .f32⟩ : BufTy).Contents (Elt F) → (⟨S8192, .f32⟩ : BufTy).Contents (Elt F) → (⟨S8192, .f32⟩ : BufTy).Contents (Elt F)),
    unary main_v309 main_v310 (broadcastInDim S8192x1 ![0] bcast_S8192_S8192x1_0 : (⟨S8192, .f32⟩ : BufTy).Contents (Elt F) → (⟨S8192x1, .f32⟩ : BufTy).Contents (Elt F)),
    unary main_v310 main_v311 (broadcastInDim S8192x64 ![0, 1] bcast_S8192x1_S8192x64_0_1 : (⟨S8192x1, .f32⟩ : BufTy).Contents (Elt F) → (⟨S8192x64, .f32⟩ : BufTy).Contents (Elt F)),
    binary main_v265 main_v311 main_v312 (mulf : (⟨S8192x64, .f32⟩ : BufTy).Contents (Elt F) → (⟨S8192x64, .f32⟩ : BufTy).Contents (Elt F) → (⟨S8192x64, .f32⟩ : BufTy).Contents (Elt F)),
    binary main_v308 main_v312 main_v313 (addf : (⟨S8192x64, .f32⟩ : BufTy).Contents (Elt F) → (⟨S8192x64, .f32⟩ : BufTy).Contents (Elt F) → (⟨S8192x64, .f32⟩ : BufTy).Contents (Elt F)),
    unary main_arg14 main_v314 (broadcastInDim S1x64 ![1] bcast_S64_S1x64_1 : (⟨S64, .f32⟩ : BufTy).Contents (Elt F) → (⟨S1x64, .f32⟩ : BufTy).Contents (Elt F)),
    unary main_v314 main_v315 (broadcastInDim S8192x64 ![0, 1] bcast_S1x64_S8192x64_0_1 : (⟨S1x64, .f32⟩ : BufTy).Contents (Elt F) → (⟨S8192x64, .f32⟩ : BufTy).Contents (Elt F)),
    binary main_v313 main_v315 main_v316 (addf : (⟨S8192x64, .f32⟩ : BufTy).Contents (Elt F) → (⟨S8192x64, .f32⟩ : BufTy).Contents (Elt F) → (⟨S8192x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S8192x64, .f32⟩) main_call5_v0) (broadcastInDim S8192x64 ![] bcast_S_S8192x64),
    TRef.binary (TRef.of (T := ⟨S8192x64, .f32⟩) main_v316) (TRef.of (T := ⟨S8192x64, .f32⟩) main_call5_v0) (TRef.of (T := ⟨S8192x64, .f32⟩) main_v317) maximumf ]

set_option maxRecDepth 8192 in
/-- Each touches TensorCore references only. -/
theorem ops5_sub : (ops5 : List (HloOp τ sig (Elt F))).Forall fun op => op.bufs ⊆ tcRefs τ sig :=
  ⟨binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩

set_option maxRecDepth 8192 in
/-- None allocates a buffer. -/
theorem ops5_fresh : ∀ op ∈ (ops5 : List (HloOp τ sig (Elt F))), op.fresh = ∅ := by
  intro _ h; (repeat (cases h with | head => rfl | tail _ h => ?_)); exact nomatch h

/-- Operations 409 to 439 of @main: the concatenation, the attention weights and the combined features. -/
abbrev ops6 : List (HloOp τ sig (Elt F)) :=
  [ nary ![main_v105, main_v211, main_v317] main_v318 (fun u => concatenate S8192x192 1 [⟨S8192x64, u 0⟩, ⟨S8192x64, u 1⟩, ⟨S8192x64, u 2⟩] concatenates_S8192x64_S8192x64_S8192x64_S8192x192_d1),
    binary main_v318 main_arg15 main_v319 ((fun l r => Host.dotGeneral dot_S8192x192_S192x192_S8192x192_1_0_0_1_n_n none l r) : (⟨S8192x192, .f32⟩ : BufTy).Contents (Elt F) → (⟨S192x192, .f32⟩ : BufTy).Contents (Elt F) → (⟨S8192x192, .f32⟩ : BufTy).Contents (Elt F)),
    unary main_arg16 main_v320 (broadcastInDim S1x192 ![1] bcast_S192_S1x192_1 : (⟨S192, .f32⟩ : BufTy).Contents (Elt F) → (⟨S1x192, .f32⟩ : BufTy).Contents (Elt F)),
    unary main_v320 main_v321 (broadcastInDim S8192x192 ![0, 1] bcast_S1x192_S8192x192_0_1 : (⟨S1x192, .f32⟩ : BufTy).Contents (Elt F) → (⟨S8192x192, .f32⟩ : BufTy).Contents (Elt F)),
    binary main_v319 main_v321 main_v322 (addf : (⟨S8192x192, .f32⟩ : BufTy).Contents (Elt F) → (⟨S8192x192, .f32⟩ : BufTy).Contents (Elt F) → (⟨S8192x192, .f32⟩ : BufTy).Contents (Elt F)),
    reshape main_v322 main_v323 rfl shapeCasts_S8192x192_S8192x64x3,
    nullary main_cst_76 (constant S_ .f32 0xFF800000#32),
    binary main_v323 main_cst_76 main_v324 ((fun x v => Host.reduce FloatOps.maximumf x v reducesTo_S8192x64x3_S8192x64_d2 h_S_) : (⟨S8192x64x3, .f32⟩ : BufTy).Contents (Elt F) → (⟨S_, .f32⟩ : BufTy).Contents (Elt F) → (⟨S8192x64, .f32⟩ : BufTy).Contents (Elt F)),
    nullary main_cst_77 (constant S_ .f32 0xFF800000#32),
    unary main_cst_77 main_v325 (broadcastInDim S8192x64 ![] bcast_S_S8192x64 : (⟨S_, .f32⟩ : BufTy).Contents (Elt F) → (⟨S8192x64, .f32⟩ : BufTy).Contents (Elt F)),
    binary main_v325 main_v324 main_v326 (maximumf : (⟨S8192x64, .f32⟩ : BufTy).Contents (Elt F) → (⟨S8192x64, .f32⟩ : BufTy).Contents (Elt F) → (⟨S8192x64, .f32⟩ : BufTy).Contents (Elt F)),
    unary main_v326 main_v327 (broadcastInDim S8192x64x1 ![0, 1] bcast_S8192x64_S8192x64x1_0_1 : (⟨S8192x64, .f32⟩ : BufTy).Contents (Elt F) → (⟨S8192x64x1, .f32⟩ : BufTy).Contents (Elt F)),
    unary main_v327 main_v328 (broadcastInDim S8192x64x3 ![0, 1, 2] bcast_S8192x64x1_S8192x64x3_0_1_2 : (⟨S8192x64x1, .f32⟩ : BufTy).Contents (Elt F) → (⟨S8192x64x3, .f32⟩ : BufTy).Contents (Elt F)),
    binary main_v323 main_v328 main_v329 (subf : (⟨S8192x64x3, .f32⟩ : BufTy).Contents (Elt F) → (⟨S8192x64x3, .f32⟩ : BufTy).Contents (Elt F) → (⟨S8192x64x3, .f32⟩ : BufTy).Contents (Elt F)),
    unary main_v329 main_v330 (Host.exp : (⟨S8192x64x3, .f32⟩ : BufTy).Contents (Elt F) → (⟨S8192x64x3, .f32⟩ : BufTy).Contents (Elt F)),
    nullary main_cst_78 (constant S_ .f32 0x00000000#32),
    binary main_v330 main_cst_78 main_v331 ((fun x v => Host.reduceAdd x v reducesTo_S8192x64x3_S8192x64_d2 h_S_) : (⟨S8192x64x3, .f32⟩ : BufTy).Contents (Elt F) → (⟨S_, .f32⟩ : BufTy).Contents (Elt F) → (⟨S8192x64, .f32⟩ : BufTy).Contents (Elt F)),
    unary main_v331 main_v332 (broadcastInDim S8192x64x1 ![0, 1] bcast_S8192x64_S8192x64x1_0_1 : (⟨S8192x64, .f32⟩ : BufTy).Contents (Elt F) → (⟨S8192x64x1, .f32⟩ : BufTy).Contents (Elt F)),
    unary main_v332 main_v333 (broadcastInDim S8192x64x3 ![0, 1, 2] bcast_S8192x64x1_S8192x64x3_0_1_2 : (⟨S8192x64x1, .f32⟩ : BufTy).Contents (Elt F) → (⟨S8192x64x3, .f32⟩ : BufTy).Contents (Elt F)),
    binary main_v330 main_v333 main_v334 (Host.divf : (⟨S8192x64x3, .f32⟩ : BufTy).Contents (Elt F) → (⟨S8192x64x3, .f32⟩ : BufTy).Contents (Elt F) → (⟨S8192x64x3, .f32⟩ : BufTy).Contents (Elt F)),
    unary main_v334 main_v335 ((extractStridedSlice S8192x64x1 ![0, 0, 0] · slices_S8192x64x3_S8192x64x1_0_0_0) : (⟨S8192x64x3, .f32⟩ : BufTy).Contents (Elt F) → (⟨S8192x64x1, .f32⟩ : BufTy).Contents (Elt F)),
    reshape main_v335 main_v336 rfl shapeCasts_S8192x64x1_S8192x64,
    binary main_v105 main_v336 main_v337 (mulf : (⟨S8192x64, .f32⟩ : BufTy).Contents (Elt F) → (⟨S8192x64, .f32⟩ : BufTy).Contents (Elt F) → (⟨S8192x64, .f32⟩ : BufTy).Contents (Elt F)),
    unary main_v334 main_v338 ((extractStridedSlice S8192x64x1 ![0, 0, 1] · slices_S8192x64x3_S8192x64x1_0_0_1) : (⟨S8192x64x3, .f32⟩ : BufTy).Contents (Elt F) → (⟨S8192x64x1, .f32⟩ : BufTy).Contents (Elt F)),
    reshape main_v338 main_v339 rfl shapeCasts_S8192x64x1_S8192x64,
    binary main_v211 main_v339 main_v340 (mulf : (⟨S8192x64, .f32⟩ : BufTy).Contents (Elt F) → (⟨S8192x64, .f32⟩ : BufTy).Contents (Elt F) → (⟨S8192x64, .f32⟩ : BufTy).Contents (Elt F)),
    binary main_v337 main_v340 main_v341 (addf : (⟨S8192x64, .f32⟩ : BufTy).Contents (Elt F) → (⟨S8192x64, .f32⟩ : BufTy).Contents (Elt F) → (⟨S8192x64, .f32⟩ : BufTy).Contents (Elt F)),
    unary main_v334 main_v342 ((extractStridedSlice S8192x64x1 ![0, 0, 2] · slices_S8192x64x3_S8192x64x1_0_0_2) : (⟨S8192x64x3, .f32⟩ : BufTy).Contents (Elt F) → (⟨S8192x64x1, .f32⟩ : BufTy).Contents (Elt F)),
    reshape main_v342 main_v343 rfl shapeCasts_S8192x64x1_S8192x64,
    binary main_v317 main_v343 main_v344 (mulf : (⟨S8192x64, .f32⟩ : BufTy).Contents (Elt F) → (⟨S8192x64, .f32⟩ : BufTy).Contents (Elt F) → (⟨S8192x64, .f32⟩ : BufTy).Contents (Elt F)),
    binary main_v341 main_v344 main_v345 (addf : (⟨S8192x64, .f32⟩ : BufTy).Contents (Elt F) → (⟨S8192x64, .f32⟩ : BufTy).Contents (Elt F) → (⟨S8192x64, .f32⟩ : BufTy).Contents (Elt F)) ]

set_option maxRecDepth 8192 in
/-- Each touches TensorCore references only. -/
theorem ops6_sub : (ops6 : List (HloOp τ sig (Elt F))).Forall fun op => op.bufs ⊆ tcRefs τ sig :=
  ⟨nary_bufs_sub .., binary_bufs_sub .., unary_bufs_sub .., unary_bufs_sub .., binary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., reshape_bufs_sub .., binary_bufs_sub .., unary_bufs_sub .., reshape_bufs_sub .., binary_bufs_sub .., binary_bufs_sub .., unary_bufs_sub .., reshape_bufs_sub .., binary_bufs_sub .., binary_bufs_sub ..⟩

set_option maxRecDepth 8192 in
/-- None allocates a buffer. -/
theorem ops6_fresh : ∀ op ∈ (ops6 : List (HloOp τ sig (Elt F))), op.fresh = ∅ := by
  intro _ h; (repeat (cases h with | head => rfl | tail _ h => ?_)); exact nomatch h

/-- Operations 440 to 504 of @main: the decoder's reconstruction convolution. -/
abbrev ops7 : List (HloOp τ sig (Elt F)) :=
  [ binary main_v345 main_arg17 main_v346 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    nullary main_cst_79 (constant S_ .f32 0x3F800000#32),
    unary main_cst_79 main_v347 (broadcastInDim S8192 ![] bcast_S_S8192 : (⟨S_, .f32⟩ : BufTy).Contents (Elt F) → (⟨S8192, .f32⟩ : BufTy).Contents (Elt F)),
    nullary main_c_80 (constantI S_ 32 0#32),
    unary main_c_80 main_v348 (broadcastInDim S262144 ![] bcast_S_S262144 : (⟨S_, .i32⟩ : BufTy).Contents (Elt F) → (⟨S262144, .i32⟩ : BufTy).Contents (Elt F)),
    binary main_arg2 main_v348 main_v349 (cmpi .slt : (⟨S262144, .i32⟩ : BufTy).Contents (Elt F) → (⟨S262144, .i32⟩ : BufTy).Contents (Elt F) → (⟨S262144, .i1⟩ : BufTy).Contents (Elt F)),
    nullary main_c_81 (constantI S_ 32 8192#32),
    unary main_c_81 main_v350 (broadcastInDim S262144 ![] bcast_S_S262144 : (⟨S_, .i32⟩ : BufTy).Contents (Elt F) → (⟨S262144, .i32⟩ : BufTy).Contents (Elt F)),
    binary main_arg2 main_v350 main_v351 (addi : (⟨S262144, .i32⟩ : BufTy).Contents (Elt F) → (⟨S262144, .i32⟩ : BufTy).Contents (Elt F) → (⟨S262144, .i32⟩ : BufTy).Contents (Elt F)),
    ternary main_v349 main_v351 main_arg2 main_v352 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v352 main_v353 (broadcastInDim S262144x1 ![0] bcast_S262144_S262144x1_0 : (⟨S262144, .i32⟩ : BufTy).Contents (Elt F) → (⟨S262144x1, .i32⟩ : BufTy).Contents (Elt F)),
    nullary main_cst_82 (constant S_ .f32 0x3F800000#32),
    unary main_cst_82 main_v354 (broadcastInDim S262144 ![] bcast_S_S262144 : (⟨S_, .f32⟩ : BufTy).Contents (Elt F) → (⟨S262144, .f32⟩ : BufTy).Contents (Elt F)),
    ternary main_v347 main_v353 main_v354 main_v355 ((fun x i u => Host.scatterAdd scatter_S8192_S262144x1_S262144_n_0_0_1 x i u) : (⟨S8192, .f32⟩ : BufTy).Contents (Elt F) → (⟨S262144x1, .i32⟩ : BufTy).Contents (Elt F) → (⟨S262144, .f32⟩ : BufTy).Contents (Elt F) → (⟨S8192, .f32⟩ : BufTy).Contents (Elt F)),
    unary main_v355 main_v356 (Host.rsqrt : (⟨S8192, .f32⟩ : BufTy).Contents (Elt F) → (⟨S8192, .f32⟩ : BufTy).Contents (Elt F)),
    nullary main_c_83 (constantI S_ 32 0#32),
    unary main_c_83 main_v357 (broadcastInDim S262144 ![] bcast_S_S262144 : (⟨S_, .i32⟩ : BufTy).Contents (Elt F) → (⟨S262144, .i32⟩ : BufTy).Contents (Elt F)),
    binary main_arg1 main_v357 main_v358 (cmpi .slt : (⟨S262144, .i32⟩ : BufTy).Contents (Elt F) → (⟨S262144, .i32⟩ : BufTy).Contents (Elt F) → (⟨S262144, .i1⟩ : BufTy).Contents (Elt F)),
    nullary main_c_84 (constantI S_ 32 8192#32),
    unary main_c_84 main_v359 (broadcastInDim S262144 ![] bcast_S_S262144 : (⟨S_, .i32⟩ : BufTy).Contents (Elt F) → (⟨S262144, .i32⟩ : BufTy).Contents (Elt F)),
    binary main_arg1 main_v359 main_v360 (addi : (⟨S262144, .i32⟩ : BufTy).Contents (Elt F) → (⟨S262144, .i32⟩ : BufTy).Contents (Elt F) → (⟨S262144, .i32⟩ : BufTy).Contents (Elt F)),
    ternary main_v358 main_v360 main_arg1 main_v361 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v361 main_v362 (broadcastInDim S262144x1 ![0] bcast_S262144_S262144x1_0 : (⟨S262144, .i32⟩ : BufTy).Contents (Elt F) → (⟨S262144x1, .i32⟩ : BufTy).Contents (Elt F)),
    binary main_v356 main_v362 main_v363 ((fun x i => Host.gather gather_S8192_S262144x1_S262144_n_0_n_n_0_1_1 x i) : (⟨S8192, .f32⟩ : BufTy).Contents (Elt F) → (⟨S262144x1, .i32⟩ : BufTy).Contents (Elt F) → (⟨S262144, .f32⟩ : BufTy).Contents (Elt F)),
    nullary main_c_85 (constantI S_ 32 0#32),
    unary main_c_85 main_v364 (broadcastInDim S262144 ![] bcast_S_S262144 : (⟨S_, .i32⟩ : BufTy).Contents (Elt F) → (⟨S262144, .i32⟩ : BufTy).Contents (Elt F)),
    binary main_arg2 main_v364 main_v365 (cmpi .slt : (⟨S262144, .i32⟩ : BufTy).Contents (Elt F) → (⟨S262144, .i32⟩ : BufTy).Contents (Elt F) → (⟨S262144, .i1⟩ : BufTy).Contents (Elt F)),
    nullary main_c_86 (constantI S_ 32 8192#32),
    unary main_c_86 main_v366 (broadcastInDim S262144 ![] bcast_S_S262144 : (⟨S_, .i32⟩ : BufTy).Contents (Elt F) → (⟨S262144, .i32⟩ : BufTy).Contents (Elt F)),
    binary main_arg2 main_v366 main_v367 (addi : (⟨S262144, .i32⟩ : BufTy).Contents (Elt F) → (⟨S262144, .i32⟩ : BufTy).Contents (Elt F) → (⟨S262144, .i32⟩ : BufTy).Contents (Elt F)),
    ternary main_v365 main_v367 main_arg2 main_v368 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v368 main_v369 (broadcastInDim S262144x1 ![0] bcast_S262144_S262144x1_0 : (⟨S262144, .i32⟩ : BufTy).Contents (Elt F) → (⟨S262144x1, .i32⟩ : BufTy).Contents (Elt F)),
    binary main_v356 main_v369 main_v370 ((fun x i => Host.gather gather_S8192_S262144x1_S262144_n_0_n_n_0_1_1 x i) : (⟨S8192, .f32⟩ : BufTy).Contents (Elt F) → (⟨S262144x1, .i32⟩ : BufTy).Contents (Elt F) → (⟨S262144, .f32⟩ : BufTy).Contents (Elt F)),
    binary main_v363 main_v370 main_v371 (mulf : (⟨S262144, .f32⟩ : BufTy).Contents (Elt F) → (⟨S262144, .f32⟩ : BufTy).Contents (Elt F) → (⟨S262144, .f32⟩ : BufTy).Contents (Elt F)),
    nullary main_cst_87 (constant S_ .f32 0x00000000#32),
    unary main_cst_87 main_v372 (broadcastInDim S8192x64 ![] bcast_S_S8192x64 : (⟨S_, .f32⟩ : BufTy).Contents (Elt F) → (⟨S8192x64, .f32⟩ : BufTy).Contents (Elt F)),
    nullary main_c_88 (constantI S_ 32 0#32),
    unary main_c_88 main_v373 (broadcastInDim S262144 ![] bcast_S_S262144 : (⟨S_, .i32⟩ : BufTy).Contents (Elt F) → (⟨S262144, .i32⟩ : BufTy).Contents (Elt F)),
    binary main_arg1 main_v373 main_v374 (cmpi .slt : (⟨S262144, .i32⟩ : BufTy).Contents (Elt F) → (⟨S262144, .i32⟩ : BufTy).Contents (Elt F) → (⟨S262144, .i1⟩ : BufTy).Contents (Elt F)),
    nullary main_c_89 (constantI S_ 32 8192#32),
    unary main_c_89 main_v375 (broadcastInDim S262144 ![] bcast_S_S262144 : (⟨S_, .i32⟩ : BufTy).Contents (Elt F) → (⟨S262144, .i32⟩ : BufTy).Contents (Elt F)),
    binary main_arg1 main_v375 main_v376 (addi : (⟨S262144, .i32⟩ : BufTy).Contents (Elt F) → (⟨S262144, .i32⟩ : BufTy).Contents (Elt F) → (⟨S262144, .i32⟩ : BufTy).Contents (Elt F)),
    ternary main_v374 main_v376 main_arg1 main_v377 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v377 main_v378 (broadcastInDim S262144x1 ![0] bcast_S262144_S262144x1_0 : (⟨S262144, .i32⟩ : BufTy).Contents (Elt F) → (⟨S262144x1, .i32⟩ : BufTy).Contents (Elt F)),
    binary main_v346 main_v378 main_v379 ((fun x i => Host.gather gather_S8192x64_S262144x1_S262144x64_1_0_n_n_0_1_164 x i) : (⟨S8192x64, .f32⟩ : BufTy).Contents (Elt F) → (⟨S262144x1, .i32⟩ : BufTy).Contents (Elt F) → (⟨S262144x64, .f32⟩ : BufTy).Contents (Elt F)),
    unary main_v371 main_v380 (broadcastInDim S262144x1 ![0] bcast_S262144_S262144x1_0 : (⟨S262144, .f32⟩ : BufTy).Contents (Elt F) → (⟨S262144x1, .f32⟩ : BufTy).Contents (Elt F)),
    unary main_v380 main_v381 (broadcastInDim S262144x64 ![0, 1] bcast_S262144x1_S262144x64_0_1 : (⟨S262144x1, .f32⟩ : BufTy).Contents (Elt F) → (⟨S262144x64, .f32⟩ : BufTy).Contents (Elt F)),
    binary main_v379 main_v381 main_v382 (mulf : (⟨S262144x64, .f32⟩ : BufTy).Contents (Elt F) → (⟨S262144x64, .f32⟩ : BufTy).Contents (Elt F) → (⟨S262144x64, .f32⟩ : BufTy).Contents (Elt F)),
    nullary main_c_90 (constantI S_ 32 0#32),
    unary main_c_90 main_v383 (broadcastInDim S262144 ![] bcast_S_S262144 : (⟨S_, .i32⟩ : BufTy).Contents (Elt F) → (⟨S262144, .i32⟩ : BufTy).Contents (Elt F)),
    binary main_arg2 main_v383 main_v384 (cmpi .slt : (⟨S262144, .i32⟩ : BufTy).Contents (Elt F) → (⟨S262144, .i32⟩ : BufTy).Contents (Elt F) → (⟨S262144, .i1⟩ : BufTy).Contents (Elt F)),
    nullary main_c_91 (constantI S_ 32 8192#32),
    unary main_c_91 main_v385 (broadcastInDim S262144 ![] bcast_S_S262144 : (⟨S_, .i32⟩ : BufTy).Contents (Elt F) → (⟨S262144, .i32⟩ : BufTy).Contents (Elt F)),
    binary main_arg2 main_v385 main_v386 (addi : (⟨S262144, .i32⟩ : BufTy).Contents (Elt F) → (⟨S262144, .i32⟩ : BufTy).Contents (Elt F) → (⟨S262144, .i32⟩ : BufTy).Contents (Elt F)),
    ternary main_v384 main_v386 main_arg2 main_v387 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v387 main_v388 (broadcastInDim S262144x1 ![0] bcast_S262144_S262144x1_0 : (⟨S262144, .i32⟩ : BufTy).Contents (Elt F) → (⟨S262144x1, .i32⟩ : BufTy).Contents (Elt F)),
    ternary main_v372 main_v388 main_v382 main_v389 ((fun x i u => Host.scatterAdd scatter_S8192x64_S262144x1_S262144x64_1_0_0_1 x i u) : (⟨S8192x64, .f32⟩ : BufTy).Contents (Elt F) → (⟨S262144x1, .i32⟩ : BufTy).Contents (Elt F) → (⟨S262144x64, .f32⟩ : BufTy).Contents (Elt F) → (⟨S8192x64, .f32⟩ : BufTy).Contents (Elt F)),
    binary main_v356 main_v356 main_v390 (mulf : (⟨S8192, .f32⟩ : BufTy).Contents (Elt F) → (⟨S8192, .f32⟩ : BufTy).Contents (Elt F) → (⟨S8192, .f32⟩ : BufTy).Contents (Elt F)),
    unary main_v390 main_v391 (broadcastInDim S8192x1 ![0] bcast_S8192_S8192x1_0 : (⟨S8192, .f32⟩ : BufTy).Contents (Elt F) → (⟨S8192x1, .f32⟩ : BufTy).Contents (Elt F)),
    unary main_v391 main_v392 (broadcastInDim S8192x64 ![0, 1] bcast_S8192x1_S8192x64_0_1 : (⟨S8192x1, .f32⟩ : BufTy).Contents (Elt F) → (⟨S8192x64, .f32⟩ : BufTy).Contents (Elt F)),
    binary main_v346 main_v392 main_v393 (mulf : (⟨S8192x64, .f32⟩ : BufTy).Contents (Elt F) → (⟨S8192x64, .f32⟩ : BufTy).Contents (Elt F) → (⟨S8192x64, .f32⟩ : BufTy).Contents (Elt F)),
    binary main_v389 main_v393 main_v394 (addf : (⟨S8192x64, .f32⟩ : BufTy).Contents (Elt F) → (⟨S8192x64, .f32⟩ : BufTy).Contents (Elt F) → (⟨S8192x64, .f32⟩ : BufTy).Contents (Elt F)),
    unary main_arg18 main_v395 (broadcastInDim S1x64 ![1] bcast_S64_S1x64_1 : (⟨S64, .f32⟩ : BufTy).Contents (Elt F) → (⟨S1x64, .f32⟩ : BufTy).Contents (Elt F)),
    unary main_v395 main_v396 (broadcastInDim S8192x64 ![0, 1] bcast_S1x64_S8192x64_0_1 : (⟨S1x64, .f32⟩ : BufTy).Contents (Elt F) → (⟨S8192x64, .f32⟩ : BufTy).Contents (Elt F)),
    binary main_v394 main_v396 main_v397 (addf : (⟨S8192x64, .f32⟩ : BufTy).Contents (Elt F) → (⟨S8192x64, .f32⟩ : BufTy).Contents (Elt F) → (⟨S8192x64, .f32⟩ : BufTy).Contents (Elt F)) ]

set_option maxRecDepth 8192 in
/-- Each touches TensorCore references only. -/
theorem ops7_sub : (ops7 : List (HloOp τ sig (Elt F))).Forall fun op => op.bufs ⊆ tcRefs τ sig :=
  ⟨binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub ..⟩

set_option maxRecDepth 8192 in
/-- None allocates a buffer. -/
theorem ops7_fresh : ∀ op ∈ (ops7 : List (HloOp τ sig (Elt F))), op.fresh = ∅ := by
  intro _ h; (repeat (cases h with | head => rfl | tail _ h => ?_)); exact nomatch h

/-- Operations 505 to 569 of @main: the decoder's structure convolution. -/
abbrev ops8 : List (HloOp τ sig (Elt F)) :=
  [ binary main_v345 main_arg19 main_v398 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    nullary main_cst_92 (constant S_ .f32 0x3F800000#32),
    unary main_cst_92 main_v399 (broadcastInDim S8192 ![] bcast_S_S8192 : (⟨S_, .f32⟩ : BufTy).Contents (Elt F) → (⟨S8192, .f32⟩ : BufTy).Contents (Elt F)),
    nullary main_c_93 (constantI S_ 32 0#32),
    unary main_c_93 main_v400 (broadcastInDim S262144 ![] bcast_S_S262144 : (⟨S_, .i32⟩ : BufTy).Contents (Elt F) → (⟨S262144, .i32⟩ : BufTy).Contents (Elt F)),
    binary main_arg2 main_v400 main_v401 (cmpi .slt : (⟨S262144, .i32⟩ : BufTy).Contents (Elt F) → (⟨S262144, .i32⟩ : BufTy).Contents (Elt F) → (⟨S262144, .i1⟩ : BufTy).Contents (Elt F)),
    nullary main_c_94 (constantI S_ 32 8192#32),
    unary main_c_94 main_v402 (broadcastInDim S262144 ![] bcast_S_S262144 : (⟨S_, .i32⟩ : BufTy).Contents (Elt F) → (⟨S262144, .i32⟩ : BufTy).Contents (Elt F)),
    binary main_arg2 main_v402 main_v403 (addi : (⟨S262144, .i32⟩ : BufTy).Contents (Elt F) → (⟨S262144, .i32⟩ : BufTy).Contents (Elt F) → (⟨S262144, .i32⟩ : BufTy).Contents (Elt F)),
    ternary main_v401 main_v403 main_arg2 main_v404 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v404 main_v405 (broadcastInDim S262144x1 ![0] bcast_S262144_S262144x1_0 : (⟨S262144, .i32⟩ : BufTy).Contents (Elt F) → (⟨S262144x1, .i32⟩ : BufTy).Contents (Elt F)),
    nullary main_cst_95 (constant S_ .f32 0x3F800000#32),
    unary main_cst_95 main_v406 (broadcastInDim S262144 ![] bcast_S_S262144 : (⟨S_, .f32⟩ : BufTy).Contents (Elt F) → (⟨S262144, .f32⟩ : BufTy).Contents (Elt F)),
    ternary main_v399 main_v405 main_v406 main_v407 ((fun x i u => Host.scatterAdd scatter_S8192_S262144x1_S262144_n_0_0_1 x i u) : (⟨S8192, .f32⟩ : BufTy).Contents (Elt F) → (⟨S262144x1, .i32⟩ : BufTy).Contents (Elt F) → (⟨S262144, .f32⟩ : BufTy).Contents (Elt F) → (⟨S8192, .f32⟩ : BufTy).Contents (Elt F)),
    unary main_v407 main_v408 (Host.rsqrt : (⟨S8192, .f32⟩ : BufTy).Contents (Elt F) → (⟨S8192, .f32⟩ : BufTy).Contents (Elt F)),
    nullary main_c_96 (constantI S_ 32 0#32),
    unary main_c_96 main_v409 (broadcastInDim S262144 ![] bcast_S_S262144 : (⟨S_, .i32⟩ : BufTy).Contents (Elt F) → (⟨S262144, .i32⟩ : BufTy).Contents (Elt F)),
    binary main_arg1 main_v409 main_v410 (cmpi .slt : (⟨S262144, .i32⟩ : BufTy).Contents (Elt F) → (⟨S262144, .i32⟩ : BufTy).Contents (Elt F) → (⟨S262144, .i1⟩ : BufTy).Contents (Elt F)),
    nullary main_c_97 (constantI S_ 32 8192#32),
    unary main_c_97 main_v411 (broadcastInDim S262144 ![] bcast_S_S262144 : (⟨S_, .i32⟩ : BufTy).Contents (Elt F) → (⟨S262144, .i32⟩ : BufTy).Contents (Elt F)),
    binary main_arg1 main_v411 main_v412 (addi : (⟨S262144, .i32⟩ : BufTy).Contents (Elt F) → (⟨S262144, .i32⟩ : BufTy).Contents (Elt F) → (⟨S262144, .i32⟩ : BufTy).Contents (Elt F)),
    ternary main_v410 main_v412 main_arg1 main_v413 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v413 main_v414 (broadcastInDim S262144x1 ![0] bcast_S262144_S262144x1_0 : (⟨S262144, .i32⟩ : BufTy).Contents (Elt F) → (⟨S262144x1, .i32⟩ : BufTy).Contents (Elt F)),
    binary main_v408 main_v414 main_v415 ((fun x i => Host.gather gather_S8192_S262144x1_S262144_n_0_n_n_0_1_1 x i) : (⟨S8192, .f32⟩ : BufTy).Contents (Elt F) → (⟨S262144x1, .i32⟩ : BufTy).Contents (Elt F) → (⟨S262144, .f32⟩ : BufTy).Contents (Elt F)),
    nullary main_c_98 (constantI S_ 32 0#32),
    unary main_c_98 main_v416 (broadcastInDim S262144 ![] bcast_S_S262144 : (⟨S_, .i32⟩ : BufTy).Contents (Elt F) → (⟨S262144, .i32⟩ : BufTy).Contents (Elt F)),
    binary main_arg2 main_v416 main_v417 (cmpi .slt : (⟨S262144, .i32⟩ : BufTy).Contents (Elt F) → (⟨S262144, .i32⟩ : BufTy).Contents (Elt F) → (⟨S262144, .i1⟩ : BufTy).Contents (Elt F)),
    nullary main_c_99 (constantI S_ 32 8192#32),
    unary main_c_99 main_v418 (broadcastInDim S262144 ![] bcast_S_S262144 : (⟨S_, .i32⟩ : BufTy).Contents (Elt F) → (⟨S262144, .i32⟩ : BufTy).Contents (Elt F)),
    binary main_arg2 main_v418 main_v419 (addi : (⟨S262144, .i32⟩ : BufTy).Contents (Elt F) → (⟨S262144, .i32⟩ : BufTy).Contents (Elt F) → (⟨S262144, .i32⟩ : BufTy).Contents (Elt F)),
    ternary main_v417 main_v419 main_arg2 main_v420 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v420 main_v421 (broadcastInDim S262144x1 ![0] bcast_S262144_S262144x1_0 : (⟨S262144, .i32⟩ : BufTy).Contents (Elt F) → (⟨S262144x1, .i32⟩ : BufTy).Contents (Elt F)),
    binary main_v408 main_v421 main_v422 ((fun x i => Host.gather gather_S8192_S262144x1_S262144_n_0_n_n_0_1_1 x i) : (⟨S8192, .f32⟩ : BufTy).Contents (Elt F) → (⟨S262144x1, .i32⟩ : BufTy).Contents (Elt F) → (⟨S262144, .f32⟩ : BufTy).Contents (Elt F)),
    binary main_v415 main_v422 main_v423 (mulf : (⟨S262144, .f32⟩ : BufTy).Contents (Elt F) → (⟨S262144, .f32⟩ : BufTy).Contents (Elt F) → (⟨S262144, .f32⟩ : BufTy).Contents (Elt F)),
    nullary main_cst_100 (constant S_ .f32 0x00000000#32),
    unary main_cst_100 main_v424 (broadcastInDim S8192x64 ![] bcast_S_S8192x64 : (⟨S_, .f32⟩ : BufTy).Contents (Elt F) → (⟨S8192x64, .f32⟩ : BufTy).Contents (Elt F)),
    nullary main_c_101 (constantI S_ 32 0#32),
    unary main_c_101 main_v425 (broadcastInDim S262144 ![] bcast_S_S262144 : (⟨S_, .i32⟩ : BufTy).Contents (Elt F) → (⟨S262144, .i32⟩ : BufTy).Contents (Elt F)),
    binary main_arg1 main_v425 main_v426 (cmpi .slt : (⟨S262144, .i32⟩ : BufTy).Contents (Elt F) → (⟨S262144, .i32⟩ : BufTy).Contents (Elt F) → (⟨S262144, .i1⟩ : BufTy).Contents (Elt F)),
    nullary main_c_102 (constantI S_ 32 8192#32),
    unary main_c_102 main_v427 (broadcastInDim S262144 ![] bcast_S_S262144 : (⟨S_, .i32⟩ : BufTy).Contents (Elt F) → (⟨S262144, .i32⟩ : BufTy).Contents (Elt F)),
    binary main_arg1 main_v427 main_v428 (addi : (⟨S262144, .i32⟩ : BufTy).Contents (Elt F) → (⟨S262144, .i32⟩ : BufTy).Contents (Elt F) → (⟨S262144, .i32⟩ : BufTy).Contents (Elt F)),
    ternary main_v426 main_v428 main_arg1 main_v429 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v429 main_v430 (broadcastInDim S262144x1 ![0] bcast_S262144_S262144x1_0 : (⟨S262144, .i32⟩ : BufTy).Contents (Elt F) → (⟨S262144x1, .i32⟩ : BufTy).Contents (Elt F)),
    binary main_v398 main_v430 main_v431 ((fun x i => Host.gather gather_S8192x64_S262144x1_S262144x64_1_0_n_n_0_1_164 x i) : (⟨S8192x64, .f32⟩ : BufTy).Contents (Elt F) → (⟨S262144x1, .i32⟩ : BufTy).Contents (Elt F) → (⟨S262144x64, .f32⟩ : BufTy).Contents (Elt F)),
    unary main_v423 main_v432 (broadcastInDim S262144x1 ![0] bcast_S262144_S262144x1_0 : (⟨S262144, .f32⟩ : BufTy).Contents (Elt F) → (⟨S262144x1, .f32⟩ : BufTy).Contents (Elt F)),
    unary main_v432 main_v433 (broadcastInDim S262144x64 ![0, 1] bcast_S262144x1_S262144x64_0_1 : (⟨S262144x1, .f32⟩ : BufTy).Contents (Elt F) → (⟨S262144x64, .f32⟩ : BufTy).Contents (Elt F)),
    binary main_v431 main_v433 main_v434 (mulf : (⟨S262144x64, .f32⟩ : BufTy).Contents (Elt F) → (⟨S262144x64, .f32⟩ : BufTy).Contents (Elt F) → (⟨S262144x64, .f32⟩ : BufTy).Contents (Elt F)),
    nullary main_c_103 (constantI S_ 32 0#32),
    unary main_c_103 main_v435 (broadcastInDim S262144 ![] bcast_S_S262144 : (⟨S_, .i32⟩ : BufTy).Contents (Elt F) → (⟨S262144, .i32⟩ : BufTy).Contents (Elt F)),
    binary main_arg2 main_v435 main_v436 (cmpi .slt : (⟨S262144, .i32⟩ : BufTy).Contents (Elt F) → (⟨S262144, .i32⟩ : BufTy).Contents (Elt F) → (⟨S262144, .i1⟩ : BufTy).Contents (Elt F)),
    nullary main_c_104 (constantI S_ 32 8192#32),
    unary main_c_104 main_v437 (broadcastInDim S262144 ![] bcast_S_S262144 : (⟨S_, .i32⟩ : BufTy).Contents (Elt F) → (⟨S262144, .i32⟩ : BufTy).Contents (Elt F)),
    binary main_arg2 main_v437 main_v438 (addi : (⟨S262144, .i32⟩ : BufTy).Contents (Elt F) → (⟨S262144, .i32⟩ : BufTy).Contents (Elt F) → (⟨S262144, .i32⟩ : BufTy).Contents (Elt F)),
    ternary main_v436 main_v438 main_arg2 main_v439 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v439 main_v440 (broadcastInDim S262144x1 ![0] bcast_S262144_S262144x1_0 : (⟨S262144, .i32⟩ : BufTy).Contents (Elt F) → (⟨S262144x1, .i32⟩ : BufTy).Contents (Elt F)),
    ternary main_v424 main_v440 main_v434 main_v441 ((fun x i u => Host.scatterAdd scatter_S8192x64_S262144x1_S262144x64_1_0_0_1 x i u) : (⟨S8192x64, .f32⟩ : BufTy).Contents (Elt F) → (⟨S262144x1, .i32⟩ : BufTy).Contents (Elt F) → (⟨S262144x64, .f32⟩ : BufTy).Contents (Elt F) → (⟨S8192x64, .f32⟩ : BufTy).Contents (Elt F)),
    binary main_v408 main_v408 main_v442 (mulf : (⟨S8192, .f32⟩ : BufTy).Contents (Elt F) → (⟨S8192, .f32⟩ : BufTy).Contents (Elt F) → (⟨S8192, .f32⟩ : BufTy).Contents (Elt F)),
    unary main_v442 main_v443 (broadcastInDim S8192x1 ![0] bcast_S8192_S8192x1_0 : (⟨S8192, .f32⟩ : BufTy).Contents (Elt F) → (⟨S8192x1, .f32⟩ : BufTy).Contents (Elt F)),
    unary main_v443 main_v444 (broadcastInDim S8192x64 ![0, 1] bcast_S8192x1_S8192x64_0_1 : (⟨S8192x1, .f32⟩ : BufTy).Contents (Elt F) → (⟨S8192x64, .f32⟩ : BufTy).Contents (Elt F)),
    binary main_v398 main_v444 main_v445 (mulf : (⟨S8192x64, .f32⟩ : BufTy).Contents (Elt F) → (⟨S8192x64, .f32⟩ : BufTy).Contents (Elt F) → (⟨S8192x64, .f32⟩ : BufTy).Contents (Elt F)),
    binary main_v441 main_v445 main_v446 (addf : (⟨S8192x64, .f32⟩ : BufTy).Contents (Elt F) → (⟨S8192x64, .f32⟩ : BufTy).Contents (Elt F) → (⟨S8192x64, .f32⟩ : BufTy).Contents (Elt F)),
    unary main_arg20 main_v447 (broadcastInDim S1x64 ![1] bcast_S64_S1x64_1 : (⟨S64, .f32⟩ : BufTy).Contents (Elt F) → (⟨S1x64, .f32⟩ : BufTy).Contents (Elt F)),
    unary main_v447 main_v448 (broadcastInDim S8192x64 ![0, 1] bcast_S1x64_S8192x64_0_1 : (⟨S1x64, .f32⟩ : BufTy).Contents (Elt F) → (⟨S8192x64, .f32⟩ : BufTy).Contents (Elt F)),
    binary main_v446 main_v448 main_v449 (addf : (⟨S8192x64, .f32⟩ : BufTy).Contents (Elt F) → (⟨S8192x64, .f32⟩ : BufTy).Contents (Elt F) → (⟨S8192x64, .f32⟩ : BufTy).Contents (Elt F)) ]

set_option maxRecDepth 8192 in
/-- Each touches TensorCore references only. -/
theorem ops8_sub : (ops8 : List (HloOp τ sig (Elt F))).Forall fun op => op.bufs ⊆ tcRefs τ sig :=
  ⟨binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub ..⟩

set_option maxRecDepth 8192 in
/-- None allocates a buffer. -/
theorem ops8_fresh : ∀ op ∈ (ops8 : List (HloOp τ sig (Elt F))), op.fresh = ∅ := by
  intro _ h; (repeat (cases h with | head => rfl | tail _ h => ?_)); exact nomatch h

/-- Operations 570 to 571 of @main: the transpose and the product of the structure features with it. -/
abbrev ops9 : List (HloOp τ sig (Elt F)) :=
  [ unary main_v449 main_v450 ((transpose S64x8192 [1, 0] · transposes_S8192x64_S64x8192_1_0) : (⟨S8192x64, .f32⟩ : BufTy).Contents (Elt F) → (⟨S64x8192, .f32⟩ : BufTy).Contents (Elt F)),
    binary main_v449 main_v450 main_v451 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)) ]

set_option maxRecDepth 8192 in
/-- Each touches TensorCore references only. -/
theorem ops9_sub : (ops9 : List (HloOp τ sig (Elt F))).Forall fun op => op.bufs ⊆ tcRefs τ sig :=
  ⟨unary_bufs_sub .., binary_bufs_sub ..⟩

set_option maxRecDepth 8192 in
/-- None allocates a buffer. -/
theorem ops9_fresh : ∀ op ∈ (ops9 : List (HloOp τ sig (Elt F))), op.fresh = ∅ := by
  intro _ h; (repeat (cases h with | head => rfl | tail _ h => ?_)); exact nomatch h

/-- @main's operations, stretch after stretch. -/
abbrev opsAll : List (HloOp τ sig (Elt F)) := ops0 ++ ops1 ++ ops2 ++ ops3 ++ ops4 ++ ops5 ++ ops6 ++ ops7 ++ ops8 ++ ops9

set_option maxRecDepth 200000 in
set_option maxHeartbeats 4000000 in
/-- The printed @main is the sequence of its operations. -/
theorem main_eq (c : Dev nD) : main (F := F) c = seq opsAll := rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.LibNary3.lean ====
/-
  Two general facts for reading back a straight line of host operations that holds a THREE-operand `nary`
  operation (a concatenate of three computed tensors) among typed-reference operations of outlined callees.

  * `nary3_result` / `nary3_result'`: the result of an `nary` operation over a LITERAL family of three references,
    with each operand's contents at its own reference — `Fin.cons (V ↑x) (Fin.cons (V ↑a) (Fin.cons (V ↑b) …))` in place
    of `fun k => V ↑(![x, a, b] k)` —, so that rewriting the operands' contents can go on under it. It is the
    library's four-reference statement (`StableHlo.nary4_result`) at three references; the primed form is for one
    `simp` pass (the result reference un-indexed, as the library's other primed result lemmas).
  * `cast_pair`: a transport along an equation of types and back along its converse is the identity. It clears the
    paired `ofBuf (toBuf v)` transports a typed-reference operation's result carries into its consumer, by
    SYNTACTIC matching of the two types (where `cast_eq` on an unpaired transport would have to unify a buffer's
    computed type with its literal one).
-/
import Idealize.ShloMosaic.Lib.StableHlo.Run

noncomputable section

namespace Idealize.ShloMosaic.StableHlo

variable {nD : Nat} {τ : Topo} {sig : RefSig} {Val : EltTy → Type}

/-- `nary` over a literal family of three references: the result with each operand's contents at its own
    reference. -/
theorem nary3_result {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- The same, stated for a `simp` pass. -/
theorem nary3_result' {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

/-- A transport there and back is the identity. -/
theorem cast_pair {A B : Type} (h1 : A = B) (h2 : B = A) (v : B) : cast h1 (cast h2 v) = v := by
  subst h1; rfl

end Idealize.ShloMosaic.StableHlo

end
-- ==== Proof.RefRunH.lean ====
import proofs.«414230_j6141803233547_3_alg».proof.Proof.RefOps
import proofs.«414230_j6141803233547_3_alg».proof.Proof.ReadP
import proofs.«414230_j6141803233547_3_alg».proof.Proof.LibNary3
import proofs.«414230_j6141803233547_3_alg».proof.Defs
import proofs.«414230_j6141803233547_3_alg».proof.Proof.Gen.Pre_finite_inputs
import Idealize.ShloMosaic.Lib.StableHlo.Run

/-!
# The reference program's run, stretch by stretch

The reference is a straight line of 571 host operations, cut in ten stretches: six convolutions
with their rectifiers, the attention and combination, the two decoder convolutions, and the final
product.  For each stretch we read the one buffer later stretches use as the stage function of
what the stretch was handed (at an arbitrary valuation entering it), and record that a buffer the
stretch does not write keeps its contents.  Chaining the ten readings gives the three results as
the stage functions of the arguments, and the arguments unchanged.
-/

-- one declaration at a time: ten long simp passes side by side would hold their memory together
set_option Elab.async false

noncomputable section

namespace Cert.ReferenceIdeal.Hand

open Cert.ReferenceIdeal Cert.ReferenceIdeal.Gen Cert.ReferenceIdeal.Read Idealize.ShloMosaic Idealize.ShloMosaic.TcCoe
  Idealize.SL.Sem Idealize.ShloMosaic.StableHlo

variable {F : FTy → Type} [FloatOps F]

/-- running two lines one after the other is running their concatenation -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- one operation writes a reference of the list -/
local macro "wr1" : tactic =>
  `(tactic| (simp only [nullary_writes, unary_writes, binary_writes, ternary_writes, quaternary_writes, reshape_writes, nary_writes,
      Finset.singleton_subset_iff, List.mem_toFinset]; exact List.mem_map_of_mem (by decide)))

/-- the results of a stretch in one pass, the three-operand concatenation included -/
local macro "stretch_results" : tactic =>
  `(tactic| (simp (disch := decide) only [after_cons, after_nil, StableHlo.nary3_result',
      nullary_result', unary_result', binary_result', ternary_result', quaternary_result', reshape_result', nary_result',
      nullary_result_ne', unary_result_ne', binary_result_ne', ternary_result_ne', quaternary_result_ne', reshape_result_ne',
      nary_result_ne']))

/-! ## What each stretch writes, and what it therefore keeps -/

/-- the references stretch 0 writes -/
abbrev ops0_W : List (Ref sig .tc) := [main_v0, main_cst, main_v1, main_c, main_v2, main_v3, main_c_0, main_v4, main_v5, main_v6, main_v7, main_cst_1, main_v8, main_v9, main_v10, main_c_2, main_v11, main_v12, main_c_3, main_v13, main_v14, main_v15, main_v16, main_v17, main_c_4, main_v18, main_v19, main_c_5, main_v20, main_v21, main_v22, main_v23, main_v24, main_v25, main_cst_6, main_v26, main_c_7, main_v27, main_v28, main_c_8, main_v29, main_v30, main_v31, main_v32, main_v33, main_v34, main_v35, main_v36, main_c_9, main_v37, main_v38, main_c_10, main_v39, main_v40, main_v41, main_v42, main_v43, main_v44, main_v45, main_v46, main_v47, main_v48, main_v49, main_v50, main_v51, main_call0_cst, main_call0_v0, main_v52]
set_option maxRecDepth 8192 in
theorem ops0_writes : (ops0 : List (HloOp τ sig (Elt F))).Forall fun op => op.writes ⊆ (ops0_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩
/-- a reference stretch 0 does not write keeps its contents -/
theorem keep0 (W : Valuation τ sig (Elt F)) {r : Ref sig .tc} (hr : r ∉ ops0_W) :
    after ops0 W (Proc.devRef .tc r) = W (Proc.devRef .tc r) :=
  after_of_writes_sub ops0 W ops0_writes hr

/-- the references stretch 1 writes -/
abbrev ops1_W : List (Ref sig .tc) := [main_v53, main_cst_11, main_v54, main_c_12, main_v55, main_v56, main_c_13, main_v57, main_v58, main_v59, main_v60, main_cst_14, main_v61, main_v62, main_v63, main_c_15, main_v64, main_v65, main_c_16, main_v66, main_v67, main_v68, main_v69, main_v70, main_c_17, main_v71, main_v72, main_c_18, main_v73, main_v74, main_v75, main_v76, main_v77, main_v78, main_cst_19, main_v79, main_c_20, main_v80, main_v81, main_c_21, main_v82, main_v83, main_v84, main_v85, main_v86, main_v87, main_v88, main_v89, main_c_22, main_v90, main_v91, main_c_23, main_v92, main_v93, main_v94, main_v95, main_v96, main_v97, main_v98, main_v99, main_v100, main_v101, main_v102, main_v103, main_v104, main_call1_cst, main_call1_v0, main_v105]
set_option maxRecDepth 8192 in
theorem ops1_writes : (ops1 : List (HloOp τ sig (Elt F))).Forall fun op => op.writes ⊆ (ops1_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩
/-- a reference stretch 1 does not write keeps its contents -/
theorem keep1 (W : Valuation τ sig (Elt F)) {r : Ref sig .tc} (hr : r ∉ ops1_W) :
    after ops1 W (Proc.devRef .tc r) = W (Proc.devRef .tc r) :=
  after_of_writes_sub ops1 W ops1_writes hr

/-- the references stretch 2 writes -/
abbrev ops2_W : List (Ref sig .tc) := [main_v106, main_cst_24, main_v107, main_c_25, main_v108, main_v109, main_c_26, main_v110, main_v111, main_v112, main_v113, main_cst_27, main_v114, main_v115, main_v116, main_c_28, main_v117, main_v118, main_c_29, main_v119, main_v120, main_v121, main_v122, main_v123, main_c_30, main_v124, main_v125, main_c_31, main_v126, main_v127, main_v128, main_v129, main_v130, main_v131, main_cst_32, main_v132, main_c_33, main_v133, main_v134, main_c_34, main_v135, main_v136, main_v137, main_v138, main_v139, main_v140, main_v141, main_v142, main_c_35, main_v143, main_v144, main_c_36, main_v145, main_v146, main_v147, main_v148, main_v149, main_v150, main_v151, main_v152, main_v153, main_v154, main_v155, main_v156, main_v157, main_call2_cst, main_call2_v0, main_v158]
set_option maxRecDepth 8192 in
theorem ops2_writes : (ops2 : List (HloOp τ sig (Elt F))).Forall fun op => op.writes ⊆ (ops2_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩
/-- a reference stretch 2 does not write keeps its contents -/
theorem keep2 (W : Valuation τ sig (Elt F)) {r : Ref sig .tc} (hr : r ∉ ops2_W) :
    after ops2 W (Proc.devRef .tc r) = W (Proc.devRef .tc r) :=
  after_of_writes_sub ops2 W ops2_writes hr

/-- the references stretch 3 writes -/
abbrev ops3_W : List (Ref sig .tc) := [main_v159, main_cst_37, main_v160, main_c_38, main_v161, main_v162, main_c_39, main_v163, main_v164, main_v165, main_v166, main_cst_40, main_v167, main_v168, main_v169, main_c_41, main_v170, main_v171, main_c_42, main_v172, main_v173, main_v174, main_v175, main_v176, main_c_43, main_v177, main_v178, main_c_44, main_v179, main_v180, main_v181, main_v182, main_v183, main_v184, main_cst_45, main_v185, main_c_46, main_v186, main_v187, main_c_47, main_v188, main_v189, main_v190, main_v191, main_v192, main_v193, main_v194, main_v195, main_c_48, main_v196, main_v197, main_c_49, main_v198, main_v199, main_v200, main_v201, main_v202, main_v203, main_v204, main_v205, main_v206, main_v207, main_v208, main_v209, main_v210, main_call3_cst, main_call3_v0, main_v211]
set_option maxRecDepth 8192 in
theorem ops3_writes : (ops3 : List (HloOp τ sig (Elt F))).Forall fun op => op.writes ⊆ (ops3_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩
/-- a reference stretch 3 does not write keeps its contents -/
theorem keep3 (W : Valuation τ sig (Elt F)) {r : Ref sig .tc} (hr : r ∉ ops3_W) :
    after ops3 W (Proc.devRef .tc r) = W (Proc.devRef .tc r) :=
  after_of_writes_sub ops3 W ops3_writes hr

/-- the references stretch 4 writes -/
abbrev ops4_W : List (Ref sig .tc) := [main_v212, main_cst_50, main_v213, main_c_51, main_v214, main_v215, main_c_52, main_v216, main_v217, main_v218, main_v219, main_cst_53, main_v220, main_v221, main_v222, main_c_54, main_v223, main_v224, main_c_55, main_v225, main_v226, main_v227, main_v228, main_v229, main_c_56, main_v230, main_v231, main_c_57, main_v232, main_v233, main_v234, main_v235, main_v236, main_v237, main_cst_58, main_v238, main_c_59, main_v239, main_v240, main_c_60, main_v241, main_v242, main_v243, main_v244, main_v245, main_v246, main_v247, main_v248, main_c_61, main_v249, main_v250, main_c_62, main_v251, main_v252, main_v253, main_v254, main_v255, main_v256, main_v257, main_v258, main_v259, main_v260, main_v261, main_v262, main_v263, main_call4_cst, main_call4_v0, main_v264]
set_option maxRecDepth 8192 in
theorem ops4_writes : (ops4 : List (HloOp τ sig (Elt F))).Forall fun op => op.writes ⊆ (ops4_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩
/-- a reference stretch 4 does not write keeps its contents -/
theorem keep4 (W : Valuation τ sig (Elt F)) {r : Ref sig .tc} (hr : r ∉ ops4_W) :
    after ops4 W (Proc.devRef .tc r) = W (Proc.devRef .tc r) :=
  after_of_writes_sub ops4 W ops4_writes hr

/-- the references stretch 5 writes -/
abbrev ops5_W : List (Ref sig .tc) := [main_v265, main_cst_63, main_v266, main_c_64, main_v267, main_v268, main_c_65, main_v269, main_v270, main_v271, main_v272, main_cst_66, main_v273, main_v274, main_v275, main_c_67, main_v276, main_v277, main_c_68, main_v278, main_v279, main_v280, main_v281, main_v282, main_c_69, main_v283, main_v284, main_c_70, main_v285, main_v286, main_v287, main_v288, main_v289, main_v290, main_cst_71, main_v291, main_c_72, main_v292, main_v293, main_c_73, main_v294, main_v295, main_v296, main_v297, main_v298, main_v299, main_v300, main_v301, main_c_74, main_v302, main_v303, main_c_75, main_v304, main_v305, main_v306, main_v307, main_v308, main_v309, main_v310, main_v311, main_v312, main_v313, main_v314, main_v315, main_v316, main_call5_cst, main_call5_v0, main_v317]
set_option maxRecDepth 8192 in
theorem ops5_writes : (ops5 : List (HloOp τ sig (Elt F))).Forall fun op => op.writes ⊆ (ops5_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩
/-- a reference stretch 5 does not write keeps its contents -/
theorem keep5 (W : Valuation τ sig (Elt F)) {r : Ref sig .tc} (hr : r ∉ ops5_W) :
    after ops5 W (Proc.devRef .tc r) = W (Proc.devRef .tc r) :=
  after_of_writes_sub ops5 W ops5_writes hr

/-- the references stretch 6 writes -/
abbrev ops6_W : List (Ref sig .tc) := [main_v318, main_v319, main_v320, main_v321, main_v322, main_v323, main_cst_76, main_v324, main_cst_77, main_v325, main_v326, main_v327, main_v328, main_v329, main_v330, main_cst_78, main_v331, main_v332, main_v333, main_v334, main_v335, main_v336, main_v337, main_v338, main_v339, main_v340, main_v341, main_v342, main_v343, main_v344, main_v345]
set_option maxRecDepth 8192 in
theorem ops6_writes : (ops6 : List (HloOp τ sig (Elt F))).Forall fun op => op.writes ⊆ (ops6_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩
/-- a reference stretch 6 does not write keeps its contents -/
theorem keep6 (W : Valuation τ sig (Elt F)) {r : Ref sig .tc} (hr : r ∉ ops6_W) :
    after ops6 W (Proc.devRef .tc r) = W (Proc.devRef .tc r) :=
  after_of_writes_sub ops6 W ops6_writes hr

/-- the references stretch 7 writes -/
abbrev ops7_W : List (Ref sig .tc) := [main_v346, main_cst_79, main_v347, main_c_80, main_v348, main_v349, main_c_81, main_v350, main_v351, main_v352, main_v353, main_cst_82, main_v354, main_v355, main_v356, main_c_83, main_v357, main_v358, main_c_84, main_v359, main_v360, main_v361, main_v362, main_v363, main_c_85, main_v364, main_v365, main_c_86, main_v366, main_v367, main_v368, main_v369, main_v370, main_v371, main_cst_87, main_v372, main_c_88, main_v373, main_v374, main_c_89, main_v375, main_v376, main_v377, main_v378, main_v379, main_v380, main_v381, main_v382, main_c_90, main_v383, main_v384, main_c_91, main_v385, main_v386, main_v387, main_v388, main_v389, main_v390, main_v391, main_v392, main_v393, main_v394, main_v395, main_v396, main_v397]
set_option maxRecDepth 8192 in
theorem ops7_writes : (ops7 : List (HloOp τ sig (Elt F))).Forall fun op => op.writes ⊆ (ops7_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩
/-- a reference stretch 7 does not write keeps its contents -/
theorem keep7 (W : Valuation τ sig (Elt F)) {r : Ref sig .tc} (hr : r ∉ ops7_W) :
    after ops7 W (Proc.devRef .tc r) = W (Proc.devRef .tc r) :=
  after_of_writes_sub ops7 W ops7_writes hr

/-- the references stretch 8 writes -/
abbrev ops8_W : List (Ref sig .tc) := [main_v398, main_cst_92, main_v399, main_c_93, main_v400, main_v401, main_c_94, main_v402, main_v403, main_v404, main_v405, main_cst_95, main_v406, main_v407, main_v408, main_c_96, main_v409, main_v410, main_c_97, main_v411, main_v412, main_v413, main_v414, main_v415, main_c_98, main_v416, main_v417, main_c_99, main_v418, main_v419, main_v420, main_v421, main_v422, main_v423, main_cst_100, main_v424, main_c_101, main_v425, main_v426, main_c_102, main_v427, main_v428, main_v429, main_v430, main_v431, main_v432, main_v433, main_v434, main_c_103, main_v435, main_v436, main_c_104, main_v437, main_v438, main_v439, main_v440, main_v441, main_v442, main_v443, main_v444, main_v445, main_v446, main_v447, main_v448, main_v449]
set_option maxRecDepth 8192 in
theorem ops8_writes : (ops8 : List (HloOp τ sig (Elt F))).Forall fun op => op.writes ⊆ (ops8_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩
/-- a reference stretch 8 does not write keeps its contents -/
theorem keep8 (W : Valuation τ sig (Elt F)) {r : Ref sig .tc} (hr : r ∉ ops8_W) :
    after ops8 W (Proc.devRef .tc r) = W (Proc.devRef .tc r) :=
  after_of_writes_sub ops8 W ops8_writes hr

/-- the references stretch 9 writes -/
abbrev ops9_W : List (Ref sig .tc) := [main_v450, main_v451]
set_option maxRecDepth 8192 in
theorem ops9_writes : (ops9 : List (HloOp τ sig (Elt F))).Forall fun op => op.writes ⊆ (ops9_W.map (Proc.devRef (τ := τ) .tc)).toFinset := by
  simp only [List.Forall]; exact ⟨by wr1, by wr1⟩
/-- a reference stretch 9 does not write keeps its contents -/
theorem keep9 (W : Valuation τ sig (Elt F)) {r : Ref sig .tc} (hr : r ∉ ops9_W) :
    after ops9 W (Proc.devRef .tc r) = W (Proc.devRef .tc r) :=
  after_of_writes_sub ops9 W ops9_writes hr

/-! ## The stretches read

Each reading is at an ARBITRARY valuation `W` entering the stretch.  A stretch fed by arguments
only reads as its stage function of the arguments' contents; a stretch fed by an earlier output
takes what that output holds as a hypothesis, so that the composed operations are compared once,
directly with the named stage. -/

/-- stretch 0: a convolution of the argument features, and its rectifier -/
theorem s0 (W : Valuation τ sig (Elt F)) :
    after ops0 W (Proc.devRef .tc main_v52) = val_main_v52 (F := F) (W (Proc.devRef .tc main_arg0)) (W (Proc.devRef .tc main_arg1)) (W (Proc.devRef .tc main_arg2)) (W (Proc.devRef .tc main_arg3)) (W (Proc.devRef .tc main_arg4)) := by
  stretch_results <;> rfl

/-- stretch 1: a convolution of the previous stretch's output, and its rectifier -/
theorem s1 (W : Valuation τ sig (Elt F)) (x0 : (⟨S8192x64, .f32⟩ : BufTy).Contents (Elt F)) (x1 : (⟨S262144, .i32⟩ : BufTy).Contents (Elt F)) (x2 : (⟨S262144, .i32⟩ : BufTy).Contents (Elt F)) (x3 : (⟨S64x64, .f32⟩ : BufTy).Contents (Elt F)) (x4 : (⟨S64, .f32⟩ : BufTy).Contents (Elt F))
    (h : W (Proc.devRef .tc main_v52) = val_main_v52 (F := F) x0 x1 x2 x3 x4) (h1 : W (Proc.devRef .tc main_arg1) = x1) (h2 : W (Proc.devRef .tc main_arg2) = x2) :
    after ops1 W (Proc.devRef .tc main_v105) = val_main_v105 (F := F) x0 x1 x2 x3 x4 (W (Proc.devRef .tc main_arg5)) (W (Proc.devRef .tc main_arg6)) := by
  stretch_results
  rw [h, h1, h2]
  rfl

/-- stretch 2: a convolution of the argument features, and its rectifier -/
theorem s2 (W : Valuation τ sig (Elt F)) :
    after ops2 W (Proc.devRef .tc main_v158) = val_main_v158 (F := F) (W (Proc.devRef .tc main_arg0)) (W (Proc.devRef .tc main_arg1)) (W (Proc.devRef .tc main_arg2)) (W (Proc.devRef .tc main_arg7)) (W (Proc.devRef .tc main_arg8)) := by
  stretch_results <;> rfl

/-- stretch 3: a convolution of the previous stretch's output, and its rectifier -/
theorem s3 (W : Valuation τ sig (Elt F)) (x0 : (⟨S8192x64, .f32⟩ : BufTy).Contents (Elt F)) (x1 : (⟨S262144, .i32⟩ : BufTy).Contents (Elt F)) (x2 : (⟨S262144, .i32⟩ : BufTy).Contents (Elt F)) (x7 : (⟨S64x64, .f32⟩ : BufTy).Contents (Elt F)) (x8 : (⟨S64, .f32⟩ : BufTy).Contents (Elt F))
    (h : W (Proc.devRef .tc main_v158) = val_main_v158 (F := F) x0 x1 x2 x7 x8) (h1 : W (Proc.devRef .tc main_arg1) = x1) (h2 : W (Proc.devRef .tc main_arg2) = x2) :
    after ops3 W (Proc.devRef .tc main_v211) = val_main_v211 (F := F) x0 x1 x2 x7 x8 (W (Proc.devRef .tc main_arg9)) (W (Proc.devRef .tc main_arg10)) := by
  stretch_results
  rw [h, h1, h2]
  rfl

/-- stretch 4: a convolution of the argument features, and its rectifier -/
theorem s4 (W : Valuation τ sig (Elt F)) :
    after ops4 W (Proc.devRef .tc main_v264) = val_main_v264 (F := F) (W (Proc.devRef .tc main_arg0)) (W (Proc.devRef .tc main_arg1)) (W (Proc.devRef .tc main_arg2)) (W (Proc.devRef .tc main_arg11)) (W (Proc.devRef .tc main_arg12)) := by
  stretch_results <;> rfl

/-- stretch 5: a convolution of the previous stretch's output, and its rectifier -/
theorem s5 (W : Valuation τ sig (Elt F)) (x0 : (⟨S8192x64, .f32⟩ : BufTy).Contents (Elt F)) (x1 : (⟨S262144, .i32⟩ : BufTy).Contents (Elt F)) (x2 : (⟨S262144, .i32⟩ : BufTy).Contents (Elt F)) (x11 : (⟨S64x64, .f32⟩ : BufTy).Contents (Elt F)) (x12 : (⟨S64, .f32⟩ : BufTy).Contents (Elt F))
    (h : W (Proc.devRef .tc main_v264) = val_main_v264 (F := F) x0 x1 x2 x11 x12) (h1 : W (Proc.devRef .tc main_arg1) = x1) (h2 : W (Proc.devRef .tc main_arg2) = x2) :
    after ops5 W (Proc.devRef .tc main_v317) = val_main_v317 (F := F) x0 x1 x2 x11 x12 (W (Proc.devRef .tc main_arg13)) (W (Proc.devRef .tc main_arg14)) := by
  stretch_results
  rw [h, h1, h2]
  rfl

/-- stretch 6, the attention: the softmax of the affine scores of the three encoder outputs side by side -/
theorem s6_att (W : Valuation τ sig (Elt F)) (x0 : (⟨S8192x64, .f32⟩ : BufTy).Contents (Elt F)) (x1 : (⟨S262144, .i32⟩ : BufTy).Contents (Elt F)) (x2 : (⟨S262144, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S64x64, .f32⟩ : BufTy).Contents (Elt F)) (x10 : (⟨S64, .f32⟩ : BufTy).Contents (Elt F)) (x11 : (⟨S64x64, .f32⟩ : BufTy).Contents (Elt F)) (x12 : (⟨S64, .f32⟩ : BufTy).Contents (Elt F)) (x13 : (⟨S64x64, .f32⟩ : BufTy).Contents (Elt F)) (x14 : (⟨S64, .f32⟩ : BufTy).Contents (Elt F))
    (h105 : W (Proc.devRef .tc main_v105) = val_main_v105 (F := F) x0 x1 x2 x3 x4 x5 x6)
    (h211 : W (Proc.devRef .tc main_v211) = val_main_v211 (F := F) x0 x1 x2 x7 x8 x9 x10)
    (h317 : W (Proc.devRef .tc main_v317) = val_main_v317 (F := F) x0 x1 x2 x11 x12 x13 x14) :
    after ops6 W (Proc.devRef .tc main_v334) = val_main_v334 (F := F) x0 x1 x2 x3 x4 x5 x6 x7 x8 x9 x10 x11 x12 x13 x14 (W (Proc.devRef .tc main_arg15)) (W (Proc.devRef .tc main_arg16)) := by
  stretch_results
  -- the concatenation reads its operands through the literal family of three references
  have h105' : W (Proc.devRef .tc ((![main_v105, main_v211, main_v317] : Fin 3 → Ref sig .tc) 0)) = val_main_v105 (F := F) x0 x1 x2 x3 x4 x5 x6 := h105
  have h211' : W (Proc.devRef .tc ((![main_v105, main_v211, main_v317] : Fin 3 → Ref sig .tc) 1)) = val_main_v211 (F := F) x0 x1 x2 x7 x8 x9 x10 := h211
  have h317' : W (Proc.devRef .tc ((![main_v105, main_v211, main_v317] : Fin 3 → Ref sig .tc) 2)) = val_main_v317 (F := F) x0 x1 x2 x11 x12 x13 x14 := h317
  rw [h105', h211', h317']
  rfl

/-- stretch 6, the combination: the attention-weighted sum of the three encoder outputs -/
theorem s6_comb (W : Valuation τ sig (Elt F)) (x0 : (⟨S8192x64, .f32⟩ : BufTy).Contents (Elt F)) (x1 : (⟨S262144, .i32⟩ : BufTy).Contents (Elt F)) (x2 : (⟨S262144, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S64x64, .f32⟩ : BufTy).Contents (Elt F)) (x10 : (⟨S64, .f32⟩ : BufTy).Contents (Elt F)) (x11 : (⟨S64x64, .f32⟩ : BufTy).Contents (Elt F)) (x12 : (⟨S64, .f32⟩ : BufTy).Contents (Elt F)) (x13 : (⟨S64x64, .f32⟩ : BufTy).Contents (Elt F)) (x14 : (⟨S64, .f32⟩ : BufTy).Contents (Elt F))
    (h105 : W (Proc.devRef .tc main_v105) = val_main_v105 (F := F) x0 x1 x2 x3 x4 x5 x6)
    (h211 : W (Proc.devRef .tc main_v211) = val_main_v211 (F := F) x0 x1 x2 x7 x8 x9 x10)
    (h317 : W (Proc.devRef .tc main_v317) = val_main_v317 (F := F) x0 x1 x2 x11 x12 x13 x14) :
    after ops6 W (Proc.devRef .tc main_v345) = val_main_v345 (F := F) x0 x1 x2 x3 x4 x5 x6 x7 x8 x9 x10 x11 x12 x13 x14 (W (Proc.devRef .tc main_arg15)) (W (Proc.devRef .tc main_arg16)) := by
  stretch_results
  -- the concatenation reads its operands through the literal family of three references
  have h105' : W (Proc.devRef .tc ((![main_v105, main_v211, main_v317] : Fin 3 → Ref sig .tc) 0)) = val_main_v105 (F := F) x0 x1 x2 x3 x4 x5 x6 := h105
  have h211' : W (Proc.devRef .tc ((![main_v105, main_v211, main_v317] : Fin 3 → Ref sig .tc) 1)) = val_main_v211 (F := F) x0 x1 x2 x7 x8 x9 x10 := h211
  have h317' : W (Proc.devRef .tc ((![main_v105, main_v211, main_v317] : Fin 3 → Ref sig .tc) 2)) = val_main_v317 (F := F) x0 x1 x2 x11 x12 x13 x14 := h317
  rw [h105', h211', h317', h105, h211, h317]
  rfl

/-- stretch 7: a decoder convolution of the combined features -/
theorem s7 (W : Valuation τ sig (Elt F)) (x0 : (⟨S8192x64, .f32⟩ : BufTy).Contents (Elt F)) (x1 : (⟨S262144, .i32⟩ : BufTy).Contents (Elt F)) (x2 : (⟨S262144, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S64x64, .f32⟩ : BufTy).Contents (Elt F)) (x10 : (⟨S64, .f32⟩ : BufTy).Contents (Elt F)) (x11 : (⟨S64x64, .f32⟩ : BufTy).Contents (Elt F)) (x12 : (⟨S64, .f32⟩ : BufTy).Contents (Elt F)) (x13 : (⟨S64x64, .f32⟩ : BufTy).Contents (Elt F)) (x14 : (⟨S64, .f32⟩ : BufTy).Contents (Elt F)) (x15 : (⟨S192x192, .f32⟩ : BufTy).Contents (Elt F)) (x16 : (⟨S192, .f32⟩ : BufTy).Contents (Elt F))
    (h : W (Proc.devRef .tc main_v345) = val_main_v345 (F := F) x0 x1 x2 x3 x4 x5 x6 x7 x8 x9 x10 x11 x12 x13 x14 x15 x16) (h1 : W (Proc.devRef .tc main_arg1) = x1) (h2 : W (Proc.devRef .tc main_arg2) = x2) :
    after ops7 W (Proc.devRef .tc main_v397) = val_main_v397 (F := F) x0 x1 x2 x3 x4 x5 x6 x7 x8 x9 x10 x11 x12 x13 x14 x15 x16 (W (Proc.devRef .tc main_arg17)) (W (Proc.devRef .tc main_arg18)) := by
  stretch_results
  rw [h, h1, h2]
  rfl

/-- stretch 8: a decoder convolution of the combined features -/
theorem s8 (W : Valuation τ sig (Elt F)) (x0 : (⟨S8192x64, .f32⟩ : BufTy).Contents (Elt F)) (x1 : (⟨S262144, .i32⟩ : BufTy).Contents (Elt F)) (x2 : (⟨S262144, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S64x64, .f32⟩ : BufTy).Contents (Elt F)) (x10 : (⟨S64, .f32⟩ : BufTy).Contents (Elt F)) (x11 : (⟨S64x64, .f32⟩ : BufTy).Contents (Elt F)) (x12 : (⟨S64, .f32⟩ : BufTy).Contents (Elt F)) (x13 : (⟨S64x64, .f32⟩ : BufTy).Contents (Elt F)) (x14 : (⟨S64, .f32⟩ : BufTy).Contents (Elt F)) (x15 : (⟨S192x192, .f32⟩ : BufTy).Contents (Elt F)) (x16 : (⟨S192, .f32⟩ : BufTy).Contents (Elt F))
    (h : W (Proc.devRef .tc main_v345) = val_main_v345 (F := F) x0 x1 x2 x3 x4 x5 x6 x7 x8 x9 x10 x11 x12 x13 x14 x15 x16) (h1 : W (Proc.devRef .tc main_arg1) = x1) (h2 : W (Proc.devRef .tc main_arg2) = x2) :
    after ops8 W (Proc.devRef .tc main_v449) = val_main_v449 (F := F) x0 x1 x2 x3 x4 x5 x6 x7 x8 x9 x10 x11 x12 x13 x14 x15 x16 (W (Proc.devRef .tc main_arg19)) (W (Proc.devRef .tc main_arg20)) := by
  stretch_results
  rw [h, h1, h2]
  rfl

/-- stretch 9: the product of the structure features with their transpose -/
theorem s9 (W : Valuation τ sig (Elt F)) (x0 : (⟨S8192x64, .f32⟩ : BufTy).Contents (Elt F)) (x1 : (⟨S262144, .i32⟩ : BufTy).Contents (Elt F)) (x2 : (⟨S262144, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S64x64, .f32⟩ : BufTy).Contents (Elt F)) (x10 : (⟨S64, .f32⟩ : BufTy).Contents (Elt F)) (x11 : (⟨S64x64, .f32⟩ : BufTy).Contents (Elt F)) (x12 : (⟨S64, .f32⟩ : BufTy).Contents (Elt F)) (x13 : (⟨S64x64, .f32⟩ : BufTy).Contents (Elt F)) (x14 : (⟨S64, .f32⟩ : BufTy).Contents (Elt F)) (x15 : (⟨S192x192, .f32⟩ : BufTy).Contents (Elt F)) (x16 : (⟨S192, .f32⟩ : BufTy).Contents (Elt F)) (x19 : (⟨S64x64, .f32⟩ : BufTy).Contents (Elt F)) (x20 : (⟨S64, .f32⟩ : BufTy).Contents (Elt F))
    (h : W (Proc.devRef .tc main_v449) = val_main_v449 (F := F) x0 x1 x2 x3 x4 x5 x6 x7 x8 x9 x10 x11 x12 x13 x14 x15 x16 x19 x20) :
    after ops9 W (Proc.devRef .tc main_v451) = val_main_v451 (F := F) x0 x1 x2 x3 x4 x5 x6 x7 x8 x9 x10 x11 x12 x13 x14 x15 x16 x19 x20 := by
  stretch_results
  rw [h]
  rfl

/-! ## The ten stretches chained

`VK L` is the valuation after stretches 0 … K from the launch valuation `L`. -/

/-- after stretch 0 -/
def V0 (L : Valuation τ sig (Elt F)) : Valuation τ sig (Elt F) := after ops0 L
/-- after stretches 0 … 1 -/
def V1 (L : Valuation τ sig (Elt F)) : Valuation τ sig (Elt F) := after ops1 (V0 L)
/-- after stretches 0 … 2 -/
def V2 (L : Valuation τ sig (Elt F)) : Valuation τ sig (Elt F) := after ops2 (V1 L)
/-- after stretches 0 … 3 -/
def V3 (L : Valuation τ sig (Elt F)) : Valuation τ sig (Elt F) := after ops3 (V2 L)
/-- after stretches 0 … 4 -/
def V4 (L : Valuation τ sig (Elt F)) : Valuation τ sig (Elt F) := after ops4 (V3 L)
/-- after stretches 0 … 5 -/
def V5 (L : Valuation τ sig (Elt F)) : Valuation τ sig (Elt F) := after ops5 (V4 L)
/-- after stretches 0 … 6 -/
def V6 (L : Valuation τ sig (Elt F)) : Valuation τ sig (Elt F) := after ops6 (V5 L)
/-- after stretches 0 … 7 -/
def V7 (L : Valuation τ sig (Elt F)) : Valuation τ sig (Elt F) := after ops7 (V6 L)
/-- after stretches 0 … 8 -/
def V8 (L : Valuation τ sig (Elt F)) : Valuation τ sig (Elt F) := after ops8 (V7 L)
/-- after stretches 0 … 9 -/
def V9 (L : Valuation τ sig (Elt F)) : Valuation τ sig (Elt F) := after ops9 (V8 L)

/-- a reference no stretch so far writes still holds its launch contents -/
theorem V0_keep (L : Valuation τ sig (Elt F)) {r : Ref sig .tc} (h0 : r ∉ ops0_W) : V0 L (Proc.devRef .tc r) = L (Proc.devRef .tc r) := keep0 L h0
theorem V1_keep (L : Valuation τ sig (Elt F)) {r : Ref sig .tc} (h0 : r ∉ ops0_W) (h1 : r ∉ ops1_W) : V1 L (Proc.devRef .tc r) = L (Proc.devRef .tc r) :=
  (keep1 (V0 L) h1).trans (V0_keep L h0)
theorem V2_keep (L : Valuation τ sig (Elt F)) {r : Ref sig .tc} (h0 : r ∉ ops0_W) (h1 : r ∉ ops1_W) (h2 : r ∉ ops2_W) : V2 L (Proc.devRef .tc r) = L (Proc.devRef .tc r) :=
  (keep2 (V1 L) h2).trans (V1_keep L h0 h1)
theorem V3_keep (L : Valuation τ sig (Elt F)) {r : Ref sig .tc} (h0 : r ∉ ops0_W) (h1 : r ∉ ops1_W) (h2 : r ∉ ops2_W) (h3 : r ∉ ops3_W) : V3 L (Proc.devRef .tc r) = L (Proc.devRef .tc r) :=
  (keep3 (V2 L) h3).trans (V2_keep L h0 h1 h2)
theorem V4_keep (L : Valuation τ sig (Elt F)) {r : Ref sig .tc} (h0 : r ∉ ops0_W) (h1 : r ∉ ops1_W) (h2 : r ∉ ops2_W) (h3 : r ∉ ops3_W) (h4 : r ∉ ops4_W) : V4 L (Proc.devRef .tc r) = L (Proc.devRef .tc r) :=
  (keep4 (V3 L) h4).trans (V3_keep L h0 h1 h2 h3)
theorem V5_keep (L : Valuation τ sig (Elt F)) {r : Ref sig .tc} (h0 : r ∉ ops0_W) (h1 : r ∉ ops1_W) (h2 : r ∉ ops2_W) (h3 : r ∉ ops3_W) (h4 : r ∉ ops4_W) (h5 : r ∉ ops5_W) : V5 L (Proc.devRef .tc r) = L (Proc.devRef .tc r) :=
  (keep5 (V4 L) h5).trans (V4_keep L h0 h1 h2 h3 h4)
theorem V6_keep (L : Valuation τ sig (Elt F)) {r : Ref sig .tc} (h0 : r ∉ ops0_W) (h1 : r ∉ ops1_W) (h2 : r ∉ ops2_W) (h3 : r ∉ ops3_W) (h4 : r ∉ ops4_W) (h5 : r ∉ ops5_W) (h6 : r ∉ ops6_W) : V6 L (Proc.devRef .tc r) = L (Proc.devRef .tc r) :=
  (keep6 (V5 L) h6).trans (V5_keep L h0 h1 h2 h3 h4 h5)
theorem V7_keep (L : Valuation τ sig (Elt F)) {r : Ref sig .tc} (h0 : r ∉ ops0_W) (h1 : r ∉ ops1_W) (h2 : r ∉ ops2_W) (h3 : r ∉ ops3_W) (h4 : r ∉ ops4_W) (h5 : r ∉ ops5_W) (h6 : r ∉ ops6_W) (h7 : r ∉ ops7_W) : V7 L (Proc.devRef .tc r) = L (Proc.devRef .tc r) :=
  (keep7 (V6 L) h7).trans (V6_keep L h0 h1 h2 h3 h4 h5 h6)
theorem V8_keep (L : Valuation τ sig (Elt F)) {r : Ref sig .tc} (h0 : r ∉ ops0_W) (h1 : r ∉ ops1_W) (h2 : r ∉ ops2_W) (h3 : r ∉ ops3_W) (h4 : r ∉ ops4_W) (h5 : r ∉ ops5_W) (h6 : r ∉ ops6_W) (h7 : r ∉ ops7_W) (h8 : r ∉ ops8_W) : V8 L (Proc.devRef .tc r) = L (Proc.devRef .tc r) :=
  (keep8 (V7 L) h8).trans (V7_keep L h0 h1 h2 h3 h4 h5 h6 h7)
theorem V9_keep (L : Valuation τ sig (Elt F)) {r : Ref sig .tc} (h0 : r ∉ ops0_W) (h1 : r ∉ ops1_W) (h2 : r ∉ ops2_W) (h3 : r ∉ ops3_W) (h4 : r ∉ ops4_W) (h5 : r ∉ ops5_W) (h6 : r ∉ ops6_W) (h7 : r ∉ ops7_W) (h8 : r ∉ ops8_W) (h9 : r ∉ ops9_W) : V9 L (Proc.devRef .tc r) = L (Proc.devRef .tc r) :=
  (keep9 (V8 L) h9).trans (V8_keep L h0 h1 h2 h3 h4 h5 h6 h7 h8)

/-! ### The outputs, stretch after stretch -/

theorem V0_52 (L : Valuation τ sig (Elt F)) : V0 L (Proc.devRef .tc main_v52) = val_main_v52 (F := F) (L (Proc.devRef .tc main_arg0)) (L (Proc.devRef .tc main_arg1)) (L (Proc.devRef .tc main_arg2)) (L (Proc.devRef .tc main_arg3)) (L (Proc.devRef .tc main_arg4)) := s0 L

theorem V1_105 (L : Valuation τ sig (Elt F)) : V1 L (Proc.devRef .tc main_v105) = val_main_v105 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) := by
  have e := s1 (V0 L) _ _ _ _ _ (V0_52 L) (V0_keep L (by decide) : V0 L (Proc.devRef .tc main_arg1) = L (Proc.devRef .tc main_arg1)) (V0_keep L (by decide) : V0 L (Proc.devRef .tc main_arg2) = L (Proc.devRef .tc main_arg2))
  rw [(V0_keep L (by decide) : V0 L (Proc.devRef .tc main_arg5) = L (Proc.devRef .tc main_arg5)), (V0_keep L (by decide) : V0 L (Proc.devRef .tc main_arg6) = L (Proc.devRef .tc main_arg6))] at e
  exact e

theorem V2_158 (L : Valuation τ sig (Elt F)) : V2 L (Proc.devRef .tc main_v158) = val_main_v158 (F := F) (L (Proc.devRef .tc main_arg0)) (L (Proc.devRef .tc main_arg1)) (L (Proc.devRef .tc main_arg2)) (L (Proc.devRef .tc main_arg7)) (L (Proc.devRef .tc main_arg8)) := by
  have e := s2 (V1 L)
  rw [(V1_keep L (by decide) (by decide) : V1 L (Proc.devRef .tc main_arg0) = L (Proc.devRef .tc main_arg0)), (V1_keep L (by decide) (by decide) : V1 L (Proc.devRef .tc main_arg1) = L (Proc.devRef .tc main_arg1)), (V1_keep L (by decide) (by decide) : V1 L (Proc.devRef .tc main_arg2) = L (Proc.devRef .tc main_arg2)), (V1_keep L (by decide) (by decide) : V1 L (Proc.devRef .tc main_arg7) = L (Proc.devRef .tc main_arg7)), (V1_keep L (by decide) (by decide) : V1 L (Proc.devRef .tc main_arg8) = L (Proc.devRef .tc main_arg8))] at e
  exact e
theorem V2_105 (L : Valuation τ sig (Elt F)) : V2 L (Proc.devRef .tc main_v105) = val_main_v105 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) :=
  (keep2 (V1 L) (by decide)).trans (V1_105 L)

theorem V3_211 (L : Valuation τ sig (Elt F)) : V3 L (Proc.devRef .tc main_v211) = val_main_v211 (F := F) (L (Proc.devRef .tc main_arg0)) (L (Proc.devRef .tc main_arg1)) (L (Proc.devRef .tc main_arg2)) (L (Proc.devRef .tc main_arg7)) (L (Proc.devRef .tc main_arg8)) (L (Proc.devRef .tc main_arg9)) (L (Proc.devRef .tc main_arg10)) := by
  have e := s3 (V2 L) _ _ _ _ _ (V2_158 L) (V2_keep L (by decide) (by decide) (by decide) : V2 L (Proc.devRef .tc main_arg1) = L (Proc.devRef .tc main_arg1)) (V2_keep L (by decide) (by decide) (by decide) : V2 L (Proc.devRef .tc main_arg2) = L (Proc.devRef .tc main_arg2))
  rw [(V2_keep L (by decide) (by decide) (by decide) : V2 L (Proc.devRef .tc main_arg9) = L (Proc.devRef .tc main_arg9)), (V2_keep L (by decide) (by decide) (by decide) : V2 L (Proc.devRef .tc main_arg10) = L (Proc.devRef .tc main_arg10))] at e
  exact e
theorem V3_105 (L : Valuation τ sig (Elt F)) : V3 L (Proc.devRef .tc main_v105) = val_main_v105 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) :=
  (keep3 (V2 L) (by decide)).trans (V2_105 L)

theorem V4_264 (L : Valuation τ sig (Elt F)) : V4 L (Proc.devRef .tc main_v264) = val_main_v264 (F := F) (L (Proc.devRef .tc main_arg0)) (L (Proc.devRef .tc main_arg1)) (L (Proc.devRef .tc main_arg2)) (L (Proc.devRef .tc main_arg11)) (L (Proc.devRef .tc main_arg12)) := by
  have e := s4 (V3 L)
  rw [(V3_keep L (by decide) (by decide) (by decide) (by decide) : V3 L (Proc.devRef .tc main_arg0) = L (Proc.devRef .tc main_arg0)), (V3_keep L (by decide) (by decide) (by decide) (by decide) : V3 L (Proc.devRef .tc main_arg1) = L (Proc.devRef .tc main_arg1)), (V3_keep L (by decide) (by decide) (by decide) (by decide) : V3 L (Proc.devRef .tc main_arg2) = L (Proc.devRef .tc main_arg2)), (V3_keep L (by decide) (by decide) (by decide) (by decide) : V3 L (Proc.devRef .tc main_arg11) = L (Proc.devRef .tc main_arg11)), (V3_keep L (by decide) (by decide) (by decide) (by decide) : V3 L (Proc.devRef .tc main_arg12) = L (Proc.devRef .tc main_arg12))] at e
  exact e
theorem V4_105 (L : Valuation τ sig (Elt F)) : V4 L (Proc.devRef .tc main_v105) = val_main_v105 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) :=
  (keep4 (V3 L) (by decide)).trans (V3_105 L)
theorem V4_211 (L : Valuation τ sig (Elt F)) : V4 L (Proc.devRef .tc main_v211) = val_main_v211 (F := F) (L (Proc.devRef .tc main_arg0)) (L (Proc.devRef .tc main_arg1)) (L (Proc.devRef .tc main_arg2)) (L (Proc.devRef .tc main_arg7)) (L (Proc.devRef .tc main_arg8)) (L (Proc.devRef .tc main_arg9)) (L (Proc.devRef .tc main_arg10)) :=
  (keep4 (V3 L) (by decide)).trans (V3_211 L)

theorem V5_317 (L : Valuation τ sig (Elt F)) : V5 L (Proc.devRef .tc main_v317) = val_main_v317 (F := F) (L (Proc.devRef .tc main_arg0)) (L (Proc.devRef .tc main_arg1)) (L (Proc.devRef .tc main_arg2)) (L (Proc.devRef .tc main_arg11)) (L (Proc.devRef .tc main_arg12)) (L (Proc.devRef .tc main_arg13)) (L (Proc.devRef .tc main_arg14)) := by
  have e := s5 (V4 L) _ _ _ _ _ (V4_264 L) (V4_keep L (by decide) (by decide) (by decide) (by decide) (by decide) : V4 L (Proc.devRef .tc main_arg1) = L (Proc.devRef .tc main_arg1)) (V4_keep L (by decide) (by decide) (by decide) (by decide) (by decide) : V4 L (Proc.devRef .tc main_arg2) = L (Proc.devRef .tc main_arg2))
  rw [(V4_keep L (by decide) (by decide) (by decide) (by decide) (by decide) : V4 L (Proc.devRef .tc main_arg13) = L (Proc.devRef .tc main_arg13)), (V4_keep L (by decide) (by decide) (by decide) (by decide) (by decide) : V4 L (Proc.devRef .tc main_arg14) = L (Proc.devRef .tc main_arg14))] at e
  exact e
theorem V5_105 (L : Valuation τ sig (Elt F)) : V5 L (Proc.devRef .tc main_v105) = val_main_v105 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) :=
  (keep5 (V4 L) (by decide)).trans (V4_105 L)
theorem V5_211 (L : Valuation τ sig (Elt F)) : V5 L (Proc.devRef .tc main_v211) = val_main_v211 (F := F) (L (Proc.devRef .tc main_arg0)) (L (Proc.devRef .tc main_arg1)) (L (Proc.devRef .tc main_arg2)) (L (Proc.devRef .tc main_arg7)) (L (Proc.devRef .tc main_arg8)) (L (Proc.devRef .tc main_arg9)) (L (Proc.devRef .tc main_arg10)) :=
  (keep5 (V4 L) (by decide)).trans (V4_211 L)

theorem V6_334 (L : Valuation τ sig (Elt F)) : V6 L (Proc.devRef .tc main_v334) = val_main_v334 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) (L (Proc.devRef .tc main_arg14)) (L (Proc.devRef .tc main_arg15)) (L (Proc.devRef .tc main_arg16)) := by
  have e := s6_att (V5 L) _ _ _ _ _ _ _ _ _ _ _ _ _ _ _ (V5_105 L) (V5_211 L) (V5_317 L)
  rw [(V5_keep L (by decide) (by decide) (by decide) (by decide) (by decide) (by decide) : V5 L (Proc.devRef .tc main_arg15) = L (Proc.devRef .tc main_arg15)), (V5_keep L (by decide) (by decide) (by decide) (by decide) (by decide) (by decide) : V5 L (Proc.devRef .tc main_arg16) = L (Proc.devRef .tc main_arg16))] at e
  exact e

theorem V6_345 (L : Valuation τ sig (Elt F)) : V6 L (Proc.devRef .tc main_v345) = val_main_v345 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) (L (Proc.devRef .tc main_arg14)) (L (Proc.devRef .tc main_arg15)) (L (Proc.devRef .tc main_arg16)) := by
  have e := s6_comb (V5 L) _ _ _ _ _ _ _ _ _ _ _ _ _ _ _ (V5_105 L) (V5_211 L) (V5_317 L)
  rw [(V5_keep L (by decide) (by decide) (by decide) (by decide) (by decide) (by decide) : V5 L (Proc.devRef .tc main_arg15) = L (Proc.devRef .tc main_arg15)), (V5_keep L (by decide) (by decide) (by decide) (by decide) (by decide) (by decide) : V5 L (Proc.devRef .tc main_arg16) = L (Proc.devRef .tc main_arg16))] at e
  exact e

theorem V7_397 (L : Valuation τ sig (Elt F)) : V7 L (Proc.devRef .tc main_v397) = val_main_v397 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) (L (Proc.devRef .tc main_arg14)) (L (Proc.devRef .tc main_arg15)) (L (Proc.devRef .tc main_arg16)) (L (Proc.devRef .tc main_arg17)) (L (Proc.devRef .tc main_arg18)) := by
  have e := s7 (V6 L) _ _ _ _ _ _ _ _ _ _ _ _ _ _ _ _ _ (V6_345 L) (V6_keep L (by decide) (by decide) (by decide) (by decide) (by decide) (by decide) (by decide) : V6 L (Proc.devRef .tc main_arg1) = L (Proc.devRef .tc main_arg1)) (V6_keep L (by decide) (by decide) (by decide) (by decide) (by decide) (by decide) (by decide) : V6 L (Proc.devRef .tc main_arg2) = L (Proc.devRef .tc main_arg2))
  rw [(V6_keep L (by decide) (by decide) (by decide) (by decide) (by decide) (by decide) (by decide) : V6 L (Proc.devRef .tc main_arg17) = L (Proc.devRef .tc main_arg17)), (V6_keep L (by decide) (by decide) (by decide) (by decide) (by decide) (by decide) (by decide) : V6 L (Proc.devRef .tc main_arg18) = L (Proc.devRef .tc main_arg18))] at e
  exact e
theorem V7_334 (L : Valuation τ sig (Elt F)) : V7 L (Proc.devRef .tc main_v334) = val_main_v334 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) (L (Proc.devRef .tc main_arg14)) (L (Proc.devRef .tc main_arg15)) (L (Proc.devRef .tc main_arg16)) :=
  (keep7 (V6 L) (by decide)).trans (V6_334 L)
theorem V7_345 (L : Valuation τ sig (Elt F)) : V7 L (Proc.devRef .tc main_v345) = val_main_v345 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) (L (Proc.devRef .tc main_arg14)) (L (Proc.devRef .tc main_arg15)) (L (Proc.devRef .tc main_arg16)) :=
  (keep7 (V6 L) (by decide)).trans (V6_345 L)

theorem V8_449 (L : Valuation τ sig (Elt F)) : V8 L (Proc.devRef .tc main_v449) = val_main_v449 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) (L (Proc.devRef .tc main_arg14)) (L (Proc.devRef .tc main_arg15)) (L (Proc.devRef .tc main_arg16)) (L (Proc.devRef .tc main_arg19)) (L (Proc.devRef .tc main_arg20)) := by
  have e := s8 (V7 L) _ _ _ _ _ _ _ _ _ _ _ _ _ _ _ _ _ (V7_345 L) (V7_keep L (by decide) (by decide) (by decide) (by decide) (by decide) (by decide) (by decide) (by decide) : V7 L (Proc.devRef .tc main_arg1) = L (Proc.devRef .tc main_arg1)) (V7_keep L (by decide) (by decide) (by decide) (by decide) (by decide) (by decide) (by decide) (by decide) : V7 L (Proc.devRef .tc main_arg2) = L (Proc.devRef .tc main_arg2))
  rw [(V7_keep L (by decide) (by decide) (by decide) (by decide) (by decide) (by decide) (by decide) (by decide) : V7 L (Proc.devRef .tc main_arg19) = L (Proc.devRef .tc main_arg19)), (V7_keep L (by decide) (by decide) (by decide) (by decide) (by decide) (by decide) (by decide) (by decide) : V7 L (Proc.devRef .tc main_arg20) = L (Proc.devRef .tc main_arg20))] at e
  exact e
theorem V8_397 (L : Valuation τ sig (Elt F)) : V8 L (Proc.devRef .tc main_v397) = val_main_v397 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) (L (Proc.devRef .tc main_arg14)) (L (Proc.devRef .tc main_arg15)) (L (Proc.devRef .tc main_arg16)) (L (Proc.devRef .tc main_arg17)) (L (Proc.devRef .tc main_arg18)) :=
  (keep8 (V7 L) (by decide)).trans (V7_397 L)
theorem V8_334 (L : Valuation τ sig (Elt F)) : V8 L (Proc.devRef .tc main_v334) = val_main_v334 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) (L (Proc.devRef .tc main_arg14)) (L (Proc.devRef .tc main_arg15)) (L (Proc.devRef .tc main_arg16)) :=
  (keep8 (V7 L) (by decide)).trans (V7_334 L)

theorem V9_451 (L : Valuation τ sig (Elt F)) : V9 L (Proc.devRef .tc main_v451) = val_main_v451 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) (L (Proc.devRef .tc main_arg14)) (L (Proc.devRef .tc main_arg15)) (L (Proc.devRef .tc main_arg16)) (L (Proc.devRef .tc main_arg19)) (L (Proc.devRef .tc main_arg20)) := by
  have e := s9 (V8 L) _ _ _ _ _ _ _ _ _ _ _ _ _ _ _ _ _ _ _ (V8_449 L)
  exact e
theorem V9_397 (L : Valuation τ sig (Elt F)) : V9 L (Proc.devRef .tc main_v397) = val_main_v397 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) (L (Proc.devRef .tc main_arg14)) (L (Proc.devRef .tc main_arg15)) (L (Proc.devRef .tc main_arg16)) (L (Proc.devRef .tc main_arg17)) (L (Proc.devRef .tc main_arg18)) :=
  (keep9 (V8 L) (by decide)).trans (V8_397 L)
theorem V9_334 (L : Valuation τ sig (Elt F)) : V9 L (Proc.devRef .tc main_v334) = val_main_v334 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) (L (Proc.devRef .tc main_arg14)) (L (Proc.devRef .tc main_arg15)) (L (Proc.devRef .tc main_arg16)) :=
  (keep9 (V8 L) (by decide)).trans (V8_334 L)

/-! ### The whole line -/

/-- the whole line is the ten stretches one after the other -/
theorem after_all (L : Valuation τ sig (Elt F)) : after opsAll L = V9 L := by
  show after (ops0 ++ ops1 ++ ops2 ++ ops3 ++ ops4 ++ ops5 ++ ops6 ++ ops7 ++ ops8 ++ ops9) L = _
  rw [after_app, after_app, after_app, after_app, after_app, after_app, after_app, after_app, after_app]
  rfl

theorem res397 (L : Valuation τ sig (Elt F)) : after opsAll L (Proc.devRef .tc main_v397) = val_main_v397 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) (L (Proc.devRef .tc main_arg14)) (L (Proc.devRef .tc main_arg15)) (L (Proc.devRef .tc main_arg16)) (L (Proc.devRef .tc main_arg17)) (L (Proc.devRef .tc main_arg18)) := by
  rw [after_all]; exact V9_397 L
theorem res451 (L : Valuation τ sig (Elt F)) : after opsAll L (Proc.devRef .tc main_v451) = val_main_v451 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) (L (Proc.devRef .tc main_arg14)) (L (Proc.devRef .tc main_arg15)) (L (Proc.devRef .tc main_arg16)) (L (Proc.devRef .tc main_arg19)) (L (Proc.devRef .tc main_arg20)) := by
  rw [after_all]; exact V9_451 L
theorem res334 (L : Valuation τ sig (Elt F)) : after opsAll L (Proc.devRef .tc main_v334) = val_main_v334 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) (L (Proc.devRef .tc main_arg14)) (L (Proc.devRef .tc main_arg15)) (L (Proc.devRef .tc main_arg16)) := by
  rw [after_all]; exact V9_334 L
theorem resKeep (L : Valuation τ sig (Elt F)) {r : Ref sig .tc} (h0 : r ∉ ops0_W) (h1 : r ∉ ops1_W) (h2 : r ∉ ops2_W) (h3 : r ∉ ops3_W) (h4 : r ∉ ops4_W) (h5 : r ∉ ops5_W) (h6 : r ∉ ops6_W) (h7 : r ∉ ops7_W) (h8 : r ∉ ops8_W) (h9 : r ∉ ops9_W) :
    after opsAll L (Proc.devRef .tc r) = L (Proc.devRef .tc r) := by
  rw [after_all]; exact V9_keep L h0 h1 h2 h3 h4 h5 h6 h7 h8 h9

/-- every operation of the line touches TensorCore references only -/
theorem opsAll_sub : (opsAll : List (HloOp τ sig (Elt F))).Forall fun op => op.bufs ⊆ tcRefs τ sig := by
  refine List.forall_iff_forall_mem.mpr fun op h => ?_
  simp only [opsAll, List.mem_append] at h
  rcases h with (((((((((h | h) | h) | h) | h) | h) | h) | h) | h) | h)
  · exact List.forall_iff_forall_mem.mp ops0_sub op h
  · exact List.forall_iff_forall_mem.mp ops1_sub op h
  · exact List.forall_iff_forall_mem.mp ops2_sub op h
  · exact List.forall_iff_forall_mem.mp ops3_sub op h
  · exact List.forall_iff_forall_mem.mp ops4_sub op h
  · exact List.forall_iff_forall_mem.mp ops5_sub op h
  · exact List.forall_iff_forall_mem.mp ops6_sub op h
  · exact List.forall_iff_forall_mem.mp ops7_sub op h
  · exact List.forall_iff_forall_mem.mp ops8_sub op h
  · exact List.forall_iff_forall_mem.mp ops9_sub op h

/-- no operation of the line allocates a buffer -/
theorem opsAll_fresh : ∀ op ∈ (opsAll : List (HloOp τ sig (Elt F))), op.fresh = ∅ := by
  intro op h
  simp only [opsAll, List.mem_append] at h
  rcases h with (((((((((h | h) | h) | h) | h) | h) | h) | h) | h) | h)
  · exact ops0_fresh op h
  · exact ops1_fresh op h
  · exact ops2_fresh op h
  · exact ops3_fresh op h
  · exact ops4_fresh op h
  · exact ops5_fresh op h
  · exact ops6_fresh op h
  · exact ops7_fresh op h
  · exact ops8_fresh op h
  · exact ops9_fresh op h

/-! ## The run -/

/-- On every device, for any float values, from any memory with zero counters: every weakly fair
execution of the reference terminates with each result at its stage function of the arguments, and
the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v397) = val_main_v397 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_v451) = val_main_v451 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg19)) (m ((c.tc : Thread nD τ).loc main_arg20))
      ∧ r.2.mem ((c.tc : Thread nD τ).loc main_v334) = val_main_v334 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_v397).trans (res397 (launchContents m c)),
      (h c main_v451).trans (res451 (launchContents m c)),
      (h c main_v334).trans (res334 (launchContents m c)),
      (h c main_arg0).trans (resKeep (launchContents m c) (by decide) (by decide) (by decide) (by decide) (by decide) (by decide) (by decide) (by decide) (by decide) (by decide)),
      (h c main_arg1).trans (resKeep (launchContents m c) (by decide) (by decide) (by decide) (by decide) (by decide) (by decide) (by decide) (by decide) (by decide) (by decide)),
      (h c main_arg2).trans (resKeep (launchContents m c) (by decide) (by decide) (by decide) (by decide) (by decide) (by decide) (by decide) (by decide) (by decide) (by decide)),
      (h c main_arg3).trans (resKeep (launchContents m c) (by decide) (by decide) (by decide) (by decide) (by decide) (by decide) (by decide) (by decide) (by decide) (by decide)),
      (h c main_arg4).trans (resKeep (launchContents m c) (by decide) (by decide) (by decide) (by decide) (by decide) (by decide) (by decide) (by decide) (by decide) (by decide)),
      (h c main_arg5).trans (resKeep (launchContents m c) (by decide) (by decide) (by decide) (by decide) (by decide) (by decide) (by decide) (by decide) (by decide) (by decide)),
      (h c main_arg6).trans (resKeep (launchContents m c) (by decide) (by decide) (by decide) (by decide) (by decide) (by decide) (by decide) (by decide) (by decide) (by decide)),
      (h c main_arg7).trans (resKeep (launchContents m c) (by decide) (by decide) (by decide) (by decide) (by decide) (by decide) (by decide) (by decide) (by decide) (by decide)),
      (h c main_arg8).trans (resKeep (launchContents m c) (by decide) (by decide) (by decide) (by decide) (by decide) (by decide) (by decide) (by decide) (by decide) (by decide)),
      (h c main_arg9).trans (resKeep (launchContents m c) (by decide) (by decide) (by decide) (by decide) (by decide) (by decide) (by decide) (by decide) (by decide) (by decide)),
      (h c main_arg10).trans (resKeep (launchContents m c) (by decide) (by decide) (by decide) (by decide) (by decide) (by decide) (by decide) (by decide) (by decide) (by decide)),
      (h c main_arg11).trans (resKeep (launchContents m c) (by decide) (by decide) (by decide) (by decide) (by decide) (by decide) (by decide) (by decide) (by decide) (by decide)),
      (h c main_arg12).trans (resKeep (launchContents m c) (by decide) (by decide) (by decide) (by decide) (by decide) (by decide) (by decide) (by decide) (by decide) (by decide)),
      (h c main_arg13).trans (resKeep (launchContents m c) (by decide) (by decide) (by decide) (by decide) (by decide) (by decide) (by decide) (by decide) (by decide) (by decide)),
      (h c main_arg14).trans (resKeep (launchContents m c) (by decide) (by decide) (by decide) (by decide) (by decide) (by decide) (by decide) (by decide) (by decide) (by decide)),
      (h c main_arg15).trans (resKeep (launchContents m c) (by decide) (by decide) (by decide) (by decide) (by decide) (by decide) (by decide) (by decide) (by decide) (by decide)),
      (h c main_arg16).trans (resKeep (launchContents m c) (by decide) (by decide) (by decide) (by decide) (by decide) (by decide) (by decide) (by decide) (by decide) (by decide)),
      (h c main_arg17).trans (resKeep (launchContents m c) (by decide) (by decide) (by decide) (by decide) (by decide) (by decide) (by decide) (by decide) (by decide) (by decide)),
      (h c main_arg18).trans (resKeep (launchContents m c) (by decide) (by decide) (by decide) (by decide) (by decide) (by decide) (by decide) (by decide) (by decide) (by decide)),
      (h c main_arg19).trans (resKeep (launchContents m c) (by decide) (by decide) (by decide) (by decide) (by decide) (by decide) (by decide) (by decide) (by decide) (by decide)),
      (h c main_arg20).trans (resKeep (launchContents m c) (by decide) (by decide) (by decide) (by decide) (by decide) (by decide) (by decide) (by decide) (by decide) (by decide))⟩)
    (run_seq scopedRefs_eq scopedSems_eq defs main (fun _ => opsAll) main_eq (fun _ => opsAll_sub) m ρ (fun _ => opsAll_fresh))

/-- the reference runs and leaves its arguments unchanged -/
theorem frame_ri : Cert.frame_ReferenceIdeal := fun m ρ _ =>
  (θ_run Cert.ReferenceIdeal.defs _ _).mono (fun _ h c => (h c).2.2.2) (run m ρ)

end Cert.ReferenceIdeal.Hand

end
-- ==== Proof.LibGcn.lean ====
import Mathlib.Data.EReal.Operations
import Mathlib.Data.Fintype.BigOperators
import Mathlib.Algebra.BigOperators.Fin
import Mathlib.Algebra.BigOperators.Ring.Finset
import Mathlib.Algebra.BigOperators.Group.Finset.Piecewise
import Mathlib.Logic.Equiv.Fin.Basic
import Mathlib.Tactic.Ring
import Mathlib.Tactic.Linarith

/-!
# Graph convolution over the extended reals

A graph-convolution layer written two ways — as a dense adjacency matrix applied to the
features, and edge by edge — together with the bookkeeping that lets the distributive
laws of the real numbers be used inside the extended reals, where multiplication does not
distribute over addition at the infinities.  Every distributing step is therefore carried
out on real witnesses and the result is coerced back.
-/

open scoped BigOperators

namespace Cert.LibGcn

noncomputable section

/-- an array of extended reals all of whose entries are (coercions of) real numbers -/
def IsReal {ι : Type*} (x : ι → EReal) : Prop := ∀ i, ∃ r : ℝ, x i = (r : EReal)

/-- the coercion of the reals into the extended reals commutes with finite sums
(it is an additive monoid homomorphism: it sends 0 to 0 and a + b to a + b) -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih =>
    rw [Finset.sum_insert ha, Finset.sum_insert ha, EReal.coe_add, ih]

/-! ### Real-valuedness of single entries -/

/-- the sum of two real entries is real -/
private theorem real_add {a b : EReal} (ha : ∃ r : ℝ, a = (r : EReal))
    (hb : ∃ r : ℝ, b = (r : EReal)) : ∃ r : ℝ, a + b = (r : EReal) := by
  obtain ⟨p, rfl⟩ := ha
  obtain ⟨q, rfl⟩ := hb
  exact ⟨p + q, (EReal.coe_add p q).symm⟩

/-- the product of two real entries is real -/
private theorem real_mul {a b : EReal} (ha : ∃ r : ℝ, a = (r : EReal))
    (hb : ∃ r : ℝ, b = (r : EReal)) : ∃ r : ℝ, a * b = (r : EReal) := by
  obtain ⟨p, rfl⟩ := ha
  obtain ⟨q, rfl⟩ := hb
  exact ⟨p * q, (EReal.coe_mul p q).symm⟩

/-- a finite sum of real entries is real -/
private theorem real_sum {κ : Type*} (s : Finset κ) {f : κ → EReal}
    (hf : ∀ k ∈ s, ∃ r : ℝ, f k = (r : EReal)) : ∃ r : ℝ, ∑ k ∈ s, f k = (r : EReal) := by
  classical
  induction s using Finset.induction_on with
  | empty => exact ⟨0, by simp⟩
  | insert a s ha ih =>
    rw [Finset.sum_insert ha]
    exact real_add (hf a (Finset.mem_insert_self a s))
      (ih (fun k hk => hf k (Finset.mem_insert_of_mem hk)))

/-! ### Closure of real-valuedness -/

/-- the entrywise sum of two real-valued arrays is real-valued -/
theorem IsReal.add {ι : Type*} {x y : ι → EReal} (hx : IsReal x) (hy : IsReal y) :
    IsReal (fun i => x i + y i) :=
  fun i => real_add (hx i) (hy i)

/-- the entrywise product of two real-valued arrays is real-valued -/
theorem IsReal.mul {ι : Type*} {x y : ι → EReal} (hx : IsReal x) (hy : IsReal y) :
    IsReal (fun i => x i * y i) :=
  fun i => real_mul (hx i) (hy i)

/-- the positive part max(x, 0) of a real-valued array is real-valued:
the coercion is monotone, so it commutes with max -/
theorem IsReal.max_zero {ι : Type*} {x : ι → EReal} (hx : IsReal x) :
    IsReal (fun i => max (x i) 0) := by
  intro i
  obtain ⟨p, hp⟩ := hx i
  refine ⟨max p 0, ?_⟩
  show max (x i) 0 = ((max p 0 : ℝ) : EReal)
  rw [hp, ← EReal.coe_zero]
  exact (EReal.coe_strictMono.monotone.map_max).symm

/-- a finite sum, along one axis, of a real-valued two-axis array is real-valued -/
theorem IsReal.sum {ι κ : Type*} (s : Finset κ) {x : ι → κ → EReal} (hx : ∀ i, IsReal (x i)) :
    IsReal (fun i => ∑ k ∈ s, x i k) :=
  fun i => real_sum s (fun k _ => hx i k)

/-- an array of coerced reals is real-valued -/
theorem isReal_coe {ι : Type*} (f : ι → ℝ) : IsReal (fun i => (f i : EReal)) :=
  fun i => ⟨f i, rfl⟩

/-- the zero array is real-valued -/
theorem isReal_zero {ι : Type*} : IsReal (fun _ : ι => (0 : EReal)) :=
  fun _ => ⟨0, EReal.coe_zero.symm⟩

section

variable {N E K J : Type} [Fintype N] [Fintype E] [Fintype K] [DecidableEq N]

/-- the dense adjacency matrix of a weighted graph with self-loops: entry (v, u) collects the
weights of the edges from u that arrive at v, plus the self-loop weight on the diagonal -/
def adj (s : E → N) (d : E → Option N) (coef : E → EReal) (selfc : N → EReal) (v u : N) : EReal :=
  (∑ e ∈ Finset.univ.filter (fun e => d e = some v ∧ s e = u), coef e) + (if u = v then selfc v else 0)

/-- the layer in matrix form: ((A · X) · W) + b -/
def layerK (A : N → N → EReal) (x : N → K → EReal) (w : K → J → EReal) (b : J → EReal)
    (v : N) (j : J) : EReal :=
  (∑ k, (∑ u, A v u * x u k) * w k j) + b j

/-- the layer edge by edge: with H = X · W, row v gathers H (source) times the edge weight over
the edges arriving at v, adds the self-loop term H v times its weight, then the bias -/
def layerR (s : E → N) (d : E → Option N) (coef : E → EReal) (selfc : N → EReal)
    (x : N → K → EReal) (w : K → J → EReal) (b : J → EReal) (v : N) (j : J) : EReal :=
  ((∑ e ∈ Finset.univ.filter (fun e => d e = some v), (∑ k, x (s e) k * w k j) * coef e)
    + (∑ k, x v k * w k j) * selfc v) + b j

/-- summing, over all sources u, the edges that satisfy p and start at u, each weighted by a
function of u, is summing over the edges that satisfy p, weighted by that function of the
edge's own source (every edge has exactly one source) -/
private theorem fiber_sum (s : E → N) (p : E → Prop) [DecidablePred p] (c : E → ℝ) (g : N → ℝ) :
    ∑ u, (∑ e ∈ Finset.univ.filter (fun e => p e ∧ s e = u), c e) * g u
      = ∑ e ∈ Finset.univ.filter p, c e * g (s e) := by
  simp only [Finset.sum_filter, Finset.sum_mul]
  rw [Finset.sum_comm]
  refine Finset.sum_congr rfl (fun e _ => ?_)
  by_cases hp : p e
  · simp [hp, ite_mul]
  · simp [hp]

/-- the bridge over the real numbers: distribute the matrix entry over the features, collapse
the diagonal term, regroup the edge sums by source, and exchange the sums over edges and over
the input feature axis -/
private theorem bridge_real (s : E → N) (d : E → Option N) (c : E → ℝ) (sc : N → ℝ)
    (xr : N → K → ℝ) (wr : K → J → ℝ) (v : N) (j : J) :
    ∑ k, (∑ u, ((∑ e ∈ Finset.univ.filter (fun e => d e = some v ∧ s e = u), c e)
        + (if u = v then sc v else 0)) * xr u k) * wr k j
      = (∑ e ∈ Finset.univ.filter (fun e => d e = some v), (∑ k, xr (s e) k * wr k j) * c e)
        + (∑ k, xr v k * wr k j) * sc v := by
  have hrow : ∀ k, ∑ u, ((∑ e ∈ Finset.univ.filter (fun e => d e = some v ∧ s e = u), c e)
        + (if u = v then sc v else 0)) * xr u k
      = (∑ e ∈ Finset.univ.filter (fun e => d e = some v), c e * xr (s e) k) + sc v * xr v k := by
    intro k
    simp only [add_mul, Finset.sum_add_distrib]
    rw [fiber_sum s (fun e => d e = some v) c (fun u => xr u k)]
    congr 1
    simp [ite_mul]
  simp only [hrow]
  simp only [add_mul, Finset.sum_add_distrib, Finset.sum_mul]
  rw [Finset.sum_comm]
  congr 1
  · refine Finset.sum_congr rfl (fun e _ => Finset.sum_congr rfl (fun k _ => ?_))
    ring
  · refine Finset.sum_congr rfl (fun k _ => ?_)
    ring

/-- every row of the adjacency matrix is real-valued when the weights are -/
theorem isReal_adj (s : E → N) (d : E → Option N) {coef : E → EReal} {selfc : N → EReal}
    (hc : IsReal coef) (hs : IsReal selfc) (v : N) : IsReal (adj s d coef selfc v) := by
  intro u
  unfold adj
  refine real_add (real_sum _ (fun e _ => hc e)) ?_
  split_ifs
  · exact hs v
  · exact ⟨0, EReal.coe_zero.symm⟩

/-- THE BRIDGE: with real-valued weights, features and matrix W (b is arbitrary), the two
forms agree. -/
theorem layerK_eq_layerR (s : E → N) (d : E → Option N) {coef : E → EReal} {selfc : N → EReal}
    {x : N → K → EReal} {w : K → J → EReal} (b : J → EReal)
    (hc : IsReal coef) (hs : IsReal selfc) (hx : ∀ u, IsReal (x u)) (hw : ∀ k, IsReal (w k))
    (v : N) (j : J) :
    layerK (adj s d coef selfc) x w b v j = layerR s d coef selfc x w b v j := by
  choose c hc' using hc
  choose sc hs' using hs
  choose xr hx' using hx
  choose wr hw' using hw
  obtain rfl : coef = fun e => (c e : EReal) := funext hc'
  obtain rfl : selfc = fun u => (sc u : EReal) := funext hs'
  obtain rfl : x = fun u k => (xr u k : EReal) := funext (fun u => funext (hx' u))
  obtain rfl : w = fun k j => (wr k j : EReal) := funext (fun k => funext (hw' k))
  have hadj : ∀ u, adj s d (fun e => (c e : EReal)) (fun u => (sc u : EReal)) v u
      = (((∑ e ∈ Finset.univ.filter (fun e => d e = some v ∧ s e = u), c e)
        + (if u = v then sc v else 0) : ℝ) : EReal) := by
    intro u
    unfold adj
    rw [EReal.coe_add, coe_sum]
    congr 1
    split_ifs <;> simp
  unfold layerK layerR
  congr 1
  simp only [hadj, ← EReal.coe_mul, ← coe_sum, ← EReal.coe_add]
  exact congrArg _ (bridge_real s d c sc xr wr v j)

/-- the pre-activation of a layer is real-valued when everything is (b included) -/
theorem isReal_layerK {A : N → N → EReal} {x : N → K → EReal} {w : K → J → EReal} {b : J → EReal}
    (hA : ∀ v, IsReal (A v)) (hx : ∀ u, IsReal (x u)) (hw : ∀ k, IsReal (w k)) (hb : IsReal b)
    (v : N) : IsReal (layerK A x w b v) := by
  intro j
  unfold layerK
  refine real_add (real_sum _ (fun k _ => real_mul (real_sum _ (fun u _ => ?_)) (hw k j))) (hb j)
  exact real_mul (hA v u) (hx u k)

end

/-- a sum over Fin n whose terms vanish outside the window [off, off+m) is the sum over the
window (no finiteness needed: only x + 0 = x) -/
theorem sum_window {n m : ℕ} (off : ℕ) (h : off + m ≤ n) (f : Fin n → EReal)
    (hz : ∀ k : Fin n, (k.val < off ∨ off + m ≤ k.val) → f k = 0) :
    ∑ k : Fin n, f k = ∑ k : Fin m, f ⟨off + k.val, by omega⟩ := by
  have hinj : Function.Injective (fun k : Fin m => (⟨off + k.val, by omega⟩ : Fin n)) := by
    intro a b hab
    have := congrArg Fin.val hab
    exact Fin.ext (by simpa using this)
  symm
  refine (Finset.sum_map Finset.univ ⟨_, hinj⟩ f).symm.trans ?_
  refine Finset.sum_subset (Finset.subset_univ _) (fun k _ hk => hz k ?_)
  by_contra hcon
  rw [not_or, not_lt, not_le] at hcon
  refine hk (Finset.mem_map.mpr ⟨⟨k.val - off, by omega⟩, Finset.mem_univ _, Fin.ext ?_⟩)
  show off + (k.val - off) = k.val
  omega

/-- the index of entry r of block k, blocks of size bs, lies below nb * bs -/
theorem blk_lt {n nb bs : ℕ} (h : nb * bs = n) (k : Fin nb) (r : Fin bs) :
    k.val * bs + r.val < n := by
  have h1 : k.val * bs + r.val < (k.val + 1) * bs := by
    rw [Nat.succ_mul]; exact Nat.add_lt_add_left r.isLt _
  have h2 : (k.val + 1) * bs ≤ nb * bs := Nat.mul_le_mul_right _ k.isLt
  omega

/-- a sum over Fin n, n = nb * bs, taken block by block -/
theorem sum_blocks {n : ℕ} (nb bs : ℕ) (h : nb * bs = n) (f : Fin n → EReal) :
    ∑ u : Fin n, f u = ∑ k : Fin nb, ∑ r : Fin bs, f ⟨k.val * bs + r.val, by
      have := k.isLt; have := r.isLt; nlinarith⟩ := by
  subst h
  rw [← Equiv.sum_comp finProdFinEquiv f, Fintype.sum_prod_type]
  refine Finset.sum_congr rfl (fun k _ => Finset.sum_congr rfl (fun r _ => ?_))
  refine congrArg f (Fin.ext ?_)
  show r.val + bs * k.val = k.val * bs + r.val
  ring

end

end Cert.LibGcn
-- ==== Proof.KIVal0.lean ====
import proofs.«414230_j6141803233547_3_alg».proof.Proof.KISpmm0
import proofs.«414230_j6141803233547_3_alg».proof.Proof.LibGcn
import Idealize.ShloMosaic.Lib.ValueIdx
import Idealize.ShloMosaic.Lib.ValueLayout
import Idealize.ShloMosaic.Lib.Pipeline.Value
import Idealize.ShloMosaic.PureOps.Ideal.Laws

/-!
# Region 0 read as values: a graph-convolution layer in matrix form

The region multiplies the adjacency matrix `A` (8192 × 8192) by the feature matrix `X`
(8192 × 64) one 2048 × 2048 block at a time: for a row block `i` the partial sum runs over the
four column blocks `k`, each adding `A[i,k] · X[k]`, starting from the zero block.  After the last
column block the finished rows are multiplied by the layer's matrix `W` (64 × 256), the bias row
is added and the layer's activation `act` applied (the positive part for this region).  Read entry
by entry over the extended reals this is

  out (r, j) = act (Σ_k (Σ_u A (r, u) · X (u, k)) · W (k, j) + b j) ,

because a sum over 8192 columns taken in four consecutive blocks of 2048 is the whole sum
(only associativity of the addition is used: no finiteness is needed).
-/

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-! ## Two facts about sums and products, for any sizes -/

/-- a rows-by-columns product into the zero block, read at an entry: the sum over the contracted
coordinate of the products of the entries -/
private theorem matmul_rc_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- four consecutive blocks of 2048 terms, summed block by block, are the sum of all 8192 terms -/
private theorem blocks_join (f : ℕ → EReal) (g : Fin 8192 → EReal) (hfg : ∀ u : Fin 8192, f u.val = g u) :
    ∑ k' ∈ Finset.range 4, ∑ q : Fin 2048, f (2048 * k' + q.val) = ∑ u : Fin 8192, g u := by
  rw [Cert.LibGcn.sum_blocks 4 2048 rfl g, Finset.sum_range]
  refine Finset.sum_congr rfl fun k' _ => Finset.sum_congr rfl fun q _ => ?_
  rw [← hfg]
  exact congrArg f (by show 2048 * k'.val + q.val = k'.val * 2048 + q.val; omega)

/-! ## The arrays as the region finds them, by coordinates -/

variable (V : (c : Dev nD) → (b : Ref sig .tc) → Buf (Elt Ideal) ((c : Thread nD τ).loc b))

/-- the adjacency matrix: entry (v, u) -/
abbrev A0 (c : Dev nD) (v u : Fin 8192) : EReal := (V c main_v45 : S8192x8192.Idx → EReal) (ix2 v u)
/-- the features: row u, column k -/
abbrev X0 (c : Dev nD) (u : Fin 8192) (k : Fin 64) : EReal := (V c main_v50 : S8192x64.Idx → EReal) (ix2 u k)
/-- the layer's matrix: entry (k, j) -/
abbrev W0 (c : Dev nD) (k : Fin 64) (j : Fin 256) : EReal := (V c main_v51 : S64x256.Idx → EReal) (ix2 k j)
/-- the layer's bias: entry j of its one row -/
abbrev B0 (c : Dev nD) (j : Fin 256) : EReal := (V c main_v52 : S1x256.Idx → EReal) (ix2 (0 : Fin 1) j)

/-- the adjacency matrix at natural coordinates, zero outside the matrix: the row and column of an
entry of a block are sums of the block's offset and the place inside the block -/
def An0 (c : Dev nD) (v u : ℕ) : EReal := if h : v < 8192 ∧ u < 8192 then A0 V c ⟨v, h.1⟩ ⟨u, h.2⟩ else 0
/-- the features at a natural row, zero outside -/
def Xn0 (c : Dev nD) (u : ℕ) (kk : Fin 64) : EReal := if h : u < 8192 then X0 V c ⟨u, h⟩ kk else 0

/-- the product of block (i, k') of the adjacency matrix with row block k' of the features, at
row r of the block and column kk -/
def Sn0 (c : Dev nD) (i k' : ℕ) (r : Fin 2048) (kk : Fin 64) : EReal :=
  ∑ q : Fin 2048, An0 V c (2048 * i + r.val) (2048 * k' + q.val) * Xn0 V c (2048 * k' + q.val) kk

/-! ## Where the blocks sit: the index maps over the sixteen points -/

/-- point t = 4 i + k reads block (i, k) of the adjacency matrix, all of the features, of the layer's
matrix and of the bias, and owns block (i, 0) of the result; its second coordinate is k -/
theorem idx_facts0 : ∀ t : Fin cfg0.N,
    win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 4 ∧ win0_4.index t (1 : Fin 2) = 0
    ∧ ((grid0.coords t) 1).val = t.val % 4 :=
  (by decide +kernel : ∀ t : Fin grid0.N, _)

/-- there are sixteen points -/
theorem lt16_0 (t : Fin cfg0.N) : t.val < 16 := lt_of_lt_of_eq t.isLt N_0

/-! ## The blocks read entry by entry -/

/-- the adjacency block at point t = 4 i + k: entry (r, q) is entry (2048 i + r, 2048 k + q) of the matrix -/
theorem ablk0_apply (c : Dev nD) (t : Fin cfg0.N) (r q : Fin 2048) :
    ablk0 V c t (ix2 r q) = An0 V c (2048 * (t.val / 4) + r.val) (2048 * (t.val % 4) + q.val) := by
  have ht := lt16_0 t
  have hv : 2048 * (t.val / 4) + r.val < 8192 := by omega
  have hu : 2048 * (t.val % 4) + q.val < 8192 := by omega
  obtain ⟨e0, e1, -⟩ := idx_facts0 t
  unfold An0
  rw [dif_pos ⟨hv, hu⟩]
  show (V c main_v45 : S8192x8192.Idx → EReal) (((cfg0.win 0).blk t).view.emb (ix2 r q))
    = (V c main_v45 : S8192x8192.Idx → EReal) (ix2 ⟨2048 * (t.val / 4) + r.val, hv⟩ ⟨2048 * (t.val % 4) + q.val, hu⟩)
  refine congrArg _ ?_
  funext a
  apply Fin.ext
  match a with
  | ⟨0, _⟩ => show win0_0.index t (0 : Fin 2) * 2048 + 1 * r.val = 2048 * (t.val / 4) + r.val; rw [e0]; omega
  | ⟨1, _⟩ => show win0_0.index t (1 : Fin 2) * 2048 + 1 * q.val = 2048 * (t.val % 4) + q.val; rw [e1]; omega

/-- the rows of the features the body loads at point t = 4 i + k: entry (q, kk) is entry
(2048 k + q, kk) of the features -/
theorem xsl0_apply (c : Dev nD) (t : Fin cfg0.N) (q : Fin 2048) (kk : Fin 64) :
    xsl0 V c t (ix2 q kk) = Xn0 V c (2048 * (t.val % 4) + q.val) kk := by
  have ht := lt16_0 t
  have hu : 2048 * (t.val % 4) + q.val < 8192 := by omega
  obtain ⟨-, -, e2, e3, -, -, -, -, -, -, ek⟩ := idx_facts0 t
  unfold Xn0
  rw [dif_pos hu]
  unfold xsl0
  show (V c main_v50 : S8192x64.Idx → EReal) (((cfg0.win 1).blk t).view.emb
      ((Rect.unit (s := S8192x64) (k0_off1 (grid0.coords t)) S2048x64.size (Gen.k0_off1_inb (grid0.coords t))).idx (ix2 q kk)))
    = (V c main_v50 : S8192x64.Idx → EReal) (ix2 ⟨2048 * (t.val % 4) + q.val, hu⟩ kk)
  refine congrArg _ ?_
  funext a
  apply Fin.ext
  match a with
  | ⟨0, _⟩ =>
    show win0_1.index t (0 : Fin 2) * 8192 + 1 * (k0_off1 (grid0.coords t) 0 + 1 * q.val) = 2048 * (t.val % 4) + q.val
    rw [e2, k0_off1_eq]
    show 0 * 8192 + 1 * (2048 * ((grid0.coords t) 1).val + 1 * q.val) = 2048 * (t.val % 4) + q.val
    rw [ek]; omega
  | ⟨1, _⟩ =>
    show win0_1.index t (1 : Fin 2) * 64 + 1 * (k0_off1 (grid0.coords t) 1 + 1 * kk.val) = kk.val
    rw [e3, k0_off1_eq]
    show 0 * 64 + 1 * (0 + 1 * kk.val) = kk.val
    omega

/-- the layer's matrix is read whole at every point -/
theorem wmat0_apply (c : Dev nD) (t : Fin cfg0.N) (k : Fin 64) (j : Fin 256) :
    wmat0 V c t (ix2 k j) = W0 V c k j := by
  obtain ⟨-, -, -, -, e4, e5, -⟩ := idx_facts0 t
  show (V c main_v51 : S64x256.Idx → EReal) (((cfg0.win 2).blk t).view.emb (ix2 k j))
    = (V c main_v51 : S64x256.Idx → EReal) (ix2 k j)
  refine congrArg _ ?_
  funext a
  apply Fin.ext
  match a with
  | ⟨0, _⟩ => show win0_2.index t (0 : Fin 2) * 64 + 1 * k.val = k.val; rw [e4]; omega
  | ⟨1, _⟩ => show win0_2.index t (1 : Fin 2) * 256 + 1 * j.val = j.val; rw [e5]; omega

/-- and so is the bias row -/
theorem bias0_apply (c : Dev nD) (t : Fin cfg0.N) (j : Fin 256) :
    bias0 V c t (ix2 (0 : Fin 1) j) = B0 V c j := by
  obtain ⟨-, -, -, -, -, -, e6, e7, -⟩ := idx_facts0 t
  show (V c main_v52 : S1x256.Idx → EReal) (((cfg0.win 3).blk t).view.emb (ix2 (0 : Fin 1) j))
    = (V c main_v52 : S1x256.Idx → EReal) (ix2 (0 : Fin 1) j)
  refine congrArg _ ?_
  funext a
  apply Fin.ext
  match a with
  | ⟨0, _⟩ => show win0_3.index t (0 : Fin 2) * 1 + 1 * (0 : Fin 1).val = (0 : Fin 1).val; rw [e6]; rfl
  | ⟨1, _⟩ => show win0_3.index t (1 : Fin 2) * 256 + 1 * j.val = j.val; rw [e7]; omega

/-! ## The body's arithmetic entry by entry -/

/-- the block the sum restarts from is zero -/
theorem zero0_apply (r : Fin 2048) (kk : Fin 64) : (k0_pay1 (F := Ideal)) (ix2 r kk) = 0 := by
  unfold k0_pay1
  simp only [shapeCast_self]
  exact Ideal.ofBits_zero_f32

/-- one step of the sum: the carried block plus the product of the adjacency block with the loaded
rows of the features -/
theorem step0_apply (x : FVec Ideal S2048x64 .bf16) (acc : FVec Ideal S2048x64 .f32) (a : FVec Ideal S2048x2048 .bf16)
    (r : Fin 2048) (kk : Fin 64) :
    k0_pay2 (F := Ideal) x acc a (ix2 r kk) = acc (ix2 r kk) + ∑ q : Fin 2048, a (ix2 r q) * x (ix2 q kk) := by
  unfold k0_pay2
  simp only [shapeCast_self]
  exact congrArg (acc (ix2 r kk) + ·)
    (matmul_rc_apply Gen.dot_S2048x2048_S2048x64_S2048x64_1_0_0_1_n_n_wf none a x r kk)

/-- before the activation: the finished rows times the layer's matrix, plus the bias row (a change of
float format is the identity on the extended reals) -/
theorem pre0_apply (s : FVec Ideal S2048x64 .f32) (w : FVec Ideal S64x256 .bf16) (b : FVec Ideal S1x256 .f32)
    (r : Fin 2048) (j : Fin 256) :
    FloatOps.matmul dot_S2048x64_S64x256_S2048x256_1_0_0_1_n_n none (truncf .bf16 s Gen.bitsLt_bf16_f32) w
          (constant (F := Ideal) S2048x256 .f32 0x00000000#32) (ix2 r j)
        + broadcastTo S2048x256 b Gen.broadcasts_S1x256_S2048x256 (ix2 r j)
      = (∑ k : Fin 64, s (ix2 r k) * w (ix2 k j)) + b (ix2 (0 : Fin 1) j) :=
  congrArg₂ (· + ·)
    (matmul_rc_apply Gen.dot_S2048x64_S64x256_S2048x256_1_0_0_1_n_n_wf none (truncf .bf16 s Gen.bitsLt_bf16_f32) w r j)
    (broadcastTo_1b_ab_apply b Gen.broadcasts_S1x256_S2048x256 r j)

section Epilogue0

/-- the layer's activation: the positive part -/
abbrev act0 (x : EReal) : EReal := max x 0

/-- what the epilogue stores: the activation of the finished rows times the layer's matrix plus the bias -/
theorem epi0_apply (s : FVec Ideal S2048x64 .f32) (w : FVec Ideal S64x256 .bf16) (b : FVec Ideal S1x256 .f32)
    (r : Fin 2048) (j : Fin 256) :
    k0_pay3 (F := Ideal) s w b (ix2 r j) = act0 ((∑ k : Fin 64, s (ix2 r k) * w (ix2 k j)) + b (ix2 (0 : Fin 1) j)) := by
  unfold k0_pay3
  simp only [shapeCast_self]
  exact congrArg₂ max (pre0_apply s w b r j) Ideal.ofBits_zero_f32

end Epilogue0

/-! ## The partial sum, closed -/

/-- the product of the blocks at point t = 4 i + k is the block product `Sn0 i k` -/
theorem blockterm0 (c : Dev nD) (t : Fin cfg0.N) (r : Fin 2048) (kk : Fin 64) :
    ∑ q : Fin 2048, ablk0 V c t (ix2 r q) * xsl0 V c t (ix2 q kk) = Sn0 V c (t.val / 4) (t.val % 4) r kk :=
  Finset.sum_congr rfl fun q _ => by rw [ablk0_apply, xsl0_apply]

/-- after the point n = 4 i + k the carried block holds the block products of row block i with the column
blocks 0, …, k: by induction along the points, the sum restarting at k = 0 -/
theorem acc0_closed (c : Dev nD) : ∀ (n : ℕ) (h : n < cfg0.N) (r : Fin 2048) (kk : Fin 64),
    acc0 V c n h (ix2 r kk) = ∑ k' ∈ Finset.range (n % 4 + 1), Sn0 V c (n / 4) k' r kk
  | 0, h, r, kk => by
    have e : acc0 V c 0 h = k0_pay2 (xsl0 V c ⟨0, h⟩) (k0_pay1 (F := Ideal)) (ablk0 V c ⟨0, h⟩) := rfl
    refine (congrFun e (ix2 r kk)).trans ?_
    refine (step0_apply (xsl0 V c ⟨0, h⟩) (k0_pay1 (F := Ideal)) (ablk0 V c ⟨0, h⟩) r kk).trans ?_
    rw [zero0_apply, zero_add, blockterm0 V c ⟨0, h⟩ r kk]
    exact (Finset.sum_range_one (fun k' => Sn0 V c (0 / 4) k' r kk)).symm
  | n + 1, h, r, kk => by
    by_cases hz : (n + 1) % 4 = 0
    · have e : acc0 V c (n + 1) h = k0_pay2 (xsl0 V c ⟨n + 1, h⟩) (k0_pay1 (F := Ideal)) (ablk0 V c ⟨n + 1, h⟩) := if_pos hz
      refine (congrFun e (ix2 r kk)).trans ?_
      refine (step0_apply (xsl0 V c ⟨n + 1, h⟩) (k0_pay1 (F := Ideal)) (ablk0 V c ⟨n + 1, h⟩) r kk).trans ?_
      rw [zero0_apply, zero_add, blockterm0 V c ⟨n + 1, h⟩ r kk]
      show Sn0 V c ((n + 1) / 4) ((n + 1) % 4) r kk = _
      rw [hz]
      exact (Finset.sum_range_one (fun k' => Sn0 V c ((n + 1) / 4) k' r kk)).symm
    · have e : acc0 V c (n + 1) h = k0_pay2 (xsl0 V c ⟨n + 1, h⟩) (acc0 V c n (Nat.lt_of_succ_lt h)) (ablk0 V c ⟨n + 1, h⟩) := if_neg hz
      refine (congrFun e (ix2 r kk)).trans ?_
      refine (step0_apply (xsl0 V c ⟨n + 1, h⟩) (acc0 V c n (Nat.lt_of_succ_lt h)) (ablk0 V c ⟨n + 1, h⟩) r kk).trans ?_
      rw [acc0_closed c n (Nat.lt_of_succ_lt h) r kk, blockterm0 V c ⟨n + 1, h⟩ r kk]
      have h4 : (n + 1) / 4 = n / 4 := by omega
      have hm : (n + 1) % 4 = n % 4 + 1 := by omega
      show _ + Sn0 V c ((n + 1) / 4) ((n + 1) % 4) r kk = _
      rw [h4, hm]
      exact (Finset.sum_range_succ (fun k' => Sn0 V c (n / 4) k' r kk) (n % 4 + 1)).symm

/-- at the last column block the carried block holds the rows of the whole product A · X -/
theorem acc0_last (c : Dev nD) (t : Fin cfg0.N) (h3 : t.val % 4 = 3) (r : Fin 2048) (kk : Fin 64)
    (v : Fin 8192) (hv : v.val = 2048 * (t.val / 4) + r.val) :
    acc0 V c t.val t.isLt (ix2 r kk) = ∑ u : Fin 8192, A0 V c v u * X0 V c u kk := by
  obtain ⟨v, hlt⟩ := v
  dsimp only at hv
  subst hv
  rw [acc0_closed V c t.val t.isLt r kk, h3]
  refine blocks_join (fun u => An0 V c (2048 * (t.val / 4) + r.val) u * Xn0 V c u kk)
    (fun u => A0 V c ⟨2048 * (t.val / 4) + r.val, hlt⟩ u * X0 V c u kk) (fun u => ?_)
  show An0 V c (2048 * (t.val / 4) + r.val) u.val * Xn0 V c u.val kk = _
  unfold An0 Xn0
  rw [dif_pos ⟨hlt, u.isLt⟩, dif_pos u.isLt]

/-! ## What the epilogue stores, and the result array -/

/-- the result, entry by entry: the activation of the layer in matrix form -/
abbrev G0 (c : Dev nD) : S8192x256.Idx → EReal := fun i =>
  act0 (Cert.LibGcn.layerK (A0 V c) (X0 V c) (W0 V c) (B0 V c) (i 0) (i 1))

/-- `G0` at an entry whose coordinates are known -/
theorem G0_at (c : Dev nD) (i : S8192x256.Idx) (v : Fin 8192) (j : Fin 256) (h0 : (i 0).val = v.val) (h1 : (i 1).val = j.val) :
    G0 V c i = act0 (Cert.LibGcn.layerK (A0 V c) (X0 V c) (W0 V c) (B0 V c) v j) := by
  obtain ⟨a, b, rfl⟩ : ∃ (a : Fin 8192) (b : Fin 256), i = ix2 a b := ⟨i 0, i 1, eq_ix2 i⟩
  obtain rfl : a = v := Fin.ext h0
  obtain rfl : b = j := Fin.ext h1
  rfl

/-- at the last column block of row block i the epilogue stores rows 2048 i, …, 2048 i + 2047 of the layer -/
theorem out0_apply (c : Dev nD) (t : Fin cfg0.N) (h3 : t.val % 4 = 3) (r : Fin 2048) (j : Fin 256)
    (v : Fin 8192) (hv : v.val = 2048 * (t.val / 4) + r.val) :
    out0 V c t (ix2 r j) = act0 (Cert.LibGcn.layerK (A0 V c) (X0 V c) (W0 V c) (B0 V c) v j) := by
  unfold out0
  refine (epi0_apply (acc0 V c t.val t.isLt) (wmat0 V c t) (bias0 V c t) r j).trans ?_
  unfold Cert.LibGcn.layerK
  refine congrArg act0 (congrArg₂ (· + ·) (Finset.sum_congr rfl fun k _ => ?_) (bias0_apply V c t j))
  rw [acc0_last V c t h3 r k v hv, wmat0_apply]

/-- what a flushing point writes back is its block of the result -/
theorem flushed0_eq (c : Dev nD) (t : Fin cfg0.N) (hf : (cfg0.win 4).flush t = true) :
    (dat0 V c).flushed 4 t = ((cfg0.win 4).blk t).view.read (Elt Ideal) (G0 V c) := by
  have h3 : t.val % 4 = 3 := (flush0_4 t).mp hf
  have ht := lt16_0 t
  obtain ⟨-, -, -, -, -, -, -, -, e8, e9, -⟩ := idx_facts0 t
  show (cfg0.win 4).cut (grid0.coords t) ((dat0 V c).after 4 t) = _
  rw [after0_4]
  refine funext fun (y : S2048x256.Idx) => ?_
  obtain ⟨r, j, rfl⟩ : ∃ (r : Fin 2048) (j : Fin 256), y = ix2 r j := ⟨y 0, y 1, eq_ix2 y⟩
  show out0 V c t (ix2 r j) = G0 V c (((cfg0.win 4).blk t).view.emb (ix2 r j))
  refine (out0_apply V c t h3 r j ⟨2048 * (t.val / 4) + r.val, by omega⟩ rfl).trans ?_
  refine (G0_at V c _ ⟨2048 * (t.val / 4) + r.val, by omega⟩ j ?_ ?_).symm
  · show win0_4.index t (0 : Fin 2) * 2048 + 1 * r.val = 2048 * (t.val / 4) + r.val
    rw [e8]; omega
  · show win0_4.index t (1 : Fin 2) * 256 + 1 * j.val = j.val
    rw [e9]; omega

/-- an entry of the result array is in point t's block iff each coordinate is in the block's range -/
theorem mem_blk0 (t : Fin cfg0.N) (i : S8192x256.Idx) :
    i ∈ ((cfg0.win 4).blk t).view.set ↔ ∀ a : Fin 2, win0_4.index t a * S2048x256.size a ≤ (i a).val
      ∧ (i a).val < win0_4.index t a * S2048x256.size a + S2048x256.size a := by
  show i ∈ ((View.whole main_v53).slice (win0_4.rect t)).set ↔ _
  rw [View.set_slice_whole, Rect.mem_set_unit]
  exact Iff.rfl

/-- every row r of the result lies in the block the point 4 (r / 2048) + 3 writes back -/
theorem cover0 (i : S8192x256.Idx) :
    ∃ t : Fin cfg0.N, (cfg0.win 4).flush t = true ∧ i ∈ ((cfg0.win 4).blk t).view.set := by
  have hi0 : (i 0).val < 8192 := (i 0).isLt
  have hi1 : (i 1).val < 256 := (i 1).isLt
  have hN : cfg0.N = 16 := N_0
  have hlt : 4 * ((i 0).val / 2048) + 3 < cfg0.N := by rw [hN]; omega
  obtain ⟨-, -, -, -, -, -, -, -, e8, e9, -⟩ := idx_facts0 ⟨4 * ((i 0).val / 2048) + 3, hlt⟩
  refine ⟨⟨4 * ((i 0).val / 2048) + 3, hlt⟩, (flush0_4 _).mpr (by show (4 * ((i 0).val / 2048) + 3) % 4 = 3; omega), ?_⟩
  rw [mem_blk0]
  intro a
  match a with
  | ⟨0, _⟩ =>
    show win0_4.index ⟨4 * ((i 0).val / 2048) + 3, hlt⟩ (0 : Fin 2) * 2048 ≤ (i 0).val
      ∧ (i 0).val < win0_4.index ⟨4 * ((i 0).val / 2048) + 3, hlt⟩ (0 : Fin 2) * 2048 + 2048
    rw [e8]
    show (4 * ((i 0).val / 2048) + 3) / 4 * 2048 ≤ (i 0).val ∧ (i 0).val < (4 * ((i 0).val / 2048) + 3) / 4 * 2048 + 2048
    omega
  | ⟨1, _⟩ =>
    show win0_4.index ⟨4 * ((i 0).val / 2048) + 3, hlt⟩ (1 : Fin 2) * 256 ≤ (i 1).val
      ∧ (i 1).val < win0_4.index ⟨4 * ((i 0).val / 2048) + 3, hlt⟩ (1 : Fin 2) * 256 + 256
    rw [e9]; omega

/-- the result array after the region, with the activation named -/
theorem arr0_act (c : Dev nD) : (dat0 V c).arrAt 4 cfg0.N = G0 V c :=
  (dat0 V c).arrAt_eq_of_cover 4 (G0 V c) (flushed0_eq V c) cover0

section Result0

/-- after region 0 its output array holds, at row r and column j, max (((A·X)·W)(r,j) + bias j) 0 -/
theorem arr0 (c : Dev nD) : ((dat0 V c).arrAt 4 cfg0.N : S8192x256.Idx → EReal) = fun i =>
    max (Cert.LibGcn.layerK (fun (v u : Fin 8192) => (V c main_v45 : S8192x8192.Idx → EReal) (ix2 v u))
      (fun (u : Fin 8192) (k : Fin 64) => (V c main_v50 : S8192x64.Idx → EReal) (ix2 u k))
      (fun (k : Fin 64) (j : Fin 256) => (V c main_v51 : S64x256.Idx → EReal) (ix2 k j))
      (fun (j : Fin 256) => (V c main_v52 : S1x256.Idx → EReal) (ix2 0 j)) (i 0) (i 1)) 0 :=
  arr0_act V c

end Result0

end Cert.KernelIdeal.Val

end
-- ==== Proof.KIVal1.lean ====
import proofs.«414230_j6141803233547_3_alg».proof.Proof.KISpmm1
import proofs.«414230_j6141803233547_3_alg».proof.Proof.LibGcn
import Idealize.ShloMosaic.Lib.ValueIdx
import Idealize.ShloMosaic.Lib.ValueLayout
import Idealize.ShloMosaic.Lib.Pipeline.Value
import Idealize.ShloMosaic.PureOps.Ideal.Laws

/-!
# Region 1 read as values: a graph-convolution layer in matrix form

The region multiplies the adjacency matrix `A` (8192 × 8192) by the feature matrix `X`
(8192 × 256) one 2048 × 2048 block at a time: for a row block `i` the partial sum runs over the
four column blocks `k`, each adding `A[i,k] · X[k]`, starting from the zero block.  After the last
column block the finished rows are multiplied by the layer's matrix `W` (256 × 256), the bias row
is added and the layer's activation `act` applied (the positive part for this region).  Read entry
by entry over the extended reals this is

  out (r, j) = act (Σ_k (Σ_u A (r, u) · X (u, k)) · W (k, j) + b j) ,

because a sum over 8192 columns taken in four consecutive blocks of 2048 is the whole sum
(only associativity of the addition is used: no finiteness is needed).
-/

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-! ## Two facts about sums and products, for any sizes -/

/-- a rows-by-columns product into the zero block, read at an entry: the sum over the contracted
coordinate of the products of the entries -/
private theorem matmul_rc_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- four consecutive blocks of 2048 terms, summed block by block, are the sum of all 8192 terms -/
private theorem blocks_join (f : ℕ → EReal) (g : Fin 8192 → EReal) (hfg : ∀ u : Fin 8192, f u.val = g u) :
    ∑ k' ∈ Finset.range 4, ∑ q : Fin 2048, f (2048 * k' + q.val) = ∑ u : Fin 8192, g u := by
  rw [Cert.LibGcn.sum_blocks 4 2048 rfl g, Finset.sum_range]
  refine Finset.sum_congr rfl fun k' _ => Finset.sum_congr rfl fun q _ => ?_
  rw [← hfg]
  exact congrArg f (by show 2048 * k'.val + q.val = k'.val * 2048 + q.val; omega)

/-! ## The arrays as the region finds them, by coordinates -/

variable (V : (c : Dev nD) → (b : Ref sig .tc) → Buf (Elt Ideal) ((c : Thread nD τ).loc b))

/-- the adjacency matrix: entry (v, u) -/
abbrev A1 (c : Dev nD) (v u : Fin 8192) : EReal := (V c main_v45 : S8192x8192.Idx → EReal) (ix2 v u)
/-- the features: row u, column k -/
abbrev X1 (c : Dev nD) (u : Fin 8192) (k : Fin 256) : EReal := (V c main_v62 : S8192x256.Idx → EReal) (ix2 u k)
/-- the layer's matrix: entry (k, j) -/
abbrev W1 (c : Dev nD) (k : Fin 256) (j : Fin 256) : EReal := (V c main_v63 : S256x256.Idx → EReal) (ix2 k j)
/-- the layer's bias: entry j of its one row -/
abbrev B1 (c : Dev nD) (j : Fin 256) : EReal := (V c main_v64 : S1x256.Idx → EReal) (ix2 (0 : Fin 1) j)

/-- the adjacency matrix at natural coordinates, zero outside the matrix: the row and column of an
entry of a block are sums of the block's offset and the place inside the block -/
def An1 (c : Dev nD) (v u : ℕ) : EReal := if h : v < 8192 ∧ u < 8192 then A1 V c ⟨v, h.1⟩ ⟨u, h.2⟩ else 0
/-- the features at a natural row, zero outside -/
def Xn1 (c : Dev nD) (u : ℕ) (kk : Fin 256) : EReal := if h : u < 8192 then X1 V c ⟨u, h⟩ kk else 0

/-- the product of block (i, k') of the adjacency matrix with row block k' of the features, at
row r of the block and column kk -/
def Sn1 (c : Dev nD) (i k' : ℕ) (r : Fin 2048) (kk : Fin 256) : EReal :=
  ∑ q : Fin 2048, An1 V c (2048 * i + r.val) (2048 * k' + q.val) * Xn1 V c (2048 * k' + q.val) kk

/-! ## Where the blocks sit: the index maps over the sixteen points -/

/-- point t = 4 i + k reads block (i, k) of the adjacency matrix, all of the features, of the layer's
matrix and of the bias, and owns block (i, 0) of the result; its second coordinate is k -/
theorem idx_facts1 : ∀ t : Fin cfg1.N,
    win1_0.index t (0 : Fin 2) = t.val / 4 ∧ win1_0.index t (1 : Fin 2) = t.val % 4
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val / 4 ∧ win1_4.index t (1 : Fin 2) = 0
    ∧ ((grid1.coords t) 1).val = t.val % 4 :=
  (by decide +kernel : ∀ t : Fin grid1.N, _)

/-- there are sixteen points -/
theorem lt16_1 (t : Fin cfg1.N) : t.val < 16 := lt_of_lt_of_eq t.isLt N_1

/-! ## The blocks read entry by entry -/

/-- the adjacency block at point t = 4 i + k: entry (r, q) is entry (2048 i + r, 2048 k + q) of the matrix -/
theorem ablk1_apply (c : Dev nD) (t : Fin cfg1.N) (r q : Fin 2048) :
    ablk1 V c t (ix2 r q) = An1 V c (2048 * (t.val / 4) + r.val) (2048 * (t.val % 4) + q.val) := by
  have ht := lt16_1 t
  have hv : 2048 * (t.val / 4) + r.val < 8192 := by omega
  have hu : 2048 * (t.val % 4) + q.val < 8192 := by omega
  obtain ⟨e0, e1, -⟩ := idx_facts1 t
  unfold An1
  rw [dif_pos ⟨hv, hu⟩]
  show (V c main_v45 : S8192x8192.Idx → EReal) (((cfg1.win 0).blk t).view.emb (ix2 r q))
    = (V c main_v45 : S8192x8192.Idx → EReal) (ix2 ⟨2048 * (t.val / 4) + r.val, hv⟩ ⟨2048 * (t.val % 4) + q.val, hu⟩)
  refine congrArg _ ?_
  funext a
  apply Fin.ext
  match a with
  | ⟨0, _⟩ => show win1_0.index t (0 : Fin 2) * 2048 + 1 * r.val = 2048 * (t.val / 4) + r.val; rw [e0]; omega
  | ⟨1, _⟩ => show win1_0.index t (1 : Fin 2) * 2048 + 1 * q.val = 2048 * (t.val % 4) + q.val; rw [e1]; omega

/-- the rows of the features the body loads at point t = 4 i + k: entry (q, kk) is entry
(2048 k + q, kk) of the features -/
theorem xsl1_apply (c : Dev nD) (t : Fin cfg1.N) (q : Fin 2048) (kk : Fin 256) :
    xsl1 V c t (ix2 q kk) = Xn1 V c (2048 * (t.val % 4) + q.val) kk := by
  have ht := lt16_1 t
  have hu : 2048 * (t.val % 4) + q.val < 8192 := by omega
  obtain ⟨-, -, e2, e3, -, -, -, -, -, -, ek⟩ := idx_facts1 t
  unfold Xn1
  rw [dif_pos hu]
  unfold xsl1
  show (V c main_v62 : S8192x256.Idx → EReal) (((cfg1.win 1).blk t).view.emb
      ((Rect.unit (s := S8192x256) (k1_off1 (grid1.coords t)) S2048x256.size (Gen.k1_off1_inb (grid1.coords t))).idx (ix2 q kk)))
    = (V c main_v62 : S8192x256.Idx → EReal) (ix2 ⟨2048 * (t.val % 4) + q.val, hu⟩ kk)
  refine congrArg _ ?_
  funext a
  apply Fin.ext
  match a with
  | ⟨0, _⟩ =>
    show win1_1.index t (0 : Fin 2) * 8192 + 1 * (k1_off1 (grid1.coords t) 0 + 1 * q.val) = 2048 * (t.val % 4) + q.val
    rw [e2, k1_off1_eq]
    show 0 * 8192 + 1 * (2048 * ((grid1.coords t) 1).val + 1 * q.val) = 2048 * (t.val % 4) + q.val
    rw [ek]; omega
  | ⟨1, _⟩ =>
    show win1_1.index t (1 : Fin 2) * 256 + 1 * (k1_off1 (grid1.coords t) 1 + 1 * kk.val) = kk.val
    rw [e3, k1_off1_eq]
    show 0 * 256 + 1 * (0 + 1 * kk.val) = kk.val
    omega

/-- the layer's matrix is read whole at every point -/
theorem wmat1_apply (c : Dev nD) (t : Fin cfg1.N) (k : Fin 256) (j : Fin 256) :
    wmat1 V c t (ix2 k j) = W1 V c k j := by
  obtain ⟨-, -, -, -, e4, e5, -⟩ := idx_facts1 t
  show (V c main_v63 : S256x256.Idx → EReal) (((cfg1.win 2).blk t).view.emb (ix2 k j))
    = (V c main_v63 : S256x256.Idx → EReal) (ix2 k j)
  refine congrArg _ ?_
  funext a
  apply Fin.ext
  match a with
  | ⟨0, _⟩ => show win1_2.index t (0 : Fin 2) * 256 + 1 * k.val = k.val; rw [e4]; omega
  | ⟨1, _⟩ => show win1_2.index t (1 : Fin 2) * 256 + 1 * j.val = j.val; rw [e5]; omega

/-- and so is the bias row -/
theorem bias1_apply (c : Dev nD) (t : Fin cfg1.N) (j : Fin 256) :
    bias1 V c t (ix2 (0 : Fin 1) j) = B1 V c j := by
  obtain ⟨-, -, -, -, -, -, e6, e7, -⟩ := idx_facts1 t
  show (V c main_v64 : S1x256.Idx → EReal) (((cfg1.win 3).blk t).view.emb (ix2 (0 : Fin 1) j))
    = (V c main_v64 : S1x256.Idx → EReal) (ix2 (0 : Fin 1) j)
  refine congrArg _ ?_
  funext a
  apply Fin.ext
  match a with
  | ⟨0, _⟩ => show win1_3.index t (0 : Fin 2) * 1 + 1 * (0 : Fin 1).val = (0 : Fin 1).val; rw [e6]; rfl
  | ⟨1, _⟩ => show win1_3.index t (1 : Fin 2) * 256 + 1 * j.val = j.val; rw [e7]; omega

/-! ## The body's arithmetic entry by entry -/

/-- the block the sum restarts from is zero -/
theorem zero1_apply (r : Fin 2048) (kk : Fin 256) : (k1_pay1 (F := Ideal)) (ix2 r kk) = 0 := by
  unfold k1_pay1
  simp only [shapeCast_self]
  exact Ideal.ofBits_zero_f32

/-- one step of the sum: the carried block plus the product of the adjacency block with the loaded
rows of the features -/
theorem step1_apply (x : FVec Ideal S2048x256 .bf16) (acc : FVec Ideal S2048x256 .f32) (a : FVec Ideal S2048x2048 .bf16)
    (r : Fin 2048) (kk : Fin 256) :
    k1_pay2 (F := Ideal) x acc a (ix2 r kk) = acc (ix2 r kk) + ∑ q : Fin 2048, a (ix2 r q) * x (ix2 q kk) := by
  unfold k1_pay2
  simp only [shapeCast_self]
  exact congrArg (acc (ix2 r kk) + ·)
    (matmul_rc_apply Gen.dot_S2048x2048_S2048x256_S2048x256_1_0_0_1_n_n_wf none a x r kk)

/-- before the activation: the finished rows times the layer's matrix, plus the bias row (a change of
float format is the identity on the extended reals) -/
theorem pre1_apply (s : FVec Ideal S2048x256 .f32) (w : FVec Ideal S256x256 .bf16) (b : FVec Ideal S1x256 .f32)
    (r : Fin 2048) (j : Fin 256) :
    FloatOps.matmul dot_S2048x256_S256x256_S2048x256_1_0_0_1_n_n none (truncf .bf16 s Gen.bitsLt_bf16_f32) w
          (constant (F := Ideal) S2048x256 .f32 0x00000000#32) (ix2 r j)
        + broadcastTo S2048x256 b Gen.broadcasts_S1x256_S2048x256 (ix2 r j)
      = (∑ k : Fin 256, s (ix2 r k) * w (ix2 k j)) + b (ix2 (0 : Fin 1) j) :=
  congrArg₂ (· + ·)
    (matmul_rc_apply Gen.dot_S2048x256_S256x256_S2048x256_1_0_0_1_n_n_wf none (truncf .bf16 s Gen.bitsLt_bf16_f32) w r j)
    (broadcastTo_1b_ab_apply b Gen.broadcasts_S1x256_S2048x256 r j)

section Epilogue1

/-- the layer's activation: the positive part -/
abbrev act1 (x : EReal) : EReal := max x 0

/-- what the epilogue stores: the activation of the finished rows times the layer's matrix plus the bias -/
theorem epi1_apply (s : FVec Ideal S2048x256 .f32) (w : FVec Ideal S256x256 .bf16) (b : FVec Ideal S1x256 .f32)
    (r : Fin 2048) (j : Fin 256) :
    k1_pay3 (F := Ideal) s w b (ix2 r j) = act1 ((∑ k : Fin 256, s (ix2 r k) * w (ix2 k j)) + b (ix2 (0 : Fin 1) j)) := by
  unfold k1_pay3
  simp only [shapeCast_self]
  exact congrArg₂ max (pre1_apply s w b r j) Ideal.ofBits_zero_f32

end Epilogue1

/-! ## The partial sum, closed -/

/-- the product of the blocks at point t = 4 i + k is the block product `Sn1 i k` -/
theorem blockterm1 (c : Dev nD) (t : Fin cfg1.N) (r : Fin 2048) (kk : Fin 256) :
    ∑ q : Fin 2048, ablk1 V c t (ix2 r q) * xsl1 V c t (ix2 q kk) = Sn1 V c (t.val / 4) (t.val % 4) r kk :=
  Finset.sum_congr rfl fun q _ => by rw [ablk1_apply, xsl1_apply]

/-- after the point n = 4 i + k the carried block holds the block products of row block i with the column
blocks 0, …, k: by induction along the points, the sum restarting at k = 0 -/
theorem acc1_closed (c : Dev nD) : ∀ (n : ℕ) (h : n < cfg1.N) (r : Fin 2048) (kk : Fin 256),
    acc1 V c n h (ix2 r kk) = ∑ k' ∈ Finset.range (n % 4 + 1), Sn1 V c (n / 4) k' r kk
  | 0, h, r, kk => by
    have e : acc1 V c 0 h = k1_pay2 (xsl1 V c ⟨0, h⟩) (k1_pay1 (F := Ideal)) (ablk1 V c ⟨0, h⟩) := rfl
    refine (congrFun e (ix2 r kk)).trans ?_
    refine (step1_apply (xsl1 V c ⟨0, h⟩) (k1_pay1 (F := Ideal)) (ablk1 V c ⟨0, h⟩) r kk).trans ?_
    rw [zero1_apply, zero_add, blockterm1 V c ⟨0, h⟩ r kk]
    exact (Finset.sum_range_one (fun k' => Sn1 V c (0 / 4) k' r kk)).symm
  | n + 1, h, r, kk => by
    by_cases hz : (n + 1) % 4 = 0
    · have e : acc1 V c (n + 1) h = k1_pay2 (xsl1 V c ⟨n + 1, h⟩) (k1_pay1 (F := Ideal)) (ablk1 V c ⟨n + 1, h⟩) := if_pos hz
      refine (congrFun e (ix2 r kk)).trans ?_
      refine (step1_apply (xsl1 V c ⟨n + 1, h⟩) (k1_pay1 (F := Ideal)) (ablk1 V c ⟨n + 1, h⟩) r kk).trans ?_
      rw [zero1_apply, zero_add, blockterm1 V c ⟨n + 1, h⟩ r kk]
      show Sn1 V c ((n + 1) / 4) ((n + 1) % 4) r kk = _
      rw [hz]
      exact (Finset.sum_range_one (fun k' => Sn1 V c ((n + 1) / 4) k' r kk)).symm
    · have e : acc1 V c (n + 1) h = k1_pay2 (xsl1 V c ⟨n + 1, h⟩) (acc1 V c n (Nat.lt_of_succ_lt h)) (ablk1 V c ⟨n + 1, h⟩) := if_neg hz
      refine (congrFun e (ix2 r kk)).trans ?_
      refine (step1_apply (xsl1 V c ⟨n + 1, h⟩) (acc1 V c n (Nat.lt_of_succ_lt h)) (ablk1 V c ⟨n + 1, h⟩) r kk).trans ?_
      rw [acc1_closed c n (Nat.lt_of_succ_lt h) r kk, blockterm1 V c ⟨n + 1, h⟩ r kk]
      have h4 : (n + 1) / 4 = n / 4 := by omega
      have hm : (n + 1) % 4 = n % 4 + 1 := by omega
      show _ + Sn1 V c ((n + 1) / 4) ((n + 1) % 4) r kk = _
      rw [h4, hm]
      exact (Finset.sum_range_succ (fun k' => Sn1 V c (n / 4) k' r kk) (n % 4 + 1)).symm

/-- at the last column block the carried block holds the rows of the whole product A · X -/
theorem acc1_last (c : Dev nD) (t : Fin cfg1.N) (h3 : t.val % 4 = 3) (r : Fin 2048) (kk : Fin 256)
    (v : Fin 8192) (hv : v.val = 2048 * (t.val / 4) + r.val) :
    acc1 V c t.val t.isLt (ix2 r kk) = ∑ u : Fin 8192, A1 V c v u * X1 V c u kk := by
  obtain ⟨v, hlt⟩ := v
  dsimp only at hv
  subst hv
  rw [acc1_closed V c t.val t.isLt r kk, h3]
  refine blocks_join (fun u => An1 V c (2048 * (t.val / 4) + r.val) u * Xn1 V c u kk)
    (fun u => A1 V c ⟨2048 * (t.val / 4) + r.val, hlt⟩ u * X1 V c u kk) (fun u => ?_)
  show An1 V c (2048 * (t.val / 4) + r.val) u.val * Xn1 V c u.val kk = _
  unfold An1 Xn1
  rw [dif_pos ⟨hlt, u.isLt⟩, dif_pos u.isLt]

/-! ## What the epilogue stores, and the result array -/

/-- the result, entry by entry: the activation of the layer in matrix form -/
abbrev G1 (c : Dev nD) : S8192x256.Idx → EReal := fun i =>
  act1 (Cert.LibGcn.layerK (A1 V c) (X1 V c) (W1 V c) (B1 V c) (i 0) (i 1))

/-- `G1` at an entry whose coordinates are known -/
theorem G1_at (c : Dev nD) (i : S8192x256.Idx) (v : Fin 8192) (j : Fin 256) (h0 : (i 0).val = v.val) (h1 : (i 1).val = j.val) :
    G1 V c i = act1 (Cert.LibGcn.layerK (A1 V c) (X1 V c) (W1 V c) (B1 V c) v j) := by
  obtain ⟨a, b, rfl⟩ : ∃ (a : Fin 8192) (b : Fin 256), i = ix2 a b := ⟨i 0, i 1, eq_ix2 i⟩
  obtain rfl : a = v := Fin.ext h0
  obtain rfl : b = j := Fin.ext h1
  rfl

/-- at the last column block of row block i the epilogue stores rows 2048 i, …, 2048 i + 2047 of the layer -/
theorem out1_apply (c : Dev nD) (t : Fin cfg1.N) (h3 : t.val % 4 = 3) (r : Fin 2048) (j : Fin 256)
    (v : Fin 8192) (hv : v.val = 2048 * (t.val / 4) + r.val) :
    out1 V c t (ix2 r j) = act1 (Cert.LibGcn.layerK (A1 V c) (X1 V c) (W1 V c) (B1 V c) v j) := by
  unfold out1
  refine (epi1_apply (acc1 V c t.val t.isLt) (wmat1 V c t) (bias1 V c t) r j).trans ?_
  unfold Cert.LibGcn.layerK
  refine congrArg act1 (congrArg₂ (· + ·) (Finset.sum_congr rfl fun k _ => ?_) (bias1_apply V c t j))
  rw [acc1_last V c t h3 r k v hv, wmat1_apply]

/-- what a flushing point writes back is its block of the result -/
theorem flushed1_eq (c : Dev nD) (t : Fin cfg1.N) (hf : (cfg1.win 4).flush t = true) :
    (dat1 V c).flushed 4 t = ((cfg1.win 4).blk t).view.read (Elt Ideal) (G1 V c) := by
  have h3 : t.val % 4 = 3 := (flush1_4 t).mp hf
  have ht := lt16_1 t
  obtain ⟨-, -, -, -, -, -, -, -, e8, e9, -⟩ := idx_facts1 t
  show (cfg1.win 4).cut (grid1.coords t) ((dat1 V c).after 4 t) = _
  rw [after1_4]
  refine funext fun (y : S2048x256.Idx) => ?_
  obtain ⟨r, j, rfl⟩ : ∃ (r : Fin 2048) (j : Fin 256), y = ix2 r j := ⟨y 0, y 1, eq_ix2 y⟩
  show out1 V c t (ix2 r j) = G1 V c (((cfg1.win 4).blk t).view.emb (ix2 r j))
  refine (out1_apply V c t h3 r j ⟨2048 * (t.val / 4) + r.val, by omega⟩ rfl).trans ?_
  refine (G1_at V c _ ⟨2048 * (t.val / 4) + r.val, by omega⟩ j ?_ ?_).symm
  · show win1_4.index t (0 : Fin 2) * 2048 + 1 * r.val = 2048 * (t.val / 4) + r.val
    rw [e8]; omega
  · show win1_4.index t (1 : Fin 2) * 256 + 1 * j.val = j.val
    rw [e9]; omega

/-- an entry of the result array is in point t's block iff each coordinate is in the block's range -/
theorem mem_blk1 (t : Fin cfg1.N) (i : S8192x256.Idx) :
    i ∈ ((cfg1.win 4).blk t).view.set ↔ ∀ a : Fin 2, win1_4.index t a * S2048x256.size a ≤ (i a).val
      ∧ (i a).val < win1_4.index t a * S2048x256.size a + S2048x256.size a := by
  show i ∈ ((View.whole main_v65).slice (win1_4.rect t)).set ↔ _
  rw [View.set_slice_whole, Rect.mem_set_unit]
  exact Iff.rfl

/-- every row r of the result lies in the block the point 4 (r / 2048) + 3 writes back -/
theorem cover1 (i : S8192x256.Idx) :
    ∃ t : Fin cfg1.N, (cfg1.win 4).flush t = true ∧ i ∈ ((cfg1.win 4).blk t).view.set := by
  have hi0 : (i 0).val < 8192 := (i 0).isLt
  have hi1 : (i 1).val < 256 := (i 1).isLt
  have hN : cfg1.N = 16 := N_1
  have hlt : 4 * ((i 0).val / 2048) + 3 < cfg1.N := by rw [hN]; omega
  obtain ⟨-, -, -, -, -, -, -, -, e8, e9, -⟩ := idx_facts1 ⟨4 * ((i 0).val / 2048) + 3, hlt⟩
  refine ⟨⟨4 * ((i 0).val / 2048) + 3, hlt⟩, (flush1_4 _).mpr (by show (4 * ((i 0).val / 2048) + 3) % 4 = 3; omega), ?_⟩
  rw [mem_blk1]
  intro a
  match a with
  | ⟨0, _⟩ =>
    show win1_4.index ⟨4 * ((i 0).val / 2048) + 3, hlt⟩ (0 : Fin 2) * 2048 ≤ (i 0).val
      ∧ (i 0).val < win1_4.index ⟨4 * ((i 0).val / 2048) + 3, hlt⟩ (0 : Fin 2) * 2048 + 2048
    rw [e8]
    show (4 * ((i 0).val / 2048) + 3) / 4 * 2048 ≤ (i 0).val ∧ (i 0).val < (4 * ((i 0).val / 2048) + 3) / 4 * 2048 + 2048
    omega
  | ⟨1, _⟩ =>
    show win1_4.index ⟨4 * ((i 0).val / 2048) + 3, hlt⟩ (1 : Fin 2) * 256 ≤ (i 1).val
      ∧ (i 1).val < win1_4.index ⟨4 * ((i 0).val / 2048) + 3, hlt⟩ (1 : Fin 2) * 256 + 256
    rw [e9]; omega

/-- the result array after the region, with the activation named -/
theorem arr1_act (c : Dev nD) : (dat1 V c).arrAt 4 cfg1.N = G1 V c :=
  (dat1 V c).arrAt_eq_of_cover 4 (G1 V c) (flushed1_eq V c) cover1

section Result1

/-- after region 1 its output array holds, at row r and column j, max (((A·X)·W)(r,j) + bias j) 0 -/
theorem arr1 (c : Dev nD) : ((dat1 V c).arrAt 4 cfg1.N : S8192x256.Idx → EReal) = fun i =>
    max (Cert.LibGcn.layerK (fun (v u : Fin 8192) => (V c main_v45 : S8192x8192.Idx → EReal) (ix2 v u))
      (fun (u : Fin 8192) (k : Fin 256) => (V c main_v62 : S8192x256.Idx → EReal) (ix2 u k))
      (fun (k : Fin 256) (j : Fin 256) => (V c main_v63 : S256x256.Idx → EReal) (ix2 k j))
      (fun (j : Fin 256) => (V c main_v64 : S1x256.Idx → EReal) (ix2 0 j)) (i 0) (i 1)) 0 :=
  arr1_act V c

end Result1

end Cert.KernelIdeal.Val

end
-- ==== Proof.LibScatter.lean ====
import Idealize.ShloMosaic.PureOps.Ideal
import Idealize.ShloMosaic.PureOps.Ideal.Laws
import Idealize.ShloMosaic.Lib.ValueIdx
import Idealize.ShloMosaic.Lib.StableHlo.Predicate

/-!
# Accumulating scatters and a row gather, read at an index

An accumulating scatter adds, to each element of its operand, the updates whose result index
is that element; an update whose result index leaves the operand is dropped.  The result index
of an update is, on every operand axis, the start read (signed, not clamped) off the index
table plus the update's window coordinate.  For the dimension numbers of three common
scatters — one index per update into a vector, a pair of indices per update into a matrix, and
whole rows into a matrix — the condition "the result index of update j is element i" is
rewritten as equations between the index words and the coordinates of i.  A row gather is read
likewise: result row p is the operand row named by the p-th start index, clamped into range.
-/

open scoped BigOperators

open Idealize.ShloMosaic Idealize.ShloMosaic.ValueIdx

namespace Cert.LibScatter

/-- The accumulating scatter over the extended reals, element by element: the operand's element
plus the sum of the updates whose result index is that element. -/
theorem scatterAdd_apply {s si u : Shape} {w : Nat} (d : ScatterDims s si u) (x : FVec Ideal s .f32)
    (idx : IVec si w) (upd : FVec Ideal u .f32) (i : s.Idx) :
    Host.scatterAdd (F := Ideal) d x idx upd i
      = x i + ∑ j ∈ Finset.univ.filter (fun j => d.resultIdx? j idx = some i), upd j := rfl

/-- The result index of update j exists and is i exactly when, on every operand axis, the
signed start plus the window coordinate is i's coordinate (which is then inside the operand). -/
theorem resultIdx?_eq_some_iff {s si u : Shape} {w : Nat} (d : ScatterDims s si u) (j : u.Idx)
    (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have := h a
      rw [← hi]
      show _ = (((d.start j idx a + (d.window j a : Int)).toNat : Nat) : Int)
      omega
    · intro hi
      funext a
      refine Fin.ext ?_
      have := hi a
      show (d.start j idx a + (d.window j a : Int)).toNat = (i a).val
      omega
  · rename_i h
    constructor
    · intro hi; exact absurd hi (by simp)
    · intro hi
      refine absurd (fun a => ?_) h
      have := hi a
      have := (i a).isLt
      constructor <;> omega

/-- A pair of indices per update into a matrix, element by element: the update at position j
lands on element (r, c) exactly when the two words of row j of the index table, read signed, are
r and c.  (Both operand axes are inserted, so the window coordinate is 0 on each; the start on
axis a is word a of the row.) -/
theorem scatter2_resultIdx {N M n w : Nat} (d : ScatterDims ⟨2, ![N, M]⟩ ⟨2, ![n, 2]⟩ ⟨1, ![n]⟩)
    (hu : d.updateWindowDims = []) (hi : d.insertedWindowDims = [0, 1])
    (hs : d.scatterDimsToOperandDims = [0, 1]) (hv : d.indexVectorDim = 1)
    (idx : IVec ⟨2, ![n, 2]⟩ w) (j : (⟨1, ![n]⟩ : Shape).Idx) (i : (⟨2, ![N, M]⟩ : Shape).Idx) :
    d.resultIdx? j idx = some i ↔
      (idx (ix2 (j 0) (0 : Fin 2))).toInt = ((i 0).val : Int)
        ∧ (idx (ix2 (j 0) (1 : Fin 2))).toInt = ((i 1).val : Int) := by
  obtain ⟨uw, iw, sd, iv, wf⟩ := d
  dsimp only at hu hi hs hv
  subst hu hi hs hv
  rw [resultIdx?_eq_some_iff, Fin.forall_fin_two]
  have hw : ∀ a, ScatterDims.window (s := ⟨2, ![N, M]⟩) (si := ⟨2, ![n, 2]⟩) (u := ⟨1, ![n]⟩)
      ⟨[], [0, 1], [0, 1], 1, wf⟩ j a = 0 := by
    rw [Fin.forall_fin_two]
    constructor <;> (unfold ScatterDims.window; rw [dif_neg]; simp [Shape.kept])
  have hs0 : ScatterDims.start (s := ⟨2, ![N, M]⟩) (si := ⟨2, ![n, 2]⟩) (u := ⟨1, ![n]⟩)
      ⟨[], [0, 1], [0, 1], 1, wf⟩ j idx 0 = (idx (ix2 (j 0) (0 : Fin 2))).toInt := by
    unfold ScatterDims.start
    rw [dif_pos (by simp)]
    congr 2
    funext b
    match b with
    | ⟨0, _⟩ => rfl
    | ⟨1, _⟩ => rfl
  have hs1 : ScatterDims.start (s := ⟨2, ![N, M]⟩) (si := ⟨2, ![n, 2]⟩) (u := ⟨1, ![n]⟩)
      ⟨[], [0, 1], [0, 1], 1, wf⟩ j idx 1 = (idx (ix2 (j 0) (1 : Fin 2))).toInt := by
    unfold ScatterDims.start
    rw [dif_pos (by simp)]
    congr 2
    funext b
    match b with
    | ⟨0, _⟩ => rfl
    | ⟨1, _⟩ => rfl
  rw [hw 0, hw 1, hs0, hs1]
  simp

/-- Whole rows scattered into a matrix: the element (p, c) of the updates lands on element
(r, c') exactly when the word of row p of the index column, read signed, is r, and c = c'.
(Axis 0 is inserted: start = the word, window coordinate 0.  Axis 1 is the window axis:
start 0, window coordinate the update's column.) -/
theorem scatterRows_resultIdx {N C n w : Nat} (d : ScatterDims ⟨2, ![N, C]⟩ ⟨2, ![n, 1]⟩ ⟨2, ![n, C]⟩)
    (hu : d.updateWindowDims = [1]) (hi : d.insertedWindowDims = [0])
    (hs : d.scatterDimsToOperandDims = [0]) (hv : d.indexVectorDim = 1)
    (idx : IVec ⟨2, ![n, 1]⟩ w) (j : (⟨2, ![n, C]⟩ : Shape).Idx) (i : (⟨2, ![N, C]⟩ : Shape).Idx) :
    d.resultIdx? j idx = some i ↔
      (idx (StableHlo.Predicate.ixP (j 0))).toInt = ((i 0).val : Int) ∧ (j 1).val = (i 1).val := by
  obtain ⟨uw, iw, sd, iv, wf⟩ := d
  dsimp only at hu hi hs hv
  subst hu hi hs hv
  rw [resultIdx?_eq_some_iff, Fin.forall_fin_two]
  have hw0 : ScatterDims.window (s := ⟨2, ![N, C]⟩) (si := ⟨2, ![n, 1]⟩) (u := ⟨2, ![n, C]⟩)
      ⟨[1], [0], [0], 1, wf⟩ j 0 = 0 := by
    unfold ScatterDims.window; rw [dif_neg]; simp [Shape.kept]
  have hw1 : ScatterDims.window (s := ⟨2, ![N, C]⟩) (si := ⟨2, ![n, 1]⟩) (u := ⟨2, ![n, C]⟩)
      ⟨[1], [0], [0], 1, wf⟩ j 1 = (j 1).val := by
    unfold ScatterDims.window
    rw [dif_pos (by simp [Shape.kept])]
    rfl
  have hs0 : ScatterDims.start (s := ⟨2, ![N, C]⟩) (si := ⟨2, ![n, 1]⟩) (u := ⟨2, ![n, C]⟩)
      ⟨[1], [0], [0], 1, wf⟩ j idx 0 = (idx (StableHlo.Predicate.ixP (j 0))).toInt := by
    unfold ScatterDims.start
    rw [dif_pos (by simp)]
    congr 2
    funext b
    match b with
    | ⟨0, _⟩ => rfl
    | ⟨1, _⟩ => rfl
  have hs1 : ScatterDims.start (s := ⟨2, ![N, C]⟩) (si := ⟨2, ![n, 1]⟩) (u := ⟨2, ![n, C]⟩)
      ⟨[1], [0], [0], 1, wf⟩ j idx 1 = 0 := by
    unfold ScatterDims.start
    rw [dif_neg (by simp)]
  rw [hw0, hw1, hs0, hs1]
  simp

/-- One index per update into a vector: the update at position j lands on element r exactly
when the word of row j of the index column, read signed, is r.  (The one operand axis is
inserted: start = the word, window coordinate 0.) -/
theorem scatter1_resultIdx {N n w : Nat} (d : ScatterDims ⟨1, ![N]⟩ ⟨2, ![n, 1]⟩ ⟨1, ![n]⟩)
    (hu : d.updateWindowDims = []) (hi : d.insertedWindowDims = [0])
    (hs : d.scatterDimsToOperandDims = [0]) (hv : d.indexVectorDim = 1)
    (idx : IVec ⟨2, ![n, 1]⟩ w) (j : (⟨1, ![n]⟩ : Shape).Idx) (i : (⟨1, ![N]⟩ : Shape).Idx) :
    d.resultIdx? j idx = some i ↔ (idx (StableHlo.Predicate.ixP (j 0))).toInt = ((i 0).val : Int) := by
  obtain ⟨uw, iw, sd, iv, wf⟩ := d
  dsimp only at hu hi hs hv
  subst hu hi hs hv
  rw [resultIdx?_eq_some_iff, Fin.forall_fin_one]
  have hw0 : ScatterDims.window (s := ⟨1, ![N]⟩) (si := ⟨2, ![n, 1]⟩) (u := ⟨1, ![n]⟩)
      ⟨[], [0], [0], 1, wf⟩ j 0 = 0 := by
    unfold ScatterDims.window; rw [dif_neg]; simp [Shape.kept]
  have hs0 : ScatterDims.start (s := ⟨1, ![N]⟩) (si := ⟨2, ![n, 1]⟩) (u := ⟨1, ![n]⟩)
      ⟨[], [0], [0], 1, wf⟩ j idx 0 = (idx (StableHlo.Predicate.ixP (j 0))).toInt := by
    unfold ScatterDims.start
    rw [dif_pos (by simp)]
    congr 2
    funext b
    match b with
    | ⟨0, _⟩ => rfl
    | ⟨1, _⟩ => rfl
  rw [hw0, hs0]
  simp

/-- A row gather from a matrix: result row p is the operand row named by the word of row p of
the start-index column, read signed and clamped into [0, N − 1]; the column is kept.
(Axis 0 is collapsed and start-indexed with slice size 1: clamped start, no offset.  Axis 1 is
the offset axis with the full slice: start 0, offset the result's column.) -/
theorem gatherRows_apply {α : Type} {N C n w : Nat} (hN : 0 < N)
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1) (hsl : d.sliceSizes = ![1, C])
    (x : (⟨2, ![N, C]⟩ : Shape).Idx → α) (idx : IVec ⟨2, ![n, 1]⟩ w) (j : (⟨2, ![n, C]⟩ : Shape).Idx) :
    Host.gather d x idx j
      = x (ix2 (n0 := N) (n1 := C)
          ⟨min (idx (StableHlo.Predicate.ixP (j 0))).toInt.toNat (N - 1), by omega⟩ (j 1)) := by
  obtain ⟨od, cd, ob, sib, sm, iv, ss, wf⟩ := d
  dsimp only at hoff hcoll hob hsim hivd hsl
  subst hoff hcoll hob hsim hivd hsl
  unfold Host.gather
  congr 1
  funext a
  refine Fin.ext ?_
  match a with
  | ⟨0, _⟩ =>
    show GatherDims.start _ j idx 0 + GatherDims.batchCoord _ j 0 + GatherDims.offCoord _ j 0 = _
    rw [GatherDims.batchCoord_eq_zero _ _ _ List.not_mem_nil,
      GatherDims.offCoord_eq_zero _ _ _ (by simp [Shape.kept])]
    simp only [Nat.add_zero]
    unfold GatherDims.start
    rw [dif_pos (by simp)]
    show min (idx _).toInt.toNat (N - 1) = min (idx (StableHlo.Predicate.ixP (j 0))).toInt.toNat (N - 1)
    congr 3
    congr 1
    funext b
    match b with
    | ⟨0, _⟩ => rfl
    | ⟨1, _⟩ => rfl
  | ⟨1, _⟩ =>
    show GatherDims.start _ j idx 1 + GatherDims.batchCoord _ j 1 + GatherDims.offCoord _ j 1 = (j 1).val
    rw [GatherDims.batchCoord_eq_zero _ _ _ List.not_mem_nil]
    unfold GatherDims.start GatherDims.offCoord
    rw [dif_neg (by simp), dif_pos (by simp [Shape.kept])]
    simp only [Nat.add_zero, Nat.zero_add]
    rfl

end Cert.LibScatter
-- ==== Proof.Spec.lean ====
/-
  The edge lists of the graph as both programs read them. An edge's endpoints arrive as 32-bit words. Both programs
  first wrap a negative word by the node count (an index -k names node 8192 - k), then a GATHER reads its start index
  signed and clamps it into [0, 8191], while a SCATTER reads it signed and drops the update when it falls outside.
  So an edge has a clamped source node (what a gather of a row by the source reads), a clamped destination node, and a
  destination node that exists only when the wrapped word is in range (where a scatter by the destination lands).
  The graph has 8192 nodes and 262144 edges.
-/
import Mathlib.Data.Fin.Basic
import Mathlib.Data.Int.Basic
import Mathlib.Tactic

namespace Cert.Spec

/-- the wrap of a negative index word by the node count, as a signed integer: `i < 0 ? i + 8192 : i` -/
def wrapI (i : BitVec 32) : Int := if i.toInt < 0 then i.toInt + 8192 else i.toInt

/-- a signed start index clamped into the node range (negative reads node 0, too large reads the last node) -/
def clampN (z : Int) : Fin 8192 := ⟨min z.toNat 8191, by omega⟩

/-- the node a signed index names when it is in range; nothing otherwise -/
def nodeO (z : Int) : Option (Fin 8192) := if h : 0 ≤ z ∧ z < 8192 then some ⟨z.toNat, by omega⟩ else none

/-- an edge's source node, as a gather by the source reads it -/
def srcN (src : Fin 262144 → BitVec 32) (e : Fin 262144) : Fin 8192 := clampN (wrapI (src e))
/-- an edge's destination node, as a gather by the destination reads it -/
def dstC (dst : Fin 262144 → BitVec 32) (e : Fin 262144) : Fin 8192 := clampN (wrapI (dst e))
/-- an edge's destination node, as a scatter by the destination lands: none when the edge is dropped -/
def dstO (dst : Fin 262144 → BitVec 32) (e : Fin 262144) : Option (Fin 8192) := nodeO (wrapI (dst e))

/-- a signed index names node v exactly when it is v's number -/
theorem nodeO_eq_some {z : Int} {v : Fin 8192} : nodeO z = some v ↔ z = (v.val : Int) := by
  have hv := v.isLt
  unfold nodeO
  constructor
  · intro h
    by_cases hz : 0 ≤ z ∧ z < 8192
    · rw [dif_pos hz] at h
      have h2 : z.toNat = v.val := congrArg Fin.val (Option.some.inj h)
      omega
    · rw [dif_neg hz] at h
      exact absurd h (by simp)
  · intro h
    have hz : 0 ≤ z ∧ z < 8192 := ⟨by omega, by omega⟩
    rw [dif_pos hz]
    exact congrArg some (Fin.ext (by show z.toNat = v.val; omega))

/-- a source word already in range is its own node: no wrap, no clamp -/
theorem srcN_of_range (src : Fin 262144 → BitVec 32) (e : Fin 262144) (h : 0 ≤ (src e).toInt ∧ (src e).toInt < 8192) :
    ((srcN src e).val : Int) = (src e).toInt ∧ wrapI (src e) = (src e).toInt := by
  have hw : wrapI (src e) = (src e).toInt := by unfold wrapI; rw [if_neg (by omega)]
  refine ⟨?_, hw⟩
  show ((min (wrapI (src e)).toNat 8191 : Nat) : Int) = (src e).toInt
  rw [hw]
  omega

end Cert.Spec
-- ==== Proof.KIHost0.lean ====
/-
  What region 0 is entered with. The host operations before it build, from the graph's edge lists, the dense
  normalised adjacency matrix: every node's degree is one plus the number of edges arriving at it, its weight the
  reciprocal square root of the degree; an edge weighs the product of its two endpoints' weights, a self-loop the
  square of its node's; the matrix accumulates, at (destination, source), the weights of the edges and of the
  self-loops. Beside it the features pass unchanged, the three first-layer weight matrices are laid side by side and
  padded with zero columns, and the three biases likewise. Rounding to a narrower float format is the identity over
  the extended reals.
-/
import proofs.«414230_j6141803233547_3_alg».proof.Proof.Gen.KernelIdeal.Regions
import proofs.«414230_j6141803233547_3_alg».proof.Proof.LibNary3
import proofs.«414230_j6141803233547_3_alg».proof.Proof.LibScatter
import proofs.«414230_j6141803233547_3_alg».proof.Proof.LibGcn
import proofs.«414230_j6141803233547_3_alg».proof.Proof.Spec
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Idealize.ShloMosaic.Lib.WordArith
import Idealize.ShloMosaic.Lib.Affine
import Mathlib.Algebra.BigOperators.Fin

set_option maxRecDepth 16384

noncomputable section

namespace Cert.KernelIdeal.Val

open Cert.KernelIdeal Cert.KernelIdeal.Gen
open Idealize.ShloMosaic Idealize.ShloMosaic.TcCoe Idealize.ShloMosaic.ValueIdx
open scoped BigOperators

/-! ## Reading the layout operations at an index, and two sums -/

namespace Host0

/-- the wrap of a word, read signed -/
theorem toInt_wrap (x : BitVec 32) :
    (Scalar.select (IntOp.cmpi .slt x 0#32) (IntOp.addi x 8192#32) x).toInt
      = if x.toInt < 0 then x.toInt + 8192 else x.toInt := by
  have hx1 := BitVec.toInt_lt (x := x)
  have hx2 := BitVec.le_toInt (x := x)
  by_cases h : x.toInt < 0
  · have hc : IntOp.cmpi .slt x 0#32 = 1#1 := IntOp.cmpi_slt.2 (by simpa using h)
    rw [hc, select_one, if_pos h]
    show (x + 8192#32).toInt = _
    have e : (8192#32 : BitVec 32).toInt = 8192 := by decide
    rw [WordArith.toInt_add_of_bounds x 8192#32 (by rw [e]; omega) (by rw [e]; omega), e]
  · have hc : ¬ IntOp.cmpi .slt x 0#32 = 1#1 := fun hh => h (by simpa using IntOp.cmpi_slt.1 hh)
    rw [eq_zero_of_ne_one hc, select_zero, if_neg h]

/-- a node number as a word is its own wrap -/
theorem toInt_wrap_ofNat (n : Nat) (hn : n < 8192) :
    (Scalar.select (IntOp.cmpi .slt (BitVec.ofNat 32 n) 0#32) (IntOp.addi (BitVec.ofNat 32 n) 8192#32) (BitVec.ofNat 32 n)).toInt = n := by
  rw [toInt_wrap, WordArith.toInt_ofNat_small n (by omega), if_neg (by omega)]

/-- a sum over the indices of a vector is the sum over its positions -/
theorem sum_idx1 {M : Type*} [AddCommMonoid M] {n : Nat} (f : (⟨1, ![n]⟩ : Shape).Idx → M) :
    ∑ j, f j = ∑ k : Fin n, f (ix1 k) := by
  refine Fintype.sum_equiv ⟨fun j => j 0, fun k => ix1 k, fun j => (eq_ix1 j).symm, fun k => rfl⟩ _ _ (fun j => ?_)
  exact congrArg f (eq_ix1 j)

/-- only the term at v survives when both coordinates must be v's -/
theorem sum_diag {n : Nat} (f : Fin n → EReal) (v u : Fin n) :
    (∑ k : Fin n, if ((k.val : Int) = (v.val : Int) ∧ (k.val : Int) = (u.val : Int)) then f k else 0)
      = if u = v then f v else 0 := by
  by_cases huv : u = v
  · subst huv
    rw [if_pos rfl]
    rw [Finset.sum_eq_single u]
    · rw [if_pos ⟨rfl, rfl⟩]
    · intro k _ hk
      rw [if_neg]
      rintro ⟨h1, _⟩
      exact hk (Fin.ext (by omega))
    · intro h; exact absurd (Finset.mem_univ u) h
  · rw [if_neg huv]
    refine Finset.sum_eq_zero (fun k _ => ?_)
    rw [if_neg]
    rintro ⟨h1, h2⟩
    exact huv (Fin.ext (by omega))

/-- a vector as a one-column table reads, at (p, 0), the vector at p -/
theorem col_apply {α : Type} {n : Nat} (h : (⟨1, ![n]⟩ : Shape).BroadcastsInDim ⟨2, ![n, 1]⟩ ![0])
    (x : (⟨1, ![n]⟩ : Shape).Idx → α) (p : Fin n) (q : Fin 1) :
    broadcastInDim ⟨2, ![n, 1]⟩ ![0] h x (ix2 p q) = x (ix1 p) := by
  simp only [broadcastInDim]
  congr 1
  funext a
  match a with
  | ⟨0, _⟩ =>
    apply Fin.ext
    have hp := p.isLt
    split
    · next h1 => change n = 1 at h1; show (0 : Nat) = p.val; omega
    · rfl

/-- two vectors end to end: a position in the first -/
theorem cat0_left {α : Type} {n₁ n₂ N : Nat} (h : Shape.Concatenates [⟨1, ![n₁]⟩, ⟨1, ![n₂]⟩] ⟨1, ![N]⟩ 0)
    (x₁ : (⟨1, ![n₁]⟩ : Shape).Idx → α) (x₂ : (⟨1, ![n₂]⟩ : Shape).Idx → α) (j : Fin N) (hj : j.val < n₁) :
    concatenate ⟨1, ![N]⟩ 0 [⟨⟨1, ![n₁]⟩, x₁⟩, ⟨⟨1, ![n₂]⟩, x₂⟩] h (ix1 j) = x₁ (ix1 ⟨j.val, hj⟩) := by
  refine concatenate_pair_apply_left 0 x₁ x₂ h (ix1 j) rfl (ix1 ⟨j.val, hj⟩) (fun b => ?_)
  match b with
  | ⟨0, _⟩ => rfl

/-- two vectors end to end: a position in the second -/
theorem cat0_right {α : Type} {n₁ n₂ N : Nat} (h : Shape.Concatenates [⟨1, ![n₁]⟩, ⟨1, ![n₂]⟩] ⟨1, ![N]⟩ 0)
    (x₁ : (⟨1, ![n₁]⟩ : Shape).Idx → α) (x₂ : (⟨1, ![n₂]⟩ : Shape).Idx → α) (j : Fin N) (k : Fin n₂) (hj : k.val + n₁ = j.val) :
    concatenate ⟨1, ![N]⟩ 0 [⟨⟨1, ![n₁]⟩, x₁⟩, ⟨⟨1, ![n₂]⟩, x₂⟩] h (ix1 j) = x₂ (ix1 k) := by
  refine concatenate_pair_apply_right 0 x₁ x₂ h (ix1 j) rfl rfl (ix1 k) (fun b hb => ?_) hj
  match b with
  | ⟨0, _⟩ => exact absurd rfl hb

/-- two one-column tables side by side: column 0 is the first, column 1 the second -/
theorem cat1_col0 {α : Type} {n : Nat} (h : Shape.Concatenates [⟨2, ![n, 1]⟩, ⟨2, ![n, 1]⟩] ⟨2, ![n, 2]⟩ 1)
    (x₁ x₂ : (⟨2, ![n, 1]⟩ : Shape).Idx → α) (p : Fin n) :
    concatenate ⟨2, ![n, 2]⟩ 1 [⟨⟨2, ![n, 1]⟩, x₁⟩, ⟨⟨2, ![n, 1]⟩, x₂⟩] h (ix2 p (0 : Fin 2)) = x₁ (ix2 p (0 : Fin 1)) := by
  refine concatenate_pair_apply_left 1 x₁ x₂ h (ix2 p 0) rfl (ix2 p 0) (fun b => ?_)
  match b with
  | ⟨0, _⟩ => rfl
  | ⟨1, _⟩ => rfl

theorem cat1_col1 {α : Type} {n : Nat} (h : Shape.Concatenates [⟨2, ![n, 1]⟩, ⟨2, ![n, 1]⟩] ⟨2, ![n, 2]⟩ 1)
    (x₁ x₂ : (⟨2, ![n, 1]⟩ : Shape).Idx → α) (p : Fin n) :
    concatenate ⟨2, ![n, 2]⟩ 1 [⟨⟨2, ![n, 1]⟩, x₁⟩, ⟨⟨2, ![n, 1]⟩, x₂⟩] h (ix2 p (1 : Fin 2)) = x₂ (ix2 p (0 : Fin 1)) := by
  refine concatenate_pair_apply_right 1 x₁ x₂ h (ix2 p 1) rfl rfl (ix2 p 0) (fun b hb => ?_) rfl
  match b with
  | ⟨0, _⟩ => rfl
  | ⟨1, _⟩ => exact absurd rfl hb

/-- an accumulating scatter of one update per pair of indices, read at an element: the operand's element plus the
    updates whose pair of words, read signed, are the element's coordinates -/
theorem scatter2_sum {N M n : Nat} (d : ScatterDims ⟨2, ![N, M]⟩ ⟨2, ![n, 2]⟩ ⟨1, ![n]⟩)
    (hu : d.updateWindowDims = []) (hi : d.insertedWindowDims = [0, 1])
    (hs : d.scatterDimsToOperandDims = [0, 1]) (hv : d.indexVectorDim = 1)
    (x : FVec Ideal ⟨2, ![N, M]⟩ .f32) (idx : IVec ⟨2, ![n, 2]⟩ 32) (upd : FVec Ideal ⟨1, ![n]⟩ .f32) (r : Fin N) (c : Fin M) :
    Host.scatterAdd (F := Ideal) d x idx upd (ix2 r c)
      = x (ix2 r c) + ∑ k : Fin n, if (idx (ix2 k (0 : Fin 2))).toInt = (r.val : Int) ∧ (idx (ix2 k (1 : Fin 2))).toInt = (c.val : Int)
          then upd (ix1 k) else 0 := by
  rw [Cert.LibScatter.scatterAdd_apply, Finset.sum_filter, sum_idx1]
  congr 1
  refine Finset.sum_congr rfl (fun k _ => ?_)
  exact if_congr (Cert.LibScatter.scatter2_resultIdx d hu hi hs hv idx (ix1 k) (ix2 r c)) rfl rfl

/-- a sum over n₁ + n₂ positions, the first n₁ and the last n₂ apart -/
theorem sum_split {M : Type*} [AddCommMonoid M] (n₁ n₂ : Nat) (f : Fin (n₁ + n₂) → M) :
    ∑ k, f k = (∑ e : Fin n₁, f ⟨e.val, by omega⟩) + ∑ l : Fin n₂, f ⟨n₁ + l.val, by omega⟩ := by
  rw [Fin.sum_univ_add]
  rfl

/-- three 64-column matrices side by side, read at a column -/
theorem cat3_cols {α : Type} (h : Shape.Concatenates [⟨2, ![64, 64]⟩, ⟨2, ![64, 64]⟩, ⟨2, ![64, 64]⟩] ⟨2, ![64, 192]⟩ 1)
    (a b c : (⟨2, ![64, 64]⟩ : Shape).Idx → α) (k : Fin 64) (j : Fin 192) :
    concatenate ⟨2, ![64, 192]⟩ 1 [⟨⟨2, ![64, 64]⟩, a⟩, ⟨⟨2, ![64, 64]⟩, b⟩, ⟨⟨2, ![64, 64]⟩, c⟩] h (ix2 k j)
      = if h0 : j.val < 64 then a (ix2 k ⟨j.val, h0⟩)
        else if h1 : j.val < 128 then b (ix2 k ⟨j.val - 64, by omega⟩)
        else c (ix2 k ⟨j.val - 128, by omega⟩) := by
  have hj := j.isLt
  by_cases h0 : j.val < 64
  · rw [dif_pos h0]
    refine concatenate_apply_piece 1 [⟨⟨2, ![64, 64]⟩, a⟩, ⟨⟨2, ![64, 64]⟩, b⟩, ⟨⟨2, ![64, 64]⟩, c⟩] h (ix2 k j) 0 (by show 0 < 3; omega) _ a rfl rfl 0 rfl (ix2 k ⟨j.val, h0⟩) (fun b hb => ?_) ?_
    · match b with
      | ⟨0, _⟩ => rfl
      | ⟨1, _⟩ => exact absurd rfl hb
    · show 0 + j.val = j.val; omega
  · rw [dif_neg h0]
    by_cases h1 : j.val < 128
    · rw [dif_pos h1]
      refine concatenate_apply_piece 1 [⟨⟨2, ![64, 64]⟩, a⟩, ⟨⟨2, ![64, 64]⟩, b⟩, ⟨⟨2, ![64, 64]⟩, c⟩] h (ix2 k j) 1 (by show 1 < 3; omega) _ b rfl rfl 64 rfl (ix2 k ⟨j.val - 64, by omega⟩) (fun b hb => ?_) ?_
      · match b with
        | ⟨0, _⟩ => rfl
        | ⟨1, _⟩ => exact absurd rfl hb
      · show 64 + (j.val - 64) = j.val; omega
    · rw [dif_neg h1]
      refine concatenate_apply_piece 1 [⟨⟨2, ![64, 64]⟩, a⟩, ⟨⟨2, ![64, 64]⟩, b⟩, ⟨⟨2, ![64, 64]⟩, c⟩] h (ix2 k j) 2 (by show 2 < 3; omega) _ c rfl rfl 128 rfl (ix2 k ⟨j.val - 128, by omega⟩) (fun b hb => ?_) ?_
      · match b with
        | ⟨0, _⟩ => rfl
        | ⟨1, _⟩ => exact absurd rfl hb
      · show 128 + (j.val - 128) = j.val; omega

/-- three 64-entry vectors end to end, read at a position -/
theorem cat3_vec {α : Type} (h : Shape.Concatenates [⟨1, ![64]⟩, ⟨1, ![64]⟩, ⟨1, ![64]⟩] ⟨1, ![192]⟩ 0)
    (a b c : (⟨1, ![64]⟩ : Shape).Idx → α) (j : Fin 192) :
    concatenate ⟨1, ![192]⟩ 0 [⟨⟨1, ![64]⟩, a⟩, ⟨⟨1, ![64]⟩, b⟩, ⟨⟨1, ![64]⟩, c⟩] h (ix1 j)
      = if h0 : j.val < 64 then a (ix1 ⟨j.val, h0⟩)
        else if h1 : j.val < 128 then b (ix1 ⟨j.val - 64, by omega⟩)
        else c (ix1 ⟨j.val - 128, by omega⟩) := by
  have hj := j.isLt
  by_cases h0 : j.val < 64
  · rw [dif_pos h0]
    refine concatenate_apply_piece 0 [⟨⟨1, ![64]⟩, a⟩, ⟨⟨1, ![64]⟩, b⟩, ⟨⟨1, ![64]⟩, c⟩] h (ix1 j) 0 (by show 0 < 3; omega) _ a rfl rfl 0 rfl (ix1 ⟨j.val, h0⟩) (fun b hb => ?_) ?_
    · match b with
      | ⟨0, _⟩ => exact absurd rfl hb
    · show 0 + j.val = j.val; omega
  · rw [dif_neg h0]
    by_cases h1 : j.val < 128
    · rw [dif_pos h1]
      refine concatenate_apply_piece 0 [⟨⟨1, ![64]⟩, a⟩, ⟨⟨1, ![64]⟩, b⟩, ⟨⟨1, ![64]⟩, c⟩] h (ix1 j) 1 (by show 1 < 3; omega) _ b rfl rfl 64 rfl (ix1 ⟨j.val - 64, by omega⟩) (fun b hb => ?_) ?_
      · match b with
        | ⟨0, _⟩ => exact absurd rfl hb
      · show 64 + (j.val - 64) = j.val; omega
    · rw [dif_neg h1]
      refine concatenate_apply_piece 0 [⟨⟨1, ![64]⟩, a⟩, ⟨⟨1, ![64]⟩, b⟩, ⟨⟨1, ![64]⟩, c⟩] h (ix1 j) 2 (by show 2 < 3; omega) _ c rfl rfl 128 rfl (ix1 ⟨j.val - 128, by omega⟩) (fun b hb => ?_) ?_
      · match b with
        | ⟨0, _⟩ => exact absurd rfl hb
      · show 128 + (j.val - 128) = j.val; omega

/-- a 192-column matrix padded on the right to 256 columns, read at a column -/
theorem pad_cols {α : Type} (hp : (⟨2, ![64, 192]⟩ : Shape).Pads (![0, 0] : Fin 2 → Nat) ![0, 64] ![0, 0] ⟨2, ![64, 256]⟩)
    {u : Shape} (hu : 0 < u.numel) (x : (⟨2, ![64, 192]⟩ : Shape).Idx → α) (z : u.Idx → α) (k : Fin 64) (j : Fin 256) :
    pad ⟨2, ![64, 256]⟩ ![0, 0] ![0, 64] ![0, 0] x z hp hu (ix2 k j)
      = if h : j.val < 192 then x (ix2 k ⟨j.val, h⟩) else z (Shape.Idx.first hu) := by
  by_cases h : j.val < 192
  · rw [dif_pos h]
    refine pad_apply_of_inside _ _ _ x z hp hu (ix2 k j) (ix2 k ⟨j.val, h⟩) (fun a => ?_)
    match a with
    | ⟨0, _⟩ => show k.val = 0 + k.val * (0 + 1); omega
    | ⟨1, _⟩ => show j.val = 0 + j.val * (0 + 1); omega
  · rw [dif_neg h]
    refine pad_apply_of_not_inside _ _ _ x z hp hu (ix2 k j) 1 ?_
    show ¬(0 ≤ j.val ∧ (j.val - 0) % (0 + 1) = 0 ∧ (j.val - 0) / (0 + 1) < 192)
    omega

/-- a 192-entry vector padded at the end to 256 entries, read at a position -/
theorem pad_vec {α : Type} (hp : (⟨1, ![192]⟩ : Shape).Pads (![0] : Fin 1 → Nat) ![64] ![0] ⟨1, ![256]⟩)
    {u : Shape} (hu : 0 < u.numel) (x : (⟨1, ![192]⟩ : Shape).Idx → α) (z : u.Idx → α) (j : Fin 256) :
    pad ⟨1, ![256]⟩ ![0] ![64] ![0] x z hp hu (ix1 j)
      = if h : j.val < 192 then x (ix1 ⟨j.val, h⟩) else z (Shape.Idx.first hu) := by
  by_cases h : j.val < 192
  · rw [dif_pos h]
    refine pad_apply_of_inside _ _ _ x z hp hu (ix1 j) (ix1 ⟨j.val, h⟩) (fun a => ?_)
    match a with
    | ⟨0, _⟩ => show j.val = 0 + j.val * (0 + 1); omega
  · rw [dif_neg h]
    refine pad_apply_of_not_inside _ _ _ x z hp hu (ix1 j) 0 ?_
    show ¬(0 ≤ j.val ∧ (j.val - 0) % (0 + 1) = 0 ∧ (j.val - 0) / (0 + 1) < 192)
    omega

/-- a 256-entry vector as one row, read at a column -/
theorem row_apply {α : Type} (hc : (⟨1, ![256]⟩ : Shape).ShapeCasts ⟨2, ![1, 256]⟩) (x : (⟨1, ![256]⟩ : Shape).Idx → α) (j : Fin 256) :
    shapeCast ⟨2, ![1, 256]⟩ x hc (ix2 (0 : Fin 1) j) = x (ix1 j) := by
  refine shapeCast_apply x hc _ _ ?_
  rw [Shape.rowMajor_val_one, Shape.rowMajor_val_two]
  show j.val = 0 * 256 + j.val
  omega

/-- the f32 pattern of zero is zero -/
theorem ofBits_zero_f32 : Ideal.ofBits .f32 0x00000000#32 = 0 := by simp [Ideal.ofBits, Ideal.ieee]

/-- the integer zero as a float is zero -/
theorem sitofpI_zero : (FloatOps.sitofp (F := Ideal) .f32 (0#32 : BitVec 32) : EReal) = 0 := by
  show (((0#32 : BitVec 32).toInt : ℝ) : EReal) = 0
  simp

/-- three 64-column matrices side by side, padded on the right to 256 columns, read at a column -/
theorem padcat_cols {α : Type} (h3 : Shape.Concatenates [⟨2, ![64, 64]⟩, ⟨2, ![64, 64]⟩, ⟨2, ![64, 64]⟩] ⟨2, ![64, 192]⟩ 1)
    (hp : (⟨2, ![64, 192]⟩ : Shape).Pads (![0, 0] : Fin 2 → Nat) ![0, 64] ![0, 0] ⟨2, ![64, 256]⟩)
    {u : Shape} (hu : 0 < u.numel) (a b c : (⟨2, ![64, 64]⟩ : Shape).Idx → α) (z : u.Idx → α) (k : Fin 64) (j : Fin 256) :
    pad ⟨2, ![64, 256]⟩ ![0, 0] ![0, 64] ![0, 0]
        (concatenate ⟨2, ![64, 192]⟩ 1 [⟨⟨2, ![64, 64]⟩, a⟩, ⟨⟨2, ![64, 64]⟩, b⟩, ⟨⟨2, ![64, 64]⟩, c⟩] h3) z hp hu (ix2 k j)
      = if h : j.val < 64 then a (ix2 k ⟨j.val, h⟩)
        else if h : j.val < 128 then b (ix2 k ⟨j.val - 64, by omega⟩)
        else if h : j.val < 192 then c (ix2 k ⟨j.val - 128, by omega⟩)
        else z (Shape.Idx.first hu) := by
  rw [pad_cols]
  by_cases h192 : j.val < 192
  · rw [dif_pos h192, cat3_cols]
    by_cases h0 : j.val < 64
    · rw [dif_pos h0, dif_pos (show (⟨j.val, h192⟩ : Fin 192).val < 64 from h0)]
    · rw [dif_neg h0, dif_neg (show ¬ (⟨j.val, h192⟩ : Fin 192).val < 64 from h0)]
      by_cases h1 : j.val < 128
      · rw [dif_pos h1, dif_pos (show (⟨j.val, h192⟩ : Fin 192).val < 128 from h1)]
      · rw [dif_neg h1, dif_neg (show ¬ (⟨j.val, h192⟩ : Fin 192).val < 128 from h1), dif_pos h192]
  · rw [dif_neg h192, dif_neg (by omega), dif_neg (by omega), dif_neg h192]

/-- three 64-entry vectors end to end, padded to 256 entries, read at a position -/
theorem padcat_vec {α : Type} (h3 : Shape.Concatenates [⟨1, ![64]⟩, ⟨1, ![64]⟩, ⟨1, ![64]⟩] ⟨1, ![192]⟩ 0)
    (hp : (⟨1, ![192]⟩ : Shape).Pads (![0] : Fin 1 → Nat) ![64] ![0] ⟨1, ![256]⟩)
    {u : Shape} (hu : 0 < u.numel) (a b c : (⟨1, ![64]⟩ : Shape).Idx → α) (z : u.Idx → α) (j : Fin 256) :
    pad ⟨1, ![256]⟩ ![0] ![64] ![0]
        (concatenate ⟨1, ![192]⟩ 0 [⟨⟨1, ![64]⟩, a⟩, ⟨⟨1, ![64]⟩, b⟩, ⟨⟨1, ![64]⟩, c⟩] h3) z hp hu (ix1 j)
      = if h : j.val < 64 then a (ix1 ⟨j.val, h⟩)
        else if h : j.val < 128 then b (ix1 ⟨j.val - 64, by omega⟩)
        else if h : j.val < 192 then c (ix1 ⟨j.val - 128, by omega⟩)
        else z (Shape.Idx.first hu) := by
  rw [pad_vec]
  by_cases h192 : j.val < 192
  · rw [dif_pos h192, cat3_vec]
    by_cases h0 : j.val < 64
    · rw [dif_pos h0, dif_pos (show (⟨j.val, h192⟩ : Fin 192).val < 64 from h0)]
    · rw [dif_neg h0, dif_neg (show ¬ (⟨j.val, h192⟩ : Fin 192).val < 64 from h0)]
      by_cases h1 : j.val < 128
      · rw [dif_pos h1, dif_pos (show (⟨j.val, h192⟩ : Fin 192).val < 128 from h1)]
      · rw [dif_neg h1, dif_neg (show ¬ (⟨j.val, h192⟩ : Fin 192).val < 128 from h1), dif_pos h192]
  · rw [dif_neg h192, dif_neg (by omega), dif_neg (by omega), dif_neg h192]

/-- a list of index words with every negative word wrapped by the node count (x < 0 ? x + 8192 : x), as a one-column
    table of start indices -/
def wrapCol {n : Nat} (hcol : (⟨1, ![n]⟩ : Shape).BroadcastsInDim ⟨2, ![n, 1]⟩ ![0])
    (hb : (⟨0, ![]⟩ : Shape).BroadcastsInDim ⟨1, ![n]⟩ (![] : Fin 0 → Fin 1)) (x : IVec ⟨1, ![n]⟩ 32) : IVec ⟨2, ![n, 1]⟩ 32 :=
  broadcastInDim ⟨2, ![n, 1]⟩ ![0] hcol
    (select (cmpi .slt x (broadcastInDim ⟨1, ![n]⟩ ![] hb (constantI ⟨0, ![]⟩ 32 0#32)))
      (addi x (broadcastInDim ⟨1, ![n]⟩ ![] hb (constantI ⟨0, ![]⟩ 32 8192#32))) x)

/-- row p of the wrapped table is the wrap of word p -/
theorem wrapCol_apply {n : Nat} (hcol : (⟨1, ![n]⟩ : Shape).BroadcastsInDim ⟨2, ![n, 1]⟩ ![0])
    (hb : (⟨0, ![]⟩ : Shape).BroadcastsInDim ⟨1, ![n]⟩ (![] : Fin 0 → Fin 1)) (x : IVec ⟨1, ![n]⟩ 32) (p : Fin n) (q : Fin 1) :
    wrapCol hcol hb x (ix2 p q)
      = Scalar.select (IntOp.cmpi .slt (x (ix1 p)) 0#32) (IntOp.addi (x (ix1 p)) 8192#32) (x (ix1 p)) := by
  unfold wrapCol
  rw [col_apply]
  rfl

section
variable (dS : ScatterDims ⟨2, ![8192, 8192]⟩ ⟨2, ![270336, 2]⟩ ⟨1, ![270336]⟩)
  (hu : dS.updateWindowDims = []) (hi : dS.insertedWindowDims = [0, 1])
  (hs : dS.scatterDimsToOperandDims = [0, 1]) (hv : dS.indexVectorDim = 1)
  (hb0 : (⟨0, ![]⟩ : Shape).BroadcastsInDim ⟨2, ![8192, 8192]⟩ (![] : Fin 0 → Fin 2))
  (hcat : Shape.Concatenates [⟨1, ![262144]⟩, ⟨1, ![8192]⟩] ⟨1, ![270336]⟩ 0)
  (hcat1 : Shape.Concatenates [⟨2, ![270336, 1]⟩, ⟨2, ![270336, 1]⟩] ⟨2, ![270336, 2]⟩ 1)
  (hcol : (⟨1, ![270336]⟩ : Shape).BroadcastsInDim ⟨2, ![270336, 1]⟩ ![0])
  (hbL : (⟨0, ![]⟩ : Shape).BroadcastsInDim ⟨1, ![270336]⟩ (![] : Fin 0 → Fin 1))

include hu hi hs hv in
/-- the accumulated matrix, entry by entry: zeros plus, per edge, its weight at (wrapped destination, wrapped source),
    plus, per node, its self-loop weight on the diagonal -/
theorem adj_core (src dst : IVec ⟨1, ![262144]⟩ 32) (coef : FVec Ideal ⟨1, ![262144]⟩ .f32) (selfw : FVec Ideal ⟨1, ![8192]⟩ .f32)
    (hsrc : ∀ e : (⟨1, ![262144]⟩ : Shape).Idx, 0 ≤ (src e).toInt ∧ (src e).toInt < 8192) (v u : Fin 8192) :
    Host.scatterAdd (F := Ideal) dS
      (broadcastInDim ⟨2, ![8192, 8192]⟩ ![] hb0 (constant (F := Ideal) ⟨0, ![]⟩ .f32 0x00000000#32))
      (concatenate ⟨2, ![270336, 2]⟩ 1
        [⟨⟨2, ![270336, 1]⟩, wrapCol hcol hbL
            (concatenate ⟨1, ![270336]⟩ 0 [⟨⟨1, ![262144]⟩, dst⟩, ⟨⟨1, ![8192]⟩, iotaInDim ⟨1, ![8192]⟩ 32 0⟩] hcat)⟩,
         ⟨⟨2, ![270336, 1]⟩, wrapCol hcol hbL
            (concatenate ⟨1, ![270336]⟩ 0 [⟨⟨1, ![262144]⟩, src⟩, ⟨⟨1, ![8192]⟩, iotaInDim ⟨1, ![8192]⟩ 32 0⟩] hcat)⟩] hcat1)
      (concatenate ⟨1, ![270336]⟩ 0 [⟨⟨1, ![262144]⟩, coef⟩, ⟨⟨1, ![8192]⟩, selfw⟩] hcat) (ix2 v u)
    = Cert.LibGcn.adj (Cert.Spec.srcN (fun e => src (ix1 e))) (Cert.Spec.dstO (fun e => dst (ix1 e)))
        (fun e => coef (ix1 e)) (fun v => selfw (ix1 v)) v u := by
  rw [scatter2_sum dS hu hi hs hv]
  have hz : broadcastInDim ⟨2, ![8192, 8192]⟩ ![] hb0 (constant (F := Ideal) ⟨0, ![]⟩ .f32 0x00000000#32) (ix2 v u) = 0 :=
    ofBits_zero_f32
  rw [hz, zero_add]
  have key : ∀ g : Fin 270336 → EReal, ∑ k, g k
      = (∑ e : Fin 262144, g ⟨e.val, by omega⟩) + ∑ l : Fin 8192, g ⟨262144 + l.val, by omega⟩ :=
    fun g => sum_split 262144 8192 g
  rw [key]
  delta Cert.LibGcn.adj
  refine congrArg₂ (· + ·) ?_ ?_
  · -- the edges
    rw [Finset.sum_filter]
    refine Finset.sum_congr rfl (fun e _ => ?_)
    have he := e.isLt
    have e0 : ∀ x : IVec ⟨1, ![262144]⟩ 32,
        (wrapCol hcol hbL (concatenate ⟨1, ![270336]⟩ 0 [⟨⟨1, ![262144]⟩, x⟩, ⟨⟨1, ![8192]⟩, iotaInDim ⟨1, ![8192]⟩ 32 0⟩] hcat)
          (ix2 (⟨e.val, by omega⟩ : Fin 270336) (0 : Fin 1))).toInt = Cert.Spec.wrapI (x (ix1 e)) := fun x => by
      rw [wrapCol_apply, cat0_left hcat x _ (⟨e.val, by omega⟩ : Fin 270336) he, toInt_wrap]
      rfl
    have eu : concatenate ⟨1, ![270336]⟩ 0 [⟨⟨1, ![262144]⟩, coef⟩, ⟨⟨1, ![8192]⟩, selfw⟩] hcat (ix1 (⟨e.val, by omega⟩ : Fin 270336))
        = coef (ix1 e) := cat0_left hcat coef selfw _ he
    beta_reduce
    rw [cat1_col0, cat1_col1, e0 dst, e0 src, eu]
    refine if_congr ?_ rfl rfl
    have hs' := Cert.Spec.srcN_of_range (fun e => src (ix1 e)) e (hsrc (ix1 e))
    constructor
    · rintro ⟨h1, h2⟩
      refine ⟨Cert.Spec.nodeO_eq_some.2 h1, Fin.ext ?_⟩
      have : ((Cert.Spec.srcN (fun e => src (ix1 e)) e).val : Int) = (u.val : Int) := by rw [hs'.1, ← hs'.2]; exact h2
      exact_mod_cast this
    · rintro ⟨h1, h2⟩
      refine ⟨Cert.Spec.nodeO_eq_some.1 h1, ?_⟩
      show Cert.Spec.wrapI (src (ix1 e)) = (u.val : Int)
      rw [← h2]
      exact hs'.2.trans hs'.1.symm
  · -- the self-loops
    refine Eq.trans (Finset.sum_congr rfl (fun l _ => ?_)) (sum_diag (fun l => selfw (ix1 l)) v u)
    have hl := l.isLt
    have e0 : ∀ x : IVec ⟨1, ![262144]⟩ 32,
        (wrapCol hcol hbL (concatenate ⟨1, ![270336]⟩ 0 [⟨⟨1, ![262144]⟩, x⟩, ⟨⟨1, ![8192]⟩, iotaInDim ⟨1, ![8192]⟩ 32 0⟩] hcat)
          (ix2 (⟨262144 + l.val, by omega⟩ : Fin 270336) (0 : Fin 1))).toInt = (l.val : Int) := fun x => by
      rw [wrapCol_apply, cat0_right hcat x _ (⟨262144 + l.val, by omega⟩ : Fin 270336) l (by show l.val + 262144 = 262144 + l.val; omega)]
      exact toInt_wrap_ofNat l.val hl
    have eu : concatenate ⟨1, ![270336]⟩ 0 [⟨⟨1, ![262144]⟩, coef⟩, ⟨⟨1, ![8192]⟩, selfw⟩] hcat (ix1 (⟨262144 + l.val, by omega⟩ : Fin 270336))
        = selfw (ix1 l) := cat0_right hcat coef selfw _ l (by show l.val + 262144 = 262144 + l.val; omega)
    beta_reduce
    rw [cat1_col0, cat1_col1, e0 dst, e0 src, eu]

end

end Host0

/-! ## The kernel's own chains, as the printed operations -/

open Host0

/-- an edge list's words -/
abbrev IW := (⟨S262144, .i32⟩ : BufTy).Contents (Elt Ideal)

/-- every node's weight: the reciprocal square root of its degree, the degree being one plus the number of edges
    whose (wrapped) destination word names the node -/
def dinvK (dst : IW) : (⟨S8192, .f32⟩ : BufTy).Contents (Elt Ideal) :=
  Host.rsqrt (F := Ideal) (Host.scatterAdd (F := Ideal) scatter_S8192_S262144x1_S262144_n_0_0_1
    (broadcastInDim S8192 ![] bcast_S_S8192 (constant (F := Ideal) S_ .f32 0x3F800000#32))
    (wrapCol bcast_S262144_S262144x1_0 bcast_S_S262144 dst)
    (broadcastInDim S262144 ![] bcast_S_S262144 (constant (F := Ideal) S_ .f32 0x3F800000#32)))

/-- every edge's weight: the product of the weights of its source and destination nodes, each read by a gather
    (start index signed, clamped into the node range) -/
def coefK (src dst : IW) : (⟨S262144, .f32⟩ : BufTy).Contents (Elt Ideal) :=
  mulf (F := Ideal) (φ := .f32)
    (Host.gather gather_S8192_S262144x1_S262144_n_0_n_n_0_1_1 (dinvK dst) (wrapCol bcast_S262144_S262144x1_0 bcast_S_S262144 src))
    (Host.gather gather_S8192_S262144x1_S262144_n_0_n_n_0_1_1 (dinvK dst) (wrapCol bcast_S262144_S262144x1_0 bcast_S_S262144 dst))

/-- an edge list followed by the node numbers 0 … 8191 (the self-loops' endpoints) -/
def Host0.withLoops (x : IW) : (⟨S270336, .i32⟩ : BufTy).Contents (Elt Ideal) :=
  concatenate S270336 0 [⟨S262144, x⟩, ⟨S8192, iotaInDim S8192 32 0⟩] concatenates_S262144_S8192_S270336_d0

/-- the table of (row, column) index pairs: per edge its wrapped (destination, source), per self-loop (n, n) -/
def Host0.idxK (src dst : IW) : (⟨S270336x2, .i32⟩ : BufTy).Contents (Elt Ideal) :=
  concatenate S270336x2 1
    [⟨S270336x1, wrapCol bcast_S270336_S270336x1_0 bcast_S_S270336 (withLoops dst)⟩,
     ⟨S270336x1, wrapCol bcast_S270336_S270336x1_0 bcast_S_S270336 (withLoops src)⟩]
    concatenates_S270336x1_S270336x1_S270336x2_d1

/-- the updates: the edges' weights, then the self-loops' weights (the square of each node's weight) -/
def Host0.updK (src dst : IW) : (⟨S270336, .f32⟩ : BufTy).Contents (Elt Ideal) :=
  concatenate S270336 0 [⟨S262144, coefK src dst⟩, ⟨S8192, mulf (F := Ideal) (φ := .f32) (dinvK dst) (dinvK dst)⟩]
    concatenates_S262144_S8192_S270336_d0

/-- the dense normalised adjacency matrix: zeros, with every update accumulated at its index pair -/
def ahatK (src dst : IW) : (⟨S8192x8192, .f32⟩ : BufTy).Contents (Elt Ideal) :=
  Host.scatterAdd (F := Ideal) scatter_S8192x8192_S270336x2_S270336_n_01_01_1
    (broadcastInDim S8192x8192 ![] bcast_S_S8192x8192 (constant (F := Ideal) S_ .f32 0x00000000#32))
    (idxK src dst) (updK src dst)

/-! ## What the buffers hold when region 0 is entered -/

variable (m : (ℓ : Loc nD τ sig) → Buf (Elt Ideal) ℓ)

/-- an argument array is as launched at every boundary before region 0 -/
theorem Host0.V4_arg (c : Dev nD) (r : Ref sig .tc) (h1 : r ∉ Gen.hostOps0_W) (h2 : r ∉ Gen.hostOps0_1_W) (h3 : r ∉ Gen.hostOps0_2_W)
    (h4 : r ∉ Gen.hostOps0_3_W) : Gen.V4 m c r = m ((c.tc : Thread nD τ).loc r) :=
  (Gen.V4_of m c r h4).trans <| (Gen.V3_of m c r h3).trans <| (Gen.V2_of m c r h2).trans <| (Gen.V1_of m c r h1).trans rfl

/-- the adjacency matrix region 0 reads is the one built from the launch's edge lists -/
theorem V5_v45 (c : Dev nD) : (Gen.V5 m c main_v45 : S8192x8192.Idx → EReal)
    = ahatK (m ((c.tc : Thread nD τ).loc main_arg1)) (m ((c.tc : Thread nD τ).loc main_arg2)) := by
  have e1 : Gen.V5 m c main_v45 = Gen.V1 m c main_v45 :=
    (Gen.V5_of m c main_v45 (by decide)).trans <| (Gen.V4_of m c main_v45 (by decide)).trans <|
      (Gen.V3_of m c main_v45 (by decide)).trans (Gen.V2_of m c main_v45 (by decide))
  have e2 : (Gen.V1 m c main_v45 : S8192x8192.Idx → EReal)
      = truncf (F := Ideal) (s := S8192x8192) (φ := .f32) .bf16 (ahatK (m ((c.tc : Thread nD τ).loc main_arg1)) (m ((c.tc : Thread nD τ).loc main_arg2))) bitsLt_bf16_f32 := by
    dsimp only [Gen.V1, Gen.V0, Gen.hostOps0]
    after_results_simp
    rfl
  exact e1.trans (e2.trans (funext fun i => truncf_apply _ _ i))

/-- the features region 0 reads are the launch's -/
theorem V5_v50 (c : Dev nD) : (Gen.V5 m c main_v50 : S8192x64.Idx → EReal) = m ((c.tc : Thread nD τ).loc main_arg0) := by
  have e1 : (Gen.V5 m c main_v50 : S8192x64.Idx → EReal)
      = truncf (F := Ideal) (s := S8192x64) (φ := .f32) .bf16 (Gen.V4 m c main_arg0 : S8192x64.Idx → EReal) bitsLt_bf16_f32 := by
    dsimp only [Gen.V5, Gen.hostOps0_4]
    after_results
  rw [e1, V4_arg m c main_arg0 (by decide) (by decide) (by decide) (by decide)]
  rfl

/-- the three first-layer weight matrices side by side, after the first host stretch -/
theorem Host0.V1_v46 (c : Dev nD) : (Gen.V1 m c main_v46 : S64x192.Idx → EReal)
    = concatenate S64x192 1 [⟨S64x64, (m ((c.tc : Thread nD τ).loc main_arg3) : S64x64.Idx → EReal)⟩,
        ⟨S64x64, (m ((c.tc : Thread nD τ).loc main_arg7) : S64x64.Idx → EReal)⟩,
        ⟨S64x64, (m ((c.tc : Thread nD τ).loc main_arg11) : S64x64.Idx → EReal)⟩]
        concatenates_S64x64_S64x64_S64x64_S64x192_d1 := by
  dsimp only [Gen.V1, Gen.V0, Gen.hostOps0]
  simp (disch := decide) only [StableHlo.after_cons, StableHlo.after_nil, StableHlo.nullary_result_ne',
    StableHlo.unary_result_ne', StableHlo.binary_result_ne', StableHlo.ternary_result_ne', StableHlo.nary3_result']
  rfl

/-- the integer zero the first padding starts from -/
theorem Host0.V1_c11 (c : Dev nD) : (Gen.V1 m c main_c_11 : S_.Idx → BitVec 32) = constantI S_ 32 0#32 := by
  dsimp only [Gen.V1, Gen.V0, Gen.hostOps0]
  simp (disch := decide) only [StableHlo.after_cons, StableHlo.after_nil, StableHlo.nullary_result']

/-- the padded weights, after the first padding -/
theorem Host0.V2_v47 (c : Dev nD) : (Gen.V2 m c main_v47 : S64x256.Idx → EReal)
    = pad S64x256 ![0, 0] ![0, 64] ![0, 0] (Gen.V1 m c main_v46 : S64x192.Idx → EReal)
        (sitofp (F := Ideal) .f32 (Gen.V1 m c main_c_11 : S_.Idx → BitVec 32)) pads_S64x192_S64x256_000_0640 h_S_ := by
  dsimp only [Gen.V2, Gen.hostOps0_1]
  after_results
  simp only [StableHlo.cast_pair]
  rfl

/-- the padded column-concatenation of the three first-layer weights: column j < 64 is the first matrix's,
    64 ≤ j < 128 the second's, 128 ≤ j < 192 the third's, beyond that zero -/
theorem V5_v51 (c : Dev nD) (k : Fin 64) (j : Fin 256) : (Gen.V5 m c main_v51 : S64x256.Idx → EReal) (ix2 k j) =
    (if h : j.val < 64 then m ((c.tc : Thread nD τ).loc main_arg3) (ix2 k ⟨j.val, h⟩)
    else if h : j.val < 128 then m ((c.tc : Thread nD τ).loc main_arg7) (ix2 k ⟨j.val - 64, by omega⟩)
    else if h : j.val < 192 then m ((c.tc : Thread nD τ).loc main_arg11) (ix2 k ⟨j.val - 128, by omega⟩)
    else 0 : EReal) := by
  have e1 : (Gen.V5 m c main_v51 : S64x256.Idx → EReal)
      = truncf (F := Ideal) (s := S64x256) (φ := .f32) .bf16 (Gen.V4 m c main_v47 : S64x256.Idx → EReal) bitsLt_bf16_f32 := by
    dsimp only [Gen.V5, Gen.hostOps0_4]
    after_results
  have e2 : Gen.V4 m c main_v47 = Gen.V2 m c main_v47 :=
    (Gen.V4_of m c main_v47 (by decide)).trans (Gen.V3_of m c main_v47 (by decide))
  rw [e1, truncf_apply, e2, V2_v47, V1_v46, V1_c11, padcat_cols]
  have hz : sitofp (F := Ideal) .f32 (constantI S_ 32 0#32) (Shape.Idx.first h_S_) = 0 := sitofpI_zero
  rw [hz]

/-- the three first-layer biases end to end, after the third host stretch -/
theorem Host0.V3_v48 (c : Dev nD) : (Gen.V3 m c main_v48 : S192.Idx → EReal)
    = concatenate S192 0 [⟨S64, (m ((c.tc : Thread nD τ).loc main_arg4) : S64.Idx → EReal)⟩,
        ⟨S64, (m ((c.tc : Thread nD τ).loc main_arg8) : S64.Idx → EReal)⟩,
        ⟨S64, (m ((c.tc : Thread nD τ).loc main_arg12) : S64.Idx → EReal)⟩]
        concatenates_S64_S64_S64_S192_d0 := by
  have a4 : Gen.V2 m c main_arg4 = m ((c.tc : Thread nD τ).loc main_arg4) :=
    (Gen.V2_of m c main_arg4 (by decide)).trans <| (Gen.V1_of m c main_arg4 (by decide)).trans rfl
  have a8 : Gen.V2 m c main_arg8 = m ((c.tc : Thread nD τ).loc main_arg8) :=
    (Gen.V2_of m c main_arg8 (by decide)).trans <| (Gen.V1_of m c main_arg8 (by decide)).trans rfl
  have a12 : Gen.V2 m c main_arg12 = m ((c.tc : Thread nD τ).loc main_arg12) :=
    (Gen.V2_of m c main_arg12 (by decide)).trans <| (Gen.V1_of m c main_arg12 (by decide)).trans rfl
  rw [← a4, ← a8, ← a12]
  dsimp only [Gen.V3, Gen.hostOps0_2]
  simp (disch := decide) only [StableHlo.after_cons, StableHlo.after_nil, StableHlo.nullary_result_ne', StableHlo.nary3_result']
  rfl

/-- the integer zero the second padding starts from -/
theorem Host0.V3_c12 (c : Dev nD) : (Gen.V3 m c main_c_12 : S_.Idx → BitVec 32) = constantI S_ 32 0#32 := by
  dsimp only [Gen.V3, Gen.hostOps0_2]
  simp (disch := decide) only [StableHlo.after_cons, StableHlo.after_nil, StableHlo.nullary_result']

/-- the padded biases, after the second padding -/
theorem Host0.V4_v49 (c : Dev nD) : (Gen.V4 m c main_v49 : S256.Idx → EReal)
    = pad S256 ![0] ![64] ![0] (Gen.V3 m c main_v48 : S192.Idx → EReal)
        (sitofp (F := Ideal) .f32 (Gen.V3 m c main_c_12 : S_.Idx → BitVec 32)) pads_S192_S256_0640 h_S_ := by
  dsimp only [Gen.V4, Gen.hostOps0_3]
  after_results
  simp only [StableHlo.cast_pair]
  rfl

/-- the padded concatenation of the three first-layer biases, as one row -/
theorem V5_v52 (c : Dev nD) (j : Fin 256) : (Gen.V5 m c main_v52 : S1x256.Idx → EReal) (ix2 0 j) =
    (if h : j.val < 64 then m ((c.tc : Thread nD τ).loc main_arg4) (ix1 ⟨j.val, h⟩)
    else if h : j.val < 128 then m ((c.tc : Thread nD τ).loc main_arg8) (ix1 ⟨j.val - 64, by omega⟩)
    else if h : j.val < 192 then m ((c.tc : Thread nD τ).loc main_arg12) (ix1 ⟨j.val - 128, by omega⟩)
    else 0 : EReal) := by
  have e1 : (Gen.V5 m c main_v52 : S1x256.Idx → EReal)
      = shapeCast S1x256 (Gen.V4 m c main_v49 : S256.Idx → EReal) shapeCasts_S256_S1x256 := by
    dsimp only [Gen.V5, Gen.hostOps0_4]
    after_results
    rfl
  rw [e1, row_apply, V4_v49, V3_v48, V3_c12, padcat_vec]
  have hz : sitofp (F := Ideal) .f32 (constantI S_ 32 0#32) (Shape.Idx.first h_S_) = 0 := sitofpI_zero
  rw [hz]

/-! ## The adjacency matrix, entry by entry -/

/-- an edge list's words, edge by edge -/
abbrev words (v : IW) : Fin 262144 → BitVec 32 := fun e => v (ix1 e)

/-- THE ADJACENCY READ: entry (v, u) is the sum of the weights of the edges from u to v, plus the self-loop weight on
    the diagonal, provided every source word is in range (an out-of-range source word is clamped by the gather that
    weighs the edge but dropped by the scatter that places it) -/
theorem ahatK_apply (src dst : IW) (hsrc : ∀ e : S262144.Idx, 0 ≤ (src e).toInt ∧ (src e).toInt < 8192) (v u : Fin 8192) :
    ahatK src dst (ix2 v u) = Cert.LibGcn.adj (Cert.Spec.srcN (words src)) (Cert.Spec.dstO (words dst))
      (fun e => coefK src dst (ix1 e)) (fun v => dinvK dst (ix1 v) * dinvK dst (ix1 v)) v u :=
  adj_core scatter_S8192x8192_S270336x2_S270336_n_01_01_1 rfl rfl rfl rfl bcast_S_S8192x8192
    concatenates_S262144_S8192_S270336_d0 concatenates_S270336x1_S270336x1_S270336x2_d1
    bcast_S270336_S270336x1_0 bcast_S_S270336 src dst (coefK src dst) (mulf (F := Ideal) (φ := .f32) (dinvK dst) (dinvK dst)) hsrc v u

end Cert.KernelIdeal.Val

end
-- ==== Proof.KIHost1.lean ====
/-
  What the second, third and fourth regions are entered with, and what the program returns, read off the host
  operations between the regions: each as a function of the previous region's output array and of the argument arrays.

  * Before the second region: the features are the first region's output (a change of float format, the identity on
    extended reals); the weight is the three second-layer matrices on the diagonal 64×64 blocks of a 192×192 matrix,
    zero elsewhere, padded with zeros to 256×256; the bias is the three bias vectors end to end, padded with zeros.
  * Before the third region: the first 192 columns of the second region's output are the three branches' features;
    the attention over the three branches and the attention-weighted combination are each ONE function of those
    features (carried whole: the other program applies the same chain); the decoder weights are the two matrices
    side by side, the decoder biases the two vectors end to end.
  * The results: the two 64-column halves of the third region's output, and the fourth region's output.
-/
import proofs.«414230_j6141803233547_3_alg».proof.Proof.Gen.KernelIdeal.Regions
import proofs.«414230_j6141803233547_3_alg».proof.Proof.LibNary3
import proofs.«414230_j6141803233547_3_alg».proof.Proof.LibGcn
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost

noncomputable section

namespace Cert.KernelIdeal.Val

open Cert.KernelIdeal Cert.KernelIdeal.Gen
open Idealize.ShloMosaic Idealize.ShloMosaic.TcCoe Idealize.ShloMosaic.ValueIdx

namespace Host1

variable {α : Type}

/-! ## Blocks laid side by side, one above the other, and padded: read at an index -/

/-- Three 64×64 blocks side by side: entry (k, j) lies in block ⌊j / 64⌋, at column j − 64·⌊j / 64⌋. -/
theorem cat3_cols_apply (x0 x1 x2 : (⟨2, ![64, 64]⟩ : Shape).Idx → α)
    (h : Shape.Concatenates [(⟨2, ![64, 64]⟩ : Shape), ⟨2, ![64, 64]⟩, ⟨2, ![64, 64]⟩] ⟨2, ![64, 192]⟩ 1)
    (k : Fin 64) (j : Fin 192) :
    concatenate (⟨2, ![64, 192]⟩ : Shape) 1 [⟨⟨2, ![64, 64]⟩, x0⟩, ⟨⟨2, ![64, 64]⟩, x1⟩, ⟨⟨2, ![64, 64]⟩, x2⟩] h (ix2 k j)
      = if h0 : j.val < 64 then x0 (ix2 k ⟨j.val, h0⟩)
        else if h1 : j.val < 128 then x1 (ix2 k ⟨j.val - 64, by omega⟩)
        else x2 (ix2 k ⟨j.val - 128, by omega⟩) := by
  split
  · next h0 =>
    exact concatenate_apply_piece 1 [⟨⟨2, ![64, 64]⟩, x0⟩, ⟨⟨2, ![64, 64]⟩, x1⟩, ⟨⟨2, ![64, 64]⟩, x2⟩] h (ix2 k j) 0 (by simp) _ x0 rfl rfl 0 rfl (ix2 k ⟨j.val, h0⟩)
      (fun b => match b with | ⟨0, _⟩ => fun _ => rfl | ⟨1, _⟩ => fun hb => absurd rfl hb) (Nat.zero_add _)
  · next h0 =>
    split
    · next h1 =>
      exact concatenate_apply_piece 1 [⟨⟨2, ![64, 64]⟩, x0⟩, ⟨⟨2, ![64, 64]⟩, x1⟩, ⟨⟨2, ![64, 64]⟩, x2⟩] h (ix2 k j) 1 (by simp) _ x1 rfl rfl 64 rfl (ix2 k ⟨j.val - 64, by omega⟩)
        (fun b => match b with | ⟨0, _⟩ => fun _ => rfl | ⟨1, _⟩ => fun hb => absurd rfl hb)
        (by show 64 + (j.val - 64) = j.val; omega)
    · next h1 =>
      exact concatenate_apply_piece 1 [⟨⟨2, ![64, 64]⟩, x0⟩, ⟨⟨2, ![64, 64]⟩, x1⟩, ⟨⟨2, ![64, 64]⟩, x2⟩] h (ix2 k j) 2 (by simp) _ x2 rfl rfl 128 rfl (ix2 k ⟨j.val - 128, by omega⟩)
        (fun b => match b with | ⟨0, _⟩ => fun _ => rfl | ⟨1, _⟩ => fun hb => absurd rfl hb)
        (by show 128 + (j.val - 128) = j.val; omega)

/-- Three 64×192 bands one above the other: entry (k, j) lies in band ⌊k / 64⌋, at row k − 64·⌊k / 64⌋. -/
theorem cat3_rows_apply (x0 x1 x2 : (⟨2, ![64, 192]⟩ : Shape).Idx → α)
    (h : Shape.Concatenates [(⟨2, ![64, 192]⟩ : Shape), ⟨2, ![64, 192]⟩, ⟨2, ![64, 192]⟩] ⟨2, ![192, 192]⟩ 0)
    (k : Fin 192) (j : Fin 192) :
    concatenate (⟨2, ![192, 192]⟩ : Shape) 0 [⟨⟨2, ![64, 192]⟩, x0⟩, ⟨⟨2, ![64, 192]⟩, x1⟩, ⟨⟨2, ![64, 192]⟩, x2⟩] h (ix2 k j)
      = if h0 : k.val < 64 then x0 (ix2 ⟨k.val, h0⟩ j)
        else if h1 : k.val < 128 then x1 (ix2 ⟨k.val - 64, by omega⟩ j)
        else x2 (ix2 ⟨k.val - 128, by omega⟩ j) := by
  split
  · next h0 =>
    exact concatenate_apply_piece 0 [⟨⟨2, ![64, 192]⟩, x0⟩, ⟨⟨2, ![64, 192]⟩, x1⟩, ⟨⟨2, ![64, 192]⟩, x2⟩] h (ix2 k j) 0 (by simp) _ x0 rfl rfl 0 rfl (ix2 ⟨k.val, h0⟩ j)
      (fun b => match b with | ⟨0, _⟩ => fun hb => absurd rfl hb | ⟨1, _⟩ => fun _ => rfl) (Nat.zero_add _)
  · next h0 =>
    split
    · next h1 =>
      exact concatenate_apply_piece 0 [⟨⟨2, ![64, 192]⟩, x0⟩, ⟨⟨2, ![64, 192]⟩, x1⟩, ⟨⟨2, ![64, 192]⟩, x2⟩] h (ix2 k j) 1 (by simp) _ x1 rfl rfl 64 rfl (ix2 ⟨k.val - 64, by omega⟩ j)
        (fun b => match b with | ⟨0, _⟩ => fun hb => absurd rfl hb | ⟨1, _⟩ => fun _ => rfl)
        (by show 64 + (k.val - 64) = k.val; omega)
    · next h1 =>
      exact concatenate_apply_piece 0 [⟨⟨2, ![64, 192]⟩, x0⟩, ⟨⟨2, ![64, 192]⟩, x1⟩, ⟨⟨2, ![64, 192]⟩, x2⟩] h (ix2 k j) 2 (by simp) _ x2 rfl rfl 128 rfl (ix2 ⟨k.val - 128, by omega⟩ j)
        (fun b => match b with | ⟨0, _⟩ => fun hb => absurd rfl hb | ⟨1, _⟩ => fun _ => rfl)
        (by show 128 + (k.val - 128) = k.val; omega)

/-- A 192×192 matrix padded with 64 rows below and 64 columns on the right: the matrix inside, the padding value
    outside. -/
theorem pad_192_256_apply (x : (⟨2, ![192, 192]⟩ : Shape).Idx → α) {u : Shape} (v : u.Idx → α)
    (h : (⟨2, ![192, 192]⟩ : Shape).Pads (![0, 0] : Fin 2 → Nat) ![64, 64] ![0, 0] ⟨2, ![256, 256]⟩) (hu : 0 < u.numel)
    (k j : Fin 256) :
    pad (⟨2, ![256, 256]⟩ : Shape) (![0, 0] : Fin 2 → Nat) ![64, 64] ![0, 0] x v h hu (ix2 k j)
      = if hk : k.val < 192 ∧ j.val < 192 then x (ix2 ⟨k.val, hk.1⟩ ⟨j.val, hk.2⟩) else v (Shape.Idx.first hu) := by
  split
  · next hk =>
    exact pad_apply_of_inside _ _ _ x v h hu _ (ix2 ⟨k.val, hk.1⟩ ⟨j.val, hk.2⟩) (fun a => match a with
      | ⟨0, _⟩ => by show k.val = 0 + k.val * (0 + 1); omega
      | ⟨1, _⟩ => by show j.val = 0 + j.val * (0 + 1); omega)
  · next hk =>
    by_cases hk0 : k.val < 192
    · exact pad_apply_of_not_inside _ _ _ x v h hu _ 1 (fun hin => by
        have h3 : (j.val - 0) / (0 + 1) < 192 := hin.2.2
        omega)
    · exact pad_apply_of_not_inside _ _ _ x v h hu _ 0 (fun hin => by
        have h3 : (k.val - 0) / (0 + 1) < 192 := hin.2.2
        omega)

/-- Three vectors of 64 entries end to end. -/
theorem cat3_vec_apply (x0 x1 x2 : (⟨1, ![64]⟩ : Shape).Idx → α)
    (h : Shape.Concatenates [(⟨1, ![64]⟩ : Shape), ⟨1, ![64]⟩, ⟨1, ![64]⟩] ⟨1, ![192]⟩ 0) (j : Fin 192) :
    concatenate (⟨1, ![192]⟩ : Shape) 0 [⟨⟨1, ![64]⟩, x0⟩, ⟨⟨1, ![64]⟩, x1⟩, ⟨⟨1, ![64]⟩, x2⟩] h (ix1 j)
      = if h0 : j.val < 64 then x0 (ix1 ⟨j.val, h0⟩)
        else if h1 : j.val < 128 then x1 (ix1 ⟨j.val - 64, by omega⟩)
        else x2 (ix1 ⟨j.val - 128, by omega⟩) := by
  split
  · next h0 =>
    exact concatenate_apply_piece 0 [⟨⟨1, ![64]⟩, x0⟩, ⟨⟨1, ![64]⟩, x1⟩, ⟨⟨1, ![64]⟩, x2⟩] h (ix1 j) 0 (by simp) _ x0 rfl rfl 0 rfl (ix1 ⟨j.val, h0⟩)
      (fun b => match b with | ⟨0, _⟩ => fun hb => absurd rfl hb) (Nat.zero_add _)
  · next h0 =>
    split
    · next h1 =>
      exact concatenate_apply_piece 0 [⟨⟨1, ![64]⟩, x0⟩, ⟨⟨1, ![64]⟩, x1⟩, ⟨⟨1, ![64]⟩, x2⟩] h (ix1 j) 1 (by simp) _ x1 rfl rfl 64 rfl (ix1 ⟨j.val - 64, by omega⟩)
        (fun b => match b with | ⟨0, _⟩ => fun hb => absurd rfl hb)
        (by show 64 + (j.val - 64) = j.val; omega)
    · next h1 =>
      exact concatenate_apply_piece 0 [⟨⟨1, ![64]⟩, x0⟩, ⟨⟨1, ![64]⟩, x1⟩, ⟨⟨1, ![64]⟩, x2⟩] h (ix1 j) 2 (by simp) _ x2 rfl rfl 128 rfl (ix1 ⟨j.val - 128, by omega⟩)
        (fun b => match b with | ⟨0, _⟩ => fun hb => absurd rfl hb)
        (by show 128 + (j.val - 128) = j.val; omega)

/-- A vector of 192 entries padded with 64 entries behind. -/
theorem pad_vec_192_256_apply (x : (⟨1, ![192]⟩ : Shape).Idx → α) {u : Shape} (v : u.Idx → α)
    (h : (⟨1, ![192]⟩ : Shape).Pads (![0] : Fin 1 → Nat) ![64] ![0] ⟨1, ![256]⟩) (hu : 0 < u.numel) (j : Fin 256) :
    pad (⟨1, ![256]⟩ : Shape) (![0] : Fin 1 → Nat) ![64] ![0] x v h hu (ix1 j)
      = if hj : j.val < 192 then x (ix1 ⟨j.val, hj⟩) else v (Shape.Idx.first hu) := by
  split
  · next hj =>
    exact pad_apply_of_inside _ _ _ x v h hu _ (ix1 ⟨j.val, hj⟩) (fun a => match a with
      | ⟨0, _⟩ => by show j.val = 0 + j.val * (0 + 1); omega)
  · next hj =>
    exact pad_apply_of_not_inside _ _ _ x v h hu _ 0 (fun hin => by
      have h3 : (j.val - 0) / (0 + 1) < 192 := hin.2.2
      omega)

/-- Two 64×64 blocks side by side. -/
theorem cat2_cols_apply (x0 x1 : (⟨2, ![64, 64]⟩ : Shape).Idx → α)
    (h : Shape.Concatenates [(⟨2, ![64, 64]⟩ : Shape), ⟨2, ![64, 64]⟩] ⟨2, ![64, 128]⟩ 1) (k : Fin 64) (j : Fin 128) :
    concatenate (⟨2, ![64, 128]⟩ : Shape) 1 [⟨⟨2, ![64, 64]⟩, x0⟩, ⟨⟨2, ![64, 64]⟩, x1⟩] h (ix2 k j)
      = if h0 : j.val < 64 then x0 (ix2 k ⟨j.val, h0⟩) else x1 (ix2 k ⟨j.val - 64, by omega⟩) := by
  split
  · next h0 =>
    exact concatenate_apply_piece 1 [⟨⟨2, ![64, 64]⟩, x0⟩, ⟨⟨2, ![64, 64]⟩, x1⟩] h (ix2 k j) 0 (by simp) _ x0 rfl rfl 0 rfl (ix2 k ⟨j.val, h0⟩)
      (fun b => match b with | ⟨0, _⟩ => fun _ => rfl | ⟨1, _⟩ => fun hb => absurd rfl hb) (Nat.zero_add _)
  · next h0 =>
    exact concatenate_apply_piece 1 [⟨⟨2, ![64, 64]⟩, x0⟩, ⟨⟨2, ![64, 64]⟩, x1⟩] h (ix2 k j) 1 (by simp) _ x1 rfl rfl 64 rfl (ix2 k ⟨j.val - 64, by omega⟩)
      (fun b => match b with | ⟨0, _⟩ => fun _ => rfl | ⟨1, _⟩ => fun hb => absurd rfl hb)
      (by show 64 + (j.val - 64) = j.val; omega)

/-- Two vectors of 64 entries end to end. -/
theorem cat2_vec_apply (x0 x1 : (⟨1, ![64]⟩ : Shape).Idx → α)
    (h : Shape.Concatenates [(⟨1, ![64]⟩ : Shape), ⟨1, ![64]⟩] ⟨1, ![128]⟩ 0) (j : Fin 128) :
    concatenate (⟨1, ![128]⟩ : Shape) 0 [⟨⟨1, ![64]⟩, x0⟩, ⟨⟨1, ![64]⟩, x1⟩] h (ix1 j)
      = if h0 : j.val < 64 then x0 (ix1 ⟨j.val, h0⟩) else x1 (ix1 ⟨j.val - 64, by omega⟩) := by
  split
  · next h0 =>
    exact concatenate_apply_piece 0 [⟨⟨1, ![64]⟩, x0⟩, ⟨⟨1, ![64]⟩, x1⟩] h (ix1 j) 0 (by simp) _ x0 rfl rfl 0 rfl (ix1 ⟨j.val, h0⟩)
      (fun b => match b with | ⟨0, _⟩ => fun hb => absurd rfl hb) (Nat.zero_add _)
  · next h0 =>
    exact concatenate_apply_piece 0 [⟨⟨1, ![64]⟩, x0⟩, ⟨⟨1, ![64]⟩, x1⟩] h (ix1 j) 1 (by simp) _ x1 rfl rfl 64 rfl (ix1 ⟨j.val - 64, by omega⟩)
      (fun b => match b with | ⟨0, _⟩ => fun hb => absurd rfl hb)
      (by show 64 + (j.val - 64) = j.val; omega)

/-- Padding by nothing changes nothing (a matrix). -/
theorem pad_none2_apply {a b : Nat} (x : (⟨2, ![a, b]⟩ : Shape).Idx → α) {u : Shape} (v : u.Idx → α)
    (h : (⟨2, ![a, b]⟩ : Shape).Pads (![0, 0] : Fin 2 → Nat) ![0, 0] ![0, 0] ⟨2, ![a, b]⟩) (hu : 0 < u.numel)
    (k : Fin a) (j : Fin b) :
    pad (⟨2, ![a, b]⟩ : Shape) (![0, 0] : Fin 2 → Nat) ![0, 0] ![0, 0] x v h hu (ix2 k j) = x (ix2 k j) :=
  pad_apply_of_inside _ _ _ x v h hu _ (ix2 k j) (fun ax => match ax with
    | ⟨0, _⟩ => by show k.val = 0 + k.val * (0 + 1); omega
    | ⟨1, _⟩ => by show j.val = 0 + j.val * (0 + 1); omega)

/-- Padding by nothing changes nothing (a vector). -/
theorem pad_none1_apply {a : Nat} (x : (⟨1, ![a]⟩ : Shape).Idx → α) {u : Shape} (v : u.Idx → α)
    (h : (⟨1, ![a]⟩ : Shape).Pads (![0] : Fin 1 → Nat) ![0] ![0] ⟨1, ![a]⟩) (hu : 0 < u.numel) (j : Fin a) :
    pad (⟨1, ![a]⟩ : Shape) (![0] : Fin 1 → Nat) ![0] ![0] x v h hu (ix1 j) = x (ix1 j) :=
  pad_apply_of_inside _ _ _ x v h hu _ (ix1 j) (fun ax => match ax with
    | ⟨0, _⟩ => by show j.val = 0 + j.val * (0 + 1); omega)

/-! ## The composed operands, read at an index -/

/-- THE SECOND LAYER'S WEIGHT: three 64×64 matrices on the diagonal blocks of a 192×192 matrix whose other blocks are
    zero, padded with zeros to 256×256. Entry (k, j) is the matrix of block b at (k − 64 b, j − 64 b) when both k and j
    lie in [64 b, 64 b + 64) for one b < 3, and zero otherwise. -/
theorem diag3_pad_apply (a0 a1 a2 zz : (⟨2, ![64, 64]⟩ : Shape).Idx → EReal) (hzz : ∀ i, zz i = 0)
    {u : Shape} (z : u.Idx → EReal) (hu : 0 < u.numel) (hz : z (Shape.Idx.first hu) = 0)
    (hc1 : Shape.Concatenates [(⟨2, ![64, 64]⟩ : Shape), ⟨2, ![64, 64]⟩, ⟨2, ![64, 64]⟩] ⟨2, ![64, 192]⟩ 1)
    (hc0 : Shape.Concatenates [(⟨2, ![64, 192]⟩ : Shape), ⟨2, ![64, 192]⟩, ⟨2, ![64, 192]⟩] ⟨2, ![192, 192]⟩ 0)
    (hp : (⟨2, ![192, 192]⟩ : Shape).Pads (![0, 0] : Fin 2 → Nat) ![64, 64] ![0, 0] ⟨2, ![256, 256]⟩)
    (k j : Fin 256) :
    pad (⟨2, ![256, 256]⟩ : Shape) (![0, 0] : Fin 2 → Nat) ![64, 64] ![0, 0]
        (concatenate (⟨2, ![192, 192]⟩ : Shape) 0
          [⟨⟨2, ![64, 192]⟩, concatenate (⟨2, ![64, 192]⟩ : Shape) 1 [⟨⟨2, ![64, 64]⟩, a0⟩, ⟨⟨2, ![64, 64]⟩, zz⟩, ⟨⟨2, ![64, 64]⟩, zz⟩] hc1⟩,
           ⟨⟨2, ![64, 192]⟩, concatenate (⟨2, ![64, 192]⟩ : Shape) 1 [⟨⟨2, ![64, 64]⟩, zz⟩, ⟨⟨2, ![64, 64]⟩, a1⟩, ⟨⟨2, ![64, 64]⟩, zz⟩] hc1⟩,
           ⟨⟨2, ![64, 192]⟩, concatenate (⟨2, ![64, 192]⟩ : Shape) 1 [⟨⟨2, ![64, 64]⟩, zz⟩, ⟨⟨2, ![64, 64]⟩, zz⟩, ⟨⟨2, ![64, 64]⟩, a2⟩] hc1⟩] hc0)
        z hp hu (ix2 k j)
      = if h : k.val < 64 ∧ j.val < 64 then a0 (ix2 ⟨k.val, h.1⟩ ⟨j.val, h.2⟩)
        else if h : 64 ≤ k.val ∧ k.val < 128 ∧ 64 ≤ j.val ∧ j.val < 128 then a1 (ix2 ⟨k.val - 64, by omega⟩ ⟨j.val - 64, by omega⟩)
        else if h : 128 ≤ k.val ∧ k.val < 192 ∧ 128 ≤ j.val ∧ j.val < 192 then a2 (ix2 ⟨k.val - 128, by omega⟩ ⟨j.val - 128, by omega⟩)
        else 0 := by
  rw [pad_192_256_apply]
  by_cases hin : k.val < 192 ∧ j.val < 192
  · rw [dif_pos hin, cat3_rows_apply]
    simp only [cat3_cols_apply, hzz]
    split_ifs <;> first | rfl | (exfalso; omega)
  · rw [dif_neg hin, hz]
    split_ifs <;> first | rfl | (exfalso; omega)

/-- THE SECOND LAYER'S BIAS: three vectors of 64 entries end to end, padded with zeros to 256 entries, as one row. -/
theorem bias3_pad_apply (a0 a1 a2 : (⟨1, ![64]⟩ : Shape).Idx → EReal)
    {u : Shape} (z : u.Idx → EReal) (hu : 0 < u.numel) (hz : z (Shape.Idx.first hu) = 0)
    (hc : Shape.Concatenates [(⟨1, ![64]⟩ : Shape), ⟨1, ![64]⟩, ⟨1, ![64]⟩] ⟨1, ![192]⟩ 0)
    (hp : (⟨1, ![192]⟩ : Shape).Pads (![0] : Fin 1 → Nat) ![64] ![0] ⟨1, ![256]⟩)
    (hs : (⟨1, ![256]⟩ : Shape).ShapeCasts ⟨2, ![1, 256]⟩) (j : Fin 256) :
    shapeCast (⟨2, ![1, 256]⟩ : Shape)
        (pad (⟨1, ![256]⟩ : Shape) (![0] : Fin 1 → Nat) ![64] ![0]
          (concatenate (⟨1, ![192]⟩ : Shape) 0 [⟨⟨1, ![64]⟩, a0⟩, ⟨⟨1, ![64]⟩, a1⟩, ⟨⟨1, ![64]⟩, a2⟩] hc) z hp hu) hs (ix2 0 j)
      = if h : j.val < 64 then a0 (ix1 ⟨j.val, h⟩)
        else if h : j.val < 128 then a1 (ix1 ⟨j.val - 64, by omega⟩)
        else if h : j.val < 192 then a2 (ix1 ⟨j.val - 128, by omega⟩)
        else 0 := by
  rw [shapeCast_a_1a_apply, pad_vec_192_256_apply]
  by_cases hin : j.val < 192
  · rw [dif_pos hin, cat3_vec_apply]
    split_ifs <;> first | rfl | (exfalso; omega)
  · rw [dif_neg hin, hz]
    split_ifs <;> first | rfl | (exfalso; omega)

/-- THE DECODERS' WEIGHT: the two 64×64 matrices side by side (padded by nothing). -/
theorem dec2_apply (a0 a1 : (⟨2, ![64, 64]⟩ : Shape).Idx → EReal) {u : Shape} (z : u.Idx → EReal) (hu : 0 < u.numel)
    (hc : Shape.Concatenates [(⟨2, ![64, 64]⟩ : Shape), ⟨2, ![64, 64]⟩] ⟨2, ![64, 128]⟩ 1)
    (hp : (⟨2, ![64, 128]⟩ : Shape).Pads (![0, 0] : Fin 2 → Nat) ![0, 0] ![0, 0] ⟨2, ![64, 128]⟩)
    (k : Fin 64) (j : Fin 128) :
    pad (⟨2, ![64, 128]⟩ : Shape) (![0, 0] : Fin 2 → Nat) ![0, 0] ![0, 0]
        (concatenate (⟨2, ![64, 128]⟩ : Shape) 1 [⟨⟨2, ![64, 64]⟩, a0⟩, ⟨⟨2, ![64, 64]⟩, a1⟩] hc) z hp hu (ix2 k j)
      = if h : j.val < 64 then a0 (ix2 k ⟨j.val, h⟩) else a1 (ix2 k ⟨j.val - 64, by omega⟩) := by
  rw [pad_none2_apply, cat2_cols_apply]

/-- THE DECODERS' BIAS: the two vectors of 64 entries end to end (padded by nothing), as one row. -/
theorem decb2_apply (a0 a1 : (⟨1, ![64]⟩ : Shape).Idx → EReal) {u : Shape} (z : u.Idx → EReal) (hu : 0 < u.numel)
    (hc : Shape.Concatenates [(⟨1, ![64]⟩ : Shape), ⟨1, ![64]⟩] ⟨1, ![128]⟩ 0)
    (hp : (⟨1, ![128]⟩ : Shape).Pads (![0] : Fin 1 → Nat) ![0] ![0] ⟨1, ![128]⟩)
    (hs : (⟨1, ![128]⟩ : Shape).ShapeCasts ⟨2, ![1, 128]⟩) (j : Fin 128) :
    shapeCast (⟨2, ![1, 128]⟩ : Shape)
        (pad (⟨1, ![128]⟩ : Shape) (![0] : Fin 1 → Nat) ![0] ![0]
          (concatenate (⟨1, ![128]⟩ : Shape) 0 [⟨⟨1, ![64]⟩, a0⟩, ⟨⟨1, ![64]⟩, a1⟩] hc) z hp hu) hs (ix2 0 j)
      = if h : j.val < 64 then a0 (ix1 ⟨j.val, h⟩) else a1 (ix1 ⟨j.val - 64, by omega⟩) := by
  rw [shapeCast_a_1a_apply, pad_none1_apply, cat2_vec_apply]

/-- the integer zero read as a float, and the float zero word: both the extended real 0 -/
theorem sitofp_zero (i : (⟨0, ![]⟩ : Shape).Idx) :
    (sitofp (F := Ideal) .f32 (constantI (⟨0, ![]⟩ : Shape) 32 0#32) : FVec Ideal ⟨0, ![]⟩ .f32) i = 0 := by
  show (((0#32 : BitVec 32).toInt : ℝ) : EReal) = 0
  simp

theorem splat_zero {t : Shape} (h : (⟨0, ![]⟩ : Shape).BroadcastsInDim t (![] : Fin 0 → Fin t.rank)) (i : t.Idx) :
    broadcastInDim t (![] : Fin 0 → Fin t.rank) h (constant (F := Ideal) (⟨0, ![]⟩ : Shape) .f32 0x00000000#32) i = 0 := by
  show Ideal.ofBits .f32 0x00000000#32 = 0
  exact Ideal.ofBits_zero_f32

/-! ## The operands as named functions of the argument arrays -/

/-- the float zero word, as a 64×64 block -/
def z64 : FVec Ideal S64x64 .f32 :=
  broadcastInDim S64x64 ![] bcast_S_S64x64 (constant (F := Ideal) S_ .f32 0x00000000#32)

/-- the padding value: the integer zero read as a float -/
def zpad : FVec Ideal S_ .f32 := sitofp (F := Ideal) .f32 (constantI S_ 32 0#32)

/-- the second layer's weight: block diagonal of three, padded to 256×256 -/
def w2K (a0 a1 a2 : FVec Ideal S64x64 .f32) : FVec Ideal S256x256 .bf16 :=
  truncf .bf16
    (pad S256x256 ![0, 0] ![64, 64] ![0, 0]
      (concatenate S192x192 0
        [⟨S64x192, concatenate S64x192 1 [⟨S64x64, a0⟩, ⟨S64x64, z64⟩, ⟨S64x64, z64⟩] concatenates_S64x64_S64x64_S64x64_S64x192_d1⟩,
         ⟨S64x192, concatenate S64x192 1 [⟨S64x64, z64⟩, ⟨S64x64, a1⟩, ⟨S64x64, z64⟩] concatenates_S64x64_S64x64_S64x64_S64x192_d1⟩,
         ⟨S64x192, concatenate S64x192 1 [⟨S64x64, z64⟩, ⟨S64x64, z64⟩, ⟨S64x64, a2⟩] concatenates_S64x64_S64x64_S64x64_S64x192_d1⟩]
        concatenates_S64x192_S64x192_S64x192_S192x192_d0)
      zpad pads_S192x192_S256x256_0640_0640 h_S_)
    bitsLt_bf16_f32

/-- the second layer's bias: three vectors end to end, padded to 256, as one row -/
def b2K (a0 a1 a2 : FVec Ideal S64 .f32) : FVec Ideal S1x256 .f32 :=
  shapeCast S1x256
    (pad S256 ![0] ![64] ![0] (concatenate S192 0 [⟨S64, a0⟩, ⟨S64, a1⟩, ⟨S64, a2⟩] concatenates_S64_S64_S64_S192_d0)
      zpad pads_S192_S256_0640 h_S_)
    shapeCasts_S256_S1x256

/-- the decoders' weight: two matrices side by side -/
def w3K (a0 a1 : FVec Ideal S64x64 .f32) : FVec Ideal S64x128 .bf16 :=
  truncf .bf16
    (pad S64x128 ![0, 0] ![0, 0] ![0, 0] (concatenate S64x128 1 [⟨S64x64, a0⟩, ⟨S64x64, a1⟩] concatenates_S64x64_S64x64_S64x128_d1)
      zpad pads_S64x128_S64x128_000_000 h_S_)
    bitsLt_bf16_f32

/-- the decoders' bias: two vectors end to end, as one row -/
def b3K (a0 a1 : FVec Ideal S64 .f32) : FVec Ideal S1x128 .f32 :=
  shapeCast S1x128
    (pad S128 ![0] ![0] ![0] (concatenate S128 0 [⟨S64, a0⟩, ⟨S64, a1⟩] concatenates_S64_S64_S128_d0) zpad pads_S128_S128_000 h_S_)
    shapeCasts_S128_S1x128

theorem w2K_apply (a0 a1 a2 : FVec Ideal S64x64 .f32) (k j : Fin 256) :
    w2K a0 a1 a2 (ix2 k j)
      = if h : k.val < 64 ∧ j.val < 64 then a0 (ix2 ⟨k.val, h.1⟩ ⟨j.val, h.2⟩)
        else if h : 64 ≤ k.val ∧ k.val < 128 ∧ 64 ≤ j.val ∧ j.val < 128 then a1 (ix2 ⟨k.val - 64, by omega⟩ ⟨j.val - 64, by omega⟩)
        else if h : 128 ≤ k.val ∧ k.val < 192 ∧ 128 ≤ j.val ∧ j.val < 192 then a2 (ix2 ⟨k.val - 128, by omega⟩ ⟨j.val - 128, by omega⟩)
        else 0 :=
  diag3_pad_apply a0 a1 a2 z64 (splat_zero _) zpad h_S_ (sitofp_zero _) concatenates_S64x64_S64x64_S64x64_S64x192_d1
    concatenates_S64x192_S64x192_S64x192_S192x192_d0 pads_S192x192_S256x256_0640_0640 k j

theorem b2K_apply (a0 a1 a2 : FVec Ideal S64 .f32) (j : Fin 256) :
    b2K a0 a1 a2 (ix2 0 j)
      = if h : j.val < 64 then a0 (ix1 ⟨j.val, h⟩)
        else if h : j.val < 128 then a1 (ix1 ⟨j.val - 64, by omega⟩)
        else if h : j.val < 192 then a2 (ix1 ⟨j.val - 128, by omega⟩)
        else 0 :=
  bias3_pad_apply a0 a1 a2 zpad h_S_ (sitofp_zero _) concatenates_S64_S64_S64_S192_d0 pads_S192_S256_0640 shapeCasts_S256_S1x256 j

theorem w3K_apply (a0 a1 : FVec Ideal S64x64 .f32) (k : Fin 64) (j : Fin 128) :
    w3K a0 a1 (ix2 k j) = if h : j.val < 64 then a0 (ix2 k ⟨j.val, h⟩) else a1 (ix2 k ⟨j.val - 64, by omega⟩) :=
  dec2_apply a0 a1 zpad h_S_ concatenates_S64x64_S64x64_S64x128_d1 pads_S64x128_S64x128_000_000 k j

theorem b3K_apply (a0 a1 : FVec Ideal S64 .f32) (j : Fin 128) :
    b3K a0 a1 (ix2 0 j) = if h : j.val < 64 then a0 (ix1 ⟨j.val, h⟩) else a1 (ix1 ⟨j.val - 64, by omega⟩) :=
  decb2_apply a0 a1 zpad h_S_ concatenates_S64_S64_S128_d0 pads_S128_S128_000 shapeCasts_S128_S1x128 j

/-- a change of float format is the identity on extended reals -/
theorem truncf_eq {s : Shape} (x : FVec Ideal s .f32) (h : FTy.bits .bf16 < FTy.bits .f32) :
    (truncf .bf16 x h : s.Idx → EReal) = x := rfl

/-! ## What no stretch writes and no region changes -/

variable (m : (ℓ : Loc nD τ sig) → Buf (Elt Ideal) ℓ) (outs : Gen.Outs (F := Ideal))

/-- an array that the first five stretches do not write and the first region does not change holds its launch contents
    when the second region's host operations begin -/
theorem V6_keep (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ ([main_v53] : List (Ref sig .tc))) :
    V6 m outs c r = m ((c : Thread nD τ).loc r) :=
  (V6_of m outs c r h5).trans <| (V5_of m c r h4).trans <| (V4_of m c r h3).trans <| (V3_of m c r h2).trans <|
    (V2_of m c r h1).trans <| (V1_of m c r h0).trans rfl

/-- the same when the third region's host operations begin -/
theorem V12_keep (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ ([main_v53] : List (Ref sig .tc)))
    (h6 : r ∉ hostOps1_W) (h7 : r ∉ hostOps1_1_W) (h8 : r ∉ hostOps1_2_W) (h9 : r ∉ hostOps1_3_W) (h10 : r ∉ hostOps1_4_W)
    (h11 : r ∉ ([main_v65] : List (Ref sig .tc))) :
    V12 m outs c r = m ((c : Thread nD τ).loc r) :=
  (V12_of m outs c r h11).trans <| (V11_of m outs c r h10).trans <| (V10_of m outs c r h9).trans <|
    (V9_of m outs c r h8).trans <| (V8_of m outs c r h7).trans <| (V7_of m outs c r h6).trans <|
    V6_keep m outs c r h0 h1 h2 h3 h4 h5

end Host1

/-- one pass over a line of host operations: each operation's result at its own buffer is its function's value, at any
    other buffer what was there; a transport there and back is dropped -/
local macro "host_results" : tactic =>
  `(tactic| (simp (disch := decide) only [StableHlo.after_cons, StableHlo.after_nil,
      StableHlo.nullary_result', StableHlo.unary_result', StableHlo.binary_result', StableHlo.reshape_result',
      StableHlo.nary3_result',
      StableHlo.nullary_result_ne', StableHlo.unary_result_ne', StableHlo.binary_result_ne', StableHlo.reshape_result_ne',
      StableHlo.nary_result_ne', StableHlo.cast_pair]))

/-- a function of a family of three arrays, applied to the three given one by one -/
def ap3 {x a b : Ref sig .tc} {β : Type}
    (f : ((k : Fin 3) → ((![x, a, b] : Fin 3 → Ref sig .tc) k).ty.Contents (Elt Ideal)) → β)
    (p : (Proc.devRef (τ := τ) .tc x).ty.Contents (Elt Ideal)) (q : (Proc.devRef (τ := τ) .tc a).ty.Contents (Elt Ideal))
    (r : (Proc.devRef (τ := τ) .tc b).ty.Contents (Elt Ideal)) : β :=
  f (Fin.cons p (Fin.cons q (Fin.cons r (fun i => i.elim0))))

/-- a function of two arrays, applied -/
def ap2 {α₁ α₂ β : Type} (f : α₁ → α₂ → β) (p : α₁) (q : α₂) : β := f p q

/-- a three-operand operation's result at its own buffer: its function of the three operands' contents -/
theorem nary3_ap3 {x a b y : Ref sig .tc}
    (f : ((k : Fin 3) → ((![x, a, b] : Fin 3 → Ref sig .tc) k).ty.Contents (Elt Ideal)) → y.ty.Contents (Elt Ideal)) (hxs hy)
    (V : Valuation τ sig (Elt Ideal)) :
    (StableHlo.nary (τ := τ) ![x, a, b] y f hxs hy).result V (no_index (Proc.devRef .tc y))
      = ap3 f (V (Proc.devRef .tc x)) (V (Proc.devRef .tc a)) (V (Proc.devRef .tc b)) :=
  StableHlo.nary3_result' f hxs hy V

/-- a two-operand operation's result at its own buffer: its function of the two operands' contents -/
theorem binary_ap2 {a b y : Ref sig .tc}
    (f : a.ty.Contents (Elt Ideal) → b.ty.Contents (Elt Ideal) → y.ty.Contents (Elt Ideal)) (ha hb hy)
    (V : Valuation τ sig (Elt Ideal)) :
    (StableHlo.binary (τ := τ) a b y f ha hb hy).result V (no_index (Proc.devRef .tc y))
      = ap2 f (V (Proc.devRef .tc a)) (V (Proc.devRef .tc b)) :=
  StableHlo.binary_result' f ha hb hy V

/-- one pass over a line of host operations, the operands of two- and three-operand operations kept as arguments -/
local macro "host_reads" : tactic =>
  `(tactic| (simp (disch := decide) only [StableHlo.after_cons, StableHlo.after_nil,
      StableHlo.nullary_result', StableHlo.unary_result', binary_ap2, StableHlo.reshape_result', nary3_ap3,
      StableHlo.nullary_result_ne', StableHlo.unary_result_ne', StableHlo.binary_result_ne', StableHlo.reshape_result_ne',
      StableHlo.nary_result_ne']))

variable (m : (ℓ : Loc nD τ sig) → Buf (Elt Ideal) ℓ) (outs : Gen.Outs (F := Ideal))

/-! ## The named functions of the third region's entry -/

/-- the first 192 columns of a [8192,256] array -/
def h2K (p : FVec Ideal S8192x256 .f32) : FVec Ideal S8192x192 .f32 :=
  extractStridedSlice S8192x192 ![0, 0] p slices_S8192x256_S8192x192_0_0

/-- columns 0 … 63 of a [8192,192] array: the first branch's features -/
def hAK (q : FVec Ideal S8192x192 .f32) : FVec Ideal S8192x64 .f32 :=
  extractStridedSlice S8192x64 ![0, 0] q slices_S8192x192_S8192x64_0_0

/-- columns 64 … 127: the second branch's features -/
def hSK (q : FVec Ideal S8192x192 .f32) : FVec Ideal S8192x64 .f32 :=
  extractStridedSlice S8192x64 ![0, 64] q slices_S8192x192_S8192x64_0_64

/-- columns 128 … 191: the third branch's features -/
def hTK (q : FVec Ideal S8192x192 .f32) : FVec Ideal S8192x64 .f32 :=
  extractStridedSlice S8192x64 ![0, 128] q slices_S8192x192_S8192x64_0_128

/-- the attention's logits: the features times the attention matrix, plus its bias along the rows, regrouped [8192,64,3] -/
def attLogits (c192 : FVec Ideal S8192x192 .f32) (attW : FVec Ideal S192x192 .f32)
    (attb : FVec Ideal S192 .f32) : FVec Ideal S8192x64x3 .f32 :=
  shapeCast S8192x64x3
    (addf (Host.dotGeneral (F := Ideal) (φ₁ := .f32) (φ₂ := .f32) dot_S8192x192_S192x192_S8192x192_1_0_0_1_n_n none c192 attW)
      (broadcastInDim S8192x192 ![0, 1] bcast_S1x192_S8192x192_0_1 (broadcastInDim S1x192 ![1] bcast_S192_S1x192_1 attb)))
    shapeCasts_S8192x192_S8192x64x3

/-- the exponentials of the logits less their maximum over the last axis -/
def expShift (lg : FVec Ideal S8192x64x3 .f32) : FVec Ideal S8192x64x3 .f32 :=
  Host.exp (F := Ideal)
    (subf lg
      (broadcastInDim S8192x64x3 ![0, 1, 2] bcast_S8192x64x1_S8192x64x3_0_1_2
        (broadcastInDim S8192x64x1 ![0, 1] bcast_S8192x64_S8192x64x1_0_1
          (maximumf (broadcastInDim S8192x64 ![] bcast_S_S8192x64 (constant (F := Ideal) S_ .f32 0xFF800000#32))
            (Host.reduce (FloatOps.maximumf (F := Ideal) (φ := .f32)) lg (constant (F := Ideal) S_ .f32 0xFF800000#32)
              reducesTo_S8192x64x3_S8192x64_d2 h_S_)))))

/-- the softmax over the last axis: the shifted exponentials divided by their sum -/
def softmax3 (lg : FVec Ideal S8192x64x3 .f32) : FVec Ideal S8192x64x3 .f32 :=
  Host.divf (F := Ideal) (expShift lg)
    (broadcastInDim S8192x64x3 ![0, 1, 2] bcast_S8192x64x1_S8192x64x3_0_1_2
      (broadcastInDim S8192x64x1 ![0, 1] bcast_S8192x64_S8192x64x1_0_1
        (Host.reduceAdd (F := Ideal) (expShift lg) (constant (F := Ideal) S_ .f32 0x00000000#32)
          reducesTo_S8192x64x3_S8192x64_d2 h_S_)))

/-- THE ATTENTION over the three branches, as one function of the [8192,192] feature matrix: a softmax over the last
    axis of the logits. -/
def attK (c192 : FVec Ideal S8192x192 .f32) (attW : FVec Ideal S192x192 .f32)
    (attb : FVec Ideal S192 .f32) : FVec Ideal S8192x64x3 .f32 :=
  softmax3 (attLogits c192 attW attb)

/-- the first branch's slice of the attention (last coordinate 0), as a [8192,64] array -/
def attSlice0 (att : FVec Ideal S8192x64x3 .f32) : FVec Ideal S8192x64 .f32 :=
  shapeCast S8192x64 (extractStridedSlice S8192x64x1 ![0, 0, 0] att slices_S8192x64x3_S8192x64x1_0_0_0) shapeCasts_S8192x64x1_S8192x64
/-- the second branch's slice (last coordinate 1) -/
def attSlice1 (att : FVec Ideal S8192x64x3 .f32) : FVec Ideal S8192x64 .f32 :=
  shapeCast S8192x64 (extractStridedSlice S8192x64x1 ![0, 0, 1] att slices_S8192x64x3_S8192x64x1_0_0_1) shapeCasts_S8192x64x1_S8192x64
/-- the third branch's slice (last coordinate 2) -/
def attSlice2 (att : FVec Ideal S8192x64x3 .f32) : FVec Ideal S8192x64 .f32 :=
  shapeCast S8192x64 (extractStridedSlice S8192x64x1 ![0, 0, 2] att slices_S8192x64x3_S8192x64x1_0_0_2) shapeCasts_S8192x64x1_S8192x64

/-- THE COMBINATION: the three branches' features, each weighted by its slice of the attention, added. -/
def combK (ha hs ht : FVec Ideal S8192x64 .f32) (att : FVec Ideal S8192x64x3 .f32) :
    FVec Ideal S8192x64 .f32 :=
  addf (addf (mulf ha (attSlice0 att)) (mulf hs (attSlice1 att))) (mulf ht (attSlice2 att))

theorem h2K_apply (p : FVec Ideal S8192x256 .f32) (v : Fin 8192) (j : Fin 192) :
    h2K p (ix2 v j) = p (ix2 v ⟨j.val, by omega⟩) :=
  slice2_axis1_apply 0 p _ v j ⟨j.val, by omega⟩ (Nat.zero_add _).symm

theorem hAK_apply (q : FVec Ideal S8192x192 .f32) (v : Fin 8192) (j : Fin 64) :
    hAK q (ix2 v j) = q (ix2 v ⟨j.val, by omega⟩) :=
  slice2_axis1_apply 0 q _ v j ⟨j.val, by omega⟩ (Nat.zero_add _).symm

theorem hSK_apply (q : FVec Ideal S8192x192 .f32) (v : Fin 8192) (j : Fin 64) :
    hSK q (ix2 v j) = q (ix2 v ⟨j.val + 64, by omega⟩) :=
  slice2_axis1_apply 64 q _ v j ⟨j.val + 64, by omega⟩ (Nat.add_comm _ _)

theorem hTK_apply (q : FVec Ideal S8192x192 .f32) (v : Fin 8192) (j : Fin 64) :
    hTK q (ix2 v j) = q (ix2 v ⟨j.val + 128, by omega⟩) :=
  slice2_axis1_apply 128 q _ v j ⟨j.val + 128, by omega⟩ (Nat.add_comm _ _)

/-! ## What no later stretch overwrites: the adjacency -/

theorem V11_v45 (c : Dev nD) : Gen.V11 m outs c main_v45 = Gen.V5 m c main_v45 :=
  (V11_of m outs c main_v45 (by decide)).trans <| (V10_of m outs c main_v45 (by decide)).trans <|
    (V9_of m outs c main_v45 (by decide)).trans <| (V8_of m outs c main_v45 (by decide)).trans <|
    (V7_of m outs c main_v45 (by decide)).trans <| V6_of m outs c main_v45 (by decide)

theorem V17_v45 (c : Dev nD) : Gen.V17 m outs c main_v45 = Gen.V5 m c main_v45 :=
  (V17_of m outs c main_v45 (by decide)).trans <| (V16_of m outs c main_v45 (by decide)).trans <|
    (V15_of m outs c main_v45 (by decide)).trans <| (V14_of m outs c main_v45 (by decide)).trans <|
    (V13_of m outs c main_v45 (by decide)).trans <| (V12_of m outs c main_v45 (by decide)).trans <| V11_v45 m outs c

/-! ## The second region's operands -/

open Host1 in
/-- the features: the first region's output, its float format changed (the identity on extended reals) -/
theorem V11_v62 (c : Dev nD) :
    (Gen.V11 m outs c main_v62 : S8192x256.Idx → EReal) = (outs 6 main_v53 c : S8192x256.Idx → EReal) := by
  have k : Gen.V10 m outs c main_v53 = outs 6 main_v53 c :=
    (V10_of m outs c main_v53 (by decide)).trans <| (V9_of m outs c main_v53 (by decide)).trans <|
      (V8_of m outs c main_v53 (by decide)).trans <| (V7_of m outs c main_v53 (by decide)).trans <|
      Function.update_self _ _ _
  have e : (Gen.V11 m outs c main_v62 : S8192x256.Idx → EReal)
      = truncf (F := Ideal) .bf16 (Gen.V10 m outs c main_v53 : FVec Ideal S8192x256 .f32) bitsLt_bf16_f32 := by
    dsimp only [Gen.V11, Gen.hostOps1_4]
    host_results
  rw [e, k, truncf_eq]

open Host1 in
/-- the weight, as the named function of the three second-layer matrices -/
theorem V11_v63_eq (c : Dev nD) :
    (Gen.V11 m outs c main_v63 : S256x256.Idx → EReal)
      = w2K (m ((c : Thread nD τ).loc main_arg5)) (m ((c : Thread nD τ).loc main_arg9)) (m ((c : Thread nD τ).loc main_arg13)) := by
  have e : (Gen.V11 m outs c main_v63 : S256x256.Idx → EReal)
      = w2K (Gen.V6 m outs c main_arg5) (Gen.V6 m outs c main_arg9) (Gen.V6 m outs c main_arg13) := by
    dsimp only [Gen.V11, Gen.V10, Gen.V9, Gen.V8, Gen.V7, Gen.hostOps1_4, Gen.hostOps1_3, Gen.hostOps1_2, Gen.hostOps1_1, Gen.hostOps1]
    host_reads
    dsimp only [ap2, ap3]
    dsimp only [StableHlo.TRef.toBuf, StableHlo.TRef.ofBuf]
    simp only [StableHlo.cast_pair]
    generalize Gen.V6 m outs c main_arg5 = A0
    generalize Gen.V6 m outs c main_arg9 = A1
    generalize Gen.V6 m outs c main_arg13 = A2
    erw [cast_eq, cast_eq, cast_eq]
    rfl
  rw [e, V6_keep m outs c main_arg5 (by decide) (by decide) (by decide) (by decide) (by decide) (by decide),
    V6_keep m outs c main_arg9 (by decide) (by decide) (by decide) (by decide) (by decide) (by decide),
    V6_keep m outs c main_arg13 (by decide) (by decide) (by decide) (by decide) (by decide) (by decide)]

theorem V11_v63 (c : Dev nD) (k j : Fin 256) :
    (Gen.V11 m outs c main_v63 : S256x256.Idx → EReal) (ix2 k j) =
      (if h : k.val < 64 ∧ j.val < 64 then
        (m ((c : Thread nD τ).loc main_arg5) : S64x64.Idx → EReal) (ix2 ⟨k.val, h.1⟩ ⟨j.val, h.2⟩)
      else if h : 64 ≤ k.val ∧ k.val < 128 ∧ 64 ≤ j.val ∧ j.val < 128 then
        (m ((c : Thread nD τ).loc main_arg9) : S64x64.Idx → EReal) (ix2 ⟨k.val - 64, by omega⟩ ⟨j.val - 64, by omega⟩)
      else if h : 128 ≤ k.val ∧ k.val < 192 ∧ 128 ≤ j.val ∧ j.val < 192 then
        (m ((c : Thread nD τ).loc main_arg13) : S64x64.Idx → EReal) (ix2 ⟨k.val - 128, by omega⟩ ⟨j.val - 128, by omega⟩)
      else 0 : EReal) :=
  (congrFun (V11_v63_eq m outs c) (ix2 k j)).trans (Host1.w2K_apply _ _ _ k j)

open Host1 in
/-- the bias, as the named function of the three second-layer bias vectors -/
theorem V11_v64_eq (c : Dev nD) :
    (Gen.V11 m outs c main_v64 : S1x256.Idx → EReal)
      = b2K (m ((c : Thread nD τ).loc main_arg6)) (m ((c : Thread nD τ).loc main_arg10)) (m ((c : Thread nD τ).loc main_arg14)) := by
  have e : (Gen.V11 m outs c main_v64 : S1x256.Idx → EReal)
      = b2K (Gen.V6 m outs c main_arg6) (Gen.V6 m outs c main_arg10) (Gen.V6 m outs c main_arg14) := by
    dsimp only [Gen.V11, Gen.V10, Gen.V9, Gen.V8, Gen.V7, Gen.hostOps1_4, Gen.hostOps1_3, Gen.hostOps1_2, Gen.hostOps1_1, Gen.hostOps1]
    host_reads
    dsimp only [ap2, ap3]
    dsimp only [StableHlo.TRef.toBuf, StableHlo.TRef.ofBuf]
    simp only [StableHlo.cast_pair]
    generalize Gen.V6 m outs c main_arg6 = A0
    generalize Gen.V6 m outs c main_arg10 = A1
    generalize Gen.V6 m outs c main_arg14 = A2
    erw [cast_eq, cast_eq, cast_eq]
    rfl
  rw [e, V6_keep m outs c main_arg6 (by decide) (by decide) (by decide) (by decide) (by decide) (by decide),
    V6_keep m outs c main_arg10 (by decide) (by decide) (by decide) (by decide) (by decide) (by decide),
    V6_keep m outs c main_arg14 (by decide) (by decide) (by decide) (by decide) (by decide) (by decide)]

theorem V11_v64 (c : Dev nD) (j : Fin 256) :
    (Gen.V11 m outs c main_v64 : S1x256.Idx → EReal) (ix2 0 j) =
      (if h : j.val < 64 then (m ((c : Thread nD τ).loc main_arg6) : S64.Idx → EReal) (ix1 ⟨j.val, h⟩)
      else if h : j.val < 128 then (m ((c : Thread nD τ).loc main_arg10) : S64.Idx → EReal) (ix1 ⟨j.val - 64, by omega⟩)
      else if h : j.val < 192 then (m ((c : Thread nD τ).loc main_arg14) : S64.Idx → EReal) (ix1 ⟨j.val - 128, by omega⟩)
      else 0 : EReal) :=
  (congrFun (V11_v64_eq m outs c) (ix2 0 j)).trans (Host1.b2K_apply _ _ _ j)

/-! ## The third region's operands -/

open Host1 in
/-- the attention, when the 36 operations after the second region have run -/
theorem V13_v85 (c : Dev nD) :
    (Gen.V13 m outs c main_v85 : S8192x64x3.Idx → EReal)
      = attK (h2K (outs 12 main_v65 c)) (m ((c : Thread nD τ).loc main_arg15)) (m ((c : Thread nD τ).loc main_arg16)) := by
  have e : (Gen.V13 m outs c main_v85 : S8192x64x3.Idx → EReal)
      = attK (h2K (Gen.V12 m outs c main_v65)) (Gen.V12 m outs c main_arg15) (Gen.V12 m outs c main_arg16) := by
    dsimp only [Gen.V13, Gen.hostOps2]
    host_results
    rfl
  have k : Gen.V12 m outs c main_v65 = outs 12 main_v65 c := Function.update_self _ _ _
  rw [e, k,
    V12_keep m outs c main_arg15 (by decide) (by decide) (by decide) (by decide) (by decide) (by decide) (by decide) (by decide) (by decide) (by decide) (by decide) (by decide),
    V12_keep m outs c main_arg16 (by decide) (by decide) (by decide) (by decide) (by decide) (by decide) (by decide) (by decide) (by decide) (by decide) (by decide) (by decide)]

theorem V17_v85 (c : Dev nD) :
    (Gen.V17 m outs c main_v85 : S8192x64x3.Idx → EReal)
      = attK (h2K (outs 12 main_v65 c)) (m ((c : Thread nD τ).loc main_arg15)) (m ((c : Thread nD τ).loc main_arg16)) :=
  ((V17_of m outs c main_v85 (by decide)).trans <| (V16_of m outs c main_v85 (by decide)).trans <|
    (V15_of m outs c main_v85 (by decide)).trans <| V14_of m outs c main_v85 (by decide)).trans (V13_v85 m outs c)

theorem V20_v85 (c : Dev nD) :
    (Gen.V20 m outs c main_v85 : S8192x64x3.Idx → EReal)
      = attK (h2K (outs 12 main_v65 c)) (m ((c : Thread nD τ).loc main_arg15)) (m ((c : Thread nD τ).loc main_arg16)) :=
  ((V20_of m outs c main_v85 (by decide)).trans <| (V19_of m outs c main_v85 (by decide)).trans <|
    V18_of m outs c main_v85 (by decide)).trans (V17_v85 m outs c)

open Host1 in
/-- the combination, when the 36 operations after the second region have run -/
theorem V13_v96 (c : Dev nD) :
    (Gen.V13 m outs c main_v96 : S8192x64.Idx → EReal)
      = combK (hAK (h2K (outs 12 main_v65 c))) (hSK (h2K (outs 12 main_v65 c))) (hTK (h2K (outs 12 main_v65 c)))
          (attK (h2K (outs 12 main_v65 c)) (m ((c : Thread nD τ).loc main_arg15)) (m ((c : Thread nD τ).loc main_arg16))) := by
  have e : (Gen.V13 m outs c main_v96 : S8192x64.Idx → EReal)
      = combK (hAK (h2K (Gen.V12 m outs c main_v65))) (hSK (h2K (Gen.V12 m outs c main_v65))) (hTK (h2K (Gen.V12 m outs c main_v65)))
          (attK (h2K (Gen.V12 m outs c main_v65)) (Gen.V12 m outs c main_arg15) (Gen.V12 m outs c main_arg16)) := by
    dsimp only [Gen.V13, Gen.hostOps2]
    host_results
    rfl
  have k : Gen.V12 m outs c main_v65 = outs 12 main_v65 c := Function.update_self _ _ _
  rw [e, k,
    V12_keep m outs c main_arg15 (by decide) (by decide) (by decide) (by decide) (by decide) (by decide) (by decide) (by decide) (by decide) (by decide) (by decide) (by decide),
    V12_keep m outs c main_arg16 (by decide) (by decide) (by decide) (by decide) (by decide) (by decide) (by decide) (by decide) (by decide) (by decide) (by decide) (by decide)]

open Host1 in
/-- the third region's features: the combination, its float format changed (the identity on extended reals) -/
theorem V17_v101 (c : Dev nD) :
    (Gen.V17 m outs c main_v101 : S8192x64.Idx → EReal)
      = combK (hAK (h2K (outs 12 main_v65 c))) (hSK (h2K (outs 12 main_v65 c))) (hTK (h2K (outs 12 main_v65 c)))
          (attK (h2K (outs 12 main_v65 c)) (m ((c : Thread nD τ).loc main_arg15)) (m ((c : Thread nD τ).loc main_arg16))) := by
  have k : Gen.V16 m outs c main_v96 = Gen.V13 m outs c main_v96 :=
    (V16_of m outs c main_v96 (by decide)).trans <| (V15_of m outs c main_v96 (by decide)).trans <|
      V14_of m outs c main_v96 (by decide)
  have e : (Gen.V17 m outs c main_v101 : S8192x64.Idx → EReal)
      = truncf (F := Ideal) .bf16 (Gen.V16 m outs c main_v96 : FVec Ideal S8192x64 .f32) bitsLt_bf16_f32 := by
    dsimp only [Gen.V17, Gen.hostOps2_4]
    host_results
  rw [e, k, truncf_eq]
  exact V13_v96 m outs c

open Host1 in
/-- the decoders' weight, as the named function of the two decoder matrices -/
theorem V17_v102_eq (c : Dev nD) :
    (Gen.V17 m outs c main_v102 : S64x128.Idx → EReal)
      = w3K (m ((c : Thread nD τ).loc main_arg17)) (m ((c : Thread nD τ).loc main_arg19)) := by
  have e : (Gen.V17 m outs c main_v102 : S64x128.Idx → EReal)
      = w3K (Gen.V12 m outs c main_arg17) (Gen.V12 m outs c main_arg19) := by
    dsimp only [Gen.V17, Gen.V16, Gen.V15, Gen.V14, Gen.V13, Gen.hostOps2_4, Gen.hostOps2_3, Gen.hostOps2_2, Gen.hostOps2_1, Gen.hostOps2]
    host_reads
    dsimp only [ap2, ap3]
    dsimp only [StableHlo.TRef.toBuf, StableHlo.TRef.ofBuf]
    simp only [StableHlo.cast_pair]
    generalize Gen.V12 m outs c main_arg17 = A0
    generalize Gen.V12 m outs c main_arg19 = A1
    erw [cast_eq, cast_eq, cast_eq]
    rfl
  rw [e,
    V12_keep m outs c main_arg17 (by decide) (by decide) (by decide) (by decide) (by decide) (by decide) (by decide) (by decide) (by decide) (by decide) (by decide) (by decide),
    V12_keep m outs c main_arg19 (by decide) (by decide) (by decide) (by decide) (by decide) (by decide) (by decide) (by decide) (by decide) (by decide) (by decide) (by decide)]

theorem V17_v102 (c : Dev nD) (k : Fin 64) (j : Fin 128) :
    (Gen.V17 m outs c main_v102 : S64x128.Idx → EReal) (ix2 k j) =
      if h : j.val < 64 then (m ((c : Thread nD τ).loc main_arg17) : S64x64.Idx → EReal) (ix2 k ⟨j.val, h⟩)
      else (m ((c : Thread nD τ).loc main_arg19) : S64x64.Idx → EReal) (ix2 k ⟨j.val - 64, by omega⟩) :=
  (congrFun (V17_v102_eq m outs c) (ix2 k j)).trans (Host1.w3K_apply _ _ k j)

open Host1 in
/-- the decoders' bias, as the named function of the two decoder bias vectors -/
theorem V17_v103_eq (c : Dev nD) :
    (Gen.V17 m outs c main_v103 : S1x128.Idx → EReal)
      = b3K (m ((c : Thread nD τ).loc main_arg18)) (m ((c : Thread nD τ).loc main_arg20)) := by
  have e : (Gen.V17 m outs c main_v103 : S1x128.Idx → EReal)
      = b3K (Gen.V12 m outs c main_arg18) (Gen.V12 m outs c main_arg20) := by
    dsimp only [Gen.V17, Gen.V16, Gen.V15, Gen.V14, Gen.V13, Gen.hostOps2_4, Gen.hostOps2_3, Gen.hostOps2_2, Gen.hostOps2_1, Gen.hostOps2]
    host_reads
    dsimp only [ap2, ap3]
    dsimp only [StableHlo.TRef.toBuf, StableHlo.TRef.ofBuf]
    simp only [StableHlo.cast_pair]
    generalize Gen.V12 m outs c main_arg18 = A0
    generalize Gen.V12 m outs c main_arg20 = A1
    erw [cast_eq, cast_eq, cast_eq]
    rfl
  rw [e,
    V12_keep m outs c main_arg18 (by decide) (by decide) (by decide) (by decide) (by decide) (by decide) (by decide) (by decide) (by decide) (by decide) (by decide) (by decide),
    V12_keep m outs c main_arg20 (by decide) (by decide) (by decide) (by decide) (by decide) (by decide) (by decide) (by decide) (by decide) (by decide) (by decide) (by decide)]

theorem V17_v103 (c : Dev nD) (j : Fin 128) :
    (Gen.V17 m outs c main_v103 : S1x128.Idx → EReal) (ix2 0 j) =
      if h : j.val < 64 then (m ((c : Thread nD τ).loc main_arg18) : S64.Idx → EReal) (ix1 ⟨j.val, h⟩)
      else (m ((c : Thread nD τ).loc main_arg20) : S64.Idx → EReal) (ix1 ⟨j.val - 64, by omega⟩) :=
  (congrFun (V17_v103_eq m outs c) (ix2 0 j)).trans (Host1.b3K_apply _ _ j)

/-! ## The results -/

open Host1 in
/-- the two halves of the third region's output, when the two slices after it have run -/
theorem V19_halves (c : Dev nD) :
    (Gen.V19 m outs c main_v105 : S8192x64.Idx → EReal)
        = extractStridedSlice S8192x64 ![0, 0] (outs 18 main_v104 c : S8192x128.Idx → EReal) slices_S8192x128_S8192x64_0_0
      ∧ (Gen.V19 m outs c main_v106 : S8192x64.Idx → EReal)
        = extractStridedSlice S8192x64 ![0, 64] (outs 18 main_v104 c : S8192x128.Idx → EReal) slices_S8192x128_S8192x64_0_64 := by
  have k : Gen.V18 m outs c main_v104 = outs 18 main_v104 c := Function.update_self _ _ _
  constructor
  · have e : (Gen.V19 m outs c main_v105 : S8192x64.Idx → EReal)
        = extractStridedSlice S8192x64 ![0, 0] (Gen.V18 m outs c main_v104 : S8192x128.Idx → EReal) slices_S8192x128_S8192x64_0_0 := by
      dsimp only [Gen.V19, Gen.hostOps3]
      host_results
    rw [e, k]
  · have e : (Gen.V19 m outs c main_v106 : S8192x64.Idx → EReal)
        = extractStridedSlice S8192x64 ![0, 64] (Gen.V18 m outs c main_v104 : S8192x128.Idx → EReal) slices_S8192x128_S8192x64_0_64 := by
      dsimp only [Gen.V19, Gen.hostOps3]
      host_results
    rw [e, k]

theorem V20_v105 (c : Dev nD) (v : Fin 8192) (j : Fin 64) :
    (Gen.V20 m outs c main_v105 : S8192x64.Idx → EReal) (ix2 v j)
      = (outs 18 main_v104 c : S8192x128.Idx → EReal) (ix2 v ⟨j.val, by omega⟩) :=
  (congrFun ((V20_of m outs c main_v105 (by decide)).trans (V19_halves m outs c).1) (ix2 v j)).trans
    (slice2_axis1_apply 0 _ _ v j ⟨j.val, by omega⟩ (Nat.zero_add _).symm)

theorem V19_v106 (c : Dev nD) (v : Fin 8192) (j : Fin 64) :
    (Gen.V19 m outs c main_v106 : S8192x64.Idx → EReal) (ix2 v j)
      = (outs 18 main_v104 c : S8192x128.Idx → EReal) (ix2 v ⟨j.val + 64, by omega⟩) :=
  (congrFun (V19_halves m outs c).2 (ix2 v j)).trans
    (slice2_axis1_apply 64 _ _ v j ⟨j.val + 64, by omega⟩ (Nat.add_comm _ _))

theorem V20_v107 (c : Dev nD) : Gen.V20 m outs c main_v107 = outs 20 main_v107 c :=
  Function.update_self _ _ _

end Cert.KernelIdeal.Val

end
-- ==== Proof.RefConv.lean ====
/-
  One graph convolution of the reference, named and read at an index. With H = X·W, a convolution gathers the rows of H
  by each edge's source, scales each by the edge's weight, adds them into the row of the edge's destination, adds H's own
  row scaled by the node's self-loop weight, and adds the bias. Read at node v and feature j this is the edge-by-edge form
  of the layer: the sum over the edges arriving at v of H[source, j] times the edge weight, plus H[v, j] times the
  self-loop weight, plus b[j]. An edge's endpoint words are wrapped by the node count when negative; the gather clamps the
  wrapped source into range, the scatter drops an edge whose wrapped destination is out of range. The weights are
  products of reciprocal square roots of degrees; a degree is one plus a count, so every weight is a real number.
-/
import proofs.«414230_j6141803233547_3_alg».proof.Proof.ReadP
import proofs.«414230_j6141803233547_3_alg».proof.Proof.LibGcn
import proofs.«414230_j6141803233547_3_alg».proof.Proof.LibScatter
import proofs.«414230_j6141803233547_3_alg».proof.Proof.Spec
import Idealize.ShloMosaic.Lib.ValueIdx
import Idealize.ShloMosaic.PureOps.Ideal.Laws
import Idealize.ShloMosaic.Lib.Affine
import Idealize.ShloMosaic.Lib.WordArith
import Idealize.ShloMosaic.Lib.IdealHost

set_option maxRecDepth 16384

noncomputable section

namespace Cert.ReferenceIdeal.Hand

open Cert.ReferenceIdeal Cert.ReferenceIdeal.Read Cert.LibGcn Idealize.ShloMosaic Idealize.ShloMosaic.ValueIdx

open scoped BigOperators

/-- one graph convolution as the reference computes it: the first convolution's chain with the layer's input, weight and bias abstracted -/
def conv (X : (⟨S8192x64, .f32⟩ : BufTy).Contents (Elt Ideal)) (W : (⟨S64x64, .f32⟩ : BufTy).Contents (Elt Ideal)) (b : (⟨S64, .f32⟩ : BufTy).Contents (Elt Ideal)) (src dst : (⟨S262144, .i32⟩ : BufTy).Contents (Elt Ideal)) : (⟨S8192x64, .f32⟩ : BufTy).Contents (Elt Ideal) :=
  addf (F := Ideal) (φ := .f32) (addf (F := Ideal) (φ := .f32)
      (Host.scatterAdd (F := Ideal) (φ := .f32) scatter_S8192x64_S262144x1_S262144x64_1_0_0_1 (val_main_v26 (F := Ideal)) (val_main_v42 (F := Ideal) dst)
        (mulf (F := Ideal) (φ := .f32)
          (Host.gather gather_S8192x64_S262144x1_S262144x64_1_0_n_n_0_1_164
            (Host.dotGeneral (F := Ideal) (φ₁ := .f32) (φ₂ := .f32) dot_S8192x64_S64x64_S8192x64_1_0_0_1_n_n none X W) (val_main_v32 (F := Ideal) src))
          (val_main_v35 (F := Ideal) src dst)))
      (mulf (F := Ideal) (φ := .f32) (Host.dotGeneral (F := Ideal) (φ₁ := .f32) (φ₂ := .f32) dot_S8192x64_S64x64_S8192x64_1_0_0_1_n_n none X W) (val_main_v46 (F := Ideal) dst)))
    (val_main_v50 (F := Ideal) b)

/-- the first convolution of the reference is `conv` of the first layer's input, weight and bias -/
theorem val_main_v51_conv (x0 : (⟨S8192x64, .f32⟩ : BufTy).Contents (Elt Ideal)) (x1 x2 : (⟨S262144, .i32⟩ : BufTy).Contents (Elt Ideal)) (x3 : (⟨S64x64, .f32⟩ : BufTy).Contents (Elt Ideal)) (x4 : (⟨S64, .f32⟩ : BufTy).Contents (Elt Ideal)) :
    val_main_v51 (F := Ideal) x0 x1 x2 x3 x4 = conv x0 x3 x4 x1 x2 := rfl

/-- the raw index words of an edge list, by edge number -/
abbrev words (v : (⟨S262144, .i32⟩ : BufTy).Contents (Elt Ideal)) : Fin 262144 → BitVec 32 := fun e => v (ix1 e)

/-- an edge's weight and a node's self-loop weight, from the first convolution's stages -/
def coefE (src dst : (⟨S262144, .i32⟩ : BufTy).Contents (Elt Ideal)) (e : Fin 262144) : EReal := val_main_v25 (F := Ideal) src dst (ix1 e)
def selfE (dst : (⟨S262144, .i32⟩ : BufTy).Contents (Elt Ideal)) (v : Fin 8192) : EReal := val_main_v44 (F := Ideal) dst (ix1 v)

/-! ## Index bookkeeping -/

private abbrev dS := scatter_S8192x64_S262144x1_S262144x64_1_0_0_1
private abbrev dG := gather_S8192x64_S262144x1_S262144x64_1_0_n_n_0_1_164

/-- a negative index word wrapped by the node count, read as a signed integer: for a negative word the sum
    word + 8192 lies in [−2³¹ + 8192, 8192), so the 32-bit addition does not overflow -/
theorem wrap_toInt (x : BitVec 32) :
    (Scalar.select (IntOp.cmpi .slt x 0#32) (IntOp.addi x 8192#32) x).toInt = Cert.Spec.wrapI x := by
  unfold Cert.Spec.wrapI
  have e0 : (0#32 : BitVec 32).toInt = 0 := by decide
  have e8 : (8192#32 : BitVec 32).toInt = 8192 := by decide
  by_cases h : x.toInt < 0
  · have hc : IntOp.cmpi .slt x 0#32 = 1#1 := IntOp.cmpi_slt.2 (by rw [e0]; exact h)
    rw [hc, select_one, if_pos h]
    have hlo : -2 ^ 31 ≤ x.toInt := by have := BitVec.le_toInt x; simpa using this
    show (x + 8192#32).toInt = _
    rw [WordArith.toInt_add_of_bounds x 8192#32 (by rw [e8]; omega) (by rw [e8]; omega), e8]
  · have hc : IntOp.cmpi .slt x 0#32 = 0#1 :=
      eq_zero_of_ne_one (fun hc => h (by have := IntOp.cmpi_slt.1 hc; rwa [e0] at this))
    rw [hc, select_zero, if_neg h]

/-- the wrapped destination word of edge e, as the scatter reads it -/
theorem dst_word (dst : (⟨S262144, .i32⟩ : BufTy).Contents (Elt Ideal)) (e : Fin 262144) :
    (val_main_v42 (F := Ideal) dst (StableHlo.Predicate.ixP e)).toInt = Cert.Spec.wrapI (words dst e) := by
  rw [val_main_v42_apply]
  have hi : idx_main_v42 (StableHlo.Predicate.ixP e) = ix1 e := funext fun a => match a with | ⟨0, _⟩ => rfl
  rw [hi]
  exact wrap_toInt (dst (ix1 e))

/-- the wrapped source word of edge e, as the gather reads it -/
theorem src_word (src : (⟨S262144, .i32⟩ : BufTy).Contents (Elt Ideal)) (e : Fin 262144) :
    (val_main_v32 (F := Ideal) src (StableHlo.Predicate.ixP e)).toInt = Cert.Spec.wrapI (words src e) := by
  rw [val_main_v32_apply]
  have hi : idx_main_v32 (StableHlo.Predicate.ixP e) = ix1 e := funext fun a => match a with | ⟨0, _⟩ => rfl
  rw [hi]
  exact wrap_toInt (src (ix1 e))

/-- H = X·W at (u, j): the sum over the input features -/
theorem H_apply (X : (⟨S8192x64, .f32⟩ : BufTy).Contents (Elt Ideal)) (W : (⟨S64x64, .f32⟩ : BufTy).Contents (Elt Ideal)) (u : Fin 8192) (j : Fin 64) :
    Host.dotGeneral (F := Ideal) (φ₁ := .f32) (φ₂ := .f32) dot_S8192x64_S64x64_S8192x64_1_0_0_1_n_n none X W (ix2 u j)
      = ∑ k : Fin 64, X (ix2 u k) * W (ix2 k j) := by
  refine (val_main_v0_apply X W (ix2 u j)).trans ?_
  refine Finset.sum_congr rfl fun k _ => ?_
  have hl : lidx_main_v0 (ix2 u j) k = ix2 u k := funext fun a => match a with | ⟨0, _⟩ => rfl | ⟨1, _⟩ => rfl
  have hr : ridx_main_v0 (ix2 u j) k = ix2 k j := funext fun a => match a with | ⟨0, _⟩ => rfl | ⟨1, _⟩ => rfl
  rw [hl, hr]

/-- the bias broadcast down the rows reads b[j] -/
theorem bias_apply (b : (⟨S64, .f32⟩ : BufTy).Contents (Elt Ideal)) (v : Fin 8192) (j : Fin 64) : val_main_v50 (F := Ideal) b (ix2 v j) = b (ix1 j) := by
  rw [val_main_v50_apply, val_main_v49_apply]
  exact congrArg b (funext fun a => match a with | ⟨0, _⟩ => rfl)

/-- the self-loop weight broadcast along the row reads the node's weight -/
theorem self_apply (dst : (⟨S262144, .i32⟩ : BufTy).Contents (Elt Ideal)) (v : Fin 8192) (j : Fin 64) : val_main_v46 (F := Ideal) dst (ix2 v j) = selfE dst v := by
  rw [val_main_v46_apply, val_main_v45_apply]
  exact congrArg (val_main_v44 (F := Ideal) dst) (funext fun a => match a with | ⟨0, _⟩ => rfl)

/-- the edge weight broadcast along the row reads the edge's weight -/
theorem coef_apply (src dst : (⟨S262144, .i32⟩ : BufTy).Contents (Elt Ideal)) (e : Fin 262144) (j : Fin 64) :
    val_main_v35 (F := Ideal) src dst (ix2 e j) = coefE src dst e := by
  rw [val_main_v35_apply, val_main_v34_apply]
  exact congrArg (val_main_v25 (F := Ideal) src dst) (funext fun a => match a with | ⟨0, _⟩ => rfl)

/-- the row gather by the source: row e of the result is row srcN e of the operand -/
theorem gather_apply (H : (⟨S8192x64, .f32⟩ : BufTy).Contents (Elt Ideal)) (src : (⟨S262144, .i32⟩ : BufTy).Contents (Elt Ideal)) (e : Fin 262144) (j : Fin 64) :
    Host.gather dG H (val_main_v32 (F := Ideal) src) (ix2 e j) = H (ix2 (Cert.Spec.srcN (words src) e) j) := by
  rw [Cert.LibScatter.gatherRows_apply (by decide) dG rfl rfl rfl rfl rfl rfl]
  refine congrArg H (congrArg₂ ix2 (Fin.ext ?_) rfl)
  show min (val_main_v32 (F := Ideal) src (StableHlo.Predicate.ixP e)).toInt.toNat (8192 - 1) = min (Cert.Spec.wrapI (words src e)).toNat 8191
  rw [src_word]

/-- the update at (e, j') lands on (v, j) exactly when edge e arrives at v and j' = j -/
theorem lands_iff (dst : (⟨S262144, .i32⟩ : BufTy).Contents (Elt Ideal)) (e : Fin 262144) (j' : Fin 64) (v : Fin 8192) (j : Fin 64) :
    dS.resultIdx? (ix2 e j') (val_main_v42 (F := Ideal) dst) = some (ix2 v j) ↔ Cert.Spec.dstO (words dst) e = some v ∧ j' = j := by
  rw [Cert.LibScatter.scatterRows_resultIdx dS rfl rfl rfl rfl]
  show (val_main_v42 (F := Ideal) dst (StableHlo.Predicate.ixP e)).toInt = (v.val : Int) ∧ j'.val = j.val ↔ _
  rw [dst_word]
  unfold Cert.Spec.dstO
  rw [Cert.Spec.nodeO_eq_some, Fin.ext_iff]

/-- the scatter by the destination into zeros, at (v, j): the sum of the updates of the edges arriving at v -/
theorem scatter_sum (dst : (⟨S262144, .i32⟩ : BufTy).Contents (Elt Ideal)) (U : (⟨S262144x64, .f32⟩ : BufTy).Contents (Elt Ideal)) (v : Fin 8192) (j : Fin 64) :
    Host.scatterAdd (F := Ideal) (φ := .f32) dS (val_main_v26 (F := Ideal)) (val_main_v42 (F := Ideal) dst) U (ix2 v j)
      = ∑ e ∈ Finset.univ.filter (fun e => Cert.Spec.dstO (words dst) e = some v), U (ix2 e j) := by
  refine (Cert.LibScatter.scatterAdd_apply dS _ _ U (ix2 v j)).trans ?_
  have h0 : val_main_v26 (F := Ideal) (ix2 v j) = 0 := by
    rw [val_main_v26_apply]; exact Ideal.ofBits_zero_f32
  rw [h0, zero_add, Finset.sum_filter, sum_idx2, Finset.sum_filter]
  refine Finset.sum_congr rfl fun e _ => ?_
  by_cases hd : Cert.Spec.dstO (words dst) e = some v
  · rw [if_pos hd, Finset.sum_eq_single j]
    · rw [if_pos ((lands_iff dst e j v j).2 ⟨hd, rfl⟩)]
    · intro j' _ hne
      rw [if_neg (fun h => hne ((lands_iff dst e j' v j).1 h).2)]
    · intro h; exact absurd (Finset.mem_univ j) h
  · rw [if_neg hd]
    exact Finset.sum_eq_zero fun j' _ => if_neg (fun h => hd ((lands_iff dst e j' v j).1 h).1)

/-! ## The weights are real -/

/-- a degree is one plus the number of edges arriving at the node: a real number ≥ 1 -/
theorem deg_real (dst : (⟨S262144, .i32⟩ : BufTy).Contents (Elt Ideal)) (i : S8192.Idx) : ∃ r : ℝ, 1 ≤ r ∧ val_main_v9 (F := Ideal) dst i = (r : EReal) := by
  refine ⟨1 + ∑ p ∈ Finset.univ.filter (fun p => scatter_S8192_S262144x1_S262144_n_0_0_1.resultIdx? p (val_main_v7 (F := Ideal) dst) = some i), (1 : ℝ), ?_, ?_⟩
  · have : (0 : ℝ) ≤ ∑ p ∈ Finset.univ.filter (fun p => scatter_S8192_S262144x1_S262144_n_0_0_1.resultIdx? p (val_main_v7 (F := Ideal) dst) = some i), (1 : ℝ) :=
      Finset.sum_nonneg fun _ _ => zero_le_one
    linarith
  · refine (Cert.LibScatter.scatterAdd_apply scatter_S8192_S262144x1_S262144_n_0_0_1 _ _ _ i).trans ?_
    rw [EReal.coe_add, coe_sum]
    have h1 : val_main_v1 (F := Ideal) i = ((1 : ℝ) : EReal) := by
      rw [val_main_v1_apply, EReal.coe_one]; exact Ideal.ofBits_one_f32
    have h8 : ∀ p, val_main_v8 (F := Ideal) p = ((1 : ℝ) : EReal) := fun p => by
      rw [val_main_v8_apply, EReal.coe_one]; exact Ideal.ofBits_one_f32
    rw [h1]
    exact congrArg _ (Finset.sum_congr rfl fun p _ => h8 p)

/-- the reciprocal square root of a degree is a real number -/
theorem dinv_real (dst : (⟨S262144, .i32⟩ : BufTy).Contents (Elt Ideal)) : IsReal (val_main_v10 (F := Ideal) dst) := by
  intro i
  obtain ⟨r, hr, e⟩ := deg_real dst i
  refine ⟨(Real.sqrt r)⁻¹, ?_⟩
  rw [val_main_v10_apply, Ideal.hostUnary_rsqrt_def, e, Ideal.rsqrt_coe, if_neg (by linarith), if_neg (by intro h; linarith)]

/-- THE READING: a convolution at node v, feature j, in the reference's arrangement (LibGcn.layerR) -/
theorem conv_apply (X : (⟨S8192x64, .f32⟩ : BufTy).Contents (Elt Ideal)) (W : (⟨S64x64, .f32⟩ : BufTy).Contents (Elt Ideal)) (b : (⟨S64, .f32⟩ : BufTy).Contents (Elt Ideal)) (src dst : (⟨S262144, .i32⟩ : BufTy).Contents (Elt Ideal)) (v : Fin 8192) (j : Fin 64) :
    conv X W b src dst (ix2 v j) = layerR (Cert.Spec.srcN (words src)) (Cert.Spec.dstO (words dst)) (coefE src dst) (selfE dst)
      (fun u k => X (ix2 u k)) (fun k j => W (ix2 k j)) (fun j => b (ix1 j)) v j := by
  unfold conv layerR
  rw [addf_apply, addf_apply, mulf_apply, bias_apply, self_apply, H_apply, scatter_sum]
  refine congrArg (· + b (ix1 j)) (congrArg (· + (∑ k : Fin 64, X (ix2 v k) * W (ix2 k j)) * selfE dst v) ?_)
  refine Finset.sum_congr rfl fun e _ => ?_
  rw [mulf_apply, gather_apply, H_apply, coef_apply]

theorem isReal_coefE (src dst : (⟨S262144, .i32⟩ : BufTy).Contents (Elt Ideal)) : IsReal (coefE src dst) := by
  intro e
  obtain ⟨a, ha⟩ : ∃ r : ℝ, val_main_v17 (F := Ideal) src dst (ix1 e) = (r : EReal) := dinv_real dst _
  obtain ⟨c, hc⟩ : ∃ r : ℝ, val_main_v24 (F := Ideal) dst (ix1 e) = (r : EReal) := dinv_real dst _
  refine ⟨a * c, ?_⟩
  show val_main_v17 (F := Ideal) src dst (ix1 e) * val_main_v24 (F := Ideal) dst (ix1 e) = _
  rw [ha, hc]; exact (EReal.coe_mul a c).symm

theorem isReal_selfE (dst : (⟨S262144, .i32⟩ : BufTy).Contents (Elt Ideal)) : IsReal (selfE dst) := fun v => (IsReal.mul (dinv_real dst) (dinv_real dst)) (ix1 v)

/-- a convolution of real-valued input, weight and bias is real-valued -/
theorem isReal_conv {X : (⟨S8192x64, .f32⟩ : BufTy).Contents (Elt Ideal)} {W : (⟨S64x64, .f32⟩ : BufTy).Contents (Elt Ideal)} {b : (⟨S64, .f32⟩ : BufTy).Contents (Elt Ideal)} (src dst : (⟨S262144, .i32⟩ : BufTy).Contents (Elt Ideal)) (hX : IsReal X) (hW : IsReal W) (hb : IsReal b) :
    IsReal (conv X W b src dst) := by
  intro i
  obtain ⟨v, j, rfl⟩ : ∃ (v : Fin 8192) (j : Fin 64), i = ix2 v j := ⟨i 0, i 1, eq_ix2 i⟩
  rw [conv_apply, ← layerK_eq_layerR _ _ _ (isReal_coefE src dst) (isReal_selfE dst) (fun u k => hX (ix2 u k)) (fun k j => hW (ix2 k j))]
  exact isReal_layerK (fun v => isReal_adj _ _ (isReal_coefE src dst) (isReal_selfE dst) v) (fun u k => hX (ix2 u k))
    (fun k j => hW (ix2 k j)) (fun j => hb (ix1 j)) v j

end Cert.ReferenceIdeal.Hand

end
-- ==== Proof.RefStages.lean ====
import proofs.«414230_j6141803233547_3_alg».proof.Proof.RefConv
import proofs.«414230_j6141803233547_3_alg».proof.Proof.LibGcn
import Idealize.ShloMosaic.Lib.Pipeline.Value
import Idealize.ShloMosaic.Lib.ValueIdx
import Idealize.ShloMosaic.PureOps.Ideal.Laws
import Mathlib.Data.EReal.Operations
import Mathlib.Data.EReal.Inv
import Mathlib.Analysis.SpecialFunctions.Exp

/-!
# The stages of the reference network

The reference computes eight graph convolutions (three two-layer encoders, then two decoders on the
combined features), a three-way attention between the encoder outputs, and an inner-product decoder.
This file names each stage as a function of the stage before it:

* every convolution is the one function `conv` of its own input, weight and bias (the degree
  normalisation is recomputed from the edge lists by the same operations each time);
* the rectifier is the maximum with the zero array;
* the attention is a softmax, over three scores, of an affine image of the concatenated encoder
  outputs, and the combination is the attention-weighted sum of the three encoder outputs;
* the last result is the Gram matrix of the decoded features.

It also records that every stage up to the combination is real-valued when the float inputs are:
the attention divides positive reals (exponentials) by their positive sum.
-/

noncomputable section

namespace Cert.ReferenceIdeal.Hand

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.LibGcn
open scoped BigOperators

/-! ## Real entries

Sums and products of real entries are real; these three facts carry the real-valuedness of an
affine map entry by entry. -/

/-- the sum of two real entries is real (the coercion is additive) -/
theorem real_add' {a b : EReal} (ha : ∃ r : ℝ, a = (r : EReal)) (hb : ∃ r : ℝ, b = (r : EReal)) :
    ∃ r : ℝ, a + b = (r : EReal) := by
  obtain ⟨p, rfl⟩ := ha
  obtain ⟨q, rfl⟩ := hb
  exact ⟨p + q, (EReal.coe_add p q).symm⟩

/-- the product of two real entries is real (the coercion is multiplicative) -/
theorem real_mul' {a b : EReal} (ha : ∃ r : ℝ, a = (r : EReal)) (hb : ∃ r : ℝ, b = (r : EReal)) :
    ∃ r : ℝ, a * b = (r : EReal) := by
  obtain ⟨p, rfl⟩ := ha
  obtain ⟨q, rfl⟩ := hb
  exact ⟨p * q, (EReal.coe_mul p q).symm⟩

/-- a finite sum of real entries is real -/
theorem real_sum' {κ : Type*} (s : Finset κ) {f : κ → EReal} (hf : ∀ k, ∃ r : ℝ, f k = (r : EReal)) :
    ∃ r : ℝ, ∑ k ∈ s, f k = (r : EReal) := by
  choose g hg using hf
  exact ⟨∑ k ∈ s, g k, by rw [coe_sum]; exact Finset.sum_congr rfl (fun k _ => hg k)⟩

/-- a maximum started from −∞ over a finite family of real entries is −∞ on the empty family and
real otherwise (the coercion is monotone, so it commutes with max) -/
theorem fold_maxf_real {κ : Type*} (f : κ → Ideal .f32) (hf : ∀ k, ∃ r : ℝ, f k = (r : EReal)) (s : Finset κ) :
    (s = ∅ ∧ s.fold (FloatOps.maximumf (F := Ideal) (φ := .f32)) ⊥ f = ⊥)
      ∨ ∃ r : ℝ, s.fold (FloatOps.maximumf (F := Ideal) (φ := .f32)) ⊥ f = (r : EReal) := by
  classical
  induction s using Finset.induction_on with
  | empty => exact Or.inl ⟨rfl, Finset.fold_empty⟩
  | insert a s ha ih =>
    right
    obtain ⟨p, hp⟩ := hf a
    rw [Finset.fold_insert ha, hp, Ideal.maximumf_def]
    rcases ih with ⟨_, h⟩ | ⟨r, hr⟩
    · exact ⟨p, by rw [h]; exact max_eq_left bot_le⟩
    · exact ⟨max p r, by rw [hr]; exact (EReal.coe_strictMono.monotone.map_max).symm⟩

/-- the host's exponential at an index -/
theorem hostExp_apply {s : Shape} {φ : FTy} (a : FVec Ideal s φ) (i : s.Idx) : Host.exp a i = Ideal.exp (a i) := rfl

/-- the host's quotient at an index -/
theorem hostDivf_apply {s : Shape} {φ : FTy} (a b : FVec Ideal s φ) (i : s.Idx) :
    Host.divf a b i = Ideal.div (a i) (b i) := rfl

/-- the zero word denotes 0 -/
theorem ofBits_zero' : FloatOps.ofBits (F := Ideal) .f32 0x00000000#32 = (0 : EReal) := Ideal.ofBits_zero_f32

/-- the word 0xFF800000 denotes −∞ -/
theorem ofBits_neg_inf : Ideal.ofBits .f32 0xFF800000#32 = ⊥ := by simp [Ideal.ofBits, Ideal.ieee]

/-- the same, through the float interface -/
theorem ofBits_neg_inf' : FloatOps.ofBits (F := Ideal) .f32 0xFF800000#32 = (⊥ : EReal) := ofBits_neg_inf

/-! ## The rectifier -/

/-- relu as the reference prints it: the maximum with the zero array -/
def reluV (X : (⟨S8192x64, .f32⟩ : BufTy).Contents (Elt Ideal)) : (⟨S8192x64, .f32⟩ : BufTy).Contents (Elt Ideal) := maximumf (F := Ideal) (φ := .f32) X (val_main_call0_v0 (F := Ideal))

/-- at an index: the larger of the entry and zero -/
theorem reluV_apply (X : (⟨S8192x64, .f32⟩ : BufTy).Contents (Elt Ideal)) (i : S8192x64.Idx) : reluV X i = max (X i) 0 := by
  unfold reluV
  rw [maximumf_apply, val_main_call0_v0_apply, val_main_call0_cst_apply, ofBits_zero']

/-- the rectifier keeps real-valuedness -/
theorem isReal_reluV {X : (⟨S8192x64, .f32⟩ : BufTy).Contents (Elt Ideal)} (hX : IsReal X) : IsReal (reluV X) := by
  intro i
  rw [reluV_apply]
  exact hX.max_zero i

/-! ## The attention

The concatenated features go through an affine map to 192 scores per node, regrouped as three
scores for each of the 64 features; the attention is their softmax over the three. -/

/-- the three scores of every (node, feature): the affine image of the concatenated features,
regrouped in threes -/
def attZ (c192 : (⟨S8192x192, .f32⟩ : BufTy).Contents (Elt Ideal)) (attW : (⟨S192x192, .f32⟩ : BufTy).Contents (Elt Ideal)) (attb : (⟨S192, .f32⟩ : BufTy).Contents (Elt Ideal)) : (⟨S8192x64x3, .f32⟩ : BufTy).Contents (Elt Ideal) :=
  shapeCast _ (addf (F := Ideal) (φ := .f32) (Host.dotGeneral (F := Ideal) (φ₁ := .f32) (φ₂ := .f32) dot_S8192x192_S192x192_S8192x192_1_0_0_1_n_n none c192 attW)
    (val_main_v321 (F := Ideal) attb)) shapeCasts_S8192x192_S8192x64x3

/-- an array over (node, feature) repeated along a new last axis of length three -/
def rep3 (y : (⟨S8192x64, .f32⟩ : BufTy).Contents (Elt Ideal)) : (⟨S8192x64x3, .f32⟩ : BufTy).Contents (Elt Ideal) :=
  broadcastInDim S8192x64x3 ![0, 1, 2] bcast_S8192x64x1_S8192x64x3_0_1_2
    (broadcastInDim S8192x64x1 ![0, 1] bcast_S8192x64_S8192x64x1_0_1 y)

/-- the largest of the three scores (and of −∞) at every (node, feature) -/
def rowMax (z : (⟨S8192x64x3, .f32⟩ : BufTy).Contents (Elt Ideal)) : (⟨S8192x64, .f32⟩ : BufTy).Contents (Elt Ideal) :=
  maximumf (F := Ideal) (φ := .f32) (val_main_v325 (F := Ideal))
    (Host.reduce (FloatOps.maximumf (F := Ideal) (φ := .f32)) z (val_main_cst_76 (F := Ideal)) reducesTo_S8192x64x3_S8192x64_d2 h_S_)

/-- the sum of the three entries at every (node, feature) -/
def rowSum (e : (⟨S8192x64x3, .f32⟩ : BufTy).Contents (Elt Ideal)) : (⟨S8192x64, .f32⟩ : BufTy).Contents (Elt Ideal) :=
  Host.reduceAdd (F := Ideal) (φ := .f32) e (val_main_cst_78 (F := Ideal)) reducesTo_S8192x64x3_S8192x64_d2 h_S_

/-- the largest of the three scores (and of −∞), repeated along the last axis -/
def attM (z : (⟨S8192x64x3, .f32⟩ : BufTy).Contents (Elt Ideal)) : (⟨S8192x64x3, .f32⟩ : BufTy).Contents (Elt Ideal) :=
  rep3 (rowMax z)

/-- the exponentials of the scores shifted by their maximum -/
def attE (z : (⟨S8192x64x3, .f32⟩ : BufTy).Contents (Elt Ideal)) : (⟨S8192x64x3, .f32⟩ : BufTy).Contents (Elt Ideal) := Host.exp (F := Ideal) (φ := .f32) (subf (F := Ideal) (φ := .f32) z (attM z))

/-- the sum of the three entries along the last axis, repeated along it -/
def attS (e : (⟨S8192x64x3, .f32⟩ : BufTy).Contents (Elt Ideal)) : (⟨S8192x64x3, .f32⟩ : BufTy).Contents (Elt Ideal) :=
  rep3 (rowSum e)

/-- the softmax over the last axis: each shifted exponential over the sum of the three -/
def softmax3 (z : (⟨S8192x64x3, .f32⟩ : BufTy).Contents (Elt Ideal)) : (⟨S8192x64x3, .f32⟩ : BufTy).Contents (Elt Ideal) := Host.divf (F := Ideal) (φ := .f32) (attE z) (attS (attE z))

/-- the attention, as a function of the concatenated features and the attention weight and bias -/
def attR (c192 : (⟨S8192x192, .f32⟩ : BufTy).Contents (Elt Ideal)) (attW : (⟨S192x192, .f32⟩ : BufTy).Contents (Elt Ideal)) (attb : (⟨S192, .f32⟩ : BufTy).Contents (Elt Ideal)) : (⟨S8192x64x3, .f32⟩ : BufTy).Contents (Elt Ideal) := softmax3 (attZ c192 attW attb)

/-- every index of rank three is a triple of coordinates -/
theorem idx3_cases (i : S8192x64x3.Idx) : ∃ (v : Fin 8192) (j : Fin 64) (c : Fin 3), i = ix3 v j c :=
  ⟨i 0, i 1, i 2, eq_ix3 i⟩

/-- every index of rank two over (node, feature) is a pair of coordinates -/
theorem idx2_cases (i : S8192x64.Idx) : ∃ (v : Fin 8192) (j : Fin 64), i = ix2 v j :=
  ⟨i 0, i 1, eq_ix2 i⟩

/-- the repeated array at (v, j, c) is the array at (v, j) -/
theorem rep3_apply (y : (⟨S8192x64, .f32⟩ : BufTy).Contents (Elt Ideal)) (v : Fin 8192) (j : Fin 64) (c : Fin 3) : rep3 y (ix3 v j c) = y (ix2 v j) := by
  unfold rep3
  refine (broadcastInDim_apply _ bcast_S8192x64x1_S8192x64x3_0_1_2 _ (ix3 v j c) (ix3 v j (⟨0, Nat.one_pos⟩ : Fin 1)) ?_).trans
    (broadcastInDim_apply _ bcast_S8192x64_S8192x64x1_0_1 y (ix3 v j (⟨0, Nat.one_pos⟩ : Fin 1)) (ix2 v j) ?_)
  · intro a
    match a with
    | ⟨0, _⟩ => show v.val = if (8192 : Nat) = 1 then 0 else v.val; rw [if_neg (by decide)]
    | ⟨1, _⟩ => show j.val = if (64 : Nat) = 1 then 0 else j.val; rw [if_neg (by decide)]
    | ⟨2, _⟩ => show 0 = if (1 : Nat) = 1 then 0 else c.val; rw [if_pos rfl]
  · intro a
    match a with
    | ⟨0, _⟩ => show v.val = if (8192 : Nat) = 1 then 0 else v.val; rw [if_neg (by decide)]
    | ⟨1, _⟩ => show j.val = if (64 : Nat) = 1 then 0 else j.val; rw [if_neg (by decide)]

/-- the last axis of the score array reduces away -/
theorem red3 : S8192x64x3.Reduces [2] S8192x64 := by decide

/-- the largest of three real scores is real: the maximum from −∞ over a nonempty family of reals -/
theorem rowMax_real {z : (⟨S8192x64x3, .f32⟩ : BufTy).Contents (Elt Ideal)} (hz : IsReal z) (j : S8192x64.Idx) : ∃ r : ℝ, rowMax z j = (r : EReal) := by
  unfold rowMax
  rw [maximumf_apply, val_main_v325_apply, val_main_cst_77_apply,
    Host.reduce_eq_fold_single (FloatOps.maximumf (F := Ideal) (φ := .f32)) z _ reducesTo_S8192x64x3_S8192x64_d2 red3 h_S_ j,
    val_main_cst_76_apply, ofBits_neg_inf']
  have hne : (Finset.univ : Finset (Fin (S8192x64x3.size 2))) ≠ ∅ :=
    Finset.nonempty_iff_ne_empty.mp ⟨⟨0, by decide⟩, Finset.mem_univ _⟩
  rcases fold_maxf_real (z ∘ red3.lift j) (fun k => hz _) Finset.univ with ⟨he, _⟩ | ⟨r, hr⟩
  · exact absurd he hne
  · exact ⟨r, (max_eq_right bot_le).trans hr⟩

/-- the row maximum of real scores is real-valued -/
theorem isReal_attM {z : (⟨S8192x64x3, .f32⟩ : BufTy).Contents (Elt Ideal)} (hz : IsReal z) : IsReal (attM z) := by
  intro i
  obtain ⟨v, j, c, rfl⟩ := idx3_cases i
  unfold attM
  rw [rep3_apply]
  exact rowMax_real hz _

/-- a shifted exponential at an index -/
theorem attE_apply (z : (⟨S8192x64x3, .f32⟩ : BufTy).Contents (Elt Ideal)) (i : S8192x64x3.Idx) : attE z i = Ideal.exp (z i - attM z i) := by
  unfold attE
  rw [hostExp_apply, subf_apply]

/-- the shifted exponentials of real scores are positive reals -/
theorem attE_pos_real {z : (⟨S8192x64x3, .f32⟩ : BufTy).Contents (Elt Ideal)} (hz : IsReal z) (i : S8192x64x3.Idx) :
    ∃ r : ℝ, 0 < r ∧ attE z i = (r : EReal) := by
  obtain ⟨a, ha⟩ := hz i
  obtain ⟨m, hm⟩ := isReal_attM hz i
  refine ⟨Real.exp (a - m), Real.exp_pos _, ?_⟩
  rw [attE_apply, ha, hm, ← EReal.coe_sub]
  exact Ideal.exp_coe _

/-- the sum over the last axis at (v, j): the three entries added up (the initial value is zero) -/
theorem rowSum_apply (e : (⟨S8192x64x3, .f32⟩ : BufTy).Contents (Elt Ideal)) (v : Fin 8192) (j : Fin 64) : rowSum e (ix2 v j) = ∑ c : Fin 3, e (ix3 v j c) := by
  unfold rowSum
  simp only [Host.reduceAdd, Ideal.hostReduceAdd_def]
  rw [Ideal.hostReduceAdd_single reducesTo_S8192x64x3_S8192x64_d2 red3, val_main_cst_78_apply]
  rw [ofBits_zero', zero_add]
  refine Finset.sum_congr rfl fun k _ => ?_
  exact congrArg e (funext fun a => Fin.ext (by match a with | ⟨0, _⟩ => rfl | ⟨1, _⟩ => rfl | ⟨2, _⟩ => rfl))

/-- the softmax of real scores is real-valued: a real exponential over a positive real sum -/
theorem isReal_softmax3 {z : (⟨S8192x64x3, .f32⟩ : BufTy).Contents (Elt Ideal)} (hz : IsReal z) : IsReal (softmax3 z) := by
  intro i
  obtain ⟨v, j, c, rfl⟩ := idx3_cases i
  choose er hpos her using attE_pos_real hz
  have hs : attS (attE z) (ix3 v j c) = ((∑ c' : Fin 3, er (ix3 v j c') : ℝ) : EReal) := by
    unfold attS
    rw [rep3_apply, rowSum_apply, coe_sum]
    exact Finset.sum_congr rfl (fun c' _ => her _)
  have hne : (∑ c' : Fin 3, er (ix3 v j c')) ≠ 0 :=
    (Finset.sum_pos (fun c' _ => hpos _) Finset.univ_nonempty).ne'
  unfold softmax3
  rw [hostDivf_apply, hs, her, Ideal.div_coe hne, ← EReal.coe_mul]
  exact ⟨_, rfl⟩

/-- a product of the concatenated features with the attention weight at an index: the sum over the
192 columns -/
theorem dot192_apply (y : (⟨S8192x192, .f32⟩ : BufTy).Contents (Elt Ideal)) (W : (⟨S192x192, .f32⟩ : BufTy).Contents (Elt Ideal)) (i : S8192x192.Idx) :
    Host.dotGeneral (F := Ideal) (φ₁ := .f32) (φ₂ := .f32) dot_S8192x192_S192x192_S8192x192_1_0_0_1_n_n none y W i
      = ∑ k : Fin 192, y (lidx_main_v319 i k) * W (ridx_main_v319 i k) := by
  simp only [Host.dotGeneral]
  rw [Ideal.dotGeneral_apply, ← Equiv.sum_comp (ValueIdx.contrEquiv1 dot_S8192x192_S192x192_S8192x192_1_0_0_1_n_n 192 rfl rfl).symm]
  refine Finset.sum_congr rfl fun k _ => ?_
  have hk := ValueIdx.contrEquiv1_symm_val dot_S8192x192_S192x192_S8192x192_1_0_0_1_n_n 192 rfl rfl k
  have el : dot_S8192x192_S192x192_S8192x192_1_0_0_1_n_n.lhsIdx i ((ValueIdx.contrEquiv1 dot_S8192x192_S192x192_S8192x192_1_0_0_1_n_n 192 rfl rfl).symm k) = lidx_main_v319 i k := funext fun a => Fin.ext (by
    match a with
    | ⟨0, _⟩ => exact lhs_main_v319_0 _ _
    | ⟨1, _⟩ => exact (lhs_main_v319_1 _ _).trans hk)
  have er : dot_S8192x192_S192x192_S8192x192_1_0_0_1_n_n.rhsIdx i ((ValueIdx.contrEquiv1 dot_S8192x192_S192x192_S8192x192_1_0_0_1_n_n 192 rfl rfl).symm k) = ridx_main_v319 i k := funext fun a => Fin.ext (by
    match a with
    | ⟨0, _⟩ => exact (rhs_main_v319_0 _ _).trans hk
    | ⟨1, _⟩ => exact rhs_main_v319_1 _ _)
  rw [el, er]

/-- the scores of real-valued features, weight and bias are real-valued -/
theorem isReal_attZ {c192 : (⟨S8192x192, .f32⟩ : BufTy).Contents (Elt Ideal)} {attW : (⟨S192x192, .f32⟩ : BufTy).Contents (Elt Ideal)} {attb : (⟨S192, .f32⟩ : BufTy).Contents (Elt Ideal)} (hc : IsReal c192) (hW : IsReal attW) (hb : IsReal attb) :
    IsReal (attZ c192 attW attb) := by
  intro i
  unfold attZ
  rw [shapeCast_apply _ shapeCasts_S8192x192_S8192x64x3 i (idx_main_v323 i)
    (by rewrite [Shape.rowMajor_val_two, Shape.rowMajor_val_three]; have h0 : (i 0).val < 8192 := (i 0).isLt; have h1 : (i 1).val < 64 := (i 1).isLt; have h2 : (i 2).val < 3 := (i 2).isLt; show (((i 0).val * 64 + (i 1).val) * 3 + (i 2).val) / 192 * 192 + (((i 0).val * 64 + (i 1).val) * 3 + (i 2).val) % 192 = ((i 0).val * 64 + (i 1).val) * 3 + (i 2).val; omega)]
  rw [addf_apply, dot192_apply, val_main_v321_apply, val_main_v320_apply]
  exact real_add' (real_sum' _ (fun k => real_mul' (hc _) (hW _))) (hb _)

/-- the attention of real-valued features, weight and bias is real-valued -/
theorem isReal_attR {c192 : (⟨S8192x192, .f32⟩ : BufTy).Contents (Elt Ideal)} {attW : (⟨S192x192, .f32⟩ : BufTy).Contents (Elt Ideal)} {attb : (⟨S192, .f32⟩ : BufTy).Contents (Elt Ideal)} (hc : IsReal c192) (hW : IsReal attW) (hb : IsReal attb) :
    IsReal (attR c192 attW attb) :=
  isReal_softmax3 (isReal_attZ hc hW hb)

/-! ## The combination -/

/-- channel 0 of the attention, as an array over (node, feature) -/
def attCh0 (att : (⟨S8192x64x3, .f32⟩ : BufTy).Contents (Elt Ideal)) : (⟨S8192x64, .f32⟩ : BufTy).Contents (Elt Ideal) :=
  shapeCast _ (extractStridedSlice S8192x64x1 ![0, 0, 0] att slices_S8192x64x3_S8192x64x1_0_0_0) shapeCasts_S8192x64x1_S8192x64
/-- channel 1 of the attention -/
def attCh1 (att : (⟨S8192x64x3, .f32⟩ : BufTy).Contents (Elt Ideal)) : (⟨S8192x64, .f32⟩ : BufTy).Contents (Elt Ideal) :=
  shapeCast _ (extractStridedSlice S8192x64x1 ![0, 0, 1] att slices_S8192x64x3_S8192x64x1_0_0_1) shapeCasts_S8192x64x1_S8192x64
/-- channel 2 of the attention -/
def attCh2 (att : (⟨S8192x64x3, .f32⟩ : BufTy).Contents (Elt Ideal)) : (⟨S8192x64, .f32⟩ : BufTy).Contents (Elt Ideal) :=
  shapeCast _ (extractStridedSlice S8192x64x1 ![0, 0, 2] att slices_S8192x64x3_S8192x64x1_0_0_2) shapeCasts_S8192x64x1_S8192x64

/-- the attention-weighted sum of the three encoder outputs -/
def combR (ha hs ht : (⟨S8192x64, .f32⟩ : BufTy).Contents (Elt Ideal)) (att : (⟨S8192x64x3, .f32⟩ : BufTy).Contents (Elt Ideal)) : (⟨S8192x64, .f32⟩ : BufTy).Contents (Elt Ideal) :=
  addf (F := Ideal) (φ := .f32) (addf (F := Ideal) (φ := .f32) (mulf (F := Ideal) (φ := .f32) ha (attCh0 att)) (mulf (F := Ideal) (φ := .f32) hs (attCh1 att))) (mulf (F := Ideal) (φ := .f32) ht (attCh2 att))

/-- dropping the unit last axis keeps the (node, feature) position -/
theorem squeeze_apply (y : (⟨S8192x64x1, .f32⟩ : BufTy).Contents (Elt Ideal)) (v : Fin 8192) (j : Fin 64) :
    shapeCast S8192x64 y shapeCasts_S8192x64x1_S8192x64 (ix2 v j) = y (ix3 v j (⟨0, Nat.one_pos⟩ : Fin 1)) := by
  refine shapeCast_apply y shapeCasts_S8192x64x1_S8192x64 (ix2 v j) (ix3 v j (⟨0, Nat.one_pos⟩ : Fin 1)) ?_
  rewrite [Shape.rowMajor_val_three, Shape.rowMajor_val_two]
  show (v.val * 64 + j.val) * 1 + 0 = v.val * 64 + j.val
  omega

/-- channel c of the attention at (v, j) is the attention at (v, j, c) -/
theorem attCh0_apply (att : (⟨S8192x64x3, .f32⟩ : BufTy).Contents (Elt Ideal)) (v : Fin 8192) (j : Fin 64) : attCh0 att (ix2 v j) = att (ix3 v j (0 : Fin 3)) := by
  unfold attCh0
  rw [squeeze_apply]
  exact extractStridedSlice_apply ![0, 0, 0] att slices_S8192x64x3_S8192x64x1_0_0_0 _ (ix3 v j (0 : Fin 3)) (fun a => match a with
    | ⟨0, _⟩ => by show v.val = 0 + v.val; omega
    | ⟨1, _⟩ => by show j.val = 0 + j.val; omega
    | ⟨2, _⟩ => by show (0 : Fin 3).val = 0 + 0; rfl)
theorem attCh1_apply (att : (⟨S8192x64x3, .f32⟩ : BufTy).Contents (Elt Ideal)) (v : Fin 8192) (j : Fin 64) : attCh1 att (ix2 v j) = att (ix3 v j (1 : Fin 3)) := by
  unfold attCh1
  rw [squeeze_apply]
  exact extractStridedSlice_apply ![0, 0, 1] att slices_S8192x64x3_S8192x64x1_0_0_1 _ (ix3 v j (1 : Fin 3)) (fun a => match a with
    | ⟨0, _⟩ => by show v.val = 0 + v.val; omega
    | ⟨1, _⟩ => by show j.val = 0 + j.val; omega
    | ⟨2, _⟩ => by show (1 : Fin 3).val = 1 + 0; rfl)
theorem attCh2_apply (att : (⟨S8192x64x3, .f32⟩ : BufTy).Contents (Elt Ideal)) (v : Fin 8192) (j : Fin 64) : attCh2 att (ix2 v j) = att (ix3 v j (2 : Fin 3)) := by
  unfold attCh2
  rw [squeeze_apply]
  exact extractStridedSlice_apply ![0, 0, 2] att slices_S8192x64x3_S8192x64x1_0_0_2 _ (ix3 v j (2 : Fin 3)) (fun a => match a with
    | ⟨0, _⟩ => by show v.val = 0 + v.val; omega
    | ⟨1, _⟩ => by show j.val = 0 + j.val; omega
    | ⟨2, _⟩ => by show (2 : Fin 3).val = 2 + 0; rfl)

/-- the combination at (v, j) -/
theorem combR_apply (ha hs ht : (⟨S8192x64, .f32⟩ : BufTy).Contents (Elt Ideal)) (att : (⟨S8192x64x3, .f32⟩ : BufTy).Contents (Elt Ideal)) (v : Fin 8192) (j : Fin 64) :
    combR ha hs ht att (ix2 v j)
      = ha (ix2 v j) * att (ix3 v j (0 : Fin 3)) + hs (ix2 v j) * att (ix3 v j (1 : Fin 3))
        + ht (ix2 v j) * att (ix3 v j (2 : Fin 3)) := by
  unfold combR
  rw [addf_apply, addf_apply, mulf_apply, mulf_apply, mulf_apply, attCh0_apply, attCh1_apply, attCh2_apply]

/-- the combination of real-valued arrays is real-valued -/
theorem isReal_combR {ha hs ht : (⟨S8192x64, .f32⟩ : BufTy).Contents (Elt Ideal)} {att : (⟨S8192x64x3, .f32⟩ : BufTy).Contents (Elt Ideal)} (h1 : IsReal ha) (h2 : IsReal hs) (h3 : IsReal ht) (h4 : IsReal att) :
    IsReal (combR ha hs ht att) := by
  intro i
  obtain ⟨v, j, rfl⟩ := idx2_cases i
  rw [combR_apply]
  exact real_add' (real_add' (real_mul' (h1 _) (h4 _)) (real_mul' (h2 _) (h4 _))) (real_mul' (h3 _) (h4 _))

/-! ## A concatenation of three arrays along the columns -/

/-- three arrays over (node, 64 features) side by side, read at (v, j): column block j / 64 -/
theorem concat3_apply (a b c : (⟨S8192x64, .f32⟩ : BufTy).Contents (Elt Ideal)) (v : Fin 8192) (j : Fin 192) :
    concatenate S8192x192 1 [⟨S8192x64, a⟩, ⟨S8192x64, b⟩, ⟨S8192x64, c⟩] concatenates_S8192x64_S8192x64_S8192x64_S8192x192_d1 (ix2 v j)
      = if h : j.val < 64 then a (ix2 v ⟨j.val, h⟩)
        else if h' : j.val < 128 then b (ix2 v ⟨j.val - 64, by omega⟩)
        else c (ix2 v ⟨j.val - 128, by omega⟩) := by
  have hoff : ∀ (w : Fin 64) (b' : Fin S8192x64.rank), b'.cast (rfl : S8192x64.rank = S8192x192.rank) ≠ (1 : Fin S8192x192.rank) →
      ((ix2 v w : S8192x64.Idx) b').val = ((ix2 v j : S8192x192.Idx) (b'.cast rfl)).val := fun w b' hb =>
    match b', hb with
    | ⟨0, _⟩, _ => rfl
    | ⟨1, _⟩, hb => absurd (Fin.ext rfl) hb
  split_ifs with h h'
  · exact concatenate_apply_piece (t := S8192x192) 1 [⟨S8192x64, a⟩, ⟨S8192x64, b⟩, ⟨S8192x64, c⟩] concatenates_S8192x64_S8192x64_S8192x64_S8192x192_d1 (ix2 v j) 0 (by show 0 < 3; omega) S8192x64 a rfl rfl 0 rfl
      (ix2 v ⟨j.val, h⟩) (hoff _) (by show 0 + j.val = j.val; omega)
  · exact concatenate_apply_piece (t := S8192x192) 1 [⟨S8192x64, a⟩, ⟨S8192x64, b⟩, ⟨S8192x64, c⟩] concatenates_S8192x64_S8192x64_S8192x64_S8192x192_d1 (ix2 v j) 1 (by show 1 < 3; omega) S8192x64 b rfl rfl 64 rfl
      (ix2 v ⟨j.val - 64, by omega⟩) (hoff _) (by show 64 + (j.val - 64) = j.val; omega)
  · exact concatenate_apply_piece (t := S8192x192) 1 [⟨S8192x64, a⟩, ⟨S8192x64, b⟩, ⟨S8192x64, c⟩] concatenates_S8192x64_S8192x64_S8192x64_S8192x192_d1 (ix2 v j) 2 (by show 2 < 3; omega) S8192x64 c rfl rfl 128 rfl
      (ix2 v ⟨j.val - 128, by omega⟩) (hoff _) (by show 128 + (j.val - 128) = j.val; omega)

/-! ## The eight convolutions

Each convolution recomputes the degrees, their inverse square roots and the edge coefficients from
the two edge lists by the same operations on the same arguments, so its coefficient and index
stages are those of the first convolution, and the whole is the one function `conv` of its own
input features, weight and bias. -/

variable (x0 : (⟨S8192x64, .f32⟩ : BufTy).Contents (Elt Ideal)) (x1 x2 : (⟨S262144, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal))
  (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S192x192, .f32⟩ : BufTy).Contents (Elt Ideal)) (x16 : (⟨S192, .f32⟩ : BufTy).Contents (Elt Ideal))
  (x17 : (⟨S64x64, .f32⟩ : BufTy).Contents (Elt Ideal)) (x18 : (⟨S64, .f32⟩ : BufTy).Contents (Elt Ideal)) (x19 : (⟨S64x64, .f32⟩ : BufTy).Contents (Elt Ideal)) (x20 : (⟨S64, .f32⟩ : BufTy).Contents (Elt Ideal))

private theorem side53_26 : val_main_v79 (F := Ideal) = val_main_v26 (F := Ideal) := rfl
private theorem side53_32 : val_main_v85 (F := Ideal) x1 = val_main_v32 (F := Ideal) x1 := rfl
private theorem side53_35 : val_main_v88 (F := Ideal) x1 x2 = val_main_v35 (F := Ideal) x1 x2 := rfl
private theorem side53_42 : val_main_v95 (F := Ideal) x2 = val_main_v42 (F := Ideal) x2 := rfl
private theorem side53_46 : val_main_v99 (F := Ideal) x2 = val_main_v46 (F := Ideal) x2 := rfl
private theorem side53_50 : val_main_v103 (F := Ideal) x6 = val_main_v50 (F := Ideal) x6 := rfl

/-- the convolution at stages %53 … %104: the first convolution's chain on this one's input,
weight and bias -/
theorem conv_v104 : val_main_v104 (F := Ideal) x0 x1 x2 x3 x4 x5 x6 = conv (val_main_v52 (F := Ideal) x0 x1 x2 x3 x4) x5 x6 x1 x2 := by
  refine Eq.trans ?_ (val_main_v51_conv (val_main_v52 (F := Ideal) x0 x1 x2 x3 x4) x1 x2 x5 x6)
  unfold val_main_v104 val_main_v101 val_main_v100 val_main_v96 val_main_v89 val_main_v86 val_main_v53
    val_main_v51 val_main_v48 val_main_v47 val_main_v43 val_main_v36 val_main_v33 val_main_v0
  rw [side53_26, side53_32, side53_35, side53_42, side53_46, side53_50]

private theorem side106_26 : val_main_v132 (F := Ideal) = val_main_v26 (F := Ideal) := rfl
private theorem side106_32 : val_main_v138 (F := Ideal) x1 = val_main_v32 (F := Ideal) x1 := rfl
private theorem side106_35 : val_main_v141 (F := Ideal) x1 x2 = val_main_v35 (F := Ideal) x1 x2 := rfl
private theorem side106_42 : val_main_v148 (F := Ideal) x2 = val_main_v42 (F := Ideal) x2 := rfl
private theorem side106_46 : val_main_v152 (F := Ideal) x2 = val_main_v46 (F := Ideal) x2 := rfl
private theorem side106_50 : val_main_v156 (F := Ideal) x8 = val_main_v50 (F := Ideal) x8 := rfl

/-- the convolution at stages %106 … %157: the first convolution's chain on this one's input,
weight and bias -/
theorem conv_v157 : val_main_v157 (F := Ideal) x0 x1 x2 x7 x8 = conv x0 x7 x8 x1 x2 := by
  refine Eq.trans ?_ (val_main_v51_conv x0 x1 x2 x7 x8)
  unfold val_main_v157 val_main_v154 val_main_v153 val_main_v149 val_main_v142 val_main_v139 val_main_v106
    val_main_v51 val_main_v48 val_main_v47 val_main_v43 val_main_v36 val_main_v33 val_main_v0
  rw [side106_26, side106_32, side106_35, side106_42, side106_46, side106_50]

private theorem side159_26 : val_main_v185 (F := Ideal) = val_main_v26 (F := Ideal) := rfl
private theorem side159_32 : val_main_v191 (F := Ideal) x1 = val_main_v32 (F := Ideal) x1 := rfl
private theorem side159_35 : val_main_v194 (F := Ideal) x1 x2 = val_main_v35 (F := Ideal) x1 x2 := rfl
private theorem side159_42 : val_main_v201 (F := Ideal) x2 = val_main_v42 (F := Ideal) x2 := rfl
private theorem side159_46 : val_main_v205 (F := Ideal) x2 = val_main_v46 (F := Ideal) x2 := rfl
private theorem side159_50 : val_main_v209 (F := Ideal) x10 = val_main_v50 (F := Ideal) x10 := rfl

/-- the convolution at stages %159 … %210: the first convolution's chain on this one's input,
weight and bias -/
theorem conv_v210 : val_main_v210 (F := Ideal) x0 x1 x2 x7 x8 x9 x10 = conv (val_main_v158 (F := Ideal) x0 x1 x2 x7 x8) x9 x10 x1 x2 := by
  refine Eq.trans ?_ (val_main_v51_conv (val_main_v158 (F := Ideal) x0 x1 x2 x7 x8) x1 x2 x9 x10)
  unfold val_main_v210 val_main_v207 val_main_v206 val_main_v202 val_main_v195 val_main_v192 val_main_v159
    val_main_v51 val_main_v48 val_main_v47 val_main_v43 val_main_v36 val_main_v33 val_main_v0
  rw [side159_26, side159_32, side159_35, side159_42, side159_46, side159_50]

private theorem side212_26 : val_main_v238 (F := Ideal) = val_main_v26 (F := Ideal) := rfl
private theorem side212_32 : val_main_v244 (F := Ideal) x1 = val_main_v32 (F := Ideal) x1 := rfl
private theorem side212_35 : val_main_v247 (F := Ideal) x1 x2 = val_main_v35 (F := Ideal) x1 x2 := rfl
private theorem side212_42 : val_main_v254 (F := Ideal) x2 = val_main_v42 (F := Ideal) x2 := rfl
private theorem side212_46 : val_main_v258 (F := Ideal) x2 = val_main_v46 (F := Ideal) x2 := rfl
private theorem side212_50 : val_main_v262 (F := Ideal) x12 = val_main_v50 (F := Ideal) x12 := rfl

/-- the convolution at stages %212 … %263: the first convolution's chain on this one's input,
weight and bias -/
theorem conv_v263 : val_main_v263 (F := Ideal) x0 x1 x2 x11 x12 = conv x0 x11 x12 x1 x2 := by
  refine Eq.trans ?_ (val_main_v51_conv x0 x1 x2 x11 x12)
  unfold val_main_v263 val_main_v260 val_main_v259 val_main_v255 val_main_v248 val_main_v245 val_main_v212
    val_main_v51 val_main_v48 val_main_v47 val_main_v43 val_main_v36 val_main_v33 val_main_v0
  rw [side212_26, side212_32, side212_35, side212_42, side212_46, side212_50]

private theorem side265_26 : val_main_v291 (F := Ideal) = val_main_v26 (F := Ideal) := rfl
private theorem side265_32 : val_main_v297 (F := Ideal) x1 = val_main_v32 (F := Ideal) x1 := rfl
private theorem side265_35 : val_main_v300 (F := Ideal) x1 x2 = val_main_v35 (F := Ideal) x1 x2 := rfl
private theorem side265_42 : val_main_v307 (F := Ideal) x2 = val_main_v42 (F := Ideal) x2 := rfl
private theorem side265_46 : val_main_v311 (F := Ideal) x2 = val_main_v46 (F := Ideal) x2 := rfl
private theorem side265_50 : val_main_v315 (F := Ideal) x14 = val_main_v50 (F := Ideal) x14 := rfl

/-- the convolution at stages %265 … %316: the first convolution's chain on this one's input,
weight and bias -/
theorem conv_v316 : val_main_v316 (F := Ideal) x0 x1 x2 x11 x12 x13 x14 = conv (val_main_v264 (F := Ideal) x0 x1 x2 x11 x12) x13 x14 x1 x2 := by
  refine Eq.trans ?_ (val_main_v51_conv (val_main_v264 (F := Ideal) x0 x1 x2 x11 x12) x1 x2 x13 x14)
  unfold val_main_v316 val_main_v313 val_main_v312 val_main_v308 val_main_v301 val_main_v298 val_main_v265
    val_main_v51 val_main_v48 val_main_v47 val_main_v43 val_main_v36 val_main_v33 val_main_v0
  rw [side265_26, side265_32, side265_35, side265_42, side265_46, side265_50]

private theorem side346_26 : val_main_v372 (F := Ideal) = val_main_v26 (F := Ideal) := rfl
private theorem side346_32 : val_main_v378 (F := Ideal) x1 = val_main_v32 (F := Ideal) x1 := rfl
private theorem side346_35 : val_main_v381 (F := Ideal) x1 x2 = val_main_v35 (F := Ideal) x1 x2 := rfl
private theorem side346_42 : val_main_v388 (F := Ideal) x2 = val_main_v42 (F := Ideal) x2 := rfl
private theorem side346_46 : val_main_v392 (F := Ideal) x2 = val_main_v46 (F := Ideal) x2 := rfl
private theorem side346_50 : val_main_v396 (F := Ideal) x18 = val_main_v50 (F := Ideal) x18 := rfl

/-- the convolution at stages %346 … %397: the first convolution's chain on this one's input,
weight and bias -/
theorem conv_v397 : val_main_v397 (F := Ideal) x0 x1 x2 x3 x4 x5 x6 x7 x8 x9 x10 x11 x12 x13 x14 x15 x16 x17 x18 = conv (val_main_v345 (F := Ideal) x0 x1 x2 x3 x4 x5 x6 x7 x8 x9 x10 x11 x12 x13 x14 x15 x16) x17 x18 x1 x2 := by
  refine Eq.trans ?_ (val_main_v51_conv (val_main_v345 (F := Ideal) x0 x1 x2 x3 x4 x5 x6 x7 x8 x9 x10 x11 x12 x13 x14 x15 x16) x1 x2 x17 x18)
  unfold val_main_v397 val_main_v394 val_main_v393 val_main_v389 val_main_v382 val_main_v379 val_main_v346
    val_main_v51 val_main_v48 val_main_v47 val_main_v43 val_main_v36 val_main_v33 val_main_v0
  rw [side346_26, side346_32, side346_35, side346_42, side346_46, side346_50]

private theorem side398_26 : val_main_v424 (F := Ideal) = val_main_v26 (F := Ideal) := rfl
private theorem side398_32 : val_main_v430 (F := Ideal) x1 = val_main_v32 (F := Ideal) x1 := rfl
private theorem side398_35 : val_main_v433 (F := Ideal) x1 x2 = val_main_v35 (F := Ideal) x1 x2 := rfl
private theorem side398_42 : val_main_v440 (F := Ideal) x2 = val_main_v42 (F := Ideal) x2 := rfl
private theorem side398_46 : val_main_v444 (F := Ideal) x2 = val_main_v46 (F := Ideal) x2 := rfl
private theorem side398_50 : val_main_v448 (F := Ideal) x20 = val_main_v50 (F := Ideal) x20 := rfl

/-- the convolution at stages %398 … %449: the first convolution's chain on this one's input,
weight and bias -/
theorem conv_v449 : val_main_v449 (F := Ideal) x0 x1 x2 x3 x4 x5 x6 x7 x8 x9 x10 x11 x12 x13 x14 x15 x16 x19 x20 = conv (val_main_v345 (F := Ideal) x0 x1 x2 x3 x4 x5 x6 x7 x8 x9 x10 x11 x12 x13 x14 x15 x16) x19 x20 x1 x2 := by
  refine Eq.trans ?_ (val_main_v51_conv (val_main_v345 (F := Ideal) x0 x1 x2 x3 x4 x5 x6 x7 x8 x9 x10 x11 x12 x13 x14 x15 x16) x1 x2 x19 x20)
  unfold val_main_v449 val_main_v446 val_main_v445 val_main_v441 val_main_v434 val_main_v431 val_main_v398
    val_main_v51 val_main_v48 val_main_v47 val_main_v43 val_main_v36 val_main_v33 val_main_v0
  rw [side398_26, side398_32, side398_35, side398_42, side398_46, side398_50]

/-- every call of the rectifier builds the same zero array -/
private theorem relu_c1 : val_main_call1_v0 (F := Ideal) = val_main_call0_v0 (F := Ideal) := rfl
private theorem relu_c2 : val_main_call2_v0 (F := Ideal) = val_main_call0_v0 (F := Ideal) := rfl
private theorem relu_c3 : val_main_call3_v0 (F := Ideal) = val_main_call0_v0 (F := Ideal) := rfl
private theorem relu_c4 : val_main_call4_v0 (F := Ideal) = val_main_call0_v0 (F := Ideal) := rfl
private theorem relu_c5 : val_main_call5_v0 (F := Ideal) = val_main_call0_v0 (F := Ideal) := rfl

theorem st_v52 : val_main_v52 (F := Ideal) x0 x1 x2 x3 x4 = reluV (conv x0 x3 x4 x1 x2) := by
  unfold val_main_v52 reluV
  rw [val_main_v51_conv]

theorem st_v105 : val_main_v105 (F := Ideal) x0 x1 x2 x3 x4 x5 x6 = reluV (conv (val_main_v52 (F := Ideal) x0 x1 x2 x3 x4) x5 x6 x1 x2) := by
  unfold val_main_v105 reluV
  rw [relu_c1, conv_v104]

theorem st_v158 : val_main_v158 (F := Ideal) x0 x1 x2 x7 x8 = reluV (conv x0 x7 x8 x1 x2) := by
  unfold val_main_v158 reluV
  rw [relu_c2, conv_v157]

theorem st_v211 : val_main_v211 (F := Ideal) x0 x1 x2 x7 x8 x9 x10 = reluV (conv (val_main_v158 (F := Ideal) x0 x1 x2 x7 x8) x9 x10 x1 x2) := by
  unfold val_main_v211 reluV
  rw [relu_c3, conv_v210]

theorem st_v264 : val_main_v264 (F := Ideal) x0 x1 x2 x11 x12 = reluV (conv x0 x11 x12 x1 x2) := by
  unfold val_main_v264 reluV
  rw [relu_c4, conv_v263]

theorem st_v317 : val_main_v317 (F := Ideal) x0 x1 x2 x11 x12 x13 x14 = reluV (conv (val_main_v264 (F := Ideal) x0 x1 x2 x11 x12) x13 x14 x1 x2) := by
  unfold val_main_v317 reluV
  rw [relu_c5, conv_v316]

theorem st_v397 : val_main_v397 (F := Ideal) x0 x1 x2 x3 x4 x5 x6 x7 x8 x9 x10 x11 x12 x13 x14 x15 x16 x17 x18 = conv (val_main_v345 (F := Ideal) x0 x1 x2 x3 x4 x5 x6 x7 x8 x9 x10 x11 x12 x13 x14 x15 x16) x17 x18 x1 x2 :=
  conv_v397 x0 x1 x2 x3 x4 x5 x6 x7 x8 x9 x10 x11 x12 x13 x14 x15 x16 x17 x18

theorem st_v449 : val_main_v449 (F := Ideal) x0 x1 x2 x3 x4 x5 x6 x7 x8 x9 x10 x11 x12 x13 x14 x15 x16 x19 x20 = conv (val_main_v345 (F := Ideal) x0 x1 x2 x3 x4 x5 x6 x7 x8 x9 x10 x11 x12 x13 x14 x15 x16) x19 x20 x1 x2 :=
  conv_v449 x0 x1 x2 x3 x4 x5 x6 x7 x8 x9 x10 x11 x12 x13 x14 x15 x16 x19 x20

/-! ## The attention and the combination as stages -/

theorem st_v334 : val_main_v334 (F := Ideal) x0 x1 x2 x3 x4 x5 x6 x7 x8 x9 x10 x11 x12 x13 x14 x15 x16 = attR (val_main_v318 (F := Ideal) x0 x1 x2 x3 x4 x5 x6 x7 x8 x9 x10 x11 x12 x13 x14) x15 x16 := by
  unfold val_main_v334 val_main_v333 val_main_v332 val_main_v331 val_main_v330 val_main_v329 val_main_v328 val_main_v327
    val_main_v326 val_main_v324 val_main_v323 val_main_v322 val_main_v319 attR softmax3 attS attE attM rowMax rowSum rep3 attZ
  with_reducible rfl

theorem st_v345 : val_main_v345 (F := Ideal) x0 x1 x2 x3 x4 x5 x6 x7 x8 x9 x10 x11 x12 x13 x14 x15 x16 = combR (val_main_v105 (F := Ideal) x0 x1 x2 x3 x4 x5 x6) (val_main_v211 (F := Ideal) x0 x1 x2 x7 x8 x9 x10) (val_main_v317 (F := Ideal) x0 x1 x2 x11 x12 x13 x14) (val_main_v334 (F := Ideal) x0 x1 x2 x3 x4 x5 x6 x7 x8 x9 x10 x11 x12 x13 x14 x15 x16) := by
  unfold val_main_v345 val_main_v344 val_main_v343 val_main_v342 val_main_v341 val_main_v340 val_main_v339 val_main_v338
    val_main_v337 val_main_v336 val_main_v335 combR attCh0 attCh1 attCh2
  with_reducible rfl

/-! ## The concatenation and the Gram matrix, read at an index -/

/-- the concatenation read at (v, j): column block j / 64 -/
theorem v318_apply (v : Fin 8192) (j : Fin 192) :
    val_main_v318 (F := Ideal) x0 x1 x2 x3 x4 x5 x6 x7 x8 x9 x10 x11 x12 x13 x14 (ix2 v j)
      = if h : j.val < 64 then val_main_v105 (F := Ideal) x0 x1 x2 x3 x4 x5 x6 (ix2 v ⟨j.val, h⟩)
        else if h' : j.val < 128 then val_main_v211 (F := Ideal) x0 x1 x2 x7 x8 x9 x10 (ix2 v ⟨j.val - 64, by omega⟩)
        else val_main_v317 (F := Ideal) x0 x1 x2 x11 x12 x13 x14 (ix2 v ⟨j.val - 128, by omega⟩) := by
  unfold val_main_v318
  exact concat3_apply _ _ _ v j

/-- the last result at (v, s): the sum over the 64 features of h_(v,k) · h_(s,k) -/
theorem v451_apply (v s : Fin 8192) :
    val_main_v451 (F := Ideal) x0 x1 x2 x3 x4 x5 x6 x7 x8 x9 x10 x11 x12 x13 x14 x15 x16 x19 x20 (ix2 v s)
      = ∑ k : Fin 64, val_main_v449 (F := Ideal) x0 x1 x2 x3 x4 x5 x6 x7 x8 x9 x10 x11 x12 x13 x14 x15 x16 x19 x20 (ix2 v k) * val_main_v449 (F := Ideal) x0 x1 x2 x3 x4 x5 x6 x7 x8 x9 x10 x11 x12 x13 x14 x15 x16 x19 x20 (ix2 s k) := by
  rw [val_main_v451_apply]
  refine Finset.sum_congr rfl fun k _ => ?_
  rw [val_main_v450_apply]
  have e1 : lidx_main_v451 (ix2 v s) k = ix2 v k := funext fun a => match a with | ⟨0, _⟩ => rfl | ⟨1, _⟩ => rfl
  have e2 : idx_main_v450 (ridx_main_v451 (ix2 v s) k) = ix2 s k := funext fun a => match a with | ⟨0, _⟩ => rfl | ⟨1, _⟩ => rfl
  rw [e1, e2]

/-! ## Real-valuedness along the way -/

theorem isReal_v52 (h0 : IsReal x0) (h3 : IsReal x3) (h4 : IsReal x4) : IsReal (val_main_v52 (F := Ideal) x0 x1 x2 x3 x4) := by
  rw [st_v52]
  exact isReal_reluV (isReal_conv x1 x2 h0 h3 h4)

theorem isReal_v105 (h0 : IsReal x0) (h3 : IsReal x3) (h4 : IsReal x4) (h5 : IsReal x5) (h6 : IsReal x6) :
    IsReal (val_main_v105 (F := Ideal) x0 x1 x2 x3 x4 x5 x6) := by
  rw [st_v105]
  exact isReal_reluV (isReal_conv x1 x2 (isReal_v52 x0 x1 x2 x3 x4 h0 h3 h4) h5 h6)

theorem isReal_v158 (h0 : IsReal x0) (h7 : IsReal x7) (h8 : IsReal x8) : IsReal (val_main_v158 (F := Ideal) x0 x1 x2 x7 x8) := by
  rw [st_v158]
  exact isReal_reluV (isReal_conv x1 x2 h0 h7 h8)

theorem isReal_v211 (h0 : IsReal x0) (h7 : IsReal x7) (h8 : IsReal x8) (h9 : IsReal x9) (h10 : IsReal x10) :
    IsReal (val_main_v211 (F := Ideal) x0 x1 x2 x7 x8 x9 x10) := by
  rw [st_v211]
  exact isReal_reluV (isReal_conv x1 x2 (isReal_v158 x0 x1 x2 x7 x8 h0 h7 h8) h9 h10)

theorem isReal_v264 (h0 : IsReal x0) (h11 : IsReal x11) (h12 : IsReal x12) : IsReal (val_main_v264 (F := Ideal) x0 x1 x2 x11 x12) := by
  rw [st_v264]
  exact isReal_reluV (isReal_conv x1 x2 h0 h11 h12)

theorem isReal_v317 (h0 : IsReal x0) (h11 : IsReal x11) (h12 : IsReal x12) (h13 : IsReal x13) (h14 : IsReal x14) :
    IsReal (val_main_v317 (F := Ideal) x0 x1 x2 x11 x12 x13 x14) := by
  rw [st_v317]
  exact isReal_reluV (isReal_conv x1 x2 (isReal_v264 x0 x1 x2 x11 x12 h0 h11 h12) h13 h14)

/-- the concatenated encoder outputs are real-valued -/
theorem isReal_v318 (h0 : IsReal x0) (h3 : IsReal x3) (h4 : IsReal x4) (h5 : IsReal x5) (h6 : IsReal x6) (h7 : IsReal x7) (h8 : IsReal x8) (h9 : IsReal x9) (h10 : IsReal x10) (h11 : IsReal x11) (h12 : IsReal x12) (h13 : IsReal x13) (h14 : IsReal x14) :
    IsReal (val_main_v318 (F := Ideal) x0 x1 x2 x3 x4 x5 x6 x7 x8 x9 x10 x11 x12 x13 x14) := by
  intro i
  obtain ⟨v, j, rfl⟩ : ∃ (v : Fin 8192) (j : Fin 192), i = ix2 v j := ⟨i 0, i 1, eq_ix2 i⟩
  rw [v318_apply]
  split_ifs
  · exact isReal_v105 x0 x1 x2 x3 x4 x5 x6 h0 h3 h4 h5 h6 _
  · exact isReal_v211 x0 x1 x2 x7 x8 x9 x10 h0 h7 h8 h9 h10 _
  · exact isReal_v317 x0 x1 x2 x11 x12 x13 x14 h0 h11 h12 h13 h14 _

/-- the attention is real-valued -/
theorem isReal_v334 (h0 : IsReal x0) (h3 : IsReal x3) (h4 : IsReal x4) (h5 : IsReal x5) (h6 : IsReal x6) (h7 : IsReal x7) (h8 : IsReal x8) (h9 : IsReal x9) (h10 : IsReal x10) (h11 : IsReal x11) (h12 : IsReal x12) (h13 : IsReal x13) (h14 : IsReal x14) (h15 : IsReal x15) (h16 : IsReal x16) :
    IsReal (val_main_v334 (F := Ideal) x0 x1 x2 x3 x4 x5 x6 x7 x8 x9 x10 x11 x12 x13 x14 x15 x16) := by
  rw [st_v334]
  exact isReal_attR (isReal_v318 x0 x1 x2 x3 x4 x5 x6 x7 x8 x9 x10 x11 x12 x13 x14 h0 h3 h4 h5 h6 h7 h8 h9 h10 h11 h12 h13 h14) h15 h16

/-- the combined features are real-valued -/
theorem isReal_v345 (h0 : IsReal x0) (h3 : IsReal x3) (h4 : IsReal x4) (h5 : IsReal x5) (h6 : IsReal x6) (h7 : IsReal x7) (h8 : IsReal x8) (h9 : IsReal x9) (h10 : IsReal x10) (h11 : IsReal x11) (h12 : IsReal x12) (h13 : IsReal x13) (h14 : IsReal x14) (h15 : IsReal x15) (h16 : IsReal x16) :
    IsReal (val_main_v345 (F := Ideal) x0 x1 x2 x3 x4 x5 x6 x7 x8 x9 x10 x11 x12 x13 x14 x15 x16) := by
  rw [st_v345]
  exact isReal_combR (isReal_v105 x0 x1 x2 x3 x4 x5 x6 h0 h3 h4 h5 h6) (isReal_v211 x0 x1 x2 x7 x8 x9 x10 h0 h7 h8 h9 h10)
    (isReal_v317 x0 x1 x2 x11 x12 x13 x14 h0 h11 h12 h13 h14) (isReal_v334 x0 x1 x2 x3 x4 x5 x6 x7 x8 x9 x10 x11 x12 x13 x14 x15 x16 h0 h3 h4 h5 h6 h7 h8 h9 h10 h11 h12 h13 h14 h15 h16)

end Cert.ReferenceIdeal.Hand

end
-- ==== Proof.PreRead.lean ====
/-
  The precondition read back. The predicate is a conjunction, by `and`, of twenty tests, each an "all entries" reduction
  by `and` of an elementwise compare: for each of the nineteen float arrays, |x| < +∞ at every entry; for the
  source-index array, 0 ≤ src and src < 8192 (signed) at every entry. That the predicate is 1 therefore says: every float
  entry is a real number (an extended real whose absolute value is below +∞ is neither infinity), and every source index
  is an integer in [0, 8192).
-/
import proofs.«414230_j6141803233547_3_alg».proof.Pre_finite_inputs
import proofs.«414230_j6141803233547_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreRead

open Idealize.ShloMosaic Cert.Pre_finite_inputs

/-- the precondition, as Defs.lean states it of the 21 argument arrays -/
abbrev Holds [Cert.Pre_finite_inputs.Facts] (a0 : FVec Ideal S8192x64 .f32) (a1 a2 : IVec S262144 32) (a3 : FVec Ideal S64x64 .f32) (a4 : FVec Ideal S64 .f32) (a5 : FVec Ideal S64x64 .f32) (a6 : FVec Ideal S64 .f32) (a7 : FVec Ideal S64x64 .f32) (a8 : FVec Ideal S64 .f32) (a9 : FVec Ideal S64x64 .f32) (a10 : FVec Ideal S64 .f32) (a11 : FVec Ideal S64x64 .f32) (a12 : FVec Ideal S64 .f32) (a13 : FVec Ideal S64x64 .f32) (a14 : FVec Ideal S64 .f32) (a15 : FVec Ideal S192x192 .f32) (a16 : FVec Ideal S192 .f32) (a17 : FVec Ideal S64x64 .f32) (a18 : FVec Ideal S64 .f32) (a19 : FVec Ideal S64x64 .f32) (a20 : FVec Ideal S64 .f32) : Prop :=
  Cert.Pre_finite_inputs.fn (F := Ideal) a0 a1 a2 a3 a4 a5 a6 a7 a8 a9 a10 a11 a12 a13 a14 a15 a16 a17 a18 a19 a20 = (fun _ => 1#1)

/-- a rank-0 array has one index -/
instance : Subsingleton S_.Idx := ⟨fun a b => funext fun d => d.elim0⟩

/-! ## One entry -/

/-- the f32 pattern 0x7F800000 (sign 0, exponent all ones, fraction 0) is +∞ -/
theorem inf_bits : Ideal.ofBits .f32 0x7F800000#32 = (⊤ : EReal) := by
  simp [Ideal.ofBits, Ideal.ieee]

/-- |x| < +∞ excludes both infinities: max x (−x) is +∞ at x = +∞ and at x = −∞ -/
theorem real_of_abs_lt_inf (x : EReal)
    (h : Ideal.cmp .olt (max x (-x)) (Ideal.ofBits .f32 0x7F800000#32) = 1#1) : ∃ r : ℝ, x = (r : EReal) := by
  rw [inf_bits] at h
  unfold Ideal.cmp at h
  rw [StableHlo.Predicate.ofBool_eq_one_iff, decide_eq_true_eq] at h
  induction x using EReal.rec with
  | bot => simp at h
  | coe r => exact ⟨r, rfl⟩
  | top => simp at h

/-! ## One array: an "all entries" reduction that is 1 holds at every entry -/

/-- all(|x| < +∞) = 1 over an array of any shape: every entry is a real number -/
theorem real_of_all {s : Shape} {axes : List (Fin s.rank)} (hb : S_.BroadcastsInDim s (![] : Fin 0 → Fin s.rank))
    (hr : s.ReducesTo axes S_) (h0 : 0 < S_.numel) (x : FVec Ideal s .f32) (c : IVec S_ 1)
    (h : Host.reduce IntOp.andi (cmpf .olt (Host.absf x) (broadcastInDim s ![] hb (constant (F := Ideal) S_ .f32 0x7F800000#32))) c hr h0
      ValueIdx.ix0 = 1#1) : ∀ i, ∃ r : ℝ, x i = (r : EReal) := fun i =>
  real_of_abs_lt_inf (x i) (Host.reduce_andi_all _ _ hr h0 ValueIdx.ix0 h i)

/-- all(0 ≤ x ∧ x < 8192) = 1, both compares signed: every entry, as a signed integer, is in [0, 8192) -/
theorem range_of_all {s : Shape} {axes : List (Fin s.rank)} (hb : S_.BroadcastsInDim s (![] : Fin 0 → Fin s.rank))
    (hr : s.ReducesTo axes S_) (h0 : 0 < S_.numel) (x : IVec s 32) (c : IVec S_ 1)
    (h : Host.reduce IntOp.andi (andi (cmpi .sge x (broadcastInDim s ![] hb (constantI S_ 32 0#32)))
        (cmpi .slt x (broadcastInDim s ![] hb (constantI S_ 32 8192#32)))) c hr h0 ValueIdx.ix0 = 1#1) :
    ∀ e, 0 ≤ (x e).toInt ∧ (x e).toInt < 8192 := fun e => by
  obtain ⟨h1, h2⟩ := IntOp.andi_eq_one.1 (Host.reduce_andi_all _ _ hr h0 ValueIdx.ix0 h e)
  exact ⟨IntOp.cmpi_sge.1 h1, IntOp.cmpi_slt.1 h2⟩

/-! ## The whole predicate: a left-nested `and` of the twenty reductions, at the one index of the result -/

/-- the predicate is 1: each of its twenty conjuncts is 1, and each says its array's entrywise fact -/
theorem all_read [Cert.Pre_finite_inputs.Facts] (a0 : FVec Ideal S8192x64 .f32) (a1 a2 : IVec S262144 32) (a3 : FVec Ideal S64x64 .f32) (a4 : FVec Ideal S64 .f32) (a5 : FVec Ideal S64x64 .f32) (a6 : FVec Ideal S64 .f32) (a7 : FVec Ideal S64x64 .f32) (a8 : FVec Ideal S64 .f32) (a9 : FVec Ideal S64x64 .f32) (a10 : FVec Ideal S64 .f32) (a11 : FVec Ideal S64x64 .f32) (a12 : FVec Ideal S64 .f32) (a13 : FVec Ideal S64x64 .f32) (a14 : FVec Ideal S64 .f32) (a15 : FVec Ideal S192x192 .f32) (a16 : FVec Ideal S192 .f32) (a17 : FVec Ideal S64x64 .f32) (a18 : FVec Ideal S64 .f32) (a19 : FVec Ideal S64x64 .f32) (a20 : FVec Ideal S64 .f32)
    (h : Holds a0 a1 a2 a3 a4 a5 a6 a7 a8 a9 a10 a11 a12 a13 a14 a15 a16 a17 a18 a19 a20) :
      (∀ i, ∃ r : ℝ, a0 i = (r : EReal)) ∧
      (∀ i, ∃ r : ℝ, a3 i = (r : EReal)) ∧
      (∀ i, ∃ r : ℝ, a4 i = (r : EReal)) ∧
      (∀ i, ∃ r : ℝ, a5 i = (r : EReal)) ∧
      (∀ i, ∃ r : ℝ, a6 i = (r : EReal)) ∧
      (∀ i, ∃ r : ℝ, a7 i = (r : EReal)) ∧
      (∀ i, ∃ r : ℝ, a8 i = (r : EReal)) ∧
      (∀ i, ∃ r : ℝ, a9 i = (r : EReal)) ∧
      (∀ i, ∃ r : ℝ, a10 i = (r : EReal)) ∧
      (∀ i, ∃ r : ℝ, a11 i = (r : EReal)) ∧
      (∀ i, ∃ r : ℝ, a12 i = (r : EReal)) ∧
      (∀ i, ∃ r : ℝ, a13 i = (r : EReal)) ∧
      (∀ i, ∃ r : ℝ, a14 i = (r : EReal)) ∧
      (∀ i, ∃ r : ℝ, a15 i = (r : EReal)) ∧
      (∀ i, ∃ r : ℝ, a16 i = (r : EReal)) ∧
      (∀ i, ∃ r : ℝ, a17 i = (r : EReal)) ∧
      (∀ i, ∃ r : ℝ, a18 i = (r : EReal)) ∧
      (∀ i, ∃ r : ℝ, a19 i = (r : EReal)) ∧
      (∀ i, ∃ r : ℝ, a20 i = (r : EReal)) ∧
      (∀ e : S262144.Idx, 0 ≤ (a1 e).toInt ∧ (a1 e).toInt < 8192) := by
  have e := congrFun h ValueIdx.ix0
  dsimp only [fn, fn_part1, fn_part2, fn_part3, fn_part4, fn_part5] at e
  simp only [andi, IntOp.andi_eq_one] at e
  obtain ⟨⟨⟨⟨⟨⟨⟨⟨⟨⟨⟨⟨⟨⟨⟨⟨⟨⟨⟨h0, h3⟩, h4⟩, h5⟩, h6⟩, h7⟩, h8⟩, h9⟩, h10⟩, h11⟩, h12⟩, h13⟩, h14⟩, h15⟩, h16⟩, h17⟩, h18⟩, h19⟩, h20⟩, hsrc⟩ := e
  exact ⟨real_of_all _ _ _ a0 _ h0,
    real_of_all _ _ _ a3 _ h3,
    real_of_all _ _ _ a4 _ h4,
    real_of_all _ _ _ a5 _ h5,
    real_of_all _ _ _ a6 _ h6,
    real_of_all _ _ _ a7 _ h7,
    real_of_all _ _ _ a8 _ h8,
    real_of_all _ _ _ a9 _ h9,
    real_of_all _ _ _ a10 _ h10,
    real_of_all _ _ _ a11 _ h11,
    real_of_all _ _ _ a12 _ h12,
    real_of_all _ _ _ a13 _ h13,
    real_of_all _ _ _ a14 _ h14,
    real_of_all _ _ _ a15 _ h15,
    real_of_all _ _ _ a16 _ h16,
    real_of_all _ _ _ a17 _ h17,
    real_of_all _ _ _ a18 _ h18,
    real_of_all _ _ _ a19 _ h19,
    real_of_all _ _ _ a20 _ h20,
    range_of_all _ _ _ a1 _ hsrc⟩

/-! ## The facts, one per array -/

/-- every entry of argument 0 is a real number -/
theorem real_arg0 [Cert.Pre_finite_inputs.Facts] (a0 : FVec Ideal S8192x64 .f32) (a1 a2 : IVec S262144 32) (a3 : FVec Ideal S64x64 .f32) (a4 : FVec Ideal S64 .f32) (a5 : FVec Ideal S64x64 .f32) (a6 : FVec Ideal S64 .f32) (a7 : FVec Ideal S64x64 .f32) (a8 : FVec Ideal S64 .f32) (a9 : FVec Ideal S64x64 .f32) (a10 : FVec Ideal S64 .f32) (a11 : FVec Ideal S64x64 .f32) (a12 : FVec Ideal S64 .f32) (a13 : FVec Ideal S64x64 .f32) (a14 : FVec Ideal S64 .f32) (a15 : FVec Ideal S192x192 .f32) (a16 : FVec Ideal S192 .f32) (a17 : FVec Ideal S64x64 .f32) (a18 : FVec Ideal S64 .f32) (a19 : FVec Ideal S64x64 .f32) (a20 : FVec Ideal S64 .f32)
    (h : Holds a0 a1 a2 a3 a4 a5 a6 a7 a8 a9 a10 a11 a12 a13 a14 a15 a16 a17 a18 a19 a20) : ∀ i, ∃ r : ℝ, a0 i = (r : EReal) :=
  (all_read a0 a1 a2 a3 a4 a5 a6 a7 a8 a9 a10 a11 a12 a13 a14 a15 a16 a17 a18 a19 a20 h).1

/-- every entry of argument 3 is a real number -/
theorem real_arg3 [Cert.Pre_finite_inputs.Facts] (a0 : FVec Ideal S8192x64 .f32) (a1 a2 : IVec S262144 32) (a3 : FVec Ideal S64x64 .f32) (a4 : FVec Ideal S64 .f32) (a5 : FVec Ideal S64x64 .f32) (a6 : FVec Ideal S64 .f32) (a7 : FVec Ideal S64x64 .f32) (a8 : FVec Ideal S64 .f32) (a9 : FVec Ideal S64x64 .f32) (a10 : FVec Ideal S64 .f32) (a11 : FVec Ideal S64x64 .f32) (a12 : FVec Ideal S64 .f32) (a13 : FVec Ideal S64x64 .f32) (a14 : FVec Ideal S64 .f32) (a15 : FVec Ideal S192x192 .f32) (a16 : FVec Ideal S192 .f32) (a17 : FVec Ideal S64x64 .f32) (a18 : FVec Ideal S64 .f32) (a19 : FVec Ideal S64x64 .f32) (a20 : FVec Ideal S64 .f32)
    (h : Holds a0 a1 a2 a3 a4 a5 a6 a7 a8 a9 a10 a11 a12 a13 a14 a15 a16 a17 a18 a19 a20) : ∀ i, ∃ r : ℝ, a3 i = (r : EReal) :=
  (all_read a0 a1 a2 a3 a4 a5 a6 a7 a8 a9 a10 a11 a12 a13 a14 a15 a16 a17 a18 a19 a20 h).2.1

/-- every entry of argument 4 is a real number -/
theorem real_arg4 [Cert.Pre_finite_inputs.Facts] (a0 : FVec Ideal S8192x64 .f32) (a1 a2 : IVec S262144 32) (a3 : FVec Ideal S64x64 .f32) (a4 : FVec Ideal S64 .f32) (a5 : FVec Ideal S64x64 .f32) (a6 : FVec Ideal S64 .f32) (a7 : FVec Ideal S64x64 .f32) (a8 : FVec Ideal S64 .f32) (a9 : FVec Ideal S64x64 .f32) (a10 : FVec Ideal S64 .f32) (a11 : FVec Ideal S64x64 .f32) (a12 : FVec Ideal S64 .f32) (a13 : FVec Ideal S64x64 .f32) (a14 : FVec Ideal S64 .f32) (a15 : FVec Ideal S192x192 .f32) (a16 : FVec Ideal S192 .f32) (a17 : FVec Ideal S64x64 .f32) (a18 : FVec Ideal S64 .f32) (a19 : FVec Ideal S64x64 .f32) (a20 : FVec Ideal S64 .f32)
    (h : Holds a0 a1 a2 a3 a4 a5 a6 a7 a8 a9 a10 a11 a12 a13 a14 a15 a16 a17 a18 a19 a20) : ∀ i, ∃ r : ℝ, a4 i = (r : EReal) :=
  (all_read a0 a1 a2 a3 a4 a5 a6 a7 a8 a9 a10 a11 a12 a13 a14 a15 a16 a17 a18 a19 a20 h).2.2.1

/-- every entry of argument 5 is a real number -/
theorem real_arg5 [Cert.Pre_finite_inputs.Facts] (a0 : FVec Ideal S8192x64 .f32) (a1 a2 : IVec S262144 32) (a3 : FVec Ideal S64x64 .f32) (a4 : FVec Ideal S64 .f32) (a5 : FVec Ideal S64x64 .f32) (a6 : FVec Ideal S64 .f32) (a7 : FVec Ideal S64x64 .f32) (a8 : FVec Ideal S64 .f32) (a9 : FVec Ideal S64x64 .f32) (a10 : FVec Ideal S64 .f32) (a11 : FVec Ideal S64x64 .f32) (a12 : FVec Ideal S64 .f32) (a13 : FVec Ideal S64x64 .f32) (a14 : FVec Ideal S64 .f32) (a15 : FVec Ideal S192x192 .f32) (a16 : FVec Ideal S192 .f32) (a17 : FVec Ideal S64x64 .f32) (a18 : FVec Ideal S64 .f32) (a19 : FVec Ideal S64x64 .f32) (a20 : FVec Ideal S64 .f32)
    (h : Holds a0 a1 a2 a3 a4 a5 a6 a7 a8 a9 a10 a11 a12 a13 a14 a15 a16 a17 a18 a19 a20) : ∀ i, ∃ r : ℝ, a5 i = (r : EReal) :=
  (all_read a0 a1 a2 a3 a4 a5 a6 a7 a8 a9 a10 a11 a12 a13 a14 a15 a16 a17 a18 a19 a20 h).2.2.2.1

/-- every entry of argument 6 is a real number -/
theorem real_arg6 [Cert.Pre_finite_inputs.Facts] (a0 : FVec Ideal S8192x64 .f32) (a1 a2 : IVec S262144 32) (a3 : FVec Ideal S64x64 .f32) (a4 : FVec Ideal S64 .f32) (a5 : FVec Ideal S64x64 .f32) (a6 : FVec Ideal S64 .f32) (a7 : FVec Ideal S64x64 .f32) (a8 : FVec Ideal S64 .f32) (a9 : FVec Ideal S64x64 .f32) (a10 : FVec Ideal S64 .f32) (a11 : FVec Ideal S64x64 .f32) (a12 : FVec Ideal S64 .f32) (a13 : FVec Ideal S64x64 .f32) (a14 : FVec Ideal S64 .f32) (a15 : FVec Ideal S192x192 .f32) (a16 : FVec Ideal S192 .f32) (a17 : FVec Ideal S64x64 .f32) (a18 : FVec Ideal S64 .f32) (a19 : FVec Ideal S64x64 .f32) (a20 : FVec Ideal S64 .f32)
    (h : Holds a0 a1 a2 a3 a4 a5 a6 a7 a8 a9 a10 a11 a12 a13 a14 a15 a16 a17 a18 a19 a20) : ∀ i, ∃ r : ℝ, a6 i = (r : EReal) :=
  (all_read a0 a1 a2 a3 a4 a5 a6 a7 a8 a9 a10 a11 a12 a13 a14 a15 a16 a17 a18 a19 a20 h).2.2.2.2.1

/-- every entry of argument 7 is a real number -/
theorem real_arg7 [Cert.Pre_finite_inputs.Facts] (a0 : FVec Ideal S8192x64 .f32) (a1 a2 : IVec S262144 32) (a3 : FVec Ideal S64x64 .f32) (a4 : FVec Ideal S64 .f32) (a5 : FVec Ideal S64x64 .f32) (a6 : FVec Ideal S64 .f32) (a7 : FVec Ideal S64x64 .f32) (a8 : FVec Ideal S64 .f32) (a9 : FVec Ideal S64x64 .f32) (a10 : FVec Ideal S64 .f32) (a11 : FVec Ideal S64x64 .f32) (a12 : FVec Ideal S64 .f32) (a13 : FVec Ideal S64x64 .f32) (a14 : FVec Ideal S64 .f32) (a15 : FVec Ideal S192x192 .f32) (a16 : FVec Ideal S192 .f32) (a17 : FVec Ideal S64x64 .f32) (a18 : FVec Ideal S64 .f32) (a19 : FVec Ideal S64x64 .f32) (a20 : FVec Ideal S64 .f32)
    (h : Holds a0 a1 a2 a3 a4 a5 a6 a7 a8 a9 a10 a11 a12 a13 a14 a15 a16 a17 a18 a19 a20) : ∀ i, ∃ r : ℝ, a7 i = (r : EReal) :=
  (all_read a0 a1 a2 a3 a4 a5 a6 a7 a8 a9 a10 a11 a12 a13 a14 a15 a16 a17 a18 a19 a20 h).2.2.2.2.2.1

/-- every entry of argument 8 is a real number -/
theorem real_arg8 [Cert.Pre_finite_inputs.Facts] (a0 : FVec Ideal S8192x64 .f32) (a1 a2 : IVec S262144 32) (a3 : FVec Ideal S64x64 .f32) (a4 : FVec Ideal S64 .f32) (a5 : FVec Ideal S64x64 .f32) (a6 : FVec Ideal S64 .f32) (a7 : FVec Ideal S64x64 .f32) (a8 : FVec Ideal S64 .f32) (a9 : FVec Ideal S64x64 .f32) (a10 : FVec Ideal S64 .f32) (a11 : FVec Ideal S64x64 .f32) (a12 : FVec Ideal S64 .f32) (a13 : FVec Ideal S64x64 .f32) (a14 : FVec Ideal S64 .f32) (a15 : FVec Ideal S192x192 .f32) (a16 : FVec Ideal S192 .f32) (a17 : FVec Ideal S64x64 .f32) (a18 : FVec Ideal S64 .f32) (a19 : FVec Ideal S64x64 .f32) (a20 : FVec Ideal S64 .f32)
    (h : Holds a0 a1 a2 a3 a4 a5 a6 a7 a8 a9 a10 a11 a12 a13 a14 a15 a16 a17 a18 a19 a20) : ∀ i, ∃ r : ℝ, a8 i = (r : EReal) :=
  (all_read a0 a1 a2 a3 a4 a5 a6 a7 a8 a9 a10 a11 a12 a13 a14 a15 a16 a17 a18 a19 a20 h).2.2.2.2.2.2.1

/-- every entry of argument 9 is a real number -/
theorem real_arg9 [Cert.Pre_finite_inputs.Facts] (a0 : FVec Ideal S8192x64 .f32) (a1 a2 : IVec S262144 32) (a3 : FVec Ideal S64x64 .f32) (a4 : FVec Ideal S64 .f32) (a5 : FVec Ideal S64x64 .f32) (a6 : FVec Ideal S64 .f32) (a7 : FVec Ideal S64x64 .f32) (a8 : FVec Ideal S64 .f32) (a9 : FVec Ideal S64x64 .f32) (a10 : FVec Ideal S64 .f32) (a11 : FVec Ideal S64x64 .f32) (a12 : FVec Ideal S64 .f32) (a13 : FVec Ideal S64x64 .f32) (a14 : FVec Ideal S64 .f32) (a15 : FVec Ideal S192x192 .f32) (a16 : FVec Ideal S192 .f32) (a17 : FVec Ideal S64x64 .f32) (a18 : FVec Ideal S64 .f32) (a19 : FVec Ideal S64x64 .f32) (a20 : FVec Ideal S64 .f32)
    (h : Holds a0 a1 a2 a3 a4 a5 a6 a7 a8 a9 a10 a11 a12 a13 a14 a15 a16 a17 a18 a19 a20) : ∀ i, ∃ r : ℝ, a9 i = (r : EReal) :=
  (all_read a0 a1 a2 a3 a4 a5 a6 a7 a8 a9 a10 a11 a12 a13 a14 a15 a16 a17 a18 a19 a20 h).2.2.2.2.2.2.2.1

/-- every entry of argument 10 is a real number -/
theorem real_arg10 [Cert.Pre_finite_inputs.Facts] (a0 : FVec Ideal S8192x64 .f32) (a1 a2 : IVec S262144 32) (a3 : FVec Ideal S64x64 .f32) (a4 : FVec Ideal S64 .f32) (a5 : FVec Ideal S64x64 .f32) (a6 : FVec Ideal S64 .f32) (a7 : FVec Ideal S64x64 .f32) (a8 : FVec Ideal S64 .f32) (a9 : FVec Ideal S64x64 .f32) (a10 : FVec Ideal S64 .f32) (a11 : FVec Ideal S64x64 .f32) (a12 : FVec Ideal S64 .f32) (a13 : FVec Ideal S64x64 .f32) (a14 : FVec Ideal S64 .f32) (a15 : FVec Ideal S192x192 .f32) (a16 : FVec Ideal S192 .f32) (a17 : FVec Ideal S64x64 .f32) (a18 : FVec Ideal S64 .f32) (a19 : FVec Ideal S64x64 .f32) (a20 : FVec Ideal S64 .f32)
    (h : Holds a0 a1 a2 a3 a4 a5 a6 a7 a8 a9 a10 a11 a12 a13 a14 a15 a16 a17 a18 a19 a20) : ∀ i, ∃ r : ℝ, a10 i = (r : EReal) :=
  (all_read a0 a1 a2 a3 a4 a5 a6 a7 a8 a9 a10 a11 a12 a13 a14 a15 a16 a17 a18 a19 a20 h).2.2.2.2.2.2.2.2.1

/-- every entry of argument 11 is a real number -/
theorem real_arg11 [Cert.Pre_finite_inputs.Facts] (a0 : FVec Ideal S8192x64 .f32) (a1 a2 : IVec S262144 32) (a3 : FVec Ideal S64x64 .f32) (a4 : FVec Ideal S64 .f32) (a5 : FVec Ideal S64x64 .f32) (a6 : FVec Ideal S64 .f32) (a7 : FVec Ideal S64x64 .f32) (a8 : FVec Ideal S64 .f32) (a9 : FVec Ideal S64x64 .f32) (a10 : FVec Ideal S64 .f32) (a11 : FVec Ideal S64x64 .f32) (a12 : FVec Ideal S64 .f32) (a13 : FVec Ideal S64x64 .f32) (a14 : FVec Ideal S64 .f32) (a15 : FVec Ideal S192x192 .f32) (a16 : FVec Ideal S192 .f32) (a17 : FVec Ideal S64x64 .f32) (a18 : FVec Ideal S64 .f32) (a19 : FVec Ideal S64x64 .f32) (a20 : FVec Ideal S64 .f32)
    (h : Holds a0 a1 a2 a3 a4 a5 a6 a7 a8 a9 a10 a11 a12 a13 a14 a15 a16 a17 a18 a19 a20) : ∀ i, ∃ r : ℝ, a11 i = (r : EReal) :=
  (all_read a0 a1 a2 a3 a4 a5 a6 a7 a8 a9 a10 a11 a12 a13 a14 a15 a16 a17 a18 a19 a20 h).2.2.2.2.2.2.2.2.2.1

/-- every entry of argument 12 is a real number -/
theorem real_arg12 [Cert.Pre_finite_inputs.Facts] (a0 : FVec Ideal S8192x64 .f32) (a1 a2 : IVec S262144 32) (a3 : FVec Ideal S64x64 .f32) (a4 : FVec Ideal S64 .f32) (a5 : FVec Ideal S64x64 .f32) (a6 : FVec Ideal S64 .f32) (a7 : FVec Ideal S64x64 .f32) (a8 : FVec Ideal S64 .f32) (a9 : FVec Ideal S64x64 .f32) (a10 : FVec Ideal S64 .f32) (a11 : FVec Ideal S64x64 .f32) (a12 : FVec Ideal S64 .f32) (a13 : FVec Ideal S64x64 .f32) (a14 : FVec Ideal S64 .f32) (a15 : FVec Ideal S192x192 .f32) (a16 : FVec Ideal S192 .f32) (a17 : FVec Ideal S64x64 .f32) (a18 : FVec Ideal S64 .f32) (a19 : FVec Ideal S64x64 .f32) (a20 : FVec Ideal S64 .f32)
    (h : Holds a0 a1 a2 a3 a4 a5 a6 a7 a8 a9 a10 a11 a12 a13 a14 a15 a16 a17 a18 a19 a20) : ∀ i, ∃ r : ℝ, a12 i = (r : EReal) :=
  (all_read a0 a1 a2 a3 a4 a5 a6 a7 a8 a9 a10 a11 a12 a13 a14 a15 a16 a17 a18 a19 a20 h).2.2.2.2.2.2.2.2.2.2.1

/-- every entry of argument 13 is a real number -/
theorem real_arg13 [Cert.Pre_finite_inputs.Facts] (a0 : FVec Ideal S8192x64 .f32) (a1 a2 : IVec S262144 32) (a3 : FVec Ideal S64x64 .f32) (a4 : FVec Ideal S64 .f32) (a5 : FVec Ideal S64x64 .f32) (a6 : FVec Ideal S64 .f32) (a7 : FVec Ideal S64x64 .f32) (a8 : FVec Ideal S64 .f32) (a9 : FVec Ideal S64x64 .f32) (a10 : FVec Ideal S64 .f32) (a11 : FVec Ideal S64x64 .f32) (a12 : FVec Ideal S64 .f32) (a13 : FVec Ideal S64x64 .f32) (a14 : FVec Ideal S64 .f32) (a15 : FVec Ideal S192x192 .f32) (a16 : FVec Ideal S192 .f32) (a17 : FVec Ideal S64x64 .f32) (a18 : FVec Ideal S64 .f32) (a19 : FVec Ideal S64x64 .f32) (a20 : FVec Ideal S64 .f32)
    (h : Holds a0 a1 a2 a3 a4 a5 a6 a7 a8 a9 a10 a11 a12 a13 a14 a15 a16 a17 a18 a19 a20) : ∀ i, ∃ r : ℝ, a13 i = (r : EReal) :=
  (all_read a0 a1 a2 a3 a4 a5 a6 a7 a8 a9 a10 a11 a12 a13 a14 a15 a16 a17 a18 a19 a20 h).2.2.2.2.2.2.2.2.2.2.2.1

/-- every entry of argument 14 is a real number -/
theorem real_arg14 [Cert.Pre_finite_inputs.Facts] (a0 : FVec Ideal S8192x64 .f32) (a1 a2 : IVec S262144 32) (a3 : FVec Ideal S64x64 .f32) (a4 : FVec Ideal S64 .f32) (a5 : FVec Ideal S64x64 .f32) (a6 : FVec Ideal S64 .f32) (a7 : FVec Ideal S64x64 .f32) (a8 : FVec Ideal S64 .f32) (a9 : FVec Ideal S64x64 .f32) (a10 : FVec Ideal S64 .f32) (a11 : FVec Ideal S64x64 .f32) (a12 : FVec Ideal S64 .f32) (a13 : FVec Ideal S64x64 .f32) (a14 : FVec Ideal S64 .f32) (a15 : FVec Ideal S192x192 .f32) (a16 : FVec Ideal S192 .f32) (a17 : FVec Ideal S64x64 .f32) (a18 : FVec Ideal S64 .f32) (a19 : FVec Ideal S64x64 .f32) (a20 : FVec Ideal S64 .f32)
    (h : Holds a0 a1 a2 a3 a4 a5 a6 a7 a8 a9 a10 a11 a12 a13 a14 a15 a16 a17 a18 a19 a20) : ∀ i, ∃ r : ℝ, a14 i = (r : EReal) :=
  (all_read a0 a1 a2 a3 a4 a5 a6 a7 a8 a9 a10 a11 a12 a13 a14 a15 a16 a17 a18 a19 a20 h).2.2.2.2.2.2.2.2.2.2.2.2.1

/-- every entry of argument 15 is a real number -/
theorem real_arg15 [Cert.Pre_finite_inputs.Facts] (a0 : FVec Ideal S8192x64 .f32) (a1 a2 : IVec S262144 32) (a3 : FVec Ideal S64x64 .f32) (a4 : FVec Ideal S64 .f32) (a5 : FVec Ideal S64x64 .f32) (a6 : FVec Ideal S64 .f32) (a7 : FVec Ideal S64x64 .f32) (a8 : FVec Ideal S64 .f32) (a9 : FVec Ideal S64x64 .f32) (a10 : FVec Ideal S64 .f32) (a11 : FVec Ideal S64x64 .f32) (a12 : FVec Ideal S64 .f32) (a13 : FVec Ideal S64x64 .f32) (a14 : FVec Ideal S64 .f32) (a15 : FVec Ideal S192x192 .f32) (a16 : FVec Ideal S192 .f32) (a17 : FVec Ideal S64x64 .f32) (a18 : FVec Ideal S64 .f32) (a19 : FVec Ideal S64x64 .f32) (a20 : FVec Ideal S64 .f32)
    (h : Holds a0 a1 a2 a3 a4 a5 a6 a7 a8 a9 a10 a11 a12 a13 a14 a15 a16 a17 a18 a19 a20) : ∀ i, ∃ r : ℝ, a15 i = (r : EReal) :=
  (all_read a0 a1 a2 a3 a4 a5 a6 a7 a8 a9 a10 a11 a12 a13 a14 a15 a16 a17 a18 a19 a20 h).2.2.2.2.2.2.2.2.2.2.2.2.2.1

/-- every entry of argument 16 is a real number -/
theorem real_arg16 [Cert.Pre_finite_inputs.Facts] (a0 : FVec Ideal S8192x64 .f32) (a1 a2 : IVec S262144 32) (a3 : FVec Ideal S64x64 .f32) (a4 : FVec Ideal S64 .f32) (a5 : FVec Ideal S64x64 .f32) (a6 : FVec Ideal S64 .f32) (a7 : FVec Ideal S64x64 .f32) (a8 : FVec Ideal S64 .f32) (a9 : FVec Ideal S64x64 .f32) (a10 : FVec Ideal S64 .f32) (a11 : FVec Ideal S64x64 .f32) (a12 : FVec Ideal S64 .f32) (a13 : FVec Ideal S64x64 .f32) (a14 : FVec Ideal S64 .f32) (a15 : FVec Ideal S192x192 .f32) (a16 : FVec Ideal S192 .f32) (a17 : FVec Ideal S64x64 .f32) (a18 : FVec Ideal S64 .f32) (a19 : FVec Ideal S64x64 .f32) (a20 : FVec Ideal S64 .f32)
    (h : Holds a0 a1 a2 a3 a4 a5 a6 a7 a8 a9 a10 a11 a12 a13 a14 a15 a16 a17 a18 a19 a20) : ∀ i, ∃ r : ℝ, a16 i = (r : EReal) :=
  (all_read a0 a1 a2 a3 a4 a5 a6 a7 a8 a9 a10 a11 a12 a13 a14 a15 a16 a17 a18 a19 a20 h).2.2.2.2.2.2.2.2.2.2.2.2.2.2.1

/-- every entry of argument 17 is a real number -/
theorem real_arg17 [Cert.Pre_finite_inputs.Facts] (a0 : FVec Ideal S8192x64 .f32) (a1 a2 : IVec S262144 32) (a3 : FVec Ideal S64x64 .f32) (a4 : FVec Ideal S64 .f32) (a5 : FVec Ideal S64x64 .f32) (a6 : FVec Ideal S64 .f32) (a7 : FVec Ideal S64x64 .f32) (a8 : FVec Ideal S64 .f32) (a9 : FVec Ideal S64x64 .f32) (a10 : FVec Ideal S64 .f32) (a11 : FVec Ideal S64x64 .f32) (a12 : FVec Ideal S64 .f32) (a13 : FVec Ideal S64x64 .f32) (a14 : FVec Ideal S64 .f32) (a15 : FVec Ideal S192x192 .f32) (a16 : FVec Ideal S192 .f32) (a17 : FVec Ideal S64x64 .f32) (a18 : FVec Ideal S64 .f32) (a19 : FVec Ideal S64x64 .f32) (a20 : FVec Ideal S64 .f32)
    (h : Holds a0 a1 a2 a3 a4 a5 a6 a7 a8 a9 a10 a11 a12 a13 a14 a15 a16 a17 a18 a19 a20) : ∀ i, ∃ r : ℝ, a17 i = (r : EReal) :=
  (all_read a0 a1 a2 a3 a4 a5 a6 a7 a8 a9 a10 a11 a12 a13 a14 a15 a16 a17 a18 a19 a20 h).2.2.2.2.2.2.2.2.2.2.2.2.2.2.2.1

/-- every entry of argument 18 is a real number -/
theorem real_arg18 [Cert.Pre_finite_inputs.Facts] (a0 : FVec Ideal S8192x64 .f32) (a1 a2 : IVec S262144 32) (a3 : FVec Ideal S64x64 .f32) (a4 : FVec Ideal S64 .f32) (a5 : FVec Ideal S64x64 .f32) (a6 : FVec Ideal S64 .f32) (a7 : FVec Ideal S64x64 .f32) (a8 : FVec Ideal S64 .f32) (a9 : FVec Ideal S64x64 .f32) (a10 : FVec Ideal S64 .f32) (a11 : FVec Ideal S64x64 .f32) (a12 : FVec Ideal S64 .f32) (a13 : FVec Ideal S64x64 .f32) (a14 : FVec Ideal S64 .f32) (a15 : FVec Ideal S192x192 .f32) (a16 : FVec Ideal S192 .f32) (a17 : FVec Ideal S64x64 .f32) (a18 : FVec Ideal S64 .f32) (a19 : FVec Ideal S64x64 .f32) (a20 : FVec Ideal S64 .f32)
    (h : Holds a0 a1 a2 a3 a4 a5 a6 a7 a8 a9 a10 a11 a12 a13 a14 a15 a16 a17 a18 a19 a20) : ∀ i, ∃ r : ℝ, a18 i = (r : EReal) :=
  (all_read a0 a1 a2 a3 a4 a5 a6 a7 a8 a9 a10 a11 a12 a13 a14 a15 a16 a17 a18 a19 a20 h).2.2.2.2.2.2.2.2.2.2.2.2.2.2.2.2.1

/-- every entry of argument 19 is a real number -/
theorem real_arg19 [Cert.Pre_finite_inputs.Facts] (a0 : FVec Ideal S8192x64 .f32) (a1 a2 : IVec S262144 32) (a3 : FVec Ideal S64x64 .f32) (a4 : FVec Ideal S64 .f32) (a5 : FVec Ideal S64x64 .f32) (a6 : FVec Ideal S64 .f32) (a7 : FVec Ideal S64x64 .f32) (a8 : FVec Ideal S64 .f32) (a9 : FVec Ideal S64x64 .f32) (a10 : FVec Ideal S64 .f32) (a11 : FVec Ideal S64x64 .f32) (a12 : FVec Ideal S64 .f32) (a13 : FVec Ideal S64x64 .f32) (a14 : FVec Ideal S64 .f32) (a15 : FVec Ideal S192x192 .f32) (a16 : FVec Ideal S192 .f32) (a17 : FVec Ideal S64x64 .f32) (a18 : FVec Ideal S64 .f32) (a19 : FVec Ideal S64x64 .f32) (a20 : FVec Ideal S64 .f32)
    (h : Holds a0 a1 a2 a3 a4 a5 a6 a7 a8 a9 a10 a11 a12 a13 a14 a15 a16 a17 a18 a19 a20) : ∀ i, ∃ r : ℝ, a19 i = (r : EReal) :=
  (all_read a0 a1 a2 a3 a4 a5 a6 a7 a8 a9 a10 a11 a12 a13 a14 a15 a16 a17 a18 a19 a20 h).2.2.2.2.2.2.2.2.2.2.2.2.2.2.2.2.2.1

/-- every entry of argument 20 is a real number -/
theorem real_arg20 [Cert.Pre_finite_inputs.Facts] (a0 : FVec Ideal S8192x64 .f32) (a1 a2 : IVec S262144 32) (a3 : FVec Ideal S64x64 .f32) (a4 : FVec Ideal S64 .f32) (a5 : FVec Ideal S64x64 .f32) (a6 : FVec Ideal S64 .f32) (a7 : FVec Ideal S64x64 .f32) (a8 : FVec Ideal S64 .f32) (a9 : FVec Ideal S64x64 .f32) (a10 : FVec Ideal S64 .f32) (a11 : FVec Ideal S64x64 .f32) (a12 : FVec Ideal S64 .f32) (a13 : FVec Ideal S64x64 .f32) (a14 : FVec Ideal S64 .f32) (a15 : FVec Ideal S192x192 .f32) (a16 : FVec Ideal S192 .f32) (a17 : FVec Ideal S64x64 .f32) (a18 : FVec Ideal S64 .f32) (a19 : FVec Ideal S64x64 .f32) (a20 : FVec Ideal S64 .f32)
    (h : Holds a0 a1 a2 a3 a4 a5 a6 a7 a8 a9 a10 a11 a12 a13 a14 a15 a16 a17 a18 a19 a20) : ∀ i, ∃ r : ℝ, a20 i = (r : EReal) :=
  (all_read a0 a1 a2 a3 a4 a5 a6 a7 a8 a9 a10 a11 a12 a13 a14 a15 a16 a17 a18 a19 a20 h).2.2.2.2.2.2.2.2.2.2.2.2.2.2.2.2.2.2.1

/-- every entry of the source-index array lies in [0, 8192), read as a signed integer -/
theorem src_range [Cert.Pre_finite_inputs.Facts] (a0 : FVec Ideal S8192x64 .f32) (a1 a2 : IVec S262144 32) (a3 : FVec Ideal S64x64 .f32) (a4 : FVec Ideal S64 .f32) (a5 : FVec Ideal S64x64 .f32) (a6 : FVec Ideal S64 .f32) (a7 : FVec Ideal S64x64 .f32) (a8 : FVec Ideal S64 .f32) (a9 : FVec Ideal S64x64 .f32) (a10 : FVec Ideal S64 .f32) (a11 : FVec Ideal S64x64 .f32) (a12 : FVec Ideal S64 .f32) (a13 : FVec Ideal S64x64 .f32) (a14 : FVec Ideal S64 .f32) (a15 : FVec Ideal S192x192 .f32) (a16 : FVec Ideal S192 .f32) (a17 : FVec Ideal S64x64 .f32) (a18 : FVec Ideal S64 .f32) (a19 : FVec Ideal S64x64 .f32) (a20 : FVec Ideal S64 .f32)
    (h : Holds a0 a1 a2 a3 a4 a5 a6 a7 a8 a9 a10 a11 a12 a13 a14 a15 a16 a17 a18 a19 a20) : ∀ e : S262144.Idx, 0 ≤ (a1 e).toInt ∧ (a1 e).toInt < 8192 :=
  (all_read a0 a1 a2 a3 a4 a5 a6 a7 a8 a9 a10 a11 a12 a13 a14 a15 a16 a17 a18 a19 a20 h).2.2.2.2.2.2.2.2.2.2.2.2.2.2.2.2.2.2.2

end Cert.PreRead

end
-- ==== Proof.LibLayer.lean ====
import proofs.«414230_j6141803233547_3_alg».proof.Proof.LibGcn

/-!
# Batched layers, column by column

Several graph-convolution layers are run at once by laying their weight matrices side by
side (columns of one wide matrix, zero columns as padding) or on the diagonal blocks of a
larger matrix.  A column of the batched layer is then the corresponding column of the single
layer it belongs to: the output column of a layer depends on the weight only through that
column, a zero column gives zero, and a column supported on a window of the inner axis
contracts over that window only.
-/

open scoped BigOperators

namespace Cert.LibGcn

noncomputable section

/-! ### A layer read one output column at a time -/

/-- a layer's output column depends on the weight only through that column and on the bias
through that entry -/
theorem layerK_congr_col {N K J J' : Type} [Fintype N] [Fintype K] (A : N → N → EReal) (x : N → K → EReal)
    (w : K → J → EReal) (b : J → EReal) (w' : K → J' → EReal) (b' : J' → EReal) (j : J) (j' : J')
    (hw : ∀ k, w k j = w' k j') (hb : b j = b' j') (v : N) :
    layerK A x w b v j = layerK A x w' b' v j' := by
  unfold layerK
  rw [hb]
  congr 1
  exact Finset.sum_congr rfl (fun k _ => by rw [hw k])

/-- a zero column with a zero bias entry gives zero (x * 0 = 0 and a finite sum of zeros: no
finiteness needed) -/
theorem layerK_zero_col {N K J : Type} [Fintype N] [Fintype K] (A : N → N → EReal) (x : N → K → EReal) (w : K → J → EReal)
    (b : J → EReal) (j : J) (hw : ∀ k, w k j = 0) (hb : b j = 0) (v : N) :
    layerK A x w b v j = 0 := by
  unfold layerK
  rw [hb, add_zero]
  exact Finset.sum_eq_zero (fun k _ => by rw [hw k, mul_zero])

/-- a BLOCK of the contraction: if column j of w vanishes outside the window [off, off+m) of the
inner axis and agrees there with column j' of w', and x restricted to the window is x', then the
layer over the long inner axis is the layer over the window (terms outside the window are
x * 0 = 0, and a sum whose terms vanish outside a window is the sum over the window) -/
theorem layerK_window {N J J' : Type} [Fintype N] {n m : ℕ} (off : ℕ) (h : off + m ≤ n)
    (A : N → N → EReal) (x : N → Fin n → EReal) (w : Fin n → J → EReal) (b : J → EReal)
    (x' : N → Fin m → EReal) (w' : Fin m → J' → EReal) (b' : J' → EReal) (j : J) (j' : J')
    (hz : ∀ k : Fin n, (k.val < off ∨ off + m ≤ k.val) → w k j = 0)
    (hw : ∀ k : Fin m, w ⟨off + k.val, by omega⟩ j = w' k j')
    (hx : ∀ u (k : Fin m), x u ⟨off + k.val, by omega⟩ = x' u k)
    (hb : b j = b' j') (v : N) :
    layerK A x w b v j = layerK A x' w' b' v j' := by
  unfold layerK
  rw [hb]
  congr 1
  rw [sum_window off h (fun k => (∑ u, A v u * x u k) * w k j)
    (fun k hk => by rw [hz k hk, mul_zero])]
  refine Finset.sum_congr rfl (fun k _ => ?_)
  rw [hw k]
  congr 1
  exact Finset.sum_congr rfl (fun u _ => by rw [hx u k])

/-! ### Real-valuedness, continued; the positive part -/

/-- the product of two real-valued arrays summed over a finite axis is real-valued -/
theorem IsReal.sum_mul {ι κ : Type*} [Fintype κ] {x y : ι → κ → EReal}
    (hx : ∀ i, IsReal (x i)) (hy : ∀ i, IsReal (y i)) : IsReal (fun i => ∑ k, x i k * y i k) :=
  IsReal.sum Finset.univ (x := fun i k => x i k * y i k) (fun i => (hx i).mul (hy i))

/-- the positive part of zero is zero -/
theorem relu_zero : max (0 : EReal) 0 = 0 := max_self 0

/-- the positive part of a real entry is the coercion of the real positive part
(the coercion is monotone, so it commutes with max) -/
theorem relu_coe (r : ℝ) : max (r : EReal) 0 = ((max r 0 : ℝ) : EReal) := by
  rw [← EReal.coe_zero]
  exact (EReal.coe_strictMono.monotone.map_max).symm

/-- the positive part of a layer's output is real-valued when everything is -/
theorem isReal_relu_layerK {N K J : Type} [Fintype N] [Fintype K] {A : N → N → EReal}
    {x : N → K → EReal} {w : K → J → EReal} {b : J → EReal}
    (hA : ∀ v, IsReal (A v)) (hx : ∀ u, IsReal (x u)) (hw : ∀ k, IsReal (w k)) (hb : IsReal b)
    (v : N) : IsReal (fun j => max (layerK A x w b v j) 0) := by
  classical
  exact (isReal_layerK hA hx hw hb v).max_zero

/-- the positive part read one column at a time: equal columns have equal positive parts -/
theorem relu_congr {a a' : EReal} (h : a = a') : max a 0 = max a' 0 := by rw [h]

/-- a zero column with a zero bias entry stays zero after the positive part -/
theorem relu_layerK_zero_col {N K J : Type} [Fintype N] [Fintype K] (A : N → N → EReal)
    (x : N → K → EReal) (w : K → J → EReal) (b : J → EReal) (j : J) (hw : ∀ k, w k j = 0)
    (hb : b j = 0) (v : N) : max (layerK A x w b v j) 0 = 0 := by
  rw [layerK_zero_col A x w b j hw hb v, relu_zero]

end

end Cert.LibGcn
-- ==== Proof.BridgeEnc.lean ====
import proofs.«414230_j6141803233547_3_alg».proof.Proof.KIRun
import proofs.«414230_j6141803233547_3_alg».proof.Proof.KIVal0
import proofs.«414230_j6141803233547_3_alg».proof.Proof.KIVal1
import proofs.«414230_j6141803233547_3_alg».proof.Proof.KIHost0
import proofs.«414230_j6141803233547_3_alg».proof.Proof.KIHost1
import proofs.«414230_j6141803233547_3_alg».proof.Proof.RefConv
import proofs.«414230_j6141803233547_3_alg».proof.Proof.RefStages
import proofs.«414230_j6141803233547_3_alg».proof.Proof.PreRead
import proofs.«414230_j6141803233547_3_alg».proof.Proof.LibGcn
import proofs.«414230_j6141803233547_3_alg».proof.Proof.LibLayer
import proofs.«414230_j6141803233547_3_alg».proof.Proof.Spec
import Idealize.ShloMosaic.Lib.ValueIdx

/-!
# The encoders of the two programs agree

The kernel program runs the three two-layer encoders at once: their first-layer weights side by
side in one wide matrix (zero columns as padding), their second-layer weights on the diagonal
blocks of one square matrix, the dense normalised adjacency matrix applied on the left.  The
reference program runs each encoder by itself, edge by edge.  Column block by column block the two
agree: the adjacency matrix is the dense form of the reference's own edge weights, a column of a
batched layer is the column of the single layer it belongs to, and over real-valued data the
matrix form of a layer is its edge-by-edge form.
-/

set_option maxRecDepth 16384

noncomputable section

namespace Cert.Proof.Bridge

open Cert.KernelIdeal Cert.KernelIdeal.Gen Cert.KernelIdeal.Hand Cert.KernelIdeal.Val
open Idealize.ShloMosaic Idealize.ShloMosaic.TcCoe Idealize.ShloMosaic.ValueIdx
open Cert.LibGcn
open scoped BigOperators

variable (m : (ℓ : Loc nD τ sig) → Buf (Elt Ideal) ℓ)

/-! ## The launch's argument arrays on device c -/

abbrev x0 (c : Dev nD) : FVec Ideal S8192x64 .f32 := m ((c.tc : Thread nD τ).loc main_arg0)
abbrev x1 (c : Dev nD) : IVec S262144 32 := m ((c.tc : Thread nD τ).loc main_arg1)
abbrev x2 (c : Dev nD) : IVec S262144 32 := m ((c.tc : Thread nD τ).loc main_arg2)
abbrev x3 (c : Dev nD) : FVec Ideal S64x64 .f32 := m ((c.tc : Thread nD τ).loc main_arg3)
abbrev x4 (c : Dev nD) : FVec Ideal S64 .f32 := m ((c.tc : Thread nD τ).loc main_arg4)
abbrev x5 (c : Dev nD) : FVec Ideal S64x64 .f32 := m ((c.tc : Thread nD τ).loc main_arg5)
abbrev x6 (c : Dev nD) : FVec Ideal S64 .f32 := m ((c.tc : Thread nD τ).loc main_arg6)
abbrev x7 (c : Dev nD) : FVec Ideal S64x64 .f32 := m ((c.tc : Thread nD τ).loc main_arg7)
abbrev x8 (c : Dev nD) : FVec Ideal S64 .f32 := m ((c.tc : Thread nD τ).loc main_arg8)
abbrev x9 (c : Dev nD) : FVec Ideal S64x64 .f32 := m ((c.tc : Thread nD τ).loc main_arg9)
abbrev x10 (c : Dev nD) : FVec Ideal S64 .f32 := m ((c.tc : Thread nD τ).loc main_arg10)
abbrev x11 (c : Dev nD) : FVec Ideal S64x64 .f32 := m ((c.tc : Thread nD τ).loc main_arg11)
abbrev x12 (c : Dev nD) : FVec Ideal S64 .f32 := m ((c.tc : Thread nD τ).loc main_arg12)
abbrev x13 (c : Dev nD) : FVec Ideal S64x64 .f32 := m ((c.tc : Thread nD τ).loc main_arg13)
abbrev x14 (c : Dev nD) : FVec Ideal S64 .f32 := m ((c.tc : Thread nD τ).loc main_arg14)
abbrev x15 (c : Dev nD) : FVec Ideal S192x192 .f32 := m ((c.tc : Thread nD τ).loc main_arg15)
abbrev x16 (c : Dev nD) : FVec Ideal S192 .f32 := m ((c.tc : Thread nD τ).loc main_arg16)
abbrev x17 (c : Dev nD) : FVec Ideal S64x64 .f32 := m ((c.tc : Thread nD τ).loc main_arg17)
abbrev x18 (c : Dev nD) : FVec Ideal S64 .f32 := m ((c.tc : Thread nD τ).loc main_arg18)
abbrev x19 (c : Dev nD) : FVec Ideal S64x64 .f32 := m ((c.tc : Thread nD τ).loc main_arg19)
abbrev x20 (c : Dev nD) : FVec Ideal S64 .f32 := m ((c.tc : Thread nD τ).loc main_arg20)

/-- the precondition on device c's argument arrays: every float entry a real number, every source word in range -/
abbrev Pre (c : Dev nD) : Prop :=
  Cert.PreRead.Holds (x0 m c) (x1 m c) (x2 m c) (x3 m c) (x4 m c) (x5 m c) (x6 m c) (x7 m c) (x8 m c) (x9 m c) (x10 m c)
    (x11 m c) (x12 m c) (x13 m c) (x14 m c) (x15 m c) (x16 m c) (x17 m c) (x18 m c) (x19 m c) (x20 m c)

/-! ## The algebra: a column of a batched layer is the single layer, edge by edge -/

/-- a column of a layer in matrix form over the dense adjacency matrix, whose weight column and
bias entry are those of a single layer, is that single layer edge by edge (real-valued data) -/
theorem enc_col {N E K J J' : Type} [Fintype N] [Fintype E] [Fintype K] [DecidableEq N]
    (s : E → N) (d : E → Option N) {coef : E → EReal} {selfc : N → EReal} {x : N → K → EReal}
    {w : K → J → EReal} {b : J → EReal} {w' : K → J' → EReal} {b' : J' → EReal} (j : J) (j' : J')
    (hw : ∀ k, w k j = w' k j') (hb : b j = b' j')
    (hc : IsReal coef) (hs : IsReal selfc) (hx : ∀ u, IsReal (x u)) (hw' : ∀ k, IsReal (w' k)) (v : N) :
    layerK (adj s d coef selfc) x w b v j = layerR s d coef selfc x w' b' v j' :=
  (layerK_congr_col (adj s d coef selfc) x w b w' b' j j' hw hb v).trans
    (layerK_eq_layerR s d b' hc hs hx hw' v j')

/-- the same when the weight column is supported on a window of the inner axis: only the window's
features count -/
theorem enc_col_window {N E J J' : Type} [Fintype N] [Fintype E] [DecidableEq N] {n m : ℕ}
    (off : ℕ) (h : off + m ≤ n) (s : E → N) (d : E → Option N) {coef : E → EReal} {selfc : N → EReal}
    {x : N → Fin n → EReal} {w : Fin n → J → EReal} {b : J → EReal}
    {x' : N → Fin m → EReal} {w' : Fin m → J' → EReal} {b' : J' → EReal} (j : J) (j' : J')
    (hz : ∀ k : Fin n, (k.val < off ∨ off + m ≤ k.val) → w k j = 0)
    (hw : ∀ k : Fin m, w ⟨off + k.val, by omega⟩ j = w' k j')
    (hx : ∀ u (k : Fin m), x u ⟨off + k.val, by omega⟩ = x' u k) (hb : b j = b' j')
    (hc : IsReal coef) (hs : IsReal selfc) (hx' : ∀ u, IsReal (x' u)) (hw' : ∀ k, IsReal (w' k)) (v : N) :
    layerK (adj s d coef selfc) x w b v j = layerR s d coef selfc x' w' b' v j' :=
  (layerK_window off h (adj s d coef selfc) x w b x' w' b' j j' hz hw hx hb v).trans
    (layerK_eq_layerR s d b' hc hs hx' hw' v j')

/-- the rows of a real-valued matrix, and a real-valued vector, read by coordinates -/
theorem isReal_row {n k : ℕ} {X : (⟨2, ![n, k]⟩ : Shape).Idx → EReal} (h : IsReal X) (u : Fin n) :
    IsReal (fun j : Fin k => X (ix2 u j)) := fun j => h (ix2 u j)
theorem isReal_vec {n : ℕ} {b : (⟨1, ![n]⟩ : Shape).Idx → EReal} (h : IsReal b) :
    IsReal (fun j : Fin n => b (ix1 j)) := fun j => h (ix1 j)

/-! ## (1) The two programs' edge-weight chains are one function

Both programs wrap a negative index word by the node count, lay the wrapped words out as a column of
start indices, count the edges arriving at each node by a scatter of ones onto ones, take the
reciprocal square root, and gather it by source and by destination.  The operations are the same and
their dimension numbers are equal records. -/

/-- the column of wrapped index words, as the reference writes it each time -/
theorem wrapCol_v7 (x : IW) : Host0.wrapCol bcast_S262144_S262144x1_0 bcast_S_S262144 x = Cert.ReferenceIdeal.Read.val_main_v7 (F := Ideal) x := rfl
theorem wrapCol_v16 (x : IW) : Host0.wrapCol bcast_S262144_S262144x1_0 bcast_S_S262144 x = Cert.ReferenceIdeal.Read.val_main_v16 (F := Ideal) x := rfl
theorem wrapCol_v23 (x : IW) : Host0.wrapCol bcast_S262144_S262144x1_0 bcast_S_S262144 x = Cert.ReferenceIdeal.Read.val_main_v23 (F := Ideal) x := rfl

/-- every node's weight is the same array in both programs -/
theorem dinvK_v10 (dst : IW) : dinvK dst = Cert.ReferenceIdeal.Read.val_main_v10 (F := Ideal) dst := rfl

/-- every edge's weight is the same array in both programs -/
theorem coefK_v25 (src dst : IW) : coefK src dst = Cert.ReferenceIdeal.Read.val_main_v25 (F := Ideal) src dst := rfl

/-- an edge's weight is the same extended real in both programs: the same operations on the same edge lists -/
theorem coefK_eq (src dst : IW) (e : Fin 262144) :
    coefK src dst (ix1 e) = Cert.ReferenceIdeal.Hand.coefE src dst e :=
  congrFun (coefK_v25 src dst) (ix1 e)

/-- a node's self-loop weight is the same extended real in both programs -/
theorem selfK_eq (dst : IW) (v : Fin 8192) :
    dinvK dst (ix1 v) * dinvK dst (ix1 v) = Cert.ReferenceIdeal.Hand.selfE dst v := by
  rw [dinvK_v10]
  rfl

/-! ## What the precondition gives -/

section Pre

variable (c : Dev nD) (hpre : Pre m c)
include hpre

theorem real0 : IsReal (x0 m c) := Cert.PreRead.real_arg0 _ _ _ _ _ _ _ _ _ _ _ _ _ _ _ _ _ _ _ _ _ hpre
theorem real3 : IsReal (x3 m c) := Cert.PreRead.real_arg3 _ _ _ _ _ _ _ _ _ _ _ _ _ _ _ _ _ _ _ _ _ hpre
theorem real4 : IsReal (x4 m c) := Cert.PreRead.real_arg4 _ _ _ _ _ _ _ _ _ _ _ _ _ _ _ _ _ _ _ _ _ hpre
theorem real5 : IsReal (x5 m c) := Cert.PreRead.real_arg5 _ _ _ _ _ _ _ _ _ _ _ _ _ _ _ _ _ _ _ _ _ hpre
theorem real6 : IsReal (x6 m c) := Cert.PreRead.real_arg6 _ _ _ _ _ _ _ _ _ _ _ _ _ _ _ _ _ _ _ _ _ hpre
theorem real7 : IsReal (x7 m c) := Cert.PreRead.real_arg7 _ _ _ _ _ _ _ _ _ _ _ _ _ _ _ _ _ _ _ _ _ hpre
theorem real8 : IsReal (x8 m c) := Cert.PreRead.real_arg8 _ _ _ _ _ _ _ _ _ _ _ _ _ _ _ _ _ _ _ _ _ hpre
theorem real9 : IsReal (x9 m c) := Cert.PreRead.real_arg9 _ _ _ _ _ _ _ _ _ _ _ _ _ _ _ _ _ _ _ _ _ hpre
theorem real10 : IsReal (x10 m c) := Cert.PreRead.real_arg10 _ _ _ _ _ _ _ _ _ _ _ _ _ _ _ _ _ _ _ _ _ hpre
theorem real11 : IsReal (x11 m c) := Cert.PreRead.real_arg11 _ _ _ _ _ _ _ _ _ _ _ _ _ _ _ _ _ _ _ _ _ hpre
theorem real12 : IsReal (x12 m c) := Cert.PreRead.real_arg12 _ _ _ _ _ _ _ _ _ _ _ _ _ _ _ _ _ _ _ _ _ hpre
theorem real13 : IsReal (x13 m c) := Cert.PreRead.real_arg13 _ _ _ _ _ _ _ _ _ _ _ _ _ _ _ _ _ _ _ _ _ hpre
theorem real14 : IsReal (x14 m c) := Cert.PreRead.real_arg14 _ _ _ _ _ _ _ _ _ _ _ _ _ _ _ _ _ _ _ _ _ hpre

/-- every source word names a node -/
theorem srcRange : ∀ e : S262144.Idx, 0 ≤ ((x1 m c) e).toInt ∧ ((x1 m c) e).toInt < 8192 :=
  Cert.PreRead.src_range _ _ _ _ _ _ _ _ _ _ _ _ _ _ _ _ _ _ _ _ _ hpre

end Pre

/-! ## The dense adjacency matrix is the dense form of the reference's edge data -/

/-- the reference's edge data on device c: source node, destination node (if any), edge weight, self-loop weight -/
abbrev sN (c : Dev nD) : Fin 262144 → Fin 8192 := Cert.Spec.srcN (words (x1 m c))
abbrev dO (c : Dev nD) : Fin 262144 → Option (Fin 8192) := Cert.Spec.dstO (words (x2 m c))
abbrev cE (c : Dev nD) : Fin 262144 → EReal := Cert.ReferenceIdeal.Hand.coefE (x1 m c) (x2 m c)
abbrev sE (c : Dev nD) : Fin 8192 → EReal := Cert.ReferenceIdeal.Hand.selfE (x2 m c)

/-- the adjacency matrix region 0 is entered with, entry by entry -/
theorem adj0 (c : Dev nD) (hpre : Pre m c) :
    (fun (v u : Fin 8192) => (Gen.V5 m c main_v45 : S8192x8192.Idx → EReal) (ix2 v u))
      = adj (sN m c) (dO m c) (cE m c) (sE m c) := by
  funext v u
  have h1 : (Gen.V5 m c main_v45 : S8192x8192.Idx → EReal) (ix2 v u) = ahatK (x1 m c) (x2 m c) (ix2 v u) :=
    congrFun (V5_v45 m c) (ix2 v u)
  have h2 := ahatK_apply (x1 m c) (x2 m c) (srcRange m c hpre) v u
  have h3 : (fun e : Fin 262144 => coefK (x1 m c) (x2 m c) (ix1 e)) = cE m c := funext (coefK_eq (x1 m c) (x2 m c))
  have h4 : (fun v : Fin 8192 => dinvK (x2 m c) (ix1 v) * dinvK (x2 m c) (ix1 v)) = sE m c := funext (selfK_eq (x2 m c))
  rw [h3, h4] at h2
  exact h1.trans h2

/-- the adjacency matrix, entry by entry, over the reference's own edge data (the two programs read an edge
list's words by the same function) -/
theorem ahat_adj (c : Dev nD) (hpre : Pre m c) (v u : Fin 8192) :
    (Gen.V5 m c main_v45 : S8192x8192.Idx → EReal) (ix2 (n0 := 8192) (n1 := 8192) v u)
      = Cert.LibGcn.adj (Cert.Spec.srcN (Cert.ReferenceIdeal.Hand.words (x1 m c)))
          (Cert.Spec.dstO (Cert.ReferenceIdeal.Hand.words (x2 m c)))
          (Cert.ReferenceIdeal.Hand.coefE (x1 m c) (x2 m c)) (Cert.ReferenceIdeal.Hand.selfE (x2 m c)) v u :=
  congrFun (congrFun (adj0 m c hpre) v) u

/-! ## (2) Region 0 -/

/-- region 0's output, entry by entry: the positive part of the layer in matrix form -/
theorem out0_apply (c : Dev nD) (v : Fin 8192) (jj : Fin 256) :
    (outs (F := Ideal) m 6 main_v53 c : S8192x256.Idx → EReal) (ix2 v jj)
      = max (layerK (fun (v u : Fin 8192) => (Gen.V5 m c main_v45 : S8192x8192.Idx → EReal) (ix2 v u))
          (fun (u : Fin 8192) (k : Fin 64) => (Gen.V5 m c main_v50 : S8192x64.Idx → EReal) (ix2 u k))
          (fun (k : Fin 64) (j : Fin 256) => (Gen.V5 m c main_v51 : S64x256.Idx → EReal) (ix2 k j))
          (fun (j : Fin 256) => (Gen.V5 m c main_v52 : S1x256.Idx → EReal) (ix2 0 j)) v jj) 0 :=
  congrFun ((outs_53 (F := Ideal) m c).trans (arr0 (fun c b => Gen.V5 m c b) c)) (ix2 v jj)

/-- a column of region 0's output whose weight column and bias entry are a single first layer's is
that layer of the reference, rectified -/
theorem reg0_col (c : Dev nD) (hpre : Pre m c) (v : Fin 8192) (jj : Fin 256) (j : Fin 64)
    (W' : FVec Ideal S64x64 .f32) (b' : FVec Ideal S64 .f32)
    (hW : ∀ k : Fin 64, (Gen.V5 m c main_v51 : S64x256.Idx → EReal) (ix2 k jj) = W' (ix2 k j))
    (hb : (Gen.V5 m c main_v52 : S1x256.Idx → EReal) (ix2 0 jj) = b' (ix1 j))
    (hW' : IsReal W') :
    (outs (F := Ideal) m 6 main_v53 c : S8192x256.Idx → EReal) (ix2 v jj)
      = Cert.ReferenceIdeal.Hand.reluV (Cert.ReferenceIdeal.Hand.conv (x0 m c) W' b' (x1 m c) (x2 m c)) (ix2 v j) := by
  have hX : (fun (u : Fin 8192) (k : Fin 64) => (Gen.V5 m c main_v50 : S8192x64.Idx → EReal) (ix2 u k))
      = fun u k => x0 m c (ix2 u k) := by
    funext u k
    exact congrFun (V5_v50 m c) (ix2 u k)
  rw [out0_apply m c v jj, adj0 m c hpre, hX, Cert.ReferenceIdeal.Hand.reluV_apply, Cert.ReferenceIdeal.Hand.conv_apply]
  refine relu_congr ?_
  exact enc_col (sN m c) (dO m c) (x := fun u k => x0 m c (ix2 u k))
    (w := fun (k : Fin 64) (j : Fin 256) => (Gen.V5 m c main_v51 : S64x256.Idx → EReal) (ix2 k j))
    (b := fun (j : Fin 256) => (Gen.V5 m c main_v52 : S1x256.Idx → EReal) (ix2 0 j))
    (w' := fun k j => W' (ix2 k j)) (b' := fun j => b' (ix1 j)) jj j hW hb
    (Cert.ReferenceIdeal.Hand.isReal_coefE _ _) (Cert.ReferenceIdeal.Hand.isReal_selfE _)
    (fun u => isReal_row (real0 m c hpre) u) (fun k => isReal_row hW' k) v

/-! the first-layer weight and bias of the batched layer, column block by column block -/

theorem w0_a (c : Dev nD) (k j : Fin 64) (jj : Fin 256) (hjj : jj.val = j.val) :
    (Gen.V5 m c main_v51 : S64x256.Idx → EReal) (ix2 k jj) = x3 m c (ix2 k j) := by
  have e : ∀ h : jj.val < 64, (⟨jj.val, h⟩ : Fin 64) = j := fun h => Fin.ext (by show jj.val = j.val; omega)
  rw [V5_v51 m c k jj, dif_pos (by omega)]
  exact congrArg (fun t => x3 m c (ix2 k t)) (e _)
theorem w0_s (c : Dev nD) (k j : Fin 64) (jj : Fin 256) (hjj : jj.val = j.val + 64) :
    (Gen.V5 m c main_v51 : S64x256.Idx → EReal) (ix2 k jj) = x7 m c (ix2 k j) := by
  have e : ∀ h : jj.val - 64 < 64, (⟨jj.val - 64, h⟩ : Fin 64) = j := fun h => Fin.ext (by show jj.val - 64 = j.val; omega)
  rw [V5_v51 m c k jj, dif_neg (by omega), dif_pos (by omega)]
  exact congrArg (fun t => x7 m c (ix2 k t)) (e _)
theorem w0_t (c : Dev nD) (k j : Fin 64) (jj : Fin 256) (hjj : jj.val = j.val + 128) :
    (Gen.V5 m c main_v51 : S64x256.Idx → EReal) (ix2 k jj) = x11 m c (ix2 k j) := by
  have e : ∀ h : jj.val - 128 < 64, (⟨jj.val - 128, h⟩ : Fin 64) = j := fun h => Fin.ext (by show jj.val - 128 = j.val; omega)
  rw [V5_v51 m c k jj, dif_neg (by omega), dif_neg (by omega), dif_pos (by omega)]
  exact congrArg (fun t => x11 m c (ix2 k t)) (e _)
theorem w0_pad (c : Dev nD) (k : Fin 64) (jj : Fin 256) (hjj : 192 ≤ jj.val) :
    (Gen.V5 m c main_v51 : S64x256.Idx → EReal) (ix2 k jj) = (0 : EReal) := by
  rw [V5_v51 m c k jj, dif_neg (by omega), dif_neg (by omega), dif_neg (by omega)]
theorem b0_a (c : Dev nD) (j : Fin 64) (jj : Fin 256) (hjj : jj.val = j.val) :
    (Gen.V5 m c main_v52 : S1x256.Idx → EReal) (ix2 0 jj) = x4 m c (ix1 j) := by
  have e : ∀ h : jj.val < 64, (⟨jj.val, h⟩ : Fin 64) = j := fun h => Fin.ext (by show jj.val = j.val; omega)
  rw [V5_v52 m c jj, dif_pos (by omega)]
  exact congrArg (fun t => x4 m c (ix1 t)) (e _)
theorem b0_s (c : Dev nD) (j : Fin 64) (jj : Fin 256) (hjj : jj.val = j.val + 64) :
    (Gen.V5 m c main_v52 : S1x256.Idx → EReal) (ix2 0 jj) = x8 m c (ix1 j) := by
  have e : ∀ h : jj.val - 64 < 64, (⟨jj.val - 64, h⟩ : Fin 64) = j := fun h => Fin.ext (by show jj.val - 64 = j.val; omega)
  rw [V5_v52 m c jj, dif_neg (by omega), dif_pos (by omega)]
  exact congrArg (fun t => x8 m c (ix1 t)) (e _)
theorem b0_t (c : Dev nD) (j : Fin 64) (jj : Fin 256) (hjj : jj.val = j.val + 128) :
    (Gen.V5 m c main_v52 : S1x256.Idx → EReal) (ix2 0 jj) = x12 m c (ix1 j) := by
  have e : ∀ h : jj.val - 128 < 64, (⟨jj.val - 128, h⟩ : Fin 64) = j := fun h => Fin.ext (by show jj.val - 128 = j.val; omega)
  rw [V5_v52 m c jj, dif_neg (by omega), dif_neg (by omega), dif_pos (by omega)]
  exact congrArg (fun t => x12 m c (ix1 t)) (e _)
theorem b0_pad (c : Dev nD) (jj : Fin 256) (hjj : 192 ≤ jj.val) :
    (Gen.V5 m c main_v52 : S1x256.Idx → EReal) (ix2 0 jj) = (0 : EReal) := by
  rw [V5_v52 m c jj, dif_neg (by omega), dif_neg (by omega), dif_neg (by omega)]

/-- columns 0 … 63 of region 0's output are the first encoder's first stage -/
theorem h1p_a (c : Dev nD) (hpre : Pre m c) (v : Fin 8192) (j : Fin 64) :
    (outs (F := Ideal) m 6 main_v53 c : S8192x256.Idx → EReal) (ix2 v ⟨j.val, by omega⟩)
      = Cert.ReferenceIdeal.Read.val_main_v52 (F := Ideal) (x0 m c) (x1 m c) (x2 m c) (x3 m c) (x4 m c) (ix2 v j) :=
  (reg0_col m c hpre v ⟨j.val, by omega⟩ j (x3 m c) (x4 m c) (fun k => w0_a m c k j _ rfl) (b0_a m c j _ rfl)
    (real3 m c hpre)).trans
    (congrFun (Cert.ReferenceIdeal.Hand.st_v52 (x0 m c) (x1 m c) (x2 m c) (x3 m c) (x4 m c)).symm (ix2 v j))

/-- columns 64 … 127 are the second encoder's first stage -/
theorem h1p_s (c : Dev nD) (hpre : Pre m c) (v : Fin 8192) (j : Fin 64) :
    (outs (F := Ideal) m 6 main_v53 c : S8192x256.Idx → EReal) (ix2 v ⟨j.val + 64, by omega⟩)
      = Cert.ReferenceIdeal.Read.val_main_v158 (F := Ideal) (x0 m c) (x1 m c) (x2 m c) (x7 m c) (x8 m c) (ix2 v j) :=
  (reg0_col m c hpre v ⟨j.val + 64, by omega⟩ j (x7 m c) (x8 m c) (fun k => w0_s m c k j _ rfl) (b0_s m c j _ rfl)
    (real7 m c hpre)).trans
    (congrFun (Cert.ReferenceIdeal.Hand.st_v158 (x0 m c) (x1 m c) (x2 m c) (x7 m c) (x8 m c)).symm (ix2 v j))

/-- columns 128 … 191 are the third encoder's first stage -/
theorem h1p_t (c : Dev nD) (hpre : Pre m c) (v : Fin 8192) (j : Fin 64) :
    (outs (F := Ideal) m 6 main_v53 c : S8192x256.Idx → EReal) (ix2 v ⟨j.val + 128, by omega⟩)
      = Cert.ReferenceIdeal.Read.val_main_v264 (F := Ideal) (x0 m c) (x1 m c) (x2 m c) (x11 m c) (x12 m c) (ix2 v j) :=
  (reg0_col m c hpre v ⟨j.val + 128, by omega⟩ j (x11 m c) (x12 m c) (fun k => w0_t m c k j _ rfl) (b0_t m c j _ rfl)
    (real11 m c hpre)).trans
    (congrFun (Cert.ReferenceIdeal.Hand.st_v264 (x0 m c) (x1 m c) (x2 m c) (x11 m c) (x12 m c)).symm (ix2 v j))

/-- the padding columns 192 … 255 are zero: a zero weight column and a zero bias entry -/
theorem h1p_pad (c : Dev nD) (hpre : Pre m c) (v : Fin 8192) (j : Fin 256) (h : 192 ≤ j.val) :
    (outs (F := Ideal) m 6 main_v53 c : S8192x256.Idx → EReal) (ix2 v j) = (0 : EReal) := by
  rw [out0_apply m c v j]
  exact relu_layerK_zero_col _ _
    (fun (k : Fin 64) (j : Fin 256) => (Gen.V5 m c main_v51 : S64x256.Idx → EReal) (ix2 k j))
    (fun (j : Fin 256) => (Gen.V5 m c main_v52 : S1x256.Idx → EReal) (ix2 0 j)) j
    (fun k => w0_pad m c k j h) (b0_pad m c j h) v

/-! ## (3) Region 1 -/

/-- region 1's output, entry by entry: the positive part of the layer in matrix form, the inner
axis the 256 batched columns -/
theorem out1_apply (c : Dev nD) (v : Fin 8192) (jj : Fin 256) :
    (outs (F := Ideal) m 12 main_v65 c : S8192x256.Idx → EReal) (ix2 v jj)
      = max (layerK (fun (v u : Fin 8192) => (Gen.V11 m (outs (F := Ideal) m) c main_v45 : S8192x8192.Idx → EReal) (ix2 v u))
          (fun (u : Fin 8192) (k : Fin 256) => (Gen.V11 m (outs (F := Ideal) m) c main_v62 : S8192x256.Idx → EReal) (ix2 u k))
          (fun (k : Fin 256) (j : Fin 256) => (Gen.V11 m (outs (F := Ideal) m) c main_v63 : S256x256.Idx → EReal) (ix2 k j))
          (fun (j : Fin 256) => (Gen.V11 m (outs (F := Ideal) m) c main_v64 : S1x256.Idx → EReal) (ix2 0 j)) v jj) 0 :=
  congrFun ((outs_65 (F := Ideal) m c).trans (arr1 (fun c b => Gen.V11 m (outs (F := Ideal) m) c b) c)) (ix2 v jj)

/-- the adjacency matrix region 1 is entered with is region 0's -/
theorem adj1 (c : Dev nD) (hpre : Pre m c) :
    (fun (v u : Fin 8192) => (Gen.V11 m (outs (F := Ideal) m) c main_v45 : S8192x8192.Idx → EReal) (ix2 v u))
      = adj (sN m c) (dO m c) (cE m c) (sE m c) := by
  have e : (Gen.V11 m (outs (F := Ideal) m) c main_v45 : S8192x8192.Idx → EReal) = (Gen.V5 m c main_v45 : S8192x8192.Idx → EReal) :=
    V11_v45 m (outs (F := Ideal) m) c
  rw [e]
  exact adj0 m c hpre

/-- a column of region 1's output whose weight column lives on one diagonal block, where it is a
single second layer's, is that layer of the reference applied to the block's 64 feature columns, rectified -/
theorem reg1_col (c : Dev nD) (hpre : Pre m c) (v : Fin 8192) (jj : Fin 256) (j : Fin 64)
    (off : ℕ) (hoff : off + 64 ≤ 256)
    (X' : FVec Ideal S8192x64 .f32) (W' : FVec Ideal S64x64 .f32) (b' : FVec Ideal S64 .f32)
    (hX : ∀ (u : Fin 8192) (k : Fin 64) (kk : Fin 256), kk.val = off + k.val → (outs (F := Ideal) m 6 main_v53 c : S8192x256.Idx → EReal) (ix2 u kk) = X' (ix2 u k))
    (hz : ∀ k : Fin 256, (k.val < off ∨ off + 64 ≤ k.val) → (Gen.V11 m (outs (F := Ideal) m) c main_v63 : S256x256.Idx → EReal) (ix2 k jj) = (0 : EReal))
    (hW : ∀ (k : Fin 64) (kk : Fin 256), kk.val = off + k.val → (Gen.V11 m (outs (F := Ideal) m) c main_v63 : S256x256.Idx → EReal) (ix2 kk jj) = W' (ix2 k j))
    (hb : (Gen.V11 m (outs (F := Ideal) m) c main_v64 : S1x256.Idx → EReal) (ix2 0 jj) = b' (ix1 j))
    (hX' : IsReal X') (hW' : IsReal W') :
    (outs (F := Ideal) m 12 main_v65 c : S8192x256.Idx → EReal) (ix2 v jj)
      = Cert.ReferenceIdeal.Hand.reluV (Cert.ReferenceIdeal.Hand.conv X' W' b' (x1 m c) (x2 m c)) (ix2 v j) := by
  have hXk : ∀ (u : Fin 8192) (k : Fin 64),
      (Gen.V11 m (outs (F := Ideal) m) c main_v62 : S8192x256.Idx → EReal) (ix2 u ⟨off + k.val, by omega⟩) = X' (ix2 u k) :=
    fun u k => (congrFun (V11_v62 m (outs (F := Ideal) m) c) (ix2 u ⟨off + k.val, by omega⟩)).trans
      (hX u k ⟨off + k.val, by omega⟩ rfl)
  have hWk : ∀ k : Fin 64, (Gen.V11 m (outs (F := Ideal) m) c main_v63 : S256x256.Idx → EReal) (ix2 ⟨off + k.val, by omega⟩ jj) = W' (ix2 k j) :=
    fun k => hW k ⟨off + k.val, by omega⟩ rfl
  rw [out1_apply m c v jj, adj1 m c hpre, Cert.ReferenceIdeal.Hand.reluV_apply, Cert.ReferenceIdeal.Hand.conv_apply]
  refine relu_congr ?_
  exact enc_col_window off hoff (sN m c) (dO m c)
    (x := fun (u : Fin 8192) (k : Fin 256) => (Gen.V11 m (outs (F := Ideal) m) c main_v62 : S8192x256.Idx → EReal) (ix2 u k))
    (w := fun (k : Fin 256) (j : Fin 256) => (Gen.V11 m (outs (F := Ideal) m) c main_v63 : S256x256.Idx → EReal) (ix2 k j))
    (b := fun (j : Fin 256) => (Gen.V11 m (outs (F := Ideal) m) c main_v64 : S1x256.Idx → EReal) (ix2 0 j))
    (x' := fun u k => X' (ix2 u k)) (w' := fun k j => W' (ix2 k j)) (b' := fun j => b' (ix1 j)) jj j
    hz hWk hXk hb
    (Cert.ReferenceIdeal.Hand.isReal_coefE _ _) (Cert.ReferenceIdeal.Hand.isReal_selfE _)
    (fun u => isReal_row hX' u) (fun k => isReal_row hW' k) v

/-! the block-diagonal second-layer weight, read at column block a / s / t: zero outside the block's
64 rows, the single second layer's weight inside; and the batched bias -/

theorem w1_zero (c : Dev nD) (k jj : Fin 256) (off : ℕ) (hoff : off = 0 ∨ off = 64 ∨ off = 128)
    (hjj : off ≤ jj.val ∧ jj.val < off + 64) (hk : k.val < off ∨ off + 64 ≤ k.val) :
    (Gen.V11 m (outs (F := Ideal) m) c main_v63 : S256x256.Idx → EReal) (ix2 k jj) = (0 : EReal) := by
  rw [V11_v63 m (outs (F := Ideal) m) c k jj, dif_neg (by omega), dif_neg (by omega), dif_neg (by omega)]
theorem w1_a (c : Dev nD) (k j : Fin 64) (kk jj : Fin 256) (hkk : kk.val = 0 + k.val) (hjj : jj.val = j.val) :
    (Gen.V11 m (outs (F := Ideal) m) c main_v63 : S256x256.Idx → EReal) (ix2 kk jj) = x5 m c (ix2 k j) := by
  have ek : ∀ h : kk.val < 64, (⟨kk.val, h⟩ : Fin 64) = k := fun h => Fin.ext (by show kk.val = k.val; omega)
  have ej : ∀ h : jj.val < 64, (⟨jj.val, h⟩ : Fin 64) = j := fun h => Fin.ext (by show jj.val = j.val; omega)
  rw [V11_v63 m (outs (F := Ideal) m) c kk jj, dif_pos (by omega)]
  exact congrArg₂ (fun s t => x5 m c (ix2 s t)) (ek _) (ej _)
theorem w1_s (c : Dev nD) (k j : Fin 64) (kk jj : Fin 256) (hkk : kk.val = 64 + k.val) (hjj : jj.val = j.val + 64) :
    (Gen.V11 m (outs (F := Ideal) m) c main_v63 : S256x256.Idx → EReal) (ix2 kk jj) = x9 m c (ix2 k j) := by
  have ek : ∀ h : kk.val - 64 < 64, (⟨kk.val - 64, h⟩ : Fin 64) = k := fun h => Fin.ext (by show kk.val - 64 = k.val; omega)
  have ej : ∀ h : jj.val - 64 < 64, (⟨jj.val - 64, h⟩ : Fin 64) = j := fun h => Fin.ext (by show jj.val - 64 = j.val; omega)
  rw [V11_v63 m (outs (F := Ideal) m) c kk jj, dif_neg (by omega), dif_pos (by omega)]
  exact congrArg₂ (fun s t => x9 m c (ix2 s t)) (ek _) (ej _)
theorem w1_t (c : Dev nD) (k j : Fin 64) (kk jj : Fin 256) (hkk : kk.val = 128 + k.val) (hjj : jj.val = j.val + 128) :
    (Gen.V11 m (outs (F := Ideal) m) c main_v63 : S256x256.Idx → EReal) (ix2 kk jj) = x13 m c (ix2 k j) := by
  have ek : ∀ h : kk.val - 128 < 64, (⟨kk.val - 128, h⟩ : Fin 64) = k := fun h => Fin.ext (by show kk.val - 128 = k.val; omega)
  have ej : ∀ h : jj.val - 128 < 64, (⟨jj.val - 128, h⟩ : Fin 64) = j := fun h => Fin.ext (by show jj.val - 128 = j.val; omega)
  rw [V11_v63 m (outs (F := Ideal) m) c kk jj, dif_neg (by omega), dif_neg (by omega), dif_pos (by omega)]
  exact congrArg₂ (fun s t => x13 m c (ix2 s t)) (ek _) (ej _)
theorem b1_a (c : Dev nD) (j : Fin 64) (jj : Fin 256) (hjj : jj.val = j.val) :
    (Gen.V11 m (outs (F := Ideal) m) c main_v64 : S1x256.Idx → EReal) (ix2 0 jj) = x6 m c (ix1 j) := by
  have e : ∀ h : jj.val < 64, (⟨jj.val, h⟩ : Fin 64) = j := fun h => Fin.ext (by show jj.val = j.val; omega)
  rw [V11_v64 m (outs (F := Ideal) m) c jj, dif_pos (by omega)]
  exact congrArg (fun t => x6 m c (ix1 t)) (e _)
theorem b1_s (c : Dev nD) (j : Fin 64) (jj : Fin 256) (hjj : jj.val = j.val + 64) :
    (Gen.V11 m (outs (F := Ideal) m) c main_v64 : S1x256.Idx → EReal) (ix2 0 jj) = x10 m c (ix1 j) := by
  have e : ∀ h : jj.val - 64 < 64, (⟨jj.val - 64, h⟩ : Fin 64) = j := fun h => Fin.ext (by show jj.val - 64 = j.val; omega)
  rw [V11_v64 m (outs (F := Ideal) m) c jj, dif_neg (by omega), dif_pos (by omega)]
  exact congrArg (fun t => x10 m c (ix1 t)) (e _)
theorem b1_t (c : Dev nD) (j : Fin 64) (jj : Fin 256) (hjj : jj.val = j.val + 128) :
    (Gen.V11 m (outs (F := Ideal) m) c main_v64 : S1x256.Idx → EReal) (ix2 0 jj) = x14 m c (ix1 j) := by
  have e : ∀ h : jj.val - 128 < 64, (⟨jj.val - 128, h⟩ : Fin 64) = j := fun h => Fin.ext (by show jj.val - 128 = j.val; omega)
  rw [V11_v64 m (outs (F := Ideal) m) c jj, dif_neg (by omega), dif_neg (by omega), dif_pos (by omega)]
  exact congrArg (fun t => x14 m c (ix1 t)) (e _)

/-- columns 0 … 63 of region 1's output are the first encoder's second stage -/
theorem h2p_a (c : Dev nD) (hpre : Pre m c) (v : Fin 8192) (j : Fin 64) :
    (outs (F := Ideal) m 12 main_v65 c : S8192x256.Idx → EReal) (ix2 v ⟨j.val, by omega⟩)
      = Cert.ReferenceIdeal.Read.val_main_v105 (F := Ideal) (x0 m c) (x1 m c) (x2 m c) (x3 m c) (x4 m c) (x5 m c) (x6 m c) (ix2 v j) :=
  (reg1_col m c hpre v ⟨j.val, by omega⟩ j 0 (by omega)
    (Cert.ReferenceIdeal.Read.val_main_v52 (F := Ideal) (x0 m c) (x1 m c) (x2 m c) (x3 m c) (x4 m c)) (x5 m c) (x6 m c)
    (fun u k kk hkk => by
      have e : kk = ⟨k.val, by omega⟩ := Fin.ext (by show kk.val = k.val; omega)
      rw [e]
      exact h1p_a m c hpre u k)
    (fun k hk => w1_zero m c k _ 0 (Or.inl rfl) ⟨Nat.zero_le _, by show j.val < 0 + 64; omega⟩ hk)
    (fun k kk hkk => w1_a m c k j kk _ hkk rfl) (b1_a m c j _ rfl)
    (Cert.ReferenceIdeal.Hand.isReal_v52 (x0 m c) (x1 m c) (x2 m c) (x3 m c) (x4 m c) (real0 m c hpre) (real3 m c hpre) (real4 m c hpre))
    (real5 m c hpre)).trans
    (congrFun (Cert.ReferenceIdeal.Hand.st_v105 (x0 m c) (x1 m c) (x2 m c) (x3 m c) (x4 m c) (x5 m c) (x6 m c)).symm (ix2 v j))

/-- columns 64 … 127 are the second encoder's second stage -/
theorem h2p_s (c : Dev nD) (hpre : Pre m c) (v : Fin 8192) (j : Fin 64) :
    (outs (F := Ideal) m 12 main_v65 c : S8192x256.Idx → EReal) (ix2 v ⟨j.val + 64, by omega⟩)
      = Cert.ReferenceIdeal.Read.val_main_v211 (F := Ideal) (x0 m c) (x1 m c) (x2 m c) (x7 m c) (x8 m c) (x9 m c) (x10 m c) (ix2 v j) :=
  (reg1_col m c hpre v ⟨j.val + 64, by omega⟩ j 64 (by omega)
    (Cert.ReferenceIdeal.Read.val_main_v158 (F := Ideal) (x0 m c) (x1 m c) (x2 m c) (x7 m c) (x8 m c)) (x9 m c) (x10 m c)
    (fun u k kk hkk => by
      have e : kk = ⟨k.val + 64, by omega⟩ := Fin.ext (by show kk.val = k.val + 64; omega)
      rw [e]
      exact h1p_s m c hpre u k)
    (fun k hk => w1_zero m c k _ 64 (Or.inr (Or.inl rfl)) ⟨by show 64 ≤ j.val + 64; omega, by show j.val + 64 < 64 + 64; omega⟩ hk)
    (fun k kk hkk => w1_s m c k j kk _ hkk rfl) (b1_s m c j _ rfl)
    (Cert.ReferenceIdeal.Hand.isReal_v158 (x0 m c) (x1 m c) (x2 m c) (x7 m c) (x8 m c) (real0 m c hpre) (real7 m c hpre) (real8 m c hpre))
    (real9 m c hpre)).trans
    (congrFun (Cert.ReferenceIdeal.Hand.st_v211 (x0 m c) (x1 m c) (x2 m c) (x7 m c) (x8 m c) (x9 m c) (x10 m c)).symm (ix2 v j))

/-- columns 128 … 191 are the third encoder's second stage -/
theorem h2p_t (c : Dev nD) (hpre : Pre m c) (v : Fin 8192) (j : Fin 64) :
    (outs (F := Ideal) m 12 main_v65 c : S8192x256.Idx → EReal) (ix2 v ⟨j.val + 128, by omega⟩)
      = Cert.ReferenceIdeal.Read.val_main_v317 (F := Ideal) (x0 m c) (x1 m c) (x2 m c) (x11 m c) (x12 m c) (x13 m c) (x14 m c) (ix2 v j) :=
  (reg1_col m c hpre v ⟨j.val + 128, by omega⟩ j 128 (by omega)
    (Cert.ReferenceIdeal.Read.val_main_v264 (F := Ideal) (x0 m c) (x1 m c) (x2 m c) (x11 m c) (x12 m c)) (x13 m c) (x14 m c)
    (fun u k kk hkk => by
      have e : kk = ⟨k.val + 128, by omega⟩ := Fin.ext (by show kk.val = k.val + 128; omega)
      rw [e]
      exact h1p_t m c hpre u k)
    (fun k hk => w1_zero m c k _ 128 (Or.inr (Or.inr rfl)) ⟨by show 128 ≤ j.val + 128; omega, by show j.val + 128 < 128 + 64; omega⟩ hk)
    (fun k kk hkk => w1_t m c k j kk _ hkk rfl) (b1_t m c j _ rfl)
    (Cert.ReferenceIdeal.Hand.isReal_v264 (x0 m c) (x1 m c) (x2 m c) (x11 m c) (x12 m c) (real0 m c hpre) (real11 m c hpre) (real12 m c hpre))
    (real13 m c hpre)).trans
    (congrFun (Cert.ReferenceIdeal.Hand.st_v317 (x0 m c) (x1 m c) (x2 m c) (x11 m c) (x12 m c) (x13 m c) (x14 m c)).symm (ix2 v j))

end Cert.Proof.Bridge

end
-- ==== Proof.BridgeAtt.lean ====
import proofs.«414230_j6141803233547_3_alg».proof.Proof.BridgeEnc
import Idealize.ShloMosaic.Lib.ValueIdx

/-!
# The attention and the combined features of the two programs agree

After the two encoder layers the kernel program holds the three encoders' outputs side by side in
one wide array; the reference program holds them as three arrays and concatenates them.  Column
block by column block the wide array is the concatenation.  From there both programs apply one and
the same chain of operations: an affine map to three scores per (node, feature), a softmax over the
three, and the sum of the three encoder outputs weighted by their attention.  The two chains are
written over each program's own copies of the same shape relations, so they are equal as
functions; hence the attention weights and the combined features of the two programs are equal.
-/

set_option maxRecDepth 16384

noncomputable section

namespace Cert.Proof.Bridge

open Cert.KernelIdeal Cert.KernelIdeal.Gen Cert.KernelIdeal.Hand Cert.KernelIdeal.Val
open Idealize.ShloMosaic Idealize.ShloMosaic.TcCoe Idealize.ShloMosaic.ValueIdx
open Cert.LibGcn
open scoped BigOperators

variable (m : (ℓ : Loc nD τ sig) → Buf (Elt Ideal) ℓ)

/-! ## The wide array is the concatenation -/

/-- the kernel's [8192,192] feature matrix (the first 192 columns of region 1's output) is the reference's concatenation of its three encoder outputs -/
theorem c192_eq (c : Dev nD) (hpre : Pre m c) :
    (h2K (outs (F := Ideal) m 12 main_v65 c) : S8192x192.Idx → EReal)
      = Cert.ReferenceIdeal.Read.val_main_v318 (F := Ideal) (x0 m c) (x1 m c) (x2 m c) (x3 m c) (x4 m c) (x5 m c) (x6 m c) (x7 m c) (x8 m c) (x9 m c) (x10 m c) (x11 m c) (x12 m c) (x13 m c) (x14 m c) := by
  funext i
  obtain ⟨v, j, rfl⟩ : ∃ (v : Fin 8192) (j : Fin 192), i = ix2 v j := ⟨i 0, i 1, eq_ix2 i⟩
  rw [h2K_apply, Cert.ReferenceIdeal.Hand.v318_apply]
  by_cases h : j.val < 64
  · rw [dif_pos h]
    exact h2p_a m c hpre v ⟨j.val, h⟩
  · rw [dif_neg h]
    by_cases h' : j.val < 128
    · rw [dif_pos h']
      exact (congrArg (fun t : Fin 256 => (outs (F := Ideal) m 12 main_v65 c : S8192x256.Idx → EReal) (ix2 v t)) (Fin.ext (by show j.val = j.val - 64 + 64; omega) : (⟨j.val, by omega⟩ : Fin 256) = ⟨j.val - 64 + 64, by omega⟩)).trans
        (h2p_s m c hpre v ⟨j.val - 64, by omega⟩)
    · rw [dif_neg h']
      exact (congrArg (fun t : Fin 256 => (outs (F := Ideal) m 12 main_v65 c : S8192x256.Idx → EReal) (ix2 v t)) (Fin.ext (by show j.val = j.val - 128 + 128; omega) : (⟨j.val, by omega⟩ : Fin 256) = ⟨j.val - 128 + 128, by omega⟩)).trans
        (h2p_t m c hpre v ⟨j.val - 128, by omega⟩)

/-- columns 0 … 63 of the wide array: the first encoder's output -/
theorem hA_eq (c : Dev nD) (hpre : Pre m c) :
    (hAK (h2K (outs (F := Ideal) m 12 main_v65 c)) : S8192x64.Idx → EReal) = Cert.ReferenceIdeal.Read.val_main_v105 (F := Ideal) (x0 m c) (x1 m c) (x2 m c) (x3 m c) (x4 m c) (x5 m c) (x6 m c) := by
  funext i
  obtain ⟨v, j, rfl⟩ : ∃ (v : Fin 8192) (j : Fin 64), i = ix2 v j := ⟨i 0, i 1, eq_ix2 i⟩
  rw [hAK_apply, h2K_apply]
  exact h2p_a m c hpre v j

/-- columns 64 … 127: the second encoder's output -/
theorem hS_eq (c : Dev nD) (hpre : Pre m c) :
    (hSK (h2K (outs (F := Ideal) m 12 main_v65 c)) : S8192x64.Idx → EReal) = Cert.ReferenceIdeal.Read.val_main_v211 (F := Ideal) (x0 m c) (x1 m c) (x2 m c) (x7 m c) (x8 m c) (x9 m c) (x10 m c) := by
  funext i
  obtain ⟨v, j, rfl⟩ : ∃ (v : Fin 8192) (j : Fin 64), i = ix2 v j := ⟨i 0, i 1, eq_ix2 i⟩
  rw [hSK_apply, h2K_apply]
  exact h2p_s m c hpre v j

/-- columns 128 … 191: the third encoder's output -/
theorem hT_eq (c : Dev nD) (hpre : Pre m c) :
    (hTK (h2K (outs (F := Ideal) m 12 main_v65 c)) : S8192x64.Idx → EReal) = Cert.ReferenceIdeal.Read.val_main_v317 (F := Ideal) (x0 m c) (x1 m c) (x2 m c) (x11 m c) (x12 m c) (x13 m c) (x14 m c) := by
  funext i
  obtain ⟨v, j, rfl⟩ : ∃ (v : Fin 8192) (j : Fin 64), i = ix2 v j := ⟨i 0, i 1, eq_ix2 i⟩
  rw [hTK_apply, h2K_apply]
  exact h2p_t m c hpre v j

/-! ## One chain of operations, written twice -/

/-- both programs apply ONE chain to it: the attention (dot with att_W, + bias, reshape to [8192,64,3], softmax over the last axis) and the combination -/
theorem attK_eq_attR (c192 : FVec Ideal S8192x192 .f32) (W : FVec Ideal S192x192 .f32) (b : FVec Ideal S192 .f32) :
    (attK c192 W b : S8192x64x3.Idx → EReal) = Cert.ReferenceIdeal.Hand.attR c192 W b := rfl

theorem combK_eq_combR (ha hs ht : FVec Ideal S8192x64 .f32) (att : FVec Ideal S8192x64x3 .f32) :
    (combK ha hs ht att : S8192x64.Idx → EReal) = Cert.ReferenceIdeal.Hand.combR ha hs ht att := rfl

/-! ## The attention weights and the combined features -/

/-- the kernel's attention of its wide array is the reference's attention stage -/
theorem att_mid (c : Dev nD) (hpre : Pre m c) :
    (attK (h2K (outs (F := Ideal) m 12 main_v65 c)) (x15 m c) (x16 m c) : S8192x64x3.Idx → EReal)
      = Cert.ReferenceIdeal.Read.val_main_v334 (F := Ideal) (x0 m c) (x1 m c) (x2 m c) (x3 m c) (x4 m c) (x5 m c) (x6 m c) (x7 m c) (x8 m c) (x9 m c) (x10 m c) (x11 m c) (x12 m c) (x13 m c) (x14 m c) (x15 m c) (x16 m c) :=
  (congrArg (fun q : FVec Ideal S8192x192 .f32 => (attK q (x15 m c) (x16 m c) : S8192x64x3.Idx → EReal)) (c192_eq m c hpre)).trans
    ((attK_eq_attR _ (x15 m c) (x16 m c)).trans (Cert.ReferenceIdeal.Hand.st_v334 (x0 m c) (x1 m c) (x2 m c) (x3 m c) (x4 m c) (x5 m c) (x6 m c) (x7 m c) (x8 m c) (x9 m c) (x10 m c) (x11 m c) (x12 m c) (x13 m c) (x14 m c) (x15 m c) (x16 m c)).symm)

/-- RESULT 2: the attention weights -/
theorem res_att (c : Dev nD) (hpre : Pre m c) :
    (Vfin (F := Ideal) m c main_v85 : S8192x64x3.Idx → EReal) = Cert.ReferenceIdeal.Read.val_main_v334 (F := Ideal) (x0 m c) (x1 m c) (x2 m c) (x3 m c) (x4 m c) (x5 m c) (x6 m c) (x7 m c) (x8 m c) (x9 m c) (x10 m c) (x11 m c) (x12 m c) (x13 m c) (x14 m c) (x15 m c) (x16 m c) :=
  (V20_v85 m (outs (F := Ideal) m) c).trans (att_mid m c hpre)

/-- the combined features h, as region 2 is handed them -/
theorem h_eq (c : Dev nD) (hpre : Pre m c) :
    (Gen.V17 m (outs (F := Ideal) m) c main_v101 : S8192x64.Idx → EReal) = Cert.ReferenceIdeal.Read.val_main_v345 (F := Ideal) (x0 m c) (x1 m c) (x2 m c) (x3 m c) (x4 m c) (x5 m c) (x6 m c) (x7 m c) (x8 m c) (x9 m c) (x10 m c) (x11 m c) (x12 m c) (x13 m c) (x14 m c) (x15 m c) (x16 m c) := by
  have e1 := hA_eq m c hpre
  have e2 := hS_eq m c hpre
  have e3 := hT_eq m c hpre
  have e4 := att_mid m c hpre
  refine (V17_v101 m (outs (F := Ideal) m) c).trans ?_
  refine Eq.trans ?_ (Cert.ReferenceIdeal.Hand.st_v345 (x0 m c) (x1 m c) (x2 m c) (x3 m c) (x4 m c) (x5 m c) (x6 m c) (x7 m c) (x8 m c) (x9 m c) (x10 m c) (x11 m c) (x12 m c) (x13 m c) (x14 m c) (x15 m c) (x16 m c)).symm
  refine Eq.trans ?_ (combK_eq_combR _ _ _ _)
  exact congr (congr (congr (congrArg combK e1) e2) e3) e4

end Cert.Proof.Bridge

end
-- ==== Proof.KIVal2.lean ====
import proofs.«414230_j6141803233547_3_alg».proof.Proof.KISpmm2
import proofs.«414230_j6141803233547_3_alg».proof.Proof.LibGcn
import Idealize.ShloMosaic.Lib.ValueIdx
import Idealize.ShloMosaic.Lib.ValueLayout
import Idealize.ShloMosaic.Lib.Pipeline.Value
import Idealize.ShloMosaic.PureOps.Ideal.Laws

/-!
# Region 2 read as values: a graph-convolution layer in matrix form

The region multiplies the adjacency matrix `A` (8192 × 8192) by the feature matrix `X`
(8192 × 64) one 2048 × 2048 block at a time: for a row block `i` the partial sum runs over the
four column blocks `k`, each adding `A[i,k] · X[k]`, starting from the zero block.  After the last
column block the finished rows are multiplied by the layer's matrix `W` (64 × 128), the bias row
is added and the layer's activation `act` applied (the identity for this region).  Read entry
by entry over the extended reals this is

  out (r, j) = act (Σ_k (Σ_u A (r, u) · X (u, k)) · W (k, j) + b j) ,

because a sum over 8192 columns taken in four consecutive blocks of 2048 is the whole sum
(only associativity of the addition is used: no finiteness is needed).
-/

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-! ## Two facts about sums and products, for any sizes -/

/-- a rows-by-columns product into the zero block, read at an entry: the sum over the contracted
coordinate of the products of the entries -/
private theorem matmul_rc_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- four consecutive blocks of 2048 terms, summed block by block, are the sum of all 8192 terms -/
private theorem blocks_join (f : ℕ → EReal) (g : Fin 8192 → EReal) (hfg : ∀ u : Fin 8192, f u.val = g u) :
    ∑ k' ∈ Finset.range 4, ∑ q : Fin 2048, f (2048 * k' + q.val) = ∑ u : Fin 8192, g u := by
  rw [Cert.LibGcn.sum_blocks 4 2048 rfl g, Finset.sum_range]
  refine Finset.sum_congr rfl fun k' _ => Finset.sum_congr rfl fun q _ => ?_
  rw [← hfg]
  exact congrArg f (by show 2048 * k'.val + q.val = k'.val * 2048 + q.val; omega)

/-! ## The arrays as the region finds them, by coordinates -/

variable (V : (c : Dev nD) → (b : Ref sig .tc) → Buf (Elt Ideal) ((c : Thread nD τ).loc b))

/-- the adjacency matrix: entry (v, u) -/
abbrev A2 (c : Dev nD) (v u : Fin 8192) : EReal := (V c main_v45 : S8192x8192.Idx → EReal) (ix2 v u)
/-- the features: row u, column k -/
abbrev X2 (c : Dev nD) (u : Fin 8192) (k : Fin 64) : EReal := (V c main_v101 : S8192x64.Idx → EReal) (ix2 u k)
/-- the layer's matrix: entry (k, j) -/
abbrev W2 (c : Dev nD) (k : Fin 64) (j : Fin 128) : EReal := (V c main_v102 : S64x128.Idx → EReal) (ix2 k j)
/-- the layer's bias: entry j of its one row -/
abbrev B2 (c : Dev nD) (j : Fin 128) : EReal := (V c main_v103 : S1x128.Idx → EReal) (ix2 (0 : Fin 1) j)

/-- the adjacency matrix at natural coordinates, zero outside the matrix: the row and column of an
entry of a block are sums of the block's offset and the place inside the block -/
def An2 (c : Dev nD) (v u : ℕ) : EReal := if h : v < 8192 ∧ u < 8192 then A2 V c ⟨v, h.1⟩ ⟨u, h.2⟩ else 0
/-- the features at a natural row, zero outside -/
def Xn2 (c : Dev nD) (u : ℕ) (kk : Fin 64) : EReal := if h : u < 8192 then X2 V c ⟨u, h⟩ kk else 0

/-- the product of block (i, k') of the adjacency matrix with row block k' of the features, at
row r of the block and column kk -/
def Sn2 (c : Dev nD) (i k' : ℕ) (r : Fin 2048) (kk : Fin 64) : EReal :=
  ∑ q : Fin 2048, An2 V c (2048 * i + r.val) (2048 * k' + q.val) * Xn2 V c (2048 * k' + q.val) kk

/-! ## Where the blocks sit: the index maps over the sixteen points -/

/-- point t = 4 i + k reads block (i, k) of the adjacency matrix, all of the features, of the layer's
matrix and of the bias, and owns block (i, 0) of the result; its second coordinate is k -/
theorem idx_facts2 : ∀ t : Fin cfg2.N,
    win2_0.index t (0 : Fin 2) = t.val / 4 ∧ win2_0.index t (1 : Fin 2) = t.val % 4
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val / 4 ∧ win2_4.index t (1 : Fin 2) = 0
    ∧ ((grid2.coords t) 1).val = t.val % 4 :=
  (by decide +kernel : ∀ t : Fin grid2.N, _)

/-- there are sixteen points -/
theorem lt16_2 (t : Fin cfg2.N) : t.val < 16 := lt_of_lt_of_eq t.isLt N_2

/-! ## The blocks read entry by entry -/

/-- the adjacency block at point t = 4 i + k: entry (r, q) is entry (2048 i + r, 2048 k + q) of the matrix -/
theorem ablk2_apply (c : Dev nD) (t : Fin cfg2.N) (r q : Fin 2048) :
    ablk2 V c t (ix2 r q) = An2 V c (2048 * (t.val / 4) + r.val) (2048 * (t.val % 4) + q.val) := by
  have ht := lt16_2 t
  have hv : 2048 * (t.val / 4) + r.val < 8192 := by omega
  have hu : 2048 * (t.val % 4) + q.val < 8192 := by omega
  obtain ⟨e0, e1, -⟩ := idx_facts2 t
  unfold An2
  rw [dif_pos ⟨hv, hu⟩]
  show (V c main_v45 : S8192x8192.Idx → EReal) (((cfg2.win 0).blk t).view.emb (ix2 r q))
    = (V c main_v45 : S8192x8192.Idx → EReal) (ix2 ⟨2048 * (t.val / 4) + r.val, hv⟩ ⟨2048 * (t.val % 4) + q.val, hu⟩)
  refine congrArg _ ?_
  funext a
  apply Fin.ext
  match a with
  | ⟨0, _⟩ => show win2_0.index t (0 : Fin 2) * 2048 + 1 * r.val = 2048 * (t.val / 4) + r.val; rw [e0]; omega
  | ⟨1, _⟩ => show win2_0.index t (1 : Fin 2) * 2048 + 1 * q.val = 2048 * (t.val % 4) + q.val; rw [e1]; omega

/-- the rows of the features the body loads at point t = 4 i + k: entry (q, kk) is entry
(2048 k + q, kk) of the features -/
theorem xsl2_apply (c : Dev nD) (t : Fin cfg2.N) (q : Fin 2048) (kk : Fin 64) :
    xsl2 V c t (ix2 q kk) = Xn2 V c (2048 * (t.val % 4) + q.val) kk := by
  have ht := lt16_2 t
  have hu : 2048 * (t.val % 4) + q.val < 8192 := by omega
  obtain ⟨-, -, e2, e3, -, -, -, -, -, -, ek⟩ := idx_facts2 t
  unfold Xn2
  rw [dif_pos hu]
  unfold xsl2
  show (V c main_v101 : S8192x64.Idx → EReal) (((cfg2.win 1).blk t).view.emb
      ((Rect.unit (s := S8192x64) (k2_off1 (grid2.coords t)) S2048x64.size (Gen.k2_off1_inb (grid2.coords t))).idx (ix2 q kk)))
    = (V c main_v101 : S8192x64.Idx → EReal) (ix2 ⟨2048 * (t.val % 4) + q.val, hu⟩ kk)
  refine congrArg _ ?_
  funext a
  apply Fin.ext
  match a with
  | ⟨0, _⟩ =>
    show win2_1.index t (0 : Fin 2) * 8192 + 1 * (k2_off1 (grid2.coords t) 0 + 1 * q.val) = 2048 * (t.val % 4) + q.val
    rw [e2, k2_off1_eq]
    show 0 * 8192 + 1 * (2048 * ((grid2.coords t) 1).val + 1 * q.val) = 2048 * (t.val % 4) + q.val
    rw [ek]; omega
  | ⟨1, _⟩ =>
    show win2_1.index t (1 : Fin 2) * 64 + 1 * (k2_off1 (grid2.coords t) 1 + 1 * kk.val) = kk.val
    rw [e3, k2_off1_eq]
    show 0 * 64 + 1 * (0 + 1 * kk.val) = kk.val
    omega

/-- the layer's matrix is read whole at every point -/
theorem wmat2_apply (c : Dev nD) (t : Fin cfg2.N) (k : Fin 64) (j : Fin 128) :
    wmat2 V c t (ix2 k j) = W2 V c k j := by
  obtain ⟨-, -, -, -, e4, e5, -⟩ := idx_facts2 t
  show (V c main_v102 : S64x128.Idx → EReal) (((cfg2.win 2).blk t).view.emb (ix2 k j))
    = (V c main_v102 : S64x128.Idx → EReal) (ix2 k j)
  refine congrArg _ ?_
  funext a
  apply Fin.ext
  match a with
  | ⟨0, _⟩ => show win2_2.index t (0 : Fin 2) * 64 + 1 * k.val = k.val; rw [e4]; omega
  | ⟨1, _⟩ => show win2_2.index t (1 : Fin 2) * 128 + 1 * j.val = j.val; rw [e5]; omega

/-- and so is the bias row -/
theorem bias2_apply (c : Dev nD) (t : Fin cfg2.N) (j : Fin 128) :
    bias2 V c t (ix2 (0 : Fin 1) j) = B2 V c j := by
  obtain ⟨-, -, -, -, -, -, e6, e7, -⟩ := idx_facts2 t
  show (V c main_v103 : S1x128.Idx → EReal) (((cfg2.win 3).blk t).view.emb (ix2 (0 : Fin 1) j))
    = (V c main_v103 : S1x128.Idx → EReal) (ix2 (0 : Fin 1) j)
  refine congrArg _ ?_
  funext a
  apply Fin.ext
  match a with
  | ⟨0, _⟩ => show win2_3.index t (0 : Fin 2) * 1 + 1 * (0 : Fin 1).val = (0 : Fin 1).val; rw [e6]; rfl
  | ⟨1, _⟩ => show win2_3.index t (1 : Fin 2) * 128 + 1 * j.val = j.val; rw [e7]; omega

/-! ## The body's arithmetic entry by entry -/

/-- the block the sum restarts from is zero -/
theorem zero2_apply (r : Fin 2048) (kk : Fin 64) : (k2_pay1 (F := Ideal)) (ix2 r kk) = 0 := by
  unfold k2_pay1
  simp only [shapeCast_self]
  exact Ideal.ofBits_zero_f32

/-- one step of the sum: the carried block plus the product of the adjacency block with the loaded
rows of the features -/
theorem step2_apply (x : FVec Ideal S2048x64 .bf16) (acc : FVec Ideal S2048x64 .f32) (a : FVec Ideal S2048x2048 .bf16)
    (r : Fin 2048) (kk : Fin 64) :
    k2_pay2 (F := Ideal) x acc a (ix2 r kk) = acc (ix2 r kk) + ∑ q : Fin 2048, a (ix2 r q) * x (ix2 q kk) := by
  unfold k2_pay2
  simp only [shapeCast_self]
  exact congrArg (acc (ix2 r kk) + ·)
    (matmul_rc_apply Gen.dot_S2048x2048_S2048x64_S2048x64_1_0_0_1_n_n_wf none a x r kk)

/-- before the activation: the finished rows times the layer's matrix, plus the bias row (a change of
float format is the identity on the extended reals) -/
theorem pre2_apply (s : FVec Ideal S2048x64 .f32) (w : FVec Ideal S64x128 .bf16) (b : FVec Ideal S1x128 .f32)
    (r : Fin 2048) (j : Fin 128) :
    FloatOps.matmul dot_S2048x64_S64x128_S2048x128_1_0_0_1_n_n none (truncf .bf16 s Gen.bitsLt_bf16_f32) w
          (constant (F := Ideal) S2048x128 .f32 0x00000000#32) (ix2 r j)
        + broadcastTo S2048x128 b Gen.broadcasts_S1x128_S2048x128 (ix2 r j)
      = (∑ k : Fin 64, s (ix2 r k) * w (ix2 k j)) + b (ix2 (0 : Fin 1) j) :=
  congrArg₂ (· + ·)
    (matmul_rc_apply Gen.dot_S2048x64_S64x128_S2048x128_1_0_0_1_n_n_wf none (truncf .bf16 s Gen.bitsLt_bf16_f32) w r j)
    (broadcastTo_1b_ab_apply b Gen.broadcasts_S1x128_S2048x128 r j)

section Epilogue2

/-- this layer has no activation -/
abbrev act2 (x : EReal) : EReal := x

/-- what the epilogue stores: the activation of the finished rows times the layer's matrix plus the bias -/
theorem epi2_apply (s : FVec Ideal S2048x64 .f32) (w : FVec Ideal S64x128 .bf16) (b : FVec Ideal S1x128 .f32)
    (r : Fin 2048) (j : Fin 128) :
    k2_pay3 (F := Ideal) s w b (ix2 r j) = act2 ((∑ k : Fin 64, s (ix2 r k) * w (ix2 k j)) + b (ix2 (0 : Fin 1) j)) := by
  unfold k2_pay3
  simp only [shapeCast_self]
  exact pre2_apply s w b r j

end Epilogue2

/-! ## The partial sum, closed -/

/-- the product of the blocks at point t = 4 i + k is the block product `Sn2 i k` -/
theorem blockterm2 (c : Dev nD) (t : Fin cfg2.N) (r : Fin 2048) (kk : Fin 64) :
    ∑ q : Fin 2048, ablk2 V c t (ix2 r q) * xsl2 V c t (ix2 q kk) = Sn2 V c (t.val / 4) (t.val % 4) r kk :=
  Finset.sum_congr rfl fun q _ => by rw [ablk2_apply, xsl2_apply]

/-- after the point n = 4 i + k the carried block holds the block products of row block i with the column
blocks 0, …, k: by induction along the points, the sum restarting at k = 0 -/
theorem acc2_closed (c : Dev nD) : ∀ (n : ℕ) (h : n < cfg2.N) (r : Fin 2048) (kk : Fin 64),
    acc2 V c n h (ix2 r kk) = ∑ k' ∈ Finset.range (n % 4 + 1), Sn2 V c (n / 4) k' r kk
  | 0, h, r, kk => by
    have e : acc2 V c 0 h = k2_pay2 (xsl2 V c ⟨0, h⟩) (k2_pay1 (F := Ideal)) (ablk2 V c ⟨0, h⟩) := rfl
    refine (congrFun e (ix2 r kk)).trans ?_
    refine (step2_apply (xsl2 V c ⟨0, h⟩) (k2_pay1 (F := Ideal)) (ablk2 V c ⟨0, h⟩) r kk).trans ?_
    rw [zero2_apply, zero_add, blockterm2 V c ⟨0, h⟩ r kk]
    exact (Finset.sum_range_one (fun k' => Sn2 V c (0 / 4) k' r kk)).symm
  | n + 1, h, r, kk => by
    by_cases hz : (n + 1) % 4 = 0
    · have e : acc2 V c (n + 1) h = k2_pay2 (xsl2 V c ⟨n + 1, h⟩) (k2_pay1 (F := Ideal)) (ablk2 V c ⟨n + 1, h⟩) := if_pos hz
      refine (congrFun e (ix2 r kk)).trans ?_
      refine (step2_apply (xsl2 V c ⟨n + 1, h⟩) (k2_pay1 (F := Ideal)) (ablk2 V c ⟨n + 1, h⟩) r kk).trans ?_
      rw [zero2_apply, zero_add, blockterm2 V c ⟨n + 1, h⟩ r kk]
      show Sn2 V c ((n + 1) / 4) ((n + 1) % 4) r kk = _
      rw [hz]
      exact (Finset.sum_range_one (fun k' => Sn2 V c ((n + 1) / 4) k' r kk)).symm
    · have e : acc2 V c (n + 1) h = k2_pay2 (xsl2 V c ⟨n + 1, h⟩) (acc2 V c n (Nat.lt_of_succ_lt h)) (ablk2 V c ⟨n + 1, h⟩) := if_neg hz
      refine (congrFun e (ix2 r kk)).trans ?_
      refine (step2_apply (xsl2 V c ⟨n + 1, h⟩) (acc2 V c n (Nat.lt_of_succ_lt h)) (ablk2 V c ⟨n + 1, h⟩) r kk).trans ?_
      rw [acc2_closed c n (Nat.lt_of_succ_lt h) r kk, blockterm2 V c ⟨n + 1, h⟩ r kk]
      have h4 : (n + 1) / 4 = n / 4 := by omega
      have hm : (n + 1) % 4 = n % 4 + 1 := by omega
      show _ + Sn2 V c ((n + 1) / 4) ((n + 1) % 4) r kk = _
      rw [h4, hm]
      exact (Finset.sum_range_succ (fun k' => Sn2 V c (n / 4) k' r kk) (n % 4 + 1)).symm

/-- at the last column block the carried block holds the rows of the whole product A · X -/
theorem acc2_last (c : Dev nD) (t : Fin cfg2.N) (h3 : t.val % 4 = 3) (r : Fin 2048) (kk : Fin 64)
    (v : Fin 8192) (hv : v.val = 2048 * (t.val / 4) + r.val) :
    acc2 V c t.val t.isLt (ix2 r kk) = ∑ u : Fin 8192, A2 V c v u * X2 V c u kk := by
  obtain ⟨v, hlt⟩ := v
  dsimp only at hv
  subst hv
  rw [acc2_closed V c t.val t.isLt r kk, h3]
  refine blocks_join (fun u => An2 V c (2048 * (t.val / 4) + r.val) u * Xn2 V c u kk)
    (fun u => A2 V c ⟨2048 * (t.val / 4) + r.val, hlt⟩ u * X2 V c u kk) (fun u => ?_)
  show An2 V c (2048 * (t.val / 4) + r.val) u.val * Xn2 V c u.val kk = _
  unfold An2 Xn2
  rw [dif_pos ⟨hlt, u.isLt⟩, dif_pos u.isLt]

/-! ## What the epilogue stores, and the result array -/

/-- the result, entry by entry: the activation of the layer in matrix form -/
abbrev G2 (c : Dev nD) : S8192x128.Idx → EReal := fun i =>
  act2 (Cert.LibGcn.layerK (A2 V c) (X2 V c) (W2 V c) (B2 V c) (i 0) (i 1))

/-- `G2` at an entry whose coordinates are known -/
theorem G2_at (c : Dev nD) (i : S8192x128.Idx) (v : Fin 8192) (j : Fin 128) (h0 : (i 0).val = v.val) (h1 : (i 1).val = j.val) :
    G2 V c i = act2 (Cert.LibGcn.layerK (A2 V c) (X2 V c) (W2 V c) (B2 V c) v j) := by
  obtain ⟨a, b, rfl⟩ : ∃ (a : Fin 8192) (b : Fin 128), i = ix2 a b := ⟨i 0, i 1, eq_ix2 i⟩
  obtain rfl : a = v := Fin.ext h0
  obtain rfl : b = j := Fin.ext h1
  rfl

/-- at the last column block of row block i the epilogue stores rows 2048 i, …, 2048 i + 2047 of the layer -/
theorem out2_apply (c : Dev nD) (t : Fin cfg2.N) (h3 : t.val % 4 = 3) (r : Fin 2048) (j : Fin 128)
    (v : Fin 8192) (hv : v.val = 2048 * (t.val / 4) + r.val) :
    out2 V c t (ix2 r j) = act2 (Cert.LibGcn.layerK (A2 V c) (X2 V c) (W2 V c) (B2 V c) v j) := by
  unfold out2
  refine (epi2_apply (acc2 V c t.val t.isLt) (wmat2 V c t) (bias2 V c t) r j).trans ?_
  unfold Cert.LibGcn.layerK
  refine congrArg act2 (congrArg₂ (· + ·) (Finset.sum_congr rfl fun k _ => ?_) (bias2_apply V c t j))
  rw [acc2_last V c t h3 r k v hv, wmat2_apply]

/-- what a flushing point writes back is its block of the result -/
theorem flushed2_eq (c : Dev nD) (t : Fin cfg2.N) (hf : (cfg2.win 4).flush t = true) :
    (dat2 V c).flushed 4 t = ((cfg2.win 4).blk t).view.read (Elt Ideal) (G2 V c) := by
  have h3 : t.val % 4 = 3 := (flush2_4 t).mp hf
  have ht := lt16_2 t
  obtain ⟨-, -, -, -, -, -, -, -, e8, e9, -⟩ := idx_facts2 t
  show (cfg2.win 4).cut (grid2.coords t) ((dat2 V c).after 4 t) = _
  rw [after2_4]
  refine funext fun (y : S2048x128.Idx) => ?_
  obtain ⟨r, j, rfl⟩ : ∃ (r : Fin 2048) (j : Fin 128), y = ix2 r j := ⟨y 0, y 1, eq_ix2 y⟩
  show out2 V c t (ix2 r j) = G2 V c (((cfg2.win 4).blk t).view.emb (ix2 r j))
  refine (out2_apply V c t h3 r j ⟨2048 * (t.val / 4) + r.val, by omega⟩ rfl).trans ?_
  refine (G2_at V c _ ⟨2048 * (t.val / 4) + r.val, by omega⟩ j ?_ ?_).symm
  · show win2_4.index t (0 : Fin 2) * 2048 + 1 * r.val = 2048 * (t.val / 4) + r.val
    rw [e8]; omega
  · show win2_4.index t (1 : Fin 2) * 128 + 1 * j.val = j.val
    rw [e9]; omega

/-- an entry of the result array is in point t's block iff each coordinate is in the block's range -/
theorem mem_blk2 (t : Fin cfg2.N) (i : S8192x128.Idx) :
    i ∈ ((cfg2.win 4).blk t).view.set ↔ ∀ a : Fin 2, win2_4.index t a * S2048x128.size a ≤ (i a).val
      ∧ (i a).val < win2_4.index t a * S2048x128.size a + S2048x128.size a := by
  show i ∈ ((View.whole main_v104).slice (win2_4.rect t)).set ↔ _
  rw [View.set_slice_whole, Rect.mem_set_unit]
  exact Iff.rfl

/-- every row r of the result lies in the block the point 4 (r / 2048) + 3 writes back -/
theorem cover2 (i : S8192x128.Idx) :
    ∃ t : Fin cfg2.N, (cfg2.win 4).flush t = true ∧ i ∈ ((cfg2.win 4).blk t).view.set := by
  have hi0 : (i 0).val < 8192 := (i 0).isLt
  have hi1 : (i 1).val < 128 := (i 1).isLt
  have hN : cfg2.N = 16 := N_2
  have hlt : 4 * ((i 0).val / 2048) + 3 < cfg2.N := by rw [hN]; omega
  obtain ⟨-, -, -, -, -, -, -, -, e8, e9, -⟩ := idx_facts2 ⟨4 * ((i 0).val / 2048) + 3, hlt⟩
  refine ⟨⟨4 * ((i 0).val / 2048) + 3, hlt⟩, (flush2_4 _).mpr (by show (4 * ((i 0).val / 2048) + 3) % 4 = 3; omega), ?_⟩
  rw [mem_blk2]
  intro a
  match a with
  | ⟨0, _⟩ =>
    show win2_4.index ⟨4 * ((i 0).val / 2048) + 3, hlt⟩ (0 : Fin 2) * 2048 ≤ (i 0).val
      ∧ (i 0).val < win2_4.index ⟨4 * ((i 0).val / 2048) + 3, hlt⟩ (0 : Fin 2) * 2048 + 2048
    rw [e8]
    show (4 * ((i 0).val / 2048) + 3) / 4 * 2048 ≤ (i 0).val ∧ (i 0).val < (4 * ((i 0).val / 2048) + 3) / 4 * 2048 + 2048
    omega
  | ⟨1, _⟩ =>
    show win2_4.index ⟨4 * ((i 0).val / 2048) + 3, hlt⟩ (1 : Fin 2) * 128 ≤ (i 1).val
      ∧ (i 1).val < win2_4.index ⟨4 * ((i 0).val / 2048) + 3, hlt⟩ (1 : Fin 2) * 128 + 128
    rw [e9]; omega

/-- the result array after the region, with the activation named -/
theorem arr2_act (c : Dev nD) : (dat2 V c).arrAt 4 cfg2.N = G2 V c :=
  (dat2 V c).arrAt_eq_of_cover 4 (G2 V c) (flushed2_eq V c) cover2

section Result2

/-- after region 2 its output array holds, at row r and column j, ((A·X)·W)(r,j) + bias j -/
theorem arr2 (c : Dev nD) : ((dat2 V c).arrAt 4 cfg2.N : S8192x128.Idx → EReal) = fun i =>
    (Cert.LibGcn.layerK (fun (v u : Fin 8192) => (V c main_v45 : S8192x8192.Idx → EReal) (ix2 v u))
      (fun (u : Fin 8192) (k : Fin 64) => (V c main_v101 : S8192x64.Idx → EReal) (ix2 u k))
      (fun (k : Fin 64) (j : Fin 128) => (V c main_v102 : S64x128.Idx → EReal) (ix2 k j))
      (fun (j : Fin 128) => (V c main_v103 : S1x128.Idx → EReal) (ix2 0 j)) (i 0) (i 1)) :=
  arr2_act V c

end Result2

end Cert.KernelIdeal.Val

end
-- ==== Proof.KIVal3.lean ====
import proofs.«414230_j6141803233547_3_alg».proof.Proof.KIOuter3
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! # Region 3 leaves H·Hᵀ in its output array

The body multiplies a block of 2048 rows of H with the transpose of a block of 512 rows of H; the 64 output blocks tile
the [8192,8192] array, so the array ends holding the Gram matrix of H's rows. -/

/-! ## The product's operand indices, axis by axis: both factors are contracted over their axis 1 -/

theorem lhs3_0 (i : S2048x512.Idx) (q : dot_S2048x64_S512x64_S2048x512_1_1_0_0_n_n.contr.Idx) :
    (dot_S2048x64_S512x64_S2048x512_1_1_0_0_n_n.lhsIdx i q 0).val = (i 0).val := by
  unfold DotDims.lhsIdx
  rw [dif_neg (show ¬(0 : Fin S2048x64.rank) ∈ dot_S2048x64_S512x64_S2048x512_1_1_0_0_n_n.lhsBatch by decide), dif_pos (show (0 : Fin S2048x64.rank) ∈ dot_S2048x64_S512x64_S2048x512_1_1_0_0_n_n.lhsNonContracting by decide)]
  rfl
theorem lhs3_1 (i : S2048x512.Idx) (q : dot_S2048x64_S512x64_S2048x512_1_1_0_0_n_n.contr.Idx) :
    (dot_S2048x64_S512x64_S2048x512_1_1_0_0_n_n.lhsIdx i q 1).val = (q ⟨0, by decide⟩).val :=
  dot_S2048x64_S512x64_S2048x512_1_1_0_0_n_n.lhsIdx_val_of_single rfl i q
theorem rhs3_0 (i : S2048x512.Idx) (q : dot_S2048x64_S512x64_S2048x512_1_1_0_0_n_n.contr.Idx) :
    (dot_S2048x64_S512x64_S2048x512_1_1_0_0_n_n.rhsIdx i q 0).val = (i 1).val := by
  unfold DotDims.rhsIdx
  rw [dif_neg (show ¬(0 : Fin S512x64.rank) ∈ dot_S2048x64_S512x64_S2048x512_1_1_0_0_n_n.rhsBatch by decide), dif_pos (show (0 : Fin S512x64.rank) ∈ dot_S2048x64_S512x64_S2048x512_1_1_0_0_n_n.rhsNonContracting by decide)]
  rfl
theorem rhs3_1 (i : S2048x512.Idx) (q : dot_S2048x64_S512x64_S2048x512_1_1_0_0_n_n.contr.Idx) :
    (dot_S2048x64_S512x64_S2048x512_1_1_0_0_n_n.rhsIdx i q 1).val = (q ⟨0, by decide⟩).val :=
  dot_S2048x64_S512x64_S2048x512_1_1_0_0_n_n.rhsIdx_val_of_single rfl i q

/-- The product into a zero accumulator at (r, q): the sum over the 64 features of left(r, k) · right(q, k). -/
theorem mm3_apply (prec : Option ContractPrecision) (x0 : FVec Ideal S2048x64 .f32) (x1 : FVec Ideal S512x64 .f32) (r : Fin 2048) (q : Fin 512) :
    FloatOps.matmul dot_S2048x64_S512x64_S2048x512_1_1_0_0_n_n prec x0 x1 (constant (F := Ideal) S2048x512 .f32 0x00000000#32) (ix2 r q)
      = ∑ k : Fin 64, x0 (ix2 r k) * x1 (ix2 q k) := by
  rw [Ideal.matmul_constant_zero_apply, ← Equiv.sum_comp (contrEquiv1 dot_S2048x64_S512x64_S2048x512_1_1_0_0_n_n 64 rfl rfl).symm]
  refine Finset.sum_congr rfl fun k _ => ?_
  have hk := contrEquiv1_symm_val dot_S2048x64_S512x64_S2048x512_1_1_0_0_n_n 64 rfl rfl k
  have el : dot_S2048x64_S512x64_S2048x512_1_1_0_0_n_n.lhsIdx (ix2 r q) ((contrEquiv1 dot_S2048x64_S512x64_S2048x512_1_1_0_0_n_n 64 rfl rfl).symm k) = ix2 r k := funext fun a => Fin.ext (by
    match a with
    | ⟨0, _⟩ => exact lhs3_0 _ _
    | ⟨1, _⟩ => exact (lhs3_1 _ _).trans hk)
  have er : dot_S2048x64_S512x64_S2048x512_1_1_0_0_n_n.rhsIdx (ix2 r q) ((contrEquiv1 dot_S2048x64_S512x64_S2048x512_1_1_0_0_n_n 64 rfl rfl).symm k) = ix2 q k := funext fun a => Fin.ext (by
    match a with
    | ⟨0, _⟩ => exact rhs3_0 _ _
    | ⟨1, _⟩ => exact (rhs3_1 _ _).trans hk)
  rw [el, er]

/-- The body's stored value at (r, q): the two same-shape casts are identities, the rest is the product. -/
theorem pay3_apply (x0 : FVec Ideal S2048x64 .f32) (x1 : FVec Ideal S512x64 .f32) (r : Fin 2048) (q : Fin 512) :
    k3_pay1 (F := Ideal) x0 x1 (ix2 r q) = ∑ k : Fin 64, x0 (ix2 r k) * x1 (ix2 q k) := by
  unfold k3_pay1
  show FloatOps.matmul dot_S2048x64_S512x64_S2048x512_1_1_0_0_n_n (some .fp32) (shapeCast S2048x64 x0 shapeCasts_S2048x64_S2048x64)
      (shapeCast S512x64 x1 shapeCasts_S512x64_S512x64) (constant (F := Ideal) S2048x512 .f32 0x00000000#32) (ix2 r q) = _
  rw [shapeCast_self, shapeCast_self]
  exact mm3_apply _ x0 x1 r q

/-! ## The Gram matrix, and a block of it -/

/-- The Gram matrix of the rows of a [8192,64] array: at (r, s) the sum over the 64 features of H(r,k)·H(s,k). -/
abbrev gram (H : S8192x64.Idx → EReal) : S8192x8192.Idx → EReal := fun i =>
  ∑ k : Fin 64, H (ix2 (n0 := 8192) (n1 := 64) (i 0) k) * H (ix2 (n0 := 8192) (n1 := 64) (i 1) k)

/-- The product of two row blocks of H is a block of the Gram matrix: when the left block is rows a·2048 + · of H,
    the right block rows b·512 + · of H, and the array index i sits at block (a, b), offset y. -/
theorem pay3_blk (H : S8192x64.Idx → EReal) (x0 : FVec Ideal S2048x64 .f32) (x1 : FVec Ideal S512x64 .f32)
    (y : S2048x512.Idx) (i : S8192x8192.Idx) (a a' b b' : ℕ) (ha' : a' = 0) (hb' : b' = 0)
    (e0 : S2048x64.Idx → S8192x64.Idx) (e1 : S512x64.Idx → S8192x64.Idx)
    (hx0 : ∀ z, x0 z = H (e0 z)) (hx1 : ∀ z, x1 z = H (e1 z))
    (he0 : ∀ z, (e0 z 0).val = a * 2048 + 1 * (z 0).val ∧ (e0 z 1).val = a' * 64 + 1 * (z 1).val)
    (he1 : ∀ z, (e1 z 0).val = b * 512 + 1 * (z 0).val ∧ (e1 z 1).val = b' * 64 + 1 * (z 1).val)
    (hi0 : (i 0).val = a * 2048 + 1 * (y 0).val) (hi1 : (i 1).val = b * 512 + 1 * (y 1).val) :
    k3_pay1 (F := Ideal) x0 x1 y = gram H i := by
  refine ((congrArg (k3_pay1 (F := Ideal) x0 x1) (eq_ix2 y)).trans (pay3_apply x0 x1 (y 0) (y 1))).trans ?_
  refine Finset.sum_congr rfl fun k _ => ?_
  have h0 : e0 (ix2 (n0 := 2048) (n1 := 64) (y 0) k) = ix2 (n0 := 8192) (n1 := 64) (i 0) k := funext fun d => Fin.ext (by
    match d with
    | ⟨0, _⟩ => exact (he0 _).1.trans hi0.symm
    | ⟨1, _⟩ =>
      have h : (e0 (ix2 (n0 := 2048) (n1 := 64) (y 0) k) 1).val = a' * 64 + 1 * k.val := (he0 _).2
      show (e0 (ix2 (n0 := 2048) (n1 := 64) (y 0) k) 1).val = k.val
      omega)
  have h1 : e1 (ix2 (n0 := 512) (n1 := 64) (y 1) k) = ix2 (n0 := 8192) (n1 := 64) (i 1) k := funext fun d => Fin.ext (by
    match d with
    | ⟨0, _⟩ => exact (he1 _).1.trans hi1.symm
    | ⟨1, _⟩ =>
      have h : (e1 (ix2 (n0 := 512) (n1 := 64) (y 1) k) 1).val = b' * 64 + 1 * k.val := (he1 _).2
      show (e1 (ix2 (n0 := 512) (n1 := 64) (y 1) k) 1).val = k.val
      omega)
  rw [hx0, hx1, h0, h1]

/-! ## From blocks to the array -/

variable (V : (c : Dev nD) → (b : Ref sig .tc) → Buf (Elt Ideal) ((c : Thread nD τ).loc b))

/-- The blocks' index maps over the 64 grid points: the left factor's row block moves with the output's row block,
    the right factor's with the output's column block, and neither moves along the features. -/
theorem idx_facts3 : ∀ t : Fin cfg3.N, win3_0.index t (0 : Fin 2) = win3_2.index t (0 : Fin 2)
    ∧ win3_0.index t (1 : Fin 2) = 0
    ∧ win3_1.index t (0 : Fin 2) = win3_2.index t (1 : Fin 2)
    ∧ win3_1.index t (1 : Fin 2) = 0 :=
  (by decide +kernel : ∀ t : Fin grid3.N, _)

/-- Every block (q0, q1) of the 4 × 16 blocks is some point's. -/
theorem idx_onto3 : ∀ (q0 : Fin 4) (q1 : Fin 16), ∃ t : Fin cfg3.N, win3_2.index t = ![q0.val, q1.val] :=
  (by decide +kernel : ∀ (q0 : Fin 4) (q1 : Fin 16), ∃ t : Fin grid3.N, win3_2.index t = ![q0.val, q1.val])

/-- What point t writes back is block t of the Gram matrix of H as the region finds it. -/
theorem flushed3_eq (c : Dev nD) (t : Fin cfg3.N) :
    (dat3 V c).flushed 2 t = ((cfg3.win 2).blk t).view.read (Elt Ideal) (gram (V c main_v106)) := by
  show (cfg3.win 2).cut (grid3.coords t) ((dat3 V c).after 2 t) = _
  rw [after3_2, out3_eq]
  obtain ⟨e0, e1, e2, e3⟩ := idx_facts3 t
  funext j
  show k3_pay1 (F := Ideal) (lblk3 V c t) (rblk3 V c t) ((cfg3.win 2).xinj (grid3.coords t) j)
      = gram (V c main_v106) (((cfg3.win 2).blk t).view.emb j)
  refine pay3_blk (V c main_v106) (lblk3 V c t) (rblk3 V c t) ((cfg3.win 2).xinj (grid3.coords t) j)
    (((cfg3.win 2).blk t).view.emb j) (win3_2.index t (0 : Fin 2)) (win3_0.index t (1 : Fin 2))
    (win3_2.index t (1 : Fin 2)) (win3_1.index t (1 : Fin 2)) e1 e3
    (fun z => ((cfg3.win 0).blk t).view.emb z) (fun z => ((cfg3.win 1).blk t).view.emb z)
    (fun z => rfl) (fun z => rfl) (fun z => ⟨?_, ?_⟩) (fun z => ⟨?_, ?_⟩) ?_ ?_
  · show win3_0.index t (0 : Fin 2) * 2048 + 1 * (z 0).val = _
    rw [e0]
  · show win3_0.index t (1 : Fin 2) * 64 + 1 * (z 1).val = _
    rfl
  · show win3_1.index t (0 : Fin 2) * 512 + 1 * (z 0).val = _
    rw [e2]
  · show win3_1.index t (1 : Fin 2) * 64 + 1 * (z 1).val = _
    rfl
  · show win3_2.index t (0 : Fin 2) * 2048 + 1 * (j 0).val = _
    rfl
  · show win3_2.index t (1 : Fin 2) * 512 + 1 * (j 1).val = _
    rfl

/-- An index of the array is in point t's block iff each coordinate is in the block's range on its axis. -/
theorem mem_blk3 (t : Fin cfg3.N) (i : S8192x8192.Idx) :
    i ∈ ((cfg3.win 2).blk t).view.set ↔ ∀ a : Fin 2, win3_2.index t a * S2048x512.size a ≤ (i a).val ∧ (i a).val < win3_2.index t a * S2048x512.size a + S2048x512.size a := by
  show i ∈ ((View.whole main_v107).slice (win3_2.rect t)).set ↔ _
  rw [View.set_slice_whole, Rect.mem_set_unit]
  exact Iff.rfl

/-- The 64 blocks cover the array: (r, s) is in the block of the point whose block indices are (r / 2048, s / 512). -/
theorem covered3 (i : S8192x8192.Idx) :
    ∃ t : Fin cfg3.N, (cfg3.win 2).flush t = true ∧ i ∈ ((cfg3.win 2).blk t).view.set := by
  have hi0 : (i 0).val < 8192 := (i 0).isLt
  have hi1 : (i 1).val < 8192 := (i 1).isLt
  obtain ⟨t, ht⟩ := idx_onto3 ⟨(i 0).val / 2048, by omega⟩ ⟨(i 1).val / 512, by omega⟩
  have q0 : win3_2.index t (0 : Fin 2) = (i 0).val / 2048 := congrFun ht 0
  have q1 : win3_2.index t (1 : Fin 2) = (i 1).val / 512 := congrFun ht 1
  refine ⟨t, flush3_2 t, ?_⟩
  rw [mem_blk3]
  intro a
  match a with
  | ⟨0, _⟩ => show win3_2.index t (0 : Fin 2) * 2048 ≤ (i 0).val ∧ (i 0).val < win3_2.index t (0 : Fin 2) * 2048 + 2048; omega
  | ⟨1, _⟩ => show win3_2.index t (1 : Fin 2) * 512 ≤ (i 1).val ∧ (i 1).val < win3_2.index t (1 : Fin 2) * 512 + 512; omega

/-- after region 3 its output array is H·Hᵀ: at (r, s) the sum over the 64 features of H(r,k)·H(s,k) -/
theorem arr3 (c : Dev nD) : ((dat3 V c).arrAt 2 cfg3.N : S8192x8192.Idx → EReal) = gram (V c main_v106) :=
  (dat3 V c).arrAt_eq_of_cover 2 (gram (V c main_v106)) (fun t _ => flushed3_eq V c t) covered3

/-- The Gram matrix read at row r and column s. -/
theorem gram_ix2 (H : S8192x64.Idx → EReal) (r s : Fin 8192) :
    gram H (ix2 r s) = ∑ k : Fin 64, H (ix2 r k) * H (ix2 s k) := rfl

/-- the output array read at row r and column s -/
theorem arr3_apply (c : Dev nD) (r s : Fin 8192) :
    ((dat3 V c).arrAt 2 cfg3.N : S8192x8192.Idx → EReal) (ix2 r s) = gram (V c main_v106) (ix2 r s) :=
  congrFun (arr3 V c) (ix2 r s)

end Cert.KernelIdeal.Val

end
-- ==== Proof.BridgeDec.lean ====
import proofs.«414230_j6141803233547_3_alg».proof.Proof.BridgeEnc
import proofs.«414230_j6141803233547_3_alg».proof.Proof.BridgeAtt
import proofs.«414230_j6141803233547_3_alg».proof.Proof.KIRun
import proofs.«414230_j6141803233547_3_alg».proof.Proof.KIVal2
import proofs.«414230_j6141803233547_3_alg».proof.Proof.KIVal3
import proofs.«414230_j6141803233547_3_alg».proof.Proof.KIHost0
import proofs.«414230_j6141803233547_3_alg».proof.Proof.KIHost1
import proofs.«414230_j6141803233547_3_alg».proof.Proof.RefConv
import proofs.«414230_j6141803233547_3_alg».proof.Proof.RefStages
import proofs.«414230_j6141803233547_3_alg».proof.Proof.PreRead
import proofs.«414230_j6141803233547_3_alg».proof.Proof.LibGcn
import proofs.«414230_j6141803233547_3_alg».proof.Proof.LibLayer
import proofs.«414230_j6141803233547_3_alg».proof.Proof.Spec
import Idealize.ShloMosaic.Lib.ValueIdx

/-!
# The decoders and the outer product of the two programs agree

The kernel program runs the two decoder convolutions at once, their weights side by side in one
matrix and their biases end to end, the dense normalised adjacency matrix applied on the left to the
combined features; it then returns the first 64 columns as the reconstruction, and the product of
the last 64 columns with their own transpose.  The reference program runs each decoder by itself,
edge by edge, and contracts the second decoder's output with itself.  Column block by column block
the two agree: the adjacency matrix is the dense form of the reference's own edge weights, the
combined features are the same array, a column of the batched layer is the column of the single
layer it belongs to, and over real-valued data the matrix form of a layer is its edge-by-edge form.
-/

set_option maxRecDepth 16384

noncomputable section

namespace Cert.Proof.Bridge

open Cert.KernelIdeal Cert.KernelIdeal.Gen Cert.KernelIdeal.Hand Cert.KernelIdeal.Val
open Idealize.ShloMosaic Idealize.ShloMosaic.TcCoe Idealize.ShloMosaic.ValueIdx
open Cert.LibGcn
open scoped BigOperators

variable (m : (ℓ : Loc nD τ sig) → Buf (Elt Ideal) ℓ)

/-! ## What the precondition gives: real-valued argument arrays -/

theorem dec_real0 (c : Dev nD) (hpre : Pre m c) : IsReal (x0 m c) := Cert.PreRead.real_arg0 _ _ _ _ _ _ _ _ _ _ _ _ _ _ _ _ _ _ _ _ _ hpre
theorem dec_real3 (c : Dev nD) (hpre : Pre m c) : IsReal (x3 m c) := Cert.PreRead.real_arg3 _ _ _ _ _ _ _ _ _ _ _ _ _ _ _ _ _ _ _ _ _ hpre
theorem dec_real4 (c : Dev nD) (hpre : Pre m c) : IsReal (x4 m c) := Cert.PreRead.real_arg4 _ _ _ _ _ _ _ _ _ _ _ _ _ _ _ _ _ _ _ _ _ hpre
theorem dec_real5 (c : Dev nD) (hpre : Pre m c) : IsReal (x5 m c) := Cert.PreRead.real_arg5 _ _ _ _ _ _ _ _ _ _ _ _ _ _ _ _ _ _ _ _ _ hpre
theorem dec_real6 (c : Dev nD) (hpre : Pre m c) : IsReal (x6 m c) := Cert.PreRead.real_arg6 _ _ _ _ _ _ _ _ _ _ _ _ _ _ _ _ _ _ _ _ _ hpre
theorem dec_real7 (c : Dev nD) (hpre : Pre m c) : IsReal (x7 m c) := Cert.PreRead.real_arg7 _ _ _ _ _ _ _ _ _ _ _ _ _ _ _ _ _ _ _ _ _ hpre
theorem dec_real8 (c : Dev nD) (hpre : Pre m c) : IsReal (x8 m c) := Cert.PreRead.real_arg8 _ _ _ _ _ _ _ _ _ _ _ _ _ _ _ _ _ _ _ _ _ hpre
theorem dec_real9 (c : Dev nD) (hpre : Pre m c) : IsReal (x9 m c) := Cert.PreRead.real_arg9 _ _ _ _ _ _ _ _ _ _ _ _ _ _ _ _ _ _ _ _ _ hpre
theorem dec_real10 (c : Dev nD) (hpre : Pre m c) : IsReal (x10 m c) := Cert.PreRead.real_arg10 _ _ _ _ _ _ _ _ _ _ _ _ _ _ _ _ _ _ _ _ _ hpre
theorem dec_real11 (c : Dev nD) (hpre : Pre m c) : IsReal (x11 m c) := Cert.PreRead.real_arg11 _ _ _ _ _ _ _ _ _ _ _ _ _ _ _ _ _ _ _ _ _ hpre
theorem dec_real12 (c : Dev nD) (hpre : Pre m c) : IsReal (x12 m c) := Cert.PreRead.real_arg12 _ _ _ _ _ _ _ _ _ _ _ _ _ _ _ _ _ _ _ _ _ hpre
theorem dec_real13 (c : Dev nD) (hpre : Pre m c) : IsReal (x13 m c) := Cert.PreRead.real_arg13 _ _ _ _ _ _ _ _ _ _ _ _ _ _ _ _ _ _ _ _ _ hpre
theorem dec_real14 (c : Dev nD) (hpre : Pre m c) : IsReal (x14 m c) := Cert.PreRead.real_arg14 _ _ _ _ _ _ _ _ _ _ _ _ _ _ _ _ _ _ _ _ _ hpre
theorem dec_real15 (c : Dev nD) (hpre : Pre m c) : IsReal (x15 m c) := Cert.PreRead.real_arg15 _ _ _ _ _ _ _ _ _ _ _ _ _ _ _ _ _ _ _ _ _ hpre
theorem dec_real16 (c : Dev nD) (hpre : Pre m c) : IsReal (x16 m c) := Cert.PreRead.real_arg16 _ _ _ _ _ _ _ _ _ _ _ _ _ _ _ _ _ _ _ _ _ hpre
theorem dec_real17 (c : Dev nD) (hpre : Pre m c) : IsReal (x17 m c) := Cert.PreRead.real_arg17 _ _ _ _ _ _ _ _ _ _ _ _ _ _ _ _ _ _ _ _ _ hpre
theorem dec_real19 (c : Dev nD) (hpre : Pre m c) : IsReal (x19 m c) := Cert.PreRead.real_arg19 _ _ _ _ _ _ _ _ _ _ _ _ _ _ _ _ _ _ _ _ _ hpre

/-- the rows of a real-valued matrix, read by coordinates -/
theorem dec_isReal_row {n k : ℕ} {X : (⟨2, ![n, k]⟩ : Shape).Idx → EReal} (h : IsReal X) (u : Fin n) :
    IsReal (fun j : Fin k => X (ix2 u j)) := fun j => h (ix2 u j)

/-! ## The combined features -/

/-- the reference's combined features on device c: what both decoders read -/
abbrev dec_h (c : Dev nD) :=
  Cert.ReferenceIdeal.Read.val_main_v345 (F := Ideal) (x0 m c) (x1 m c) (x2 m c) (x3 m c) (x4 m c) (x5 m c) (x6 m c) (x7 m c) (x8 m c) (x9 m c) (x10 m c) (x11 m c) (x12 m c) (x13 m c) (x14 m c) (x15 m c) (x16 m c)

/-- they are real-valued -/
theorem dec_h_real (c : Dev nD) (hpre : Pre m c) : IsReal (dec_h m c) :=
  Cert.ReferenceIdeal.Hand.isReal_v345 (x0 m c) (x1 m c) (x2 m c) (x3 m c) (x4 m c) (x5 m c) (x6 m c) (x7 m c) (x8 m c) (x9 m c) (x10 m c) (x11 m c) (x12 m c) (x13 m c) (x14 m c) (x15 m c) (x16 m c) (dec_real0 m c hpre) (dec_real3 m c hpre) (dec_real4 m c hpre) (dec_real5 m c hpre) (dec_real6 m c hpre) (dec_real7 m c hpre) (dec_real8 m c hpre) (dec_real9 m c hpre) (dec_real10 m c hpre) (dec_real11 m c hpre) (dec_real12 m c hpre) (dec_real13 m c hpre) (dec_real14 m c hpre) (dec_real15 m c hpre) (dec_real16 m c hpre)

/-! ## Region 2 -/

/-- region 2's output, entry by entry: the layer in matrix form, no activation -/
theorem dec_out_apply (c : Dev nD) (v : Fin 8192) (jj : Fin 128) :
    (outs (F := Ideal) m 18 main_v104 c : S8192x128.Idx → EReal) (ix2 v jj)
      = layerK (fun (v u : Fin 8192) => (Gen.V17 m (outs (F := Ideal) m) c main_v45 : S8192x8192.Idx → EReal) (ix2 v u))
          (fun (u : Fin 8192) (k : Fin 64) => (Gen.V17 m (outs (F := Ideal) m) c main_v101 : S8192x64.Idx → EReal) (ix2 u k))
          (fun (k : Fin 64) (j : Fin 128) => (Gen.V17 m (outs (F := Ideal) m) c main_v102 : S64x128.Idx → EReal) (ix2 k j))
          (fun (j : Fin 128) => (Gen.V17 m (outs (F := Ideal) m) c main_v103 : S1x128.Idx → EReal) (ix2 0 j)) v jj :=
  congrFun ((outs_104 (F := Ideal) m c).trans (arr2 (fun c b => Gen.V17 m (outs (F := Ideal) m) c b) c)) (ix2 v jj)

/-- the adjacency matrix region 2 is entered with is the dense form of the reference's edge data: no operation
after region 0's entry writes it -/
theorem dec_adj (c : Dev nD) (hpre : Pre m c) :
    (fun (v u : Fin 8192) => (Gen.V17 m (outs (F := Ideal) m) c main_v45 : S8192x8192.Idx → EReal) (ix2 v u))
      = adj (Cert.Spec.srcN (Cert.ReferenceIdeal.Hand.words (x1 m c))) (Cert.Spec.dstO (Cert.ReferenceIdeal.Hand.words (x2 m c)))
          (Cert.ReferenceIdeal.Hand.coefE (x1 m c) (x2 m c)) (Cert.ReferenceIdeal.Hand.selfE (x2 m c)) := by
  funext v u
  have e : (Gen.V17 m (outs (F := Ideal) m) c main_v45 : S8192x8192.Idx → EReal) = (Gen.V5 m c main_v45 : S8192x8192.Idx → EReal) :=
    V17_v45 m (outs (F := Ideal) m) c
  exact (congrFun e (ix2 v u)).trans (ahat_adj m c hpre v u)

/-- the features region 2 is entered with are the reference's combined features -/
theorem dec_feat (c : Dev nD) (hpre : Pre m c) :
    (fun (u : Fin 8192) (k : Fin 64) => (Gen.V17 m (outs (F := Ideal) m) c main_v101 : S8192x64.Idx → EReal) (ix2 u k))
      = fun u k => dec_h m c (ix2 u k) := by
  funext u k
  exact congrFun (h_eq m c hpre) (ix2 u k)

/-- a column of region 2's output whose weight column and bias entry are a single decoder's is that decoder's
convolution of the reference: a column of a layer in matrix form reads the weight through that column only, and
over real-valued data the matrix form is the edge-by-edge form -/
theorem dec_col (c : Dev nD) (hpre : Pre m c) (v : Fin 8192) (jj : Fin 128) (j : Fin 64)
    (W' : FVec Ideal S64x64 .f32) (b' : FVec Ideal S64 .f32)
    (hW : ∀ k : Fin 64, (Gen.V17 m (outs (F := Ideal) m) c main_v102 : S64x128.Idx → EReal) (ix2 k jj) = W' (ix2 k j))
    (hb : (Gen.V17 m (outs (F := Ideal) m) c main_v103 : S1x128.Idx → EReal) (ix2 0 jj) = b' (ix1 j))
    (hW' : IsReal W') :
    (outs (F := Ideal) m 18 main_v104 c : S8192x128.Idx → EReal) (ix2 v jj)
      = Cert.ReferenceIdeal.Hand.conv (dec_h m c) W' b' (x1 m c) (x2 m c) (ix2 v j) := by
  rw [dec_out_apply m c v jj, dec_adj m c hpre, dec_feat m c hpre, Cert.ReferenceIdeal.Hand.conv_apply]
  refine (layerK_congr_col _ _ _ _ (fun (k : Fin 64) (j : Fin 64) => W' (ix2 k j)) (fun (j : Fin 64) => b' (ix1 j)) jj j hW hb v).trans ?_
  exact layerK_eq_layerR _ _ (fun (j : Fin 64) => b' (ix1 j)) (Cert.ReferenceIdeal.Hand.isReal_coefE _ _) (Cert.ReferenceIdeal.Hand.isReal_selfE _)
    (fun u => dec_isReal_row (dec_h_real m c hpre) u) (fun k => dec_isReal_row hW' k) v j

/-! the decoders' weight and bias, column block by column block -/

theorem dec_w_x (c : Dev nD) (k j : Fin 64) (jj : Fin 128) (hjj : jj.val = j.val) :
    (Gen.V17 m (outs (F := Ideal) m) c main_v102 : S64x128.Idx → EReal) (ix2 k jj) = x17 m c (ix2 k j) := by
  have e : ∀ h : jj.val < 64, (⟨jj.val, h⟩ : Fin 64) = j := fun h => Fin.ext (by show jj.val = j.val; omega)
  rw [V17_v102 m (outs (F := Ideal) m) c k jj, dif_pos (by omega)]
  exact congrArg (fun t => x17 m c (ix2 k t)) (e _)
theorem dec_w_s (c : Dev nD) (k j : Fin 64) (jj : Fin 128) (hjj : jj.val = j.val + 64) :
    (Gen.V17 m (outs (F := Ideal) m) c main_v102 : S64x128.Idx → EReal) (ix2 k jj) = x19 m c (ix2 k j) := by
  have e : ∀ h : jj.val - 64 < 64, (⟨jj.val - 64, h⟩ : Fin 64) = j := fun h => Fin.ext (by show jj.val - 64 = j.val; omega)
  rw [V17_v102 m (outs (F := Ideal) m) c k jj, dif_neg (by omega)]
  exact congrArg (fun t => x19 m c (ix2 k t)) (e _)
theorem dec_b_x (c : Dev nD) (j : Fin 64) (jj : Fin 128) (hjj : jj.val = j.val) :
    (Gen.V17 m (outs (F := Ideal) m) c main_v103 : S1x128.Idx → EReal) (ix2 0 jj) = x18 m c (ix1 j) := by
  have e : ∀ h : jj.val < 64, (⟨jj.val, h⟩ : Fin 64) = j := fun h => Fin.ext (by show jj.val = j.val; omega)
  rw [V17_v103 m (outs (F := Ideal) m) c jj, dif_pos (by omega)]
  exact congrArg (fun t => x18 m c (ix1 t)) (e _)
theorem dec_b_s (c : Dev nD) (j : Fin 64) (jj : Fin 128) (hjj : jj.val = j.val + 64) :
    (Gen.V17 m (outs (F := Ideal) m) c main_v103 : S1x128.Idx → EReal) (ix2 0 jj) = x20 m c (ix1 j) := by
  have e : ∀ h : jj.val - 64 < 64, (⟨jj.val - 64, h⟩ : Fin 64) = j := fun h => Fin.ext (by show jj.val - 64 = j.val; omega)
  rw [V17_v103 m (outs (F := Ideal) m) c jj, dif_neg (by omega)]
  exact congrArg (fun t => x20 m c (ix1 t)) (e _)

/-- region 2's output is the two decoder convolutions side by side: columns 0 … 63 the reconstruction -/
theorem agg3_x (c : Dev nD) (hpre : Pre m c) (v : Fin 8192) (j : Fin 64) :
    (outs (F := Ideal) m 18 main_v104 c : S8192x128.Idx → EReal) (ix2 v ⟨j.val, by omega⟩)
      = Cert.ReferenceIdeal.Read.val_main_v397 (F := Ideal) (x0 m c) (x1 m c) (x2 m c) (x3 m c) (x4 m c) (x5 m c) (x6 m c) (x7 m c) (x8 m c) (x9 m c) (x10 m c) (x11 m c) (x12 m c) (x13 m c) (x14 m c) (x15 m c) (x16 m c) (x17 m c) (x18 m c) (ix2 v j) :=
  (dec_col m c hpre v ⟨j.val, by omega⟩ j (x17 m c) (x18 m c) (fun k => dec_w_x m c k j _ rfl) (dec_b_x m c j _ rfl)
    (dec_real17 m c hpre)).trans
    (congrFun (Cert.ReferenceIdeal.Hand.st_v397 (x0 m c) (x1 m c) (x2 m c) (x3 m c) (x4 m c) (x5 m c) (x6 m c) (x7 m c) (x8 m c) (x9 m c) (x10 m c) (x11 m c) (x12 m c) (x13 m c) (x14 m c) (x15 m c) (x16 m c) (x17 m c) (x18 m c)).symm (ix2 v j))

/-- columns 64 … 127 the structure features -/
theorem agg3_s (c : Dev nD) (hpre : Pre m c) (v : Fin 8192) (j : Fin 64) :
    (outs (F := Ideal) m 18 main_v104 c : S8192x128.Idx → EReal) (ix2 v ⟨j.val + 64, by omega⟩)
      = Cert.ReferenceIdeal.Read.val_main_v449 (F := Ideal) (x0 m c) (x1 m c) (x2 m c) (x3 m c) (x4 m c) (x5 m c) (x6 m c) (x7 m c) (x8 m c) (x9 m c) (x10 m c) (x11 m c) (x12 m c) (x13 m c) (x14 m c) (x15 m c) (x16 m c) (x19 m c) (x20 m c) (ix2 v j) :=
  (dec_col m c hpre v ⟨j.val + 64, by omega⟩ j (x19 m c) (x20 m c) (fun k => dec_w_s m c k j _ rfl) (dec_b_s m c j _ rfl)
    (dec_real19 m c hpre)).trans
    (congrFun (Cert.ReferenceIdeal.Hand.st_v449 (x0 m c) (x1 m c) (x2 m c) (x3 m c) (x4 m c) (x5 m c) (x6 m c) (x7 m c) (x8 m c) (x9 m c) (x10 m c) (x11 m c) (x12 m c) (x13 m c) (x14 m c) (x15 m c) (x16 m c) (x19 m c) (x20 m c)).symm (ix2 v j))

/-! ## The results -/

/-- RESULT 0: the reconstruction, the first 64 columns of region 2's output -/
theorem res_x (c : Dev nD) (hpre : Pre m c) :
    (Vfin (F := Ideal) m c main_v105 : S8192x64.Idx → EReal)
      = Cert.ReferenceIdeal.Read.val_main_v397 (F := Ideal) (x0 m c) (x1 m c) (x2 m c) (x3 m c) (x4 m c) (x5 m c) (x6 m c) (x7 m c) (x8 m c) (x9 m c) (x10 m c) (x11 m c) (x12 m c) (x13 m c) (x14 m c) (x15 m c) (x16 m c) (x17 m c) (x18 m c) := by
  funext i
  obtain ⟨v, j, rfl⟩ : ∃ (v : Fin 8192) (j : Fin 64), i = ix2 v j := ⟨i 0, i 1, eq_ix2 i⟩
  exact (V20_v105 m (outs (F := Ideal) m) c v j).trans (agg3_x m c hpre v j)

/-- the rows region 3 multiplies are the structure features: the last 64 columns of region 2's output -/
theorem dec_rows3 (c : Dev nD) (hpre : Pre m c) (v : Fin 8192) (k : Fin 64) :
    (Gen.V19 m (outs (F := Ideal) m) c main_v106 : S8192x64.Idx → EReal) (ix2 v k)
      = Cert.ReferenceIdeal.Read.val_main_v449 (F := Ideal) (x0 m c) (x1 m c) (x2 m c) (x3 m c) (x4 m c) (x5 m c) (x6 m c) (x7 m c) (x8 m c) (x9 m c) (x10 m c) (x11 m c) (x12 m c) (x13 m c) (x14 m c) (x15 m c) (x16 m c) (x19 m c) (x20 m c) (ix2 v k) :=
  (V19_v106 m (outs (F := Ideal) m) c v k).trans (agg3_s m c hpre v k)

/-- the Gram matrix of an array whose rows are, entry by entry, those of another is the other's sums of products -/
theorem dec_gram_congr (H G : S8192x64.Idx → EReal) (h : ∀ (v : Fin 8192) (k : Fin 64), H (ix2 v k) = G (ix2 v k))
    (v s : Fin 8192) : gram H (ix2 v s) = ∑ k : Fin 64, G (ix2 v k) * G (ix2 s k) := by
  rw [gram_ix2]
  exact Finset.sum_congr rfl fun k _ => by rw [h v k, h s k]

/-- RESULT 1: the structure features times their own transpose, entry (v, s) the sum over the 64 features of
the products of rows v and s -/
theorem res_s (c : Dev nD) (hpre : Pre m c) :
    (Vfin (F := Ideal) m c main_v107 : S8192x8192.Idx → EReal)
      = Cert.ReferenceIdeal.Read.val_main_v451 (F := Ideal) (x0 m c) (x1 m c) (x2 m c) (x3 m c) (x4 m c) (x5 m c) (x6 m c) (x7 m c) (x8 m c) (x9 m c) (x10 m c) (x11 m c) (x12 m c) (x13 m c) (x14 m c) (x15 m c) (x16 m c) (x19 m c) (x20 m c) := by
  funext i
  obtain ⟨v, s, rfl⟩ : ∃ (v s : Fin 8192), i = ix2 v s := ⟨i 0, i 1, eq_ix2 i⟩
  have e : (Vfin (F := Ideal) m c main_v107 : S8192x8192.Idx → EReal)
      = ((dat3 (fun c b => Gen.V19 m (outs (F := Ideal) m) c b) c).arrAt 2 cfg3.N : S8192x8192.Idx → EReal) :=
    (V20_v107 m (outs (F := Ideal) m) c).trans (outs_107 (F := Ideal) m c)
  refine (congrFun e (ix2 v s)).trans ?_
  refine (arr3_apply (fun c b => Gen.V19 m (outs (F := Ideal) m) c b) c v s).trans ?_
  refine (dec_gram_congr _ (Cert.ReferenceIdeal.Read.val_main_v449 (F := Ideal) (x0 m c) (x1 m c) (x2 m c) (x3 m c) (x4 m c) (x5 m c) (x6 m c) (x7 m c) (x8 m c) (x9 m c) (x10 m c) (x11 m c) (x12 m c) (x13 m c) (x14 m c) (x15 m c) (x16 m c) (x19 m c) (x20 m c))
    (fun v k => dec_rows3 m c hpre v k) v s).trans ?_
  exact (Cert.ReferenceIdeal.Hand.v451_apply (x0 m c) (x1 m c) (x2 m c) (x3 m c) (x4 m c) (x5 m c) (x6 m c) (x7 m c) (x8 m c) (x9 m c) (x10 m c) (x11 m c) (x12 m c) (x13 m c) (x14 m c) (x15 m c) (x16 m c) (x19 m c) (x20 m c) v s).symm

end Cert.Proof.Bridge

end
-- ==== Proof.Final.lean ====
/-
  The value claim assembled. From memories that agree on the twenty-one argument arrays, under the precondition (every
  float argument finite, every source index in the node range), the idealized kernel program and the idealized
  reference both run to the end with their arguments unchanged and with equal results: the reconstruction x_ (a graph
  convolution of the combined features), the structure matrix h_·h_ᵀ, and the attention weights.

  The kernel side is its run through four kernel regions (every unscoped buffer ends at the last boundary's contents),
  the reference side the read-back of its straight-line host program, stretch by stretch, onto its operations' stage functions; the three result equalities are the bridge's: the
  dense normalised adjacency times the features is the edge-by-edge aggregation (where every source index names a node),
  (A·X)·W = A·(X·W) for real-valued data, the batched and block-diagonal weights select each encoder's own columns, the
  attention and the combination are one chain of operations on both sides, and the accumulation over the four column
  blocks of the adjacency is the whole contraction.
-/
import proofs.«414230_j6141803233547_3_alg».proof.Defs
import proofs.«414230_j6141803233547_3_alg».proof.Proof.KIRun
import proofs.«414230_j6141803233547_3_alg».proof.Proof.RefRunH
import proofs.«414230_j6141803233547_3_alg».proof.Proof.BridgeAtt
import proofs.«414230_j6141803233547_3_alg».proof.Proof.BridgeDec
import proofs.«414230_j6141803233547_3_alg».proof.Proof.PreRead

noncomputable section

open Idealize.ShloMosaic Idealize.ShloMosaic.TcCoe Idealize.SL.Sem

namespace Cert.Proof.Final

open Cert.Proof.Bridge

/-- Both idealized programs run, leave their arguments unchanged, and end with the same three results. -/
theorem algebraic : Cert.algebraic_KernelIdeal_ReferenceIdeal := by
  intro m ρ m' ρ' hpre hagree
  have hP : ∀ c, Pre m c := fun c => hpre c
  refine ⟨fun c => Cert.KernelIdeal.Hand.Vfin m c Cert.KernelIdeal.main_v105,
    fun c => Cert.KernelIdeal.Hand.Vfin m c Cert.KernelIdeal.main_v107,
    fun c => Cert.KernelIdeal.Hand.Vfin m c Cert.KernelIdeal.main_v85,
    Cert.KernelIdeal.Hand.run_res (F := Ideal) m ρ, ?_⟩
  refine (θ_run Cert.ReferenceIdeal.defs _ _).mono (fun r h c => ?_) (Cert.ReferenceIdeal.Hand.run m' ρ')
  obtain ⟨h0, h1, h2, hargs⟩ := h c
  obtain ⟨a0, a1, a2, a3, a4, a5, a6, a7, a8, a9, a10, a11, a12, a13, a14, a15, a16, a17, a18, a19, a20⟩ := hagree c
  refine ⟨h0.trans ?_, h1.trans ?_, h2.trans ?_, hargs⟩
  · rw [a0, a1, a2, a3, a4, a5, a6, a7, a8, a9, a10, a11, a12, a13, a14, a15, a16, a17, a18]
    exact (res_x m c (hP c)).symm
  · rw [a0, a1, a2, a3, a4, a5, a6, a7, a8, a9, a10, a11, a12, a13, a14, a15, a16, a19, a20]
    exact (res_s m c (hP c)).symm
  · rw [a0, a1, a2, a3, a4, a5, a6, a7, a8, a9, a10, a11, a12, a13, a14, a15, a16]
    exact (res_att m c (hP c)).symm

end Cert.Proof.Final

end
-- ==== Proof.lean ====
/-
  A graph autoencoder on 8192 nodes and 262144 edges: three two-layer graph-convolution encoders over one
  symmetric-normalised adjacency with self loops, an attention over the three encodings, two graph-convolution
  decoder heads and the outer product of the structure head with itself. The kernel program densifies the adjacency
  once (one scatter-add of the edge weights and the self-loop weights into an 8192 × 8192 matrix) and runs every
  convolution as (A·X)·W + b on the matrix unit, the three encoders batched along the columns and, in the second layer,
  along the diagonal blocks of one weight matrix; the reference gathers the rows of X·W by the edges' sources, weights
  them and scatter-adds them by the destinations.

  The five claims:
  * each program runs to the end, faults nowhere and leaves its twenty-one arguments unchanged: the kernel program's
    run through its four kernel regions (the accumulation over the four column blocks of the adjacency carried in a
    scratch buffer from grid point to grid point; the outer product's two input windows sharing one array at half
    shares), at the word level and at the exact reals alike, and the reference's straight line of host operations read
    back stretch by stretch;
  * the idealized kernel is the kernel's sanctioned idealization (no rewrite was applied);
  * under the precondition — every float argument finite and every source index naming a node — the two idealized
    programs end with equal results: A·h is the edge-by-edge aggregation plus the self-loop term when every source is
    in range (an out-of-range source is clamped by the reference's gather and dropped by the kernel's scatter: hence the
    precondition), (A·X)·W = A·(X·W) for real-valued data, a batched or block-diagonal weight selects each encoder's own
    columns, the attention and the combination are one chain of operations on both sides, and the blocked accumulation
    is the whole contraction.
-/
import proofs.«414230_j6141803233547_3_alg».proof.Defs
import proofs.«414230_j6141803233547_3_alg».proof.Proof.Gen.Kernel
import proofs.«414230_j6141803233547_3_alg».proof.Proof.Gen.KernelIdeal
import proofs.«414230_j6141803233547_3_alg».proof.Proof.Gen.ReferenceIdeal
import proofs.«414230_j6141803233547_3_alg».proof.Proof.Gen.Pre_finite_inputs
import proofs.«414230_j6141803233547_3_alg».proof.Proof.KRun
import proofs.«414230_j6141803233547_3_alg».proof.Proof.KIRun
import proofs.«414230_j6141803233547_3_alg».proof.Proof.RefRunH
import proofs.«414230_j6141803233547_3_alg».proof.Proof.Final

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    Cert.ReferenceIdeal.Hand.frame_ri,
    trivial,
    Cert.Proof.Final.algebraic⟩

end Cert.Proof

end
